-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v538) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x2 : Shape := ⟨2, ![160000, 2]⟩
abbrev S2x2560000 : Shape := ⟨2, ![2, 2560000]⟩
abbrev S160000 : Shape := ⟨1, ![160000]⟩
abbrev S16000 : Shape := ⟨1, ![16000]⟩
abbrev S1600 : Shape := ⟨1, ![1600]⟩
abbrev S5x50x32 : Shape := ⟨3, ![5, 50, 32]⟩
abbrev S5x64x32 : Shape := ⟨3, ![5, 64, 32]⟩
abbrev S5x32 : Shape := ⟨2, ![5, 32]⟩
abbrev S5x32x32 : Shape := ⟨3, ![5, 32, 32]⟩
abbrev S5x32x96 : Shape := ⟨3, ![5, 32, 96]⟩
abbrev S5x96 : Shape := ⟨2, ![5, 96]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S5x50x32 : S_.BroadcastsInDim S5x50x32 (![] : Fin 0 → Fin S5x50x32.rank)
  reducesTo_S5x50x32_S_d0_1_2 : S5x50x32.ReducesTo [0, 1, 2] S_
  h_S_ : 0 < S_.numel
  bcast_S_S5x64x32 : S_.BroadcastsInDim S5x64x32 (![] : Fin 0 → Fin S5x64x32.rank)
  reducesTo_S5x64x32_S_d0_1_2 : S5x64x32.ReducesTo [0, 1, 2] S_
  bcast_S_S5x32 : S_.BroadcastsInDim S5x32 (![] : Fin 0 → Fin S5x32.rank)
  reducesTo_S5x32_S_d0_1 : S5x32.ReducesTo [0, 1] S_
  bcast_S_S5x32x32 : S_.BroadcastsInDim S5x32x32 (![] : Fin 0 → Fin S5x32x32.rank)
  reducesTo_S5x32x32_S_d0_1_2 : S5x32x32.ReducesTo [0, 1, 2] S_
  bcast_S_S5x32x96 : S_.BroadcastsInDim S5x32x96 (![] : Fin 0 → Fin S5x32x96.rank)
  reducesTo_S5x32x96_S_d0_1_2 : S5x32x96.ReducesTo [0, 1, 2] S_
  bcast_S_S5x96 : S_.BroadcastsInDim S5x96 (![] : Fin 0 → Fin S5x96.rank)
  reducesTo_S5x96_S_d0_1 : S5x96.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S160000x2 : S_.BroadcastsInDim S160000x2 (![] : Fin 0 → Fin S160000x2.rank)
  reducesTo_S160000x2_S_d0_1 : S160000x2.ReducesTo [0, 1] S_

variable [Facts]

def fn_part6 {F : FTy → Type} [FloatOps F] (main_arg0 : IVec S160000x2 32) (main_arg26 : FVec F S16 .f32) (main_v98 : IVec S_ 1) (main_v101 : IVec S16x16 1) (main_c_39 : IVec S_ 1) : IVec S_ 1 :=
  let main_v102 : IVec S_ 1 := (fun x v => Host.reduce IntOp.andi x v reducesTo_S16x16_S_d0_1 h_S_) main_v101 main_c_39
  let main_v103 : IVec S_ 1 := andi main_v98 main_v102
  let main_v104 : FVec F S16 .f32 := Host.absf main_arg26
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_c_42 : IVec S_ 32 := constantI S_ 32 0#32
  let main_v109 : IVec S160000x2 32 := broadcastInDim S160000x2 ![] bcast_S_S160000x2 main_c_42
  let main_v110 : IVec S160000x2 1 := cmpi .sge main_arg0 main_v109
  let main_c_43 : IVec S_ 1 := constantI S_ 1 1#1
  let main_v111 : IVec S_ 1 := (fun x v => Host.reduce IntOp.andi x v reducesTo_S160000x2_S_d0_1 h_S_) main_v110 main_c_43
  let main_v112 : IVec S_ 1 := andi main_v108 main_v111
  let main_c_44 : IVec S_ 32 := constantI S_ 32 50#32
  let main_v113 : IVec S160000x2 32 := broadcastInDim S160000x2 ![] bcast_S_S160000x2 main_c_44
  let main_v114 : IVec S160000x2 1 := cmpi .slt main_arg0 main_v113
  let main_c_45 : IVec S_ 1 := constantI S_ 1 1#1
  let main_v115 : IVec S_ 1 := (fun x v => Host.reduce IntOp.andi x v reducesTo_S160000x2_S_d0_1 h_S_) main_v114 main_c_45
  let main_v116 : IVec S_ 1 := andi main_v112 main_v115
  main_v116

def fn_part5 {F : FTy → Type} [FloatOps F] (main_arg0 : IVec S160000x2 32) (main_arg23 : FVec F S32x16 .f32) (main_arg24 : FVec F S16 .f32) (main_arg25 : FVec F S16x16 .f32) (main_arg26 : FVec F S16 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x16 .f32 := Host.absf main_arg23
  let main_cst_34 : FVec F S_ .f32 := constant S_ .f32 0x7F800000#32
  let main_v90 : FVec F S32x16 .f32 := broadcastInDim S32x16 ![] bcast_S_S32x16 main_cst_34
  let main_v91 : IVec S32x16 1 := cmpf .olt main_v89 main_v90
  let main_c_35 : IVec S_ 1 := constantI S_ 1 1#1
  let main_v92 : IVec S_ 1 := (fun x v => Host.reduce IntOp.andi x v reducesTo_S32x16_S_d0_1 h_S_) main_v91 main_c_35
  let main_v93 : IVec S_ 1 := andi main_v88 main_v92
  let main_v94 : FVec F S16 .f32 := Host.absf main_arg24
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x16 .f32 := Host.absf main_arg25
  let main_cst_38 : FVec F S_ .f32 := constant S_ .f32 0x7F800000#32
  let main_v100 : FVec F S16x16 .f32 := broadcastInDim S16x16 ![] bcast_S_S16x16 main_cst_38
  let main_v101 : IVec S16x16 1 := cmpf .olt main_v99 main_v100
  let main_c_39 : IVec S_ 1 := constantI S_ 1 1#1
  fn_part6 (F := F) main_arg0 main_arg26 main_v98 main_v101 main_c_39

def fn_part4 {F : FTy → Type} [FloatOps F] (main_arg0 : IVec S160000x2 32) (main_arg19 : FVec F S32x32 .f32) (main_arg20 : FVec F S32 .f32) (main_arg21 : FVec F S32x32 .f32) (main_arg22 : FVec F S32 .f32) (main_arg23 : FVec F S32x16 .f32) (main_arg24 : FVec F S16 .f32) (main_arg25 : FVec F S16x16 .f32) (main_arg26 : FVec F S16 .f32) (main_v63 : IVec S_ 1) (main_v67 : IVec S_ 1) : IVec S_ 1 :=
  let main_v68 : IVec S_ 1 := andi main_v63 main_v67
  let main_v69 : FVec F S32x32 .f32 := Host.absf main_arg19
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg20
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg21
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg22
  let main_cst_32 : FVec F S_ .f32 := constant S_ .f32 0x7F800000#32
  fn_part5 (F := F) main_arg0 main_arg23 main_arg24 main_arg25 main_arg26 main_v83 main_v84 main_cst_32

def fn_part3 {F : FTy → Type} [FloatOps F] (main_arg0 : IVec S160000x2 32) (main_arg16 : FVec F S32 .f32) (main_arg17 : FVec F S32x32 .f32) (main_arg18 : FVec F S32 .f32) (main_arg19 : FVec F S32x32 .f32) (main_arg20 : FVec F S32 .f32) (main_arg21 : FVec F S32x32 .f32) (main_arg22 : FVec F S32 .f32) (main_arg23 : FVec F S32x16 .f32) (main_arg24 : FVec F S16 .f32) (main_arg25 : FVec F S16x16 .f32) (main_arg26 : FVec F S16 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg16
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg17
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg18
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg0 main_arg19 main_arg20 main_arg21 main_arg22 main_arg23 main_arg24 main_arg25 main_arg26 main_v63 main_v67

def fn_part2 {F : FTy → Type} [FloatOps F] (main_arg0 : IVec S160000x2 32) (main_arg12 : FVec F S5x96 .f32) (main_arg13 : FVec F S5x32 .f32) (main_arg14 : FVec F S5x32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32x32 .f32) (main_arg22 : FVec F S32 .f32) (main_arg23 : FVec F S32x16 .f32) (main_arg24 : FVec F S16 .f32) (main_arg25 : FVec F S16x16 .f32) (main_arg26 : FVec F S16 .f32) (main_v33 : IVec S_ 1) : IVec S_ 1 :=
  let main_v34 : FVec F S5x96 .f32 := Host.absf main_arg12
  let main_cst_12 : FVec F S_ .f32 := constant S_ .f32 0x7F800000#32
  let main_v35 : FVec F S5x96 .f32 := broadcastInDim S5x96 ![] bcast_S_S5x96 main_cst_12
  let main_v36 : IVec S5x96 1 := cmpf .olt main_v34 main_v35
  let main_c_13 : IVec S_ 1 := constantI S_ 1 1#1
  let main_v37 : IVec S_ 1 := (fun x v => Host.reduce IntOp.andi x v reducesTo_S5x96_S_d0_1 h_S_) main_v36 main_c_13
  let main_v38 : IVec S_ 1 := andi main_v33 main_v37
  let main_v39 : FVec F S5x32 .f32 := Host.absf main_arg13
  let main_cst_14 : FVec F S_ .f32 := constant S_ .f32 0x7F800000#32
  let main_v40 : FVec F S5x32 .f32 := broadcastInDim S5x32 ![] bcast_S_S5x32 main_cst_14
  let main_v41 : IVec S5x32 1 := cmpf .olt main_v39 main_v40
  let main_c_15 : IVec S_ 1 := constantI S_ 1 1#1
  let main_v42 : IVec S_ 1 := (fun x v => Host.reduce IntOp.andi x v reducesTo_S5x32_S_d0_1 h_S_) main_v41 main_c_15
  let main_v43 : IVec S_ 1 := andi main_v38 main_v42
  let main_v44 : FVec F S5x32 .f32 := Host.absf main_arg14
  let main_cst_16 : FVec F S_ .f32 := constant S_ .f32 0x7F800000#32
  let main_v45 : FVec F S5x32 .f32 := broadcastInDim S5x32 ![] bcast_S_S5x32 main_cst_16
  let main_v46 : IVec S5x32 1 := cmpf .olt main_v44 main_v45
  let main_c_17 : IVec S_ 1 := constantI S_ 1 1#1
  let main_v47 : IVec S_ 1 := (fun x v => Host.reduce IntOp.andi x v reducesTo_S5x32_S_d0_1 h_S_) main_v46 main_c_17
  let main_v48 : IVec S_ 1 := andi main_v43 main_v47
  let main_v49 : FVec F S32x32 .f32 := Host.absf main_arg15
  let main_cst_18 : FVec F S_ .f32 := constant S_ .f32 0x7F800000#32
  let main_v50 : FVec F S32x32 .f32 := broadcastInDim S32x32 ![] bcast_S_S32x32 main_cst_18
  fn_part3 (F := F) main_arg0 main_arg16 main_arg17 main_arg18 main_arg19 main_arg20 main_arg21 main_arg22 main_arg23 main_arg24 main_arg25 main_arg26 main_v48 main_v49 main_v50

def fn_part1 {F : FTy → Type} [FloatOps F] (main_arg0 : IVec S160000x2 32) (main_arg9 : FVec F S5x32x96 .f32) (main_arg10 : FVec F S5x32x96 .f32) (main_arg11 : FVec F S5x96 .f32) (main_arg12 : FVec F S5x96 .f32) (main_arg13 : FVec F S5x32 .f32) (main_arg14 : FVec F S5x32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32x32 .f32) (main_arg22 : FVec F S32 .f32) (main_arg23 : FVec F S32x16 .f32) (main_arg24 : FVec F S16 .f32) (main_arg25 : FVec F S16x16 .f32) (main_arg26 : FVec F S16 .f32) (main_v13 : IVec S_ 1) (main_v16 : IVec S5x32x32 1) : IVec S_ 1 :=
  let main_c_5 : IVec S_ 1 := constantI S_ 1 1#1
  let main_v17 : IVec S_ 1 := (fun x v => Host.reduce IntOp.andi x v reducesTo_S5x32x32_S_d0_1_2 h_S_) main_v16 main_c_5
  let main_v18 : IVec S_ 1 := andi main_v13 main_v17
  let main_v19 : FVec F S5x32x96 .f32 := Host.absf main_arg9
  let main_cst_6 : FVec F S_ .f32 := constant S_ .f32 0x7F800000#32
  let main_v20 : FVec F S5x32x96 .f32 := broadcastInDim S5x32x96 ![] bcast_S_S5x32x96 main_cst_6
  let main_v21 : IVec S5x32x96 1 := cmpf .olt main_v19 main_v20
  let main_c_7 : IVec S_ 1 := constantI S_ 1 1#1
  let main_v22 : IVec S_ 1 := (fun x v => Host.reduce IntOp.andi x v reducesTo_S5x32x96_S_d0_1_2 h_S_) main_v21 main_c_7
  let main_v23 : IVec S_ 1 := andi main_v18 main_v22
  let main_v24 : FVec F S5x32x96 .f32 := Host.absf main_arg10
  let main_cst_8 : FVec F S_ .f32 := constant S_ .f32 0x7F800000#32
  let main_v25 : FVec F S5x32x96 .f32 := broadcastInDim S5x32x96 ![] bcast_S_S5x32x96 main_cst_8
  let main_v26 : IVec S5x32x96 1 := cmpf .olt main_v24 main_v25
  let main_c_9 : IVec S_ 1 := constantI S_ 1 1#1
  let main_v27 : IVec S_ 1 := (fun x v => Host.reduce IntOp.andi x v reducesTo_S5x32x96_S_d0_1_2 h_S_) main_v26 main_c_9
  let main_v28 : IVec S_ 1 := andi main_v23 main_v27
  let main_v29 : FVec F S5x96 .f32 := Host.absf main_arg11
  let main_cst_10 : FVec F S_ .f32 := constant S_ .f32 0x7F800000#32
  let main_v30 : FVec F S5x96 .f32 := broadcastInDim S5x96 ![] bcast_S_S5x96 main_cst_10
  let main_v31 : IVec S5x96 1 := cmpf .olt main_v29 main_v30
  let main_c_11 : IVec S_ 1 := constantI S_ 1 1#1
  let main_v32 : IVec S_ 1 := (fun x v => Host.reduce IntOp.andi x v reducesTo_S5x96_S_d0_1 h_S_) main_v31 main_c_11
  let main_v33 : IVec S_ 1 := andi main_v28 main_v32
  fn_part2 (F := F) main_arg0 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S160000x2 32) (main_arg1 : IVec S2x2560000 32) (main_arg2 : IVec S160000 32) (main_arg3 : IVec S16000 32) (main_arg4 : IVec S1600 32) (main_arg5 : FVec F S5x50x32 .f32) (main_arg6 : FVec F S5x64x32 .f32) (main_arg7 : FVec F S5x32 .f32) (main_arg8 : FVec F S5x32x32 .f32) (main_arg9 : FVec F S5x32x96 .f32) (main_arg10 : FVec F S5x32x96 .f32) (main_arg11 : FVec F S5x96 .f32) (main_arg12 : FVec F S5x96 .f32) (main_arg13 : FVec F S5x32 .f32) (main_arg14 : FVec F S5x32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32x32 .f32) (main_arg22 : FVec F S32 .f32) (main_arg23 : FVec F S32x16 .f32) (main_arg24 : FVec F S16 .f32) (main_arg25 : FVec F S16x16 .f32) (main_arg26 : FVec F S16 .f32) : IVec S_ 1 :=
  let main_v0 : FVec F S5x50x32 .f32 := Host.absf main_arg5
  let main_cst : FVec F S_ .f32 := constant S_ .f32 0x7F800000#32
  let main_v1 : FVec F S5x50x32 .f32 := broadcastInDim S5x50x32 ![] bcast_S_S5x50x32 main_cst
  let main_v2 : IVec S5x50x32 1 := cmpf .olt main_v0 main_v1
  let main_c : IVec S_ 1 := constantI S_ 1 1#1
  let main_v3 : IVec S_ 1 := (fun x v => Host.reduce IntOp.andi x v reducesTo_S5x50x32_S_d0_1_2 h_S_) main_v2 main_c
  let main_v4 : FVec F S5x64x32 .f32 := Host.absf main_arg6
  let main_cst_0 : FVec F S_ .f32 := constant S_ .f32 0x7F800000#32
  let main_v5 : FVec F S5x64x32 .f32 := broadcastInDim S5x64x32 ![] bcast_S_S5x64x32 main_cst_0
  let main_v6 : IVec S5x64x32 1 := cmpf .olt main_v4 main_v5
  let main_c_1 : IVec S_ 1 := constantI S_ 1 1#1
  let main_v7 : IVec S_ 1 := (fun x v => Host.reduce IntOp.andi x v reducesTo_S5x64x32_S_d0_1_2 h_S_) main_v6 main_c_1
  let main_v8 : IVec S_ 1 := andi main_v3 main_v7
  let main_v9 : FVec F S5x32 .f32 := Host.absf main_arg7
  let main_cst_2 : FVec F S_ .f32 := constant S_ .f32 0x7F800000#32
  let main_v10 : FVec F S5x32 .f32 := broadcastInDim S5x32 ![] bcast_S_S5x32 main_cst_2
  let main_v11 : IVec S5x32 1 := cmpf .olt main_v9 main_v10
  let main_c_3 : IVec S_ 1 := constantI S_ 1 1#1
  let main_v12 : IVec S_ 1 := (fun x v => Host.reduce IntOp.andi x v reducesTo_S5x32_S_d0_1 h_S_) main_v11 main_c_3
  let main_v13 : IVec S_ 1 := andi main_v8 main_v12
  let main_v14 : FVec F S5x32x32 .f32 := Host.absf main_arg8
  let main_cst_4 : FVec F S_ .f32 := constant S_ .f32 0x7F800000#32
  let main_v15 : FVec F S5x32x32 .f32 := broadcastInDim S5x32x32 ![] bcast_S_S5x32x32 main_cst_4
  let main_v16 : IVec S5x32x32 1 := cmpf .olt main_v14 main_v15
  fn_part1 (F := F) main_arg0 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S160000x2 : Shape := ⟨2, ![160000, 2]⟩
abbrev S2x2560000 : Shape := ⟨2, ![2, 2560000]⟩
abbrev S160000 : Shape := ⟨1, ![160000]⟩
abbrev S16000 : Shape := ⟨1, ![16000]⟩
abbrev S1600 : Shape := ⟨1, ![1600]⟩
abbrev S5x50x32 : Shape := ⟨3, ![5, 50, 32]⟩
abbrev S5x64x32 : Shape := ⟨3, ![5, 64, 32]⟩
abbrev S5x32 : Shape := ⟨2, ![5, 32]⟩
abbrev S5x32x32 : Shape := ⟨3, ![5, 32, 32]⟩
abbrev S5x32x96 : Shape := ⟨3, ![5, 32, 96]⟩
abbrev S5x96 : Shape := ⟨2, ![5, 96]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x2560000 : Shape := ⟨2, ![1, 2560000]⟩
abbrev S2560000 : Shape := ⟨1, ![2560000]⟩
abbrev S1x50x32 : Shape := ⟨3, ![1, 50, 32]⟩
abbrev S50x32 : Shape := ⟨2, ![50, 32]⟩
abbrev S1x32x32 : Shape := ⟨3, ![1, 32, 32]⟩
abbrev S160000x32 : Shape := ⟨2, ![160000, 32]⟩
abbrev S8000x2 : Shape := ⟨2, ![8000, 2]⟩
abbrev S8000x32 : Shape := ⟨2, ![8000, 32]⟩
abbrev S8000x1 : Shape := ⟨2, ![8000, 1]⟩
abbrev S8000x50 : Shape := ⟨2, ![8000, 50]⟩
abbrev S_ : Shape := ⟨0, ![]⟩
abbrev S2560000x1 : Shape := ⟨2, ![2560000, 1]⟩
abbrev S2560000x32 : Shape := ⟨2, ![2560000, 32]⟩
abbrev S1x32x96 : Shape := ⟨3, ![1, 32, 96]⟩
abbrev S32x96 : Shape := ⟨2, ![32, 96]⟩
abbrev S1x96 : Shape := ⟨2, ![1, 96]⟩
abbrev S96 : Shape := ⟨1, ![96]⟩
abbrev S8000x96 : Shape := ⟨2, ![8000, 96]⟩
abbrev S1x32 : Shape := ⟨2, ![1, 32]⟩
abbrev S1x64x32 : Shape := ⟨3, ![1, 64, 32]⟩
abbrev S64x32 : Shape := ⟨2, ![64, 32]⟩
abbrev S8000x64 : Shape := ⟨2, ![8000, 64]⟩
abbrev S16000x32 : Shape := ⟨2, ![16000, 32]⟩
abbrev S160000x1 : Shape := ⟨2, ![160000, 1]⟩
abbrev S1600x32 : Shape := ⟨2, ![1600, 32]⟩
abbrev S16000x1 : Shape := ⟨2, ![16000, 1]⟩
abbrev S160x32 : Shape := ⟨2, ![160, 32]⟩
abbrev S1600x1 : Shape := ⟨2, ![1600, 1]⟩
abbrev S1x16 : Shape := ⟨2, ![1, 16]⟩
abbrev S160x16 : Shape := ⟨2, ![160, 16]⟩

abbrev nBuf : Space → Nat
  | .hbm => 438
  | .vmem => 168
  | .smem => 0
  | _ => 0

abbrev hbmTy0_0 (i : Nat) : BufTy := match i % 128 with
  | 0 => ⟨S160000x2, .i32⟩
  | 1 => ⟨S2x2560000, .i32⟩
  | 2 => ⟨S160000, .i32⟩
  | 3 => ⟨S16000, .i32⟩
  | 4 => ⟨S1600, .i32⟩
  | 5 => ⟨S5x50x32, .f32⟩
  | 6 => ⟨S5x64x32, .f32⟩
  | 7 => ⟨S5x32, .f32⟩
  | 8 => ⟨S5x32x32, .f32⟩
  | 9 => ⟨S5x32x96, .f32⟩
  | 10 => ⟨S5x32x96, .f32⟩
  | 11 => ⟨S5x96, .f32⟩
  | 12 => ⟨S5x96, .f32⟩
  | 13 => ⟨S5x32, .f32⟩
  | 14 => ⟨S5x32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32x32, .f32⟩
  | 22 => ⟨S32, .f32⟩
  | 23 => ⟨S32x16, .f32⟩
  | 24 => ⟨S16, .f32⟩
  | 25 => ⟨S16x16, .f32⟩
  | 26 => ⟨S16, .f32⟩
  | 27 => ⟨S1x2560000, .i32⟩
  | 28 => ⟨S2560000, .i32⟩
  | 29 => ⟨S1x2560000, .i32⟩
  | 30 => ⟨S2560000, .i32⟩
  | 31 => ⟨S1x50x32, .f32⟩
  | 32 => ⟨S50x32, .f32⟩
  | 33 => ⟨S1x32x32, .f32⟩
  | 34 => ⟨S32x32, .f32⟩
  | 35 => ⟨S160000x32, .f32⟩
  | 36 => ⟨S160000x32, .f32⟩
  | 37 => ⟨S_, .i32⟩
  | 38 => ⟨S2560000, .i32⟩
  | 39 => ⟨S2560000, .i1⟩
  | 40 => ⟨S_, .i32⟩
  | 41 => ⟨S2560000, .i32⟩
  | 42 => ⟨S2560000, .i32⟩
  | 43 => ⟨S2560000, .i32⟩
  | 44 => ⟨S2560000x1, .i32⟩
  | 45 => ⟨S2560000x32, .f32⟩
  | 46 => ⟨S_, .f32⟩
  | 47 => ⟨S160000x32, .f32⟩
  | 48 => ⟨S2560000x1, .i32⟩
  | 49 => ⟨S160000x32, .f32⟩
  | 50 => ⟨S1x32x96, .f32⟩
  | 51 => ⟨S32x96, .f32⟩
  | 52 => ⟨S1x32x96, .f32⟩
  | 53 => ⟨S32x96, .f32⟩
  | 54 => ⟨S1x96, .f32⟩
  | 55 => ⟨S96, .f32⟩
  | 56 => ⟨S1x96, .f32⟩
  | 57 => ⟨S1x96, .f32⟩
  | 58 => ⟨S96, .f32⟩
  | 59 => ⟨S1x96, .f32⟩
  | 60 => ⟨S160000x32, .f32⟩
  | 61 => ⟨S_, .f32⟩
  | 62 => ⟨S32, .f32⟩
  | 63 => ⟨S1x32, .f32⟩
  | 64 => ⟨S_, .f32⟩
  | 65 => ⟨S1x32, .f32⟩
  | 66 => ⟨S1x32, .f32⟩
  | 67 => ⟨S_, .i32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S160000x32, .f32⟩
  | 75 => ⟨S160000x32, .f32⟩
  | 76 => ⟨S160000x32, .f32⟩
  | 77 => ⟨S_, .f32⟩
  | 78 => ⟨S_, .f32⟩
  | 79 => ⟨S_, .f32⟩
  | 80 => ⟨S_, .f32⟩
  | 81 => ⟨S32, .f32⟩
  | 82 => ⟨S1x32, .f32⟩
  | 83 => ⟨S1x32, .f32⟩
  | 84 => ⟨S1x32, .f32⟩
  | 85 => ⟨S_, .f32⟩
  | 86 => ⟨S_, .i1⟩
  | 87 => ⟨S_, .f32⟩
  | 88 => ⟨S_, .f32⟩
  | 89 => ⟨S1x32, .f32⟩
  | 90 => ⟨S1x32, .f32⟩
  | 91 => ⟨S1x32, .f32⟩
  | 92 => ⟨S32, .f32⟩
  | 93 => ⟨S1x32, .f32⟩
  | 94 => ⟨S1x32, .f32⟩
  | 95 => ⟨S32, .f32⟩
  | 96 => ⟨S1x32, .f32⟩
  | 97 => ⟨S160000x32, .f32⟩
  | 98 => ⟨S1x50x32, .f32⟩
  | 99 => ⟨S50x32, .f32⟩
  | 100 => ⟨S1x32x32, .f32⟩
  | 101 => ⟨S32x32, .f32⟩
  | 102 => ⟨S1x64x32, .f32⟩
  | 103 => ⟨S64x32, .f32⟩
  | 104 => ⟨S1x32, .f32⟩
  | 105 => ⟨S32, .f32⟩
  | 106 => ⟨S1x32, .f32⟩
  | 107 => ⟨S160000x32, .f32⟩
  | 108 => ⟨S160000x32, .f32⟩
  | 109 => ⟨S_, .i32⟩
  | 110 => ⟨S2560000, .i32⟩
  | 111 => ⟨S2560000, .i1⟩
  | 112 => ⟨S_, .i32⟩
  | 113 => ⟨S2560000, .i32⟩
  | 114 => ⟨S2560000, .i32⟩
  | 115 => ⟨S2560000, .i32⟩
  | 116 => ⟨S2560000x1, .i32⟩
  | 117 => ⟨S2560000x32, .f32⟩
  | 118 => ⟨S_, .f32⟩
  | 119 => ⟨S160000x32, .f32⟩
  | 120 => ⟨S2560000x1, .i32⟩
  | 121 => ⟨S160000x32, .f32⟩
  | 122 => ⟨S1x32x96, .f32⟩
  | 123 => ⟨S32x96, .f32⟩
  | 124 => ⟨S1x32x96, .f32⟩
  | 125 => ⟨S32x96, .f32⟩
  | 126 => ⟨S1x96, .f32⟩
  | 127 => ⟨S96, .f32⟩
  | _ => ⟨S160000x2, .i32⟩

abbrev hbmTy0_1 (i : Nat) : BufTy := match i % 128 with
  | 0 => ⟨S1x96, .f32⟩
  | 1 => ⟨S1x96, .f32⟩
  | 2 => ⟨S96, .f32⟩
  | 3 => ⟨S1x96, .f32⟩
  | 4 => ⟨S160000x32, .f32⟩
  | 5 => ⟨S_, .f32⟩
  | 6 => ⟨S32, .f32⟩
  | 7 => ⟨S1x32, .f32⟩
  | 8 => ⟨S_, .f32⟩
  | 9 => ⟨S1x32, .f32⟩
  | 10 => ⟨S1x32, .f32⟩
  | 11 => ⟨S_, .i32⟩
  | 12 => ⟨S_, .f32⟩
  | 13 => ⟨S32, .f32⟩
  | 14 => ⟨S1x32, .f32⟩
  | 15 => ⟨S_, .f32⟩
  | 16 => ⟨S1x32, .f32⟩
  | 17 => ⟨S1x32, .f32⟩
  | 18 => ⟨S160000x32, .f32⟩
  | 19 => ⟨S160000x32, .f32⟩
  | 20 => ⟨S160000x32, .f32⟩
  | 21 => ⟨S_, .f32⟩
  | 22 => ⟨S_, .f32⟩
  | 23 => ⟨S_, .f32⟩
  | 24 => ⟨S_, .f32⟩
  | 25 => ⟨S32, .f32⟩
  | 26 => ⟨S1x32, .f32⟩
  | 27 => ⟨S1x32, .f32⟩
  | 28 => ⟨S1x32, .f32⟩
  | 29 => ⟨S_, .f32⟩
  | 30 => ⟨S_, .i1⟩
  | 31 => ⟨S_, .f32⟩
  | 32 => ⟨S_, .f32⟩
  | 33 => ⟨S1x32, .f32⟩
  | 34 => ⟨S1x32, .f32⟩
  | 35 => ⟨S1x32, .f32⟩
  | 36 => ⟨S32, .f32⟩
  | 37 => ⟨S1x32, .f32⟩
  | 38 => ⟨S1x32, .f32⟩
  | 39 => ⟨S32, .f32⟩
  | 40 => ⟨S1x32, .f32⟩
  | 41 => ⟨S160000x32, .f32⟩
  | 42 => ⟨S1x50x32, .f32⟩
  | 43 => ⟨S50x32, .f32⟩
  | 44 => ⟨S1x32x32, .f32⟩
  | 45 => ⟨S32x32, .f32⟩
  | 46 => ⟨S1x64x32, .f32⟩
  | 47 => ⟨S64x32, .f32⟩
  | 48 => ⟨S1x32, .f32⟩
  | 49 => ⟨S32, .f32⟩
  | 50 => ⟨S1x32, .f32⟩
  | 51 => ⟨S160000x32, .f32⟩
  | 52 => ⟨S160000x32, .f32⟩
  | 53 => ⟨S_, .i32⟩
  | 54 => ⟨S2560000, .i32⟩
  | 55 => ⟨S2560000, .i1⟩
  | 56 => ⟨S_, .i32⟩
  | 57 => ⟨S2560000, .i32⟩
  | 58 => ⟨S2560000, .i32⟩
  | 59 => ⟨S2560000, .i32⟩
  | 60 => ⟨S2560000x1, .i32⟩
  | 61 => ⟨S2560000x32, .f32⟩
  | 62 => ⟨S_, .f32⟩
  | 63 => ⟨S160000x32, .f32⟩
  | 64 => ⟨S2560000x1, .i32⟩
  | 65 => ⟨S160000x32, .f32⟩
  | 66 => ⟨S1x32x96, .f32⟩
  | 67 => ⟨S32x96, .f32⟩
  | 68 => ⟨S1x32x96, .f32⟩
  | 69 => ⟨S32x96, .f32⟩
  | 70 => ⟨S1x96, .f32⟩
  | 71 => ⟨S96, .f32⟩
  | 72 => ⟨S1x96, .f32⟩
  | 73 => ⟨S1x96, .f32⟩
  | 74 => ⟨S96, .f32⟩
  | 75 => ⟨S1x96, .f32⟩
  | 76 => ⟨S160000x32, .f32⟩
  | 77 => ⟨S_, .f32⟩
  | 78 => ⟨S32, .f32⟩
  | 79 => ⟨S1x32, .f32⟩
  | 80 => ⟨S_, .f32⟩
  | 81 => ⟨S1x32, .f32⟩
  | 82 => ⟨S1x32, .f32⟩
  | 83 => ⟨S_, .i32⟩
  | 84 => ⟨S_, .f32⟩
  | 85 => ⟨S32, .f32⟩
  | 86 => ⟨S1x32, .f32⟩
  | 87 => ⟨S_, .f32⟩
  | 88 => ⟨S1x32, .f32⟩
  | 89 => ⟨S1x32, .f32⟩
  | 90 => ⟨S160000x32, .f32⟩
  | 91 => ⟨S160000x32, .f32⟩
  | 92 => ⟨S160000x32, .f32⟩
  | 93 => ⟨S_, .f32⟩
  | 94 => ⟨S_, .f32⟩
  | 95 => ⟨S_, .f32⟩
  | 96 => ⟨S_, .f32⟩
  | 97 => ⟨S32, .f32⟩
  | 98 => ⟨S1x32, .f32⟩
  | 99 => ⟨S1x32, .f32⟩
  | 100 => ⟨S1x32, .f32⟩
  | 101 => ⟨S_, .f32⟩
  | 102 => ⟨S_, .i1⟩
  | 103 => ⟨S_, .f32⟩
  | 104 => ⟨S_, .f32⟩
  | 105 => ⟨S1x32, .f32⟩
  | 106 => ⟨S1x32, .f32⟩
  | 107 => ⟨S1x32, .f32⟩
  | 108 => ⟨S32, .f32⟩
  | 109 => ⟨S1x32, .f32⟩
  | 110 => ⟨S1x32, .f32⟩
  | 111 => ⟨S32, .f32⟩
  | 112 => ⟨S1x32, .f32⟩
  | 113 => ⟨S160000x32, .f32⟩
  | 114 => ⟨S1x50x32, .f32⟩
  | 115 => ⟨S50x32, .f32⟩
  | 116 => ⟨S1x32x32, .f32⟩
  | 117 => ⟨S32x32, .f32⟩
  | 118 => ⟨S1x64x32, .f32⟩
  | 119 => ⟨S64x32, .f32⟩
  | 120 => ⟨S1x32, .f32⟩
  | 121 => ⟨S32, .f32⟩
  | 122 => ⟨S1x32, .f32⟩
  | 123 => ⟨S160000x32, .f32⟩
  | 124 => ⟨S160000x32, .f32⟩
  | 125 => ⟨S_, .i32⟩
  | 126 => ⟨S2560000, .i32⟩
  | 127 => ⟨S2560000, .i1⟩
  | _ => ⟨S160000x2, .i32⟩

abbrev hbmTy0_2 (i : Nat) : BufTy := match i % 128 with
  | 0 => ⟨S_, .i32⟩
  | 1 => ⟨S2560000, .i32⟩
  | 2 => ⟨S2560000, .i32⟩
  | 3 => ⟨S2560000, .i32⟩
  | 4 => ⟨S2560000x1, .i32⟩
  | 5 => ⟨S2560000x32, .f32⟩
  | 6 => ⟨S_, .f32⟩
  | 7 => ⟨S160000x32, .f32⟩
  | 8 => ⟨S2560000x1, .i32⟩
  | 9 => ⟨S160000x32, .f32⟩
  | 10 => ⟨S1x32x96, .f32⟩
  | 11 => ⟨S32x96, .f32⟩
  | 12 => ⟨S1x32x96, .f32⟩
  | 13 => ⟨S32x96, .f32⟩
  | 14 => ⟨S1x96, .f32⟩
  | 15 => ⟨S96, .f32⟩
  | 16 => ⟨S1x96, .f32⟩
  | 17 => ⟨S1x96, .f32⟩
  | 18 => ⟨S96, .f32⟩
  | 19 => ⟨S1x96, .f32⟩
  | 20 => ⟨S160000x32, .f32⟩
  | 21 => ⟨S_, .f32⟩
  | 22 => ⟨S32, .f32⟩
  | 23 => ⟨S1x32, .f32⟩
  | 24 => ⟨S_, .f32⟩
  | 25 => ⟨S1x32, .f32⟩
  | 26 => ⟨S1x32, .f32⟩
  | 27 => ⟨S_, .i32⟩
  | 28 => ⟨S_, .f32⟩
  | 29 => ⟨S32, .f32⟩
  | 30 => ⟨S1x32, .f32⟩
  | 31 => ⟨S_, .f32⟩
  | 32 => ⟨S1x32, .f32⟩
  | 33 => ⟨S1x32, .f32⟩
  | 34 => ⟨S160000x32, .f32⟩
  | 35 => ⟨S160000x32, .f32⟩
  | 36 => ⟨S160000x32, .f32⟩
  | 37 => ⟨S_, .f32⟩
  | 38 => ⟨S_, .f32⟩
  | 39 => ⟨S_, .f32⟩
  | 40 => ⟨S_, .f32⟩
  | 41 => ⟨S32, .f32⟩
  | 42 => ⟨S1x32, .f32⟩
  | 43 => ⟨S1x32, .f32⟩
  | 44 => ⟨S1x32, .f32⟩
  | 45 => ⟨S_, .f32⟩
  | 46 => ⟨S_, .i1⟩
  | 47 => ⟨S_, .f32⟩
  | 48 => ⟨S_, .f32⟩
  | 49 => ⟨S1x32, .f32⟩
  | 50 => ⟨S1x32, .f32⟩
  | 51 => ⟨S1x32, .f32⟩
  | 52 => ⟨S32, .f32⟩
  | 53 => ⟨S1x32, .f32⟩
  | 54 => ⟨S1x32, .f32⟩
  | 55 => ⟨S32, .f32⟩
  | 56 => ⟨S1x32, .f32⟩
  | 57 => ⟨S160000x32, .f32⟩
  | 58 => ⟨S1x50x32, .f32⟩
  | 59 => ⟨S50x32, .f32⟩
  | 60 => ⟨S1x32x32, .f32⟩
  | 61 => ⟨S32x32, .f32⟩
  | 62 => ⟨S1x64x32, .f32⟩
  | 63 => ⟨S64x32, .f32⟩
  | 64 => ⟨S1x32, .f32⟩
  | 65 => ⟨S32, .f32⟩
  | 66 => ⟨S1x32, .f32⟩
  | 67 => ⟨S160000x32, .f32⟩
  | 68 => ⟨S160000x32, .f32⟩
  | 69 => ⟨S_, .i32⟩
  | 70 => ⟨S2560000, .i32⟩
  | 71 => ⟨S2560000, .i1⟩
  | 72 => ⟨S_, .i32⟩
  | 73 => ⟨S2560000, .i32⟩
  | 74 => ⟨S2560000, .i32⟩
  | 75 => ⟨S2560000, .i32⟩
  | 76 => ⟨S2560000x1, .i32⟩
  | 77 => ⟨S2560000x32, .f32⟩
  | 78 => ⟨S_, .f32⟩
  | 79 => ⟨S160000x32, .f32⟩
  | 80 => ⟨S2560000x1, .i32⟩
  | 81 => ⟨S160000x32, .f32⟩
  | 82 => ⟨S1x32x96, .f32⟩
  | 83 => ⟨S32x96, .f32⟩
  | 84 => ⟨S1x32x96, .f32⟩
  | 85 => ⟨S32x96, .f32⟩
  | 86 => ⟨S1x96, .f32⟩
  | 87 => ⟨S96, .f32⟩
  | 88 => ⟨S1x96, .f32⟩
  | 89 => ⟨S1x96, .f32⟩
  | 90 => ⟨S96, .f32⟩
  | 91 => ⟨S1x96, .f32⟩
  | 92 => ⟨S160000x32, .f32⟩
  | 93 => ⟨S_, .f32⟩
  | 94 => ⟨S32, .f32⟩
  | 95 => ⟨S1x32, .f32⟩
  | 96 => ⟨S_, .f32⟩
  | 97 => ⟨S1x32, .f32⟩
  | 98 => ⟨S1x32, .f32⟩
  | 99 => ⟨S_, .i32⟩
  | 100 => ⟨S_, .f32⟩
  | 101 => ⟨S32, .f32⟩
  | 102 => ⟨S1x32, .f32⟩
  | 103 => ⟨S_, .f32⟩
  | 104 => ⟨S1x32, .f32⟩
  | 105 => ⟨S1x32, .f32⟩
  | 106 => ⟨S160000x32, .f32⟩
  | 107 => ⟨S160000x32, .f32⟩
  | 108 => ⟨S160000x32, .f32⟩
  | 109 => ⟨S_, .f32⟩
  | 110 => ⟨S_, .f32⟩
  | 111 => ⟨S_, .f32⟩
  | 112 => ⟨S_, .f32⟩
  | 113 => ⟨S32, .f32⟩
  | 114 => ⟨S1x32, .f32⟩
  | 115 => ⟨S1x32, .f32⟩
  | 116 => ⟨S1x32, .f32⟩
  | 117 => ⟨S_, .f32⟩
  | 118 => ⟨S_, .i1⟩
  | 119 => ⟨S_, .f32⟩
  | 120 => ⟨S_, .f32⟩
  | 121 => ⟨S1x32, .f32⟩
  | 122 => ⟨S1x32, .f32⟩
  | 123 => ⟨S1x32, .f32⟩
  | 124 => ⟨S32, .f32⟩
  | 125 => ⟨S1x32, .f32⟩
  | 126 => ⟨S1x32, .f32⟩
  | 127 => ⟨S32, .f32⟩
  | _ => ⟨S160000x2, .i32⟩

abbrev hbmTy0_3 (i : Nat) : BufTy := match i % 128 with
  | 0 => ⟨S1x32, .f32⟩
  | 1 => ⟨S160000x32, .f32⟩
  | 2 => ⟨S_, .f32⟩
  | 3 => ⟨S16000x32, .f32⟩
  | 4 => ⟨S160000x1, .i32⟩
  | 5 => ⟨S16000x32, .f32⟩
  | 6 => ⟨S1x32, .f32⟩
  | 7 => ⟨S1x32, .f32⟩
  | 8 => ⟨S16000x32, .f32⟩
  | 9 => ⟨S_, .f32⟩
  | 10 => ⟨S1600x32, .f32⟩
  | 11 => ⟨S16000x1, .i32⟩
  | 12 => ⟨S1600x32, .f32⟩
  | 13 => ⟨S1x32, .f32⟩
  | 14 => ⟨S1x32, .f32⟩
  | 15 => ⟨S1600x32, .f32⟩
  | 16 => ⟨S_, .f32⟩
  | 17 => ⟨S160x32, .f32⟩
  | 18 => ⟨S1600x1, .i32⟩
  | 19 => ⟨S160x32, .f32⟩
  | 20 => ⟨S1x16, .f32⟩
  | 21 => ⟨S160x16, .f32⟩
  | 22 => ⟨S_, .f32⟩
  | 23 => ⟨S16, .f32⟩
  | 24 => ⟨S1x16, .f32⟩
  | 25 => ⟨S_, .f32⟩
  | 26 => ⟨S1x16, .f32⟩
  | 27 => ⟨S1x16, .f32⟩
  | 28 => ⟨S_, .i32⟩
  | 29 => ⟨S_, .f32⟩
  | 30 => ⟨S16, .f32⟩
  | 31 => ⟨S1x16, .f32⟩
  | 32 => ⟨S_, .f32⟩
  | 33 => ⟨S1x16, .f32⟩
  | 34 => ⟨S1x16, .f32⟩
  | 35 => ⟨S160x16, .f32⟩
  | 36 => ⟨S160x16, .f32⟩
  | 37 => ⟨S160x16, .f32⟩
  | 38 => ⟨S_, .f32⟩
  | 39 => ⟨S_, .f32⟩
  | 40 => ⟨S_, .f32⟩
  | 41 => ⟨S_, .f32⟩
  | 42 => ⟨S16, .f32⟩
  | 43 => ⟨S1x16, .f32⟩
  | 44 => ⟨S1x16, .f32⟩
  | 45 => ⟨S1x16, .f32⟩
  | 46 => ⟨S_, .f32⟩
  | 47 => ⟨S_, .i1⟩
  | 48 => ⟨S_, .f32⟩
  | 49 => ⟨S_, .f32⟩
  | 50 => ⟨S1x16, .f32⟩
  | 51 => ⟨S1x16, .f32⟩
  | 52 => ⟨S1x16, .f32⟩
  | 53 => ⟨S160x16, .f32⟩
  | _ => ⟨S160000x2, .i32⟩

abbrev hbmTy (i : Nat) : BufTy := match i / 128 with
  | 0 => hbmTy0_0 i
  | 1 => hbmTy0_1 i
  | 2 => hbmTy0_2 i
  | 3 => hbmTy0_3 i
  | _ => ⟨S160000x2, .i32⟩

abbrev vmemTy0_0 (i : Nat) : BufTy := match i % 128 with
  | 0 => ⟨S8000x2, .i32⟩
  | 1 => ⟨S8000x2, .i32⟩
  | 2 => ⟨S50x32, .f32⟩
  | 3 => ⟨S32x32, .f32⟩
  | 4 => ⟨S8000x32, .f32⟩
  | 5 => ⟨S8000x32, .f32⟩
  | 6 => ⟨S8000x32, .f32⟩
  | 7 => ⟨S8000x32, .f32⟩
  | 8 => ⟨S8000x32, .f32⟩
  | 9 => ⟨S8000x32, .f32⟩
  | 10 => ⟨S8000x32, .f32⟩
  | 11 => ⟨S8000x32, .f32⟩
  | 12 => ⟨S32x96, .f32⟩
  | 13 => ⟨S32x96, .f32⟩
  | 14 => ⟨S1x96, .f32⟩
  | 15 => ⟨S1x96, .f32⟩
  | 16 => ⟨S8000x32, .f32⟩
  | 17 => ⟨S8000x32, .f32⟩
  | 18 => ⟨S8000x32, .f32⟩
  | 19 => ⟨S8000x32, .f32⟩
  | 20 => ⟨S1x32, .f32⟩
  | 21 => ⟨S1x32, .f32⟩
  | 22 => ⟨S1x32, .f32⟩
  | 23 => ⟨S1x32, .f32⟩
  | 24 => ⟨S8000x32, .f32⟩
  | 25 => ⟨S8000x32, .f32⟩
  | 26 => ⟨S8000x2, .i32⟩
  | 27 => ⟨S8000x2, .i32⟩
  | 28 => ⟨S8000x32, .f32⟩
  | 29 => ⟨S8000x32, .f32⟩
  | 30 => ⟨S50x32, .f32⟩
  | 31 => ⟨S64x32, .f32⟩
  | 32 => ⟨S1x32, .f32⟩
  | 33 => ⟨S32x32, .f32⟩
  | 34 => ⟨S8000x32, .f32⟩
  | 35 => ⟨S8000x32, .f32⟩
  | 36 => ⟨S8000x32, .f32⟩
  | 37 => ⟨S8000x32, .f32⟩
  | 38 => ⟨S8000x32, .f32⟩
  | 39 => ⟨S8000x32, .f32⟩
  | 40 => ⟨S8000x32, .f32⟩
  | 41 => ⟨S8000x32, .f32⟩
  | 42 => ⟨S32x96, .f32⟩
  | 43 => ⟨S32x96, .f32⟩
  | 44 => ⟨S1x96, .f32⟩
  | 45 => ⟨S1x96, .f32⟩
  | 46 => ⟨S8000x32, .f32⟩
  | 47 => ⟨S8000x32, .f32⟩
  | 48 => ⟨S8000x32, .f32⟩
  | 49 => ⟨S8000x32, .f32⟩
  | 50 => ⟨S1x32, .f32⟩
  | 51 => ⟨S1x32, .f32⟩
  | 52 => ⟨S1x32, .f32⟩
  | 53 => ⟨S1x32, .f32⟩
  | 54 => ⟨S8000x32, .f32⟩
  | 55 => ⟨S8000x32, .f32⟩
  | 56 => ⟨S8000x2, .i32⟩
  | 57 => ⟨S8000x2, .i32⟩
  | 58 => ⟨S8000x32, .f32⟩
  | 59 => ⟨S8000x32, .f32⟩
  | 60 => ⟨S50x32, .f32⟩
  | 61 => ⟨S64x32, .f32⟩
  | 62 => ⟨S1x32, .f32⟩
  | 63 => ⟨S32x32, .f32⟩
  | 64 => ⟨S8000x32, .f32⟩
  | 65 => ⟨S8000x32, .f32⟩
  | 66 => ⟨S8000x32, .f32⟩
  | 67 => ⟨S8000x32, .f32⟩
  | 68 => ⟨S8000x32, .f32⟩
  | 69 => ⟨S8000x32, .f32⟩
  | 70 => ⟨S8000x32, .f32⟩
  | 71 => ⟨S8000x32, .f32⟩
  | 72 => ⟨S32x96, .f32⟩
  | 73 => ⟨S32x96, .f32⟩
  | 74 => ⟨S1x96, .f32⟩
  | 75 => ⟨S1x96, .f32⟩
  | 76 => ⟨S8000x32, .f32⟩
  | 77 => ⟨S8000x32, .f32⟩
  | 78 => ⟨S8000x32, .f32⟩
  | 79 => ⟨S8000x32, .f32⟩
  | 80 => ⟨S1x32, .f32⟩
  | 81 => ⟨S1x32, .f32⟩
  | 82 => ⟨S1x32, .f32⟩
  | 83 => ⟨S1x32, .f32⟩
  | 84 => ⟨S8000x32, .f32⟩
  | 85 => ⟨S8000x32, .f32⟩
  | 86 => ⟨S8000x2, .i32⟩
  | 87 => ⟨S8000x2, .i32⟩
  | 88 => ⟨S8000x32, .f32⟩
  | 89 => ⟨S8000x32, .f32⟩
  | 90 => ⟨S50x32, .f32⟩
  | 91 => ⟨S64x32, .f32⟩
  | 92 => ⟨S1x32, .f32⟩
  | 93 => ⟨S32x32, .f32⟩
  | 94 => ⟨S8000x32, .f32⟩
  | 95 => ⟨S8000x32, .f32⟩
  | 96 => ⟨S8000x32, .f32⟩
  | 97 => ⟨S8000x32, .f32⟩
  | 98 => ⟨S8000x32, .f32⟩
  | 99 => ⟨S8000x32, .f32⟩
  | 100 => ⟨S8000x32, .f32⟩
  | 101 => ⟨S8000x32, .f32⟩
  | 102 => ⟨S32x96, .f32⟩
  | 103 => ⟨S32x96, .f32⟩
  | 104 => ⟨S1x96, .f32⟩
  | 105 => ⟨S1x96, .f32⟩
  | 106 => ⟨S8000x32, .f32⟩
  | 107 => ⟨S8000x32, .f32⟩
  | 108 => ⟨S8000x32, .f32⟩
  | 109 => ⟨S8000x32, .f32⟩
  | 110 => ⟨S1x32, .f32⟩
  | 111 => ⟨S1x32, .f32⟩
  | 112 => ⟨S1x32, .f32⟩
  | 113 => ⟨S1x32, .f32⟩
  | 114 => ⟨S8000x32, .f32⟩
  | 115 => ⟨S8000x32, .f32⟩
  | 116 => ⟨S8000x2, .i32⟩
  | 117 => ⟨S8000x2, .i32⟩
  | 118 => ⟨S8000x32, .f32⟩
  | 119 => ⟨S8000x32, .f32⟩
  | 120 => ⟨S50x32, .f32⟩
  | 121 => ⟨S64x32, .f32⟩
  | 122 => ⟨S1x32, .f32⟩
  | 123 => ⟨S32x32, .f32⟩
  | 124 => ⟨S8000x32, .f32⟩
  | 125 => ⟨S8000x32, .f32⟩
  | 126 => ⟨S8000x32, .f32⟩
  | 127 => ⟨S8000x32, .f32⟩
  | _ => ⟨S160000x2, .i32⟩

abbrev vmemTy0_1 (i : Nat) : BufTy := match i % 128 with
  | 0 => ⟨S8000x32, .f32⟩
  | 1 => ⟨S8000x32, .f32⟩
  | 2 => ⟨S8000x32, .f32⟩
  | 3 => ⟨S8000x32, .f32⟩
  | 4 => ⟨S32x96, .f32⟩
  | 5 => ⟨S32x96, .f32⟩
  | 6 => ⟨S1x96, .f32⟩
  | 7 => ⟨S1x96, .f32⟩
  | 8 => ⟨S8000x32, .f32⟩
  | 9 => ⟨S8000x32, .f32⟩
  | 10 => ⟨S8000x32, .f32⟩
  | 11 => ⟨S8000x32, .f32⟩
  | 12 => ⟨S1x32, .f32⟩
  | 13 => ⟨S1x32, .f32⟩
  | 14 => ⟨S1x32, .f32⟩
  | 15 => ⟨S1x32, .f32⟩
  | 16 => ⟨S8000x32, .f32⟩
  | 17 => ⟨S8000x32, .f32⟩
  | 18 => ⟨S16000x32, .f32⟩
  | 19 => ⟨S32x32, .f32⟩
  | 20 => ⟨S1x32, .f32⟩
  | 21 => ⟨S32x32, .f32⟩
  | 22 => ⟨S1x32, .f32⟩
  | 23 => ⟨S16000x32, .f32⟩
  | 24 => ⟨S1600x32, .f32⟩
  | 25 => ⟨S32x32, .f32⟩
  | 26 => ⟨S1x32, .f32⟩
  | 27 => ⟨S32x32, .f32⟩
  | 28 => ⟨S1x32, .f32⟩
  | 29 => ⟨S1600x32, .f32⟩
  | 30 => ⟨S160x32, .f32⟩
  | 31 => ⟨S32x16, .f32⟩
  | 32 => ⟨S1x16, .f32⟩
  | 33 => ⟨S160x16, .f32⟩
  | 34 => ⟨S160x16, .f32⟩
  | 35 => ⟨S1x16, .f32⟩
  | 36 => ⟨S1x16, .f32⟩
  | 37 => ⟨S16x16, .f32⟩
  | 38 => ⟨S1x16, .f32⟩
  | 39 => ⟨S160x16, .f32⟩
  | _ => ⟨S160000x2, .i32⟩

abbrev vmemTy (i : Nat) : BufTy := match i / 128 with
  | 0 => vmemTy0_0 i
  | 1 => vmemTy0_1 i
  | _ => ⟨S160000x2, .i32⟩

abbrev bufTy : (tb : Table) → Fin (tcTables nBuf tb) → BufTy
  | .hbm, ⟨i, _⟩ => hbmTy i
  | .local _ .vmem, ⟨i, _⟩ => vmemTy i
  | _, _ => ⟨S160000x2, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8_0 : Ref sig .tc := ⟨.hbm, 35, rfl⟩
abbrev main_v8_1 : Ref sig .tc := ⟨.hbm, 36, rfl⟩
abbrev main_c : Ref sig .tc := ⟨.hbm, 37, rfl⟩
abbrev main_v9 : Ref sig .tc := ⟨.hbm, 38, rfl⟩
abbrev main_v10 : Ref sig .tc := ⟨.hbm, 39, rfl⟩
abbrev main_c_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_v33 : Ref sig .tc := ⟨.hbm, 66, rfl⟩
abbrev main_c_3 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_v12 : Ref sig .tc := ⟨.hbm, 84, rfl⟩
abbrev main_call0_cst_3 : Ref sig .tc := ⟨.hbm, 85, rfl⟩
abbrev main_call0_v13 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51_0 : Ref sig .tc := ⟨.hbm, 107, rfl⟩
abbrev main_v51_1 : Ref sig .tc := ⟨.hbm, 108, rfl⟩
abbrev main_c_4 : Ref sig .tc := ⟨.hbm, 109, rfl⟩
abbrev main_v52 : Ref sig .tc := ⟨.hbm, 110, rfl⟩
abbrev main_v53 : Ref sig .tc := ⟨.hbm, 111, rfl⟩
abbrev main_c_5 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_6 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_7 : Ref sig .tc := ⟨.hbm, 133, rfl⟩
abbrev main_v73 : Ref sig .tc := ⟨.hbm, 134, rfl⟩
abbrev main_v74 : Ref sig .tc := ⟨.hbm, 135, rfl⟩
abbrev main_cst_8 : Ref sig .tc := ⟨.hbm, 136, rfl⟩
abbrev main_v75 : Ref sig .tc := ⟨.hbm, 137, rfl⟩
abbrev main_v76 : Ref sig .tc := ⟨.hbm, 138, rfl⟩
abbrev main_c_9 : Ref sig .tc := ⟨.hbm, 139, rfl⟩
abbrev main_call1_cst : Ref sig .tc := ⟨.hbm, 140, rfl⟩
abbrev main_call1_v0 : Ref sig .tc := ⟨.hbm, 141, rfl⟩
abbrev main_call1_v1 : Ref sig .tc := ⟨.hbm, 142, rfl⟩
abbrev main_call1_cst_0 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_cst_1 : Ref sig .tc := ⟨.hbm, 150, rfl⟩
abbrev main_call1_v8 : Ref sig .tc := ⟨.hbm, 151, rfl⟩
abbrev main_call1_cst_2 : Ref sig .tc := ⟨.hbm, 152, rfl⟩
abbrev main_call1_v9 : Ref sig .tc := ⟨.hbm, 153, rfl⟩
abbrev main_call1_v10 : Ref sig .tc := ⟨.hbm, 154, rfl⟩
abbrev main_call1_v11 : Ref sig .tc := ⟨.hbm, 155, rfl⟩
abbrev main_call1_v12 : Ref sig .tc := ⟨.hbm, 156, rfl⟩
abbrev main_call1_cst_3 : Ref sig .tc := ⟨.hbm, 157, rfl⟩
abbrev main_call1_v13 : Ref sig .tc := ⟨.hbm, 158, rfl⟩
abbrev main_call1_cst_4 : Ref sig .tc := ⟨.hbm, 159, rfl⟩
abbrev main_call1_call0_v0 : Ref sig .tc := ⟨.hbm, 160, rfl⟩
abbrev main_call1_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94_0 : Ref sig .tc := ⟨.hbm, 179, rfl⟩
abbrev main_v94_1 : Ref sig .tc := ⟨.hbm, 180, rfl⟩
abbrev main_c_10 : Ref sig .tc := ⟨.hbm, 181, rfl⟩
abbrev main_v95 : Ref sig .tc := ⟨.hbm, 182, rfl⟩
abbrev main_v96 : Ref sig .tc := ⟨.hbm, 183, rfl⟩
abbrev main_c_11 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_cst_12 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_cst_13 : Ref sig .tc := ⟨.hbm, 205, rfl⟩
abbrev main_v116 : Ref sig .tc := ⟨.hbm, 206, rfl⟩
abbrev main_v117 : Ref sig .tc := ⟨.hbm, 207, rfl⟩
abbrev main_cst_14 : Ref sig .tc := ⟨.hbm, 208, rfl⟩
abbrev main_v118 : Ref sig .tc := ⟨.hbm, 209, rfl⟩
abbrev main_v119 : Ref sig .tc := ⟨.hbm, 210, rfl⟩
abbrev main_c_15 : Ref sig .tc := ⟨.hbm, 211, rfl⟩
abbrev main_call2_cst : Ref sig .tc := ⟨.hbm, 212, rfl⟩
abbrev main_call2_v0 : Ref sig .tc := ⟨.hbm, 213, rfl⟩
abbrev main_call2_v1 : Ref sig .tc := ⟨.hbm, 214, rfl⟩
abbrev main_call2_cst_0 : Ref sig .tc := ⟨.hbm, 215, rfl⟩
abbrev main_call2_v2 : Ref sig .tc := ⟨.hbm, 216, rfl⟩
abbrev main_call2_v3 : Ref sig .tc := ⟨.hbm, 217, rfl⟩
abbrev main_call2_v4 : Ref sig .tc := ⟨.hbm, 218, rfl⟩
abbrev main_call2_v5 : Ref sig .tc := ⟨.hbm, 219, rfl⟩
abbrev main_call2_v6 : Ref sig .tc := ⟨.hbm, 220, rfl⟩
abbrev main_call2_v7 : Ref sig .tc := ⟨.hbm, 221, rfl⟩
abbrev main_call2_cst_1 : Ref sig .tc := ⟨.hbm, 222, rfl⟩
abbrev main_call2_v8 : Ref sig .tc := ⟨.hbm, 223, rfl⟩
abbrev main_call2_cst_2 : Ref sig .tc := ⟨.hbm, 224, rfl⟩
abbrev main_call2_v9 : Ref sig .tc := ⟨.hbm, 225, rfl⟩
abbrev main_call2_v10 : Ref sig .tc := ⟨.hbm, 226, rfl⟩
abbrev main_call2_v11 : Ref sig .tc := ⟨.hbm, 227, rfl⟩
abbrev main_call2_v12 : Ref sig .tc := ⟨.hbm, 228, rfl⟩
abbrev main_call2_cst_3 : Ref sig .tc := ⟨.hbm, 229, rfl⟩
abbrev main_call2_v13 : Ref sig .tc := ⟨.hbm, 230, rfl⟩
abbrev main_call2_cst_4 : Ref sig .tc := ⟨.hbm, 231, rfl⟩
abbrev main_call2_call0_v0 : Ref sig .tc := ⟨.hbm, 232, rfl⟩
abbrev main_call2_call0_v1 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137_0 : Ref sig .tc := ⟨.hbm, 251, rfl⟩
abbrev main_v137_1 : Ref sig .tc := ⟨.hbm, 252, rfl⟩
abbrev main_c_16 : Ref sig .tc := ⟨.hbm, 253, rfl⟩
abbrev main_v138 : Ref sig .tc := ⟨.hbm, 254, rfl⟩
abbrev main_v139 : Ref sig .tc := ⟨.hbm, 255, rfl⟩
abbrev main_c_17 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_cst_18 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_19 : Ref sig .tc := ⟨.hbm, 277, rfl⟩
abbrev main_v159 : Ref sig .tc := ⟨.hbm, 278, rfl⟩
abbrev main_v160 : Ref sig .tc := ⟨.hbm, 279, rfl⟩
abbrev main_cst_20 : Ref sig .tc := ⟨.hbm, 280, rfl⟩
abbrev main_v161 : Ref sig .tc := ⟨.hbm, 281, rfl⟩
abbrev main_v162 : Ref sig .tc := ⟨.hbm, 282, rfl⟩
abbrev main_c_21 : Ref sig .tc := ⟨.hbm, 283, rfl⟩
abbrev main_call3_cst : Ref sig .tc := ⟨.hbm, 284, rfl⟩
abbrev main_call3_v0 : Ref sig .tc := ⟨.hbm, 285, rfl⟩
abbrev main_call3_v1 : Ref sig .tc := ⟨.hbm, 286, rfl⟩
abbrev main_call3_cst_0 : Ref sig .tc := ⟨.hbm, 287, rfl⟩
abbrev main_call3_v2 : Ref sig .tc := ⟨.hbm, 288, rfl⟩
abbrev main_call3_v3 : Ref sig .tc := ⟨.hbm, 289, rfl⟩
abbrev main_call3_v4 : Ref sig .tc := ⟨.hbm, 290, rfl⟩
abbrev main_call3_v5 : Ref sig .tc := ⟨.hbm, 291, rfl⟩
abbrev main_call3_v6 : Ref sig .tc := ⟨.hbm, 292, rfl⟩
abbrev main_call3_v7 : Ref sig .tc := ⟨.hbm, 293, rfl⟩
abbrev main_call3_cst_1 : Ref sig .tc := ⟨.hbm, 294, rfl⟩
abbrev main_call3_v8 : Ref sig .tc := ⟨.hbm, 295, rfl⟩
abbrev main_call3_cst_2 : Ref sig .tc := ⟨.hbm, 296, rfl⟩
abbrev main_call3_v9 : Ref sig .tc := ⟨.hbm, 297, rfl⟩
abbrev main_call3_v10 : Ref sig .tc := ⟨.hbm, 298, rfl⟩
abbrev main_call3_v11 : Ref sig .tc := ⟨.hbm, 299, rfl⟩
abbrev main_call3_v12 : Ref sig .tc := ⟨.hbm, 300, rfl⟩
abbrev main_call3_cst_3 : Ref sig .tc := ⟨.hbm, 301, rfl⟩
abbrev main_call3_v13 : Ref sig .tc := ⟨.hbm, 302, rfl⟩
abbrev main_call3_cst_4 : Ref sig .tc := ⟨.hbm, 303, rfl⟩
abbrev main_call3_call0_v0 : Ref sig .tc := ⟨.hbm, 304, rfl⟩
abbrev main_call3_call0_v1 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180_0 : Ref sig .tc := ⟨.hbm, 323, rfl⟩
abbrev main_v180_1 : Ref sig .tc := ⟨.hbm, 324, rfl⟩
abbrev main_c_22 : Ref sig .tc := ⟨.hbm, 325, rfl⟩
abbrev main_v181 : Ref sig .tc := ⟨.hbm, 326, rfl⟩
abbrev main_v182 : Ref sig .tc := ⟨.hbm, 327, rfl⟩
abbrev main_c_23 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_cst_24 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_cst_25 : Ref sig .tc := ⟨.hbm, 349, rfl⟩
abbrev main_v202 : Ref sig .tc := ⟨.hbm, 350, rfl⟩
abbrev main_v203 : Ref sig .tc := ⟨.hbm, 351, rfl⟩
abbrev main_cst_26 : Ref sig .tc := ⟨.hbm, 352, rfl⟩
abbrev main_v204 : Ref sig .tc := ⟨.hbm, 353, rfl⟩
abbrev main_v205 : Ref sig .tc := ⟨.hbm, 354, rfl⟩
abbrev main_c_27 : Ref sig .tc := ⟨.hbm, 355, rfl⟩
abbrev main_call4_cst : Ref sig .tc := ⟨.hbm, 356, rfl⟩
abbrev main_call4_v0 : Ref sig .tc := ⟨.hbm, 357, rfl⟩
abbrev main_call4_v1 : Ref sig .tc := ⟨.hbm, 358, rfl⟩
abbrev main_call4_cst_0 : Ref sig .tc := ⟨.hbm, 359, rfl⟩
abbrev main_call4_v2 : Ref sig .tc := ⟨.hbm, 360, rfl⟩
abbrev main_call4_v3 : Ref sig .tc := ⟨.hbm, 361, rfl⟩
abbrev main_call4_v4 : Ref sig .tc := ⟨.hbm, 362, rfl⟩
abbrev main_call4_v5 : Ref sig .tc := ⟨.hbm, 363, rfl⟩
abbrev main_call4_v6 : Ref sig .tc := ⟨.hbm, 364, rfl⟩
abbrev main_call4_v7 : Ref sig .tc := ⟨.hbm, 365, rfl⟩
abbrev main_call4_cst_1 : Ref sig .tc := ⟨.hbm, 366, rfl⟩
abbrev main_call4_v8 : Ref sig .tc := ⟨.hbm, 367, rfl⟩
abbrev main_call4_cst_2 : Ref sig .tc := ⟨.hbm, 368, rfl⟩
abbrev main_call4_v9 : Ref sig .tc := ⟨.hbm, 369, rfl⟩
abbrev main_call4_v10 : Ref sig .tc := ⟨.hbm, 370, rfl⟩
abbrev main_call4_v11 : Ref sig .tc := ⟨.hbm, 371, rfl⟩
abbrev main_call4_v12 : Ref sig .tc := ⟨.hbm, 372, rfl⟩
abbrev main_call4_cst_3 : Ref sig .tc := ⟨.hbm, 373, rfl⟩
abbrev main_call4_v13 : Ref sig .tc := ⟨.hbm, 374, rfl⟩
abbrev main_call4_cst_4 : Ref sig .tc := ⟨.hbm, 375, rfl⟩
abbrev main_call4_call0_v0 : Ref sig .tc := ⟨.hbm, 376, rfl⟩
abbrev main_call4_call0_v1 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_cst_28 : Ref sig .tc := ⟨.hbm, 386, rfl⟩
abbrev main_v214 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_cst_29 : Ref sig .tc := ⟨.hbm, 393, rfl⟩
abbrev main_v220 : Ref sig .tc := ⟨.hbm, 394, rfl⟩
abbrev main_v221 : Ref sig .tc := ⟨.hbm, 395, rfl⟩
abbrev main_v222 : Ref sig .tc := ⟨.hbm, 396, rfl⟩
abbrev main_v223 : Ref sig .tc := ⟨.hbm, 397, rfl⟩
abbrev main_v224 : Ref sig .tc := ⟨.hbm, 398, rfl⟩
abbrev main_v225 : Ref sig .tc := ⟨.hbm, 399, rfl⟩
abbrev main_cst_30 : Ref sig .tc := ⟨.hbm, 400, rfl⟩
abbrev main_v226 : Ref sig .tc := ⟨.hbm, 401, rfl⟩
abbrev main_v227 : Ref sig .tc := ⟨.hbm, 402, rfl⟩
abbrev main_v228 : Ref sig .tc := ⟨.hbm, 403, rfl⟩
abbrev main_v229 : Ref sig .tc := ⟨.hbm, 404, rfl⟩
abbrev main_v230 : Ref sig .tc := ⟨.hbm, 405, rfl⟩
abbrev main_cst_31 : Ref sig .tc := ⟨.hbm, 406, rfl⟩
abbrev main_v231 : Ref sig .tc := ⟨.hbm, 407, rfl⟩
abbrev main_v232 : Ref sig .tc := ⟨.hbm, 408, rfl⟩
abbrev main_cst_32 : Ref sig .tc := ⟨.hbm, 409, rfl⟩
abbrev main_v233 : Ref sig .tc := ⟨.hbm, 410, rfl⟩
abbrev main_v234 : Ref sig .tc := ⟨.hbm, 411, rfl⟩
abbrev main_c_33 : Ref sig .tc := ⟨.hbm, 412, rfl⟩
abbrev main_call5_cst : Ref sig .tc := ⟨.hbm, 413, rfl⟩
abbrev main_call5_v0 : Ref sig .tc := ⟨.hbm, 414, rfl⟩
abbrev main_call5_v1 : Ref sig .tc := ⟨.hbm, 415, rfl⟩
abbrev main_call5_cst_0 : Ref sig .tc := ⟨.hbm, 416, rfl⟩
abbrev main_call5_v2 : Ref sig .tc := ⟨.hbm, 417, rfl⟩
abbrev main_call5_v3 : Ref sig .tc := ⟨.hbm, 418, rfl⟩
abbrev main_call5_v4 : Ref sig .tc := ⟨.hbm, 419, rfl⟩
abbrev main_call5_v5 : Ref sig .tc := ⟨.hbm, 420, rfl⟩
abbrev main_call5_v6 : Ref sig .tc := ⟨.hbm, 421, rfl⟩
abbrev main_call5_v7 : Ref sig .tc := ⟨.hbm, 422, rfl⟩
abbrev main_call5_cst_1 : Ref sig .tc := ⟨.hbm, 423, rfl⟩
abbrev main_call5_v8 : Ref sig .tc := ⟨.hbm, 424, rfl⟩
abbrev main_call5_cst_2 : Ref sig .tc := ⟨.hbm, 425, rfl⟩
abbrev main_call5_v9 : Ref sig .tc := ⟨.hbm, 426, rfl⟩
abbrev main_call5_v10 : Ref sig .tc := ⟨.hbm, 427, rfl⟩
abbrev main_call5_v11 : Ref sig .tc := ⟨.hbm, 428, rfl⟩
abbrev main_call5_v12 : Ref sig .tc := ⟨.hbm, 429, rfl⟩
abbrev main_call5_cst_3 : Ref sig .tc := ⟨.hbm, 430, rfl⟩
abbrev main_call5_v13 : Ref sig .tc := ⟨.hbm, 431, rfl⟩
abbrev main_call5_cst_4 : Ref sig .tc := ⟨.hbm, 432, rfl⟩
abbrev main_call5_call0_v0 : Ref sig .tc := ⟨.hbm, 433, rfl⟩
abbrev main_call5_call0_v1 : Ref sig .tc := ⟨.hbm, 434, rfl⟩
abbrev main_v235 : Ref sig .tc := ⟨.hbm, 435, rfl⟩
abbrev main_v236 : Ref sig .tc := ⟨.hbm, 436, rfl⟩
abbrev main_v237 : Ref sig .tc := ⟨.hbm, 437, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg6_1 : Ref sig .tc := ⟨.vmem, 65, rfl⟩
abbrev cc6_stg7_0 : Ref sig .tc := ⟨.vmem, 66, rfl⟩
abbrev cc6_stg7_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg6_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg5_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg6_0 : Ref sig .tc := ⟨.vmem, 94, rfl⟩
abbrev cc9_stg6_1 : Ref sig .tc := ⟨.vmem, 95, rfl⟩
abbrev cc9_stg7_0 : Ref sig .tc := ⟨.vmem, 96, rfl⟩
abbrev cc9_stg7_1 : Ref sig .tc := ⟨.vmem, 97, rfl⟩
abbrev cc10_stg0_0 : Ref sig .tc := ⟨.vmem, 98, rfl⟩
abbrev cc10_stg0_1 : Ref sig .tc := ⟨.vmem, 99, rfl⟩
abbrev cc10_stg1_0 : Ref sig .tc := ⟨.vmem, 100, rfl⟩
abbrev cc10_stg1_1 : Ref sig .tc := ⟨.vmem, 101, rfl⟩
abbrev cc10_stg2_0 : Ref sig .tc := ⟨.vmem, 102, rfl⟩
abbrev cc10_stg3_0 : Ref sig .tc := ⟨.vmem, 103, rfl⟩
abbrev cc10_stg4_0 : Ref sig .tc := ⟨.vmem, 104, rfl⟩
abbrev cc10_stg5_0 : Ref sig .tc := ⟨.vmem, 105, rfl⟩
abbrev cc10_stg6_0 : Ref sig .tc := ⟨.vmem, 106, rfl⟩
abbrev cc10_stg6_1 : Ref sig .tc := ⟨.vmem, 107, rfl⟩
abbrev cc11_stg0_0 : Ref sig .tc := ⟨.vmem, 108, rfl⟩
abbrev cc11_stg0_1 : Ref sig .tc := ⟨.vmem, 109, rfl⟩
abbrev cc11_stg1_0 : Ref sig .tc := ⟨.vmem, 110, rfl⟩
abbrev cc11_stg2_0 : Ref sig .tc := ⟨.vmem, 111, rfl⟩
abbrev cc11_stg3_0 : Ref sig .tc := ⟨.vmem, 112, rfl⟩
abbrev cc11_stg4_0 : Ref sig .tc := ⟨.vmem, 113, rfl⟩
abbrev cc11_stg5_0 : Ref sig .tc := ⟨.vmem, 114, rfl⟩
abbrev cc11_stg5_1 : Ref sig .tc := ⟨.vmem, 115, rfl⟩
abbrev cc12_stg0_0 : Ref sig .tc := ⟨.vmem, 116, rfl⟩
abbrev cc12_stg0_1 : Ref sig .tc := ⟨.vmem, 117, rfl⟩
abbrev cc12_stg1_0 : Ref sig .tc := ⟨.vmem, 118, rfl⟩
abbrev cc12_stg1_1 : Ref sig .tc := ⟨.vmem, 119, rfl⟩
abbrev cc12_stg2_0 : Ref sig .tc := ⟨.vmem, 120, rfl⟩
abbrev cc12_stg3_0 : Ref sig .tc := ⟨.vmem, 121, rfl⟩
abbrev cc12_stg4_0 : Ref sig .tc := ⟨.vmem, 122, rfl⟩
abbrev cc12_stg5_0 : Ref sig .tc := ⟨.vmem, 123, rfl⟩
abbrev cc12_stg6_0 : Ref sig .tc := ⟨.vmem, 124, rfl⟩
abbrev cc12_stg6_1 : Ref sig .tc := ⟨.vmem, 125, rfl⟩
abbrev cc12_stg7_0 : Ref sig .tc := ⟨.vmem, 126, rfl⟩
abbrev cc12_stg7_1 : Ref sig .tc := ⟨.vmem, 127, rfl⟩
abbrev cc13_stg0_0 : Ref sig .tc := ⟨.vmem, 128, rfl⟩
abbrev cc13_stg0_1 : Ref sig .tc := ⟨.vmem, 129, rfl⟩
abbrev cc13_stg1_0 : Ref sig .tc := ⟨.vmem, 130, rfl⟩
abbrev cc13_stg1_1 : Ref sig .tc := ⟨.vmem, 131, rfl⟩
abbrev cc13_stg2_0 : Ref sig .tc := ⟨.vmem, 132, rfl⟩
abbrev cc13_stg3_0 : Ref sig .tc := ⟨.vmem, 133, rfl⟩
abbrev cc13_stg4_0 : Ref sig .tc := ⟨.vmem, 134, rfl⟩
abbrev cc13_stg5_0 : Ref sig .tc := ⟨.vmem, 135, rfl⟩
abbrev cc13_stg6_0 : Ref sig .tc := ⟨.vmem, 136, rfl⟩
abbrev cc13_stg6_1 : Ref sig .tc := ⟨.vmem, 137, rfl⟩
abbrev cc14_stg0_0 : Ref sig .tc := ⟨.vmem, 138, rfl⟩
abbrev cc14_stg0_1 : Ref sig .tc := ⟨.vmem, 139, rfl⟩
abbrev cc14_stg1_0 : Ref sig .tc := ⟨.vmem, 140, rfl⟩
abbrev cc14_stg2_0 : Ref sig .tc := ⟨.vmem, 141, rfl⟩
abbrev cc14_stg3_0 : Ref sig .tc := ⟨.vmem, 142, rfl⟩
abbrev cc14_stg4_0 : Ref sig .tc := ⟨.vmem, 143, rfl⟩
abbrev cc14_stg5_0 : Ref sig .tc := ⟨.vmem, 144, rfl⟩
abbrev cc14_stg5_1 : Ref sig .tc := ⟨.vmem, 145, rfl⟩
abbrev cc15_stg0_0 : Ref sig .tc := ⟨.vmem, 146, rfl⟩
abbrev cc15_stg1_0 : Ref sig .tc := ⟨.vmem, 147, rfl⟩
abbrev cc15_stg2_0 : Ref sig .tc := ⟨.vmem, 148, rfl⟩
abbrev cc15_stg3_0 : Ref sig .tc := ⟨.vmem, 149, rfl⟩
abbrev cc15_stg4_0 : Ref sig .tc := ⟨.vmem, 150, rfl⟩
abbrev cc15_stg5_0 : Ref sig .tc := ⟨.vmem, 151, rfl⟩
abbrev cc16_stg0_0 : Ref sig .tc := ⟨.vmem, 152, rfl⟩
abbrev cc16_stg1_0 : Ref sig .tc := ⟨.vmem, 153, rfl⟩
abbrev cc16_stg2_0 : Ref sig .tc := ⟨.vmem, 154, rfl⟩
abbrev cc16_stg3_0 : Ref sig .tc := ⟨.vmem, 155, rfl⟩
abbrev cc16_stg4_0 : Ref sig .tc := ⟨.vmem, 156, rfl⟩
abbrev cc16_stg5_0 : Ref sig .tc := ⟨.vmem, 157, rfl⟩
abbrev cc17_stg0_0 : Ref sig .tc := ⟨.vmem, 158, rfl⟩
abbrev cc17_stg1_0 : Ref sig .tc := ⟨.vmem, 159, rfl⟩
abbrev cc17_stg2_0 : Ref sig .tc := ⟨.vmem, 160, rfl⟩
abbrev cc17_stg3_0 : Ref sig .tc := ⟨.vmem, 161, rfl⟩
abbrev cc18_stg0_0 : Ref sig .tc := ⟨.vmem, 162, rfl⟩
abbrev cc18_stg1_0 : Ref sig .tc := ⟨.vmem, 163, rfl⟩
abbrev cc18_stg2_0 : Ref sig .tc := ⟨.vmem, 164, rfl⟩
abbrev cc18_stg3_0 : Ref sig .tc := ⟨.vmem, 165, rfl⟩
abbrev cc18_stg4_0 : Ref sig .tc := ⟨.vmem, 166, rfl⟩
abbrev cc18_stg5_0 : Ref sig .tc := ⟨.vmem, 167, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem7_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem6_1 : DmaSem sig := 65
abbrev cc6_sem7_0 : DmaSem sig := 66
abbrev cc6_sem7_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem6_1 : DmaSem sig := 77
abbrev cc8_sem0_0 : DmaSem sig := 78
abbrev cc8_sem0_1 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem5_1 : DmaSem sig := 85
abbrev cc9_sem0_0 : DmaSem sig := 86
abbrev cc9_sem0_1 : DmaSem sig := 87
abbrev cc9_sem1_0 : DmaSem sig := 88
abbrev cc9_sem1_1 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem6_0 : DmaSem sig := 94
abbrev cc9_sem6_1 : DmaSem sig := 95
abbrev cc9_sem7_0 : DmaSem sig := 96
abbrev cc9_sem7_1 : DmaSem sig := 97
abbrev cc10_sem0_0 : DmaSem sig := 98
abbrev cc10_sem0_1 : DmaSem sig := 99
abbrev cc10_sem1_0 : DmaSem sig := 100
abbrev cc10_sem1_1 : DmaSem sig := 101
abbrev cc10_sem2_0 : DmaSem sig := 102
abbrev cc10_sem3_0 : DmaSem sig := 103
abbrev cc10_sem4_0 : DmaSem sig := 104
abbrev cc10_sem5_0 : DmaSem sig := 105
abbrev cc10_sem6_0 : DmaSem sig := 106
abbrev cc10_sem6_1 : DmaSem sig := 107
abbrev cc11_sem0_0 : DmaSem sig := 108
abbrev cc11_sem0_1 : DmaSem sig := 109
abbrev cc11_sem1_0 : DmaSem sig := 110
abbrev cc11_sem2_0 : DmaSem sig := 111
abbrev cc11_sem3_0 : DmaSem sig := 112
abbrev cc11_sem4_0 : DmaSem sig := 113
abbrev cc11_sem5_0 : DmaSem sig := 114
abbrev cc11_sem5_1 : DmaSem sig := 115
abbrev cc12_sem0_0 : DmaSem sig := 116
abbrev cc12_sem0_1 : DmaSem sig := 117
abbrev cc12_sem1_0 : DmaSem sig := 118
abbrev cc12_sem1_1 : DmaSem sig := 119
abbrev cc12_sem2_0 : DmaSem sig := 120
abbrev cc12_sem3_0 : DmaSem sig := 121
abbrev cc12_sem4_0 : DmaSem sig := 122
abbrev cc12_sem5_0 : DmaSem sig := 123
abbrev cc12_sem6_0 : DmaSem sig := 124
abbrev cc12_sem6_1 : DmaSem sig := 125
abbrev cc12_sem7_0 : DmaSem sig := 126
abbrev cc12_sem7_1 : DmaSem sig := 127
abbrev cc13_sem0_0 : DmaSem sig := 128
abbrev cc13_sem0_1 : DmaSem sig := 129
abbrev cc13_sem1_0 : DmaSem sig := 130
abbrev cc13_sem1_1 : DmaSem sig := 131
abbrev cc13_sem2_0 : DmaSem sig := 132
abbrev cc13_sem3_0 : DmaSem sig := 133
abbrev cc13_sem4_0 : DmaSem sig := 134
abbrev cc13_sem5_0 : DmaSem sig := 135
abbrev cc13_sem6_0 : DmaSem sig := 136
abbrev cc13_sem6_1 : DmaSem sig := 137
abbrev cc14_sem0_0 : DmaSem sig := 138
abbrev cc14_sem0_1 : DmaSem sig := 139
abbrev cc14_sem1_0 : DmaSem sig := 140
abbrev cc14_sem2_0 : DmaSem sig := 141
abbrev cc14_sem3_0 : DmaSem sig := 142
abbrev cc14_sem4_0 : DmaSem sig := 143
abbrev cc14_sem5_0 : DmaSem sig := 144
abbrev cc14_sem5_1 : DmaSem sig := 145
abbrev cc15_sem0_0 : DmaSem sig := 146
abbrev cc15_sem1_0 : DmaSem sig := 147
abbrev cc15_sem2_0 : DmaSem sig := 148
abbrev cc15_sem3_0 : DmaSem sig := 149
abbrev cc15_sem4_0 : DmaSem sig := 150
abbrev cc15_sem5_0 : DmaSem sig := 151
abbrev cc16_sem0_0 : DmaSem sig := 152
abbrev cc16_sem1_0 : DmaSem sig := 153
abbrev cc16_sem2_0 : DmaSem sig := 154
abbrev cc16_sem3_0 : DmaSem sig := 155
abbrev cc16_sem4_0 : DmaSem sig := 156
abbrev cc16_sem5_0 : DmaSem sig := 157
abbrev cc17_sem0_0 : DmaSem sig := 158
abbrev cc17_sem1_0 : DmaSem sig := 159
abbrev cc17_sem2_0 : DmaSem sig := 160
abbrev cc17_sem3_0 : DmaSem sig := 161
abbrev cc18_sem0_0 : DmaSem sig := 162
abbrev cc18_sem1_0 : DmaSem sig := 163
abbrev cc18_sem2_0 : DmaSem sig := 164
abbrev cc18_sem3_0 : DmaSem sig := 165
abbrev cc18_sem4_0 : DmaSem sig := 166
abbrev cc18_sem5_0 : DmaSem sig := 167

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S50x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x2 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S50x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S8000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S8000x32 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S32x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x96 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x2 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S50x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x32 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S8000x32 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S8000x32 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S32x96 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S32x96 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x96 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x96 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S8000x32 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S8000x32 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8000x2 .i32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8000x32 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S50x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x32 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x32 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S32x32 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S8000x32 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S8000x32 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8000x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S32x96 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S32x96 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x96 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x96 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S8000x32 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x32 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x32 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x32 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x32 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S8000x32 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S16000x32 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 1 → Memref sig .tc .vmem S32x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x32 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S32x32 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x32 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S16000x32 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S1600x32 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S32x32 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x32 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S32x32 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x32 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1600x32 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 1 → Memref sig .tc .vmem S160x32 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![false]

abbrev stage17_1 : Fin 1 → Memref sig .tc .vmem S32x16 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x16 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S160x16 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 1 → Memref sig .tc .vmem S160x16 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![false]

abbrev stage18_1 : Fin 1 → Memref sig .tc .vmem S1x16 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x16 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S16x16 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x16 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S160x16 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

class Facts₀ : Prop where
  slices_S2x2560000_S1x2560000_0_0 : S2x2560000.Slices ![0, 0] S1x2560000
  shapeCasts_S1x2560000_S2560000 : S1x2560000.ShapeCasts S2560000
  slices_S2x2560000_S1x2560000_1_0 : S2x2560000.Slices ![1, 0] S1x2560000
  slices_S5x50x32_S1x50x32_0_0_0 : S5x50x32.Slices ![0, 0, 0] S1x50x32
  shapeCasts_S1x50x32_S50x32 : S1x50x32.ShapeCasts S50x32
  slices_S5x32x32_S1x32x32_0_0_0 : S5x32x32.Slices ![0, 0, 0] S1x32x32
  shapeCasts_S1x32x32_S32x32 : S1x32x32.ShapeCasts S32x32
  inb_S8000x2_S8000x2_0_0 : ∀ a, (![0, 0] : Fin 2 → Nat) a + S8000x2.size a ≤ S8000x2.size a
  h_S8000x2 : 0 < S8000x2.numel
  inb_S50x32_S50x32_0_0 : ∀ a, (![0, 0] : Fin 2 → Nat) a + S50x32.size a ≤ S50x32.size a
  h_S50x32 : 0 < S50x32.numel
  shapeCasts_S50x32_S50x32 : S50x32.ShapeCasts S50x32
  bitsLt_bf16_f32 : FTy.bits .bf16 < FTy.bits .f32
  slices_S8000x2_o0_0_S8000x1 : S8000x2.Slices ![0, 0] S8000x1
  iota_S8000x50_d1_w32 : S8000x50.Iotas .tc 32 [1]
  broadcasts_S8000x1_S8000x50 : S8000x1.Broadcasts S8000x50
  natLt_1_32 : 1 < 32
  slices_S8000x2_o0_1_S8000x1 : S8000x2.Slices ![0, 1] S8000x1
  inb_S8000x32_S8000x32_0_0 : ∀ a, (![0, 0] : Fin 2 → Nat) a + S8000x32.size a ≤ S8000x32.size a
  h_S8000x32 : 0 < S8000x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S2560000 : S_.BroadcastsInDim S2560000 (![] : Fin 0 → Fin S2560000.rank)
  bcast_S2560000_S2560000x1_0 : S2560000.BroadcastsInDim S2560000x1 (![0] : Fin 1 → Fin S2560000x1.rank)
  bcast_S_S160000x32 : S_.BroadcastsInDim S160000x32 (![] : Fin 0 → Fin S160000x32.rank)
  slices_S5x32x96_S1x32x96_0_0_0 : S5x32x96.Slices ![0, 0, 0] S1x32x96
  shapeCasts_S1x32x96_S32x96 : S1x32x96.ShapeCasts S32x96
  slices_S5x96_S1x96_0_0 : S5x96.Slices ![0, 0] S1x96
  shapeCasts_S1x96_S96 : S1x96.ShapeCasts S96
  shapeCasts_S96_S1x96 : S96.ShapeCasts S1x96
  shapeCasts_S8000x32_S8000x32 : S8000x32.ShapeCasts S8000x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S8000x96 : S1x96.Broadcasts S8000x96
  slices_S8000x96_o0_0_S8000x32 : S8000x96.Slices ![0, 0] S8000x32
  slices_S8000x96_o0_32_S8000x32 : S8000x96.Slices ![0, 32] S8000x32
  slices_S8000x96_o0_64_S8000x32 : S8000x96.Slices ![0, 64] S8000x32
  reducesTo_S160000x32_S32_d0 : S160000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S160000x32_0_1 : S1x32.BroadcastsInDim S160000x32 (![0, 1] : Fin 2 → Fin S160000x32.rank)
  slices_S5x32_S1x32_0_0 : S5x32.Slices ![0, 0] S1x32
  shapeCasts_S1x32_S32 : S1x32.ShapeCasts S32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  slices_S5x50x32_S1x50x32_1_0_0 : S5x50x32.Slices ![1, 0, 0] S1x50x32
  slices_S5x32x32_S1x32x32_1_0_0 : S5x32x32.Slices ![1, 0, 0] S1x32x32
  slices_S5x64x32_S1x64x32_1_0_0 : S5x64x32.Slices ![1, 0, 0] S1x64x32
  shapeCasts_S1x64x32_S64x32 : S1x64x32.ShapeCasts S64x32
  slices_S5x32_S1x32_1_0 : S5x32.Slices ![1, 0] S1x32
  concatenates_S8000x32_S8000x32_S8000x64_d1 : Shape.Concatenates [S8000x32, S8000x32] S8000x64 1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  slices_S5x32x96_S1x32x96_1_0_0 : S5x32x96.Slices ![1, 0, 0] S1x32x96
  slices_S5x96_S1x96_1_0 : S5x96.Slices ![1, 0] S1x96
  slices_S5x50x32_S1x50x32_2_0_0 : S5x50x32.Slices ![2, 0, 0] S1x50x32
  slices_S5x32x32_S1x32x32_2_0_0 : S5x32x32.Slices ![2, 0, 0] S1x32x32
  slices_S5x64x32_S1x64x32_2_0_0 : S5x64x32.Slices ![2, 0, 0] S1x64x32
  slices_S5x32_S1x32_2_0 : S5x32.Slices ![2, 0] S1x32
  slices_S5x32x96_S1x32x96_2_0_0 : S5x32x96.Slices ![2, 0, 0] S1x32x96
  slices_S5x96_S1x96_2_0 : S5x96.Slices ![2, 0] S1x96
  slices_S5x50x32_S1x50x32_3_0_0 : S5x50x32.Slices ![3, 0, 0] S1x50x32
  slices_S5x32x32_S1x32x32_3_0_0 : S5x32x32.Slices ![3, 0, 0] S1x32x32
  slices_S5x64x32_S1x64x32_3_0_0 : S5x64x32.Slices ![3, 0, 0] S1x64x32
  slices_S5x32_S1x32_3_0 : S5x32.Slices ![3, 0] S1x32
  slices_S5x32x96_S1x32x96_3_0_0 : S5x32x96.Slices ![3, 0, 0] S1x32x96
  slices_S5x96_S1x96_3_0 : S5x96.Slices ![3, 0] S1x96
  slices_S5x50x32_S1x50x32_4_0_0 : S5x50x32.Slices ![4, 0, 0] S1x50x32
  slices_S5x32x32_S1x32x32_4_0_0 : S5x32x32.Slices ![4, 0, 0] S1x32x32
  slices_S5x64x32_S1x64x32_4_0_0 : S5x64x32.Slices ![4, 0, 0] S1x64x32
  slices_S5x32_S1x32_4_0 : S5x32.Slices ![4, 0] S1x32
  slices_S5x32x96_S1x32x96_4_0_0 : S5x32x96.Slices ![4, 0, 0] S1x32x96
  slices_S5x96_S1x96_4_0 : S5x96.Slices ![4, 0] S1x96
  bcast_S_S16000x32 : S_.BroadcastsInDim S16000x32 (![] : Fin 0 → Fin S16000x32.rank)
  bcast_S160000_S160000x1_0 : S160000.BroadcastsInDim S160000x1 (![0] : Fin 1 → Fin S160000x1.rank)
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  broadcasts_S1x32_S16000x32 : S1x32.Broadcasts S16000x32
  bcast_S_S1600x32 : S_.BroadcastsInDim S1600x32 (![] : Fin 0 → Fin S1600x32.rank)
  bcast_S16000_S16000x1_0 : S16000.BroadcastsInDim S16000x1 (![0] : Fin 1 → Fin S16000x1.rank)
  inb_S1600x32_S1600x32_0_0 : ∀ a, (![0, 0] : Fin 2 → Nat) a + S1600x32.size a ≤ S1600x32.size a
  h_S1600x32 : 0 < S1600x32.numel
  shapeCasts_S1600x32_S1600x32 : S1600x32.ShapeCasts S1600x32
  broadcasts_S1x32_S1600x32 : S1x32.Broadcasts S1600x32
  bcast_S_S160x32 : S_.BroadcastsInDim S160x32 (![] : Fin 0 → Fin S160x32.rank)
  bcast_S1600_S1600x1_0 : S1600.BroadcastsInDim S1600x1 (![0] : Fin 1 → Fin S1600x1.rank)
  shapeCasts_S16_S1x16 : S16.ShapeCasts S1x16
  inb_S160x32_S160x32_0_0 : ∀ a, (![0, 0] : Fin 2 → Nat) a + S160x32.size a ≤ S160x32.size a
  h_S160x32 : 0 < S160x32.numel
  shapeCasts_S160x32_S160x32 : S160x32.ShapeCasts S160x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S160x16 : S1x16.Broadcasts S160x16
  inb_S160x16_S160x16_0_0 : ∀ a, (![0, 0] : Fin 2 → Nat) a + S160x16.size a ≤ S160x16.size a
  h_S160x16 : 0 < S160x16.numel
  reducesTo_S160x16_S16_d0 : S160x16.ReducesTo [0] S16
  bcast_S16_S1x16_1 : S16.BroadcastsInDim S1x16 (![1] : Fin 1 → Fin S1x16.rank)
  bcast_S_S1x16 : S_.BroadcastsInDim S1x16 (![] : Fin 0 → Fin S1x16.rank)
  bcast_S1x16_S160x16_0_1 : S1x16.BroadcastsInDim S160x16 (![0, 1] : Fin 2 → Fin S160x16.rank)
  shapeCasts_S160x16_S160x16 : S160x16.ShapeCasts S160x16
  inb_S16x16_S16x16_0_0 : ∀ a, (![0, 0] : Fin 2 → Nat) a + S16x16.size a ≤ S16x16.size a
  h_S16x16 : 0 < S16x16.numel
  dot_S8000x50_S50x32_S8000x32_1_0_0_1_n_n_wf : DotDims.WF S8000x50 S50x32 S8000x32 [1] [0] [0] [1] [] []
  dot_S8000x32_S32x32_S8000x32_1_0_0_1_n_n_wf : DotDims.WF S8000x32 S32x32 S8000x32 [1] [0] [0] [1] [] []
  gather_S160000x32_S2560000x1_S2560000x32_1_0_n_n_0_1_132_wf : GatherDims.WF S160000x32 S2560000x1 S2560000x32 [1] [0] [] [0] [] 1 ![1, 32]
  scatter_S160000x32_S2560000x1_S2560000x32_1_0_0_1_wf : ScatterDims.WF S160000x32 S2560000x1 S2560000x32 [1] [0] [0] 1
  dot_S8000x32_S32x96_S8000x96_1_0_0_1_n_n_wf : DotDims.WF S8000x32 S32x96 S8000x96 [1] [0] [0] [1] [] []
  dot_S8000x64_S64x32_S8000x32_1_0_0_1_n_n_wf : DotDims.WF S8000x64 S64x32 S8000x32 [1] [0] [0] [1] [] []
  scatter_S16000x32_S160000x1_S160000x32_1_0_0_1_wf : ScatterDims.WF S16000x32 S160000x1 S160000x32 [1] [0] [0] 1
  dot_S16000x32_S32x32_S16000x32_1_0_0_1_n_n_wf : DotDims.WF S16000x32 S32x32 S16000x32 [1] [0] [0] [1] [] []
  scatter_S1600x32_S16000x1_S16000x32_1_0_0_1_wf : ScatterDims.WF S1600x32 S16000x1 S16000x32 [1] [0] [0] 1
  dot_S1600x32_S32x32_S1600x32_1_0_0_1_n_n_wf : DotDims.WF S1600x32 S32x32 S1600x32 [1] [0] [0] [1] [] []
  scatter_S160x32_S1600x1_S1600x32_1_0_0_1_wf : ScatterDims.WF S160x32 S1600x1 S1600x32 [1] [0] [0] 1
  dot_S160x32_S32x16_S160x16_1_0_0_1_n_n_wf : DotDims.WF S160x32 S32x16 S160x16 [1] [0] [0] [1] [] []
  dot_S160x16_S16x16_S160x16_1_0_0_1_n_n_wf : DotDims.WF S160x16 S16x16 S160x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S160000x2.size a
  hwx0_0 : ∀ i : grid0.Coords, EltTy.bits .i32 = 32 ∨ (Rect.block (s := S160000x2) S8000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x32.size a ≤ S50x32.size a
  hwx0_1 : ∀ i : grid0.Coords, EltTy.bits .f32 = 32 ∨ (Rect.block (s := S50x32) S50x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S160000x32.size a
  hwx0_3 : ∀ i : grid0.Coords, EltTy.bits .f32 = 32 ∨ (Rect.block (s := S160000x32) S8000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x32.size a ≤ S160000x32.size a
  hwx0_4 : ∀ i : grid0.Coords, EltTy.bits .f32 = 32 ∨ (Rect.block (s := S160000x32) S8000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S160000x32.size a
  hwx1_0 : ∀ i : grid1.Coords, EltTy.bits .f32 = 32 ∨ (Rect.block (s := S160000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S160000x32.size a
  hwx1_1 : ∀ i : grid1.Coords, EltTy.bits .f32 = 32 ∨ (Rect.block (s := S160000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x96.size a ≤ S32x96.size a
  hwx1_2 : ∀ i : grid1.Coords, EltTy.bits .f32 = 32 ∨ (Rect.block (s := S32x96) S32x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x96.size a ≤ S32x96.size a
  hwx1_3 : ∀ i : grid1.Coords, EltTy.bits .f32 = 32 ∨ (Rect.block (s := S32x96) S32x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x32.size a ≤ S160000x32.size a
  hwx1_6 : ∀ i : grid1.Coords, EltTy.bits .f32 = 32 ∨ (Rect.block (s := S160000x32) S8000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S160000x32.size a
  hwx2_0 : ∀ i : grid2.Coords, EltTy.bits .f32 = 32 ∨ (Rect.block (s := S160000x32) S8000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x32.size a ≤ S160000x32.size a
  hwx2_5 : ∀ i : grid2.Coords, EltTy.bits .f32 = 32 ∨ (Rect.block (s := S160000x32) S8000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S160000x2.size a
  hwx3_0 : ∀ i : grid3.Coords, EltTy.bits .i32 = 32 ∨ (Rect.block (s := S160000x2) S8000x2.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S160000x32.size a
  hwx3_1 : ∀ i : grid3.Coords, EltTy.bits .f32 = 32 ∨ (Rect.block (s := S160000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S50x32.size a ≤ S50x32.size a
  hwx3_2 : ∀ i : grid3.Coords, EltTy.bits .f32 = 32 ∨ (Rect.block (s := S50x32) S50x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .f32 = 32 ∨ (Rect.block (s := S32x32) S32x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x32.size a ≤ S160000x32.size a
  hwx3_6 : ∀ i : grid3.Coords, EltTy.bits .f32 = 32 ∨ (Rect.block (s := S160000x32) S8000x32.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x32.size a ≤ S160000x32.size a
  hwx3_7 : ∀ i : grid3.Coords, EltTy.bits .f32 = 32 ∨ (Rect.block (s := S160000x32) S8000x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S160000x32.size a
  hwx4_0 : ∀ i : grid4.Coords, EltTy.bits .f32 = 32 ∨ (Rect.block (s := S160000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x32.size a ≤ S160000x32.size a
  hwx4_1 : ∀ i : grid4.Coords, EltTy.bits .f32 = 32 ∨ (Rect.block (s := S160000x32) S8000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x96.size a ≤ S32x96.size a
  hwx4_2 : ∀ i : grid4.Coords, EltTy.bits .f32 = 32 ∨ (Rect.block (s := S32x96) S32x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x96.size a ≤ S32x96.size a
  hwx4_3 : ∀ i : grid4.Coords, EltTy.bits .f32 = 32 ∨ (Rect.block (s := S32x96) S32x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x96.size a ≤ S1x96.size a
  hwx4_5 : ∀ i : grid4.Coords, EltTy.bits .f32 = 32 ∨ (Rect.block (s := S1x96) S1x96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x32.size a ≤ S160000x32.size a
  hwx4_6 : ∀ i : grid4.Coords, EltTy.bits .f32 = 32 ∨ (Rect.block (s := S160000x32) S8000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S160000x32.size a
  hwx5_0 : ∀ i : grid5.Coords, EltTy.bits .f32 = 32 ∨ (Rect.block (s := S160000x32) S8000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x32.size a ≤ S160000x32.size a
  hwx5_5 : ∀ i : grid5.Coords, EltTy.bits .f32 = 32 ∨ (Rect.block (s := S160000x32) S8000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x2.size a ≤ S160000x2.size a
  hwx6_0 : ∀ i : grid6.Coords, EltTy.bits .i32 = 32 ∨ (Rect.block (s := S160000x2) S8000x2.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x32.size a ≤ S160000x32.size a
  hwx6_1 : ∀ i : grid6.Coords, EltTy.bits .f32 = 32 ∨ (Rect.block (s := S160000x32) S8000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S50x32.size a ≤ S50x32.size a
  hwx6_2 : ∀ i : grid6.Coords, EltTy.bits .f32 = 32 ∨ (Rect.block (s := S50x32) S50x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x32.size a ≤ S32x32.size a
  hwx6_5 : ∀ i : grid6.Coords, EltTy.bits .f32 = 32 ∨ (Rect.block (s := S32x32) S32x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S8000x32.size a ≤ S160000x32.size a
  hwx6_6 : ∀ i : grid6.Coords, EltTy.bits .f32 = 32 ∨ (Rect.block (s := S160000x32) S8000x32.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8000x32.size a ≤ S160000x32.size a
  hwx6_7 : ∀ i : grid6.Coords, EltTy.bits .f32 = 32 ∨ (Rect.block (s := S160000x32) S8000x32.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x32.size a ≤ S160000x32.size a
  hwx7_0 : ∀ i : grid7.Coords, EltTy.bits .f32 = 32 ∨ (Rect.block (s := S160000x32) S8000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x32.size a ≤ S160000x32.size a
  hwx7_1 : ∀ i : grid7.Coords, EltTy.bits .f32 = 32 ∨ (Rect.block (s := S160000x32) S8000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x96.size a ≤ S32x96.size a
  hwx7_2 : ∀ i : grid7.Coords, EltTy.bits .f32 = 32 ∨ (Rect.block (s := S32x96) S32x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x96.size a ≤ S32x96.size a
  hwx7_3 : ∀ i : grid7.Coords, EltTy.bits .f32 = 32 ∨ (Rect.block (s := S32x96) S32x96.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x96.size a ≤ S1x96.size a
  hwx7_4 : ∀ i : grid7.Coords, EltTy.bits .f32 = 32 ∨ (Rect.block (s := S1x96) S1x96.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x96.size a ≤ S1x96.size a
  hwx7_5 : ∀ i : grid7.Coords, EltTy.bits .f32 = 32 ∨ (Rect.block (s := S1x96) S1x96.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8000x32.size a ≤ S160000x32.size a
  hwx7_6 : ∀ i : grid7.Coords, EltTy.bits .f32 = 32 ∨ (Rect.block (s := S160000x32) S8000x32.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x32.size a ≤ S160000x32.size a
  hwx8_0 : ∀ i : grid8.Coords, EltTy.bits .f32 = 32 ∨ (Rect.block (s := S160000x32) S8000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8000x32.size a ≤ S160000x32.size a
  hwx8_5 : ∀ i : grid8.Coords, EltTy.bits .f32 = 32 ∨ (Rect.block (s := S160000x32) S8000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x2.size a ≤ S160000x2.size a
  hwx9_0 : ∀ i : grid9.Coords, EltTy.bits .i32 = 32 ∨ (Rect.block (s := S160000x2) S8000x2.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x32.size a ≤ S160000x32.size a
  hwx9_1 : ∀ i : grid9.Coords, EltTy.bits .f32 = 32 ∨ (Rect.block (s := S160000x32) S8000x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S50x32.size a ≤ S50x32.size a
  hwx9_2 : ∀ i : grid9.Coords, EltTy.bits .f32 = 32 ∨ (Rect.block (s := S50x32) S50x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x32.size a ≤ S64x32.size a
  hwx9_3 : ∀ i : grid9.Coords, EltTy.bits .f32 = 32 ∨ (Rect.block (s := S64x32) S64x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x32.size a ≤ S32x32.size a
  hwx9_5 : ∀ i : grid9.Coords, EltTy.bits .f32 = 32 ∨ (Rect.block (s := S32x32) S32x32.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S8000x32.size a ≤ S160000x32.size a
  hwx9_6 : ∀ i : grid9.Coords, EltTy.bits .f32 = 32 ∨ (Rect.block (s := S160000x32) S8000x32.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S8000x32.size a ≤ S160000x32.size a
  hwx9_7 : ∀ i : grid9.Coords, EltTy.bits .f32 = 32 ∨ (Rect.block (s := S160000x32) S8000x32.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x32.size a ≤ S160000x32.size a
  hwx10_0 : ∀ i : grid10.Coords, EltTy.bits .f32 = 32 ∨ (Rect.block (s := S160000x32) S8000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x32.size a ≤ S160000x32.size a
  hwx10_1 : ∀ i : grid10.Coords, EltTy.bits .f32 = 32 ∨ (Rect.block (s := S160000x32) S8000x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S32x96.size a ≤ S32x96.size a
  hwx10_2 : ∀ i : grid10.Coords, EltTy.bits .f32 = 32 ∨ (Rect.block (s := S32x96) S32x96.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x96.size a ≤ S32x96.size a
  hwx10_3 : ∀ i : grid10.Coords, EltTy.bits .f32 = 32 ∨ (Rect.block (s := S32x96) S32x96.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x96.size a ≤ S1x96.size a
  hwx10_4 : ∀ i : grid10.Coords, EltTy.bits .f32 = 32 ∨ (Rect.block (s := S1x96) S1x96.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x96.size a ≤ S1x96.size a
  hwx10_5 : ∀ i : grid10.Coords, EltTy.bits .f32 = 32 ∨ (Rect.block (s := S1x96) S1x96.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S8000x32.size a ≤ S160000x32.size a
  hwx10_6 : ∀ i : grid10.Coords, EltTy.bits .f32 = 32 ∨ (Rect.block (s := S160000x32) S8000x32.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x32.size a ≤ S160000x32.size a
  hwx11_0 : ∀ i : grid11.Coords, EltTy.bits .f32 = 32 ∨ (Rect.block (s := S160000x32) S8000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S8000x32.size a ≤ S160000x32.size a
  hwx11_5 : ∀ i : grid11.Coords, EltTy.bits .f32 = 32 ∨ (Rect.block (s := S160000x32) S8000x32.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x2.size a ≤ S160000x2.size a
  hwx12_0 : ∀ i : grid12.Coords, EltTy.bits .i32 = 32 ∨ (Rect.block (s := S160000x2) S8000x2.size (cc12_transform_0 i) (hinb12_0 i)).WholeWords (EltTy.packing .i32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8000x32.size a ≤ S160000x32.size a
  hwx12_1 : ∀ i : grid12.Coords, EltTy.bits .f32 = 32 ∨ (Rect.block (s := S160000x32) S8000x32.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S50x32.size a ≤ S50x32.size a
  hwx12_2 : ∀ i : grid12.Coords, EltTy.bits .f32 = 32 ∨ (Rect.block (s := S50x32) S50x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x32.size a ≤ S64x32.size a
  hwx12_3 : ∀ i : grid12.Coords, EltTy.bits .f32 = 32 ∨ (Rect.block (s := S64x32) S64x32.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x32.size a ≤ S1x32.size a
  hwx12_4 : ∀ i : grid12.Coords, EltTy.bits .f32 = 32 ∨ (Rect.block (s := S1x32) S1x32.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S32x32.size a ≤ S32x32.size a
  hwx12_5 : ∀ i : grid12.Coords, EltTy.bits .f32 = 32 ∨ (Rect.block (s := S32x32) S32x32.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S8000x32.size a ≤ S160000x32.size a
  hwx12_6 : ∀ i : grid12.Coords, EltTy.bits .f32 = 32 ∨ (Rect.block (s := S160000x32) S8000x32.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S8000x32.size a ≤ S160000x32.size a
  hwx12_7 : ∀ i : grid12.Coords, EltTy.bits .f32 = 32 ∨ (Rect.block (s := S160000x32) S8000x32.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x32.size a ≤ S160000x32.size a
  hwx13_0 : ∀ i : grid13.Coords, EltTy.bits .f32 = 32 ∨ (Rect.block (s := S160000x32) S8000x32.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x32.size a ≤ S160000x32.size a
  hwx13_1 : ∀ i : grid13.Coords, EltTy.bits .f32 = 32 ∨ (Rect.block (s := S160000x32) S8000x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S32x96.size a ≤ S32x96.size a
  hwx13_2 : ∀ i : grid13.Coords, EltTy.bits .f32 = 32 ∨ (Rect.block (s := S32x96) S32x96.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S32x96.size a ≤ S32x96.size a
  hwx13_3 : ∀ i : grid13.Coords, EltTy.bits .f32 = 32 ∨ (Rect.block (s := S32x96) S32x96.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x96.size a ≤ S1x96.size a
  hwx13_4 : ∀ i : grid13.Coords, EltTy.bits .f32 = 32 ∨ (Rect.block (s := S1x96) S1x96.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x96.size a ≤ S1x96.size a
  hwx13_5 : ∀ i : grid13.Coords, EltTy.bits .f32 = 32 ∨ (Rect.block (s := S1x96) S1x96.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S8000x32.size a ≤ S160000x32.size a
  hwx13_6 : ∀ i : grid13.Coords, EltTy.bits .f32 = 32 ∨ (Rect.block (s := S160000x32) S8000x32.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8000x32.size a ≤ S160000x32.size a
  hwx14_0 : ∀ i : grid14.Coords, EltTy.bits .f32 = 32 ∨ (Rect.block (s := S160000x32) S8000x32.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x32.size a ≤ S1x32.size a
  hwx14_1 : ∀ i : grid14.Coords, EltTy.bits .f32 = 32 ∨ (Rect.block (s := S1x32) S1x32.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x32.size a ≤ S1x32.size a
  hwx14_2 : ∀ i : grid14.Coords, EltTy.bits .f32 = 32 ∨ (Rect.block (s := S1x32) S1x32.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x32.size a ≤ S1x32.size a
  hwx14_3 : ∀ i : grid14.Coords, EltTy.bits .f32 = 32 ∨ (Rect.block (s := S1x32) S1x32.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x32.size a ≤ S1x32.size a
  hwx14_4 : ∀ i : grid14.Coords, EltTy.bits .f32 = 32 ∨ (Rect.block (s := S1x32) S1x32.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S8000x32.size a ≤ S160000x32.size a
  hwx14_5 : ∀ i : grid14.Coords, EltTy.bits .f32 = 32 ∨ (Rect.block (s := S160000x32) S8000x32.size (cc14_transform_5 i) (hinb14_5 i)).WholeWords (EltTy.packing .f32)
  hrank15 : 0 < grid15.rank
  hstage15_0 : ∀ j, (stage15_0 j).IsWhole
  nbuf15_0 : grid15.bufCount reads15_0 true = 1
  hreads15_0 : ∀ i i' : grid15.Coords, (∀ a, reads15_0 a = true → i a = i' a) → cc15_transform_0 i = cc15_transform_0 i'
  hinb15_0 : ∀ (i : grid15.Coords) a, (cc15_transform_0 i a + 1) * S16000x32.size a ≤ S16000x32.size a
  hwx15_0 : ∀ i : grid15.Coords, EltTy.bits .f32 = 32 ∨ (Rect.block (s := S16000x32) S16000x32.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S32x32.size a ≤ S32x32.size a
  hwx15_1 : ∀ i : grid15.Coords, EltTy.bits .f32 = 32 ∨ (Rect.block (s := S32x32) S32x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x32.size a ≤ S1x32.size a
  hwx15_2 : ∀ i : grid15.Coords, EltTy.bits .f32 = 32 ∨ (Rect.block (s := S1x32) S1x32.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S32x32.size a ≤ S32x32.size a
  hwx15_3 : ∀ i : grid15.Coords, EltTy.bits .f32 = 32 ∨ (Rect.block (s := S32x32) S32x32.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x32.size a ≤ S1x32.size a
  hwx15_4 : ∀ i : grid15.Coords, EltTy.bits .f32 = 32 ∨ (Rect.block (s := S1x32) S1x32.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S16000x32.size a ≤ S16000x32.size a
  hwx15_5 : ∀ i : grid15.Coords, EltTy.bits .f32 = 32 ∨ (Rect.block (s := S16000x32) S16000x32.size (cc15_transform_5 i) (hinb15_5 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S1600x32.size a ≤ S1600x32.size a
  hwx16_0 : ∀ i : grid16.Coords, EltTy.bits .f32 = 32 ∨ (Rect.block (s := S1600x32) S1600x32.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S32x32.size a ≤ S32x32.size a
  hwx16_1 : ∀ i : grid16.Coords, EltTy.bits .f32 = 32 ∨ (Rect.block (s := S32x32) S32x32.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x32.size a ≤ S1x32.size a
  hwx16_2 : ∀ i : grid16.Coords, EltTy.bits .f32 = 32 ∨ (Rect.block (s := S1x32) S1x32.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S32x32.size a ≤ S32x32.size a
  hwx16_3 : ∀ i : grid16.Coords, EltTy.bits .f32 = 32 ∨ (Rect.block (s := S32x32) S32x32.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x32.size a ≤ S1x32.size a
  hwx16_4 : ∀ i : grid16.Coords, EltTy.bits .f32 = 32 ∨ (Rect.block (s := S1x32) S1x32.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1600x32.size a ≤ S1600x32.size a
  hwx16_5 : ∀ i : grid16.Coords, EltTy.bits .f32 = 32 ∨ (Rect.block (s := S1600x32) S1600x32.size (cc16_transform_5 i) (hinb16_5 i)).WholeWords (EltTy.packing .f32)
  hrank17 : 0 < grid17.rank
  hstage17_0 : ∀ j, (stage17_0 j).IsWhole
  nbuf17_0 : grid17.bufCount reads17_0 true = 1
  hreads17_0 : ∀ i i' : grid17.Coords, (∀ a, reads17_0 a = true → i a = i' a) → cc17_transform_0 i = cc17_transform_0 i'
  hinb17_0 : ∀ (i : grid17.Coords) a, (cc17_transform_0 i a + 1) * S160x32.size a ≤ S160x32.size a
  hwx17_0 : ∀ i : grid17.Coords, EltTy.bits .f32 = 32 ∨ (Rect.block (s := S160x32) S160x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S32x16.size a ≤ S32x16.size a
  hwx17_1 : ∀ i : grid17.Coords, EltTy.bits .f32 = 32 ∨ (Rect.block (s := S32x16) S32x16.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x16.size a ≤ S1x16.size a
  hwx17_2 : ∀ i : grid17.Coords, EltTy.bits .f32 = 32 ∨ (Rect.block (s := S1x16) S1x16.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S160x16.size a ≤ S160x16.size a
  hwx17_3 : ∀ i : grid17.Coords, EltTy.bits .f32 = 32 ∨ (Rect.block (s := S160x16) S160x16.size (cc17_transform_3 i) (hinb17_3 i)).WholeWords (EltTy.packing .f32)
  hrank18 : 0 < grid18.rank
  hstage18_0 : ∀ j, (stage18_0 j).IsWhole
  nbuf18_0 : grid18.bufCount reads18_0 true = 1
  hreads18_0 : ∀ i i' : grid18.Coords, (∀ a, reads18_0 a = true → i a = i' a) → cc18_transform_0 i = cc18_transform_0 i'
  hinb18_0 : ∀ (i : grid18.Coords) a, (cc18_transform_0 i a + 1) * S160x16.size a ≤ S160x16.size a
  hwx18_0 : ∀ i : grid18.Coords, EltTy.bits .f32 = 32 ∨ (Rect.block (s := S160x16) S160x16.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x16.size a ≤ S1x16.size a
  hwx18_1 : ∀ i : grid18.Coords, EltTy.bits .f32 = 32 ∨ (Rect.block (s := S1x16) S1x16.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x16.size a ≤ S1x16.size a
  hwx18_2 : ∀ i : grid18.Coords, EltTy.bits .f32 = 32 ∨ (Rect.block (s := S1x16) S1x16.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S16x16.size a ≤ S16x16.size a
  hwx18_3 : ∀ i : grid18.Coords, EltTy.bits .f32 = 32 ∨ (Rect.block (s := S16x16) S16x16.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x16.size a ≤ S1x16.size a
  hwx18_4 : ∀ i : grid18.Coords, EltTy.bits .f32 = 32 ∨ (Rect.block (s := S1x16) S1x16.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S160x16.size a ≤ S160x16.size a
  hwx18_5 : ∀ i : grid18.Coords, EltTy.bits .f32 = 32 ∨ (Rect.block (s := S160x16) S160x16.size (cc18_transform_5 i) (hinb18_5 i)).WholeWords (EltTy.packing .f32)

variable [Facts₀]

def dot_S8000x50_S50x32_S8000x32_1_0_0_1_n_n : DotDims S8000x50 S50x32 S8000x32 where
  lhsContracting := [1]
  rhsContracting := [0]
  lhsNonContracting := [0]
  rhsNonContracting := [1]
  lhsBatch := []
  rhsBatch := []
  wf := dot_S8000x50_S50x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def gather_S160000x32_S2560000x1_S2560000x32_1_0_n_n_0_1_132 : GatherDims S160000x32 S2560000x1 S2560000x32 where
  offsetDims := [1]
  collapsedSliceDims := [0]
  operandBatchingDims := []
  startIndicesBatchingDims := []
  startIndexMap := [0]
  indexVectorDim := 1
  sliceSizes := ![1, 32]
  wf := gather_S160000x32_S2560000x1_S2560000x32_1_0_n_n_0_1_132_wf
def scatter_S160000x32_S2560000x1_S2560000x32_1_0_0_1 : ScatterDims S160000x32 S2560000x1 S2560000x32 where
  updateWindowDims := [1]
  insertedWindowDims := [0]
  scatterDimsToOperandDims := [0]
  indexVectorDim := 1
  wf := scatter_S160000x32_S2560000x1_S2560000x32_1_0_0_1_wf
def dot_S8000x32_S32x96_S8000x96_1_0_0_1_n_n : DotDims S8000x32 S32x96 S8000x96 where
  lhsContracting := [1]
  rhsContracting := [0]
  lhsNonContracting := [0]
  rhsNonContracting := [1]
  lhsBatch := []
  rhsBatch := []
  wf := dot_S8000x32_S32x96_S8000x96_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S16000x32_S160000x1_S160000x32_1_0_0_1 : ScatterDims S16000x32 S160000x1 S160000x32 where
  updateWindowDims := [1]
  insertedWindowDims := [0]
  scatterDimsToOperandDims := [0]
  indexVectorDim := 1
  wf := scatter_S16000x32_S160000x1_S160000x32_1_0_0_1_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def scatter_S1600x32_S16000x1_S16000x32_1_0_0_1 : ScatterDims S1600x32 S16000x1 S16000x32 where
  updateWindowDims := [1]
  insertedWindowDims := [0]
  scatterDimsToOperandDims := [0]
  indexVectorDim := 1
  wf := scatter_S1600x32_S16000x1_S16000x32_1_0_0_1_wf
def dot_S1600x32_S32x32_S1600x32_1_0_0_1_n_n : DotDims S1600x32 S32x32 S1600x32 where
  lhsContracting := [1]
  rhsContracting := [0]
  lhsNonContracting := [0]
  rhsNonContracting := [1]
  lhsBatch := []
  rhsBatch := []
  wf := dot_S1600x32_S32x32_S1600x32_1_0_0_1_n_n_wf
def scatter_S160x32_S1600x1_S1600x32_1_0_0_1 : ScatterDims S160x32 S1600x1 S1600x32 where
  updateWindowDims := [1]
  insertedWindowDims := [0]
  scatterDimsToOperandDims := [0]
  indexVectorDim := 1
  wf := scatter_S160x32_S1600x1_S1600x32_1_0_0_1_wf
def dot_S160x32_S32x16_S160x16_1_0_0_1_n_n : DotDims S160x32 S32x16 S160x16 where
  lhsContracting := [1]
  rhsContracting := [0]
  lhsNonContracting := [0]
  rhsNonContracting := [1]
  lhsBatch := []
  rhsBatch := []
  wf := dot_S160x32_S32x16_S160x16_1_0_0_1_n_n_wf
def dot_S160x16_S16x16_S160x16_1_0_0_1_n_n : DotDims S160x16 S16x16 S160x16 where
  lhsContracting := [1]
  rhsContracting := [0]
  lhsNonContracting := [0]
  rhsNonContracting := [1]
  lhsBatch := []
  rhsBatch := []
  wf := dot_S160x16_S16x16_S160x16_1_0_0_1_n_n_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S50x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S8000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S8000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S32x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S32x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S8000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S8000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S50x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51_0) S8000x32.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v51_1) S8000x32.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v51_0) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S8000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S32x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S32x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S8000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v72) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S8000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg0) S8000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S8000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v86) S50x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S32x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94_0) S8000x32.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v94_1) S8000x32.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v94_0) S8000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S8000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v106) S32x96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v108) S32x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v111) S1x96.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v114) S1x96.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v115) S8000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v115) S8000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v120) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v123) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v127) S8000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_arg0) S8000x2.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v127) S8000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v129) S50x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v133) S64x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v136) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v131) S32x32.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v137_0) S8000x32.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v137_1) S8000x32.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v137_0) S8000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v147) S8000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v149) S32x96.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v151) S32x96.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v154) S1x96.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v157) S1x96.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v158) S8000x32.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v158) S8000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v162) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v163) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v166) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v169) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v170) S8000x32.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_arg0) S8000x2.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v170) S8000x32.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v172) S50x32.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v176) S64x32.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v179) S1x32.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v174) S32x32.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v180_0) S8000x32.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v180_1) S8000x32.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v180_0) S8000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v190) S8000x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v192) S32x96.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v194) S32x96.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v197) S1x96.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v200) S1x96.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v201) S8000x32.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v201) S8000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v205) S1x32.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v206) S1x32.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v209) S1x32.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v212) S1x32.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v213) S8000x32.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v216) S16000x32.size cc15_transform_0 reads15_0 false true 1 stage15_0 sem15_0
    hrank15 hreads15_0 hinb15_0 nbuf15_0 (Memref.isWhole_whole _) hwx15_0 hstage15_0

abbrev win15_1 : Pipeline.Window sig grid15 :=
  Pipeline.Window.ofSpec (Memref.whole main_arg15) S32x32.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v217) S1x32.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg17) S32x32.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v218) S1x32.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v219) S16000x32.size cc15_transform_5 reads15_5 true true 1 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v222) S1600x32.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_arg19) S32x32.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v223) S1x32.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg21) S32x32.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v224) S1x32.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v225) S1600x32.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v228) S160x32.size cc17_transform_0 reads17_0 false true 1 stage17_0 sem17_0
    hrank17 hreads17_0 hinb17_0 nbuf17_0 (Memref.isWhole_whole _) hwx17_0 hstage17_0

abbrev win17_1 : Pipeline.Window sig grid17 :=
  Pipeline.Window.ofSpec (Memref.whole main_arg23) S32x16.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v229) S1x16.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v230) S160x16.size cc17_transform_3 reads17_3 true true 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v230) S160x16.size cc18_transform_0 reads18_0 false true 1 stage18_0 sem18_0
    hrank18 hreads18_0 hinb18_0 nbuf18_0 (Memref.isWhole_whole _) hwx18_0 hstage18_0

abbrev win18_1 : Pipeline.Window sig grid18 :=
  Pipeline.Window.ofSpec (Memref.whole main_v234) S1x16.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v235) S1x16.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg25) S16x16.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v236) S1x16.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v237) S160x16.size cc18_transform_5 reads18_5 true true 1 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S160000x2 : Shape := ⟨2, ![160000, 2]⟩
abbrev S2x2560000 : Shape := ⟨2, ![2, 2560000]⟩
abbrev S160000 : Shape := ⟨1, ![160000]⟩
abbrev S16000 : Shape := ⟨1, ![16000]⟩
abbrev S1600 : Shape := ⟨1, ![1600]⟩
abbrev S5x50x32 : Shape := ⟨3, ![5, 50, 32]⟩
abbrev S5x64x32 : Shape := ⟨3, ![5, 64, 32]⟩
abbrev S5x32 : Shape := ⟨2, ![5, 32]⟩
abbrev S5x32x32 : Shape := ⟨3, ![5, 32, 32]⟩
abbrev S5x32x96 : Shape := ⟨3, ![5, 32, 96]⟩
abbrev S5x96 : Shape := ⟨2, ![5, 96]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x2560000 : Shape := ⟨2, ![1, 2560000]⟩
abbrev S2560000 : Shape := ⟨1, ![2560000]⟩
abbrev S1x50x32 : Shape := ⟨3, ![1, 50, 32]⟩
abbrev S50x32 : Shape := ⟨2, ![50, 32]⟩
abbrev S_ : Shape := ⟨0, ![]⟩
abbrev S160000x2x1 : Shape := ⟨3, ![160000, 2, 1]⟩
abbrev S160000x2x32 : Shape := ⟨3, ![160000, 2, 32]⟩
abbrev S160000x32 : Shape := ⟨2, ![160000, 32]⟩
abbrev S1x32x32 : Shape := ⟨3, ![1, 32, 32]⟩
abbrev S2560000x1 : Shape := ⟨2, ![2560000, 1]⟩
abbrev S2560000x32 : Shape := ⟨2, ![2560000, 32]⟩
abbrev S1x32x96 : Shape := ⟨3, ![1, 32, 96]⟩
abbrev S32x96 : Shape := ⟨2, ![32, 96]⟩
abbrev S160000x96 : Shape := ⟨2, ![160000, 96]⟩
abbrev S1x96 : Shape := ⟨2, ![1, 96]⟩
abbrev S96 : Shape := ⟨1, ![96]⟩
abbrev S1x32 : Shape := ⟨2, ![1, 32]⟩
abbrev S160000x64 : Shape := ⟨2, ![160000, 64]⟩
abbrev S1x64x32 : Shape := ⟨3, ![1, 64, 32]⟩
abbrev S64x32 : Shape := ⟨2, ![64, 32]⟩
abbrev S16000x32 : Shape := ⟨2, ![16000, 32]⟩
abbrev S160000x1 : Shape := ⟨2, ![160000, 1]⟩
abbrev S1600x32 : Shape := ⟨2, ![1600, 32]⟩
abbrev S16000x1 : Shape := ⟨2, ![16000, 1]⟩
abbrev S160x32 : Shape := ⟨2, ![160, 32]⟩
abbrev S1600x1 : Shape := ⟨2, ![1600, 1]⟩
abbrev S160x16 : Shape := ⟨2, ![160, 16]⟩
abbrev S1x16 : Shape := ⟨2, ![1, 16]⟩

abbrev nBuf : Space → Nat
  | .hbm => 792
  | .vmem => 0
  | .smem => 0
  | _ => 0

abbrev hbmTy0_0 (i : Nat) : BufTy := match i % 128 with
  | 0 => ⟨S160000x2, .i32⟩
  | 1 => ⟨S2x2560000, .i32⟩
  | 2 => ⟨S160000, .i32⟩
  | 3 => ⟨S16000, .i32⟩
  | 4 => ⟨S1600, .i32⟩
  | 5 => ⟨S5x50x32, .f32⟩
  | 6 => ⟨S5x64x32, .f32⟩
  | 7 => ⟨S5x32, .f32⟩
  | 8 => ⟨S5x32x32, .f32⟩
  | 9 => ⟨S5x32x96, .f32⟩
  | 10 => ⟨S5x32x96, .f32⟩
  | 11 => ⟨S5x96, .f32⟩
  | 12 => ⟨S5x96, .f32⟩
  | 13 => ⟨S5x32, .f32⟩
  | 14 => ⟨S5x32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32x32, .f32⟩
  | 22 => ⟨S32, .f32⟩
  | 23 => ⟨S32x16, .f32⟩
  | 24 => ⟨S16, .f32⟩
  | 25 => ⟨S16x16, .f32⟩
  | 26 => ⟨S16, .f32⟩
  | 27 => ⟨S1x2560000, .i32⟩
  | 28 => ⟨S2560000, .i32⟩
  | 29 => ⟨S1x2560000, .i32⟩
  | 30 => ⟨S2560000, .i32⟩
  | 31 => ⟨S1x50x32, .f32⟩
  | 32 => ⟨S50x32, .f32⟩
  | 33 => ⟨S_, .i32⟩
  | 34 => ⟨S160000x2, .i32⟩
  | 35 => ⟨S160000x2, .i1⟩
  | 36 => ⟨S_, .i32⟩
  | 37 => ⟨S160000x2, .i32⟩
  | 38 => ⟨S160000x2, .i32⟩
  | 39 => ⟨S160000x2, .i32⟩
  | 40 => ⟨S160000x2x1, .i32⟩
  | 41 => ⟨S160000x2x32, .f32⟩
  | 42 => ⟨S_, .f32⟩
  | 43 => ⟨S160000x32, .f32⟩
  | 44 => ⟨S1x32x32, .f32⟩
  | 45 => ⟨S32x32, .f32⟩
  | 46 => ⟨S160000x32, .f32⟩
  | 47 => ⟨S_, .i32⟩
  | 48 => ⟨S2560000, .i32⟩
  | 49 => ⟨S2560000, .i1⟩
  | 50 => ⟨S_, .i32⟩
  | 51 => ⟨S2560000, .i32⟩
  | 52 => ⟨S2560000, .i32⟩
  | 53 => ⟨S2560000, .i32⟩
  | 54 => ⟨S2560000x1, .i32⟩
  | 55 => ⟨S2560000x32, .f32⟩
  | 56 => ⟨S_, .f32⟩
  | 57 => ⟨S160000x32, .f32⟩
  | 58 => ⟨S2560000x1, .i32⟩
  | 59 => ⟨S160000x32, .f32⟩
  | 60 => ⟨S1x32x96, .f32⟩
  | 61 => ⟨S32x96, .f32⟩
  | 62 => ⟨S160000x96, .f32⟩
  | 63 => ⟨S1x96, .f32⟩
  | 64 => ⟨S96, .f32⟩
  | 65 => ⟨S1x96, .f32⟩
  | 66 => ⟨S160000x96, .f32⟩
  | 67 => ⟨S160000x96, .f32⟩
  | 68 => ⟨S1x32x96, .f32⟩
  | 69 => ⟨S32x96, .f32⟩
  | 70 => ⟨S160000x96, .f32⟩
  | 71 => ⟨S1x96, .f32⟩
  | 72 => ⟨S96, .f32⟩
  | 73 => ⟨S1x96, .f32⟩
  | 74 => ⟨S160000x96, .f32⟩
  | 75 => ⟨S160000x96, .f32⟩
  | 76 => ⟨S160000x32, .f32⟩
  | 77 => ⟨S160000x32, .f32⟩
  | 78 => ⟨S160000x32, .f32⟩
  | 79 => ⟨S160000x32, .f32⟩
  | 80 => ⟨S160000x32, .f32⟩
  | 81 => ⟨S160000x32, .f32⟩
  | 82 => ⟨S160000x32, .f32⟩
  | 83 => ⟨S160000x32, .f32⟩
  | 84 => ⟨S160000x32, .f32⟩
  | 85 => ⟨S_, .f32⟩
  | 86 => ⟨S160000x32, .f32⟩
  | 87 => ⟨S160000x32, .f32⟩
  | 88 => ⟨S_, .f32⟩
  | 89 => ⟨S160000x32, .f32⟩
  | 90 => ⟨S160000x32, .f32⟩
  | 91 => ⟨S160000x32, .f32⟩
  | 92 => ⟨S160000x32, .f32⟩
  | 93 => ⟨S160000x32, .f32⟩
  | 94 => ⟨S_, .f32⟩
  | 95 => ⟨S160000x32, .f32⟩
  | 96 => ⟨S160000x32, .f32⟩
  | 97 => ⟨S_, .f32⟩
  | 98 => ⟨S160000x32, .f32⟩
  | 99 => ⟨S160000x32, .f32⟩
  | 100 => ⟨S160000x32, .f32⟩
  | 101 => ⟨S160000x32, .f32⟩
  | 102 => ⟨S160000x32, .f32⟩
  | 103 => ⟨S_, .f32⟩
  | 104 => ⟨S160000x32, .f32⟩
  | 105 => ⟨S160000x32, .f32⟩
  | 106 => ⟨S160000x32, .f32⟩
  | 107 => ⟨S160000x32, .f32⟩
  | 108 => ⟨S160000x32, .f32⟩
  | 109 => ⟨S1x32, .f32⟩
  | 110 => ⟨S32, .f32⟩
  | 111 => ⟨S1x32, .f32⟩
  | 112 => ⟨S32, .f32⟩
  | 113 => ⟨S_, .f32⟩
  | 114 => ⟨S32, .f32⟩
  | 115 => ⟨S_, .f32⟩
  | 116 => ⟨S32, .f32⟩
  | 117 => ⟨S32, .f32⟩
  | 118 => ⟨S_, .i32⟩
  | 119 => ⟨S_, .f32⟩
  | 120 => ⟨S32, .f32⟩
  | 121 => ⟨S1x32, .f32⟩
  | 122 => ⟨S_, .f32⟩
  | 123 => ⟨S1x32, .f32⟩
  | 124 => ⟨S1x32, .f32⟩
  | 125 => ⟨S160000x32, .f32⟩
  | 126 => ⟨S160000x32, .f32⟩
  | 127 => ⟨S160000x32, .f32⟩
  | _ => ⟨S160000x2, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S32, .f32⟩
  | 5 => ⟨S32, .f32⟩
  | 6 => ⟨S32, .f32⟩
  | 7 => ⟨S_, .f32⟩
  | 8 => ⟨S_, .i1⟩
  | 9 => ⟨S_, .f32⟩
  | 10 => ⟨S_, .f32⟩
  | 11 => ⟨S32, .f32⟩
  | 12 => ⟨S32, .f32⟩
  | 13 => ⟨S1x32, .f32⟩
  | 14 => ⟨S160000x32, .f32⟩
  | 15 => ⟨S160000x32, .f32⟩
  | 16 => ⟨S_, .f32⟩
  | 17 => ⟨S32, .f32⟩
  | 18 => ⟨S32, .f32⟩
  | 19 => ⟨S32, .f32⟩
  | 20 => ⟨S1x32, .f32⟩
  | 21 => ⟨S160000x32, .f32⟩
  | 22 => ⟨S160000x32, .f32⟩
  | 23 => ⟨S1x32, .f32⟩
  | 24 => ⟨S160000x32, .f32⟩
  | 25 => ⟨S160000x32, .f32⟩
  | 26 => ⟨S1x32, .f32⟩
  | 27 => ⟨S160000x32, .f32⟩
  | 28 => ⟨S160000x32, .f32⟩
  | 29 => ⟨S1x50x32, .f32⟩
  | 30 => ⟨S50x32, .f32⟩
  | 31 => ⟨S_, .i32⟩
  | 32 => ⟨S160000x2, .i32⟩
  | 33 => ⟨S160000x2, .i1⟩
  | 34 => ⟨S_, .i32⟩
  | 35 => ⟨S160000x2, .i32⟩
  | 36 => ⟨S160000x2, .i32⟩
  | 37 => ⟨S160000x2, .i32⟩
  | 38 => ⟨S160000x2x1, .i32⟩
  | 39 => ⟨S160000x2x32, .f32⟩
  | 40 => ⟨S_, .f32⟩
  | 41 => ⟨S160000x32, .f32⟩
  | 42 => ⟨S160000x64, .f32⟩
  | 43 => ⟨S1x64x32, .f32⟩
  | 44 => ⟨S64x32, .f32⟩
  | 45 => ⟨S160000x32, .f32⟩
  | 46 => ⟨S1x32, .f32⟩
  | 47 => ⟨S32, .f32⟩
  | 48 => ⟨S1x32, .f32⟩
  | 49 => ⟨S160000x32, .f32⟩
  | 50 => ⟨S160000x32, .f32⟩
  | 51 => ⟨S1x32x32, .f32⟩
  | 52 => ⟨S32x32, .f32⟩
  | 53 => ⟨S160000x32, .f32⟩
  | 54 => ⟨S_, .i32⟩
  | 55 => ⟨S2560000, .i32⟩
  | 56 => ⟨S2560000, .i1⟩
  | 57 => ⟨S_, .i32⟩
  | 58 => ⟨S2560000, .i32⟩
  | 59 => ⟨S2560000, .i32⟩
  | 60 => ⟨S2560000, .i32⟩
  | 61 => ⟨S2560000x1, .i32⟩
  | 62 => ⟨S2560000x32, .f32⟩
  | 63 => ⟨S_, .f32⟩
  | 64 => ⟨S160000x32, .f32⟩
  | 65 => ⟨S2560000x1, .i32⟩
  | 66 => ⟨S160000x32, .f32⟩
  | 67 => ⟨S1x32x96, .f32⟩
  | 68 => ⟨S32x96, .f32⟩
  | 69 => ⟨S160000x96, .f32⟩
  | 70 => ⟨S1x96, .f32⟩
  | 71 => ⟨S96, .f32⟩
  | 72 => ⟨S1x96, .f32⟩
  | 73 => ⟨S160000x96, .f32⟩
  | 74 => ⟨S160000x96, .f32⟩
  | 75 => ⟨S1x32x96, .f32⟩
  | 76 => ⟨S32x96, .f32⟩
  | 77 => ⟨S160000x96, .f32⟩
  | 78 => ⟨S1x96, .f32⟩
  | 79 => ⟨S96, .f32⟩
  | 80 => ⟨S1x96, .f32⟩
  | 81 => ⟨S160000x96, .f32⟩
  | 82 => ⟨S160000x96, .f32⟩
  | 83 => ⟨S160000x32, .f32⟩
  | 84 => ⟨S160000x32, .f32⟩
  | 85 => ⟨S160000x32, .f32⟩
  | 86 => ⟨S160000x32, .f32⟩
  | 87 => ⟨S160000x32, .f32⟩
  | 88 => ⟨S160000x32, .f32⟩
  | 89 => ⟨S160000x32, .f32⟩
  | 90 => ⟨S160000x32, .f32⟩
  | 91 => ⟨S160000x32, .f32⟩
  | 92 => ⟨S_, .f32⟩
  | 93 => ⟨S160000x32, .f32⟩
  | 94 => ⟨S160000x32, .f32⟩
  | 95 => ⟨S_, .f32⟩
  | 96 => ⟨S160000x32, .f32⟩
  | 97 => ⟨S160000x32, .f32⟩
  | 98 => ⟨S160000x32, .f32⟩
  | 99 => ⟨S160000x32, .f32⟩
  | 100 => ⟨S160000x32, .f32⟩
  | 101 => ⟨S_, .f32⟩
  | 102 => ⟨S160000x32, .f32⟩
  | 103 => ⟨S160000x32, .f32⟩
  | 104 => ⟨S_, .f32⟩
  | 105 => ⟨S160000x32, .f32⟩
  | 106 => ⟨S160000x32, .f32⟩
  | 107 => ⟨S160000x32, .f32⟩
  | 108 => ⟨S160000x32, .f32⟩
  | 109 => ⟨S160000x32, .f32⟩
  | 110 => ⟨S_, .f32⟩
  | 111 => ⟨S160000x32, .f32⟩
  | 112 => ⟨S160000x32, .f32⟩
  | 113 => ⟨S160000x32, .f32⟩
  | 114 => ⟨S160000x32, .f32⟩
  | 115 => ⟨S160000x32, .f32⟩
  | 116 => ⟨S1x32, .f32⟩
  | 117 => ⟨S32, .f32⟩
  | 118 => ⟨S1x32, .f32⟩
  | 119 => ⟨S32, .f32⟩
  | 120 => ⟨S_, .f32⟩
  | 121 => ⟨S32, .f32⟩
  | 122 => ⟨S_, .f32⟩
  | 123 => ⟨S32, .f32⟩
  | 124 => ⟨S32, .f32⟩
  | 125 => ⟨S_, .i32⟩
  | 126 => ⟨S_, .f32⟩
  | 127 => ⟨S32, .f32⟩
  | _ => ⟨S160000x2, .i32⟩

abbrev hbmTy0_2 (i : Nat) : BufTy := match i % 128 with
  | 0 => ⟨S1x32, .f32⟩
  | 1 => ⟨S_, .f32⟩
  | 2 => ⟨S1x32, .f32⟩
  | 3 => ⟨S1x32, .f32⟩
  | 4 => ⟨S160000x32, .f32⟩
  | 5 => ⟨S160000x32, .f32⟩
  | 6 => ⟨S160000x32, .f32⟩
  | 7 => ⟨S_, .f32⟩
  | 8 => ⟨S_, .f32⟩
  | 9 => ⟨S_, .f32⟩
  | 10 => ⟨S_, .f32⟩
  | 11 => ⟨S32, .f32⟩
  | 12 => ⟨S32, .f32⟩
  | 13 => ⟨S32, .f32⟩
  | 14 => ⟨S_, .f32⟩
  | 15 => ⟨S_, .i1⟩
  | 16 => ⟨S_, .f32⟩
  | 17 => ⟨S_, .f32⟩
  | 18 => ⟨S32, .f32⟩
  | 19 => ⟨S32, .f32⟩
  | 20 => ⟨S1x32, .f32⟩
  | 21 => ⟨S160000x32, .f32⟩
  | 22 => ⟨S160000x32, .f32⟩
  | 23 => ⟨S_, .f32⟩
  | 24 => ⟨S32, .f32⟩
  | 25 => ⟨S32, .f32⟩
  | 26 => ⟨S32, .f32⟩
  | 27 => ⟨S1x32, .f32⟩
  | 28 => ⟨S160000x32, .f32⟩
  | 29 => ⟨S160000x32, .f32⟩
  | 30 => ⟨S1x32, .f32⟩
  | 31 => ⟨S160000x32, .f32⟩
  | 32 => ⟨S160000x32, .f32⟩
  | 33 => ⟨S1x32, .f32⟩
  | 34 => ⟨S160000x32, .f32⟩
  | 35 => ⟨S160000x32, .f32⟩
  | 36 => ⟨S1x50x32, .f32⟩
  | 37 => ⟨S50x32, .f32⟩
  | 38 => ⟨S_, .i32⟩
  | 39 => ⟨S160000x2, .i32⟩
  | 40 => ⟨S160000x2, .i1⟩
  | 41 => ⟨S_, .i32⟩
  | 42 => ⟨S160000x2, .i32⟩
  | 43 => ⟨S160000x2, .i32⟩
  | 44 => ⟨S160000x2, .i32⟩
  | 45 => ⟨S160000x2x1, .i32⟩
  | 46 => ⟨S160000x2x32, .f32⟩
  | 47 => ⟨S_, .f32⟩
  | 48 => ⟨S160000x32, .f32⟩
  | 49 => ⟨S160000x64, .f32⟩
  | 50 => ⟨S1x64x32, .f32⟩
  | 51 => ⟨S64x32, .f32⟩
  | 52 => ⟨S160000x32, .f32⟩
  | 53 => ⟨S1x32, .f32⟩
  | 54 => ⟨S32, .f32⟩
  | 55 => ⟨S1x32, .f32⟩
  | 56 => ⟨S160000x32, .f32⟩
  | 57 => ⟨S160000x32, .f32⟩
  | 58 => ⟨S1x32x32, .f32⟩
  | 59 => ⟨S32x32, .f32⟩
  | 60 => ⟨S160000x32, .f32⟩
  | 61 => ⟨S_, .i32⟩
  | 62 => ⟨S2560000, .i32⟩
  | 63 => ⟨S2560000, .i1⟩
  | 64 => ⟨S_, .i32⟩
  | 65 => ⟨S2560000, .i32⟩
  | 66 => ⟨S2560000, .i32⟩
  | 67 => ⟨S2560000, .i32⟩
  | 68 => ⟨S2560000x1, .i32⟩
  | 69 => ⟨S2560000x32, .f32⟩
  | 70 => ⟨S_, .f32⟩
  | 71 => ⟨S160000x32, .f32⟩
  | 72 => ⟨S2560000x1, .i32⟩
  | 73 => ⟨S160000x32, .f32⟩
  | 74 => ⟨S1x32x96, .f32⟩
  | 75 => ⟨S32x96, .f32⟩
  | 76 => ⟨S160000x96, .f32⟩
  | 77 => ⟨S1x96, .f32⟩
  | 78 => ⟨S96, .f32⟩
  | 79 => ⟨S1x96, .f32⟩
  | 80 => ⟨S160000x96, .f32⟩
  | 81 => ⟨S160000x96, .f32⟩
  | 82 => ⟨S1x32x96, .f32⟩
  | 83 => ⟨S32x96, .f32⟩
  | 84 => ⟨S160000x96, .f32⟩
  | 85 => ⟨S1x96, .f32⟩
  | 86 => ⟨S96, .f32⟩
  | 87 => ⟨S1x96, .f32⟩
  | 88 => ⟨S160000x96, .f32⟩
  | 89 => ⟨S160000x96, .f32⟩
  | 90 => ⟨S160000x32, .f32⟩
  | 91 => ⟨S160000x32, .f32⟩
  | 92 => ⟨S160000x32, .f32⟩
  | 93 => ⟨S160000x32, .f32⟩
  | 94 => ⟨S160000x32, .f32⟩
  | 95 => ⟨S160000x32, .f32⟩
  | 96 => ⟨S160000x32, .f32⟩
  | 97 => ⟨S160000x32, .f32⟩
  | 98 => ⟨S160000x32, .f32⟩
  | 99 => ⟨S_, .f32⟩
  | 100 => ⟨S160000x32, .f32⟩
  | 101 => ⟨S160000x32, .f32⟩
  | 102 => ⟨S_, .f32⟩
  | 103 => ⟨S160000x32, .f32⟩
  | 104 => ⟨S160000x32, .f32⟩
  | 105 => ⟨S160000x32, .f32⟩
  | 106 => ⟨S160000x32, .f32⟩
  | 107 => ⟨S160000x32, .f32⟩
  | 108 => ⟨S_, .f32⟩
  | 109 => ⟨S160000x32, .f32⟩
  | 110 => ⟨S160000x32, .f32⟩
  | 111 => ⟨S_, .f32⟩
  | 112 => ⟨S160000x32, .f32⟩
  | 113 => ⟨S160000x32, .f32⟩
  | 114 => ⟨S160000x32, .f32⟩
  | 115 => ⟨S160000x32, .f32⟩
  | 116 => ⟨S160000x32, .f32⟩
  | 117 => ⟨S_, .f32⟩
  | 118 => ⟨S160000x32, .f32⟩
  | 119 => ⟨S160000x32, .f32⟩
  | 120 => ⟨S160000x32, .f32⟩
  | 121 => ⟨S160000x32, .f32⟩
  | 122 => ⟨S160000x32, .f32⟩
  | 123 => ⟨S1x32, .f32⟩
  | 124 => ⟨S32, .f32⟩
  | 125 => ⟨S1x32, .f32⟩
  | 126 => ⟨S32, .f32⟩
  | 127 => ⟨S_, .f32⟩
  | _ => ⟨S160000x2, .i32⟩

abbrev hbmTy0_3 (i : Nat) : BufTy := match i % 128 with
  | 0 => ⟨S32, .f32⟩
  | 1 => ⟨S_, .f32⟩
  | 2 => ⟨S32, .f32⟩
  | 3 => ⟨S32, .f32⟩
  | 4 => ⟨S_, .i32⟩
  | 5 => ⟨S_, .f32⟩
  | 6 => ⟨S32, .f32⟩
  | 7 => ⟨S1x32, .f32⟩
  | 8 => ⟨S_, .f32⟩
  | 9 => ⟨S1x32, .f32⟩
  | 10 => ⟨S1x32, .f32⟩
  | 11 => ⟨S160000x32, .f32⟩
  | 12 => ⟨S160000x32, .f32⟩
  | 13 => ⟨S160000x32, .f32⟩
  | 14 => ⟨S_, .f32⟩
  | 15 => ⟨S_, .f32⟩
  | 16 => ⟨S_, .f32⟩
  | 17 => ⟨S_, .f32⟩
  | 18 => ⟨S32, .f32⟩
  | 19 => ⟨S32, .f32⟩
  | 20 => ⟨S32, .f32⟩
  | 21 => ⟨S_, .f32⟩
  | 22 => ⟨S_, .i1⟩
  | 23 => ⟨S_, .f32⟩
  | 24 => ⟨S_, .f32⟩
  | 25 => ⟨S32, .f32⟩
  | 26 => ⟨S32, .f32⟩
  | 27 => ⟨S1x32, .f32⟩
  | 28 => ⟨S160000x32, .f32⟩
  | 29 => ⟨S160000x32, .f32⟩
  | 30 => ⟨S_, .f32⟩
  | 31 => ⟨S32, .f32⟩
  | 32 => ⟨S32, .f32⟩
  | 33 => ⟨S32, .f32⟩
  | 34 => ⟨S1x32, .f32⟩
  | 35 => ⟨S160000x32, .f32⟩
  | 36 => ⟨S160000x32, .f32⟩
  | 37 => ⟨S1x32, .f32⟩
  | 38 => ⟨S160000x32, .f32⟩
  | 39 => ⟨S160000x32, .f32⟩
  | 40 => ⟨S1x32, .f32⟩
  | 41 => ⟨S160000x32, .f32⟩
  | 42 => ⟨S160000x32, .f32⟩
  | 43 => ⟨S1x50x32, .f32⟩
  | 44 => ⟨S50x32, .f32⟩
  | 45 => ⟨S_, .i32⟩
  | 46 => ⟨S160000x2, .i32⟩
  | 47 => ⟨S160000x2, .i1⟩
  | 48 => ⟨S_, .i32⟩
  | 49 => ⟨S160000x2, .i32⟩
  | 50 => ⟨S160000x2, .i32⟩
  | 51 => ⟨S160000x2, .i32⟩
  | 52 => ⟨S160000x2x1, .i32⟩
  | 53 => ⟨S160000x2x32, .f32⟩
  | 54 => ⟨S_, .f32⟩
  | 55 => ⟨S160000x32, .f32⟩
  | 56 => ⟨S160000x64, .f32⟩
  | 57 => ⟨S1x64x32, .f32⟩
  | 58 => ⟨S64x32, .f32⟩
  | 59 => ⟨S160000x32, .f32⟩
  | 60 => ⟨S1x32, .f32⟩
  | 61 => ⟨S32, .f32⟩
  | 62 => ⟨S1x32, .f32⟩
  | 63 => ⟨S160000x32, .f32⟩
  | 64 => ⟨S160000x32, .f32⟩
  | 65 => ⟨S1x32x32, .f32⟩
  | 66 => ⟨S32x32, .f32⟩
  | 67 => ⟨S160000x32, .f32⟩
  | 68 => ⟨S_, .i32⟩
  | 69 => ⟨S2560000, .i32⟩
  | 70 => ⟨S2560000, .i1⟩
  | 71 => ⟨S_, .i32⟩
  | 72 => ⟨S2560000, .i32⟩
  | 73 => ⟨S2560000, .i32⟩
  | 74 => ⟨S2560000, .i32⟩
  | 75 => ⟨S2560000x1, .i32⟩
  | 76 => ⟨S2560000x32, .f32⟩
  | 77 => ⟨S_, .f32⟩
  | 78 => ⟨S160000x32, .f32⟩
  | 79 => ⟨S2560000x1, .i32⟩
  | 80 => ⟨S160000x32, .f32⟩
  | 81 => ⟨S1x32x96, .f32⟩
  | 82 => ⟨S32x96, .f32⟩
  | 83 => ⟨S160000x96, .f32⟩
  | 84 => ⟨S1x96, .f32⟩
  | 85 => ⟨S96, .f32⟩
  | 86 => ⟨S1x96, .f32⟩
  | 87 => ⟨S160000x96, .f32⟩
  | 88 => ⟨S160000x96, .f32⟩
  | 89 => ⟨S1x32x96, .f32⟩
  | 90 => ⟨S32x96, .f32⟩
  | 91 => ⟨S160000x96, .f32⟩
  | 92 => ⟨S1x96, .f32⟩
  | 93 => ⟨S96, .f32⟩
  | 94 => ⟨S1x96, .f32⟩
  | 95 => ⟨S160000x96, .f32⟩
  | 96 => ⟨S160000x96, .f32⟩
  | 97 => ⟨S160000x32, .f32⟩
  | 98 => ⟨S160000x32, .f32⟩
  | 99 => ⟨S160000x32, .f32⟩
  | 100 => ⟨S160000x32, .f32⟩
  | 101 => ⟨S160000x32, .f32⟩
  | 102 => ⟨S160000x32, .f32⟩
  | 103 => ⟨S160000x32, .f32⟩
  | 104 => ⟨S160000x32, .f32⟩
  | 105 => ⟨S160000x32, .f32⟩
  | 106 => ⟨S_, .f32⟩
  | 107 => ⟨S160000x32, .f32⟩
  | 108 => ⟨S160000x32, .f32⟩
  | 109 => ⟨S_, .f32⟩
  | 110 => ⟨S160000x32, .f32⟩
  | 111 => ⟨S160000x32, .f32⟩
  | 112 => ⟨S160000x32, .f32⟩
  | 113 => ⟨S160000x32, .f32⟩
  | 114 => ⟨S160000x32, .f32⟩
  | 115 => ⟨S_, .f32⟩
  | 116 => ⟨S160000x32, .f32⟩
  | 117 => ⟨S160000x32, .f32⟩
  | 118 => ⟨S_, .f32⟩
  | 119 => ⟨S160000x32, .f32⟩
  | 120 => ⟨S160000x32, .f32⟩
  | 121 => ⟨S160000x32, .f32⟩
  | 122 => ⟨S160000x32, .f32⟩
  | 123 => ⟨S160000x32, .f32⟩
  | 124 => ⟨S_, .f32⟩
  | 125 => ⟨S160000x32, .f32⟩
  | 126 => ⟨S160000x32, .f32⟩
  | 127 => ⟨S160000x32, .f32⟩
  | _ => ⟨S160000x2, .i32⟩

abbrev hbmTy0_4 (i : Nat) : BufTy := match i % 128 with
  | 0 => ⟨S160000x32, .f32⟩
  | 1 => ⟨S160000x32, .f32⟩
  | 2 => ⟨S1x32, .f32⟩
  | 3 => ⟨S32, .f32⟩
  | 4 => ⟨S1x32, .f32⟩
  | 5 => ⟨S32, .f32⟩
  | 6 => ⟨S_, .f32⟩
  | 7 => ⟨S32, .f32⟩
  | 8 => ⟨S_, .f32⟩
  | 9 => ⟨S32, .f32⟩
  | 10 => ⟨S32, .f32⟩
  | 11 => ⟨S_, .i32⟩
  | 12 => ⟨S_, .f32⟩
  | 13 => ⟨S32, .f32⟩
  | 14 => ⟨S1x32, .f32⟩
  | 15 => ⟨S_, .f32⟩
  | 16 => ⟨S1x32, .f32⟩
  | 17 => ⟨S1x32, .f32⟩
  | 18 => ⟨S160000x32, .f32⟩
  | 19 => ⟨S160000x32, .f32⟩
  | 20 => ⟨S160000x32, .f32⟩
  | 21 => ⟨S_, .f32⟩
  | 22 => ⟨S_, .f32⟩
  | 23 => ⟨S_, .f32⟩
  | 24 => ⟨S_, .f32⟩
  | 25 => ⟨S32, .f32⟩
  | 26 => ⟨S32, .f32⟩
  | 27 => ⟨S32, .f32⟩
  | 28 => ⟨S_, .f32⟩
  | 29 => ⟨S_, .i1⟩
  | 30 => ⟨S_, .f32⟩
  | 31 => ⟨S_, .f32⟩
  | 32 => ⟨S32, .f32⟩
  | 33 => ⟨S32, .f32⟩
  | 34 => ⟨S1x32, .f32⟩
  | 35 => ⟨S160000x32, .f32⟩
  | 36 => ⟨S160000x32, .f32⟩
  | 37 => ⟨S_, .f32⟩
  | 38 => ⟨S32, .f32⟩
  | 39 => ⟨S32, .f32⟩
  | 40 => ⟨S32, .f32⟩
  | 41 => ⟨S1x32, .f32⟩
  | 42 => ⟨S160000x32, .f32⟩
  | 43 => ⟨S160000x32, .f32⟩
  | 44 => ⟨S1x32, .f32⟩
  | 45 => ⟨S160000x32, .f32⟩
  | 46 => ⟨S160000x32, .f32⟩
  | 47 => ⟨S1x32, .f32⟩
  | 48 => ⟨S160000x32, .f32⟩
  | 49 => ⟨S160000x32, .f32⟩
  | 50 => ⟨S1x50x32, .f32⟩
  | 51 => ⟨S50x32, .f32⟩
  | 52 => ⟨S_, .i32⟩
  | 53 => ⟨S160000x2, .i32⟩
  | 54 => ⟨S160000x2, .i1⟩
  | 55 => ⟨S_, .i32⟩
  | 56 => ⟨S160000x2, .i32⟩
  | 57 => ⟨S160000x2, .i32⟩
  | 58 => ⟨S160000x2, .i32⟩
  | 59 => ⟨S160000x2x1, .i32⟩
  | 60 => ⟨S160000x2x32, .f32⟩
  | 61 => ⟨S_, .f32⟩
  | 62 => ⟨S160000x32, .f32⟩
  | 63 => ⟨S160000x64, .f32⟩
  | 64 => ⟨S1x64x32, .f32⟩
  | 65 => ⟨S64x32, .f32⟩
  | 66 => ⟨S160000x32, .f32⟩
  | 67 => ⟨S1x32, .f32⟩
  | 68 => ⟨S32, .f32⟩
  | 69 => ⟨S1x32, .f32⟩
  | 70 => ⟨S160000x32, .f32⟩
  | 71 => ⟨S160000x32, .f32⟩
  | 72 => ⟨S1x32x32, .f32⟩
  | 73 => ⟨S32x32, .f32⟩
  | 74 => ⟨S160000x32, .f32⟩
  | 75 => ⟨S_, .i32⟩
  | 76 => ⟨S2560000, .i32⟩
  | 77 => ⟨S2560000, .i1⟩
  | 78 => ⟨S_, .i32⟩
  | 79 => ⟨S2560000, .i32⟩
  | 80 => ⟨S2560000, .i32⟩
  | 81 => ⟨S2560000, .i32⟩
  | 82 => ⟨S2560000x1, .i32⟩
  | 83 => ⟨S2560000x32, .f32⟩
  | 84 => ⟨S_, .f32⟩
  | 85 => ⟨S160000x32, .f32⟩
  | 86 => ⟨S2560000x1, .i32⟩
  | 87 => ⟨S160000x32, .f32⟩
  | 88 => ⟨S1x32x96, .f32⟩
  | 89 => ⟨S32x96, .f32⟩
  | 90 => ⟨S160000x96, .f32⟩
  | 91 => ⟨S1x96, .f32⟩
  | 92 => ⟨S96, .f32⟩
  | 93 => ⟨S1x96, .f32⟩
  | 94 => ⟨S160000x96, .f32⟩
  | 95 => ⟨S160000x96, .f32⟩
  | 96 => ⟨S1x32x96, .f32⟩
  | 97 => ⟨S32x96, .f32⟩
  | 98 => ⟨S160000x96, .f32⟩
  | 99 => ⟨S1x96, .f32⟩
  | 100 => ⟨S96, .f32⟩
  | 101 => ⟨S1x96, .f32⟩
  | 102 => ⟨S160000x96, .f32⟩
  | 103 => ⟨S160000x96, .f32⟩
  | 104 => ⟨S160000x32, .f32⟩
  | 105 => ⟨S160000x32, .f32⟩
  | 106 => ⟨S160000x32, .f32⟩
  | 107 => ⟨S160000x32, .f32⟩
  | 108 => ⟨S160000x32, .f32⟩
  | 109 => ⟨S160000x32, .f32⟩
  | 110 => ⟨S160000x32, .f32⟩
  | 111 => ⟨S160000x32, .f32⟩
  | 112 => ⟨S160000x32, .f32⟩
  | 113 => ⟨S_, .f32⟩
  | 114 => ⟨S160000x32, .f32⟩
  | 115 => ⟨S160000x32, .f32⟩
  | 116 => ⟨S_, .f32⟩
  | 117 => ⟨S160000x32, .f32⟩
  | 118 => ⟨S160000x32, .f32⟩
  | 119 => ⟨S160000x32, .f32⟩
  | 120 => ⟨S160000x32, .f32⟩
  | 121 => ⟨S160000x32, .f32⟩
  | 122 => ⟨S_, .f32⟩
  | 123 => ⟨S160000x32, .f32⟩
  | 124 => ⟨S160000x32, .f32⟩
  | 125 => ⟨S_, .f32⟩
  | 126 => ⟨S160000x32, .f32⟩
  | 127 => ⟨S160000x32, .f32⟩
  | _ => ⟨S160000x2, .i32⟩

abbrev hbmTy0_5 (i : Nat) : BufTy := match i % 128 with
  | 0 => ⟨S160000x32, .f32⟩
  | 1 => ⟨S160000x32, .f32⟩
  | 2 => ⟨S160000x32, .f32⟩
  | 3 => ⟨S_, .f32⟩
  | 4 => ⟨S160000x32, .f32⟩
  | 5 => ⟨S160000x32, .f32⟩
  | 6 => ⟨S160000x32, .f32⟩
  | 7 => ⟨S160000x32, .f32⟩
  | 8 => ⟨S160000x32, .f32⟩
  | 9 => ⟨S1x32, .f32⟩
  | 10 => ⟨S32, .f32⟩
  | 11 => ⟨S1x32, .f32⟩
  | 12 => ⟨S32, .f32⟩
  | 13 => ⟨S_, .f32⟩
  | 14 => ⟨S32, .f32⟩
  | 15 => ⟨S_, .f32⟩
  | 16 => ⟨S32, .f32⟩
  | 17 => ⟨S32, .f32⟩
  | 18 => ⟨S_, .i32⟩
  | 19 => ⟨S_, .f32⟩
  | 20 => ⟨S32, .f32⟩
  | 21 => ⟨S1x32, .f32⟩
  | 22 => ⟨S_, .f32⟩
  | 23 => ⟨S1x32, .f32⟩
  | 24 => ⟨S1x32, .f32⟩
  | 25 => ⟨S160000x32, .f32⟩
  | 26 => ⟨S160000x32, .f32⟩
  | 27 => ⟨S160000x32, .f32⟩
  | 28 => ⟨S_, .f32⟩
  | 29 => ⟨S_, .f32⟩
  | 30 => ⟨S_, .f32⟩
  | 31 => ⟨S_, .f32⟩
  | 32 => ⟨S32, .f32⟩
  | 33 => ⟨S32, .f32⟩
  | 34 => ⟨S32, .f32⟩
  | 35 => ⟨S_, .f32⟩
  | 36 => ⟨S_, .i1⟩
  | 37 => ⟨S_, .f32⟩
  | 38 => ⟨S_, .f32⟩
  | 39 => ⟨S32, .f32⟩
  | 40 => ⟨S32, .f32⟩
  | 41 => ⟨S1x32, .f32⟩
  | 42 => ⟨S160000x32, .f32⟩
  | 43 => ⟨S160000x32, .f32⟩
  | 44 => ⟨S_, .f32⟩
  | 45 => ⟨S32, .f32⟩
  | 46 => ⟨S32, .f32⟩
  | 47 => ⟨S32, .f32⟩
  | 48 => ⟨S1x32, .f32⟩
  | 49 => ⟨S160000x32, .f32⟩
  | 50 => ⟨S160000x32, .f32⟩
  | 51 => ⟨S1x32, .f32⟩
  | 52 => ⟨S160000x32, .f32⟩
  | 53 => ⟨S160000x32, .f32⟩
  | 54 => ⟨S1x32, .f32⟩
  | 55 => ⟨S160000x32, .f32⟩
  | 56 => ⟨S160000x32, .f32⟩
  | 57 => ⟨S_, .f32⟩
  | 58 => ⟨S16000x32, .f32⟩
  | 59 => ⟨S160000x1, .i32⟩
  | 60 => ⟨S16000x32, .f32⟩
  | 61 => ⟨S16000x32, .f32⟩
  | 62 => ⟨S1x32, .f32⟩
  | 63 => ⟨S16000x32, .f32⟩
  | 64 => ⟨S16000x32, .f32⟩
  | 65 => ⟨S_, .f32⟩
  | 66 => ⟨S16000x32, .f32⟩
  | 67 => ⟨S16000x32, .f32⟩
  | 68 => ⟨S16000x32, .f32⟩
  | 69 => ⟨S1x32, .f32⟩
  | 70 => ⟨S16000x32, .f32⟩
  | 71 => ⟨S16000x32, .f32⟩
  | 72 => ⟨S_, .f32⟩
  | 73 => ⟨S1600x32, .f32⟩
  | 74 => ⟨S16000x1, .i32⟩
  | 75 => ⟨S1600x32, .f32⟩
  | 76 => ⟨S1600x32, .f32⟩
  | 77 => ⟨S1x32, .f32⟩
  | 78 => ⟨S1600x32, .f32⟩
  | 79 => ⟨S1600x32, .f32⟩
  | 80 => ⟨S_, .f32⟩
  | 81 => ⟨S1600x32, .f32⟩
  | 82 => ⟨S1600x32, .f32⟩
  | 83 => ⟨S1600x32, .f32⟩
  | 84 => ⟨S1x32, .f32⟩
  | 85 => ⟨S1600x32, .f32⟩
  | 86 => ⟨S1600x32, .f32⟩
  | 87 => ⟨S_, .f32⟩
  | 88 => ⟨S160x32, .f32⟩
  | 89 => ⟨S1600x1, .i32⟩
  | 90 => ⟨S160x32, .f32⟩
  | 91 => ⟨S160x16, .f32⟩
  | 92 => ⟨S1x16, .f32⟩
  | 93 => ⟨S160x16, .f32⟩
  | 94 => ⟨S160x16, .f32⟩
  | 95 => ⟨S_, .f32⟩
  | 96 => ⟨S160x16, .f32⟩
  | 97 => ⟨S160x16, .i1⟩
  | 98 => ⟨S_, .f32⟩
  | 99 => ⟨S160x16, .f32⟩
  | 100 => ⟨S160x16, .i1⟩
  | 101 => ⟨S_, .f32⟩
  | 102 => ⟨S_, .f32⟩
  | 103 => ⟨S160x16, .f32⟩
  | 104 => ⟨S160x16, .f32⟩
  | 105 => ⟨S160x16, .f32⟩
  | 106 => ⟨S_, .f32⟩
  | 107 => ⟨S160x16, .f32⟩
  | 108 => ⟨S160x16, .f32⟩
  | 109 => ⟨S160x16, .f32⟩
  | 110 => ⟨S_, .f32⟩
  | 111 => ⟨S16, .f32⟩
  | 112 => ⟨S_, .f32⟩
  | 113 => ⟨S16, .f32⟩
  | 114 => ⟨S16, .f32⟩
  | 115 => ⟨S_, .i32⟩
  | 116 => ⟨S_, .f32⟩
  | 117 => ⟨S16, .f32⟩
  | 118 => ⟨S1x16, .f32⟩
  | 119 => ⟨S_, .f32⟩
  | 120 => ⟨S1x16, .f32⟩
  | 121 => ⟨S1x16, .f32⟩
  | 122 => ⟨S160x16, .f32⟩
  | 123 => ⟨S160x16, .f32⟩
  | 124 => ⟨S160x16, .f32⟩
  | 125 => ⟨S_, .f32⟩
  | 126 => ⟨S_, .f32⟩
  | 127 => ⟨S_, .f32⟩
  | _ => ⟨S160000x2, .i32⟩

abbrev hbmTy0_6 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S_, .i1⟩
  | 6 => ⟨S_, .f32⟩
  | 7 => ⟨S_, .f32⟩
  | 8 => ⟨S16, .f32⟩
  | 9 => ⟨S16, .f32⟩
  | 10 => ⟨S1x16, .f32⟩
  | 11 => ⟨S160x16, .f32⟩
  | 12 => ⟨S160x16, .f32⟩
  | 13 => ⟨S_, .f32⟩
  | 14 => ⟨S16, .f32⟩
  | 15 => ⟨S16, .f32⟩
  | 16 => ⟨S16, .f32⟩
  | 17 => ⟨S1x16, .f32⟩
  | 18 => ⟨S160x16, .f32⟩
  | 19 => ⟨S160x16, .f32⟩
  | 20 => ⟨S160x16, .f32⟩
  | 21 => ⟨S1x16, .f32⟩
  | 22 => ⟨S160x16, .f32⟩
  | 23 => ⟨S160x16, .f32⟩
  | _ => ⟨S160000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S160000x2, .i32⟩

abbrev bufTy : (tb : Table) → Fin (tcTables nBuf tb) → BufTy
  | .hbm, ⟨i, _⟩ => hbmTy i
  | _, _ => ⟨S160000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_1 : Ref sig .tc := ⟨.hbm, 47, rfl⟩
abbrev main_v17 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_4 : Ref sig .tc := ⟨.hbm, 85, rfl⟩
abbrev main_v52 : Ref sig .tc := ⟨.hbm, 86, rfl⟩
abbrev main_v53 : Ref sig .tc := ⟨.hbm, 87, rfl⟩
abbrev main_cst_5 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_9 : Ref sig .tc := ⟨.hbm, 113, rfl⟩
abbrev main_v75 : Ref sig .tc := ⟨.hbm, 114, rfl⟩
abbrev main_cst_10 : Ref sig .tc := ⟨.hbm, 115, rfl⟩
abbrev main_v76 : Ref sig .tc := ⟨.hbm, 116, rfl⟩
abbrev main_v77 : Ref sig .tc := ⟨.hbm, 117, rfl⟩
abbrev main_c_11 : Ref sig .tc := ⟨.hbm, 118, rfl⟩
abbrev main_call0_cst : Ref sig .tc := ⟨.hbm, 119, rfl⟩
abbrev main_call0_v0 : Ref sig .tc := ⟨.hbm, 120, rfl⟩
abbrev main_call0_v1 : Ref sig .tc := ⟨.hbm, 121, rfl⟩
abbrev main_call0_cst_0 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_call0_v6 : Ref sig .tc := ⟨.hbm, 127, rfl⟩
abbrev main_call0_v7 : Ref sig .tc := ⟨.hbm, 128, rfl⟩
abbrev main_call0_cst_1 : Ref sig .tc := ⟨.hbm, 129, rfl⟩
abbrev main_call0_v8 : Ref sig .tc := ⟨.hbm, 130, rfl⟩
abbrev main_call0_cst_2 : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_call0_cst_3 : Ref sig .tc := ⟨.hbm, 135, rfl⟩
abbrev main_call0_v12 : Ref sig .tc := ⟨.hbm, 136, rfl⟩
abbrev main_call0_cst_4 : Ref sig .tc := ⟨.hbm, 137, rfl⟩
abbrev main_call0_call0_v0 : Ref sig .tc := ⟨.hbm, 138, rfl⟩
abbrev main_call0_call0_v1 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_12 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_13 : Ref sig .tc := ⟨.hbm, 159, rfl⟩
abbrev main_v96 : Ref sig .tc := ⟨.hbm, 160, rfl⟩
abbrev main_v97 : Ref sig .tc := ⟨.hbm, 161, rfl⟩
abbrev main_c_14 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_15 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_c_16 : Ref sig .tc := ⟨.hbm, 182, rfl⟩
abbrev main_v116 : Ref sig .tc := ⟨.hbm, 183, rfl⟩
abbrev main_v117 : Ref sig .tc := ⟨.hbm, 184, rfl⟩
abbrev main_c_17 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_18 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_19 : Ref sig .tc := ⟨.hbm, 220, rfl⟩
abbrev main_v151 : Ref sig .tc := ⟨.hbm, 221, rfl⟩
abbrev main_v152 : Ref sig .tc := ⟨.hbm, 222, rfl⟩
abbrev main_cst_20 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_21 : Ref sig .tc := ⟨.hbm, 229, rfl⟩
abbrev main_v158 : Ref sig .tc := ⟨.hbm, 230, rfl⟩
abbrev main_v159 : Ref sig .tc := ⟨.hbm, 231, rfl⟩
abbrev main_cst_22 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_23 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_cst_24 : Ref sig .tc := ⟨.hbm, 248, rfl⟩
abbrev main_v174 : Ref sig .tc := ⟨.hbm, 249, rfl⟩
abbrev main_cst_25 : Ref sig .tc := ⟨.hbm, 250, rfl⟩
abbrev main_v175 : Ref sig .tc := ⟨.hbm, 251, rfl⟩
abbrev main_v176 : Ref sig .tc := ⟨.hbm, 252, rfl⟩
abbrev main_c_26 : Ref sig .tc := ⟨.hbm, 253, rfl⟩
abbrev main_call1_cst : Ref sig .tc := ⟨.hbm, 254, rfl⟩
abbrev main_call1_v0 : Ref sig .tc := ⟨.hbm, 255, rfl⟩
abbrev main_call1_v1 : Ref sig .tc := ⟨.hbm, 256, rfl⟩
abbrev main_call1_cst_0 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_cst_1 : Ref sig .tc := ⟨.hbm, 264, rfl⟩
abbrev main_call1_v8 : Ref sig .tc := ⟨.hbm, 265, rfl⟩
abbrev main_call1_cst_2 : Ref sig .tc := ⟨.hbm, 266, rfl⟩
abbrev main_call1_v9 : Ref sig .tc := ⟨.hbm, 267, rfl⟩
abbrev main_call1_v10 : Ref sig .tc := ⟨.hbm, 268, rfl⟩
abbrev main_call1_v11 : Ref sig .tc := ⟨.hbm, 269, rfl⟩
abbrev main_call1_cst_3 : Ref sig .tc := ⟨.hbm, 270, rfl⟩
abbrev main_call1_v12 : Ref sig .tc := ⟨.hbm, 271, rfl⟩
abbrev main_call1_cst_4 : Ref sig .tc := ⟨.hbm, 272, rfl⟩
abbrev main_call1_call0_v0 : Ref sig .tc := ⟨.hbm, 273, rfl⟩
abbrev main_call1_call0_v1 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_cst_27 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_c_28 : Ref sig .tc := ⟨.hbm, 294, rfl⟩
abbrev main_v195 : Ref sig .tc := ⟨.hbm, 295, rfl⟩
abbrev main_v196 : Ref sig .tc := ⟨.hbm, 296, rfl⟩
abbrev main_c_29 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_cst_30 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_c_31 : Ref sig .tc := ⟨.hbm, 317, rfl⟩
abbrev main_v215 : Ref sig .tc := ⟨.hbm, 318, rfl⟩
abbrev main_v216 : Ref sig .tc := ⟨.hbm, 319, rfl⟩
abbrev main_c_32 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_cst_33 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_cst_34 : Ref sig .tc := ⟨.hbm, 355, rfl⟩
abbrev main_v250 : Ref sig .tc := ⟨.hbm, 356, rfl⟩
abbrev main_v251 : Ref sig .tc := ⟨.hbm, 357, rfl⟩
abbrev main_cst_35 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_cst_36 : Ref sig .tc := ⟨.hbm, 364, rfl⟩
abbrev main_v257 : Ref sig .tc := ⟨.hbm, 365, rfl⟩
abbrev main_v258 : Ref sig .tc := ⟨.hbm, 366, rfl⟩
abbrev main_cst_37 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_cst_38 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_cst_39 : Ref sig .tc := ⟨.hbm, 383, rfl⟩
abbrev main_v273 : Ref sig .tc := ⟨.hbm, 384, rfl⟩
abbrev main_cst_40 : Ref sig .tc := ⟨.hbm, 385, rfl⟩
abbrev main_v274 : Ref sig .tc := ⟨.hbm, 386, rfl⟩
abbrev main_v275 : Ref sig .tc := ⟨.hbm, 387, rfl⟩
abbrev main_c_41 : Ref sig .tc := ⟨.hbm, 388, rfl⟩
abbrev main_call2_cst : Ref sig .tc := ⟨.hbm, 389, rfl⟩
abbrev main_call2_v0 : Ref sig .tc := ⟨.hbm, 390, rfl⟩
abbrev main_call2_v1 : Ref sig .tc := ⟨.hbm, 391, rfl⟩
abbrev main_call2_cst_0 : Ref sig .tc := ⟨.hbm, 392, rfl⟩
abbrev main_call2_v2 : Ref sig .tc := ⟨.hbm, 393, rfl⟩
abbrev main_call2_v3 : Ref sig .tc := ⟨.hbm, 394, rfl⟩
abbrev main_call2_v4 : Ref sig .tc := ⟨.hbm, 395, rfl⟩
abbrev main_call2_v5 : Ref sig .tc := ⟨.hbm, 396, rfl⟩
abbrev main_call2_v6 : Ref sig .tc := ⟨.hbm, 397, rfl⟩
abbrev main_call2_v7 : Ref sig .tc := ⟨.hbm, 398, rfl⟩
abbrev main_call2_cst_1 : Ref sig .tc := ⟨.hbm, 399, rfl⟩
abbrev main_call2_v8 : Ref sig .tc := ⟨.hbm, 400, rfl⟩
abbrev main_call2_cst_2 : Ref sig .tc := ⟨.hbm, 401, rfl⟩
abbrev main_call2_v9 : Ref sig .tc := ⟨.hbm, 402, rfl⟩
abbrev main_call2_v10 : Ref sig .tc := ⟨.hbm, 403, rfl⟩
abbrev main_call2_v11 : Ref sig .tc := ⟨.hbm, 404, rfl⟩
abbrev main_call2_cst_3 : Ref sig .tc := ⟨.hbm, 405, rfl⟩
abbrev main_call2_v12 : Ref sig .tc := ⟨.hbm, 406, rfl⟩
abbrev main_call2_cst_4 : Ref sig .tc := ⟨.hbm, 407, rfl⟩
abbrev main_call2_call0_v0 : Ref sig .tc := ⟨.hbm, 408, rfl⟩
abbrev main_call2_call0_v1 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_v279 : Ref sig .tc := ⟨.hbm, 413, rfl⟩
abbrev main_cst_42 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_c_43 : Ref sig .tc := ⟨.hbm, 429, rfl⟩
abbrev main_v294 : Ref sig .tc := ⟨.hbm, 430, rfl⟩
abbrev main_v295 : Ref sig .tc := ⟨.hbm, 431, rfl⟩
abbrev main_c_44 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_cst_45 : Ref sig .tc := ⟨.hbm, 438, rfl⟩
abbrev main_v301 : Ref sig .tc := ⟨.hbm, 439, rfl⟩
abbrev main_v302 : Ref sig .tc := ⟨.hbm, 440, rfl⟩
abbrev main_v303 : Ref sig .tc := ⟨.hbm, 441, rfl⟩
abbrev main_v304 : Ref sig .tc := ⟨.hbm, 442, rfl⟩
abbrev main_v305 : Ref sig .tc := ⟨.hbm, 443, rfl⟩
abbrev main_v306 : Ref sig .tc := ⟨.hbm, 444, rfl⟩
abbrev main_v307 : Ref sig .tc := ⟨.hbm, 445, rfl⟩
abbrev main_v308 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_v312 : Ref sig .tc := ⟨.hbm, 450, rfl⟩
abbrev main_v313 : Ref sig .tc := ⟨.hbm, 451, rfl⟩
abbrev main_c_46 : Ref sig .tc := ⟨.hbm, 452, rfl⟩
abbrev main_v314 : Ref sig .tc := ⟨.hbm, 453, rfl⟩
abbrev main_v315 : Ref sig .tc := ⟨.hbm, 454, rfl⟩
abbrev main_c_47 : Ref sig .tc := ⟨.hbm, 455, rfl⟩
abbrev main_v316 : Ref sig .tc := ⟨.hbm, 456, rfl⟩
abbrev main_v317 : Ref sig .tc := ⟨.hbm, 457, rfl⟩
abbrev main_v318 : Ref sig .tc := ⟨.hbm, 458, rfl⟩
abbrev main_v319 : Ref sig .tc := ⟨.hbm, 459, rfl⟩
abbrev main_v320 : Ref sig .tc := ⟨.hbm, 460, rfl⟩
abbrev main_cst_48 : Ref sig .tc := ⟨.hbm, 461, rfl⟩
abbrev main_v321 : Ref sig .tc := ⟨.hbm, 462, rfl⟩
abbrev main_v322 : Ref sig .tc := ⟨.hbm, 463, rfl⟩
abbrev main_v323 : Ref sig .tc := ⟨.hbm, 464, rfl⟩
abbrev main_v324 : Ref sig .tc := ⟨.hbm, 465, rfl⟩
abbrev main_v325 : Ref sig .tc := ⟨.hbm, 466, rfl⟩
abbrev main_v326 : Ref sig .tc := ⟨.hbm, 467, rfl⟩
abbrev main_v327 : Ref sig .tc := ⟨.hbm, 468, rfl⟩
abbrev main_v328 : Ref sig .tc := ⟨.hbm, 469, rfl⟩
abbrev main_v329 : Ref sig .tc := ⟨.hbm, 470, rfl⟩
abbrev main_v330 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_v334 : Ref sig .tc := ⟨.hbm, 475, rfl⟩
abbrev main_v335 : Ref sig .tc := ⟨.hbm, 476, rfl⟩
abbrev main_v336 : Ref sig .tc := ⟨.hbm, 477, rfl⟩
abbrev main_v337 : Ref sig .tc := ⟨.hbm, 478, rfl⟩
abbrev main_v338 : Ref sig .tc := ⟨.hbm, 479, rfl⟩
abbrev main_v339 : Ref sig .tc := ⟨.hbm, 480, rfl⟩
abbrev main_v340 : Ref sig .tc := ⟨.hbm, 481, rfl⟩
abbrev main_v341 : Ref sig .tc := ⟨.hbm, 482, rfl⟩
abbrev main_v342 : Ref sig .tc := ⟨.hbm, 483, rfl⟩
abbrev main_v343 : Ref sig .tc := ⟨.hbm, 484, rfl⟩
abbrev main_v344 : Ref sig .tc := ⟨.hbm, 485, rfl⟩
abbrev main_v345 : Ref sig .tc := ⟨.hbm, 486, rfl⟩
abbrev main_v346 : Ref sig .tc := ⟨.hbm, 487, rfl⟩
abbrev main_v347 : Ref sig .tc := ⟨.hbm, 488, rfl⟩
abbrev main_v348 : Ref sig .tc := ⟨.hbm, 489, rfl⟩
abbrev main_cst_49 : Ref sig .tc := ⟨.hbm, 490, rfl⟩
abbrev main_v349 : Ref sig .tc := ⟨.hbm, 491, rfl⟩
abbrev main_v350 : Ref sig .tc := ⟨.hbm, 492, rfl⟩
abbrev main_cst_50 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_cst_51 : Ref sig .tc := ⟨.hbm, 499, rfl⟩
abbrev main_v356 : Ref sig .tc := ⟨.hbm, 500, rfl⟩
abbrev main_v357 : Ref sig .tc := ⟨.hbm, 501, rfl⟩
abbrev main_cst_52 : Ref sig .tc := ⟨.hbm, 502, rfl⟩
abbrev main_v358 : Ref sig .tc := ⟨.hbm, 503, rfl⟩
abbrev main_v359 : Ref sig .tc := ⟨.hbm, 504, rfl⟩
abbrev main_v360 : Ref sig .tc := ⟨.hbm, 505, rfl⟩
abbrev main_v361 : Ref sig .tc := ⟨.hbm, 506, rfl⟩
abbrev main_v362 : Ref sig .tc := ⟨.hbm, 507, rfl⟩
abbrev main_cst_53 : Ref sig .tc := ⟨.hbm, 508, rfl⟩
abbrev main_v363 : Ref sig .tc := ⟨.hbm, 509, rfl⟩
abbrev main_v364 : Ref sig .tc := ⟨.hbm, 510, rfl⟩
abbrev main_v365 : Ref sig .tc := ⟨.hbm, 511, rfl⟩
abbrev main_v366 : Ref sig .tc := ⟨.hbm, 512, rfl⟩
abbrev main_v367 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_cst_54 : Ref sig .tc := ⟨.hbm, 518, rfl⟩
abbrev main_v372 : Ref sig .tc := ⟨.hbm, 519, rfl⟩
abbrev main_cst_55 : Ref sig .tc := ⟨.hbm, 520, rfl⟩
abbrev main_v373 : Ref sig .tc := ⟨.hbm, 521, rfl⟩
abbrev main_v374 : Ref sig .tc := ⟨.hbm, 522, rfl⟩
abbrev main_c_56 : Ref sig .tc := ⟨.hbm, 523, rfl⟩
abbrev main_call3_cst : Ref sig .tc := ⟨.hbm, 524, rfl⟩
abbrev main_call3_v0 : Ref sig .tc := ⟨.hbm, 525, rfl⟩
abbrev main_call3_v1 : Ref sig .tc := ⟨.hbm, 526, rfl⟩
abbrev main_call3_cst_0 : Ref sig .tc := ⟨.hbm, 527, rfl⟩
abbrev main_call3_v2 : Ref sig .tc := ⟨.hbm, 528, rfl⟩
abbrev main_call3_v3 : Ref sig .tc := ⟨.hbm, 529, rfl⟩
abbrev main_call3_v4 : Ref sig .tc := ⟨.hbm, 530, rfl⟩
abbrev main_call3_v5 : Ref sig .tc := ⟨.hbm, 531, rfl⟩
abbrev main_call3_v6 : Ref sig .tc := ⟨.hbm, 532, rfl⟩
abbrev main_call3_v7 : Ref sig .tc := ⟨.hbm, 533, rfl⟩
abbrev main_call3_cst_1 : Ref sig .tc := ⟨.hbm, 534, rfl⟩
abbrev main_call3_v8 : Ref sig .tc := ⟨.hbm, 535, rfl⟩
abbrev main_call3_cst_2 : Ref sig .tc := ⟨.hbm, 536, rfl⟩
abbrev main_call3_v9 : Ref sig .tc := ⟨.hbm, 537, rfl⟩
abbrev main_call3_v10 : Ref sig .tc := ⟨.hbm, 538, rfl⟩
abbrev main_call3_v11 : Ref sig .tc := ⟨.hbm, 539, rfl⟩
abbrev main_call3_cst_3 : Ref sig .tc := ⟨.hbm, 540, rfl⟩
abbrev main_call3_v12 : Ref sig .tc := ⟨.hbm, 541, rfl⟩
abbrev main_call3_cst_4 : Ref sig .tc := ⟨.hbm, 542, rfl⟩
abbrev main_call3_call0_v0 : Ref sig .tc := ⟨.hbm, 543, rfl⟩
abbrev main_call3_call0_v1 : Ref sig .tc := ⟨.hbm, 544, rfl⟩
abbrev main_v375 : Ref sig .tc := ⟨.hbm, 545, rfl⟩
abbrev main_v376 : Ref sig .tc := ⟨.hbm, 546, rfl⟩
abbrev main_v377 : Ref sig .tc := ⟨.hbm, 547, rfl⟩
abbrev main_v378 : Ref sig .tc := ⟨.hbm, 548, rfl⟩
abbrev main_cst_57 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_v382 : Ref sig .tc := ⟨.hbm, 553, rfl⟩
abbrev main_v383 : Ref sig .tc := ⟨.hbm, 554, rfl⟩
abbrev main_v384 : Ref sig .tc := ⟨.hbm, 555, rfl⟩
abbrev main_v385 : Ref sig .tc := ⟨.hbm, 556, rfl⟩
abbrev main_v386 : Ref sig .tc := ⟨.hbm, 557, rfl⟩
abbrev main_v387 : Ref sig .tc := ⟨.hbm, 558, rfl⟩
abbrev main_v388 : Ref sig .tc := ⟨.hbm, 559, rfl⟩
abbrev main_v389 : Ref sig .tc := ⟨.hbm, 560, rfl⟩
abbrev main_v390 : Ref sig .tc := ⟨.hbm, 561, rfl⟩
abbrev main_v391 : Ref sig .tc := ⟨.hbm, 562, rfl⟩
abbrev main_v392 : Ref sig .tc := ⟨.hbm, 563, rfl⟩
abbrev main_c_58 : Ref sig .tc := ⟨.hbm, 564, rfl⟩
abbrev main_v393 : Ref sig .tc := ⟨.hbm, 565, rfl⟩
abbrev main_v394 : Ref sig .tc := ⟨.hbm, 566, rfl⟩
abbrev main_c_59 : Ref sig .tc := ⟨.hbm, 567, rfl⟩
abbrev main_v395 : Ref sig .tc := ⟨.hbm, 568, rfl⟩
abbrev main_v396 : Ref sig .tc := ⟨.hbm, 569, rfl⟩
abbrev main_v397 : Ref sig .tc := ⟨.hbm, 570, rfl⟩
abbrev main_v398 : Ref sig .tc := ⟨.hbm, 571, rfl⟩
abbrev main_v399 : Ref sig .tc := ⟨.hbm, 572, rfl⟩
abbrev main_cst_60 : Ref sig .tc := ⟨.hbm, 573, rfl⟩
abbrev main_v400 : Ref sig .tc := ⟨.hbm, 574, rfl⟩
abbrev main_v401 : Ref sig .tc := ⟨.hbm, 575, rfl⟩
abbrev main_v402 : Ref sig .tc := ⟨.hbm, 576, rfl⟩
abbrev main_v403 : Ref sig .tc := ⟨.hbm, 577, rfl⟩
abbrev main_v404 : Ref sig .tc := ⟨.hbm, 578, rfl⟩
abbrev main_v405 : Ref sig .tc := ⟨.hbm, 579, rfl⟩
abbrev main_v406 : Ref sig .tc := ⟨.hbm, 580, rfl⟩
abbrev main_v407 : Ref sig .tc := ⟨.hbm, 581, rfl⟩
abbrev main_v408 : Ref sig .tc := ⟨.hbm, 582, rfl⟩
abbrev main_v409 : Ref sig .tc := ⟨.hbm, 583, rfl⟩
abbrev main_v410 : Ref sig .tc := ⟨.hbm, 584, rfl⟩
abbrev main_v411 : Ref sig .tc := ⟨.hbm, 585, rfl⟩
abbrev main_v412 : Ref sig .tc := ⟨.hbm, 586, rfl⟩
abbrev main_c_61 : Ref sig .tc := ⟨.hbm, 587, rfl⟩
abbrev main_v413 : Ref sig .tc := ⟨.hbm, 588, rfl⟩
abbrev main_v414 : Ref sig .tc := ⟨.hbm, 589, rfl⟩
abbrev main_c_62 : Ref sig .tc := ⟨.hbm, 590, rfl⟩
abbrev main_v415 : Ref sig .tc := ⟨.hbm, 591, rfl⟩
abbrev main_v416 : Ref sig .tc := ⟨.hbm, 592, rfl⟩
abbrev main_v417 : Ref sig .tc := ⟨.hbm, 593, rfl⟩
abbrev main_v418 : Ref sig .tc := ⟨.hbm, 594, rfl⟩
abbrev main_v419 : Ref sig .tc := ⟨.hbm, 595, rfl⟩
abbrev main_cst_63 : Ref sig .tc := ⟨.hbm, 596, rfl⟩
abbrev main_v420 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩
abbrev main_v425 : Ref sig .tc := ⟨.hbm, 602, rfl⟩
abbrev main_v426 : Ref sig .tc := ⟨.hbm, 603, rfl⟩
abbrev main_v427 : Ref sig .tc := ⟨.hbm, 604, rfl⟩
abbrev main_v428 : Ref sig .tc := ⟨.hbm, 605, rfl⟩
abbrev main_v429 : Ref sig .tc := ⟨.hbm, 606, rfl⟩
abbrev main_v430 : Ref sig .tc := ⟨.hbm, 607, rfl⟩
abbrev main_v431 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev main_v440 : Ref sig .tc := ⟨.hbm, 617, rfl⟩
abbrev main_v441 : Ref sig .tc := ⟨.hbm, 618, rfl⟩
abbrev main_v442 : Ref sig .tc := ⟨.hbm, 619, rfl⟩
abbrev main_v443 : Ref sig .tc := ⟨.hbm, 620, rfl⟩
abbrev main_v444 : Ref sig .tc := ⟨.hbm, 621, rfl⟩
abbrev main_v445 : Ref sig .tc := ⟨.hbm, 622, rfl⟩
abbrev main_v446 : Ref sig .tc := ⟨.hbm, 623, rfl⟩
abbrev main_v447 : Ref sig .tc := ⟨.hbm, 624, rfl⟩
abbrev main_cst_64 : Ref sig .tc := ⟨.hbm, 625, rfl⟩
abbrev main_v448 : Ref sig .tc := ⟨.hbm, 626, rfl⟩
abbrev main_v449 : Ref sig .tc := ⟨.hbm, 627, rfl⟩
abbrev main_cst_65 : Ref sig .tc := ⟨.hbm, 628, rfl⟩
abbrev main_v450 : Ref sig .tc := ⟨.hbm, 629, rfl⟩
abbrev main_v451 : Ref sig .tc := ⟨.hbm, 630, rfl⟩
abbrev main_v452 : Ref sig .tc := ⟨.hbm, 631, rfl⟩
abbrev main_v453 : Ref sig .tc := ⟨.hbm, 632, rfl⟩
abbrev main_v454 : Ref sig .tc := ⟨.hbm, 633, rfl⟩
abbrev main_cst_66 : Ref sig .tc := ⟨.hbm, 634, rfl⟩
abbrev main_v455 : Ref sig .tc := ⟨.hbm, 635, rfl⟩
abbrev main_v456 : Ref sig .tc := ⟨.hbm, 636, rfl⟩
abbrev main_cst_67 : Ref sig .tc := ⟨.hbm, 637, rfl⟩
abbrev main_v457 : Ref sig .tc := ⟨.hbm, 638, rfl⟩
abbrev main_v458 : Ref sig .tc := ⟨.hbm, 639, rfl⟩
abbrev main_v459 : Ref sig .tc := ⟨.hbm, 640, rfl⟩
abbrev main_v460 : Ref sig .tc := ⟨.hbm, 641, rfl⟩
abbrev main_v461 : Ref sig .tc := ⟨.hbm, 642, rfl⟩
abbrev main_cst_68 : Ref sig .tc := ⟨.hbm, 643, rfl⟩
abbrev main_v462 : Ref sig .tc := ⟨.hbm, 644, rfl⟩
abbrev main_v463 : Ref sig .tc := ⟨.hbm, 645, rfl⟩
abbrev main_v464 : Ref sig .tc := ⟨.hbm, 646, rfl⟩
abbrev main_v465 : Ref sig .tc := ⟨.hbm, 647, rfl⟩
abbrev main_v466 : Ref sig .tc := ⟨.hbm, 648, rfl⟩
abbrev main_v467 : Ref sig .tc := ⟨.hbm, 649, rfl⟩
abbrev main_v468 : Ref sig .tc := ⟨.hbm, 650, rfl⟩
abbrev main_v469 : Ref sig .tc := ⟨.hbm, 651, rfl⟩
abbrev main_v470 : Ref sig .tc := ⟨.hbm, 652, rfl⟩
abbrev main_cst_69 : Ref sig .tc := ⟨.hbm, 653, rfl⟩
abbrev main_v471 : Ref sig .tc := ⟨.hbm, 654, rfl⟩
abbrev main_cst_70 : Ref sig .tc := ⟨.hbm, 655, rfl⟩
abbrev main_v472 : Ref sig .tc := ⟨.hbm, 656, rfl⟩
abbrev main_v473 : Ref sig .tc := ⟨.hbm, 657, rfl⟩
abbrev main_c_71 : Ref sig .tc := ⟨.hbm, 658, rfl⟩
abbrev main_call4_cst : Ref sig .tc := ⟨.hbm, 659, rfl⟩
abbrev main_call4_v0 : Ref sig .tc := ⟨.hbm, 660, rfl⟩
abbrev main_call4_v1 : Ref sig .tc := ⟨.hbm, 661, rfl⟩
abbrev main_call4_cst_0 : Ref sig .tc := ⟨.hbm, 662, rfl⟩
abbrev main_call4_v2 : Ref sig .tc := ⟨.hbm, 663, rfl⟩
abbrev main_call4_v3 : Ref sig .tc := ⟨.hbm, 664, rfl⟩
abbrev main_call4_v4 : Ref sig .tc := ⟨.hbm, 665, rfl⟩
abbrev main_call4_v5 : Ref sig .tc := ⟨.hbm, 666, rfl⟩
abbrev main_call4_v6 : Ref sig .tc := ⟨.hbm, 667, rfl⟩
abbrev main_call4_v7 : Ref sig .tc := ⟨.hbm, 668, rfl⟩
abbrev main_call4_cst_1 : Ref sig .tc := ⟨.hbm, 669, rfl⟩
abbrev main_call4_v8 : Ref sig .tc := ⟨.hbm, 670, rfl⟩
abbrev main_call4_cst_2 : Ref sig .tc := ⟨.hbm, 671, rfl⟩
abbrev main_call4_v9 : Ref sig .tc := ⟨.hbm, 672, rfl⟩
abbrev main_call4_v10 : Ref sig .tc := ⟨.hbm, 673, rfl⟩
abbrev main_call4_v11 : Ref sig .tc := ⟨.hbm, 674, rfl⟩
abbrev main_call4_cst_3 : Ref sig .tc := ⟨.hbm, 675, rfl⟩
abbrev main_call4_v12 : Ref sig .tc := ⟨.hbm, 676, rfl⟩
abbrev main_call4_cst_4 : Ref sig .tc := ⟨.hbm, 677, rfl⟩
abbrev main_call4_call0_v0 : Ref sig .tc := ⟨.hbm, 678, rfl⟩
abbrev main_call4_call0_v1 : Ref sig .tc := ⟨.hbm, 679, rfl⟩
abbrev main_v474 : Ref sig .tc := ⟨.hbm, 680, rfl⟩
abbrev main_v475 : Ref sig .tc := ⟨.hbm, 681, rfl⟩
abbrev main_v476 : Ref sig .tc := ⟨.hbm, 682, rfl⟩
abbrev main_v477 : Ref sig .tc := ⟨.hbm, 683, rfl⟩
abbrev main_cst_72 : Ref sig .tc := ⟨.hbm, 684, rfl⟩
abbrev main_v478 : Ref sig .tc := ⟨.hbm, 685, rfl⟩
abbrev main_v479 : Ref sig .tc := ⟨.hbm, 686, rfl⟩
abbrev main_v480 : Ref sig .tc := ⟨.hbm, 687, rfl⟩
abbrev main_v481 : Ref sig .tc := ⟨.hbm, 688, rfl⟩
abbrev main_v482 : Ref sig .tc := ⟨.hbm, 689, rfl⟩
abbrev main_v483 : Ref sig .tc := ⟨.hbm, 690, rfl⟩
abbrev main_v484 : Ref sig .tc := ⟨.hbm, 691, rfl⟩
abbrev main_v485 : Ref sig .tc := ⟨.hbm, 692, rfl⟩
abbrev main_v486 : Ref sig .tc := ⟨.hbm, 693, rfl⟩
abbrev main_v487 : Ref sig .tc := ⟨.hbm, 694, rfl⟩
abbrev main_v488 : Ref sig .tc := ⟨.hbm, 695, rfl⟩
abbrev main_v489 : Ref sig .tc := ⟨.hbm, 696, rfl⟩
abbrev main_cst_73 : Ref sig .tc := ⟨.hbm, 697, rfl⟩
abbrev main_v490 : Ref sig .tc := ⟨.hbm, 698, rfl⟩
abbrev main_v491 : Ref sig .tc := ⟨.hbm, 699, rfl⟩
abbrev main_v492 : Ref sig .tc := ⟨.hbm, 700, rfl⟩
abbrev main_v493 : Ref sig .tc := ⟨.hbm, 701, rfl⟩
abbrev main_v494 : Ref sig .tc := ⟨.hbm, 702, rfl⟩
abbrev main_v495 : Ref sig .tc := ⟨.hbm, 703, rfl⟩
abbrev main_v496 : Ref sig .tc := ⟨.hbm, 704, rfl⟩
abbrev main_call5_cst : Ref sig .tc := ⟨.hbm, 705, rfl⟩
abbrev main_call5_v0 : Ref sig .tc := ⟨.hbm, 706, rfl⟩
abbrev main_v497 : Ref sig .tc := ⟨.hbm, 707, rfl⟩
abbrev main_v498 : Ref sig .tc := ⟨.hbm, 708, rfl⟩
abbrev main_v499 : Ref sig .tc := ⟨.hbm, 709, rfl⟩
abbrev main_v500 : Ref sig .tc := ⟨.hbm, 710, rfl⟩
abbrev main_v501 : Ref sig .tc := ⟨.hbm, 711, rfl⟩
abbrev main_cst_74 : Ref sig .tc := ⟨.hbm, 712, rfl⟩
abbrev main_v502 : Ref sig .tc := ⟨.hbm, 713, rfl⟩
abbrev main_v503 : Ref sig .tc := ⟨.hbm, 714, rfl⟩
abbrev main_v504 : Ref sig .tc := ⟨.hbm, 715, rfl⟩
abbrev main_v505 : Ref sig .tc := ⟨.hbm, 716, rfl⟩
abbrev main_v506 : Ref sig .tc := ⟨.hbm, 717, rfl⟩
abbrev main_v507 : Ref sig .tc := ⟨.hbm, 718, rfl⟩
abbrev main_v508 : Ref sig .tc := ⟨.hbm, 719, rfl⟩
abbrev main_call6_cst : Ref sig .tc := ⟨.hbm, 720, rfl⟩
abbrev main_call6_v0 : Ref sig .tc := ⟨.hbm, 721, rfl⟩
abbrev main_v509 : Ref sig .tc := ⟨.hbm, 722, rfl⟩
abbrev main_v510 : Ref sig .tc := ⟨.hbm, 723, rfl⟩
abbrev main_v511 : Ref sig .tc := ⟨.hbm, 724, rfl⟩
abbrev main_v512 : Ref sig .tc := ⟨.hbm, 725, rfl⟩
abbrev main_v513 : Ref sig .tc := ⟨.hbm, 726, rfl⟩
abbrev main_cst_75 : Ref sig .tc := ⟨.hbm, 727, rfl⟩
abbrev main_v514 : Ref sig .tc := ⟨.hbm, 728, rfl⟩
abbrev main_v515 : Ref sig .tc := ⟨.hbm, 729, rfl⟩
abbrev main_v516 : Ref sig .tc := ⟨.hbm, 730, rfl⟩
abbrev main_v517 : Ref sig .tc := ⟨.hbm, 731, rfl⟩
abbrev main_v518 : Ref sig .tc := ⟨.hbm, 732, rfl⟩
abbrev main_v519 : Ref sig .tc := ⟨.hbm, 733, rfl⟩
abbrev main_v520 : Ref sig .tc := ⟨.hbm, 734, rfl⟩
abbrev main_call7_cst : Ref sig .tc := ⟨.hbm, 735, rfl⟩
abbrev main_call7_v0 : Ref sig .tc := ⟨.hbm, 736, rfl⟩
abbrev main_call7_v1 : Ref sig .tc := ⟨.hbm, 737, rfl⟩
abbrev main_call7_cst_0 : Ref sig .tc := ⟨.hbm, 738, rfl⟩
abbrev main_call7_v2 : Ref sig .tc := ⟨.hbm, 739, rfl⟩
abbrev main_call7_v3 : Ref sig .tc := ⟨.hbm, 740, rfl⟩
abbrev main_call7_cst_1 : Ref sig .tc := ⟨.hbm, 741, rfl⟩
abbrev main_call7_call0_v0 : Ref sig .tc := ⟨.hbm, 742, rfl⟩
abbrev main_call7_call0_v1 : Ref sig .tc := ⟨.hbm, 743, rfl⟩
abbrev main_call7_v4 : Ref sig .tc := ⟨.hbm, 744, rfl⟩
abbrev main_call7_v5 : Ref sig .tc := ⟨.hbm, 745, rfl⟩
abbrev main_call7_cst_2 : Ref sig .tc := ⟨.hbm, 746, rfl⟩
abbrev main_call7_v6 : Ref sig .tc := ⟨.hbm, 747, rfl⟩
abbrev main_call7_v7 : Ref sig .tc := ⟨.hbm, 748, rfl⟩
abbrev main_v521 : Ref sig .tc := ⟨.hbm, 749, rfl⟩
abbrev main_cst_76 : Ref sig .tc := ⟨.hbm, 750, rfl⟩
abbrev main_v522 : Ref sig .tc := ⟨.hbm, 751, rfl⟩
abbrev main_cst_77 : Ref sig .tc := ⟨.hbm, 752, rfl⟩
abbrev main_v523 : Ref sig .tc := ⟨.hbm, 753, rfl⟩
abbrev main_v524 : Ref sig .tc := ⟨.hbm, 754, rfl⟩
abbrev main_c_78 : Ref sig .tc := ⟨.hbm, 755, rfl⟩
abbrev main_call8_cst : Ref sig .tc := ⟨.hbm, 756, rfl⟩
abbrev main_call8_v0 : Ref sig .tc := ⟨.hbm, 757, rfl⟩
abbrev main_call8_v1 : Ref sig .tc := ⟨.hbm, 758, rfl⟩
abbrev main_call8_cst_0 : Ref sig .tc := ⟨.hbm, 759, rfl⟩
abbrev main_call8_v2 : Ref sig .tc := ⟨.hbm, 760, rfl⟩
abbrev main_call8_v3 : Ref sig .tc := ⟨.hbm, 761, rfl⟩
abbrev main_call8_v4 : Ref sig .tc := ⟨.hbm, 762, rfl⟩
abbrev main_call8_v5 : Ref sig .tc := ⟨.hbm, 763, rfl⟩
abbrev main_call8_v6 : Ref sig .tc := ⟨.hbm, 764, rfl⟩
abbrev main_call8_v7 : Ref sig .tc := ⟨.hbm, 765, rfl⟩
abbrev main_call8_cst_1 : Ref sig .tc := ⟨.hbm, 766, rfl⟩
abbrev main_call8_v8 : Ref sig .tc := ⟨.hbm, 767, rfl⟩
abbrev main_call8_cst_2 : Ref sig .tc := ⟨.hbm, 768, rfl⟩
abbrev main_call8_v9 : Ref sig .tc := ⟨.hbm, 769, rfl⟩
abbrev main_call8_v10 : Ref sig .tc := ⟨.hbm, 770, rfl⟩
abbrev main_call8_v11 : Ref sig .tc := ⟨.hbm, 771, rfl⟩
abbrev main_call8_cst_3 : Ref sig .tc := ⟨.hbm, 772, rfl⟩
abbrev main_call8_v12 : Ref sig .tc := ⟨.hbm, 773, rfl⟩
abbrev main_call8_cst_4 : Ref sig .tc := ⟨.hbm, 774, rfl⟩
abbrev main_call8_call0_v0 : Ref sig .tc := ⟨.hbm, 775, rfl⟩
abbrev main_call8_call0_v1 : Ref sig .tc := ⟨.hbm, 776, rfl⟩
abbrev main_v525 : Ref sig .tc := ⟨.hbm, 777, rfl⟩
abbrev main_v526 : Ref sig .tc := ⟨.hbm, 778, rfl⟩
abbrev main_v527 : Ref sig .tc := ⟨.hbm, 779, rfl⟩
abbrev main_v528 : Ref sig .tc := ⟨.hbm, 780, rfl⟩
abbrev main_cst_79 : Ref sig .tc := ⟨.hbm, 781, rfl⟩
abbrev main_v529 : Ref sig .tc := ⟨.hbm, 782, rfl⟩
abbrev main_v530 : Ref sig .tc := ⟨.hbm, 783, rfl⟩
abbrev main_v531 : Ref sig .tc := ⟨.hbm, 784, rfl⟩
abbrev main_v532 : Ref sig .tc := ⟨.hbm, 785, rfl⟩
abbrev main_v533 : Ref sig .tc := ⟨.hbm, 786, rfl⟩
abbrev main_v534 : Ref sig .tc := ⟨.hbm, 787, rfl⟩
abbrev main_v535 : Ref sig .tc := ⟨.hbm, 788, rfl⟩
abbrev main_v536 : Ref sig .tc := ⟨.hbm, 789, rfl⟩
abbrev main_v537 : Ref sig .tc := ⟨.hbm, 790, rfl⟩
abbrev main_v538 : Ref sig .tc := ⟨.hbm, 791, rfl⟩

abbrev nD : Nat := 1
abbrev τ : Topo := Topo.v7x

variable {F : FTy → Type} [FloatOps F]

class Facts₀ : Prop where
  slices_S2x2560000_S1x2560000_0_0 : S2x2560000.Slices ![0, 0] S1x2560000
  shapeCasts_S1x2560000_S2560000 : S1x2560000.ShapeCasts S2560000
  slices_S2x2560000_S1x2560000_1_0 : S2x2560000.Slices ![1, 0] S1x2560000
  slices_S5x50x32_S1x50x32_0_0_0 : S5x50x32.Slices ![0, 0, 0] S1x50x32
  shapeCasts_S1x50x32_S50x32 : S1x50x32.ShapeCasts S50x32
  bcast_S_S160000x2 : S_.BroadcastsInDim S160000x2 (![] : Fin 0 → Fin S160000x2.rank)
  bcast_S160000x2_S160000x2x1_0_1 : S160000x2.BroadcastsInDim S160000x2x1 (![0, 1] : Fin 2 → Fin S160000x2x1.rank)
  reducesTo_S160000x2x32_S160000x32_d1 : S160000x2x32.ReducesTo [1] S160000x32
  h_S_ : 0 < S_.numel
  slices_S5x32x32_S1x32x32_0_0_0 : S5x32x32.Slices ![0, 0, 0] S1x32x32
  shapeCasts_S1x32x32_S32x32 : S1x32x32.ShapeCasts S32x32
  bcast_S_S2560000 : S_.BroadcastsInDim S2560000 (![] : Fin 0 → Fin S2560000.rank)
  bcast_S2560000_S2560000x1_0 : S2560000.BroadcastsInDim S2560000x1 (![0] : Fin 1 → Fin S2560000x1.rank)
  bcast_S_S160000x32 : S_.BroadcastsInDim S160000x32 (![] : Fin 0 → Fin S160000x32.rank)
  slices_S5x32x96_S1x32x96_0_0_0 : S5x32x96.Slices ![0, 0, 0] S1x32x96
  shapeCasts_S1x32x96_S32x96 : S1x32x96.ShapeCasts S32x96
  slices_S5x96_S1x96_0_0 : S5x96.Slices ![0, 0] S1x96
  shapeCasts_S1x96_S96 : S1x96.ShapeCasts S96
  bcast_S96_S1x96_1 : S96.BroadcastsInDim S1x96 (![1] : Fin 1 → Fin S1x96.rank)
  bcast_S1x96_S160000x96_0_1 : S1x96.BroadcastsInDim S160000x96 (![0, 1] : Fin 2 → Fin S160000x96.rank)
  slices_S160000x96_S160000x32_0_0 : S160000x96.Slices ![0, 0] S160000x32
  slices_S160000x96_S160000x32_0_32 : S160000x96.Slices ![0, 32] S160000x32
  slices_S160000x96_S160000x32_0_64 : S160000x96.Slices ![0, 64] S160000x32
  slices_S5x32_S1x32_0_0 : S5x32.Slices ![0, 0] S1x32
  shapeCasts_S1x32_S32 : S1x32.ShapeCasts S32
  reducesTo_S160000x32_S32_d0 : S160000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S160000x32_0_1 : S1x32.BroadcastsInDim S160000x32 (![0, 1] : Fin 2 → Fin S160000x32.rank)
  slices_S5x50x32_S1x50x32_1_0_0 : S5x50x32.Slices ![1, 0, 0] S1x50x32
  concatenates_S160000x32_S160000x32_S160000x64_d1 : Shape.Concatenates [S160000x32, S160000x32] S160000x64 1
  slices_S5x64x32_S1x64x32_1_0_0 : S5x64x32.Slices ![1, 0, 0] S1x64x32
  shapeCasts_S1x64x32_S64x32 : S1x64x32.ShapeCasts S64x32
  slices_S5x32_S1x32_1_0 : S5x32.Slices ![1, 0] S1x32
  slices_S5x32x32_S1x32x32_1_0_0 : S5x32x32.Slices ![1, 0, 0] S1x32x32
  slices_S5x32x96_S1x32x96_1_0_0 : S5x32x96.Slices ![1, 0, 0] S1x32x96
  slices_S5x96_S1x96_1_0 : S5x96.Slices ![1, 0] S1x96
  slices_S5x50x32_S1x50x32_2_0_0 : S5x50x32.Slices ![2, 0, 0] S1x50x32
  slices_S5x64x32_S1x64x32_2_0_0 : S5x64x32.Slices ![2, 0, 0] S1x64x32
  slices_S5x32_S1x32_2_0 : S5x32.Slices ![2, 0] S1x32
  slices_S5x32x32_S1x32x32_2_0_0 : S5x32x32.Slices ![2, 0, 0] S1x32x32
  slices_S5x32x96_S1x32x96_2_0_0 : S5x32x96.Slices ![2, 0, 0] S1x32x96
  slices_S5x96_S1x96_2_0 : S5x96.Slices ![2, 0] S1x96
  slices_S5x50x32_S1x50x32_3_0_0 : S5x50x32.Slices ![3, 0, 0] S1x50x32
  slices_S5x64x32_S1x64x32_3_0_0 : S5x64x32.Slices ![3, 0, 0] S1x64x32
  slices_S5x32_S1x32_3_0 : S5x32.Slices ![3, 0] S1x32
  slices_S5x32x32_S1x32x32_3_0_0 : S5x32x32.Slices ![3, 0, 0] S1x32x32
  slices_S5x32x96_S1x32x96_3_0_0 : S5x32x96.Slices ![3, 0, 0] S1x32x96
  slices_S5x96_S1x96_3_0 : S5x96.Slices ![3, 0] S1x96
  slices_S5x50x32_S1x50x32_4_0_0 : S5x50x32.Slices ![4, 0, 0] S1x50x32
  slices_S5x64x32_S1x64x32_4_0_0 : S5x64x32.Slices ![4, 0, 0] S1x64x32
  slices_S5x32_S1x32_4_0 : S5x32.Slices ![4, 0] S1x32
  slices_S5x32x32_S1x32x32_4_0_0 : S5x32x32.Slices ![4, 0, 0] S1x32x32
  slices_S5x32x96_S1x32x96_4_0_0 : S5x32x96.Slices ![4, 0, 0] S1x32x96
  slices_S5x96_S1x96_4_0 : S5x96.Slices ![4, 0] S1x96
  bcast_S_S16000x32 : S_.BroadcastsInDim S16000x32 (![] : Fin 0 → Fin S16000x32.rank)
  bcast_S160000_S160000x1_0 : S160000.BroadcastsInDim S160000x1 (![0] : Fin 1 → Fin S160000x1.rank)
  bcast_S1x32_S16000x32_0_1 : S1x32.BroadcastsInDim S16000x32 (![0, 1] : Fin 2 → Fin S16000x32.rank)
  bcast_S_S1600x32 : S_.BroadcastsInDim S1600x32 (![] : Fin 0 → Fin S1600x32.rank)
  bcast_S16000_S16000x1_0 : S16000.BroadcastsInDim S16000x1 (![0] : Fin 1 → Fin S16000x1.rank)
  bcast_S1x32_S1600x32_0_1 : S1x32.BroadcastsInDim S1600x32 (![0, 1] : Fin 2 → Fin S1600x32.rank)
  bcast_S_S160x32 : S_.BroadcastsInDim S160x32 (![] : Fin 0 → Fin S160x32.rank)
  bcast_S1600_S1600x1_0 : S1600.BroadcastsInDim S1600x1 (![0] : Fin 1 → Fin S1600x1.rank)
  bcast_S16_S1x16_1 : S16.BroadcastsInDim S1x16 (![1] : Fin 1 → Fin S1x16.rank)
  bcast_S1x16_S160x16_0_1 : S1x16.BroadcastsInDim S160x16 (![0, 1] : Fin 2 → Fin S160x16.rank)
  bcast_S_S160x16 : S_.BroadcastsInDim S160x16 (![] : Fin 0 → Fin S160x16.rank)
  reducesTo_S160x16_S16_d0 : S160x16.ReducesTo [0] S16
  bcast_S_S16 : S_.BroadcastsInDim S16 (![] : Fin 0 → Fin S16.rank)
  bcast_S_S1x16 : S_.BroadcastsInDim S1x16 (![] : Fin 0 → Fin S1x16.rank)
  gather_S50x32_S160000x2x1_S160000x2x32_2_0_n_n_0_2_132_wf : GatherDims.WF S50x32 S160000x2x1 S160000x2x32 [2] [0] [] [0] [] 2 ![1, 32]
  dot_S160000x32_S32x32_S160000x32_1_0_0_1_n_n_wf : DotDims.WF S160000x32 S32x32 S160000x32 [1] [0] [0] [1] [] []
  gather_S160000x32_S2560000x1_S2560000x32_1_0_n_n_0_1_132_wf : GatherDims.WF S160000x32 S2560000x1 S2560000x32 [1] [0] [] [0] [] 1 ![1, 32]
  scatter_S160000x32_S2560000x1_S2560000x32_1_0_0_1_wf : ScatterDims.WF S160000x32 S2560000x1 S2560000x32 [1] [0] [0] 1
  dot_S160000x32_S32x96_S160000x96_1_0_0_1_n_n_wf : DotDims.WF S160000x32 S32x96 S160000x96 [1] [0] [0] [1] [] []
  dot_S160000x64_S64x32_S160000x32_1_0_0_1_n_n_wf : DotDims.WF S160000x64 S64x32 S160000x32 [1] [0] [0] [1] [] []
  scatter_S16000x32_S160000x1_S160000x32_1_0_0_1_wf : ScatterDims.WF S16000x32 S160000x1 S160000x32 [1] [0] [0] 1
  dot_S16000x32_S32x32_S16000x32_1_0_0_1_n_n_wf : DotDims.WF S16000x32 S32x32 S16000x32 [1] [0] [0] [1] [] []
  scatter_S1600x32_S16000x1_S16000x32_1_0_0_1_wf : ScatterDims.WF S1600x32 S16000x1 S16000x32 [1] [0] [0] 1
  dot_S1600x32_S32x32_S1600x32_1_0_0_1_n_n_wf : DotDims.WF S1600x32 S32x32 S1600x32 [1] [0] [0] [1] [] []
  scatter_S160x32_S1600x1_S1600x32_1_0_0_1_wf : ScatterDims.WF S160x32 S1600x1 S1600x32 [1] [0] [0] 1
  dot_S160x32_S32x16_S160x16_1_0_0_1_n_n_wf : DotDims.WF S160x32 S32x16 S160x16 [1] [0] [0] [1] [] []
  dot_S160x16_S16x16_S160x16_1_0_0_1_n_n_wf : DotDims.WF S160x16 S16x16 S160x16 [1] [0] [0] [1] [] []

variable [Facts₀]

def gather_S50x32_S160000x2x1_S160000x2x32_2_0_n_n_0_2_132 : GatherDims S50x32 S160000x2x1 S160000x2x32 where
  offsetDims := [2]
  collapsedSliceDims := [0]
  operandBatchingDims := []
  startIndicesBatchingDims := []
  startIndexMap := [0]
  indexVectorDim := 2
  sliceSizes := ![1, 32]
  wf := gather_S50x32_S160000x2x1_S160000x2x32_2_0_n_n_0_2_132_wf
def dot_S160000x32_S32x32_S160000x32_1_0_0_1_n_n : DotDims S160000x32 S32x32 S160000x32 where
  lhsContracting := [1]
  rhsContracting := [0]
  lhsNonContracting := [0]
  rhsNonContracting := [1]
  lhsBatch := []
  rhsBatch := []
  wf := dot_S160000x32_S32x32_S160000x32_1_0_0_1_n_n_wf
def gather_S160000x32_S2560000x1_S2560000x32_1_0_n_n_0_1_132 : GatherDims S160000x32 S2560000x1 S2560000x32 where
  offsetDims := [1]
  collapsedSliceDims := [0]
  operandBatchingDims := []
  startIndicesBatchingDims := []
  startIndexMap := [0]
  indexVectorDim := 1
  sliceSizes := ![1, 32]
  wf := gather_S160000x32_S2560000x1_S2560000x32_1_0_n_n_0_1_132_wf
def scatter_S160000x32_S2560000x1_S2560000x32_1_0_0_1 : ScatterDims S160000x32 S2560000x1 S2560000x32 where
  updateWindowDims := [1]
  insertedWindowDims := [0]
  scatterDimsToOperandDims := [0]
  indexVectorDim := 1
  wf := scatter_S160000x32_S2560000x1_S2560000x32_1_0_0_1_wf
def dot_S160000x32_S32x96_S160000x96_1_0_0_1_n_n : DotDims S160000x32 S32x96 S160000x96 where
  lhsContracting := [1]
  rhsContracting := [0]
  lhsNonContracting := [0]
  rhsNonContracting := [1]
  lhsBatch := []
  rhsBatch := []
  wf := dot_S160000x32_S32x96_S160000x96_1_0_0_1_n_n_wf
def dot_S160000x64_S64x32_S160000x32_1_0_0_1_n_n : DotDims S160000x64 S64x32 S160000x32 where
  lhsContracting := [1]
  rhsContracting := [0]
  lhsNonContracting := [0]
  rhsNonContracting := [1]
  lhsBatch := []
  rhsBatch := []
  wf := dot_S160000x64_S64x32_S160000x32_1_0_0_1_n_n_wf
def scatter_S16000x32_S160000x1_S160000x32_1_0_0_1 : ScatterDims S16000x32 S160000x1 S160000x32 where
  updateWindowDims := [1]
  insertedWindowDims := [0]
  scatterDimsToOperandDims := [0]
  indexVectorDim := 1
  wf := scatter_S16000x32_S160000x1_S160000x32_1_0_0_1_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def scatter_S1600x32_S16000x1_S16000x32_1_0_0_1 : ScatterDims S1600x32 S16000x1 S16000x32 where
  updateWindowDims := [1]
  insertedWindowDims := [0]
  scatterDimsToOperandDims := [0]
  indexVectorDim := 1
  wf := scatter_S1600x32_S16000x1_S16000x32_1_0_0_1_wf
def dot_S1600x32_S32x32_S1600x32_1_0_0_1_n_n : DotDims S1600x32 S32x32 S1600x32 where
  lhsContracting := [1]
  rhsContracting := [0]
  lhsNonContracting := [0]
  rhsNonContracting := [1]
  lhsBatch := []
  rhsBatch := []
  wf := dot_S1600x32_S32x32_S1600x32_1_0_0_1_n_n_wf
def scatter_S160x32_S1600x1_S1600x32_1_0_0_1 : ScatterDims S160x32 S1600x1 S1600x32 where
  updateWindowDims := [1]
  insertedWindowDims := [0]
  scatterDimsToOperandDims := [0]
  indexVectorDim := 1
  wf := scatter_S160x32_S1600x1_S1600x32_1_0_0_1_wf
def dot_S160x32_S32x16_S160x16_1_0_0_1_n_n : DotDims S160x32 S32x16 S160x16 where
  lhsContracting := [1]
  rhsContracting := [0]
  lhsNonContracting := [0]
  rhsNonContracting := [1]
  lhsBatch := []
  rhsBatch := []
  wf := dot_S160x32_S32x16_S160x16_1_0_0_1_n_n_wf
def dot_S160x16_S16x16_S160x16_1_0_0_1_n_n : DotDims S160x16 S16x16 S160x16 where
  lhsContracting := [1]
  rhsContracting := [0]
  lhsNonContracting := [0]
  rhsNonContracting := [1]
  lhsBatch := []
  rhsBatch := []
  wf := dot_S160x16_S16x16_S160x16_1_0_0_1_n_n_wf

class Facts : Prop extends Facts₀ where

variable [Facts]
-- ==== Proof.Spec.lean ====
/-
  The reference's computation as named stage functions: the embedding lookup summed over the two integer columns,
  the per-layer linear map, the message aggregation (gather at the source node, scatter-add at the target node),
  the gated update, the batch normalisation by the column mean and the biased column variance, then the three
  scatter-add poolings with their two-layer perceptrons and the normalised linear head. Each function is the
  composition of the host operations the reference applies, spelled with the reference's own operations, so that
  the reference's run is these functions by unfolding, and the kernel's regions are proved equal to them.
-/
import proofs.«425927_j69028714381396_2_alg».proof.ReferenceIdeal
import Idealize.ShloMosaic.PureOps.Ideal

noncomputable section

namespace Cert.Spec

open Idealize.ShloMosaic Cert.ReferenceIdeal

variable {F : FTy → Type} [FloatOps F] [Facts₀]
open Facts₀

/-! ## Edge endpoints -/

/-- Row 0 of the edge table: the source node of every edge. -/
def srcOf (a1 : Vec F S2x2560000 .i32) : Vec F S2560000 .i32 :=
  shapeCast S2560000 (extractStridedSlice S1x2560000 ![0, 0] a1 slices_S2x2560000_S1x2560000_0_0) shapeCasts_S1x2560000_S2560000
/-- Row 1 of the edge table: the target node of every edge. -/
def dstOf (a1 : Vec F S2x2560000 .i32) : Vec F S2560000 .i32 :=
  shapeCast S2560000 (extractStridedSlice S1x2560000 ![1, 0] a1 slices_S2x2560000_S1x2560000_1_0) shapeCasts_S1x2560000_S2560000

/-! ## Broadcasts of a row vector -/

abbrev row32 (v : Vec F S32 .f32) : Vec F S1x32 .f32 := broadcastInDim S1x32 ![1] bcast_S32_S1x32_1 v
abbrev rows32 (v : Vec F S1x32 .f32) : Vec F S160000x32 .f32 := broadcastInDim S160000x32 ![0, 1] bcast_S1x32_S160000x32_0_1 v
abbrev row96 (v : Vec F S96 .f32) : Vec F S1x96 .f32 := broadcastInDim S1x96 ![1] bcast_S96_S1x96_1 v
abbrev rows96 (v : Vec F S1x96 .f32) : Vec F S160000x96 .f32 := broadcastInDim S160000x96 ![0, 1] bcast_S1x96_S160000x96_0_1 v
abbrev zeroS : Vec F S_ .f32 := constant S_ .f32 0x00000000#32
abbrev oneN : Vec F S160000x32 .f32 := broadcastInDim S160000x32 ![] bcast_S_S160000x32 (constant S_ .f32 0x3F800000#32)

/-! ## The embedding lookup -/

/-- A negative index counts from the end of the 50-row table. -/
def wrapZ (z : Vec F S160000x2 .i32) : Vec F S160000x2 .i32 :=
  select (cmpi .slt z (broadcastInDim S160000x2 ![] bcast_S_S160000x2 (constantI S_ 32 0#32)))
    (addi z (broadcastInDim S160000x2 ![] bcast_S_S160000x2 (constantI S_ 32 50#32))) z
/-- Row n is the sum of the table's rows z[n,0] and z[n,1]. -/
def embed (e : Vec F S50x32 .f32) (z : Vec F S160000x2 .i32) : Vec F S160000x32 .f32 :=
  Host.reduceAdd (Host.gather gather_S50x32_S160000x2x1_S160000x2x32_2_0_n_n_0_2_132 e
      (broadcastInDim S160000x2x1 ![0, 1] bcast_S160000x2_S160000x2x1_0_1 (wrapZ z)))
    zeroS reducesTo_S160000x2x32_S160000x32_d1 h_S_

/-! ## Linear maps -/

def conv (x : Vec F S160000x32 .f32) (w : Vec F S32x32 .f32) : Vec F S160000x32 .f32 :=
  Host.dotGeneral dot_S160000x32_S32x32_S160000x32_1_0_0_1_n_n none x w
/-- The previous layer's features beside this layer's embedding, times the 64×32 weight, plus the bias row. -/
def lin (xp zl : Vec F S160000x32 .f32) (tw : Vec F S64x32 .f32) (tb : Vec F S32 .f32) : Vec F S160000x32 .f32 :=
  addf (Host.dotGeneral dot_S160000x64_S64x32_S160000x32_1_0_0_1_n_n none
      (concatenate S160000x64 1 [⟨S160000x32, xp⟩, ⟨S160000x32, zl⟩] concatenates_S160000x32_S160000x32_S160000x64_d1) tw)
    (rows32 (row32 tb))

/-! ## Message aggregation -/

def wrapN (s : Vec F S2560000 .i32) : Vec F S2560000 .i32 :=
  select (cmpi .slt s (broadcastInDim S2560000 ![] bcast_S_S2560000 (constantI S_ 32 0#32)))
    (addi s (broadcastInDim S2560000 ![] bcast_S_S2560000 (constantI S_ 32 160000#32))) s
/-- Every edge carries its source node's message row to its target node, where the rows are added. -/
def agg (mm : Vec F S160000x32 .f32) (src dst : Vec F S2560000 .i32) : Vec F S160000x32 .f32 :=
  Host.scatterAdd scatter_S160000x32_S2560000x1_S2560000x32_1_0_0_1
    (broadcastInDim S160000x32 ![] bcast_S_S160000x32 zeroS)
    (broadcastInDim S2560000x1 ![0] bcast_S2560000_S2560000x1_0 dst)
    (Host.gather gather_S160000x32_S2560000x1_S2560000x32_1_0_n_n_0_1_132 mm
      (broadcastInDim S2560000x1 ![0] bcast_S2560000_S2560000x1_0 (wrapN src)))

/-! ## The gated update -/

def gates (a : Vec F S160000x32 .f32) (w : Vec F S32x96 .f32) (b : Vec F S96 .f32) : Vec F S160000x96 .f32 :=
  addf (Host.dotGeneral dot_S160000x32_S32x96_S160000x96_1_0_0_1_n_n none a w) (rows96 (row96 b))
abbrev gate0 (g : Vec F S160000x96 .f32) : Vec F S160000x32 .f32 := extractStridedSlice S160000x32 ![0, 0] g slices_S160000x96_S160000x32_0_0
abbrev gate1 (g : Vec F S160000x96 .f32) : Vec F S160000x32 .f32 := extractStridedSlice S160000x32 ![0, 32] g slices_S160000x96_S160000x32_0_32
abbrev gate2 (g : Vec F S160000x96 .f32) : Vec F S160000x32 .f32 := extractStridedSlice S160000x32 ![0, 64] g slices_S160000x96_S160000x32_0_64
/-- 1 / (1 + exp (-(a + b))). -/
def sigm (a b : Vec F S160000x32 .f32) : Vec F S160000x32 .f32 :=
  Host.divf oneN (addf oneN (Host.exp (Host.negf (addf a b))))
/-- (1 - z) · tanh (i_n + r · h_n) + z · x, with r and z the two sigmoid gates. -/
def gru (x ag : Vec F S160000x32 .f32) (wi wh : Vec F S32x96 .f32) (bi bh : Vec F S96 .f32) : Vec F S160000x32 .f32 :=
  addf (mulf (subf oneN (sigm (gate1 (gates ag wi bi)) (gate1 (gates x wh bh))))
      (Host.tanh (addf (gate2 (gates ag wi bi)) (mulf (sigm (gate0 (gates ag wi bi)) (gate0 (gates x wh bh))) (gate2 (gates x wh bh))))))
    (mulf (sigm (gate1 (gates ag wi bi)) (gate1 (gates x wh bh))) x)

/-! ## Batch normalisation over the 160000 rows -/

abbrev nRows : Vec F S_ .f32 := constant S_ .f32 0x481C4000#32
def colSum (x : Vec F S160000x32 .f32) : Vec F S32 .f32 := Host.reduceAdd x zeroS reducesTo_S160000x32_S32_d0 h_S_
def mean32 (x : Vec F S160000x32 .f32) : Vec F S32 .f32 :=
  Host.divf (colSum x) (broadcastInDim S32 ![] bcast_S_S32 nRows)
/-- The divisor of the variance: the row count minus zero degrees of freedom. -/
def varDen : Vec F S_ .f32 := subf nRows (sitofp .f32 (constantI S_ 32 0#32))
/-- The biased variance of each column (the mean of the squared deviations), guarded as jnp.var guards it. -/
def var32 (x : Vec F S160000x32 .f32) : Vec F S32 .f32 :=
  select (broadcastInDim S32 ![] bcast_S_S32 (cmpf .ogt (varDen (F := F)) zeroS))
    (Host.divf
      (colSum (mulf
        (subf x (rows32 (Host.divf (row32 (colSum x)) (broadcastInDim S1x32 ![] bcast_S_S1x32 nRows))))
        (subf x (rows32 (Host.divf (row32 (colSum x)) (broadcastInDim S1x32 ![] bcast_S_S1x32 nRows))))))
      (broadcastInDim S32 ![] bcast_S_S32 varDen))
    (broadcastInDim S32 ![] bcast_S_S32 (id (constant S_ .f32 0x7FC00000#32)))
abbrev epsS : Vec F S_ .f32 := constant S_ .f32 0x3727C5AC#32
/-- (x - mean) · rsqrt (var + ε) · g + b, column by column. -/
def bn (x : Vec F S160000x32 .f32) (g b : Vec F S32 .f32) : Vec F S160000x32 .f32 :=
  addf (mulf (mulf (subf x (rows32 (row32 (mean32 x))))
        (rows32 (row32 (Host.rsqrt (addf (var32 x) (broadcastInDim S32 ![] bcast_S_S32 epsS))))))
      (rows32 (row32 g)))
    (rows32 (row32 b))

/-- One layer after its linear input: project, aggregate over the edges, gated update, normalise. -/
def layerCore (xl : Vec F S160000x32 .f32) (src dst : Vec F S2560000 .i32) (cw : Vec F S32x32 .f32)
    (wi wh : Vec F S32x96 .f32) (bi bh : Vec F S96 .f32) (g b : Vec F S32 .f32) : Vec F S160000x32 .f32 :=
  bn (gru xl (agg (conv xl cw) src dst) wi wh bi bh) g b

/-! ## The layers' slices of the stacked weights -/

def emb0 (a : Vec F S5x50x32 .f32) : Vec F S50x32 .f32 := shapeCast S50x32 (extractStridedSlice S1x50x32 ![0, 0, 0] a slices_S5x50x32_S1x50x32_0_0_0) shapeCasts_S1x50x32_S50x32
def cw0 (a : Vec F S5x32x32 .f32) : Vec F S32x32 .f32 := shapeCast S32x32 (extractStridedSlice S1x32x32 ![0, 0, 0] a slices_S5x32x32_S1x32x32_0_0_0) shapeCasts_S1x32x32_S32x32
def wi0 (a : Vec F S5x32x96 .f32) : Vec F S32x96 .f32 := shapeCast S32x96 (extractStridedSlice S1x32x96 ![0, 0, 0] a slices_S5x32x96_S1x32x96_0_0_0) shapeCasts_S1x32x96_S32x96
def b96_0 (a : Vec F S5x96 .f32) : Vec F S96 .f32 := shapeCast S96 (extractStridedSlice S1x96 ![0, 0] a slices_S5x96_S1x96_0_0) shapeCasts_S1x96_S96
def b32_0 (a : Vec F S5x32 .f32) : Vec F S32 .f32 := shapeCast S32 (extractStridedSlice S1x32 ![0, 0] a slices_S5x32_S1x32_0_0) shapeCasts_S1x32_S32
def emb1 (a : Vec F S5x50x32 .f32) : Vec F S50x32 .f32 := shapeCast S50x32 (extractStridedSlice S1x50x32 ![1, 0, 0] a slices_S5x50x32_S1x50x32_1_0_0) shapeCasts_S1x50x32_S50x32
def cw1 (a : Vec F S5x32x32 .f32) : Vec F S32x32 .f32 := shapeCast S32x32 (extractStridedSlice S1x32x32 ![1, 0, 0] a slices_S5x32x32_S1x32x32_1_0_0) shapeCasts_S1x32x32_S32x32
def wi1 (a : Vec F S5x32x96 .f32) : Vec F S32x96 .f32 := shapeCast S32x96 (extractStridedSlice S1x32x96 ![1, 0, 0] a slices_S5x32x96_S1x32x96_1_0_0) shapeCasts_S1x32x96_S32x96
def b96_1 (a : Vec F S5x96 .f32) : Vec F S96 .f32 := shapeCast S96 (extractStridedSlice S1x96 ![1, 0] a slices_S5x96_S1x96_1_0) shapeCasts_S1x96_S96
def b32_1 (a : Vec F S5x32 .f32) : Vec F S32 .f32 := shapeCast S32 (extractStridedSlice S1x32 ![1, 0] a slices_S5x32_S1x32_1_0) shapeCasts_S1x32_S32
def tw1 (a : Vec F S5x64x32 .f32) : Vec F S64x32 .f32 := shapeCast S64x32 (extractStridedSlice S1x64x32 ![1, 0, 0] a slices_S5x64x32_S1x64x32_1_0_0) shapeCasts_S1x64x32_S64x32
def emb2 (a : Vec F S5x50x32 .f32) : Vec F S50x32 .f32 := shapeCast S50x32 (extractStridedSlice S1x50x32 ![2, 0, 0] a slices_S5x50x32_S1x50x32_2_0_0) shapeCasts_S1x50x32_S50x32
def cw2 (a : Vec F S5x32x32 .f32) : Vec F S32x32 .f32 := shapeCast S32x32 (extractStridedSlice S1x32x32 ![2, 0, 0] a slices_S5x32x32_S1x32x32_2_0_0) shapeCasts_S1x32x32_S32x32
def wi2 (a : Vec F S5x32x96 .f32) : Vec F S32x96 .f32 := shapeCast S32x96 (extractStridedSlice S1x32x96 ![2, 0, 0] a slices_S5x32x96_S1x32x96_2_0_0) shapeCasts_S1x32x96_S32x96
def b96_2 (a : Vec F S5x96 .f32) : Vec F S96 .f32 := shapeCast S96 (extractStridedSlice S1x96 ![2, 0] a slices_S5x96_S1x96_2_0) shapeCasts_S1x96_S96
def b32_2 (a : Vec F S5x32 .f32) : Vec F S32 .f32 := shapeCast S32 (extractStridedSlice S1x32 ![2, 0] a slices_S5x32_S1x32_2_0) shapeCasts_S1x32_S32
def tw2 (a : Vec F S5x64x32 .f32) : Vec F S64x32 .f32 := shapeCast S64x32 (extractStridedSlice S1x64x32 ![2, 0, 0] a slices_S5x64x32_S1x64x32_2_0_0) shapeCasts_S1x64x32_S64x32
def emb3 (a : Vec F S5x50x32 .f32) : Vec F S50x32 .f32 := shapeCast S50x32 (extractStridedSlice S1x50x32 ![3, 0, 0] a slices_S5x50x32_S1x50x32_3_0_0) shapeCasts_S1x50x32_S50x32
def cw3 (a : Vec F S5x32x32 .f32) : Vec F S32x32 .f32 := shapeCast S32x32 (extractStridedSlice S1x32x32 ![3, 0, 0] a slices_S5x32x32_S1x32x32_3_0_0) shapeCasts_S1x32x32_S32x32
def wi3 (a : Vec F S5x32x96 .f32) : Vec F S32x96 .f32 := shapeCast S32x96 (extractStridedSlice S1x32x96 ![3, 0, 0] a slices_S5x32x96_S1x32x96_3_0_0) shapeCasts_S1x32x96_S32x96
def b96_3 (a : Vec F S5x96 .f32) : Vec F S96 .f32 := shapeCast S96 (extractStridedSlice S1x96 ![3, 0] a slices_S5x96_S1x96_3_0) shapeCasts_S1x96_S96
def b32_3 (a : Vec F S5x32 .f32) : Vec F S32 .f32 := shapeCast S32 (extractStridedSlice S1x32 ![3, 0] a slices_S5x32_S1x32_3_0) shapeCasts_S1x32_S32
def tw3 (a : Vec F S5x64x32 .f32) : Vec F S64x32 .f32 := shapeCast S64x32 (extractStridedSlice S1x64x32 ![3, 0, 0] a slices_S5x64x32_S1x64x32_3_0_0) shapeCasts_S1x64x32_S64x32
def emb4 (a : Vec F S5x50x32 .f32) : Vec F S50x32 .f32 := shapeCast S50x32 (extractStridedSlice S1x50x32 ![4, 0, 0] a slices_S5x50x32_S1x50x32_4_0_0) shapeCasts_S1x50x32_S50x32
def cw4 (a : Vec F S5x32x32 .f32) : Vec F S32x32 .f32 := shapeCast S32x32 (extractStridedSlice S1x32x32 ![4, 0, 0] a slices_S5x32x32_S1x32x32_4_0_0) shapeCasts_S1x32x32_S32x32
def wi4 (a : Vec F S5x32x96 .f32) : Vec F S32x96 .f32 := shapeCast S32x96 (extractStridedSlice S1x32x96 ![4, 0, 0] a slices_S5x32x96_S1x32x96_4_0_0) shapeCasts_S1x32x96_S32x96
def b96_4 (a : Vec F S5x96 .f32) : Vec F S96 .f32 := shapeCast S96 (extractStridedSlice S1x96 ![4, 0] a slices_S5x96_S1x96_4_0) shapeCasts_S1x96_S96
def b32_4 (a : Vec F S5x32 .f32) : Vec F S32 .f32 := shapeCast S32 (extractStridedSlice S1x32 ![4, 0] a slices_S5x32_S1x32_4_0) shapeCasts_S1x32_S32
def tw4 (a : Vec F S5x64x32 .f32) : Vec F S64x32 .f32 := shapeCast S64x32 (extractStridedSlice S1x64x32 ![4, 0, 0] a slices_S5x64x32_S1x64x32_4_0_0) shapeCasts_S1x64x32_S64x32

/-! ## The five layers (a5 … a14 are the stacked weights, in the program's argument order) -/

def x0 (z : Vec F S160000x2 .i32) (src dst : Vec F S2560000 .i32) (a5 : Vec F S5x50x32 .f32) (a8 : Vec F S5x32x32 .f32)
    (a9 a10 : Vec F S5x32x96 .f32) (a11 a12 : Vec F S5x96 .f32) (a13 a14 : Vec F S5x32 .f32) : Vec F S160000x32 .f32 :=
  layerCore (embed (emb0 a5) z) src dst (cw0 a8) (wi0 a9) (wi0 a10) (b96_0 a11) (b96_0 a12) (b32_0 a13) (b32_0 a14)
def x1 (xp : Vec F S160000x32 .f32) (z : Vec F S160000x2 .i32) (src dst : Vec F S2560000 .i32) (a5 : Vec F S5x50x32 .f32) (a6 : Vec F S5x64x32 .f32) (a7 : Vec F S5x32 .f32) (a8 : Vec F S5x32x32 .f32)
    (a9 a10 : Vec F S5x32x96 .f32) (a11 a12 : Vec F S5x96 .f32) (a13 a14 : Vec F S5x32 .f32) : Vec F S160000x32 .f32 :=
  layerCore (lin xp (embed (emb1 a5) z) (tw1 a6) (b32_1 a7)) src dst (cw1 a8) (wi1 a9) (wi1 a10) (b96_1 a11) (b96_1 a12) (b32_1 a13) (b32_1 a14)
def x2 (xp : Vec F S160000x32 .f32) (z : Vec F S160000x2 .i32) (src dst : Vec F S2560000 .i32) (a5 : Vec F S5x50x32 .f32) (a6 : Vec F S5x64x32 .f32) (a7 : Vec F S5x32 .f32) (a8 : Vec F S5x32x32 .f32)
    (a9 a10 : Vec F S5x32x96 .f32) (a11 a12 : Vec F S5x96 .f32) (a13 a14 : Vec F S5x32 .f32) : Vec F S160000x32 .f32 :=
  layerCore (lin xp (embed (emb2 a5) z) (tw2 a6) (b32_2 a7)) src dst (cw2 a8) (wi2 a9) (wi2 a10) (b96_2 a11) (b96_2 a12) (b32_2 a13) (b32_2 a14)
def x3 (xp : Vec F S160000x32 .f32) (z : Vec F S160000x2 .i32) (src dst : Vec F S2560000 .i32) (a5 : Vec F S5x50x32 .f32) (a6 : Vec F S5x64x32 .f32) (a7 : Vec F S5x32 .f32) (a8 : Vec F S5x32x32 .f32)
    (a9 a10 : Vec F S5x32x96 .f32) (a11 a12 : Vec F S5x96 .f32) (a13 a14 : Vec F S5x32 .f32) : Vec F S160000x32 .f32 :=
  layerCore (lin xp (embed (emb3 a5) z) (tw3 a6) (b32_3 a7)) src dst (cw3 a8) (wi3 a9) (wi3 a10) (b96_3 a11) (b96_3 a12) (b32_3 a13) (b32_3 a14)
def x4 (xp : Vec F S160000x32 .f32) (z : Vec F S160000x2 .i32) (src dst : Vec F S2560000 .i32) (a5 : Vec F S5x50x32 .f32) (a6 : Vec F S5x64x32 .f32) (a7 : Vec F S5x32 .f32) (a8 : Vec F S5x32x32 .f32)
    (a9 a10 : Vec F S5x32x96 .f32) (a11 a12 : Vec F S5x96 .f32) (a13 a14 : Vec F S5x32 .f32) : Vec F S160000x32 .f32 :=
  layerCore (lin xp (embed (emb4 a5) z) (tw4 a6) (b32_4 a7)) src dst (cw4 a8) (wi4 a9) (wi4 a10) (b96_4 a11) (b96_4 a12) (b32_4 a13) (b32_4 a14)

/-! ## The pooling tail -/

/-- Rows added into 16000 groups by their group index. -/
def pool1 (x : Vec F S160000x32 .f32) (ix : Vec F S160000 .i32) : Vec F S16000x32 .f32 :=
  Host.scatterAdd scatter_S16000x32_S160000x1_S160000x32_1_0_0_1 (broadcastInDim S16000x32 ![] bcast_S_S16000x32 zeroS)
    (broadcastInDim S160000x1 ![0] bcast_S160000_S160000x1_0 ix) x
/-- relu (p · w1 + b1) · w2 + b2 on 16000 rows. -/
def mlp1 (p : Vec F S16000x32 .f32) (w1 : Vec F S32x32 .f32) (b1 : Vec F S32 .f32) (w2 : Vec F S32x32 .f32) (b2 : Vec F S32 .f32) : Vec F S16000x32 .f32 :=
  addf (Host.dotGeneral dot_S16000x32_S32x32_S16000x32_1_0_0_1_n_n none
      (maximumf (addf (Host.dotGeneral dot_S16000x32_S32x32_S16000x32_1_0_0_1_n_n none p w1)
          (broadcastInDim S16000x32 ![0, 1] bcast_S1x32_S16000x32_0_1 (row32 b1)))
        (broadcastInDim S16000x32 ![] bcast_S_S16000x32 zeroS)) w2)
    (broadcastInDim S16000x32 ![0, 1] bcast_S1x32_S16000x32_0_1 (row32 b2))
def pool2 (x : Vec F S16000x32 .f32) (ix : Vec F S16000 .i32) : Vec F S1600x32 .f32 :=
  Host.scatterAdd scatter_S1600x32_S16000x1_S16000x32_1_0_0_1 (broadcastInDim S1600x32 ![] bcast_S_S1600x32 zeroS)
    (broadcastInDim S16000x1 ![0] bcast_S16000_S16000x1_0 ix) x
def mlp2 (p : Vec F S1600x32 .f32) (w1 : Vec F S32x32 .f32) (b1 : Vec F S32 .f32) (w2 : Vec F S32x32 .f32) (b2 : Vec F S32 .f32) : Vec F S1600x32 .f32 :=
  addf (Host.dotGeneral dot_S1600x32_S32x32_S1600x32_1_0_0_1_n_n none
      (maximumf (addf (Host.dotGeneral dot_S1600x32_S32x32_S1600x32_1_0_0_1_n_n none p w1)
          (broadcastInDim S1600x32 ![0, 1] bcast_S1x32_S1600x32_0_1 (row32 b1)))
        (broadcastInDim S1600x32 ![] bcast_S_S1600x32 zeroS)) w2)
    (broadcastInDim S1600x32 ![0, 1] bcast_S1x32_S1600x32_0_1 (row32 b2))
def pool3 (x : Vec F S1600x32 .f32) (ix : Vec F S1600 .i32) : Vec F S160x32 .f32 :=
  Host.scatterAdd scatter_S160x32_S1600x1_S1600x32_1_0_0_1 (broadcastInDim S160x32 ![] bcast_S_S160x32 zeroS)
    (broadcastInDim S1600x1 ![0] bcast_S1600_S1600x1_0 ix) x

/-! ## The head -/

abbrev row16 (v : Vec F S16 .f32) : Vec F S1x16 .f32 := broadcastInDim S1x16 ![1] bcast_S16_S1x16_1 v
abbrev rows16 (v : Vec F S1x16 .f32) : Vec F S160x16 .f32 := broadcastInDim S160x16 ![0, 1] bcast_S1x16_S160x16_0_1 v
abbrev zero16 : Vec F S160x16 .f32 := broadcastInDim S160x16 ![] bcast_S_S160x16 zeroS
def fc1 (p : Vec F S160x32 .f32) (w : Vec F S32x16 .f32) (b : Vec F S16 .f32) : Vec F S160x16 .f32 :=
  addf (Host.dotGeneral dot_S160x32_S32x16_S160x16_1_0_0_1_n_n none p w) (rows16 (row16 b))
/-- y where y > 0, and 1 · (exp y' - 1) elsewhere, y' being y with its positive entries set to 0. -/
def elu (y : Vec F S160x16 .f32) : Vec F S160x16 .f32 :=
  select (cmpf .ogt y zero16) y
    (mulf (broadcastInDim S160x16 ![] bcast_S_S160x16 (constant S_ .f32 0x3F800000#32))
      (Host.expm1 (select (cmpf .ogt y zero16) (broadcastInDim S160x16 ![] bcast_S_S160x16 (id zeroS)) y)))
abbrev nGraphs : Vec F S_ .f32 := constant S_ .f32 0x43200000#32
def colSum16 (h : Vec F S160x16 .f32) : Vec F S16 .f32 := Host.reduceAdd h zeroS reducesTo_S160x16_S16_d0 h_S_
def mean16 (h : Vec F S160x16 .f32) : Vec F S16 .f32 := Host.divf (colSum16 h) (broadcastInDim S16 ![] bcast_S_S16 nGraphs)
def varDen16 : Vec F S_ .f32 := subf nGraphs (sitofp .f32 (constantI S_ 32 0#32))
def var16 (h : Vec F S160x16 .f32) : Vec F S16 .f32 :=
  select (broadcastInDim S16 ![] bcast_S_S16 (cmpf .ogt (varDen16 (F := F)) zeroS))
    (Host.divf
      (colSum16 (mulf
        (subf h (rows16 (Host.divf (row16 (colSum16 h)) (broadcastInDim S1x16 ![] bcast_S_S1x16 nGraphs))))
        (subf h (rows16 (Host.divf (row16 (colSum16 h)) (broadcastInDim S1x16 ![] bcast_S_S1x16 nGraphs))))))
      (broadcastInDim S16 ![] bcast_S_S16 varDen16))
    (broadcastInDim S16 ![] bcast_S_S16 (id (constant S_ .f32 0x7FC00000#32)))
/-- ((h - mean) · rsqrt (var + ε)) · w + b over the 160 rows. -/
def head (h : Vec F S160x16 .f32) (w : Vec F S16x16 .f32) (b : Vec F S16 .f32) : Vec F S160x16 .f32 :=
  addf (Host.dotGeneral dot_S160x16_S16x16_S160x16_1_0_0_1_n_n none
      (mulf (subf h (rows16 (row16 (mean16 h))))
        (rows16 (row16 (Host.rsqrt (addf (var16 h) (broadcastInDim S16 ![] bcast_S_S16 epsS)))))) w)
    (rows16 (row16 b))

/-- Everything after the fifth layer. -/
def tail (x4 : Vec F S160000x32 .f32) (a2 : Vec F S160000 .i32) (a3 : Vec F S16000 .i32) (a4 : Vec F S1600 .i32)
    (a15 : Vec F S32x32 .f32) (a16 : Vec F S32 .f32) (a17 : Vec F S32x32 .f32) (a18 : Vec F S32 .f32)
    (a19 : Vec F S32x32 .f32) (a20 : Vec F S32 .f32) (a21 : Vec F S32x32 .f32) (a22 : Vec F S32 .f32)
    (a23 : Vec F S32x16 .f32) (a24 : Vec F S16 .f32) (a25 : Vec F S16x16 .f32) (a26 : Vec F S16 .f32) : Vec F S160x16 .f32 :=
  head (elu (fc1 (pool3 (mlp2 (pool2 (mlp1 (pool1 x4 a2) a15 a16 a17 a18) a3) a19 a20 a21 a22) a4) a23 a24)) a25 a26

/-- The whole computation: five layers over the same integer inputs, then the pooling tail. -/
def all (z : Vec F S160000x2 .i32) (a1 : Vec F S2x2560000 .i32) (a2 : Vec F S160000 .i32) (a3 : Vec F S16000 .i32) (a4 : Vec F S1600 .i32)
    (a5 : Vec F S5x50x32 .f32) (a6 : Vec F S5x64x32 .f32) (a7 : Vec F S5x32 .f32) (a8 : Vec F S5x32x32 .f32)
    (a9 a10 : Vec F S5x32x96 .f32) (a11 a12 : Vec F S5x96 .f32) (a13 a14 : Vec F S5x32 .f32)
    (a15 : Vec F S32x32 .f32) (a16 : Vec F S32 .f32) (a17 : Vec F S32x32 .f32) (a18 : Vec F S32 .f32)
    (a19 : Vec F S32x32 .f32) (a20 : Vec F S32 .f32) (a21 : Vec F S32x32 .f32) (a22 : Vec F S32 .f32)
    (a23 : Vec F S32x16 .f32) (a24 : Vec F S16 .f32) (a25 : Vec F S16x16 .f32) (a26 : Vec F S16 .f32) : Vec F S160x16 .f32 :=
  tail (x4 (x3 (x2 (x1 (x0 z (srcOf a1) (dstOf a1) a5 a8 a9 a10 a11 a12 a13 a14)
      z (srcOf a1) (dstOf a1) a5 a6 a7 a8 a9 a10 a11 a12 a13 a14) z (srcOf a1) (dstOf a1) a5 a6 a7 a8 a9 a10 a11 a12 a13 a14) z (srcOf a1) (dstOf a1) a5 a6 a7 a8 a9 a10 a11 a12 a13 a14) z (srcOf a1) (dstOf a1) a5 a6 a7 a8 a9 a10 a11 a12 a13 a14)
    a2 a3 a4 a15 a16 a17 a18 a19 a20 a21 a22 a23 a24 a25 a26

end Cert.Spec

end
-- ==== Proof.PreZ.lean ====
/-
  THE INDEX RANGE, READ OUT OF THE PRINTED PRECONDITION. The precondition is one conjunction (a chain of "and"s of
  i1 scalars): for each float argument "every entry is finite", then, of the integer argument z, "every entry is ≥ 0"
  and "every entry is < 50", both compared SIGNED; each "every entry" is a reduction by "and" over all axes. The
  conjunction being 1 makes its last two conjuncts 1 (the float conjuncts stay one unread word); a reduction by "and"
  that is 1 met only 1s; a comparison against a broadcast scalar constant reads the constant at every index; and a 32-bit
  word that is ≥ 0 and < 50 signed has its sign bit clear, so its unsigned value is its signed value and is below 50.
-/
import proofs.«425927_j69028714381396_2_alg».proof.Pre_finite_inputs
import Idealize.ShloMosaic.Lib.ReduceAll
import Idealize.ShloMosaic.Lib.ValueIdx

noncomputable section

namespace Cert.PreZ

open Idealize.ShloMosaic
open Cert.Pre_finite_inputs Cert.Pre_finite_inputs.Facts

/-! ## Words -/

/-- A 32-bit word in [0, 50) as a signed integer is below 50 as an unsigned one: a non-negative signed value has the sign
    bit clear, so the two readings agree. -/
theorem toNat_lt_50 (a : BitVec 32) (h0 : IntOp.cmpi .sge a 0#32 = 1#1) (h1 : IntOp.cmpi .slt a 50#32 = 1#1) :
    a.toNat < 50 := by
  rw [IntOp.cmpi_sge] at h0
  rw [IntOp.cmpi_slt] at h1
  have z : (0#32 : BitVec 32).toInt = 0 := by decide
  have f : (50#32 : BitVec 32).toInt = 50 := by decide
  rw [z] at h0
  rw [f] at h1
  have hlt := a.isLt
  rw [BitVec.toInt_eq_toNat_cond] at h0 h1
  split at h0 <;> omega

/-! ## The two conjuncts about z, as the precondition prints them -/

section Conjuncts

variable [Facts]

/-- The scalar result has one index. -/
local instance : Subsingleton S_.Idx := ⟨fun a b => funext fun d => d.elim0⟩

/-- all (z ≥ 0): the signed comparison of z with the broadcast constant 0, reduced by "and" over both axes from 1. -/
def allGe (z : IVec S160000x2 32) : IVec S_ 1 :=
  Host.reduce IntOp.andi (cmpi .sge z (broadcastInDim S160000x2 ![] bcast_S_S160000x2 (constantI S_ 32 0#32)))
    (constantI S_ 1 1#1) reducesTo_S160000x2_S_d0_1 h_S_

/-- all (z < 50): likewise with the constant 50. -/
def allLt (z : IVec S160000x2 32) : IVec S_ 1 :=
  Host.reduce IntOp.andi (cmpi .slt z (broadcastInDim S160000x2 ![] bcast_S_S160000x2 (constantI S_ 32 50#32)))
    (constantI S_ 1 1#1) reducesTo_S160000x2_S_d0_1 h_S_

/-- The printed chain, unfolded, ends and (and X (all (z ≥ 0))) (all (z < 50)), X the conjunction of the float
    arguments' finiteness tests (left unread). -/
theorem fn_split {F : FTy → Type} [FloatOps F]
    (a0 : IVec S160000x2 32) (a1 : IVec S2x2560000 32) (a2 : IVec S160000 32) (a3 : IVec S16000 32)
    (a4 : IVec S1600 32) (a5 : FVec F S5x50x32 .f32) (a6 : FVec F S5x64x32 .f32) (a7 : FVec F S5x32 .f32)
    (a8 : FVec F S5x32x32 .f32) (a9 : FVec F S5x32x96 .f32) (a10 : FVec F S5x32x96 .f32) (a11 : FVec F S5x96 .f32)
    (a12 : FVec F S5x96 .f32) (a13 : FVec F S5x32 .f32) (a14 : FVec F S5x32 .f32) (a15 : FVec F S32x32 .f32)
    (a16 : FVec F S32 .f32) (a17 : FVec F S32x32 .f32) (a18 : FVec F S32 .f32) (a19 : FVec F S32x32 .f32)
    (a20 : FVec F S32 .f32) (a21 : FVec F S32x32 .f32) (a22 : FVec F S32 .f32) (a23 : FVec F S32x16 .f32)
    (a24 : FVec F S16 .f32) (a25 : FVec F S16x16 .f32) (a26 : FVec F S16 .f32) :
    ∃ X : IVec S_ 1, Cert.Pre_finite_inputs.fn (F := F) a0 a1 a2 a3 a4 a5 a6 a7 a8 a9 a10 a11 a12 a13 a14 a15 a16 a17 a18 a19 a20 a21 a22 a23 a24 a25 a26
      = andi (andi X (allGe a0)) (allLt a0) :=
  ⟨_, rfl⟩

/-- Every entry of z is ≥ 0 signed, when its "all" is 1. -/
theorem ge_of_allGe (z : IVec S160000x2 32) (h : allGe z ValueIdx.ix0 = 1#1) (i : S160000x2.Idx) :
    IntOp.cmpi .sge (z i) 0#32 = 1#1 :=
  Host.reduce_andi_all _ _ reducesTo_S160000x2_S_d0_1 h_S_ ValueIdx.ix0 h i

/-- Every entry of z is < 50 signed, when its "all" is 1. -/
theorem lt_of_allLt (z : IVec S160000x2 32) (h : allLt z ValueIdx.ix0 = 1#1) (i : S160000x2.Idx) :
    IntOp.cmpi .slt (z i) 50#32 = 1#1 :=
  Host.reduce_andi_all _ _ reducesTo_S160000x2_S_d0_1 h_S_ ValueIdx.ix0 h i

end Conjuncts

/-! ## The export -/

/-- Under the precondition every entry of z = argument 0 is an index below 50. -/
theorem z_lt_50 {F : FTy → Type} [FloatOps F] [Cert.Pre_finite_inputs.Facts]
    (a0 : IVec S160000x2 32) (a1 : IVec S2x2560000 32) (a2 : IVec S160000 32) (a3 : IVec S16000 32)
    (a4 : IVec S1600 32) (a5 : FVec F S5x50x32 .f32) (a6 : FVec F S5x64x32 .f32) (a7 : FVec F S5x32 .f32)
    (a8 : FVec F S5x32x32 .f32) (a9 : FVec F S5x32x96 .f32) (a10 : FVec F S5x32x96 .f32) (a11 : FVec F S5x96 .f32)
    (a12 : FVec F S5x96 .f32) (a13 : FVec F S5x32 .f32) (a14 : FVec F S5x32 .f32) (a15 : FVec F S32x32 .f32)
    (a16 : FVec F S32 .f32) (a17 : FVec F S32x32 .f32) (a18 : FVec F S32 .f32) (a19 : FVec F S32x32 .f32)
    (a20 : FVec F S32 .f32) (a21 : FVec F S32x32 .f32) (a22 : FVec F S32 .f32) (a23 : FVec F S32x16 .f32)
    (a24 : FVec F S16 .f32) (a25 : FVec F S16x16 .f32) (a26 : FVec F S16 .f32)
    (h : Cert.Pre_finite_inputs.fn (F := F) a0 a1 a2 a3 a4 a5 a6 a7 a8 a9 a10 a11 a12 a13 a14 a15 a16 a17 a18 a19 a20 a21 a22 a23 a24 a25 a26 = (fun _ => 1#1)) :
    ∀ i, (a0 i).toNat < 50 := by
  intro i
  obtain ⟨X, hX⟩ := fn_split (F := F) a0 a1 a2 a3 a4 a5 a6 a7 a8 a9 a10 a11 a12 a13 a14 a15 a16 a17 a18 a19 a20 a21 a22 a23 a24 a25 a26
  rw [hX] at h
  have h0 : IntOp.andi (IntOp.andi (X ValueIdx.ix0) (allGe a0 ValueIdx.ix0)) (allLt a0 ValueIdx.ix0) = 1#1 :=
    congrFun h ValueIdx.ix0
  obtain ⟨h1, hlt⟩ := IntOp.andi_eq_one.1 h0
  obtain ⟨-, hge⟩ := IntOp.andi_eq_one.1 h1
  exact toNat_lt_50 (a0 i) (ge_of_allGe a0 hge i) (lt_of_allLt a0 hlt i)

end Cert.PreZ

end
-- ==== Proof.KHost.lean ====
/-
  The places where the kernel program's host code keeps a [1, n] row and the reference an [n] vector, read entry by
  entry at the extended reals: a vector reshaped to a one-row matrix, the column mean kept as a row, and the guarded
  biased column variance kept as a row. A row broadcast of a vector read at (0, q) is the vector at q, a scalar
  broadcast reads the scalar at every index of either shape, and the quotient and the select are taken element by
  element; so the row at (0, q) and the vector at q are the same expression of the same column sums and scalars.
-/
import proofs.«425927_j69028714381396_2_alg».proof.Proof.Spec
import proofs.«425927_j69028714381396_2_alg».proof.Proof.Gen.ReferenceIdeal
import proofs.«425927_j69028714381396_2_alg».proof.KernelIdeal
import proofs.«425927_j69028714381396_2_alg».proof.Proof.Gen.KernelIdeal
import Idealize.ShloMosaic.Lib.IdealHost
import Idealize.ShloMosaic.Lib.ValueLayout
import Idealize.ShloMosaic.Lib.Pipeline.Value

noncomputable section

namespace Cert.KernelValue

open Idealize.ShloMosaic Idealize.ShloMosaic.ValueIdx

/-! ## A vector broadcast to a one-row matrix, a scalar broadcast, read at an index -/

/-- An [n] vector broadcast along axis 1 of a [1, n] matrix reads, at (u, q), the vector at q. -/
theorem bcastRow_apply {α : Type} {n : ℕ} (v : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h v (ix2 u q) = v (ix1 q) := by
  refine broadcastInDim_apply ![1] h v (ix2 u q) (ix1 q) ?_
  intro a
  match a with
  | ⟨0, _⟩ =>
    show q.val = if n = 1 then 0 else q.val
    split
    · have := q.isLt; omega
    · rfl

/-- The guarded quotient of a column sum by a scalar, kept as a [1, n] row, read at (0, q), is the same guarded
    quotient kept as an [n] vector read at q: the select's scalar condition, the scalar divisor and the scalar
    fill word are read alike under both broadcasts, and the row broadcast of the column sum reads the sum. -/
theorem guardedQuot_row {n : ℕ} (cs : FVec Ideal ⟨1, ![n]⟩ .f32)
    (p : IVec ⟨0, ![]⟩ 1) (den nan : FVec Ideal ⟨0, ![]⟩ .f32)
    (hb1 : (⟨1, ![n]⟩ : Shape).BroadcastsInDim ⟨2, ![1, n]⟩ ![1])
    (hb0 : (⟨0, ![]⟩ : Shape).BroadcastsInDim ⟨2, ![1, n]⟩ ![])
    (hb0' : (⟨0, ![]⟩ : Shape).BroadcastsInDim ⟨1, ![n]⟩ ![]) (q : Fin n) :
    select (broadcastInDim ⟨2, ![1, n]⟩ ![] hb0 p)
        (Host.divf (broadcastInDim ⟨2, ![1, n]⟩ ![1] hb1 cs) (broadcastInDim ⟨2, ![1, n]⟩ ![] hb0 den))
        (broadcastInDim ⟨2, ![1, n]⟩ ![] hb0 nan) (ix2 (0 : Fin 1) q)
      = select (broadcastInDim ⟨1, ![n]⟩ ![] hb0' p)
        (Host.divf cs (broadcastInDim ⟨1, ![n]⟩ ![] hb0' den))
        (broadcastInDim ⟨1, ![n]⟩ ![] hb0' nan) (ix1 q) := by
  rw [select_apply, select_apply, hostDivf_apply, hostDivf_apply, bcastRow_apply,
    broadcastInDim_scalar_apply hb0 p, broadcastInDim_scalar_apply hb0 den, broadcastInDim_scalar_apply hb0 nan,
    broadcastInDim_scalar_apply hb0' p, broadcastInDim_scalar_apply hb0' den, broadcastInDim_scalar_apply hb0' nan]

/-- The quotient of a row-broadcast vector by a broadcast scalar, read at (0, q). -/
theorem quot_row {n : ℕ} (cs : FVec Ideal ⟨1, ![n]⟩ .f32) (den : FVec Ideal ⟨0, ![]⟩ .f32)
    (hb1 : (⟨1, ![n]⟩ : Shape).BroadcastsInDim ⟨2, ![1, n]⟩ ![1])
    (hb0 : (⟨0, ![]⟩ : Shape).BroadcastsInDim ⟨2, ![1, n]⟩ ![])
    (hb0' : (⟨0, ![]⟩ : Shape).BroadcastsInDim ⟨1, ![n]⟩ ![]) (q : Fin n) :
    Host.divf (broadcastInDim ⟨2, ![1, n]⟩ ![1] hb1 cs) (broadcastInDim ⟨2, ![1, n]⟩ ![] hb0 den) (ix2 (0 : Fin 1) q)
      = Host.divf cs (broadcastInDim ⟨1, ![n]⟩ ![] hb0' den) (ix1 q) := by
  rw [hostDivf_apply, hostDivf_apply, bcastRow_apply,
    broadcastInDim_scalar_apply hb0 den, broadcastInDim_scalar_apply hb0' den]

/-! ## The kernel program's host rows against the reference's vectors -/

open Cert.KernelIdeal
open Cert.KernelIdeal.Facts₀

/-- An [32] vector reshaped to a [1, 32] row reads, at (0, q), the vector at q. -/
theorem row32_apply (v : Vec Ideal S32 .f32) (q : Fin 32) :
    shapeCast S1x32 v shapeCasts_S32_S1x32 (ValueIdx.ix2 0 q) = v (ValueIdx.ix1 q) :=
  shapeCast_a_1a_apply v _ 0 q

/-- An [96] vector reshaped to a [1, 96] row reads, at (0, q), the vector at q. -/
theorem row96_apply (v : Vec Ideal S96 .f32) (q : Fin 96) :
    shapeCast S1x96 v shapeCasts_S96_S1x96 (ValueIdx.ix2 0 q) = v (ValueIdx.ix1 q) :=
  shapeCast_a_1a_apply v _ 0 q

/-- A [16] vector reshaped to a [1, 16] row reads, at (0, q), the vector at q. -/
theorem row16_apply (v : Vec Ideal S16 .f32) (q : Fin 16) :
    shapeCast S1x16 v shapeCasts_S16_S1x16 (ValueIdx.ix2 0 q) = v (ValueIdx.ix1 q) :=
  shapeCast_a_1a_apply v _ 0 q

/-- The column mean kept as a [1, 32] row: the column sum broadcast to a row, over the broadcast row count. -/
theorem meanRow (x : Vec Ideal S160000x32 .f32) (q : Fin 32) :
    (Host.divf (broadcastInDim S1x32 ![1] bcast_S32_S1x32_1
        (Host.reduceAdd x (constant (F := Ideal) S_ .f32 0x00000000#32) reducesTo_S160000x32_S32_d0 h_S_))
      (broadcastInDim S1x32 ![] bcast_S_S1x32 (constant (F := Ideal) S_ .f32 0x481C4000#32))) (ValueIdx.ix2 0 q)
      = Cert.Spec.mean32 x (ValueIdx.ix1 q) := by
  unfold Cert.Spec.mean32 Cert.Spec.colSum
  exact quot_row _ _ _ _ _ q

/-- The biased column variance as the inlined variance computation leaves it, a [1, 32] row: the column sum of the
    squared deviations from the mean row, broadcast to a row, over the broadcast divisor (the row count minus zero
    degrees of freedom), guarded by the scalar test that the divisor is positive, with a NaN row elsewhere. -/
def kvar (x : Vec Ideal S160000x32 .f32) : Vec Ideal S1x32 .f32 :=
  select
    (broadcastInDim S1x32 ![] bcast_S_S1x32
      (cmpf .ogt
        (subf (constant (F := Ideal) S_ .f32 0x481C4000#32) (sitofp .f32 (constantI S_ 32 0#32)))
        (constant (F := Ideal) S_ .f32 0x00000000#32)))
    (Host.divf
      (broadcastInDim S1x32 ![1] bcast_S32_S1x32_1
        (Host.reduceAdd
          (mulf
            (subf x (broadcastInDim S160000x32 ![0, 1] bcast_S1x32_S160000x32_0_1
              (Host.divf
                (broadcastInDim S1x32 ![1] bcast_S32_S1x32_1
                  (Host.reduceAdd x (constant (F := Ideal) S_ .f32 0x00000000#32) reducesTo_S160000x32_S32_d0 h_S_))
                (broadcastInDim S1x32 ![] bcast_S_S1x32 (constant (F := Ideal) S_ .f32 0x481C4000#32)))))
            (subf x (broadcastInDim S160000x32 ![0, 1] bcast_S1x32_S160000x32_0_1
              (Host.divf
                (broadcastInDim S1x32 ![1] bcast_S32_S1x32_1
                  (Host.reduceAdd x (constant (F := Ideal) S_ .f32 0x00000000#32) reducesTo_S160000x32_S32_d0 h_S_))
                (broadcastInDim S1x32 ![] bcast_S_S1x32 (constant (F := Ideal) S_ .f32 0x481C4000#32))))))
          (constant (F := Ideal) S_ .f32 0x00000000#32) reducesTo_S160000x32_S32_d0 h_S_))
      (broadcastInDim S1x32 ![] bcast_S_S1x32
        (subf (constant (F := Ideal) S_ .f32 0x481C4000#32) (sitofp .f32 (constantI S_ 32 0#32)))))
    (broadcastInDim S1x32 ![] bcast_S_S1x32 (id (constant (F := Ideal) S_ .f32 0x7FC00000#32)))

/-- The variance row read at (0, q) is the reference's variance vector at q: the same guarded quotient of the same
    column sum of squared deviations by the same scalar, under a row broadcast on one side and none on the other. -/
theorem varRow (x : Vec Ideal S160000x32 .f32) (q : Fin 32) :
    kvar x (ValueIdx.ix2 0 q) = Cert.Spec.var32 x (ValueIdx.ix1 q) := by
  unfold kvar Cert.Spec.var32 Cert.Spec.colSum Cert.Spec.varDen
  exact guardedQuot_row _ _ _ _ _ _ _ q

/-- The column mean of the 160 × 16 array kept as a [1, 16] row. -/
theorem meanRow16 (x : Vec Ideal S160x16 .f32) (q : Fin 16) :
    (Host.divf (broadcastInDim S1x16 ![1] bcast_S16_S1x16_1
        (Host.reduceAdd x (constant (F := Ideal) S_ .f32 0x00000000#32) reducesTo_S160x16_S16_d0 h_S_))
      (broadcastInDim S1x16 ![] bcast_S_S1x16 (constant (F := Ideal) S_ .f32 0x43200000#32))) (ValueIdx.ix2 0 q)
      = Cert.Spec.mean16 x (ValueIdx.ix1 q) := by
  unfold Cert.Spec.mean16 Cert.Spec.colSum16
  exact quot_row _ _ _ _ _ q

/-- The biased column variance of the 160 × 16 array as the inlined variance computation leaves it, a [1, 16] row. -/
def kvar16 (x : Vec Ideal S160x16 .f32) : Vec Ideal S1x16 .f32 :=
  select
    (broadcastInDim S1x16 ![] bcast_S_S1x16
      (cmpf .ogt
        (subf (constant (F := Ideal) S_ .f32 0x43200000#32) (sitofp .f32 (constantI S_ 32 0#32)))
        (constant (F := Ideal) S_ .f32 0x00000000#32)))
    (Host.divf
      (broadcastInDim S1x16 ![1] bcast_S16_S1x16_1
        (Host.reduceAdd
          (mulf
            (subf x (broadcastInDim S160x16 ![0, 1] bcast_S1x16_S160x16_0_1
              (Host.divf
                (broadcastInDim S1x16 ![1] bcast_S16_S1x16_1
                  (Host.reduceAdd x (constant (F := Ideal) S_ .f32 0x00000000#32) reducesTo_S160x16_S16_d0 h_S_))
                (broadcastInDim S1x16 ![] bcast_S_S1x16 (constant (F := Ideal) S_ .f32 0x43200000#32)))))
            (subf x (broadcastInDim S160x16 ![0, 1] bcast_S1x16_S160x16_0_1
              (Host.divf
                (broadcastInDim S1x16 ![1] bcast_S16_S1x16_1
                  (Host.reduceAdd x (constant (F := Ideal) S_ .f32 0x00000000#32) reducesTo_S160x16_S16_d0 h_S_))
                (broadcastInDim S1x16 ![] bcast_S_S1x16 (constant (F := Ideal) S_ .f32 0x43200000#32))))))
          (constant (F := Ideal) S_ .f32 0x00000000#32) reducesTo_S160x16_S16_d0 h_S_))
      (broadcastInDim S1x16 ![] bcast_S_S1x16
        (subf (constant (F := Ideal) S_ .f32 0x43200000#32) (sitofp .f32 (constantI S_ 32 0#32)))))
    (broadcastInDim S1x16 ![] bcast_S_S1x16 (id (constant (F := Ideal) S_ .f32 0x7FC00000#32)))

/-- The 16-column variance row read at (0, q) is the reference's variance vector at q. -/
theorem varRow16 (x : Vec Ideal S160x16 .f32) (q : Fin 16) :
    kvar16 x (ValueIdx.ix2 0 q) = Cert.Spec.var16 x (ValueIdx.ix1 q) := by
  unfold kvar16 Cert.Spec.var16 Cert.Spec.colSum16 Cert.Spec.varDen16
  exact guardedQuot_row _ _ _ _ _ _ _ q

end Cert.KernelValue

end
-- ==== Proof.EmbedL0Pay.lean ====
/-
  The embedding and projection kernel of layer 0, element by element, at the ideal values. Its first payload is
  onehot(z[:,0]) · table + onehot(z[:,1]) · table on a block of 8000 integer rows; a one-hot row against the table
  selects the table row the integer names (0 · a = 0 for every extended real a), so entry (p, q) is
  table[z[p,0], q] + table[z[p,1], q]. The reference gathers the same two rows (its start index read signed and
  clamped into [0, 49], which changes nothing for an entry of z in [0, 50)) and adds them over the middle axis. The
  second payload multiplies the first by the 32×32 projection; the reference's dot_general is the same sum over the
  32 columns.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.KernelValue.EmbedL0

open Idealize.ShloMosaic Idealize.ShloMosaic.ValueIdx

/-! # The kernel's side -/

section Kernel
open Cert.KernelIdeal Cert.KernelIdeal.Gen

/-- A word compared for equality with a column number, widened and converted: 1 on the hit, 0 elsewhere. -/
theorem hot_word (x : BitVec 32) (k : Nat) :
    (FloatOps.sitofp (F := Ideal) .f32 ((IntOp.cmpi .eq x (BitVec.ofNat 32 k)).setWidth 32) : EReal)
      = if x = BitVec.ofNat 32 k then 1 else 0 := by
  by_cases h : x = BitVec.ofNat 32 k
  · rw [if_pos h]; subst h
    have e : (IntOp.cmpi .eq (BitVec.ofNat 32 k) (BitVec.ofNat 32 k)).setWidth 32 = 1#32 := by simp [IntOp.cmpi]
    rw [e]
    show (((1#32 : BitVec 32).toInt : ℝ) : EReal) = 1
    rw [show (1#32 : BitVec 32).toInt = 1 by decide]
    norm_num
  · rw [if_neg h]
    have hb : (x == BitVec.ofNat 32 k) = false := by simpa using h
    have e : (IntOp.cmpi .eq x (BitVec.ofNat 32 k)).setWidth 32 = 0#32 := by simp [IntOp.cmpi, hb]
    rw [e]
    show (((0#32 : BitVec 32).toInt : ℝ) : EReal) = 0
    rw [show (0#32 : BitVec 32).toInt = 0 by decide]
    norm_num

/-- The one-hot matrix of column `c` of a block of integer rows, read at row `p`, column `k`. -/
theorem onehot_apply (v0 : Vec Ideal S8000x2 .i32) (c : Fin 2) (o : Nat) (ho : o = c.val) (hs : S8000x2.Slices ![0, o] S8000x1)
    (hb : S8000x1.Broadcasts S8000x50) (hi : S8000x50.Iotas .tc 32 [1]) (h1 : 1 < 32) (h2 : FTy.bf16.bits < FTy.f32.bits)
    (p : Fin 8000) (k : Fin 50) :
    (truncf .bf16 (sitofp (F := Ideal) .f32 (extui 32 (cmpi .eq (broadcastTo S8000x50 (extractStridedSlice S8000x1 ![0, o] v0 hs) hb)
        (iota .tc S8000x50 32 [1] hi)) h1)) h2 : FVec Ideal S8000x50 .bf16) (ix2 p k)
      = if v0 (ix2 p c) = BitVec.ofNat 32 k.val then 1 else 0 := by
  rw [truncf_apply, sitofp_apply, extui_apply]
  show FloatOps.sitofp (F := Ideal) .f32 ((IntOp.cmpi .eq (broadcastTo S8000x50 (extractStridedSlice S8000x1 ![0, o] v0 hs) hb (ix2 p k))
      (iota .tc S8000x50 32 [1] hi (ix2 p k))).setWidth 32) = _
  rw [iota_single_apply]
  rw [broadcastTo_apply (extractStridedSlice S8000x1 ![0, o] v0 hs) hb (ix2 p k) (ix2 p (0 : Fin 1)) (by
    intro a
    match a with
    | ⟨0, _⟩ => rfl
    | ⟨1, _⟩ => rfl)]
  rw [extractStridedSlice_apply ![0, o] v0 hs (ix2 p (0 : Fin 1)) (ix2 p c) (by
    intro a
    match a with
    | ⟨0, _⟩ => show p.val = 0 + p.val; omega
    | ⟨1, _⟩ => show c.val = o + 0; omega)]
  exact hot_word _ _

/-! ## The two matrix products at an index -/

theorem lhs_E_0 (i : S8000x32.Idx) (q : dot_S8000x50_S50x32_S8000x32_1_0_0_1_n_n.contr.Idx) :
    (dot_S8000x50_S50x32_S8000x32_1_0_0_1_n_n.lhsIdx i q 0).val = (i 0).val := by
  unfold DotDims.lhsIdx
  rw [dif_neg (show ¬(0 : Fin S8000x50.rank) ∈ dot_S8000x50_S50x32_S8000x32_1_0_0_1_n_n.lhsBatch by decide),
    dif_pos (show (0 : Fin S8000x50.rank) ∈ dot_S8000x50_S50x32_S8000x32_1_0_0_1_n_n.lhsNonContracting by decide)]
  rfl
theorem lhs_E_1 (i : S8000x32.Idx) (q : dot_S8000x50_S50x32_S8000x32_1_0_0_1_n_n.contr.Idx) :
    (dot_S8000x50_S50x32_S8000x32_1_0_0_1_n_n.lhsIdx i q 1).val = (q ⟨0, by decide⟩).val :=
  dot_S8000x50_S50x32_S8000x32_1_0_0_1_n_n.lhsIdx_val_of_single rfl i q
theorem rhs_E_0 (i : S8000x32.Idx) (q : dot_S8000x50_S50x32_S8000x32_1_0_0_1_n_n.contr.Idx) :
    (dot_S8000x50_S50x32_S8000x32_1_0_0_1_n_n.rhsIdx i q 0).val = (q ⟨0, by decide⟩).val :=
  dot_S8000x50_S50x32_S8000x32_1_0_0_1_n_n.rhsIdx_val_of_single rfl i q
theorem rhs_E_1 (i : S8000x32.Idx) (q : dot_S8000x50_S50x32_S8000x32_1_0_0_1_n_n.contr.Idx) :
    (dot_S8000x50_S50x32_S8000x32_1_0_0_1_n_n.rhsIdx i q 1).val = (i 1).val := by
  unfold DotDims.rhsIdx
  rw [dif_neg (show ¬(1 : Fin S50x32.rank) ∈ dot_S8000x50_S50x32_S8000x32_1_0_0_1_n_n.rhsBatch by decide),
    dif_pos (show (1 : Fin S50x32.rank) ∈ dot_S8000x50_S50x32_S8000x32_1_0_0_1_n_n.rhsNonContracting by decide)]
  rfl

/-- A block of rows times the table, accumulated into zero: entry (p, q) is the sum over the 50 table rows. -/
theorem matmulE_apply {φ₁ φ₂ : FTy} (A : FVec Ideal S8000x50 φ₁) (B : FVec Ideal S50x32 φ₂) (p : Fin 8000) (q : Fin 32) :
    matmul dot_S8000x50_S50x32_S8000x32_1_0_0_1_n_n none A B (constant (F := Ideal) S8000x32 .f32 0x00000000#32) (ix2 p q)
      = ∑ k : Fin 50, A (ix2 p k) * B (ix2 k q) := by
  show FloatOps.matmul dot_S8000x50_S50x32_S8000x32_1_0_0_1_n_n none A B (constant (F := Ideal) S8000x32 .f32 0x00000000#32) (ix2 p q) = _
  rw [Ideal.matmul_constant_zero_apply, ← Equiv.sum_comp (contrEquiv1 dot_S8000x50_S50x32_S8000x32_1_0_0_1_n_n 50 rfl rfl).symm]
  refine Finset.sum_congr rfl fun k _ => ?_
  have hk := contrEquiv1_symm_val dot_S8000x50_S50x32_S8000x32_1_0_0_1_n_n 50 rfl rfl k
  have el : dot_S8000x50_S50x32_S8000x32_1_0_0_1_n_n.lhsIdx (ix2 p q) ((contrEquiv1 dot_S8000x50_S50x32_S8000x32_1_0_0_1_n_n 50 rfl rfl).symm k) = ix2 p k :=
    funext fun a => Fin.ext (by
      match a with
      | ⟨0, _⟩ => exact lhs_E_0 _ _
      | ⟨1, _⟩ => exact (lhs_E_1 _ _).trans hk)
  have er : dot_S8000x50_S50x32_S8000x32_1_0_0_1_n_n.rhsIdx (ix2 p q) ((contrEquiv1 dot_S8000x50_S50x32_S8000x32_1_0_0_1_n_n 50 rfl rfl).symm k) = ix2 k q :=
    funext fun a => Fin.ext (by
      match a with
      | ⟨0, _⟩ => exact (rhs_E_0 _ _).trans hk
      | ⟨1, _⟩ => exact rhs_E_1 _ _)
  rw [el, er]

theorem lhs_P_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide),
    dif_pos (show (0 : Fin S8000x32.rank) ∈ dot_S8000x32_S32x32_S8000x32_1_0_0_1_n_n.lhsNonContracting by decide)]
  rfl
theorem lhs_P_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhs_P_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhs_P_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide),
    dif_pos (show (1 : Fin S32x32.rank) ∈ dot_S8000x32_S32x32_S8000x32_1_0_0_1_n_n.rhsNonContracting by decide)]
  rfl

/-- A block of rows times the 32×32 projection, accumulated into zero: entry (p, q) is the sum over the 32 columns. -/
theorem matmulP_apply {φ₁ φ₂ : FTy} (A : FVec Ideal S8000x32 φ₁) (B : FVec Ideal S32x32 φ₂) (p : Fin 8000) (q : Fin 32) :
    matmul dot_S8000x32_S32x32_S8000x32_1_0_0_1_n_n none A B (constant (F := Ideal) S8000x32 .f32 0x00000000#32) (ix2 p q)
      = ∑ k : Fin 32, A (ix2 p k) * B (ix2 k q) := by
  show FloatOps.matmul dot_S8000x32_S32x32_S8000x32_1_0_0_1_n_n none A B (constant (F := Ideal) S8000x32 .f32 0x00000000#32) (ix2 p q) = _
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k :=
    funext fun a => Fin.ext (by
      match a with
      | ⟨0, _⟩ => exact lhs_P_0 _ _
      | ⟨1, _⟩ => exact (lhs_P_1 _ _).trans hk)
  have er : dot_S8000x32_S32x32_S8000x32_1_0_0_1_n_n.rhsIdx (ix2 p q) ((contrEquiv1 dot_S8000x32_S32x32_S8000x32_1_0_0_1_n_n 32 rfl rfl).symm k) = ix2 k q :=
    funext fun a => Fin.ext (by
      match a with
      | ⟨0, _⟩ => exact (rhs_P_0 _ _).trans hk
      | ⟨1, _⟩ => exact rhs_P_1 _ _)
  rw [el, er]

/-! ## A sum against a one-hot row selects its term -/

theorem sum_hot (x : BitVec 32) (hx : x.toNat < 50) (f : Fin 50 → EReal) :
    ∑ k : Fin 50, (if x = BitVec.ofNat 32 k.val then (1 : EReal) else 0) * f k = f ⟨x.toNat, hx⟩ := by
  rw [Finset.sum_eq_single (⟨x.toNat, hx⟩ : Fin 50)]
  · rw [if_pos (by apply BitVec.eq_of_toNat_eq; simp), one_mul]
  · intro k _ hk
    rw [if_neg, zero_mul]
    intro h
    apply hk
    apply Fin.ext
    have := congrArg BitVec.toNat h
    simp at this
    have hk50 := k.isLt
    show k.val = x.toNat
    omega
  · intro h; exact absurd (Finset.mem_univ _) h

/-! ## The payloads at an index -/

/-- Entry (p, q) of the first payload: the two table rows the integer row p names, added, under the range fact on that row. -/
theorem pay1_apply (v0 : Vec Ideal S8000x2 .i32) (v1 : Vec Ideal S50x32 .f32) (p : Fin 8000) (q : Fin 32)
    (h0 : (v0 (ix2 p (0 : Fin 2))).toNat < 50) (h1 : (v0 (ix2 p (1 : Fin 2))).toNat < 50) :
    k0_pay1 (F := Ideal) v0 v1 (ix2 p q)
      = v1 (ix2 ⟨(v0 (ix2 p (0 : Fin 2))).toNat, h0⟩ q) + v1 (ix2 ⟨(v0 (ix2 p (1 : Fin 2))).toNat, h1⟩ q) := by
  unfold k0_pay1
  dsimp only
  rw [addf_apply, matmulE_apply, matmulE_apply]
  simp only [onehot_apply v0 (0 : Fin 2) 0 rfl, onehot_apply v0 (1 : Fin 2) 1 rfl, truncf_apply, shapeCast_self]
  rw [sum_hot _ h0 (fun k => v1 (ix2 k q)), sum_hot _ h1 (fun k => v1 (ix2 k q))]

/-- Entry (p, q) of the second payload: row p of the first payload times column q of the projection. -/
theorem pay2_apply (v0 : Vec Ideal S8000x2 .i32) (v1 : Vec Ideal S50x32 .f32) (v22 : Vec Ideal S32x32 .f32) (p : Fin 8000) (q : Fin 32) :
    k0_pay2 (F := Ideal) v0 v1 v22 (ix2 p q) = ∑ k : Fin 32, k0_pay1 (F := Ideal) v0 v1 (ix2 p k) * v22 (ix2 k q) := by
  unfold k0_pay2
  rw [matmulP_apply]
  simp only [truncf_apply, shapeCast_self]

end Kernel

/-! # The reference's side -/

section Reference
open Cert.ReferenceIdeal Cert.ReferenceIdeal.Facts₀

/-- A word below 50 is not negative as a signed word. -/
theorem slt_zero_of_lt (x : BitVec 32) (h : x.toNat < 50) : IntOp.cmpi .slt x 0#32 = 0#1 := by
  have hs : x.slt 0#32 = false := by
    rw [BitVec.slt, decide_eq_false_iff_not, BitVec.toInt_eq_toNat_cond]
    simp
    omega
  simp [IntOp.cmpi, hs]

/-- Read signed, it is itself. -/
theorem toInt_toNat_of_lt (x : BitVec 32) (h : x.toNat < 50) : x.toInt.toNat = x.toNat := by
  rw [BitVec.toInt_eq_toNat_cond, if_pos (by omega)]
  exact Int.toNat_natCast _

/-- A word below 50 is not negative, so the wrap leaves it. -/
theorem wrapZ_apply (z : Vec Ideal S160000x2 .i32) (hz : ∀ i, (z i).toNat < 50) (i : S160000x2.Idx) :
    Cert.Spec.wrapZ (F := Ideal) z i = z i := by
  unfold Cert.Spec.wrapZ
  rw [select_apply]
  show Scalar.select (IntOp.cmpi .slt (z i) 0#32) _ _ = _
  rw [slt_zero_of_lt _ (hz i), select_zero]

/-! ## The gather of table rows at an index -/

/-- Result element (n, c, q) is the table at the row idx[n, c, 0], read signed and clamped into [0, 49], and column q. -/
theorem gather_rows_apply (e : S50x32.Idx → EReal) (idx : IVec S160000x2x1 32) (n : Fin 160000) (c : Fin 2) (q : Fin 32) :
    Host.gather gather_S50x32_S160000x2x1_S160000x2x32_2_0_n_n_0_2_132 e idx (ix3 n c q)
      = e (ix2 ⟨min (idx (ix3 n c (0 : Fin 1))).toInt.toNat 49, by omega⟩ q) := by
  unfold Host.gather
  congr 1
  funext a
  refine Fin.ext ?_
  match a with
  | ⟨0, _⟩ =>
    show gather_S50x32_S160000x2x1_S160000x2x32_2_0_n_n_0_2_132.start (ix3 n c q) idx 0
      + gather_S50x32_S160000x2x1_S160000x2x32_2_0_n_n_0_2_132.batchCoord (ix3 n c q) 0
      + gather_S50x32_S160000x2x1_S160000x2x32_2_0_n_n_0_2_132.offCoord (ix3 n c q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x32_S160000x2x1_S160000x2x32_2_0_n_n_0_2_132.startIndexMap from List.mem_singleton.mpr rfl)]
    have hsi : gather_S50x32_S160000x2x1_S160000x2x32_2_0_n_n_0_2_132.siIdx (ix3 n c q)
        ⟨List.idxOf (0 : Fin 2) gather_S50x32_S160000x2x1_S160000x2x32_2_0_n_n_0_2_132.startIndexMap,
          List.idxOf_lt_length_iff.2 (List.mem_singleton.mpr rfl)⟩ = ix3 n c (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50x32_S160000x2x1_S160000x2x32_2_0_n_n_0_2_132.start (ix3 n c q) idx 1
      + gather_S50x32_S160000x2x1_S160000x2x32_2_0_n_n_0_2_132.batchCoord (ix3 n c q) 1
      + gather_S50x32_S160000x2x1_S160000x2x32_2_0_n_n_0_2_132.offCoord (ix3 n c q) 1 = q.val
    rw [GatherDims.batchCoord_eq_zero _ _ _ List.not_mem_nil]
    unfold GatherDims.start
    have hn : (1 : Fin S50x32.rank) ∉ gather_S50x32_S160000x2x1_S160000x2x32_2_0_n_n_0_2_132.startIndexMap :=
      (by decide : ¬(1 : Fin 2) ∈ ([0] : List (Fin 2)))
    rw [dif_neg hn]
    unfold GatherDims.offCoord
    have hk : (1 : Fin S50x32.rank) ∈ gather_S50x32_S160000x2x1_S160000x2x32_2_0_n_n_0_2_132.sKept :=
      (by decide : (1 : Fin 2) ∈ S50x32.kept ([0] ++ [] : List (Fin S50x32.rank)))
    rw [dif_pos hk]
    simp only [Nat.zero_add]
    rfl

/-! ## The embedding stage at an index -/

theorem embed_apply (e : Vec Ideal S50x32 .f32) (z : Vec Ideal S160000x2 .i32) (hz : ∀ i, (z i).toNat < 50) (n : Fin 160000) (q : Fin 32) :
    Cert.Spec.embed (F := Ideal) e z (ix2 n q)
      = e (ix2 ⟨(z (ix2 n (0 : Fin 2))).toNat, hz _⟩ q) + e (ix2 ⟨(z (ix2 n (1 : Fin 2))).toNat, hz _⟩ q) := by
  have hr : S160000x2x32.Reduces [1] S160000x32 := by decide
  unfold Cert.Spec.embed
  rw [hostReduceAdd_apply, Ideal.hostReduceAdd_single reducesTo_S160000x2x32_S160000x32_d1 hr]
  show Ideal.ofBits .f32 0x00000000#32 + ∑ k : Fin 2, Host.gather gather_S50x32_S160000x2x1_S160000x2x32_2_0_n_n_0_2_132 e
      (broadcastInDim S160000x2x1 ![0, 1] bcast_S160000x2_S160000x2x1_0_1 (Cert.Spec.wrapZ z)) (hr.lift (ix2 n q) k) = _
  rw [Ideal.ofBits_zero_f32, zero_add, Fin.sum_univ_two]
  have l0 : hr.lift (ix2 n q) (0 : Fin 2) = ix3 n (0 : Fin 2) q := by
    funext a; apply Fin.ext
    match a with
    | ⟨0, _⟩ => rfl
    | ⟨1, _⟩ => rfl
    | ⟨2, _⟩ => rfl
  have l1 : hr.lift (ix2 n q) (1 : Fin 2) = ix3 n (1 : Fin 2) q := by
    funext a; apply Fin.ext
    match a with
    | ⟨0, _⟩ => rfl
    | ⟨1, _⟩ => rfl
    | ⟨2, _⟩ => rfl
  rw [l0, l1, gather_rows_apply, gather_rows_apply]
  have b : ∀ c : Fin 2, broadcastInDim S160000x2x1 ![0, 1] bcast_S160000x2_S160000x2x1_0_1 (Cert.Spec.wrapZ (F := Ideal) z) (ix3 n c (0 : Fin 1)) = z (ix2 n c) := by
    intro c
    rw [broadcastInDim_apply ![0, 1] bcast_S160000x2_S160000x2x1_0_1 (Cert.Spec.wrapZ (F := Ideal) z) (ix3 n c (0 : Fin 1)) (ix2 n c) (by
      intro a
      match a with
      | ⟨0, _⟩ => rfl
      | ⟨1, _⟩ => rfl)]
    exact wrapZ_apply z hz _
  have m : ∀ c : Fin 2, min (z (ix2 n c)).toInt.toNat 49 = (z (ix2 n c)).toNat := by
    intro c
    rw [toInt_toNat_of_lt _ (hz _)]
    have := hz (ix2 n c)
    omega
  congr 1
  · congr 1; apply congrArg (fun r => ix2 r q); apply Fin.ext; show min _ 49 = _; rw [b, m]
  · congr 1; apply congrArg (fun r => ix2 r q); apply Fin.ext; show min _ 49 = _; rw [b, m]

/-! ## The projection stage at an index -/

theorem lhs_C_0 (i : S160000x32.Idx) (q : dot_S160000x32_S32x32_S160000x32_1_0_0_1_n_n.contr.Idx) :
    (dot_S160000x32_S32x32_S160000x32_1_0_0_1_n_n.lhsIdx i q 0).val = (i 0).val := by
  unfold DotDims.lhsIdx
  have hb : (0 : Fin S160000x32.rank) ∉ dot_S160000x32_S32x32_S160000x32_1_0_0_1_n_n.lhsBatch := (by decide : ¬(0 : Fin 2) ∈ ([] : List (Fin 2)))
  have hn : (0 : Fin S160000x32.rank) ∈ dot_S160000x32_S32x32_S160000x32_1_0_0_1_n_n.lhsNonContracting := (by decide : (0 : Fin 2) ∈ ([0] : List (Fin 2)))
  rw [dif_neg hb, dif_pos hn]
  rfl
theorem lhs_C_1 (i : S160000x32.Idx) (q : dot_S160000x32_S32x32_S160000x32_1_0_0_1_n_n.contr.Idx) :
    (dot_S160000x32_S32x32_S160000x32_1_0_0_1_n_n.lhsIdx i q 1).val = (q ⟨0, Nat.one_pos⟩).val :=
  dot_S160000x32_S32x32_S160000x32_1_0_0_1_n_n.lhsIdx_val_of_single rfl i q
theorem rhs_C_0 (i : S160000x32.Idx) (q : dot_S160000x32_S32x32_S160000x32_1_0_0_1_n_n.contr.Idx) :
    (dot_S160000x32_S32x32_S160000x32_1_0_0_1_n_n.rhsIdx i q 0).val = (q ⟨0, Nat.one_pos⟩).val :=
  dot_S160000x32_S32x32_S160000x32_1_0_0_1_n_n.rhsIdx_val_of_single rfl i q
theorem rhs_C_1 (i : S160000x32.Idx) (q : dot_S160000x32_S32x32_S160000x32_1_0_0_1_n_n.contr.Idx) :
    (dot_S160000x32_S32x32_S160000x32_1_0_0_1_n_n.rhsIdx i q 1).val = (i 1).val := by
  unfold DotDims.rhsIdx
  have hb : (1 : Fin S32x32.rank) ∉ dot_S160000x32_S32x32_S160000x32_1_0_0_1_n_n.rhsBatch := (by decide : ¬(1 : Fin 2) ∈ ([] : List (Fin 2)))
  have hn : (1 : Fin S32x32.rank) ∈ dot_S160000x32_S32x32_S160000x32_1_0_0_1_n_n.rhsNonContracting := (by decide : (1 : Fin 2) ∈ ([1] : List (Fin 2)))
  rw [dif_neg hb, dif_pos hn]
  rfl

/-- The rows times the 32×32 weight: entry (n, q) is the sum over the 32 columns. -/
theorem conv_apply (x : Vec Ideal S160000x32 .f32) (w : Vec Ideal S32x32 .f32) (n : Fin 160000) (q : Fin 32) :
    Cert.Spec.conv (F := Ideal) x w (ix2 n q) = ∑ k : Fin 32, x (ix2 n k) * w (ix2 k q) := by
  unfold Cert.Spec.conv
  simp only [Host.dotGeneral]
  rw [Ideal.dotGeneral_apply, ← Equiv.sum_comp (contrEquiv1 dot_S160000x32_S32x32_S160000x32_1_0_0_1_n_n 32 rfl rfl).symm]
  refine Finset.sum_congr rfl fun k _ => ?_
  have hk := contrEquiv1_symm_val dot_S160000x32_S32x32_S160000x32_1_0_0_1_n_n 32 rfl rfl k
  have el : dot_S160000x32_S32x32_S160000x32_1_0_0_1_n_n.lhsIdx (ix2 n q) ((contrEquiv1 dot_S160000x32_S32x32_S160000x32_1_0_0_1_n_n 32 rfl rfl).symm k) = ix2 n k :=
    funext fun a => Fin.ext (by
      match a with
      | ⟨0, _⟩ => exact lhs_C_0 _ _
      | ⟨1, _⟩ => exact (lhs_C_1 _ _).trans hk)
  have er : dot_S160000x32_S32x32_S160000x32_1_0_0_1_n_n.rhsIdx (ix2 n q) ((contrEquiv1 dot_S160000x32_S32x32_S160000x32_1_0_0_1_n_n 32 rfl rfl).symm k) = ix2 k q :=
    funext fun a => Fin.ext (by
      match a with
      | ⟨0, _⟩ => exact (rhs_C_0 _ _).trans hk
      | ⟨1, _⟩ => exact rhs_C_1 _ _)
  rw [el, er]

end Reference

/-! ## The two sides meet, over variables: a block of rows against the whole arrays -/

section Meet
open Cert.KernelIdeal Cert.KernelIdeal.Gen

/-- Where row p of the integer block is row n of the integer array and the table block is the table, entry (p, q) of the
    first payload is entry (n, q) of the embedding stage. -/
theorem pay1_eq_embed (z : Vec Ideal S160000x2 .i32) (e : Vec Ideal S50x32 .f32) (hz : ∀ i, (z i).toNat < 50)
    (x0 : Vec Ideal S8000x2 .i32) (x1 : Vec Ideal S50x32 .f32) (p : Fin 8000) (q : Fin 32) (n : Fin 160000)
    (hx0 : ∀ c : Fin 2, x0 (ix2 p c) = z (ix2 n c)) (hx1 : x1 = e) :
    k0_pay1 (F := Ideal) x0 x1 (ix2 p q) = Cert.Spec.embed (F := Ideal) e z (ix2 n q) := by
  subst hx1
  have h0 : (x0 (ix2 p (0 : Fin 2))).toNat < 50 := by rw [hx0]; exact hz _
  have h1 : (x0 (ix2 p (1 : Fin 2))).toNat < 50 := by rw [hx0]; exact hz _
  rw [pay1_apply x0 x1 p q h0 h1, embed_apply x1 z hz n q]
  congr 1
  · exact congrArg (fun r => x1 (ix2 r q)) (Fin.ext (congrArg BitVec.toNat (hx0 0)))
  · exact congrArg (fun r => x1 (ix2 r q)) (Fin.ext (congrArg BitVec.toNat (hx0 1)))

/-- Likewise the second payload is the projection stage of the embedding stage. -/
theorem pay2_eq_conv (z : Vec Ideal S160000x2 .i32) (e : Vec Ideal S50x32 .f32) (w : Vec Ideal S32x32 .f32) (hz : ∀ i, (z i).toNat < 50)
    (x0 : Vec Ideal S8000x2 .i32) (x1 : Vec Ideal S50x32 .f32) (x2 : Vec Ideal S32x32 .f32) (p : Fin 8000) (q : Fin 32) (n : Fin 160000)
    (hx0 : ∀ c : Fin 2, x0 (ix2 p c) = z (ix2 n c)) (hx1 : x1 = e) (hx2 : x2 = w) :
    k0_pay2 (F := Ideal) x0 x1 x2 (ix2 p q) = Cert.Spec.conv (F := Ideal) (Cert.Spec.embed (F := Ideal) e z) w (ix2 n q) := by
  subst hx2
  rw [pay2_apply, conv_apply]
  refine Finset.sum_congr rfl fun k _ => ?_
  rw [pay1_eq_embed z e hz x0 x1 p k n hx0 hx1]

end Meet

end Cert.KernelValue.EmbedL0

end
-- ==== Proof.EmbedL0.lean ====
/-
  Region 0 (the embedding and projection kernel of layer 0) from blocks to arrays. The grid has 20 points; point t
  reads rows 8000 t … 8000 t + 7999 of the integer array, the whole table and the whole projection, and writes the
  same rows of its two outputs. Each write-back is that row block of the reference's stage function of the arrays the
  region finds (the payloads meet the stages index by index); the 20 row blocks cover the 160000 rows, so each output
  array ends as the stage function itself.
-/
import proofs.«425927_j69028714381396_2_alg».proof.Proof.FrameKIW
import proofs.«425927_j69028714381396_2_alg».proof.Proof.EmbedL0Pay
import Idealize.ShloMosaic.Lib.Pipeline.Value

set_option maxRecDepth 16384

noncomputable section

namespace Cert.KernelValue.EmbedL0

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-! ## The index maps over the grid -/

/-- Point t reads row block t of the integer array and writes row block t of each output; the table and the projection
    are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The row blocks cover the output arrays -/

/-- An index of the array is in point t's block iff each coordinate is in the block's range on its axis. -/
theorem mem_blk3 (t : Fin cfg0.N) (i : S160000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v8_0).slice (win0_3.rect t)).set ↔ _
  rw [View.set_slice_whole, Rect.mem_set_unit]
  exact Iff.rfl
theorem mem_blk4 (t : Fin cfg0.N) (i : S160000x32.Idx) :
    i ∈ ((cfg0.win 4).blk t).view.set ↔ ∀ a : Fin 2, win0_4.index t a * S8000x32.size a ≤ (i a).val ∧ (i a).val < win0_4.index t a * S8000x32.size a + S8000x32.size a := by
  show i ∈ ((View.whole main_v8_1).slice (win0_4.rect t)).set ↔ _
  rw [View.set_slice_whole, Rect.mem_set_unit]
  exact Iff.rfl

/-- Row r lies in the block of point r / 8000. -/
theorem cover3 (i : S160000x32.Idx) : ∃ t : Fin cfg0.N, (cfg0.win 3).flush t = true ∧ i ∈ ((cfg0.win 3).blk t).view.set := by
  have hi0 : (i 0).val < 160000 := (i 0).isLt
  have hi1 : (i 1).val < 32 := (i 1).isLt
  have hN : cfg0.N = 20 := N_0
  obtain ⟨t, ht⟩ : ∃ t : Fin cfg0.N, t.val = (i 0).val / 8000 := ⟨⟨(i 0).val / 8000, by rw [hN]; omega⟩, rfl⟩
  obtain ⟨_, _, _, _, _, _, e0, e1, _, _⟩ := idx_facts t
  refine ⟨t, flush0_3 t, ?_⟩
  rw [mem_blk3]
  intro a
  match a with
  | ⟨0, _⟩ => show win0_3.index t (0 : Fin 2) * 8000 ≤ (i 0).val ∧ (i 0).val < win0_3.index t (0 : Fin 2) * 8000 + 8000; rw [e0, ht]; omega
  | ⟨1, _⟩ => show win0_3.index t (1 : Fin 2) * 32 ≤ (i 1).val ∧ (i 1).val < win0_3.index t (1 : Fin 2) * 32 + 32; rw [e1]; omega
theorem cover4 (i : S160000x32.Idx) : ∃ t : Fin cfg0.N, (cfg0.win 4).flush t = true ∧ i ∈ ((cfg0.win 4).blk t).view.set := by
  have hi0 : (i 0).val < 160000 := (i 0).isLt
  have hi1 : (i 1).val < 32 := (i 1).isLt
  have hN : cfg0.N = 20 := N_0
  obtain ⟨t, ht⟩ : ∃ t : Fin cfg0.N, t.val = (i 0).val / 8000 := ⟨⟨(i 0).val / 8000, by rw [hN]; omega⟩, rfl⟩
  obtain ⟨_, _, _, _, _, _, _, _, e0, e1⟩ := idx_facts t
  refine ⟨t, flush0_4 t, ?_⟩
  rw [mem_blk4]
  intro a
  match a with
  | ⟨0, _⟩ => show win0_4.index t (0 : Fin 2) * 8000 ≤ (i 0).val ∧ (i 0).val < win0_4.index t (0 : Fin 2) * 8000 + 8000; rw [e0, ht]; omega
  | ⟨1, _⟩ => show win0_4.index t (1 : Fin 2) * 32 ≤ (i 1).val ∧ (i 1).val < win0_4.index t (1 : Fin 2) * 32 + 32; rw [e1]; omega

/-! ## The payloads at any index of a block, against the stages at any index of the arrays -/

/-- Where the integer block's row under y is the integer array's row under i, the table block is the table and the two
    indices share their column, the first payload at y is the embedding stage at i. -/
theorem pay1_at (z : Vec Ideal S160000x2 .i32) (e : Vec Ideal S50x32 .f32) (hz : ∀ i, (z i).toNat < 50)
    (x0 : Vec Ideal S8000x2 .i32) (x1 : Vec Ideal S50x32 .f32) (y : S8000x32.Idx) (i : S160000x32.Idx)
    (hx0 : ∀ (u : S8000x2.Idx) (k : S160000x2.Idx), (u 0).val = (y 0).val → (k 0).val = (i 0).val → (k 1).val = (u 1).val → x0 u = z k)
    (hx1 : x1 = e) (hcol : (i 1).val = (y 1).val) :
    k0_pay1 (F := Ideal) x0 x1 y = Cert.Spec.embed (F := Ideal) e z i := by
  obtain ⟨p, q, rfl⟩ : ∃ (p : Fin 8000) (q : Fin 32), y = ix2 p q := ⟨y 0, y 1, eq_ix2 y⟩
  obtain ⟨n, q', rfl⟩ : ∃ (n : Fin 160000) (q' : Fin 32), i = ix2 n q' := ⟨i 0, i 1, eq_ix2 i⟩
  obtain rfl : q' = q := Fin.ext hcol
  exact pay1_eq_embed z e hz x0 x1 p q' n (fun c => hx0 (ix2 p c) (ix2 n c) rfl rfl rfl) hx1

/-- Likewise the second payload at y is the projection stage of the embedding stage at i. -/
theorem pay2_at (z : Vec Ideal S160000x2 .i32) (e : Vec Ideal S50x32 .f32) (w : Vec Ideal S32x32 .f32) (hz : ∀ i, (z i).toNat < 50)
    (x0 : Vec Ideal S8000x2 .i32) (x1 : Vec Ideal S50x32 .f32) (x2 : Vec Ideal S32x32 .f32) (y : S8000x32.Idx) (i : S160000x32.Idx)
    (hx0 : ∀ (u : S8000x2.Idx) (k : S160000x2.Idx), (u 0).val = (y 0).val → (k 0).val = (i 0).val → (k 1).val = (u 1).val → x0 u = z k)
    (hx1 : x1 = e) (hx2 : x2 = w) (hcol : (i 1).val = (y 1).val) :
    k0_pay2 (F := Ideal) x0 x1 x2 y = Cert.Spec.conv (F := Ideal) (Cert.Spec.embed (F := Ideal) e z) w i := by
  obtain ⟨p, q, rfl⟩ : ∃ (p : Fin 8000) (q : Fin 32), y = ix2 p q := ⟨y 0, y 1, eq_ix2 y⟩
  obtain ⟨n, q', rfl⟩ : ∃ (n : Fin 160000) (q' : Fin 32), i = ix2 n q' := ⟨i 0, i 1, eq_ix2 i⟩
  obtain rfl : q' = q := Fin.ext hcol
  exact pay2_eq_conv z e w hz x0 x1 x2 p q' n (fun c => hx0 (ix2 p c) (ix2 n c) rfl rfl rfl) hx1 hx2

/-! ## The input blocks, read off the arrays the region finds -/

section Blocks
variable (V : (c : Dev nD) → (b : Ref sig .tc) → Buf (Elt Ideal) ((c : Thread nD τ).loc b))

/-- Row u of point t's integer block is row 8000 t + u of the integer array. -/
theorem iblk_z (c : Dev nD) (z : Vec Ideal S160000x2 .i32) (h0 : V c (Pipeline.arrRef spec0 0) = z) (t : Fin cfg0.N)
    (u : S8000x2.Idx) (k : S160000x2.Idx) (hk0 : (k 0).val = t.val * 8000 + (u 0).val) (hk1 : (k 1).val = (u 1).val) :
    (iblk0 (F := Ideal) V c 0 t : Vec Ideal S8000x2 .i32) u = z k := by
  obtain ⟨e0, e1, _⟩ := idx_facts t
  have h0' : (V c (Pipeline.arrRef spec0 0) : S160000x2.Idx → BitVec 32) = z := h0
  show (V c (Pipeline.arrRef spec0 0) : S160000x2.Idx → BitVec 32) (((cfg0.win 0).blk t).view.emb u) = z k
  refine (congrFun h0' _).trans (congrArg z ?_)
  funext a; apply Fin.ext
  match a with
  | ⟨0, _⟩ => show win0_0.index t (0 : Fin 2) * 8000 + 1 * (u 0).val = (k 0).val; rw [e0, hk0]; omega
  | ⟨1, _⟩ => show win0_0.index t (1 : Fin 2) * 2 + 1 * (u 1).val = (k 1).val; rw [e1, hk1]; omega

/-- Every point's table block is the table. -/
theorem iblk_e (c : Dev nD) (e : Vec Ideal S50x32 .f32) (h1 : V c (Pipeline.arrRef spec0 1) = e) (t : Fin cfg0.N) :
    (iblk0 (F := Ideal) V c 1 t : Vec Ideal S50x32 .f32) = e := by
  obtain ⟨_, _, e0, e1, _⟩ := idx_facts t
  have h1' : (V c (Pipeline.arrRef spec0 1) : S50x32.Idx → EReal) = e := h1
  funext y
  show (V c (Pipeline.arrRef spec0 1) : S50x32.Idx → EReal) (((cfg0.win 1).blk t).view.emb y) = e y
  refine (congrFun h1' _).trans (congrArg e ?_)
  funext a; apply Fin.ext
  match a with
  | ⟨0, _⟩ => show win0_1.index t (0 : Fin 2) * 50 + 1 * (y 0).val = (y 0).val; rw [e0]; omega
  | ⟨1, _⟩ => show win0_1.index t (1 : Fin 2) * 32 + 1 * (y 1).val = (y 1).val; rw [e1]; omega

/-- Every point's projection block is the projection. -/
theorem iblk_w (c : Dev nD) (w : Vec Ideal S32x32 .f32) (h2 : V c (Pipeline.arrRef spec0 2) = w) (t : Fin cfg0.N) :
    (iblk0 (F := Ideal) V c 2 t : Vec Ideal S32x32 .f32) = w := by
  obtain ⟨_, _, _, _, e0, e1, _⟩ := idx_facts t
  have h2' : (V c (Pipeline.arrRef spec0 2) : S32x32.Idx → EReal) = w := h2
  funext y
  show (V c (Pipeline.arrRef spec0 2) : S32x32.Idx → EReal) (((cfg0.win 2).blk t).view.emb y) = w y
  refine (congrFun h2' _).trans (congrArg w ?_)
  funext a; apply Fin.ext
  match a with
  | ⟨0, _⟩ => show win0_2.index t (0 : Fin 2) * 32 + 1 * (y 0).val = (y 0).val; rw [e0]; omega
  | ⟨1, _⟩ => show win0_2.index t (1 : Fin 2) * 32 + 1 * (y 1).val = (y 1).val; rw [e1]; omega

/-! ## What each point writes back -/

/-- Point t writes back block t of the embedding stage of the arrays the region finds. -/
theorem flushed3_eq (c : Dev nD) (z : Vec Ideal S160000x2 .i32) (e : Vec Ideal S50x32 .f32) (hz : ∀ i, (z i).toNat < 50)
    (h0 : V c (Pipeline.arrRef spec0 0) = z) (h1 : V c (Pipeline.arrRef spec0 1) = e) (t : Fin cfg0.N) :
    (dat0 (F := Ideal) V c).flushed 3 t = ((cfg0.win 3).blk t).view.read (Elt Ideal) (Cert.Spec.embed (F := Ideal) e z) := by
  show (cfg0.win 3).cut (grid0.coords t) ((dat0 (F := Ideal) V c).after 3 t) = _
  rw [after0_3]
  unfold out0_3
  rw [View.canon_unit_zero hz2]
  simp only [View.ld_unit_zero (S := S8000x2) hz2, View.ld_unit_zero (S := S50x32) hz2]
  obtain ⟨_, _, _, _, _, _, e0, e1, _, _⟩ := idx_facts t
  funext j
  show k0_pay1 (F := Ideal) (iblk0 (F := Ideal) V c 0 t) (iblk0 (F := Ideal) V c 1 t) ((cfg0.win 3).xinj (grid0.coords t) j)
    = Cert.Spec.embed (F := Ideal) e z (((cfg0.win 3).blk t).view.emb j)
  refine pay1_at z e hz (iblk0 (F := Ideal) V c 0 t) (iblk0 (F := Ideal) V c 1 t) ((cfg0.win 3).xinj (grid0.coords t) j)
    (((cfg0.win 3).blk t).view.emb j) (fun u k hu hk0 hk1 => iblk_z V c z h0 t u k ?_ hk1) (iblk_e V c e h1 t) ?_
  · rw [hk0, hu]
    show win0_3.index t (0 : Fin 2) * 8000 + 1 * (j 0).val = t.val * 8000 + (j 0).val
    rw [e0]; omega
  · show win0_3.index t (1 : Fin 2) * 32 + 1 * (j 1).val = (j 1).val
    rw [e1]; omega

/-- Point t writes back block t of the projection stage of the embedding stage. -/
theorem flushed4_eq (c : Dev nD) (z : Vec Ideal S160000x2 .i32) (e : Vec Ideal S50x32 .f32) (w : Vec Ideal S32x32 .f32) (hz : ∀ i, (z i).toNat < 50)
    (h0 : V c (Pipeline.arrRef spec0 0) = z) (h1 : V c (Pipeline.arrRef spec0 1) = e) (h2 : V c (Pipeline.arrRef spec0 2) = w) (t : Fin cfg0.N) :
    (dat0 (F := Ideal) V c).flushed 4 t
      = ((cfg0.win 4).blk t).view.read (Elt Ideal) (Cert.Spec.conv (F := Ideal) (Cert.Spec.embed (F := Ideal) e z) w) := by
  show (cfg0.win 4).cut (grid0.coords t) ((dat0 (F := Ideal) V c).after 4 t) = _
  rw [after0_4]
  unfold out0_4
  rw [View.canon_unit_zero hz2]
  simp only [View.ld_unit_zero (S := S8000x2) hz2, View.ld_unit_zero (S := S50x32) hz2, View.ld_unit_zero (S := S32x32) hz2]
  obtain ⟨_, _, _, _, _, _, _, _, e0, e1⟩ := idx_facts t
  funext j
  show k0_pay2 (F := Ideal) (iblk0 (F := Ideal) V c 0 t) (iblk0 (F := Ideal) V c 1 t) (iblk0 (F := Ideal) V c 2 t) ((cfg0.win 4).xinj (grid0.coords t) j)
    = Cert.Spec.conv (F := Ideal) (Cert.Spec.embed (F := Ideal) e z) w (((cfg0.win 4).blk t).view.emb j)
  refine pay2_at z e w hz (iblk0 (F := Ideal) V c 0 t) (iblk0 (F := Ideal) V c 1 t) (iblk0 (F := Ideal) V c 2 t) ((cfg0.win 4).xinj (grid0.coords t) j)
    (((cfg0.win 4).blk t).view.emb j) (fun u k hu hk0 hk1 => iblk_z V c z h0 t u k ?_ hk1) (iblk_e V c e h1 t) (iblk_w V c w h2 t) ?_
  · rw [hk0, hu]
    show win0_4.index t (0 : Fin 2) * 8000 + 1 * (j 0).val = t.val * 8000 + (j 0).val
    rw [e0]; omega
  · show win0_4.index t (1 : Fin 2) * 32 + 1 * (j 1).val = (j 1).val
    rw [e1]; omega

end Blocks

end Cert.KernelValue.EmbedL0

namespace Cert.KernelValue

open Cert.KernelIdeal Cert.KernelIdeal.Gen Idealize.ShloMosaic Idealize.ShloMosaic.TcCoe Idealize.SL.Sem
open Idealize.ShloMosaic.Pipeline (Dat)

/-- After region 0 its first output array is the embedding stage of the integer array and the table it found. -/
theorem embed0_xlin (V : (c : Dev nD) → (b : Ref sig .tc) → Buf (Elt Ideal) ((c : Thread nD τ).loc b)) (c : Dev nD)
    (z : Vec Ideal S160000x2 .i32) (e : Vec Ideal S50x32 .f32) (hz : ∀ i, (z i).toNat < 50)
    (h0 : V c (Pipeline.arrRef spec0 0) = z) (h1 : V c (Pipeline.arrRef spec0 1) = e) :
    (dat0 (F := Ideal) V c).arrAt 3 cfg0.N = Cert.Spec.embed (F := Ideal) e z :=
  (dat0 (F := Ideal) V c).arrAt_eq_of_cover 3 (Cert.Spec.embed (F := Ideal) e z)
    (fun t _ => EmbedL0.flushed3_eq V c z e hz h0 h1 t) EmbedL0.cover3

/-- And its second output array is the projection stage of that, by the 32×32 weight it found. -/
theorem embed0_m (V : (c : Dev nD) → (b : Ref sig .tc) → Buf (Elt Ideal) ((c : Thread nD τ).loc b)) (c : Dev nD)
    (z : Vec Ideal S160000x2 .i32) (e : Vec Ideal S50x32 .f32) (w : Vec Ideal S32x32 .f32) (hz : ∀ i, (z i).toNat < 50)
    (h0 : V c (Pipeline.arrRef spec0 0) = z) (h1 : V c (Pipeline.arrRef spec0 1) = e) (h2 : V c (Pipeline.arrRef spec0 2) = w) :
    (dat0 (F := Ideal) V c).arrAt 4 cfg0.N = Cert.Spec.conv (F := Ideal) (Cert.Spec.embed (F := Ideal) e z) w :=
  (dat0 (F := Ideal) V c).arrAt_eq_of_cover 4 (Cert.Spec.conv (F := Ideal) (Cert.Spec.embed (F := Ideal) e z) w)
    (fun t _ => EmbedL0.flushed4_eq V c z e w hz h0 h1 h2 t) EmbedL0.cover4

end Cert.KernelValue

end
-- ==== Proof.GruPay1.lean ====
/-
  The gated-update kernel's body and the reference's gated update, each read at one entry, and their meeting.
  With gate pre-activations i = agg · W_i + b_i and h = x · W_h + b_h (96 columns: three gates of 32), the update of
  entry (row, q) is (1 − z) · tanh (i_n + r · h_n) + z · x, where r = σ(i_r + h_r), z = σ(i_z + h_z) and σ is the
  logistic function. The kernel computes it on a block of 8000 rows (a matrix product into a zero accumulator, the bias
  row laid along the rows, three column slices, the logistic operation); the reference on all 160000 rows (a host
  product, the bias broadcast twice, three column slices, 1 / (1 + exp (−a))). At the ideal values both are the one
  function `cell` of the row, the weights and the biases: a matrix product at an entry is the sum over the contracted
  coordinate, the logistic operation is 1 / (1 + exp (−a)) by definition, and the word of 1.0 is the extended real 1.
-/
import proofs.«425927_j69028714381396_2_alg».proof.Proof.Gen.KernelIdeal.Skeleton
import proofs.«425927_j69028714381396_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.KernelValue.Gru

open Idealize.ShloMosaic Idealize.ShloMosaic.ValueIdx Cert.KernelIdeal Cert.KernelIdeal.Gen
open scoped BigOperators

/-! ## A matrix product at an entry, column slices, a row laid along the rows -/

/-- A product of an [m,k] by a [k,n] matrix with the plain dimension numbers (contract the left operand's columns with
    the right operand's rows): the sum over the contraction index, re-indexed by the contracted coordinate. -/
theorem dot2_sum {m k n : Nat} {φ₁ φ₂ : FTy} (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![m, k]⟩ φ₁) (B : FVec Ideal ⟨2, ![k, n]⟩ φ₂) (a : Fin m) (b : Fin n) :
    ∑ q : d.contr.Idx, A (d.lhsIdx (ix2 a b) q) * B (d.rhsIdx (ix2 a b) q) = ∑ c : Fin k, A (ix2 a c) * B (ix2 c b) := by
  have hr : d.contr.rank = 1 := by rw [d.rank_contr, hlc]; rfl
  have hs : d.contr.size ⟨0, by omega⟩ = k := by
    have := d.size_contr 0 (by rw [hlc]; exact Nat.one_pos)
    rw [this]; simp only [hlc]; rfl
  rw [← Equiv.sum_comp (contrEquiv1 d k hr hs).symm]
  refine Finset.sum_congr rfl fun c _ => ?_
  have c2 := contrEquiv1_symm_val d k hr hs c
  have key : ∀ (j : (⟨2, ![m, n]⟩ : Shape).Idx) (p q : Nat) (hp : p < 2) (hq : q < 2), p = q → (j ⟨p, hp⟩).val = (j ⟨q, hq⟩).val :=
    fun j p q hp hq h => by subst h; rfl
  have l2 : d.lhsIdx (ix2 a b) ((contrEquiv1 d k hr hs).symm c) = ix2 a c := by
    funext ax; apply Fin.ext
    match ax with
    | ⟨0, _⟩ =>
      simp [DotDims.lhsIdx, hlb, hln]
      exact key (ix2 a b) _ 0 _ (by decide) (by simp [hlb, hln])
    | ⟨1, _⟩ => exact (d.lhsIdx_val_of_single hlc _ _).trans c2
  have r2 : d.rhsIdx (ix2 a b) ((contrEquiv1 d k hr hs).symm c) = ix2 c b := by
    funext ax; apply Fin.ext
    match ax with
    | ⟨0, _⟩ => exact (d.rhsIdx_val_of_single hrc _ _).trans c2
    | ⟨1, _⟩ =>
      simp [DotDims.rhsIdx, hrb, hrn, hlb, hln]
      exact key (ix2 a b) _ 1 _ (by decide) (by simp [hlb, hln, hrn])
  rw [l2, r2]

/-- The three gates' columns among the 96: gate g's column q is column 32 g + q. -/
def c0 (q : Fin 32) : Fin 96 := ⟨0 + q.val, by omega⟩
def c1 (q : Fin 32) : Fin 96 := ⟨32 + q.val, by omega⟩
def c2 (q : Fin 32) : Fin 96 := ⟨64 + q.val, by omega⟩

/-- A slice of 32 columns from column `off` on, read at (p, q), is the operand at (p, off + q). -/
theorem slice_cols {R : Nat} (off : Nat) (hoff : off + 32 ≤ 96) (g : (⟨2, ![R, 96]⟩ : Shape).Idx → EReal)
    (h : (⟨2, ![R, 96]⟩ : Shape).Slices ![0, off] ⟨2, ![R, 32]⟩) (p : Fin R) (q : Fin 32) :
    extractStridedSlice ⟨2, ![R, 32]⟩ ![0, off] g h (ix2 p q) = g (ix2 p ⟨off + q.val, by omega⟩) := by
  refine extractStridedSlice_apply _ g h (ix2 p q) _ fun a => ?_
  match a with
  | ⟨0, _⟩ => exact (Nat.zero_add _).symm
  | ⟨1, _⟩ => rfl

theorem slice0 {R : Nat} (g : (⟨2, ![R, 96]⟩ : Shape).Idx → EReal) (h : (⟨2, ![R, 96]⟩ : Shape).Slices ![0, 0] ⟨2, ![R, 32]⟩)
    (p : Fin R) (q : Fin 32) : extractStridedSlice ⟨2, ![R, 32]⟩ ![0, 0] g h (ix2 p q) = g (ix2 p (c0 q)) :=
  slice_cols 0 (by omega) g h p q
theorem slice1 {R : Nat} (g : (⟨2, ![R, 96]⟩ : Shape).Idx → EReal) (h : (⟨2, ![R, 96]⟩ : Shape).Slices ![0, 32] ⟨2, ![R, 32]⟩)
    (p : Fin R) (q : Fin 32) : extractStridedSlice ⟨2, ![R, 32]⟩ ![0, 32] g h (ix2 p q) = g (ix2 p (c1 q)) :=
  slice_cols 32 (by omega) g h p q
theorem slice2 {R : Nat} (g : (⟨2, ![R, 96]⟩ : Shape).Idx → EReal) (h : (⟨2, ![R, 96]⟩ : Shape).Slices ![0, 64] ⟨2, ![R, 32]⟩)
    (p : Fin R) (q : Fin 32) : extractStridedSlice ⟨2, ![R, 32]⟩ ![0, 64] g h (ix2 p q) = g (ix2 p (c2 q)) :=
  slice_cols 64 (by omega) g h p q

/-- A one-row matrix laid along every row, read at (p, k), is the row's entry k. -/
theorem row_bcast {R : Nat} (b : (⟨2, ![1, 96]⟩ : Shape).Idx → EReal) (h : (⟨2, ![1, 96]⟩ : Shape).Broadcasts ⟨2, ![R, 96]⟩)
    (p : Fin R) (k : Fin 96) : broadcastTo ⟨2, ![R, 96]⟩ b h (ix2 p k) = b (ix2 0 k) := by
  refine broadcastTo_apply b h (ix2 p k) (ix2 (0 : Fin 1) k) fun a => ?_
  match a with
  | ⟨0, _⟩ => rfl
  | ⟨1, _⟩ => rfl

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-- A gate's pre-activation at one row: the row times column k of the weight, plus the bias entry k. -/
def pre (row : Fin 32 → EReal) (w : (⟨2, ![32, 96]⟩ : Shape).Idx → EReal) (b : Fin 96 → EReal) (k : Fin 96) : EReal :=
  (∑ j : Fin 32, row j * w (ix2 j k)) + b k

/-- The gated update of entry q of one row: with r = σ(i_r + h_r) and z = σ(i_z + h_z),
    (1 − z) · tanh (i_n + r · h_n) + z · x. -/
def cell (xr ar : Fin 32 → EReal) (wi wh : (⟨2, ![32, 96]⟩ : Shape).Idx → EReal) (bi bh : Fin 96 → EReal) (q : Fin 32) : EReal :=
  (1 - Ideal.logistic (pre ar wi bi (c1 q) + pre xr wh bh (c1 q)))
      * Ideal.tanh (pre ar wi bi (c2 q) + Ideal.logistic (pre ar wi bi (c0 q) + pre xr wh bh (c0 q)) * pre xr wh bh (c2 q))
    + Ideal.logistic (pre ar wi bi (c1 q) + pre xr wh bh (c1 q)) * xr q

/-! ## The reference's gated update at an entry -/

theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem hostTanh_apply {s : Shape} (a : FVec Ideal s .f32) (i : s.Idx) : Host.tanh a i = Ideal.tanh (a i) := rfl

/-- A vector of 96 entries laid as one row and then along every row, read at (r, k), is its entry k. -/
theorem rows_row_apply {R : Nat} (b : (⟨1, ![96]⟩ : Shape).Idx → EReal)
    (h1 : (⟨1, ![96]⟩ : Shape).BroadcastsInDim ⟨2, ![1, 96]⟩ ![1])
    (h2 : (⟨2, ![1, 96]⟩ : Shape).BroadcastsInDim ⟨2, ![R, 96]⟩ ![0, 1]) (r : Fin R) (k : Fin 96) :
    broadcastInDim ⟨2, ![R, 96]⟩ ![0, 1] h2 (broadcastInDim ⟨2, ![1, 96]⟩ ![1] h1 b) (ix2 r k) = b (ix1 k) := by
  refine (broadcastInDim_apply ![0, 1] h2 _ (ix2 r k) (ix2 (0 : Fin 1) k) fun a => ?_).trans
    (broadcastInDim_apply ![1] h1 b (ix2 (0 : Fin 1) k) (ix1 k) fun a => ?_)
  · match a with
    | ⟨0, _⟩ => rfl
    | ⟨1, _⟩ => rfl
  · match a with
    | ⟨0, _⟩ => rfl

section Reference
variable [Cert.ReferenceIdeal.Facts₀]

/-- The reference's gate pre-activations at (r, k): row r times column k of the weight, plus the bias entry k. -/
theorem gates_apply (a : Vec Ideal S160000x32 .f32) (w : Vec Ideal S32x96 .f32) (b : Vec Ideal S96 .f32)
    (r : Fin 160000) (k : Fin 96) :
    Cert.Spec.gates (F := Ideal) a w b (ix2 r k) = pre (fun j => a (ix2 r j)) w (fun k => b (ix1 k)) k := by
  unfold Cert.Spec.gates pre Cert.Spec.rows96 Cert.Spec.row96
  rw [addf_apply, rows_row_apply]
  exact congrArg (· + b (ix1 k))
    ((Ideal.dotGeneral_apply _ none .single a w (ix2 r k)).trans
      (dot2_sum Cert.ReferenceIdeal.dot_S160000x32_S32x96_S160000x96_1_0_0_1_n_n rfl rfl rfl rfl rfl rfl a w r k))

/-- The splat of the word of 1.0 reads 1 everywhere. -/
theorem one_apply (h : Cert.ReferenceIdeal.S_.BroadcastsInDim S160000x32 ![]) (i : S160000x32.Idx) :
    broadcastInDim S160000x32 ![] h (constant (F := Ideal) Cert.ReferenceIdeal.S_ .f32 0x3F800000#32) i = 1 :=
  Ideal.ofBits_one_f32

/-- The reference's sigmoid, 1 / (1 + exp (−(a + b))), is the logistic function of a + b at each entry. -/
theorem sigm_apply (a b : Vec Ideal S160000x32 .f32) (i : S160000x32.Idx) :
    Cert.Spec.sigm (F := Ideal) a b i = Ideal.logistic (a i + b i) := by
  unfold Cert.Spec.sigm Cert.Spec.oneN
  rw [hostDivf_apply, addf_apply, one_apply, hostExp_apply, hostNegf_apply, addf_apply]
  rfl

/-- The reference's gated update at entry (r, q) is the gated update of row r of the two arrays. -/
theorem gru_apply (x ag : Vec Ideal S160000x32 .f32) (wi wh : Vec Ideal S32x96 .f32) (bi bh : Vec Ideal S96 .f32)
    (r : Fin 160000) (q : Fin 32) :
    Cert.Spec.gru (F := Ideal) x ag wi wh bi bh (ix2 r q)
      = cell (fun j => x (ix2 r j)) (fun j => ag (ix2 r j)) wi wh (fun k => bi (ix1 k)) (fun k => bh (ix1 k)) q := by
  unfold Cert.Spec.gru
  simp only [Cert.Spec.oneN, Cert.Spec.gate0, Cert.Spec.gate1, Cert.Spec.gate2, addf_apply, mulf_apply, subf_apply, hostTanh_apply, sigm_apply, one_apply, slice0, slice1, slice2, gates_apply]
  rw [one_apply]
  rfl

end Reference

/-! ## Region 1: the body's value at an entry, and its meeting with the reference -/

/-- The kernel's matrix product into a zero accumulator, read at (p, k): the row times the column. -/
theorem mm1_apply {φ₁ φ₂ : FTy} (A : FVec Ideal S8000x32 φ₁) (B : FVec Ideal S32x96 φ₂) (p : Fin 8000) (k : Fin 96) :
    matmul dot_S8000x32_S32x96_S8000x96_1_0_0_1_n_n none A B (constant (F := Ideal) S8000x96 .f32 0x00000000#32) (ix2 p k)
      = ∑ j : Fin 32, A (ix2 p j) * B (ix2 j k) :=
  (Ideal.matmul_constant_zero_apply _ none A B (ix2 p k)).trans
    (dot2_sum dot_S8000x32_S32x96_S8000x96_1_0_0_1_n_n rfl rfl rfl rfl rfl rfl A B p k)

/-- The body's value at entry (p, q) of its block is the gated update of row p of the two row blocks. -/
theorem pay1_apply (x0 x1 : Vec Ideal S8000x32 .f32) (w2 w3 : Vec Ideal S32x96 .f32) (b4 b5 : Vec Ideal S1x96 .f32)
    (p : Fin 8000) (q : Fin 32) :
    k1_pay1 (F := Ideal) x0 x1 w2 w3 b4 b5 (ix2 p q)
      = cell (fun j => x0 (ix2 p j)) (fun j => x1 (ix2 p j)) w2 w3 (fun k => b4 (ix2 0 k)) (fun k => b5 (ix2 0 k)) q := by
  unfold k1_pay1
  simp only [shapeCast_self, addf_apply, mulf_apply, subf_apply, logistic_apply, tanh_apply, broadcast_apply,
    slice0, slice1, slice2, mm1_apply, row_bcast, truncf_apply]
  rw [show FloatOps.ofBits (F := Ideal) .f32 0x3F800000#32 = 1 from Ideal.ofBits_one_f32]
  rfl

/-- Entry y of the body's value, on row blocks that are rows t·8000 onwards of the two arrays, the whole weights and the
    bias rows, is entry i of the reference's gated update, i being y moved down t blocks. -/
theorem pay1_eq_gru [Cert.ReferenceIdeal.Facts₀]
    (x0 x1 : Vec Ideal S8000x32 .f32) (w2 w3 : Vec Ideal S32x96 .f32) (b4 b5 : Vec Ideal S1x96 .f32)
    (x ag : Vec Ideal S160000x32 .f32) (wi wh : Vec Ideal S32x96 .f32) (bi bh : Vec Ideal S96 .f32)
    (tv : Nat) (y : S8000x32.Idx) (i : S160000x32.Idx)
    (hi0 : (i 0).val = tv * 8000 + (y 0).val) (hi1 : (i 1).val = (y 1).val)
    (h0 : ∀ (y' : S8000x32.Idx) (i' : S160000x32.Idx), (i' 0).val = tv * 8000 + (y' 0).val → (i' 1).val = (y' 1).val → x0 y' = x i')
    (h1 : ∀ (y' : S8000x32.Idx) (i' : S160000x32.Idx), (i' 0).val = tv * 8000 + (y' 0).val → (i' 1).val = (y' 1).val → x1 y' = ag i')
    (h2 : w2 = wi) (h3 : w3 = wh)
    (h4 : ∀ k : Fin 96, b4 (ix2 0 k) = bi (ix1 k)) (h5 : ∀ k : Fin 96, b5 (ix2 0 k) = bh (ix1 k)) :
    k1_pay1 (F := Ideal) x0 x1 w2 w3 b4 b5 y = Cert.Spec.gru (F := Ideal) x ag wi wh bi bh i := by
  obtain ⟨p, q, rfl⟩ : ∃ (p : Fin 8000) (q : Fin 32), y = ix2 p q := ⟨y 0, y 1, eq_ix2 y⟩
  obtain ⟨r, s, rfl⟩ : ∃ (r : Fin 160000) (s : Fin 32), i = ix2 r s := ⟨i 0, i 1, eq_ix2 i⟩
  obtain rfl : s = q := Fin.ext hi1
  rw [pay1_apply, gru_apply]
  subst h2 h3
  have e0 : (fun j => x0 (ix2 p j)) = fun j => x (ix2 r j) := funext fun j => h0 _ _ hi0 rfl
  have e1 : (fun j => x1 (ix2 p j)) = fun j => ag (ix2 r j) := funext fun j => h1 _ _ hi0 rfl
  have e4 : (fun k => b4 (ix2 0 k)) = fun k => bi (ix1 k) := funext h4
  have e5 : (fun k => b5 (ix2 0 k)) = fun k => bh (ix1 k) := funext h5
  rw [e0, e1, e4, e5]

end Cert.KernelValue.Gru

end
-- ==== Proof.Gru1.lean ====
/-
  The array the gated-update region leaves in its output window is the reference's gated update of the arrays it finds
  in its input windows. The grid has 20 points; at point t the two row-blocked inputs and the output are at rows
  8000 t … 8000 t + 7999, the two weights and the two bias rows are whole at every point. So what point t writes back is
  block t of the one whole-array function (the body's value at entry (p, q) of the block is the reference's at
  (8000 t + p, q)), and the 20 blocks cover the 160000 rows: row r is in block r / 8000.
-/
import proofs.«425927_j69028714381396_2_alg».proof.Proof.FrameKIW
import proofs.«425927_j69028714381396_2_alg».proof.Proof.Gen.ReferenceIdeal
import proofs.«425927_j69028714381396_2_alg».proof.Proof.GruPay1
import Idealize.ShloMosaic.Lib.Pipeline.Value

set_option maxRecDepth 16384

noncomputable section

namespace Cert.KernelValue.Gru1

open Idealize.ShloMosaic Idealize.ShloMosaic.TcCoe Idealize.ShloMosaic.ValueIdx Idealize.SL.Sem
open Idealize.ShloMosaic.Pipeline (Dat)
open Cert.KernelIdeal Cert.KernelIdeal.Gen Cert.KernelValue.Gru

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the others at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The arrays the region finds and the blocks of them at a point, at their literal types -/

abbrev arrX (c : Dev nD) : Vec Ideal S160000x32 .f32 := V c (Pipeline.arrRef spec1 0)
abbrev arrA (c : Dev nD) : Vec Ideal S160000x32 .f32 := V c (Pipeline.arrRef spec1 1)
abbrev arrWi (c : Dev nD) : Vec Ideal S32x96 .f32 := V c (Pipeline.arrRef spec1 2)
abbrev arrWh (c : Dev nD) : Vec Ideal S32x96 .f32 := V c (Pipeline.arrRef spec1 3)
abbrev arrBi (c : Dev nD) : Vec Ideal S1x96 .f32 := V c (Pipeline.arrRef spec1 4)
abbrev arrBh (c : Dev nD) : Vec Ideal S1x96 .f32 := V c (Pipeline.arrRef spec1 5)
abbrev blkX (c : Dev nD) (t : Fin cfg1.N) : Vec Ideal S8000x32 .f32 := iblk1 V c 0 t
abbrev blkA (c : Dev nD) (t : Fin cfg1.N) : Vec Ideal S8000x32 .f32 := iblk1 V c 1 t
abbrev blkWi (c : Dev nD) (t : Fin cfg1.N) : Vec Ideal S32x96 .f32 := iblk1 V c 2 t
abbrev blkWh (c : Dev nD) (t : Fin cfg1.N) : Vec Ideal S32x96 .f32 := iblk1 V c 3 t
abbrev blkBi (c : Dev nD) (t : Fin cfg1.N) : Vec Ideal S1x96 .f32 := iblk1 V c 4 t
abbrev blkBh (c : Dev nD) (t : Fin cfg1.N) : Vec Ideal S1x96 .f32 := iblk1 V c 5 t

/-- Entry y of the first input's block at point t is entry (8000 t + y₀, y₁) of its array. -/
theorem blkX_apply (c : Dev nD) (t : Fin cfg1.N) (y : S8000x32.Idx) (i : S160000x32.Idx)
    (hi0 : (i 0).val = t.val * 8000 + (y 0).val) (hi1 : (i 1).val = (y 1).val) : blkX V c t y = arrX V c i := by
  obtain ⟨e0, e1, -⟩ := idx_facts t
  show V c (Pipeline.arrRef spec1 0) (((cfg1.win 0).blk t).view.emb y) = V c (Pipeline.arrRef spec1 0) i
  refine congrArg (V c (Pipeline.arrRef spec1 0)) (funext fun a => Fin.ext ?_)
  match a with
  | ⟨0, _⟩ => show win1_0.index t (0 : Fin 2) * 8000 + 1 * (y 0).val = (i 0).val; omega
  | ⟨1, _⟩ => show win1_0.index t (1 : Fin 2) * 32 + 1 * (y 1).val = (i 1).val; omega

/-- The same for the second input. -/
theorem blkA_apply (c : Dev nD) (t : Fin cfg1.N) (y : S8000x32.Idx) (i : S160000x32.Idx)
    (hi0 : (i 0).val = t.val * 8000 + (y 0).val) (hi1 : (i 1).val = (y 1).val) : blkA V c t y = arrA V c i := by
  obtain ⟨-, -, e0, e1, -⟩ := idx_facts t
  show V c (Pipeline.arrRef spec1 1) (((cfg1.win 1).blk t).view.emb y) = V c (Pipeline.arrRef spec1 1) i
  refine congrArg (V c (Pipeline.arrRef spec1 1)) (funext fun a => Fin.ext ?_)
  match a with
  | ⟨0, _⟩ => show win1_1.index t (0 : Fin 2) * 8000 + 1 * (y 0).val = (i 0).val; omega
  | ⟨1, _⟩ => show win1_1.index t (1 : Fin 2) * 32 + 1 * (y 1).val = (i 1).val; omega

/-- A whole window's block is its array, at every point. -/
theorem blkWi_eq (c : Dev nD) (t : Fin cfg1.N) : blkWi V c t = arrWi V c := by
  obtain ⟨-, -, -, -, e0, e1, -⟩ := idx_facts t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 32 + 1 * (y 0).val = (y 0).val; omega
  | ⟨1, _⟩ => show win1_2.index t (1 : Fin 2) * 96 + 1 * (y 1).val = (y 1).val; omega

theorem blkWh_eq (c : Dev nD) (t : Fin cfg1.N) : blkWh V c t = arrWh V c := by
  obtain ⟨-, -, -, -, -, -, e0, e1, -⟩ := idx_facts t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 32 + 1 * (y 0).val = (y 0).val; omega
  | ⟨1, _⟩ => show win1_3.index t (1 : Fin 2) * 96 + 1 * (y 1).val = (y 1).val; omega

theorem blkBi_eq (c : Dev nD) (t : Fin cfg1.N) : blkBi V c t = arrBi V c := by
  obtain ⟨-, -, -, -, -, -, -, -, e0, e1, -⟩ := idx_facts t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 96 + 1 * (y 1).val = (y 1).val; omega

theorem blkBh_eq (c : Dev nD) (t : Fin cfg1.N) : blkBh V c t = arrBh V c := by
  obtain ⟨-, -, -, -, -, -, -, -, -, -, e0, e1, -⟩ := idx_facts t
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 2) * 1 + 1 * (y 0).val = (y 0).val; omega
  | ⟨1, _⟩ => show win1_5.index t (1 : Fin 2) * 96 + 1 * (y 1).val = (y 1).val; omega

/-! ## What a point writes back, the cover, the array -/

/-- What point t writes back is block t of the reference's gated update of the arrays the region finds. -/
theorem flushed_eq (c : Dev nD) (x ag : Vec Ideal S160000x32 .f32) (wi wh : Vec Ideal S32x96 .f32) (bi bh : Vec Ideal S96 .f32)
    (h0 : arrX V c = x) (h1 : arrA V c = ag) (h2 : arrWi V c = wi) (h3 : arrWh V c = wh)
    (h4 : ∀ q : Fin 96, arrBi V c (ix2 0 q) = bi (ix1 q)) (h5 : ∀ q : Fin 96, arrBh V c (ix2 0 q) = bh (ix1 q))
    (t : Fin cfg1.N) :
    (dat1 (F := Ideal) V c).flushed 6 t
      = ((cfg1.win 6).blk t).view.read (Elt Ideal) (Cert.Spec.gru (F := Ideal) x ag wi wh bi bh) := by
  show (cfg1.win 6).cut (grid1.coords t) ((dat1 (F := Ideal) V c).after 6 t) = _
  rw [after1_6]
  unfold out1_6
  rw [View.canon_unit_zero hz]
  simp only [View.ld_unit_zero (S := S8000x32) hz, View.ld_unit_zero (S := S32x96) hz, View.ld_unit_zero (S := S1x96) hz]
  obtain ⟨-, -, -, -, -, -, -, -, -, -, -, -, e0, e1⟩ := idx_facts t
  funext j
  show k1_pay1 (F := Ideal) (blkX V c t) (blkA V c t) (blkWi V c t) (blkWh V c t) (blkBi V c t) (blkBh V c t)
      ((cfg1.win 6).xinj (grid1.coords t) j)
    = Cert.Spec.gru (F := Ideal) x ag wi wh bi bh (((cfg1.win 6).blk t).view.emb j)
  refine pay1_eq_gru (blkX V c t) (blkA V c t) (blkWi V c t) (blkWh V c t) (blkBi V c t) (blkBh V c t) x ag wi wh bi bh t.val
    ((cfg1.win 6).xinj (grid1.coords t) j) (((cfg1.win 6).blk t).view.emb j) ?_ ?_ ?_ ?_ ?_ ?_ ?_ ?_
  · show win1_6.index t (0 : Fin 2) * 8000 + 1 * (j 0).val = t.val * 8000 + (j 0).val; omega
  · show win1_6.index t (1 : Fin 2) * 32 + 1 * (j 1).val = (j 1).val; omega
  · intro y' i' hy0 hy1; rw [← h0]; exact blkX_apply V c t y' i' hy0 hy1
  · intro y' i' hy0 hy1; rw [← h1]; exact blkA_apply V c t y' i' hy0 hy1
  · rw [← h2]; exact blkWi_eq V c t
  · rw [← h3]; exact blkWh_eq V c t
  · intro k; rw [← h4 k]; exact congrFun (blkBi_eq V c t) (ix2 0 k)
  · intro k; rw [← h5 k]; exact congrFun (blkBh_eq V c t) (ix2 0 k)

/-- An index of the output array is in point t's block iff each coordinate is in the block's range on its axis. -/
theorem mem_blk (t : Fin cfg1.N) (i : S160000x32.Idx) :
    i ∈ ((cfg1.win 6).blk t).view.set
      ↔ ∀ a : Fin 2, win1_6.index t a * S8000x32.size a ≤ (i a).val ∧ (i a).val < win1_6.index t a * S8000x32.size a + S8000x32.size a := by
  show i ∈ ((View.whole (Pipeline.arrRef spec1 6)).slice (win1_6.rect t)).set ↔ _
  rw [View.set_slice_whole, Rect.mem_set_unit]
  exact Iff.rfl

/-- Every index of the output array is in some point's block: row r in block r / 8000. -/
theorem cover (i : S160000x32.Idx) :
    ∃ t : Fin cfg1.N, (cfg1.win 6).flush t = true ∧ i ∈ ((cfg1.win 6).blk t).view.set := by
  have hi0 : (i 0).val < 160000 := (i 0).isLt
  have hi1 : (i 1).val < 32 := (i 1).isLt
  obtain ⟨t, ht⟩ : ∃ t : Fin cfg1.N, t.val = (i 0).val / 8000 :=
    ⟨⟨(i 0).val / 8000, by rw [show cfg1.N = 20 from N_1]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 8000 ≤ (i 0).val ∧ (i 0).val < win1_6.index t (0 : Fin 2) * 8000 + 8000
    omega
  | ⟨1, _⟩ =>
    show win1_6.index t (1 : Fin 2) * 32 ≤ (i 1).val ∧ (i 1).val < win1_6.index t (1 : Fin 2) * 32 + 32
    omega

end Cert.KernelValue.Gru1

namespace Cert.KernelValue

open Idealize.ShloMosaic Idealize.ShloMosaic.TcCoe Idealize.ShloMosaic.ValueIdx Idealize.SL.Sem
open Cert.KernelIdeal Cert.KernelIdeal.Gen

/-- The output array after the region's run is the reference's gated update of the arrays the region finds in its
    input windows (the two biases found as one-row matrices). -/
theorem gru1_value (V : (c : Dev nD) → (b : Ref sig .tc) → Buf (Elt Ideal) ((c : Thread nD τ).loc b)) (c : Dev nD)
    (x ag : Vec Ideal S160000x32 .f32) (wi wh : Vec Ideal S32x96 .f32) (bi bh : Vec Ideal S96 .f32)
    (h0 : V c (Pipeline.arrRef spec1 0) = x) (h1 : V c (Pipeline.arrRef spec1 1) = ag)
    (h2 : V c (Pipeline.arrRef spec1 2) = wi) (h3 : V c (Pipeline.arrRef spec1 3) = wh)
    (h4 : ∀ q : Fin 96, V c (Pipeline.arrRef spec1 4) (ValueIdx.ix2 0 q) = bi (ValueIdx.ix1 q))
    (h5 : ∀ q : Fin 96, V c (Pipeline.arrRef spec1 5) (ValueIdx.ix2 0 q) = bh (ValueIdx.ix1 q)) :
    (dat1 (F := Ideal) V c).arrAt 6 cfg1.N = Cert.Spec.gru x ag wi wh bi bh :=
  (dat1 (F := Ideal) V c).arrAt_eq_of_cover 6 (Cert.Spec.gru (F := Ideal) x ag wi wh bi bh)
    (fun t _ => Gru1.flushed_eq V c x ag wi wh bi bh h0 h1 h2 h3 h4 h5 t) (fun i => Gru1.cover i)

end Cert.KernelValue

end
-- ==== Proof.BnPay2.lean ====
/-
  Batch normalisation with an affine map, one block of rows at a time: the arithmetic of one block and of the
  whole-array reference, both read at an index on the extended reals, and their meeting. At every entry both are
  ((x - mean) * rsqrt (var + eps)) * g + b, the four row vectors read at the entry's column: the block's one-row
  operands are broadcast down its rows, the reference's vectors are laid as one row and broadcast down the array's
  rows; the two reciprocal square roots are one function of the extended reals, and eps is one word on both sides.
-/
import proofs.«425927_j69028714381396_2_alg».proof.Proof.Gen.KernelIdeal.Skeleton
import proofs.«425927_j69028714381396_2_alg».proof.Proof.Spec
import Idealize.ShloMosaic.Lib.ValueLayout
import Idealize.ShloMosaic.Lib.IdealHost
import Idealize.ShloMosaic.Lib.KernelVsHost

noncomputable section

namespace Cert.KernelValue.Bn

open Idealize.ShloMosaic Idealize.ShloMosaic.ValueIdx

/-- One normalised entry: ((x - m) * rsqrt (v + eps)) * g + b on the extended reals, eps the f32 word 0x3727C5AC. -/
def bnAt (x m v g b : EReal) : EReal :=
  ((x - m) * Ideal.rsqrt (v + Ideal.ofBits .f32 0x3727C5AC#32)) * g + b

/-! ## The block's arithmetic at an index -/

section Block

open Cert.KernelIdeal Cert.KernelIdeal.Gen

/-- Entry (p, q) of the block's result: the block's entry normalised by the four rows' entries at column q
    (a [1,32] row broadcast down 8000 rows reads its column). -/
theorem k2_pay1_apply (x0 : Vec Ideal S8000x32 .f32) (mu va ga be : Vec Ideal S1x32 .f32) (p : Fin 8000) (q : Fin 32) :
    k2_pay1 (F := Ideal) x0 mu va ga be (ix2 p q)
      = bnAt (x0 (ix2 p q)) (mu (ix2 0 q)) (va (ix2 0 q)) (ga (ix2 0 q)) (be (ix2 0 q)) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]
  rfl

end Block

/-! ## The reference's stage at an index -/

section Reference

open Cert.ReferenceIdeal
variable [Facts₀]
open Facts₀

/-- A vector of 32 entries laid as the one row of a [1,32] array, read at column q. -/
theorem row32_apply (v : Vec Ideal S32 .f32) (q : Fin 32) :
    Cert.Spec.row32 v (ix2 (0 : Fin 1) q) = v (ix1 q) := by
  refine broadcastInDim_apply ![1] bcast_S32_S1x32_1 v (ix2 (0 : Fin 1) q) (ix1 q) fun a => ?_
  match a with
  | ⟨0, _⟩ => rfl

/-- The same vector broadcast down the 160000 rows, read at (r, q). -/
theorem rows32_row32_apply (v : Vec Ideal S32 .f32) (r : Fin 160000) (q : Fin 32) :
    Cert.Spec.rows32 (Cert.Spec.row32 v) (ix2 r q) = v (ix1 q) := by
  exact (broadcastInDim_oneRow_apply bcast_S1x32_S160000x32_0_1 (Cert.Spec.row32 v) r q).trans (row32_apply v q)

/-- Entry q of rsqrt (v + eps) over a vector of 32 entries: the host's reciprocal square root is the extended
    reals' function, and the scalar eps broadcast to the vector reads eps. -/
theorem rsqrt_eps_apply (va : Vec Ideal S32 .f32) (q : Fin 32) :
    Host.rsqrt (F := Ideal) (φ := .f32) (addf va (broadcastInDim S32 ![] bcast_S_S32 (Cert.Spec.epsS (F := Ideal)))) (ix1 q)
      = Ideal.rsqrt (va (ix1 q) + Ideal.ofBits .f32 0x3727C5AC#32) := by
  show Ideal.rsqrt (va (ix1 q) + broadcastInDim S32 ![] bcast_S_S32 (Cert.Spec.epsS (F := Ideal)) (ix1 q)) = _
  rw [broadcastInDim_scalar_apply]
  rfl

/-- Entry (r, q) of the reference's normalisation: x's entry normalised by the column mean, the column variance,
    the scale and the shift at column q. The mean and the variance stay folded. -/
theorem bn_apply (x : Vec Ideal S160000x32 .f32) (g b : Vec Ideal S32 .f32) (r : Fin 160000) (q : Fin 32) :
    Cert.Spec.bn x g b (ix2 r q)
      = bnAt (x (ix2 r q)) (Cert.Spec.mean32 x (ix1 q)) (Cert.Spec.var32 x (ix1 q)) (g (ix1 q)) (b (ix1 q)) := by
  unfold Cert.Spec.bn
  rw [addf_apply, mulf_apply, mulf_apply, subf_apply, rows32_row32_apply, rows32_row32_apply, rows32_row32_apply,
    rows32_row32_apply, rsqrt_eps_apply]
  rfl

end Reference

/-! ## The meeting -/

section Meeting

open Cert.KernelIdeal Cert.KernelIdeal.Gen
variable [Cert.ReferenceIdeal.Facts₀]

/-- A block entry and the array entry it covers: if the block's x operand reads x there, the columns agree, and
    the four one-row operands read the column mean, the column variance, the scale and the shift, then the block's
    result at the entry is the reference's normalisation at the array entry. -/
theorem bn2_block_meets (x0 : Vec Ideal S8000x32 .f32) (mu va ga be : Vec Ideal S1x32 .f32)
    (x : Vec Ideal S160000x32 .f32) (g b : Vec Ideal S32 .f32) (j : S8000x32.Idx) (k : S160000x32.Idx)
    (hk : (k 1).val = (j 1).val)
    (hx : x0 j = x k)
    (hmu : ∀ q : Fin 32, mu (ix2 0 q) = Cert.Spec.mean32 x (ix1 q))
    (hva : ∀ q : Fin 32, va (ix2 0 q) = Cert.Spec.var32 x (ix1 q))
    (hga : ∀ q : Fin 32, ga (ix2 0 q) = g (ix1 q))
    (hbe : ∀ q : Fin 32, be (ix2 0 q) = b (ix1 q)) :
    k2_pay1 (F := Ideal) x0 mu va ga be j = Cert.Spec.bn x g b k := by
  obtain ⟨p, q, rfl⟩ : ∃ (p : Fin 8000) (q : Fin 32), j = ix2 p q := ⟨j 0, j 1, eq_ix2 j⟩
  obtain ⟨r, q', rfl⟩ : ∃ (r : Fin 160000) (q' : Fin 32), k = ix2 r q' := ⟨k 0, k 1, eq_ix2 k⟩
  obtain rfl : q' = q := Fin.ext hk
  rw [k2_pay1_apply, bn_apply, hx, hmu, hva, hga, hbe]

end Meeting

end Cert.KernelValue.Bn

end
-- ==== Proof.Bn2.lean ====
/-
  The batch-normalisation region, from blocks to the array. The grid has 20 points; point t reads rows
  8000 t … 8000 t + 7999 of the x array and the four whole one-row arrays (column means, column variances, scale,
  shift), and writes the same rows of the output array. What point t writes back is block t of the reference's
  normalisation of the x array (the block's arithmetic meets the reference's entry by entry), the 20 row blocks cover
  the output array, so after the region the output array is the reference's normalisation.
-/
import proofs.«425927_j69028714381396_2_alg».proof.Proof.FrameKIW
import proofs.«425927_j69028714381396_2_alg».proof.Proof.Gen.ReferenceIdeal
import proofs.«425927_j69028714381396_2_alg».proof.Proof.BnPay2
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Bn

/-- The zero offsets of a whole-buffer access. -/
theorem bn2_off : (![0, 0] : Fin 2 → Nat) = fun _ => 0 := funext fun a => by fin_cases a <;> rfl

/-- The index maps over the grid of 20 points: the x window's and the output window's row-block index is the
    point's number and their column-block index is zero; the four one-row windows sit at block (0, 0). -/
theorem bn2_idx : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Block t of the x window reads the x array where block t of the output window lies: both are rows
    8000 t … 8000 t + 7999, all 32 columns. -/
theorem bn2_xblk (c : Dev nD) (x : Vec Ideal S160000x32 .f32) (h0 : V c (Pipeline.arrRef spec2 0) = x)
    (t : Fin cfg2.N) (j : S8000x32.Idx) :
    iblk2 V c 0 t j = x (((cfg2.win 5).blk t).view.emb j) := by
  obtain ⟨e00, e01, e50, e51, e10, e11, e20, e21, e30, e31, e40, e41⟩ := bn2_idx t
  have he : ((cfg2.win 0).blk t).view.emb j = ((cfg2.win 5).blk t).view.emb j := by
    funext a; apply Fin.ext
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 32 + 1 * (j 1).val = win2_5.index t (1 : Fin 2) * 32 + 1 * (j 1).val; omega
  show V c (Pipeline.arrRef spec2 0) (((cfg2.win 0).blk t).view.emb j) = x (((cfg2.win 5).blk t).view.emb j)
  rw [he, h0]

/-- An entry of block t of the output window keeps its column. -/
theorem bn2_col (t : Fin cfg2.N) (j : S8000x32.Idx) : ((((cfg2.win 5).blk t).view.emb j) 1).val = (j 1).val := by
  obtain ⟨e00, e01, e50, e51, e10, e11, e20, e21, e30, e31, e40, e41⟩ := bn2_idx t
  show win2_5.index t (1 : Fin 2) * 32 + 1 * (j 1).val = (j 1).val
  omega

/-- Block t of the one-row window 1 (the column means) is its whole array: at block index (0, 0) the block's entry
    (0, q) is the array's entry (0, q). -/
theorem bn2_row1 (c : Dev nD) (f : Fin 32 → EReal)
    (h : ∀ q : Fin 32, V c (Pipeline.arrRef spec2 1) (ValueIdx.ix2 0 q) = f q) (t : Fin cfg2.N) (q : Fin 32) :
    iblk2 V c 1 t (ix2 (0 : Fin 1) q) = f q := by
  obtain ⟨e00, e01, e50, e51, e10, e11, e20, e21, e30, e31, e40, e41⟩ := bn2_idx t
  have he : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 32 + 1 * q.val = q.val; omega
  show V c (Pipeline.arrRef spec2 1) (((cfg2.win 1).blk t).view.emb (ix2 (0 : Fin 1) q)) = _
  rw [he]
  exact h q

/-- Block t of the one-row window 2 (the column variances) is its whole array: at block index (0, 0) the block's entry
    (0, q) is the array's entry (0, q). -/
theorem bn2_row2 (c : Dev nD) (f : Fin 32 → EReal)
    (h : ∀ q : Fin 32, V c (Pipeline.arrRef spec2 2) (ValueIdx.ix2 0 q) = f q) (t : Fin cfg2.N) (q : Fin 32) :
    iblk2 V c 2 t (ix2 (0 : Fin 1) q) = f q := by
  obtain ⟨e00, e01, e50, e51, e10, e11, e20, e21, e30, e31, e40, e41⟩ := bn2_idx t
  have he : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 32 + 1 * q.val = q.val; omega
  show V c (Pipeline.arrRef spec2 2) (((cfg2.win 2).blk t).view.emb (ix2 (0 : Fin 1) q)) = _
  rw [he]
  exact h q

/-- Block t of the one-row window 3 (the scale) is its whole array: at block index (0, 0) the block's entry
    (0, q) is the array's entry (0, q). -/
theorem bn2_row3 (c : Dev nD) (f : Fin 32 → EReal)
    (h : ∀ q : Fin 32, V c (Pipeline.arrRef spec2 3) (ValueIdx.ix2 0 q) = f q) (t : Fin cfg2.N) (q : Fin 32) :
    iblk2 V c 3 t (ix2 (0 : Fin 1) q) = f q := by
  obtain ⟨e00, e01, e50, e51, e10, e11, e20, e21, e30, e31, e40, e41⟩ := bn2_idx t
  have he : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 32 + 1 * q.val = q.val; omega
  show V c (Pipeline.arrRef spec2 3) (((cfg2.win 3).blk t).view.emb (ix2 (0 : Fin 1) q)) = _
  rw [he]
  exact h q

/-- Block t of the one-row window 4 (the shift) is its whole array: at block index (0, 0) the block's entry
    (0, q) is the array's entry (0, q). -/
theorem bn2_row4 (c : Dev nD) (f : Fin 32 → EReal)
    (h : ∀ q : Fin 32, V c (Pipeline.arrRef spec2 4) (ValueIdx.ix2 0 q) = f q) (t : Fin cfg2.N) (q : Fin 32) :
    iblk2 V c 4 t (ix2 (0 : Fin 1) q) = f q := by
  obtain ⟨e00, e01, e50, e51, e10, e11, e20, e21, e30, e31, e40, e41⟩ := bn2_idx t
  have he : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 32 + 1 * q.val = q.val; omega
  show V c (Pipeline.arrRef spec2 4) (((cfg2.win 4).blk t).view.emb (ix2 (0 : Fin 1) q)) = _
  rw [he]
  exact h q

set_option maxHeartbeats 1000000 in
/-- WHAT POINT t WRITES BACK is block t of the reference's normalisation of the arrays the region finds: the x
    window's block and the output's are the same rows of their arrays, and each one-row window's block is its
    whole array. -/
theorem bn2_flushed (c : Dev nD) (x : Vec Ideal S160000x32 .f32) (g b : Vec Ideal S32 .f32)
    (h0 : V c (Pipeline.arrRef spec2 0) = x)
    (h1 : ∀ q : Fin 32, V c (Pipeline.arrRef spec2 1) (ValueIdx.ix2 0 q) = Cert.Spec.mean32 x (ValueIdx.ix1 q))
    (h2 : ∀ q : Fin 32, V c (Pipeline.arrRef spec2 2) (ValueIdx.ix2 0 q) = Cert.Spec.var32 x (ValueIdx.ix1 q))
    (h3 : ∀ q : Fin 32, V c (Pipeline.arrRef spec2 3) (ValueIdx.ix2 0 q) = g (ValueIdx.ix1 q))
    (h4 : ∀ q : Fin 32, V c (Pipeline.arrRef spec2 4) (ValueIdx.ix2 0 q) = b (ValueIdx.ix1 q))
    (t : Fin cfg2.N) :
    (dat2 (F := Ideal) V c).flushed 5 t = ((cfg2.win 5).blk t).view.read (Elt Ideal) (Cert.Spec.bn x g b) := by
  show (cfg2.win 5).cut (grid2.coords t) ((dat2 (F := Ideal) V c).after 5 t) = _
  rw [after2_5]
  unfold out2_5
  rw [View.canon_unit_zero bn2_off]
  simp only [View.ld_unit_zero (S := S8000x32) bn2_off, View.ld_unit_zero (S := S1x32) bn2_off]
  funext j
  show k2_pay1 (F := Ideal) (iblk2 V c 0 t) (iblk2 V c 1 t) (iblk2 V c 2 t) (iblk2 V c 3 t) (iblk2 V c 4 t) j
    = Cert.Spec.bn x g b (((cfg2.win 5).blk t).view.emb j)
  exact bn2_block_meets (iblk2 V c 0 t) (iblk2 V c 1 t) (iblk2 V c 2 t) (iblk2 V c 3 t) (iblk2 V c 4 t) x g b j
    (((cfg2.win 5).blk t).view.emb j) (bn2_col t j) (bn2_xblk V c x h0 t j)
    (bn2_row1 V c (fun q => Cert.Spec.mean32 x (ix1 q)) h1 t)
    (bn2_row2 V c (fun q => Cert.Spec.var32 x (ix1 q)) h2 t)
    (bn2_row3 V c (fun q => g (ix1 q)) h3 t)
    (bn2_row4 V c (fun q => b (ix1 q)) h4 t)

/-- An index of the output array is in point t's block iff each coordinate is in the block's range on its axis. -/
theorem bn2_mem_blk (t : Fin cfg2.N) (i : S160000x32.Idx) :
    i ∈ ((cfg2.win 5).blk t).view.set ↔ ∀ a : Fin 2, win2_5.index t a * S8000x32.size a ≤ (i a).val
      ∧ (i a).val < win2_5.index t a * S8000x32.size a + S8000x32.size a := by
  show i ∈ ((View.whole main_v41).slice (win2_5.rect t)).set ↔ _
  rw [View.set_slice_whole, Rect.mem_set_unit]
  exact Iff.rfl

/-- The 20 row blocks cover the array: row r lies in the block of point r / 8000. -/
theorem bn2_cover (i : S160000x32.Idx) :
    ∃ t : Fin cfg2.N, (cfg2.win 5).flush t = true ∧ i ∈ ((cfg2.win 5).blk t).view.set := by
  have hi0 : (i 0).val < 160000 := (i 0).isLt
  have hi1 : (i 1).val < 32 := (i 1).isLt
  have hN : cfg2.N = 20 := N_2
  let t : Fin cfg2.N := ⟨(i 0).val / 8000, by rw [hN]; omega⟩
  have ht : t.val = (i 0).val / 8000 := rfl
  obtain ⟨e00, e01, e50, e51, -⟩ := bn2_idx t
  refine ⟨t, flush2_5 t, ?_⟩
  rw [bn2_mem_blk]
  intro a
  match a with
  | ⟨0, _⟩ =>
    show win2_5.index t (0 : Fin 2) * 8000 ≤ (i 0).val ∧ (i 0).val < win2_5.index t (0 : Fin 2) * 8000 + 8000
    omega
  | ⟨1, _⟩ =>
    show win2_5.index t (1 : Fin 2) * 32 ≤ (i 1).val ∧ (i 1).val < win2_5.index t (1 : Fin 2) * 32 + 32
    omega

end Bn

set_option maxHeartbeats 1000000 in
/-- THE OUTPUT ARRAY after the region is the reference's normalisation of the x array by the column means, the
    column variances, the scale and the shift the region finds in its one-row windows. -/
theorem bn2_value (c : Dev nD) (x : Vec Ideal S160000x32 .f32) (g b : Vec Ideal S32 .f32)
    (h0 : V c (Pipeline.arrRef spec2 0) = x)
    (h1 : ∀ q : Fin 32, V c (Pipeline.arrRef spec2 1) (ValueIdx.ix2 0 q) = Cert.Spec.mean32 x (ValueIdx.ix1 q))
    (h2 : ∀ q : Fin 32, V c (Pipeline.arrRef spec2 2) (ValueIdx.ix2 0 q) = Cert.Spec.var32 x (ValueIdx.ix1 q))
    (h3 : ∀ q : Fin 32, V c (Pipeline.arrRef spec2 3) (ValueIdx.ix2 0 q) = g (ValueIdx.ix1 q))
    (h4 : ∀ q : Fin 32, V c (Pipeline.arrRef spec2 4) (ValueIdx.ix2 0 q) = b (ValueIdx.ix1 q)) :
    (dat2 (F := Ideal) V c).arrAt 5 cfg2.N = Cert.Spec.bn x g b :=
  (dat2 (F := Ideal) V c).arrAt_eq_of_cover 5 (Cert.Spec.bn x g b)
    (fun t _ => Bn.bn2_flushed V c x g b h0 h1 h2 h3 h4 t) Bn.bn2_cover

end Cert.KernelValue

end
-- ==== Proof.KStage0.lean ====
/-
  The first layer of the kernel program, read off the fold of its buffer contents from the launch to the exit of
  its third region. The host stretch before the first region slices the edge table into its source and target rows
  and takes layer 0's embedding table and projection weight; the first region leaves the embedding lookup and its
  projection (the message rows); the next stretch gathers the message rows at the edges' sources and adds them at the
  edges' targets, and slices the gate weights and biases; the second region leaves the gated update; three stretches
  compute the column mean, the guarded biased column variance and the scale and shift rows; the third region leaves
  the normalised update. Each host stretch applies the reference's own operations to arrays of the same shapes, so
  what it computes is the reference's stage function of what it reads, by unfolding; a buffer a stretch or a region
  does not write keeps its contents; where the program keeps a one-row matrix and the reference a vector the two are
  compared entry by entry. Chaining these from the last region back to the launch gives the layer's result as the
  reference's layer function of the launch contents.
-/
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KHost
import proofs.«425927_j69028714381396_2_alg».proof.Proof.EmbedL0
import proofs.«425927_j69028714381396_2_alg».proof.Proof.Gru1
import proofs.«425927_j69028714381396_2_alg».proof.Proof.Bn2
import Idealize.ShloMosaic.Lib.StableHlo.Run
import Idealize.ShloMosaic.Lib.ValueIdx

noncomputable section

namespace Cert.KernelValue

open Idealize.ShloMosaic Idealize.ShloMosaic.TcCoe Cert.KernelIdeal Cert.KernelIdeal.Gen

namespace L0

/-! ## What each host stretch of the first layer writes, and what it leaves alone -/

section Writes
variable {F : FTy → Type} [FloatOps F]

/-- One operation's result reference is a member of the listed references. -/
local macro "writes_listed" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-- The references the stretch before region 0 writes: the two rows of the edge table and layer 0's slices of
    the embedding tables and of the projection weights, each with its intermediate. -/
abbrev hostOps0_W : List (Ref sig .tc) := [main_v0, main_v1, main_v2, main_v3, main_v4, main_v5, main_v6, main_v7]
theorem hostOps0_writes : (hostOps0 : List (HloOp τ sig (Elt F))).Forall fun op =>
    op.writes ⊆ (hostOps0_W.map (Proc.devRef (τ := τ) .tc)).toFinset := by
  simp only [List.Forall]; repeat' apply And.intro
  all_goals writes_listed
/-- A reference the stretch does not write keeps its contents across it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The references the stretch before region 1 writes: the aggregation's intermediates and result, and layer 0's
    slices of the gate weights and biases. -/
abbrev hostOps1_W : List (Ref sig .tc) :=
  [main_c, main_v9, main_v10, main_c_0, main_v11, main_v12, main_v13, main_v14, main_v15, main_cst, main_v16, main_v17,
   main_v18, main_v19, main_v20, main_v21, main_v22, main_v23, main_v24, main_v25, main_v26, main_v27, main_v28]
theorem hostOps1_writes : (hostOps1 : List (HloOp τ sig (Elt F))).Forall fun op =>
    op.writes ⊆ (hostOps1_W.map (Proc.devRef (τ := τ) .tc)).toFinset := by
  simp only [List.Forall]; repeat' apply And.intro
  all_goals writes_listed
theorem hostOps1_keep (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The references the column-mean stretch writes. -/
abbrev hostOps2_W : List (Ref sig .tc) := [main_cst_1, main_v30, main_v31, main_cst_2, main_v32, main_v33, main_c_3]
theorem hostOps2_writes : (hostOps2 : List (HloOp τ sig (Elt F))).Forall fun op =>
    op.writes ⊆ (hostOps2_W.map (Proc.devRef (τ := τ) .tc)).toFinset := by
  simp only [List.Forall]; repeat' apply And.intro
  all_goals writes_listed
theorem hostOps2_keep (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The references the inlined variance call writes: its own values and its result. -/
abbrev hostOps2_1_W : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_v12, main_call0_cst_3, main_call0_v13, main_call0_cst_4, main_call0_call0_v0, main_call0_call0_v1, main_v34]
theorem hostOps2_1_writes : (hostOps2_1 : List (HloOp τ sig (Elt F))).Forall fun op =>
    op.writes ⊆ (hostOps2_1_W.map (Proc.devRef (τ := τ) .tc)).toFinset := by
  simp only [List.Forall]; repeat' apply And.intro
  all_goals writes_listed
theorem hostOps2_1_keep (V : Valuation τ sig (Elt F)) (r : Ref sig .tc) (h : r ∉ hostOps2_1_W) :
    StableHlo.after hostOps2_1 V (Proc.devRef .tc r) = V (Proc.devRef .tc r) :=
  StableHlo.after_of_writes_sub hostOps2_1 V hostOps2_1_writes h

/-- The references the scale-and-shift stretch writes. -/
abbrev hostOps2_2_W : List (Ref sig .tc) := [main_v35, main_v36, main_v37, main_v38, main_v39, main_v40]
theorem hostOps2_2_writes : (hostOps2_2 : List (HloOp τ sig (Elt F))).Forall fun op =>
    op.writes ⊆ (hostOps2_2_W.map (Proc.devRef (τ := τ) .tc)).toFinset := by
  simp only [List.Forall]; repeat' apply And.intro
  all_goals writes_listed
theorem hostOps2_2_keep (V : Valuation τ sig (Elt F)) (r : Ref sig .tc) (h : r ∉ hostOps2_2_W) :
    StableHlo.after hostOps2_2 V (Proc.devRef .tc r) = V (Proc.devRef .tc r) :=
  StableHlo.after_of_writes_sub hostOps2_2 V hostOps2_2_writes h
end Writes
/-! ## What each host stretch computes, as the reference's own stage functions of the buffers it reads -/

section Reads
variable (V : Valuation τ sig (Elt Ideal))

/-- Row 0 of the edge table, flattened: the edges' source nodes. -/
theorem ops0_src : StableHlo.after (hostOps0 (F := Ideal)) V (Proc.devRef .tc main_v1) = Cert.Spec.srcOf (V (Proc.devRef .tc main_arg1)) := by
  after_results; rfl
/-- Row 1 of the edge table, flattened: the edges' target nodes. -/
theorem ops0_dst : StableHlo.after (hostOps0 (F := Ideal)) V (Proc.devRef .tc main_v3) = Cert.Spec.dstOf (V (Proc.devRef .tc main_arg1)) := by
  after_results; rfl
/-- Layer 0's slice of the stacked embedding tables. -/
theorem ops0_emb : StableHlo.after (hostOps0 (F := Ideal)) V (Proc.devRef .tc main_v5) = Cert.Spec.emb0 (V (Proc.devRef .tc main_arg5)) := by
  after_results; rfl
/-- Layer 0's slice of the stacked projection weights. -/
theorem ops0_cw : StableHlo.after (hostOps0 (F := Ideal)) V (Proc.devRef .tc main_v7) = Cert.Spec.cw0 (V (Proc.devRef .tc main_arg8)) := by
  after_results; rfl

/-- The message aggregation: gather the message rows at the edges' sources, add them at the edges' targets. -/
theorem ops1_agg : StableHlo.after (hostOps1 (F := Ideal)) V (Proc.devRef .tc main_v18)
    = Cert.Spec.agg (V (Proc.devRef .tc main_v8_1)) (V (Proc.devRef .tc main_v1)) (V (Proc.devRef .tc main_v3)) := by
  after_results; rfl
/-- Layer 0's slices of the two stacked gate weights. -/
theorem ops1_wi : StableHlo.after (hostOps1 (F := Ideal)) V (Proc.devRef .tc main_v20) = Cert.Spec.wi0 (V (Proc.devRef .tc main_arg9)) := by
  after_results; rfl
theorem ops1_wh : StableHlo.after (hostOps1 (F := Ideal)) V (Proc.devRef .tc main_v22) = Cert.Spec.wi0 (V (Proc.devRef .tc main_arg10)) := by
  after_results; rfl
/-- Layer 0's slices of the two stacked gate biases, each kept as a one-row matrix. -/
theorem ops1_bi : StableHlo.after (hostOps1 (F := Ideal)) V (Proc.devRef .tc main_v25)
    = shapeCast S1x96 (Cert.Spec.b96_0 (V (Proc.devRef .tc main_arg11))) shapeCasts_S96_S1x96 := by
  after_results; rfl
theorem ops1_bh : StableHlo.after (hostOps1 (F := Ideal)) V (Proc.devRef .tc main_v28)
    = shapeCast S1x96 (Cert.Spec.b96_0 (V (Proc.devRef .tc main_arg12))) shapeCasts_S96_S1x96 := by
  after_results; rfl

/-- The column sums over the row count, kept as a one-row matrix: the column means. -/
theorem ops2_mean : StableHlo.after (hostOps2 (F := Ideal)) V (Proc.devRef .tc main_v33)
    = Host.divf (broadcastInDim S1x32 ![1] bcast_S32_S1x32_1
          (Host.reduceAdd (V (Proc.devRef .tc main_v29)) (constant (F := Ideal) S_ .f32 0x00000000#32) reducesTo_S160000x32_S32_d0 h_S_))
        (broadcastInDim S1x32 ![] bcast_S_S1x32 (constant (F := Ideal) S_ .f32 0x481C4000#32)) := by
  after_results
/-- The degrees-of-freedom constant the variance call is given. -/
theorem ops2_ddof : StableHlo.after (hostOps2 (F := Ideal)) V (Proc.devRef .tc main_c_3) = constantI S_ 32 0#32 := by
  after_results

/-- Layer 0's slices of the stacked scale and shift rows, each kept as a one-row matrix. -/
theorem ops22_g : StableHlo.after (hostOps2_2 (F := Ideal)) V (Proc.devRef .tc main_v37)
    = shapeCast S1x32 (Cert.Spec.b32_0 (V (Proc.devRef .tc main_arg13))) shapeCasts_S32_S1x32 := by
  after_results; rfl
theorem ops22_b : StableHlo.after (hostOps2_2 (F := Ideal)) V (Proc.devRef .tc main_v40)
    = shapeCast S1x32 (Cert.Spec.b32_0 (V (Proc.devRef .tc main_arg14))) shapeCasts_S32_S1x32 := by
  after_results; rfl

set_option maxHeartbeats 1000000 in
/-- The inlined variance call, given the zero degrees of freedom it is passed: the guarded biased column variance
    of the update, kept as a one-row matrix. -/
theorem ops21_var (hc : V (Proc.devRef .tc main_c_3) = constantI S_ 32 0#32) :
    StableHlo.after (hostOps2_1 (F := Ideal)) V (Proc.devRef .tc main_v34) = kvar (V (Proc.devRef .tc main_v29)) := by
  after_results
  rw [hc]
  rfl
end Reads

/-! ## The fold's boundary contents across the first layer's host stretches -/

section Walk
variable (m : (ℓ : Loc nD τ sig) → Buf (Elt Ideal) ℓ) (ρ : Dev nD → PrngReg) (c : Dev nD)

theorem W1_of (r : Ref sig .tc) (h : r ∉ hostOps0_W) : W1 m ρ c (Proc.devRef .tc r) = W0 m ρ c (Proc.devRef .tc r) :=
  hostOps0_keep _ r h
theorem W3_of (r : Ref sig .tc) (h : r ∉ hostOps1_W) : W3 m ρ c (Proc.devRef .tc r) = W2 m ρ c (Proc.devRef .tc r) :=
  hostOps1_keep _ r h
theorem W5_of (r : Ref sig .tc) (h : r ∉ hostOps2_W) : W5 m ρ c (Proc.devRef .tc r) = W4 m ρ c (Proc.devRef .tc r) :=
  hostOps2_keep _ r h
theorem W6_of (r : Ref sig .tc) (h : r ∉ hostOps2_1_W) : W6 m ρ c (Proc.devRef .tc r) = W5 m ρ c (Proc.devRef .tc r) :=
  hostOps2_1_keep _ r h
theorem W7_of (r : Ref sig .tc) (h : r ∉ hostOps2_2_W) : W7 m ρ c (Proc.devRef .tc r) = W6 m ρ c (Proc.devRef .tc r) :=
  hostOps2_2_keep _ r h

/-! ### The edge endpoints at the first region's entry -/

theorem W1_src : W1 m ρ c (Proc.devRef .tc main_v1) = Cert.Spec.srcOf (m ((c : Thread nD τ).loc main_arg1)) :=
  ops0_src (W0 m ρ c)
theorem W1_dst : W1 m ρ c (Proc.devRef .tc main_v3) = Cert.Spec.dstOf (m ((c : Thread nD τ).loc main_arg1)) :=
  ops0_dst (W0 m ρ c)

/-! ### Region 0: the embedding lookup and its projection -/

theorem W1_z : W1 m ρ c (Proc.devRef .tc main_arg0) = m ((c : Thread nD τ).loc main_arg0) :=
  W1_of m ρ c main_arg0 (by decide)
theorem W1_emb : W1 m ρ c (Proc.devRef .tc main_v5) = Cert.Spec.emb0 (m ((c : Thread nD τ).loc main_arg5)) :=
  ops0_emb (W0 m ρ c)
theorem W1_cw : W1 m ρ c (Proc.devRef .tc main_v7) = Cert.Spec.cw0 (m ((c : Thread nD τ).loc main_arg8)) :=
  ops0_cw (W0 m ρ c)

/-- Region 0 leaves the embedding lookup in its first result. -/
theorem W2_xlin (hz : ∀ i, ((m ((c : Thread nD τ).loc main_arg0) : Vec Ideal S160000x2 .i32) i).toNat < 50) :
    W2 m ρ c (Proc.devRef .tc main_v8_0)
      = Cert.Spec.embed (Cert.Spec.emb0 (m ((c : Thread nD τ).loc main_arg5))) (m ((c : Thread nD τ).loc main_arg0)) :=
  (W2_arr m ρ c 3).trans (embed0_xlin (V1 m ρ) c _ _ hz (W1_z m ρ c) (W1_emb m ρ c))
/-- Region 0 leaves the projected lookup, the message rows, in its second result. -/
theorem W2_msg (hz : ∀ i, ((m ((c : Thread nD τ).loc main_arg0) : Vec Ideal S160000x2 .i32) i).toNat < 50) :
    W2 m ρ c (Proc.devRef .tc main_v8_1)
      = Cert.Spec.conv (Cert.Spec.embed (Cert.Spec.emb0 (m ((c : Thread nD τ).loc main_arg5))) (m ((c : Thread nD τ).loc main_arg0)))
          (Cert.Spec.cw0 (m ((c : Thread nD τ).loc main_arg8))) :=
  (W2_arr m ρ c 4).trans (embed0_m (V1 m ρ) c _ _ _ hz (W1_z m ρ c) (W1_emb m ρ c) (W1_cw m ρ c))

/-! ### Region 1: the gated update of the lookup by the aggregated messages -/

theorem W2_src : W2 m ρ c (Proc.devRef .tc main_v1) = Cert.Spec.srcOf (m ((c : Thread nD τ).loc main_arg1)) :=
  (W2_of_ne m ρ c main_v1 (by decide)).trans (W1_src m ρ c)
theorem W2_dst : W2 m ρ c (Proc.devRef .tc main_v3) = Cert.Spec.dstOf (m ((c : Thread nD τ).loc main_arg1)) :=
  (W2_of_ne m ρ c main_v3 (by decide)).trans (W1_dst m ρ c)
/-- A program argument neither region 0 nor the first stretch touches is still the launch contents at region 0's exit. -/
theorem W2_arg (r : Ref sig .tc) (h0 : r ∉ hostOps0_W) (hr : ∀ w, Pipeline.arrRef spec0 w ≠ r) :
    W2 m ρ c (Proc.devRef .tc r) = W0 m ρ c (Proc.devRef .tc r) :=
  (W2_of_ne m ρ c r hr).trans (W1_of m ρ c r h0)

theorem W3_agg (mm : Vec Ideal S160000x32 .f32) (hm : W2 m ρ c (Proc.devRef .tc main_v8_1) = mm) :
    W3 m ρ c (Proc.devRef .tc main_v18)
      = Cert.Spec.agg mm (Cert.Spec.srcOf (m ((c : Thread nD τ).loc main_arg1))) (Cert.Spec.dstOf (m ((c : Thread nD τ).loc main_arg1))) := by
  refine (ops1_agg (W2 m ρ c)).trans ?_
  rw [hm, W2_src, W2_dst]
theorem W3_wi : W3 m ρ c (Proc.devRef .tc main_v20) = Cert.Spec.wi0 (m ((c : Thread nD τ).loc main_arg9)) :=
  (ops1_wi (W2 m ρ c)).trans (congrArg Cert.Spec.wi0 (W2_arg m ρ c main_arg9 (by decide) (by decide)))
theorem W3_wh : W3 m ρ c (Proc.devRef .tc main_v22) = Cert.Spec.wi0 (m ((c : Thread nD τ).loc main_arg10)) :=
  (ops1_wh (W2 m ρ c)).trans (congrArg Cert.Spec.wi0 (W2_arg m ρ c main_arg10 (by decide) (by decide)))
theorem W3_bi (q : Fin 96) : W3 m ρ c (Proc.devRef .tc main_v25) (ValueIdx.ix2 0 q)
    = Cert.Spec.b96_0 (m ((c : Thread nD τ).loc main_arg11)) (ValueIdx.ix1 q) := by
  refine (congrFun (ops1_bi (W2 m ρ c)) (ValueIdx.ix2 0 q)).trans ?_
  rw [W2_arg m ρ c main_arg11 (by decide) (by decide)]
  exact row96_apply _ q
theorem W3_bh (q : Fin 96) : W3 m ρ c (Proc.devRef .tc main_v28) (ValueIdx.ix2 0 q)
    = Cert.Spec.b96_0 (m ((c : Thread nD τ).loc main_arg12)) (ValueIdx.ix1 q) := by
  refine (congrFun (ops1_bh (W2 m ρ c)) (ValueIdx.ix2 0 q)).trans ?_
  rw [W2_arg m ρ c main_arg12 (by decide) (by decide)]
  exact row96_apply _ q

/-- Region 1 leaves the gated update of its first input by the aggregation of the message rows. -/
theorem W4_gru (x mm : Vec Ideal S160000x32 .f32) (hx : W2 m ρ c (Proc.devRef .tc main_v8_0) = x)
    (hm : W2 m ρ c (Proc.devRef .tc main_v8_1) = mm) :
    W4 m ρ c (Proc.devRef .tc main_v29)
      = Cert.Spec.gru x (Cert.Spec.agg mm (Cert.Spec.srcOf (m ((c : Thread nD τ).loc main_arg1))) (Cert.Spec.dstOf (m ((c : Thread nD τ).loc main_arg1))))
          (Cert.Spec.wi0 (m ((c : Thread nD τ).loc main_arg9))) (Cert.Spec.wi0 (m ((c : Thread nD τ).loc main_arg10)))
          (Cert.Spec.b96_0 (m ((c : Thread nD τ).loc main_arg11))) (Cert.Spec.b96_0 (m ((c : Thread nD τ).loc main_arg12))) :=
  (W4_arr m ρ c 6).trans (gru1_value (V3 m ρ) c x _ _ _ _ _
    ((W3_of m ρ c main_v8_0 (by decide)).trans hx) (W3_agg m ρ c mm hm) (W3_wi m ρ c) (W3_wh m ρ c) (W3_bi m ρ c) (W3_bh m ρ c))

/-! ### Region 2: the batch normalisation of the update -/

/-- A program argument is still the launch contents when the scale and shift rows are sliced. -/
theorem W6_arg (r : Ref sig .tc) (h0 : r ∉ hostOps0_W) (hr0 : ∀ w, Pipeline.arrRef spec0 w ≠ r) (h1 : r ∉ hostOps1_W)
    (hr1 : ∀ w, Pipeline.arrRef spec1 w ≠ r) (h2 : r ∉ hostOps2_W) (h21 : r ∉ hostOps2_1_W) :
    W6 m ρ c (Proc.devRef .tc r) = W0 m ρ c (Proc.devRef .tc r) :=
  calc W6 m ρ c (Proc.devRef .tc r)
    _ = W5 m ρ c (Proc.devRef .tc r) := W6_of m ρ c r h21
    _ = W4 m ρ c (Proc.devRef .tc r) := W5_of m ρ c r h2
    _ = W3 m ρ c (Proc.devRef .tc r) := W4_of_ne m ρ c r hr1
    _ = W2 m ρ c (Proc.devRef .tc r) := W3_of m ρ c r h1
    _ = W0 m ρ c (Proc.devRef .tc r) := W2_arg m ρ c r h0 hr0

theorem W7_x (x : Vec Ideal S160000x32 .f32) (hx : W4 m ρ c (Proc.devRef .tc main_v29) = x) :
    W7 m ρ c (Proc.devRef .tc main_v29) = x :=
  calc W7 m ρ c (Proc.devRef .tc main_v29)
    _ = W6 m ρ c (Proc.devRef .tc main_v29) := W7_of m ρ c main_v29 (by decide)
    _ = W5 m ρ c (Proc.devRef .tc main_v29) := W6_of m ρ c main_v29 (by decide)
    _ = W4 m ρ c (Proc.devRef .tc main_v29) := W5_of m ρ c main_v29 (by decide)
    _ = x := hx
theorem W7_mean (x : Vec Ideal S160000x32 .f32) (hx : W4 m ρ c (Proc.devRef .tc main_v29) = x) (q : Fin 32) :
    W7 m ρ c (Proc.devRef .tc main_v33) (ValueIdx.ix2 0 q) = Cert.Spec.mean32 x (ValueIdx.ix1 q) := by
  have e : W7 m ρ c (Proc.devRef .tc main_v33) = W5 m ρ c (Proc.devRef .tc main_v33) :=
    (W7_of m ρ c main_v33 (by decide)).trans (W6_of m ρ c main_v33 (by decide))
  rw [e]
  refine (congrFun (ops2_mean (W4 m ρ c)) (ValueIdx.ix2 0 q)).trans ?_
  rw [hx]
  exact meanRow x q
theorem W7_var (x : Vec Ideal S160000x32 .f32) (hx : W4 m ρ c (Proc.devRef .tc main_v29) = x) (q : Fin 32) :
    W7 m ρ c (Proc.devRef .tc main_v34) (ValueIdx.ix2 0 q) = Cert.Spec.var32 x (ValueIdx.ix1 q) := by
  rw [W7_of m ρ c main_v34 (by decide)]
  refine (congrFun (ops21_var (W5 m ρ c) (ops2_ddof (W4 m ρ c))) (ValueIdx.ix2 0 q)).trans ?_
  rw [W5_of m ρ c main_v29 (by decide), hx]
  exact varRow x q
theorem W7_g (q : Fin 32) : W7 m ρ c (Proc.devRef .tc main_v37) (ValueIdx.ix2 0 q)
    = Cert.Spec.b32_0 (m ((c : Thread nD τ).loc main_arg13)) (ValueIdx.ix1 q) := by
  refine (congrFun (ops22_g (W6 m ρ c)) (ValueIdx.ix2 0 q)).trans ?_
  rw [W6_arg m ρ c main_arg13 (by decide) (by decide) (by decide) (by decide) (by decide) (by decide)]
  exact row32_apply _ q
theorem W7_b (q : Fin 32) : W7 m ρ c (Proc.devRef .tc main_v40) (ValueIdx.ix2 0 q)
    = Cert.Spec.b32_0 (m ((c : Thread nD τ).loc main_arg14)) (ValueIdx.ix1 q) := by
  refine (congrFun (ops22_b (W6 m ρ c)) (ValueIdx.ix2 0 q)).trans ?_
  rw [W6_arg m ρ c main_arg14 (by decide) (by decide) (by decide) (by decide) (by decide) (by decide)]
  exact row32_apply _ q

/-- Region 2 leaves the batch normalisation of its first input by layer 0's scale and shift rows. -/
theorem W8_bn (x : Vec Ideal S160000x32 .f32) (hx : W4 m ρ c (Proc.devRef .tc main_v29) = x) :
    W8 m ρ c (Proc.devRef .tc main_v41)
      = Cert.Spec.bn x (Cert.Spec.b32_0 (m ((c : Thread nD τ).loc main_arg13))) (Cert.Spec.b32_0 (m ((c : Thread nD τ).loc main_arg14))) :=
  (W8_arr m ρ c 5).trans (bn2_value (V7 m ρ) c x _ _ (W7_x m ρ c x hx) (W7_mean m ρ c x hx) (W7_var m ρ c x hx) (W7_g m ρ c) (W7_b m ρ c))

end Walk

end L0

/-! ## Layer 0 -/

/-- The first layer's result: the normalised gated update of the embedding lookup by its aggregated projection. -/
theorem stage0 (m : (ℓ : Loc nD τ sig) → Buf (Elt Ideal) ℓ) (ρ : Dev nD → PrngReg) (c : Dev nD)
    (hz : ∀ i, ((m ((c : Thread nD τ).loc main_arg0) : Vec Ideal S160000x2 .i32) i).toNat < 50) :
    W8 m ρ c (Proc.devRef .tc main_v41)
      = Cert.Spec.x0 (m ((c : Thread nD τ).loc main_arg0)) (Cert.Spec.srcOf (m ((c : Thread nD τ).loc main_arg1)))
          (Cert.Spec.dstOf (m ((c : Thread nD τ).loc main_arg1))) (m ((c : Thread nD τ).loc main_arg5))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  simp only [Cert.Spec.x0, Cert.Spec.layerCore]
  exact L0.W8_bn m ρ c _ (L0.W4_gru m ρ c _ _ (L0.W2_xlin m ρ c hz) (L0.W2_msg m ρ c hz))

end Cert.KernelValue

end
-- ==== Proof.KCarry8.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the first layer, from boundary 8 down to the launch memory.
-/
import proofs.«425927_j69028714381396_2_alg».proof.Proof.FrameKIW
import proofs.«425927_j69028714381396_2_alg».proof.Proof.Gen.ReferenceIdeal
import proofs.«425927_j69028714381396_2_alg».proof.Proof.Spec
import Idealize.ShloMosaic.Lib.StableHlo.Run

-- deciding that two of the program's several hundred references differ recurses once per reference
set_option maxRecDepth 16384

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The argument arrays. -/
abbrev KCarry.argRefs8 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
/-- The carried buffers: the argument arrays and the two edge-endpoint vectors. -/
abbrev KCarry.carried8 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3]

/-! ## The host stretches of the layer -/

/-- No operation of this stretch has one of the carried buffers as its result. -/
theorem KCarry.keeps_hostOps0 (V0 : Valuation τ sig (Elt F)) (r : Ref sig .tc) (hr : r ∈ KCarry.argRefs8) :
    StableHlo.after hostOps0 V0 (Proc.devRef .tc r) = V0 (Proc.devRef .tc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps1 (V0 : Valuation τ sig (Elt F)) (r : Ref sig .tc) (hr : r ∈ KCarry.carried8) :
    StableHlo.after hostOps1 V0 (Proc.devRef .tc r) = V0 (Proc.devRef .tc r) :=
  StableHlo.after_of_forall_not_mem (b := Proc.devRef .tc r) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps2 (V0 : Valuation τ sig (Elt F)) (r : Ref sig .tc) (hr : r ∈ KCarry.carried8) :
    StableHlo.after hostOps2 V0 (Proc.devRef .tc r) = V0 (Proc.devRef .tc r) :=
  StableHlo.after_of_forall_not_mem (b := Proc.devRef .tc r) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps2_1 (V0 : Valuation τ sig (Elt F)) (r : Ref sig .tc) (hr : r ∈ KCarry.carried8) :
    StableHlo.after hostOps2_1 V0 (Proc.devRef .tc r) = V0 (Proc.devRef .tc r) :=
  StableHlo.after_of_forall_not_mem (b := Proc.devRef .tc r) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps2_2 (V0 : Valuation τ sig (Elt F)) (r : Ref sig .tc) (hr : r ∈ KCarry.carried8) :
    StableHlo.after hostOps2_2 V0 (Proc.devRef .tc r) = V0 (Proc.devRef .tc r) :=
  StableHlo.after_of_forall_not_mem (b := Proc.devRef .tc r) _ _ (List.forall_iff_forall_mem.mp (by
    simp only [hostOps2_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-! ## The walks -/

/-- After the first host stretch the vector is row 0 of the edge table (argument 1), sliced and reshaped:
    the stretch's slice and reshape composed, read at the launch contents. -/
theorem W1_src (c : Dev nD) : W1 m ρ c (Proc.devRef .tc main_v1) = Cert.Spec.srcOf (m ((c : Thread nD τ).loc main_arg1)) := by
  show StableHlo.after hostOps0 (W0 m ρ c) (Proc.devRef .tc main_v1) = _
  dsimp only [hostOps0]
  after_results
  rfl

/-- After the first host stretch the vector is row 1 of the edge table (argument 1), sliced and reshaped:
    the stretch's slice and reshape composed, read at the launch contents. -/
theorem W1_dst (c : Dev nD) : W1 m ρ c (Proc.devRef .tc main_v3) = Cert.Spec.dstOf (m ((c : Thread nD τ).loc main_arg1)) := by
  show StableHlo.after hostOps0 (W0 m ρ c) (Proc.devRef .tc main_v3) = _
  dsimp only [hostOps0]
  after_results
  rfl

theorem W8_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := KCarry.keeps_hostOps2_2 _ main_arg0 (by decide)
    _ = W5 m ρ c (Proc.devRef .tc main_arg0) := KCarry.keeps_hostOps2_1 _ main_arg0 (by decide)
    _ = W4 m ρ c (Proc.devRef .tc main_arg0) := KCarry.keeps_hostOps2 _ main_arg0 (by decide)
    _ = W3 m ρ c (Proc.devRef .tc main_arg0) := W4_of_ne m ρ c main_arg0 (by decide)
    _ = W2 m ρ c (Proc.devRef .tc main_arg0) := KCarry.keeps_hostOps1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := KCarry.keeps_hostOps0 _ main_arg0 (by decide)
    _ = m ((c : Thread nD τ).loc main_arg0) := rfl
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := KCarry.keeps_hostOps2_2 _ main_arg1 (by decide)
    _ = W5 m ρ c (Proc.devRef .tc main_arg1) := KCarry.keeps_hostOps2_1 _ main_arg1 (by decide)
    _ = W4 m ρ c (Proc.devRef .tc main_arg1) := KCarry.keeps_hostOps2 _ main_arg1 (by decide)
    _ = W3 m ρ c (Proc.devRef .tc main_arg1) := W4_of_ne m ρ c main_arg1 (by decide)
    _ = W2 m ρ c (Proc.devRef .tc main_arg1) := KCarry.keeps_hostOps1 _ main_arg1 (by decide)
    _ = W1 m ρ c (Proc.devRef .tc main_arg1) := W2_of_ne m ρ c main_arg1 (by decide)
    _ = W0 m ρ c (Proc.devRef .tc main_arg1) := KCarry.keeps_hostOps0 _ main_arg1 (by decide)
    _ = m ((c : Thread nD τ).loc main_arg1) := rfl
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := KCarry.keeps_hostOps2_2 _ main_arg2 (by decide)
    _ = W5 m ρ c (Proc.devRef .tc main_arg2) := KCarry.keeps_hostOps2_1 _ main_arg2 (by decide)
    _ = W4 m ρ c (Proc.devRef .tc main_arg2) := KCarry.keeps_hostOps2 _ main_arg2 (by decide)
    _ = W3 m ρ c (Proc.devRef .tc main_arg2) := W4_of_ne m ρ c main_arg2 (by decide)
    _ = W2 m ρ c (Proc.devRef .tc main_arg2) := KCarry.keeps_hostOps1 _ main_arg2 (by decide)
    _ = W1 m ρ c (Proc.devRef .tc main_arg2) := W2_of_ne m ρ c main_arg2 (by decide)
    _ = W0 m ρ c (Proc.devRef .tc main_arg2) := KCarry.keeps_hostOps0 _ main_arg2 (by decide)
    _ = m ((c : Thread nD τ).loc main_arg2) := rfl
theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := KCarry.keeps_hostOps2_2 _ main_arg3 (by decide)
    _ = W5 m ρ c (Proc.devRef .tc main_arg3) := KCarry.keeps_hostOps2_1 _ main_arg3 (by decide)
    _ = W4 m ρ c (Proc.devRef .tc main_arg3) := KCarry.keeps_hostOps2 _ main_arg3 (by decide)
    _ = W3 m ρ c (Proc.devRef .tc main_arg3) := W4_of_ne m ρ c main_arg3 (by decide)
    _ = W2 m ρ c (Proc.devRef .tc main_arg3) := KCarry.keeps_hostOps1 _ main_arg3 (by decide)
    _ = W1 m ρ c (Proc.devRef .tc main_arg3) := W2_of_ne m ρ c main_arg3 (by decide)
    _ = W0 m ρ c (Proc.devRef .tc main_arg3) := KCarry.keeps_hostOps0 _ main_arg3 (by decide)
    _ = m ((c : Thread nD τ).loc main_arg3) := rfl
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := KCarry.keeps_hostOps2_2 _ main_arg4 (by decide)
    _ = W5 m ρ c (Proc.devRef .tc main_arg4) := KCarry.keeps_hostOps2_1 _ main_arg4 (by decide)
    _ = W4 m ρ c (Proc.devRef .tc main_arg4) := KCarry.keeps_hostOps2 _ main_arg4 (by decide)
    _ = W3 m ρ c (Proc.devRef .tc main_arg4) := W4_of_ne m ρ c main_arg4 (by decide)
    _ = W2 m ρ c (Proc.devRef .tc main_arg4) := KCarry.keeps_hostOps1 _ main_arg4 (by decide)
    _ = W1 m ρ c (Proc.devRef .tc main_arg4) := W2_of_ne m ρ c main_arg4 (by decide)
    _ = W0 m ρ c (Proc.devRef .tc main_arg4) := KCarry.keeps_hostOps0 _ main_arg4 (by decide)
    _ = m ((c : Thread nD τ).loc main_arg4) := rfl
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := KCarry.keeps_hostOps2_2 _ main_arg5 (by decide)
    _ = W5 m ρ c (Proc.devRef .tc main_arg5) := KCarry.keeps_hostOps2_1 _ main_arg5 (by decide)
    _ = W4 m ρ c (Proc.devRef .tc main_arg5) := KCarry.keeps_hostOps2 _ main_arg5 (by decide)
    _ = W3 m ρ c (Proc.devRef .tc main_arg5) := W4_of_ne m ρ c main_arg5 (by decide)
    _ = W2 m ρ c (Proc.devRef .tc main_arg5) := KCarry.keeps_hostOps1 _ main_arg5 (by decide)
    _ = W1 m ρ c (Proc.devRef .tc main_arg5) := W2_of_ne m ρ c main_arg5 (by decide)
    _ = W0 m ρ c (Proc.devRef .tc main_arg5) := KCarry.keeps_hostOps0 _ main_arg5 (by decide)
    _ = m ((c : Thread nD τ).loc main_arg5) := rfl
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := KCarry.keeps_hostOps2_2 _ main_arg6 (by decide)
    _ = W5 m ρ c (Proc.devRef .tc main_arg6) := KCarry.keeps_hostOps2_1 _ main_arg6 (by decide)
    _ = W4 m ρ c (Proc.devRef .tc main_arg6) := KCarry.keeps_hostOps2 _ main_arg6 (by decide)
    _ = W3 m ρ c (Proc.devRef .tc main_arg6) := W4_of_ne m ρ c main_arg6 (by decide)
    _ = W2 m ρ c (Proc.devRef .tc main_arg6) := KCarry.keeps_hostOps1 _ main_arg6 (by decide)
    _ = W1 m ρ c (Proc.devRef .tc main_arg6) := W2_of_ne m ρ c main_arg6 (by decide)
    _ = W0 m ρ c (Proc.devRef .tc main_arg6) := KCarry.keeps_hostOps0 _ main_arg6 (by decide)
    _ = m ((c : Thread nD τ).loc main_arg6) := rfl
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := KCarry.keeps_hostOps2_2 _ main_arg7 (by decide)
    _ = W5 m ρ c (Proc.devRef .tc main_arg7) := KCarry.keeps_hostOps2_1 _ main_arg7 (by decide)
    _ = W4 m ρ c (Proc.devRef .tc main_arg7) := KCarry.keeps_hostOps2 _ main_arg7 (by decide)
    _ = W3 m ρ c (Proc.devRef .tc main_arg7) := W4_of_ne m ρ c main_arg7 (by decide)
    _ = W2 m ρ c (Proc.devRef .tc main_arg7) := KCarry.keeps_hostOps1 _ main_arg7 (by decide)
    _ = W1 m ρ c (Proc.devRef .tc main_arg7) := W2_of_ne m ρ c main_arg7 (by decide)
    _ = W0 m ρ c (Proc.devRef .tc main_arg7) := KCarry.keeps_hostOps0 _ main_arg7 (by decide)
    _ = m ((c : Thread nD τ).loc main_arg7) := rfl
theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := KCarry.keeps_hostOps2_2 _ main_arg8 (by decide)
    _ = W5 m ρ c (Proc.devRef .tc main_arg8) := KCarry.keeps_hostOps2_1 _ main_arg8 (by decide)
    _ = W4 m ρ c (Proc.devRef .tc main_arg8) := KCarry.keeps_hostOps2 _ main_arg8 (by decide)
    _ = W3 m ρ c (Proc.devRef .tc main_arg8) := W4_of_ne m ρ c main_arg8 (by decide)
    _ = W2 m ρ c (Proc.devRef .tc main_arg8) := KCarry.keeps_hostOps1 _ main_arg8 (by decide)
    _ = W1 m ρ c (Proc.devRef .tc main_arg8) := W2_of_ne m ρ c main_arg8 (by decide)
    _ = W0 m ρ c (Proc.devRef .tc main_arg8) := KCarry.keeps_hostOps0 _ main_arg8 (by decide)
    _ = m ((c : Thread nD τ).loc main_arg8) := rfl
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := KCarry.keeps_hostOps2_2 _ main_arg9 (by decide)
    _ = W5 m ρ c (Proc.devRef .tc main_arg9) := KCarry.keeps_hostOps2_1 _ main_arg9 (by decide)
    _ = W4 m ρ c (Proc.devRef .tc main_arg9) := KCarry.keeps_hostOps2 _ main_arg9 (by decide)
    _ = W3 m ρ c (Proc.devRef .tc main_arg9) := W4_of_ne m ρ c main_arg9 (by decide)
    _ = W2 m ρ c (Proc.devRef .tc main_arg9) := KCarry.keeps_hostOps1 _ main_arg9 (by decide)
    _ = W1 m ρ c (Proc.devRef .tc main_arg9) := W2_of_ne m ρ c main_arg9 (by decide)
    _ = W0 m ρ c (Proc.devRef .tc main_arg9) := KCarry.keeps_hostOps0 _ main_arg9 (by decide)
    _ = m ((c : Thread nD τ).loc main_arg9) := rfl
theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := KCarry.keeps_hostOps2_2 _ main_arg10 (by decide)
    _ = W5 m ρ c (Proc.devRef .tc main_arg10) := KCarry.keeps_hostOps2_1 _ main_arg10 (by decide)
    _ = W4 m ρ c (Proc.devRef .tc main_arg10) := KCarry.keeps_hostOps2 _ main_arg10 (by decide)
    _ = W3 m ρ c (Proc.devRef .tc main_arg10) := W4_of_ne m ρ c main_arg10 (by decide)
    _ = W2 m ρ c (Proc.devRef .tc main_arg10) := KCarry.keeps_hostOps1 _ main_arg10 (by decide)
    _ = W1 m ρ c (Proc.devRef .tc main_arg10) := W2_of_ne m ρ c main_arg10 (by decide)
    _ = W0 m ρ c (Proc.devRef .tc main_arg10) := KCarry.keeps_hostOps0 _ main_arg10 (by decide)
    _ = m ((c : Thread nD τ).loc main_arg10) := rfl
theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := KCarry.keeps_hostOps2_2 _ main_arg11 (by decide)
    _ = W5 m ρ c (Proc.devRef .tc main_arg11) := KCarry.keeps_hostOps2_1 _ main_arg11 (by decide)
    _ = W4 m ρ c (Proc.devRef .tc main_arg11) := KCarry.keeps_hostOps2 _ main_arg11 (by decide)
    _ = W3 m ρ c (Proc.devRef .tc main_arg11) := W4_of_ne m ρ c main_arg11 (by decide)
    _ = W2 m ρ c (Proc.devRef .tc main_arg11) := KCarry.keeps_hostOps1 _ main_arg11 (by decide)
    _ = W1 m ρ c (Proc.devRef .tc main_arg11) := W2_of_ne m ρ c main_arg11 (by decide)
    _ = W0 m ρ c (Proc.devRef .tc main_arg11) := KCarry.keeps_hostOps0 _ main_arg11 (by decide)
    _ = m ((c : Thread nD τ).loc main_arg11) := rfl
theorem W8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := KCarry.keeps_hostOps2_2 _ main_arg12 (by decide)
    _ = W5 m ρ c (Proc.devRef .tc main_arg12) := KCarry.keeps_hostOps2_1 _ main_arg12 (by decide)
    _ = W4 m ρ c (Proc.devRef .tc main_arg12) := KCarry.keeps_hostOps2 _ main_arg12 (by decide)
    _ = W3 m ρ c (Proc.devRef .tc main_arg12) := W4_of_ne m ρ c main_arg12 (by decide)
    _ = W2 m ρ c (Proc.devRef .tc main_arg12) := KCarry.keeps_hostOps1 _ main_arg12 (by decide)
    _ = W1 m ρ c (Proc.devRef .tc main_arg12) := W2_of_ne m ρ c main_arg12 (by decide)
    _ = W0 m ρ c (Proc.devRef .tc main_arg12) := KCarry.keeps_hostOps0 _ main_arg12 (by decide)
    _ = m ((c : Thread nD τ).loc main_arg12) := rfl
theorem W8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := KCarry.keeps_hostOps2_2 _ main_arg13 (by decide)
    _ = W5 m ρ c (Proc.devRef .tc main_arg13) := KCarry.keeps_hostOps2_1 _ main_arg13 (by decide)
    _ = W4 m ρ c (Proc.devRef .tc main_arg13) := KCarry.keeps_hostOps2 _ main_arg13 (by decide)
    _ = W3 m ρ c (Proc.devRef .tc main_arg13) := W4_of_ne m ρ c main_arg13 (by decide)
    _ = W2 m ρ c (Proc.devRef .tc main_arg13) := KCarry.keeps_hostOps1 _ main_arg13 (by decide)
    _ = W1 m ρ c (Proc.devRef .tc main_arg13) := W2_of_ne m ρ c main_arg13 (by decide)
    _ = W0 m ρ c (Proc.devRef .tc main_arg13) := KCarry.keeps_hostOps0 _ main_arg13 (by decide)
    _ = m ((c : Thread nD τ).loc main_arg13) := rfl
theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := KCarry.keeps_hostOps2_2 _ main_arg14 (by decide)
    _ = W5 m ρ c (Proc.devRef .tc main_arg14) := KCarry.keeps_hostOps2_1 _ main_arg14 (by decide)
    _ = W4 m ρ c (Proc.devRef .tc main_arg14) := KCarry.keeps_hostOps2 _ main_arg14 (by decide)
    _ = W3 m ρ c (Proc.devRef .tc main_arg14) := W4_of_ne m ρ c main_arg14 (by decide)
    _ = W2 m ρ c (Proc.devRef .tc main_arg14) := KCarry.keeps_hostOps1 _ main_arg14 (by decide)
    _ = W1 m ρ c (Proc.devRef .tc main_arg14) := W2_of_ne m ρ c main_arg14 (by decide)
    _ = W0 m ρ c (Proc.devRef .tc main_arg14) := KCarry.keeps_hostOps0 _ main_arg14 (by decide)
    _ = m ((c : Thread nD τ).loc main_arg14) := rfl
theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := KCarry.keeps_hostOps2_2 _ main_arg15 (by decide)
    _ = W5 m ρ c (Proc.devRef .tc main_arg15) := KCarry.keeps_hostOps2_1 _ main_arg15 (by decide)
    _ = W4 m ρ c (Proc.devRef .tc main_arg15) := KCarry.keeps_hostOps2 _ main_arg15 (by decide)
    _ = W3 m ρ c (Proc.devRef .tc main_arg15) := W4_of_ne m ρ c main_arg15 (by decide)
    _ = W2 m ρ c (Proc.devRef .tc main_arg15) := KCarry.keeps_hostOps1 _ main_arg15 (by decide)
    _ = W1 m ρ c (Proc.devRef .tc main_arg15) := W2_of_ne m ρ c main_arg15 (by decide)
    _ = W0 m ρ c (Proc.devRef .tc main_arg15) := KCarry.keeps_hostOps0 _ main_arg15 (by decide)
    _ = m ((c : Thread nD τ).loc main_arg15) := rfl
theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := KCarry.keeps_hostOps2_2 _ main_arg16 (by decide)
    _ = W5 m ρ c (Proc.devRef .tc main_arg16) := KCarry.keeps_hostOps2_1 _ main_arg16 (by decide)
    _ = W4 m ρ c (Proc.devRef .tc main_arg16) := KCarry.keeps_hostOps2 _ main_arg16 (by decide)
    _ = W3 m ρ c (Proc.devRef .tc main_arg16) := W4_of_ne m ρ c main_arg16 (by decide)
    _ = W2 m ρ c (Proc.devRef .tc main_arg16) := KCarry.keeps_hostOps1 _ main_arg16 (by decide)
    _ = W1 m ρ c (Proc.devRef .tc main_arg16) := W2_of_ne m ρ c main_arg16 (by decide)
    _ = W0 m ρ c (Proc.devRef .tc main_arg16) := KCarry.keeps_hostOps0 _ main_arg16 (by decide)
    _ = m ((c : Thread nD τ).loc main_arg16) := rfl
theorem W8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := KCarry.keeps_hostOps2_2 _ main_arg17 (by decide)
    _ = W5 m ρ c (Proc.devRef .tc main_arg17) := KCarry.keeps_hostOps2_1 _ main_arg17 (by decide)
    _ = W4 m ρ c (Proc.devRef .tc main_arg17) := KCarry.keeps_hostOps2 _ main_arg17 (by decide)
    _ = W3 m ρ c (Proc.devRef .tc main_arg17) := W4_of_ne m ρ c main_arg17 (by decide)
    _ = W2 m ρ c (Proc.devRef .tc main_arg17) := KCarry.keeps_hostOps1 _ main_arg17 (by decide)
    _ = W1 m ρ c (Proc.devRef .tc main_arg17) := W2_of_ne m ρ c main_arg17 (by decide)
    _ = W0 m ρ c (Proc.devRef .tc main_arg17) := KCarry.keeps_hostOps0 _ main_arg17 (by decide)
    _ = m ((c : Thread nD τ).loc main_arg17) := rfl
theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := KCarry.keeps_hostOps2_2 _ main_arg18 (by decide)
    _ = W5 m ρ c (Proc.devRef .tc main_arg18) := KCarry.keeps_hostOps2_1 _ main_arg18 (by decide)
    _ = W4 m ρ c (Proc.devRef .tc main_arg18) := KCarry.keeps_hostOps2 _ main_arg18 (by decide)
    _ = W3 m ρ c (Proc.devRef .tc main_arg18) := W4_of_ne m ρ c main_arg18 (by decide)
    _ = W2 m ρ c (Proc.devRef .tc main_arg18) := KCarry.keeps_hostOps1 _ main_arg18 (by decide)
    _ = W1 m ρ c (Proc.devRef .tc main_arg18) := W2_of_ne m ρ c main_arg18 (by decide)
    _ = W0 m ρ c (Proc.devRef .tc main_arg18) := KCarry.keeps_hostOps0 _ main_arg18 (by decide)
    _ = m ((c : Thread nD τ).loc main_arg18) := rfl
theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := KCarry.keeps_hostOps2_2 _ main_arg19 (by decide)
    _ = W5 m ρ c (Proc.devRef .tc main_arg19) := KCarry.keeps_hostOps2_1 _ main_arg19 (by decide)
    _ = W4 m ρ c (Proc.devRef .tc main_arg19) := KCarry.keeps_hostOps2 _ main_arg19 (by decide)
    _ = W3 m ρ c (Proc.devRef .tc main_arg19) := W4_of_ne m ρ c main_arg19 (by decide)
    _ = W2 m ρ c (Proc.devRef .tc main_arg19) := KCarry.keeps_hostOps1 _ main_arg19 (by decide)
    _ = W1 m ρ c (Proc.devRef .tc main_arg19) := W2_of_ne m ρ c main_arg19 (by decide)
    _ = W0 m ρ c (Proc.devRef .tc main_arg19) := KCarry.keeps_hostOps0 _ main_arg19 (by decide)
    _ = m ((c : Thread nD τ).loc main_arg19) := rfl
theorem W8_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := KCarry.keeps_hostOps2_2 _ main_arg20 (by decide)
    _ = W5 m ρ c (Proc.devRef .tc main_arg20) := KCarry.keeps_hostOps2_1 _ main_arg20 (by decide)
    _ = W4 m ρ c (Proc.devRef .tc main_arg20) := KCarry.keeps_hostOps2 _ main_arg20 (by decide)
    _ = W3 m ρ c (Proc.devRef .tc main_arg20) := W4_of_ne m ρ c main_arg20 (by decide)
    _ = W2 m ρ c (Proc.devRef .tc main_arg20) := KCarry.keeps_hostOps1 _ main_arg20 (by decide)
    _ = W1 m ρ c (Proc.devRef .tc main_arg20) := W2_of_ne m ρ c main_arg20 (by decide)
    _ = W0 m ρ c (Proc.devRef .tc main_arg20) := KCarry.keeps_hostOps0 _ main_arg20 (by decide)
    _ = m ((c : Thread nD τ).loc main_arg20) := rfl
theorem W8_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := KCarry.keeps_hostOps2_2 _ main_arg21 (by decide)
    _ = W5 m ρ c (Proc.devRef .tc main_arg21) := KCarry.keeps_hostOps2_1 _ main_arg21 (by decide)
    _ = W4 m ρ c (Proc.devRef .tc main_arg21) := KCarry.keeps_hostOps2 _ main_arg21 (by decide)
    _ = W3 m ρ c (Proc.devRef .tc main_arg21) := W4_of_ne m ρ c main_arg21 (by decide)
    _ = W2 m ρ c (Proc.devRef .tc main_arg21) := KCarry.keeps_hostOps1 _ main_arg21 (by decide)
    _ = W1 m ρ c (Proc.devRef .tc main_arg21) := W2_of_ne m ρ c main_arg21 (by decide)
    _ = W0 m ρ c (Proc.devRef .tc main_arg21) := KCarry.keeps_hostOps0 _ main_arg21 (by decide)
    _ = m ((c : Thread nD τ).loc main_arg21) := rfl
theorem W8_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := KCarry.keeps_hostOps2_2 _ main_arg22 (by decide)
    _ = W5 m ρ c (Proc.devRef .tc main_arg22) := KCarry.keeps_hostOps2_1 _ main_arg22 (by decide)
    _ = W4 m ρ c (Proc.devRef .tc main_arg22) := KCarry.keeps_hostOps2 _ main_arg22 (by decide)
    _ = W3 m ρ c (Proc.devRef .tc main_arg22) := W4_of_ne m ρ c main_arg22 (by decide)
    _ = W2 m ρ c (Proc.devRef .tc main_arg22) := KCarry.keeps_hostOps1 _ main_arg22 (by decide)
    _ = W1 m ρ c (Proc.devRef .tc main_arg22) := W2_of_ne m ρ c main_arg22 (by decide)
    _ = W0 m ρ c (Proc.devRef .tc main_arg22) := KCarry.keeps_hostOps0 _ main_arg22 (by decide)
    _ = m ((c : Thread nD τ).loc main_arg22) := rfl
theorem W8_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := KCarry.keeps_hostOps2_2 _ main_arg23 (by decide)
    _ = W5 m ρ c (Proc.devRef .tc main_arg23) := KCarry.keeps_hostOps2_1 _ main_arg23 (by decide)
    _ = W4 m ρ c (Proc.devRef .tc main_arg23) := KCarry.keeps_hostOps2 _ main_arg23 (by decide)
    _ = W3 m ρ c (Proc.devRef .tc main_arg23) := W4_of_ne m ρ c main_arg23 (by decide)
    _ = W2 m ρ c (Proc.devRef .tc main_arg23) := KCarry.keeps_hostOps1 _ main_arg23 (by decide)
    _ = W1 m ρ c (Proc.devRef .tc main_arg23) := W2_of_ne m ρ c main_arg23 (by decide)
    _ = W0 m ρ c (Proc.devRef .tc main_arg23) := KCarry.keeps_hostOps0 _ main_arg23 (by decide)
    _ = m ((c : Thread nD τ).loc main_arg23) := rfl
theorem W8_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := KCarry.keeps_hostOps2_2 _ main_arg24 (by decide)
    _ = W5 m ρ c (Proc.devRef .tc main_arg24) := KCarry.keeps_hostOps2_1 _ main_arg24 (by decide)
    _ = W4 m ρ c (Proc.devRef .tc main_arg24) := KCarry.keeps_hostOps2 _ main_arg24 (by decide)
    _ = W3 m ρ c (Proc.devRef .tc main_arg24) := W4_of_ne m ρ c main_arg24 (by decide)
    _ = W2 m ρ c (Proc.devRef .tc main_arg24) := KCarry.keeps_hostOps1 _ main_arg24 (by decide)
    _ = W1 m ρ c (Proc.devRef .tc main_arg24) := W2_of_ne m ρ c main_arg24 (by decide)
    _ = W0 m ρ c (Proc.devRef .tc main_arg24) := KCarry.keeps_hostOps0 _ main_arg24 (by decide)
    _ = m ((c : Thread nD τ).loc main_arg24) := rfl
theorem W8_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := KCarry.keeps_hostOps2_2 _ main_arg25 (by decide)
    _ = W5 m ρ c (Proc.devRef .tc main_arg25) := KCarry.keeps_hostOps2_1 _ main_arg25 (by decide)
    _ = W4 m ρ c (Proc.devRef .tc main_arg25) := KCarry.keeps_hostOps2 _ main_arg25 (by decide)
    _ = W3 m ρ c (Proc.devRef .tc main_arg25) := W4_of_ne m ρ c main_arg25 (by decide)
    _ = W2 m ρ c (Proc.devRef .tc main_arg25) := KCarry.keeps_hostOps1 _ main_arg25 (by decide)
    _ = W1 m ρ c (Proc.devRef .tc main_arg25) := W2_of_ne m ρ c main_arg25 (by decide)
    _ = W0 m ρ c (Proc.devRef .tc main_arg25) := KCarry.keeps_hostOps0 _ main_arg25 (by decide)
    _ = m ((c : Thread nD τ).loc main_arg25) := rfl
theorem W8_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := KCarry.keeps_hostOps2_2 _ main_arg26 (by decide)
    _ = W5 m ρ c (Proc.devRef .tc main_arg26) := KCarry.keeps_hostOps2_1 _ main_arg26 (by decide)
    _ = W4 m ρ c (Proc.devRef .tc main_arg26) := KCarry.keeps_hostOps2 _ main_arg26 (by decide)
    _ = W3 m ρ c (Proc.devRef .tc main_arg26) := W4_of_ne m ρ c main_arg26 (by decide)
    _ = W2 m ρ c (Proc.devRef .tc main_arg26) := KCarry.keeps_hostOps1 _ main_arg26 (by decide)
    _ = W1 m ρ c (Proc.devRef .tc main_arg26) := W2_of_ne m ρ c main_arg26 (by decide)
    _ = W0 m ρ c (Proc.devRef .tc main_arg26) := KCarry.keeps_hostOps0 _ main_arg26 (by decide)
    _ = m ((c : Thread nD τ).loc main_arg26) := rfl
theorem W8_src (c : Dev nD) : W8 m ρ c (Proc.devRef .tc main_v1) = Cert.Spec.srcOf (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := KCarry.keeps_hostOps2_2 _ main_v1 (by decide)
    _ = W5 m ρ c (Proc.devRef .tc main_v1) := KCarry.keeps_hostOps2_1 _ main_v1 (by decide)
    _ = W4 m ρ c (Proc.devRef .tc main_v1) := KCarry.keeps_hostOps2 _ main_v1 (by decide)
    _ = W3 m ρ c (Proc.devRef .tc main_v1) := W4_of_ne m ρ c main_v1 (by decide)
    _ = W2 m ρ c (Proc.devRef .tc main_v1) := KCarry.keeps_hostOps1 _ main_v1 (by decide)
    _ = W1 m ρ c (Proc.devRef .tc main_v1) := W2_of_ne m ρ c main_v1 (by decide)
    _ = Cert.Spec.srcOf (m ((c : Thread nD τ).loc main_arg1)) := W1_src m ρ c
theorem W8_dst (c : Dev nD) : W8 m ρ c (Proc.devRef .tc main_v3) = Cert.Spec.dstOf (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := KCarry.keeps_hostOps2_2 _ main_v3 (by decide)
    _ = W5 m ρ c (Proc.devRef .tc main_v3) := KCarry.keeps_hostOps2_1 _ main_v3 (by decide)
    _ = W4 m ρ c (Proc.devRef .tc main_v3) := KCarry.keeps_hostOps2 _ main_v3 (by decide)
    _ = W3 m ρ c (Proc.devRef .tc main_v3) := W4_of_ne m ρ c main_v3 (by decide)
    _ = W2 m ρ c (Proc.devRef .tc main_v3) := KCarry.keeps_hostOps1 _ main_v3 (by decide)
    _ = W1 m ρ c (Proc.devRef .tc main_v3) := W2_of_ne m ρ c main_v3 (by decide)
    _ = Cert.Spec.dstOf (m ((c : Thread nD τ).loc main_arg1)) := W1_dst m ρ c

end Cert.KernelValue

end
-- ==== Proof.KCarry16.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the eight segments of the second layer, each buffer at boundary 16 equal to itself at boundary 8.
-/
import proofs.«425927_j69028714381396_2_alg».proof.Proof.FrameKIW
import Idealize.ShloMosaic.Lib.StableHlo.Run

-- deciding that two of the program's several hundred references differ recurses once per reference
set_option maxRecDepth 16384

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The argument arrays. -/
abbrev KCarry.argRefs16 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
/-- The carried buffers: the argument arrays and the two edge-endpoint vectors. -/
abbrev KCarry.carried16 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3]

/-! ## The host stretches of the layer -/

/-- No operation of this stretch has one of the carried buffers as its result. -/
theorem KCarry.keeps_hostOps3 (V0 : Valuation τ sig (Elt F)) (r : Ref sig .tc) (hr : r ∈ KCarry.carried16) :
    StableHlo.after hostOps3 V0 (Proc.devRef .tc r) = V0 (Proc.devRef .tc r) :=
  StableHlo.after_of_forall_not_mem (b := Proc.devRef .tc r) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps4 (V0 : Valuation τ sig (Elt F)) (r : Ref sig .tc) (hr : r ∈ KCarry.carried16) :
    StableHlo.after hostOps4 V0 (Proc.devRef .tc r) = V0 (Proc.devRef .tc r) :=
  StableHlo.after_of_forall_not_mem (b := Proc.devRef .tc r) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps5 (V0 : Valuation τ sig (Elt F)) (r : Ref sig .tc) (hr : r ∈ KCarry.carried16) :
    StableHlo.after hostOps5 V0 (Proc.devRef .tc r) = V0 (Proc.devRef .tc r) :=
  StableHlo.after_of_forall_not_mem (b := Proc.devRef .tc r) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps5_1 (V0 : Valuation τ sig (Elt F)) (r : Ref sig .tc) (hr : r ∈ KCarry.carried16) :
    StableHlo.after hostOps5_1 V0 (Proc.devRef .tc r) = V0 (Proc.devRef .tc r) :=
  StableHlo.after_of_forall_not_mem (b := Proc.devRef .tc r) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps5_2 (V0 : Valuation τ sig (Elt F)) (r : Ref sig .tc) (hr : r ∈ KCarry.carried16) :
    StableHlo.after hostOps5_2 V0 (Proc.devRef .tc r) = V0 (Proc.devRef .tc r) :=
  StableHlo.after_of_forall_not_mem (b := Proc.devRef .tc r) _ _ (List.forall_iff_forall_mem.mp (by
    simp only [hostOps5_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-! ## The walks -/

theorem W16_W8_arg0 (c : Dev nD) : W16 m ρ c (Proc.devRef .tc main_arg0) = W8 m ρ c (Proc.devRef .tc main_arg0) :=
  calc W16 m ρ c (Proc.devRef .tc main_arg0)
    _ = W15 m ρ c (Proc.devRef .tc main_arg0) := W16_of_ne m ρ c main_arg0 (by decide)
    _ = W14 m ρ c (Proc.devRef .tc main_arg0) := KCarry.keeps_hostOps5_2 _ main_arg0 (by decide)
    _ = W13 m ρ c (Proc.devRef .tc main_arg0) := KCarry.keeps_hostOps5_1 _ main_arg0 (by decide)
    _ = W12 m ρ c (Proc.devRef .tc main_arg0) := KCarry.keeps_hostOps5 _ main_arg0 (by decide)
    _ = W11 m ρ c (Proc.devRef .tc main_arg0) := W12_of_ne m ρ c main_arg0 (by decide)
    _ = W10 m ρ c (Proc.devRef .tc main_arg0) := KCarry.keeps_hostOps4 _ main_arg0 (by decide)
    _ = W9 m ρ c (Proc.devRef .tc main_arg0) := (W10_arr m ρ c 0).trans (((dat3 (V9 m ρ) c).arrAt_in 0 rfl _).trans (A_eq3 (V9 m ρ) c 0))
    _ = W8 m ρ c (Proc.devRef .tc main_arg0) := KCarry.keeps_hostOps3 _ main_arg0 (by decide)
theorem W16_W8_arg1 (c : Dev nD) : W16 m ρ c (Proc.devRef .tc main_arg1) = W8 m ρ c (Proc.devRef .tc main_arg1) :=
  calc W16 m ρ c (Proc.devRef .tc main_arg1)
    _ = W15 m ρ c (Proc.devRef .tc main_arg1) := W16_of_ne m ρ c main_arg1 (by decide)
    _ = W14 m ρ c (Proc.devRef .tc main_arg1) := KCarry.keeps_hostOps5_2 _ main_arg1 (by decide)
    _ = W13 m ρ c (Proc.devRef .tc main_arg1) := KCarry.keeps_hostOps5_1 _ main_arg1 (by decide)
    _ = W12 m ρ c (Proc.devRef .tc main_arg1) := KCarry.keeps_hostOps5 _ main_arg1 (by decide)
    _ = W11 m ρ c (Proc.devRef .tc main_arg1) := W12_of_ne m ρ c main_arg1 (by decide)
    _ = W10 m ρ c (Proc.devRef .tc main_arg1) := KCarry.keeps_hostOps4 _ main_arg1 (by decide)
    _ = W9 m ρ c (Proc.devRef .tc main_arg1) := W10_of_ne m ρ c main_arg1 (by decide)
    _ = W8 m ρ c (Proc.devRef .tc main_arg1) := KCarry.keeps_hostOps3 _ main_arg1 (by decide)
theorem W16_W8_arg2 (c : Dev nD) : W16 m ρ c (Proc.devRef .tc main_arg2) = W8 m ρ c (Proc.devRef .tc main_arg2) :=
  calc W16 m ρ c (Proc.devRef .tc main_arg2)
    _ = W15 m ρ c (Proc.devRef .tc main_arg2) := W16_of_ne m ρ c main_arg2 (by decide)
    _ = W14 m ρ c (Proc.devRef .tc main_arg2) := KCarry.keeps_hostOps5_2 _ main_arg2 (by decide)
    _ = W13 m ρ c (Proc.devRef .tc main_arg2) := KCarry.keeps_hostOps5_1 _ main_arg2 (by decide)
    _ = W12 m ρ c (Proc.devRef .tc main_arg2) := KCarry.keeps_hostOps5 _ main_arg2 (by decide)
    _ = W11 m ρ c (Proc.devRef .tc main_arg2) := W12_of_ne m ρ c main_arg2 (by decide)
    _ = W10 m ρ c (Proc.devRef .tc main_arg2) := KCarry.keeps_hostOps4 _ main_arg2 (by decide)
    _ = W9 m ρ c (Proc.devRef .tc main_arg2) := W10_of_ne m ρ c main_arg2 (by decide)
    _ = W8 m ρ c (Proc.devRef .tc main_arg2) := KCarry.keeps_hostOps3 _ main_arg2 (by decide)
theorem W16_W8_arg3 (c : Dev nD) : W16 m ρ c (Proc.devRef .tc main_arg3) = W8 m ρ c (Proc.devRef .tc main_arg3) :=
  calc W16 m ρ c (Proc.devRef .tc main_arg3)
    _ = W15 m ρ c (Proc.devRef .tc main_arg3) := W16_of_ne m ρ c main_arg3 (by decide)
    _ = W14 m ρ c (Proc.devRef .tc main_arg3) := KCarry.keeps_hostOps5_2 _ main_arg3 (by decide)
    _ = W13 m ρ c (Proc.devRef .tc main_arg3) := KCarry.keeps_hostOps5_1 _ main_arg3 (by decide)
    _ = W12 m ρ c (Proc.devRef .tc main_arg3) := KCarry.keeps_hostOps5 _ main_arg3 (by decide)
    _ = W11 m ρ c (Proc.devRef .tc main_arg3) := W12_of_ne m ρ c main_arg3 (by decide)
    _ = W10 m ρ c (Proc.devRef .tc main_arg3) := KCarry.keeps_hostOps4 _ main_arg3 (by decide)
    _ = W9 m ρ c (Proc.devRef .tc main_arg3) := W10_of_ne m ρ c main_arg3 (by decide)
    _ = W8 m ρ c (Proc.devRef .tc main_arg3) := KCarry.keeps_hostOps3 _ main_arg3 (by decide)
theorem W16_W8_arg4 (c : Dev nD) : W16 m ρ c (Proc.devRef .tc main_arg4) = W8 m ρ c (Proc.devRef .tc main_arg4) :=
  calc W16 m ρ c (Proc.devRef .tc main_arg4)
    _ = W15 m ρ c (Proc.devRef .tc main_arg4) := W16_of_ne m ρ c main_arg4 (by decide)
    _ = W14 m ρ c (Proc.devRef .tc main_arg4) := KCarry.keeps_hostOps5_2 _ main_arg4 (by decide)
    _ = W13 m ρ c (Proc.devRef .tc main_arg4) := KCarry.keeps_hostOps5_1 _ main_arg4 (by decide)
    _ = W12 m ρ c (Proc.devRef .tc main_arg4) := KCarry.keeps_hostOps5 _ main_arg4 (by decide)
    _ = W11 m ρ c (Proc.devRef .tc main_arg4) := W12_of_ne m ρ c main_arg4 (by decide)
    _ = W10 m ρ c (Proc.devRef .tc main_arg4) := KCarry.keeps_hostOps4 _ main_arg4 (by decide)
    _ = W9 m ρ c (Proc.devRef .tc main_arg4) := W10_of_ne m ρ c main_arg4 (by decide)
    _ = W8 m ρ c (Proc.devRef .tc main_arg4) := KCarry.keeps_hostOps3 _ main_arg4 (by decide)
theorem W16_W8_arg5 (c : Dev nD) : W16 m ρ c (Proc.devRef .tc main_arg5) = W8 m ρ c (Proc.devRef .tc main_arg5) :=
  calc W16 m ρ c (Proc.devRef .tc main_arg5)
    _ = W15 m ρ c (Proc.devRef .tc main_arg5) := W16_of_ne m ρ c main_arg5 (by decide)
    _ = W14 m ρ c (Proc.devRef .tc main_arg5) := KCarry.keeps_hostOps5_2 _ main_arg5 (by decide)
    _ = W13 m ρ c (Proc.devRef .tc main_arg5) := KCarry.keeps_hostOps5_1 _ main_arg5 (by decide)
    _ = W12 m ρ c (Proc.devRef .tc main_arg5) := KCarry.keeps_hostOps5 _ main_arg5 (by decide)
    _ = W11 m ρ c (Proc.devRef .tc main_arg5) := W12_of_ne m ρ c main_arg5 (by decide)
    _ = W10 m ρ c (Proc.devRef .tc main_arg5) := KCarry.keeps_hostOps4 _ main_arg5 (by decide)
    _ = W9 m ρ c (Proc.devRef .tc main_arg5) := W10_of_ne m ρ c main_arg5 (by decide)
    _ = W8 m ρ c (Proc.devRef .tc main_arg5) := KCarry.keeps_hostOps3 _ main_arg5 (by decide)
theorem W16_W8_arg6 (c : Dev nD) : W16 m ρ c (Proc.devRef .tc main_arg6) = W8 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := KCarry.keeps_hostOps5_2 _ main_arg6 (by decide)
    _ = W13 m ρ c (Proc.devRef .tc main_arg6) := KCarry.keeps_hostOps5_1 _ main_arg6 (by decide)
    _ = W12 m ρ c (Proc.devRef .tc main_arg6) := KCarry.keeps_hostOps5 _ main_arg6 (by decide)
    _ = W11 m ρ c (Proc.devRef .tc main_arg6) := W12_of_ne m ρ c main_arg6 (by decide)
    _ = W10 m ρ c (Proc.devRef .tc main_arg6) := KCarry.keeps_hostOps4 _ main_arg6 (by decide)
    _ = W9 m ρ c (Proc.devRef .tc main_arg6) := W10_of_ne m ρ c main_arg6 (by decide)
    _ = W8 m ρ c (Proc.devRef .tc main_arg6) := KCarry.keeps_hostOps3 _ main_arg6 (by decide)
theorem W16_W8_arg7 (c : Dev nD) : W16 m ρ c (Proc.devRef .tc main_arg7) = W8 m ρ c (Proc.devRef .tc main_arg7) :=
  calc W16 m ρ c (Proc.devRef .tc main_arg7)
    _ = W15 m ρ c (Proc.devRef .tc main_arg7) := W16_of_ne m ρ c main_arg7 (by decide)
    _ = W14 m ρ c (Proc.devRef .tc main_arg7) := KCarry.keeps_hostOps5_2 _ main_arg7 (by decide)
    _ = W13 m ρ c (Proc.devRef .tc main_arg7) := KCarry.keeps_hostOps5_1 _ main_arg7 (by decide)
    _ = W12 m ρ c (Proc.devRef .tc main_arg7) := KCarry.keeps_hostOps5 _ main_arg7 (by decide)
    _ = W11 m ρ c (Proc.devRef .tc main_arg7) := W12_of_ne m ρ c main_arg7 (by decide)
    _ = W10 m ρ c (Proc.devRef .tc main_arg7) := KCarry.keeps_hostOps4 _ main_arg7 (by decide)
    _ = W9 m ρ c (Proc.devRef .tc main_arg7) := W10_of_ne m ρ c main_arg7 (by decide)
    _ = W8 m ρ c (Proc.devRef .tc main_arg7) := KCarry.keeps_hostOps3 _ main_arg7 (by decide)
theorem W16_W8_arg8 (c : Dev nD) : W16 m ρ c (Proc.devRef .tc main_arg8) = W8 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := KCarry.keeps_hostOps5_2 _ main_arg8 (by decide)
    _ = W13 m ρ c (Proc.devRef .tc main_arg8) := KCarry.keeps_hostOps5_1 _ main_arg8 (by decide)
    _ = W12 m ρ c (Proc.devRef .tc main_arg8) := KCarry.keeps_hostOps5 _ main_arg8 (by decide)
    _ = W11 m ρ c (Proc.devRef .tc main_arg8) := W12_of_ne m ρ c main_arg8 (by decide)
    _ = W10 m ρ c (Proc.devRef .tc main_arg8) := KCarry.keeps_hostOps4 _ main_arg8 (by decide)
    _ = W9 m ρ c (Proc.devRef .tc main_arg8) := W10_of_ne m ρ c main_arg8 (by decide)
    _ = W8 m ρ c (Proc.devRef .tc main_arg8) := KCarry.keeps_hostOps3 _ main_arg8 (by decide)
theorem W16_W8_arg9 (c : Dev nD) : W16 m ρ c (Proc.devRef .tc main_arg9) = W8 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := KCarry.keeps_hostOps5_2 _ main_arg9 (by decide)
    _ = W13 m ρ c (Proc.devRef .tc main_arg9) := KCarry.keeps_hostOps5_1 _ main_arg9 (by decide)
    _ = W12 m ρ c (Proc.devRef .tc main_arg9) := KCarry.keeps_hostOps5 _ main_arg9 (by decide)
    _ = W11 m ρ c (Proc.devRef .tc main_arg9) := W12_of_ne m ρ c main_arg9 (by decide)
    _ = W10 m ρ c (Proc.devRef .tc main_arg9) := KCarry.keeps_hostOps4 _ main_arg9 (by decide)
    _ = W9 m ρ c (Proc.devRef .tc main_arg9) := W10_of_ne m ρ c main_arg9 (by decide)
    _ = W8 m ρ c (Proc.devRef .tc main_arg9) := KCarry.keeps_hostOps3 _ main_arg9 (by decide)
theorem W16_W8_arg10 (c : Dev nD) : W16 m ρ c (Proc.devRef .tc main_arg10) = W8 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := KCarry.keeps_hostOps5_2 _ main_arg10 (by decide)
    _ = W13 m ρ c (Proc.devRef .tc main_arg10) := KCarry.keeps_hostOps5_1 _ main_arg10 (by decide)
    _ = W12 m ρ c (Proc.devRef .tc main_arg10) := KCarry.keeps_hostOps5 _ main_arg10 (by decide)
    _ = W11 m ρ c (Proc.devRef .tc main_arg10) := W12_of_ne m ρ c main_arg10 (by decide)
    _ = W10 m ρ c (Proc.devRef .tc main_arg10) := KCarry.keeps_hostOps4 _ main_arg10 (by decide)
    _ = W9 m ρ c (Proc.devRef .tc main_arg10) := W10_of_ne m ρ c main_arg10 (by decide)
    _ = W8 m ρ c (Proc.devRef .tc main_arg10) := KCarry.keeps_hostOps3 _ main_arg10 (by decide)
theorem W16_W8_arg11 (c : Dev nD) : W16 m ρ c (Proc.devRef .tc main_arg11) = W8 m ρ c (Proc.devRef .tc main_arg11) :=
  calc W16 m ρ c (Proc.devRef .tc main_arg11)
    _ = W15 m ρ c (Proc.devRef .tc main_arg11) := W16_of_ne m ρ c main_arg11 (by decide)
    _ = W14 m ρ c (Proc.devRef .tc main_arg11) := KCarry.keeps_hostOps5_2 _ main_arg11 (by decide)
    _ = W13 m ρ c (Proc.devRef .tc main_arg11) := KCarry.keeps_hostOps5_1 _ main_arg11 (by decide)
    _ = W12 m ρ c (Proc.devRef .tc main_arg11) := KCarry.keeps_hostOps5 _ main_arg11 (by decide)
    _ = W11 m ρ c (Proc.devRef .tc main_arg11) := W12_of_ne m ρ c main_arg11 (by decide)
    _ = W10 m ρ c (Proc.devRef .tc main_arg11) := KCarry.keeps_hostOps4 _ main_arg11 (by decide)
    _ = W9 m ρ c (Proc.devRef .tc main_arg11) := W10_of_ne m ρ c main_arg11 (by decide)
    _ = W8 m ρ c (Proc.devRef .tc main_arg11) := KCarry.keeps_hostOps3 _ main_arg11 (by decide)
theorem W16_W8_arg12 (c : Dev nD) : W16 m ρ c (Proc.devRef .tc main_arg12) = W8 m ρ c (Proc.devRef .tc main_arg12) :=
  calc W16 m ρ c (Proc.devRef .tc main_arg12)
    _ = W15 m ρ c (Proc.devRef .tc main_arg12) := W16_of_ne m ρ c main_arg12 (by decide)
    _ = W14 m ρ c (Proc.devRef .tc main_arg12) := KCarry.keeps_hostOps5_2 _ main_arg12 (by decide)
    _ = W13 m ρ c (Proc.devRef .tc main_arg12) := KCarry.keeps_hostOps5_1 _ main_arg12 (by decide)
    _ = W12 m ρ c (Proc.devRef .tc main_arg12) := KCarry.keeps_hostOps5 _ main_arg12 (by decide)
    _ = W11 m ρ c (Proc.devRef .tc main_arg12) := W12_of_ne m ρ c main_arg12 (by decide)
    _ = W10 m ρ c (Proc.devRef .tc main_arg12) := KCarry.keeps_hostOps4 _ main_arg12 (by decide)
    _ = W9 m ρ c (Proc.devRef .tc main_arg12) := W10_of_ne m ρ c main_arg12 (by decide)
    _ = W8 m ρ c (Proc.devRef .tc main_arg12) := KCarry.keeps_hostOps3 _ main_arg12 (by decide)
theorem W16_W8_arg13 (c : Dev nD) : W16 m ρ c (Proc.devRef .tc main_arg13) = W8 m ρ c (Proc.devRef .tc main_arg13) :=
  calc W16 m ρ c (Proc.devRef .tc main_arg13)
    _ = W15 m ρ c (Proc.devRef .tc main_arg13) := W16_of_ne m ρ c main_arg13 (by decide)
    _ = W14 m ρ c (Proc.devRef .tc main_arg13) := KCarry.keeps_hostOps5_2 _ main_arg13 (by decide)
    _ = W13 m ρ c (Proc.devRef .tc main_arg13) := KCarry.keeps_hostOps5_1 _ main_arg13 (by decide)
    _ = W12 m ρ c (Proc.devRef .tc main_arg13) := KCarry.keeps_hostOps5 _ main_arg13 (by decide)
    _ = W11 m ρ c (Proc.devRef .tc main_arg13) := W12_of_ne m ρ c main_arg13 (by decide)
    _ = W10 m ρ c (Proc.devRef .tc main_arg13) := KCarry.keeps_hostOps4 _ main_arg13 (by decide)
    _ = W9 m ρ c (Proc.devRef .tc main_arg13) := W10_of_ne m ρ c main_arg13 (by decide)
    _ = W8 m ρ c (Proc.devRef .tc main_arg13) := KCarry.keeps_hostOps3 _ main_arg13 (by decide)
theorem W16_W8_arg14 (c : Dev nD) : W16 m ρ c (Proc.devRef .tc main_arg14) = W8 m ρ c (Proc.devRef .tc main_arg14) :=
  calc W16 m ρ c (Proc.devRef .tc main_arg14)
    _ = W15 m ρ c (Proc.devRef .tc main_arg14) := W16_of_ne m ρ c main_arg14 (by decide)
    _ = W14 m ρ c (Proc.devRef .tc main_arg14) := KCarry.keeps_hostOps5_2 _ main_arg14 (by decide)
    _ = W13 m ρ c (Proc.devRef .tc main_arg14) := KCarry.keeps_hostOps5_1 _ main_arg14 (by decide)
    _ = W12 m ρ c (Proc.devRef .tc main_arg14) := KCarry.keeps_hostOps5 _ main_arg14 (by decide)
    _ = W11 m ρ c (Proc.devRef .tc main_arg14) := W12_of_ne m ρ c main_arg14 (by decide)
    _ = W10 m ρ c (Proc.devRef .tc main_arg14) := KCarry.keeps_hostOps4 _ main_arg14 (by decide)
    _ = W9 m ρ c (Proc.devRef .tc main_arg14) := W10_of_ne m ρ c main_arg14 (by decide)
    _ = W8 m ρ c (Proc.devRef .tc main_arg14) := KCarry.keeps_hostOps3 _ main_arg14 (by decide)
theorem W16_W8_arg15 (c : Dev nD) : W16 m ρ c (Proc.devRef .tc main_arg15) = W8 m ρ c (Proc.devRef .tc main_arg15) :=
  calc W16 m ρ c (Proc.devRef .tc main_arg15)
    _ = W15 m ρ c (Proc.devRef .tc main_arg15) := W16_of_ne m ρ c main_arg15 (by decide)
    _ = W14 m ρ c (Proc.devRef .tc main_arg15) := KCarry.keeps_hostOps5_2 _ main_arg15 (by decide)
    _ = W13 m ρ c (Proc.devRef .tc main_arg15) := KCarry.keeps_hostOps5_1 _ main_arg15 (by decide)
    _ = W12 m ρ c (Proc.devRef .tc main_arg15) := KCarry.keeps_hostOps5 _ main_arg15 (by decide)
    _ = W11 m ρ c (Proc.devRef .tc main_arg15) := W12_of_ne m ρ c main_arg15 (by decide)
    _ = W10 m ρ c (Proc.devRef .tc main_arg15) := KCarry.keeps_hostOps4 _ main_arg15 (by decide)
    _ = W9 m ρ c (Proc.devRef .tc main_arg15) := W10_of_ne m ρ c main_arg15 (by decide)
    _ = W8 m ρ c (Proc.devRef .tc main_arg15) := KCarry.keeps_hostOps3 _ main_arg15 (by decide)
theorem W16_W8_arg16 (c : Dev nD) : W16 m ρ c (Proc.devRef .tc main_arg16) = W8 m ρ c (Proc.devRef .tc main_arg16) :=
  calc W16 m ρ c (Proc.devRef .tc main_arg16)
    _ = W15 m ρ c (Proc.devRef .tc main_arg16) := W16_of_ne m ρ c main_arg16 (by decide)
    _ = W14 m ρ c (Proc.devRef .tc main_arg16) := KCarry.keeps_hostOps5_2 _ main_arg16 (by decide)
    _ = W13 m ρ c (Proc.devRef .tc main_arg16) := KCarry.keeps_hostOps5_1 _ main_arg16 (by decide)
    _ = W12 m ρ c (Proc.devRef .tc main_arg16) := KCarry.keeps_hostOps5 _ main_arg16 (by decide)
    _ = W11 m ρ c (Proc.devRef .tc main_arg16) := W12_of_ne m ρ c main_arg16 (by decide)
    _ = W10 m ρ c (Proc.devRef .tc main_arg16) := KCarry.keeps_hostOps4 _ main_arg16 (by decide)
    _ = W9 m ρ c (Proc.devRef .tc main_arg16) := W10_of_ne m ρ c main_arg16 (by decide)
    _ = W8 m ρ c (Proc.devRef .tc main_arg16) := KCarry.keeps_hostOps3 _ main_arg16 (by decide)
theorem W16_W8_arg17 (c : Dev nD) : W16 m ρ c (Proc.devRef .tc main_arg17) = W8 m ρ c (Proc.devRef .tc main_arg17) :=
  calc W16 m ρ c (Proc.devRef .tc main_arg17)
    _ = W15 m ρ c (Proc.devRef .tc main_arg17) := W16_of_ne m ρ c main_arg17 (by decide)
    _ = W14 m ρ c (Proc.devRef .tc main_arg17) := KCarry.keeps_hostOps5_2 _ main_arg17 (by decide)
    _ = W13 m ρ c (Proc.devRef .tc main_arg17) := KCarry.keeps_hostOps5_1 _ main_arg17 (by decide)
    _ = W12 m ρ c (Proc.devRef .tc main_arg17) := KCarry.keeps_hostOps5 _ main_arg17 (by decide)
    _ = W11 m ρ c (Proc.devRef .tc main_arg17) := W12_of_ne m ρ c main_arg17 (by decide)
    _ = W10 m ρ c (Proc.devRef .tc main_arg17) := KCarry.keeps_hostOps4 _ main_arg17 (by decide)
    _ = W9 m ρ c (Proc.devRef .tc main_arg17) := W10_of_ne m ρ c main_arg17 (by decide)
    _ = W8 m ρ c (Proc.devRef .tc main_arg17) := KCarry.keeps_hostOps3 _ main_arg17 (by decide)
theorem W16_W8_arg18 (c : Dev nD) : W16 m ρ c (Proc.devRef .tc main_arg18) = W8 m ρ c (Proc.devRef .tc main_arg18) :=
  calc W16 m ρ c (Proc.devRef .tc main_arg18)
    _ = W15 m ρ c (Proc.devRef .tc main_arg18) := W16_of_ne m ρ c main_arg18 (by decide)
    _ = W14 m ρ c (Proc.devRef .tc main_arg18) := KCarry.keeps_hostOps5_2 _ main_arg18 (by decide)
    _ = W13 m ρ c (Proc.devRef .tc main_arg18) := KCarry.keeps_hostOps5_1 _ main_arg18 (by decide)
    _ = W12 m ρ c (Proc.devRef .tc main_arg18) := KCarry.keeps_hostOps5 _ main_arg18 (by decide)
    _ = W11 m ρ c (Proc.devRef .tc main_arg18) := W12_of_ne m ρ c main_arg18 (by decide)
    _ = W10 m ρ c (Proc.devRef .tc main_arg18) := KCarry.keeps_hostOps4 _ main_arg18 (by decide)
    _ = W9 m ρ c (Proc.devRef .tc main_arg18) := W10_of_ne m ρ c main_arg18 (by decide)
    _ = W8 m ρ c (Proc.devRef .tc main_arg18) := KCarry.keeps_hostOps3 _ main_arg18 (by decide)
theorem W16_W8_arg19 (c : Dev nD) : W16 m ρ c (Proc.devRef .tc main_arg19) = W8 m ρ c (Proc.devRef .tc main_arg19) :=
  calc W16 m ρ c (Proc.devRef .tc main_arg19)
    _ = W15 m ρ c (Proc.devRef .tc main_arg19) := W16_of_ne m ρ c main_arg19 (by decide)
    _ = W14 m ρ c (Proc.devRef .tc main_arg19) := KCarry.keeps_hostOps5_2 _ main_arg19 (by decide)
    _ = W13 m ρ c (Proc.devRef .tc main_arg19) := KCarry.keeps_hostOps5_1 _ main_arg19 (by decide)
    _ = W12 m ρ c (Proc.devRef .tc main_arg19) := KCarry.keeps_hostOps5 _ main_arg19 (by decide)
    _ = W11 m ρ c (Proc.devRef .tc main_arg19) := W12_of_ne m ρ c main_arg19 (by decide)
    _ = W10 m ρ c (Proc.devRef .tc main_arg19) := KCarry.keeps_hostOps4 _ main_arg19 (by decide)
    _ = W9 m ρ c (Proc.devRef .tc main_arg19) := W10_of_ne m ρ c main_arg19 (by decide)
    _ = W8 m ρ c (Proc.devRef .tc main_arg19) := KCarry.keeps_hostOps3 _ main_arg19 (by decide)
theorem W16_W8_arg20 (c : Dev nD) : W16 m ρ c (Proc.devRef .tc main_arg20) = W8 m ρ c (Proc.devRef .tc main_arg20) :=
  calc W16 m ρ c (Proc.devRef .tc main_arg20)
    _ = W15 m ρ c (Proc.devRef .tc main_arg20) := W16_of_ne m ρ c main_arg20 (by decide)
    _ = W14 m ρ c (Proc.devRef .tc main_arg20) := KCarry.keeps_hostOps5_2 _ main_arg20 (by decide)
    _ = W13 m ρ c (Proc.devRef .tc main_arg20) := KCarry.keeps_hostOps5_1 _ main_arg20 (by decide)
    _ = W12 m ρ c (Proc.devRef .tc main_arg20) := KCarry.keeps_hostOps5 _ main_arg20 (by decide)
    _ = W11 m ρ c (Proc.devRef .tc main_arg20) := W12_of_ne m ρ c main_arg20 (by decide)
    _ = W10 m ρ c (Proc.devRef .tc main_arg20) := KCarry.keeps_hostOps4 _ main_arg20 (by decide)
    _ = W9 m ρ c (Proc.devRef .tc main_arg20) := W10_of_ne m ρ c main_arg20 (by decide)
    _ = W8 m ρ c (Proc.devRef .tc main_arg20) := KCarry.keeps_hostOps3 _ main_arg20 (by decide)
theorem W16_W8_arg21 (c : Dev nD) : W16 m ρ c (Proc.devRef .tc main_arg21) = W8 m ρ c (Proc.devRef .tc main_arg21) :=
  calc W16 m ρ c (Proc.devRef .tc main_arg21)
    _ = W15 m ρ c (Proc.devRef .tc main_arg21) := W16_of_ne m ρ c main_arg21 (by decide)
    _ = W14 m ρ c (Proc.devRef .tc main_arg21) := KCarry.keeps_hostOps5_2 _ main_arg21 (by decide)
    _ = W13 m ρ c (Proc.devRef .tc main_arg21) := KCarry.keeps_hostOps5_1 _ main_arg21 (by decide)
    _ = W12 m ρ c (Proc.devRef .tc main_arg21) := KCarry.keeps_hostOps5 _ main_arg21 (by decide)
    _ = W11 m ρ c (Proc.devRef .tc main_arg21) := W12_of_ne m ρ c main_arg21 (by decide)
    _ = W10 m ρ c (Proc.devRef .tc main_arg21) := KCarry.keeps_hostOps4 _ main_arg21 (by decide)
    _ = W9 m ρ c (Proc.devRef .tc main_arg21) := W10_of_ne m ρ c main_arg21 (by decide)
    _ = W8 m ρ c (Proc.devRef .tc main_arg21) := KCarry.keeps_hostOps3 _ main_arg21 (by decide)
theorem W16_W8_arg22 (c : Dev nD) : W16 m ρ c (Proc.devRef .tc main_arg22) = W8 m ρ c (Proc.devRef .tc main_arg22) :=
  calc W16 m ρ c (Proc.devRef .tc main_arg22)
    _ = W15 m ρ c (Proc.devRef .tc main_arg22) := W16_of_ne m ρ c main_arg22 (by decide)
    _ = W14 m ρ c (Proc.devRef .tc main_arg22) := KCarry.keeps_hostOps5_2 _ main_arg22 (by decide)
    _ = W13 m ρ c (Proc.devRef .tc main_arg22) := KCarry.keeps_hostOps5_1 _ main_arg22 (by decide)
    _ = W12 m ρ c (Proc.devRef .tc main_arg22) := KCarry.keeps_hostOps5 _ main_arg22 (by decide)
    _ = W11 m ρ c (Proc.devRef .tc main_arg22) := W12_of_ne m ρ c main_arg22 (by decide)
    _ = W10 m ρ c (Proc.devRef .tc main_arg22) := KCarry.keeps_hostOps4 _ main_arg22 (by decide)
    _ = W9 m ρ c (Proc.devRef .tc main_arg22) := W10_of_ne m ρ c main_arg22 (by decide)
    _ = W8 m ρ c (Proc.devRef .tc main_arg22) := KCarry.keeps_hostOps3 _ main_arg22 (by decide)
theorem W16_W8_arg23 (c : Dev nD) : W16 m ρ c (Proc.devRef .tc main_arg23) = W8 m ρ c (Proc.devRef .tc main_arg23) :=
  calc W16 m ρ c (Proc.devRef .tc main_arg23)
    _ = W15 m ρ c (Proc.devRef .tc main_arg23) := W16_of_ne m ρ c main_arg23 (by decide)
    _ = W14 m ρ c (Proc.devRef .tc main_arg23) := KCarry.keeps_hostOps5_2 _ main_arg23 (by decide)
    _ = W13 m ρ c (Proc.devRef .tc main_arg23) := KCarry.keeps_hostOps5_1 _ main_arg23 (by decide)
    _ = W12 m ρ c (Proc.devRef .tc main_arg23) := KCarry.keeps_hostOps5 _ main_arg23 (by decide)
    _ = W11 m ρ c (Proc.devRef .tc main_arg23) := W12_of_ne m ρ c main_arg23 (by decide)
    _ = W10 m ρ c (Proc.devRef .tc main_arg23) := KCarry.keeps_hostOps4 _ main_arg23 (by decide)
    _ = W9 m ρ c (Proc.devRef .tc main_arg23) := W10_of_ne m ρ c main_arg23 (by decide)
    _ = W8 m ρ c (Proc.devRef .tc main_arg23) := KCarry.keeps_hostOps3 _ main_arg23 (by decide)
theorem W16_W8_arg24 (c : Dev nD) : W16 m ρ c (Proc.devRef .tc main_arg24) = W8 m ρ c (Proc.devRef .tc main_arg24) :=
  calc W16 m ρ c (Proc.devRef .tc main_arg24)
    _ = W15 m ρ c (Proc.devRef .tc main_arg24) := W16_of_ne m ρ c main_arg24 (by decide)
    _ = W14 m ρ c (Proc.devRef .tc main_arg24) := KCarry.keeps_hostOps5_2 _ main_arg24 (by decide)
    _ = W13 m ρ c (Proc.devRef .tc main_arg24) := KCarry.keeps_hostOps5_1 _ main_arg24 (by decide)
    _ = W12 m ρ c (Proc.devRef .tc main_arg24) := KCarry.keeps_hostOps5 _ main_arg24 (by decide)
    _ = W11 m ρ c (Proc.devRef .tc main_arg24) := W12_of_ne m ρ c main_arg24 (by decide)
    _ = W10 m ρ c (Proc.devRef .tc main_arg24) := KCarry.keeps_hostOps4 _ main_arg24 (by decide)
    _ = W9 m ρ c (Proc.devRef .tc main_arg24) := W10_of_ne m ρ c main_arg24 (by decide)
    _ = W8 m ρ c (Proc.devRef .tc main_arg24) := KCarry.keeps_hostOps3 _ main_arg24 (by decide)
theorem W16_W8_arg25 (c : Dev nD) : W16 m ρ c (Proc.devRef .tc main_arg25) = W8 m ρ c (Proc.devRef .tc main_arg25) :=
  calc W16 m ρ c (Proc.devRef .tc main_arg25)
    _ = W15 m ρ c (Proc.devRef .tc main_arg25) := W16_of_ne m ρ c main_arg25 (by decide)
    _ = W14 m ρ c (Proc.devRef .tc main_arg25) := KCarry.keeps_hostOps5_2 _ main_arg25 (by decide)
    _ = W13 m ρ c (Proc.devRef .tc main_arg25) := KCarry.keeps_hostOps5_1 _ main_arg25 (by decide)
    _ = W12 m ρ c (Proc.devRef .tc main_arg25) := KCarry.keeps_hostOps5 _ main_arg25 (by decide)
    _ = W11 m ρ c (Proc.devRef .tc main_arg25) := W12_of_ne m ρ c main_arg25 (by decide)
    _ = W10 m ρ c (Proc.devRef .tc main_arg25) := KCarry.keeps_hostOps4 _ main_arg25 (by decide)
    _ = W9 m ρ c (Proc.devRef .tc main_arg25) := W10_of_ne m ρ c main_arg25 (by decide)
    _ = W8 m ρ c (Proc.devRef .tc main_arg25) := KCarry.keeps_hostOps3 _ main_arg25 (by decide)
theorem W16_W8_arg26 (c : Dev nD) : W16 m ρ c (Proc.devRef .tc main_arg26) = W8 m ρ c (Proc.devRef .tc main_arg26) :=
  calc W16 m ρ c (Proc.devRef .tc main_arg26)
    _ = W15 m ρ c (Proc.devRef .tc main_arg26) := W16_of_ne m ρ c main_arg26 (by decide)
    _ = W14 m ρ c (Proc.devRef .tc main_arg26) := KCarry.keeps_hostOps5_2 _ main_arg26 (by decide)
    _ = W13 m ρ c (Proc.devRef .tc main_arg26) := KCarry.keeps_hostOps5_1 _ main_arg26 (by decide)
    _ = W12 m ρ c (Proc.devRef .tc main_arg26) := KCarry.keeps_hostOps5 _ main_arg26 (by decide)
    _ = W11 m ρ c (Proc.devRef .tc main_arg26) := W12_of_ne m ρ c main_arg26 (by decide)
    _ = W10 m ρ c (Proc.devRef .tc main_arg26) := KCarry.keeps_hostOps4 _ main_arg26 (by decide)
    _ = W9 m ρ c (Proc.devRef .tc main_arg26) := W10_of_ne m ρ c main_arg26 (by decide)
    _ = W8 m ρ c (Proc.devRef .tc main_arg26) := KCarry.keeps_hostOps3 _ main_arg26 (by decide)
theorem W16_W8_src (c : Dev nD) : W16 m ρ c (Proc.devRef .tc main_v1) = W8 m ρ c (Proc.devRef .tc main_v1) :=
  calc W16 m ρ c (Proc.devRef .tc main_v1)
    _ = W15 m ρ c (Proc.devRef .tc main_v1) := W16_of_ne m ρ c main_v1 (by decide)
    _ = W14 m ρ c (Proc.devRef .tc main_v1) := KCarry.keeps_hostOps5_2 _ main_v1 (by decide)
    _ = W13 m ρ c (Proc.devRef .tc main_v1) := KCarry.keeps_hostOps5_1 _ main_v1 (by decide)
    _ = W12 m ρ c (Proc.devRef .tc main_v1) := KCarry.keeps_hostOps5 _ main_v1 (by decide)
    _ = W11 m ρ c (Proc.devRef .tc main_v1) := W12_of_ne m ρ c main_v1 (by decide)
    _ = W10 m ρ c (Proc.devRef .tc main_v1) := KCarry.keeps_hostOps4 _ main_v1 (by decide)
    _ = W9 m ρ c (Proc.devRef .tc main_v1) := W10_of_ne m ρ c main_v1 (by decide)
    _ = W8 m ρ c (Proc.devRef .tc main_v1) := KCarry.keeps_hostOps3 _ main_v1 (by decide)
theorem W16_W8_dst (c : Dev nD) : W16 m ρ c (Proc.devRef .tc main_v3) = W8 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := KCarry.keeps_hostOps5_2 _ main_v3 (by decide)
    _ = W13 m ρ c (Proc.devRef .tc main_v3) := KCarry.keeps_hostOps5_1 _ main_v3 (by decide)
    _ = W12 m ρ c (Proc.devRef .tc main_v3) := KCarry.keeps_hostOps5 _ main_v3 (by decide)
    _ = W11 m ρ c (Proc.devRef .tc main_v3) := W12_of_ne m ρ c main_v3 (by decide)
    _ = W10 m ρ c (Proc.devRef .tc main_v3) := KCarry.keeps_hostOps4 _ main_v3 (by decide)
    _ = W9 m ρ c (Proc.devRef .tc main_v3) := W10_of_ne m ρ c main_v3 (by decide)
    _ = W8 m ρ c (Proc.devRef .tc main_v3) := KCarry.keeps_hostOps3 _ main_v3 (by decide)

end Cert.KernelValue

end
-- ==== Proof.KCarry24.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the eight segments of the third layer, each buffer at boundary 24 equal to itself at boundary 16.
-/
import proofs.«425927_j69028714381396_2_alg».proof.Proof.FrameKIW
import Idealize.ShloMosaic.Lib.StableHlo.Run

-- deciding that two of the program's several hundred references differ recurses once per reference
set_option maxRecDepth 16384

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The argument arrays. -/
abbrev KCarry.argRefs24 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
/-- The carried buffers: the argument arrays and the two edge-endpoint vectors. -/
abbrev KCarry.carried24 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3]

/-! ## The host stretches of the layer -/

/-- No operation of this stretch has one of the carried buffers as its result. -/
theorem KCarry.keeps_hostOps6 (V0 : Valuation τ sig (Elt F)) (r : Ref sig .tc) (hr : r ∈ KCarry.carried24) :
    StableHlo.after hostOps6 V0 (Proc.devRef .tc r) = V0 (Proc.devRef .tc r) :=
  StableHlo.after_of_forall_not_mem (b := Proc.devRef .tc r) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps7 (V0 : Valuation τ sig (Elt F)) (r : Ref sig .tc) (hr : r ∈ KCarry.carried24) :
    StableHlo.after hostOps7 V0 (Proc.devRef .tc r) = V0 (Proc.devRef .tc r) :=
  StableHlo.after_of_forall_not_mem (b := Proc.devRef .tc r) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps8 (V0 : Valuation τ sig (Elt F)) (r : Ref sig .tc) (hr : r ∈ KCarry.carried24) :
    StableHlo.after hostOps8 V0 (Proc.devRef .tc r) = V0 (Proc.devRef .tc r) :=
  StableHlo.after_of_forall_not_mem (b := Proc.devRef .tc r) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps8_1 (V0 : Valuation τ sig (Elt F)) (r : Ref sig .tc) (hr : r ∈ KCarry.carried24) :
    StableHlo.after hostOps8_1 V0 (Proc.devRef .tc r) = V0 (Proc.devRef .tc r) :=
  StableHlo.after_of_forall_not_mem (b := Proc.devRef .tc r) _ _ (List.forall_iff_forall_mem.mp (by
    simp only [hostOps8_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps8_2 (V0 : Valuation τ sig (Elt F)) (r : Ref sig .tc) (hr : r ∈ KCarry.carried24) :
    StableHlo.after hostOps8_2 V0 (Proc.devRef .tc r) = V0 (Proc.devRef .tc r) :=
  StableHlo.after_of_forall_not_mem (b := Proc.devRef .tc r) _ _ (List.forall_iff_forall_mem.mp (by
    simp only [hostOps8_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-! ## The walks -/

theorem W24_W16_arg0 (c : Dev nD) : W24 m ρ c (Proc.devRef .tc main_arg0) = W16 m ρ c (Proc.devRef .tc main_arg0) :=
  calc W24 m ρ c (Proc.devRef .tc main_arg0)
    _ = W23 m ρ c (Proc.devRef .tc main_arg0) := W24_of_ne m ρ c main_arg0 (by decide)
    _ = W22 m ρ c (Proc.devRef .tc main_arg0) := KCarry.keeps_hostOps8_2 _ main_arg0 (by decide)
    _ = W21 m ρ c (Proc.devRef .tc main_arg0) := KCarry.keeps_hostOps8_1 _ main_arg0 (by decide)
    _ = W20 m ρ c (Proc.devRef .tc main_arg0) := KCarry.keeps_hostOps8 _ main_arg0 (by decide)
    _ = W19 m ρ c (Proc.devRef .tc main_arg0) := W20_of_ne m ρ c main_arg0 (by decide)
    _ = W18 m ρ c (Proc.devRef .tc main_arg0) := KCarry.keeps_hostOps7 _ main_arg0 (by decide)
    _ = W17 m ρ c (Proc.devRef .tc main_arg0) := (W18_arr m ρ c 0).trans (((dat6 (V17 m ρ) c).arrAt_in 0 rfl _).trans (A_eq6 (V17 m ρ) c 0))
    _ = W16 m ρ c (Proc.devRef .tc main_arg0) := KCarry.keeps_hostOps6 _ main_arg0 (by decide)
theorem W24_W16_arg1 (c : Dev nD) : W24 m ρ c (Proc.devRef .tc main_arg1) = W16 m ρ c (Proc.devRef .tc main_arg1) :=
  calc W24 m ρ c (Proc.devRef .tc main_arg1)
    _ = W23 m ρ c (Proc.devRef .tc main_arg1) := W24_of_ne m ρ c main_arg1 (by decide)
    _ = W22 m ρ c (Proc.devRef .tc main_arg1) := KCarry.keeps_hostOps8_2 _ main_arg1 (by decide)
    _ = W21 m ρ c (Proc.devRef .tc main_arg1) := KCarry.keeps_hostOps8_1 _ main_arg1 (by decide)
    _ = W20 m ρ c (Proc.devRef .tc main_arg1) := KCarry.keeps_hostOps8 _ main_arg1 (by decide)
    _ = W19 m ρ c (Proc.devRef .tc main_arg1) := W20_of_ne m ρ c main_arg1 (by decide)
    _ = W18 m ρ c (Proc.devRef .tc main_arg1) := KCarry.keeps_hostOps7 _ main_arg1 (by decide)
    _ = W17 m ρ c (Proc.devRef .tc main_arg1) := W18_of_ne m ρ c main_arg1 (by decide)
    _ = W16 m ρ c (Proc.devRef .tc main_arg1) := KCarry.keeps_hostOps6 _ main_arg1 (by decide)
theorem W24_W16_arg2 (c : Dev nD) : W24 m ρ c (Proc.devRef .tc main_arg2) = W16 m ρ c (Proc.devRef .tc main_arg2) :=
  calc W24 m ρ c (Proc.devRef .tc main_arg2)
    _ = W23 m ρ c (Proc.devRef .tc main_arg2) := W24_of_ne m ρ c main_arg2 (by decide)
    _ = W22 m ρ c (Proc.devRef .tc main_arg2) := KCarry.keeps_hostOps8_2 _ main_arg2 (by decide)
    _ = W21 m ρ c (Proc.devRef .tc main_arg2) := KCarry.keeps_hostOps8_1 _ main_arg2 (by decide)
    _ = W20 m ρ c (Proc.devRef .tc main_arg2) := KCarry.keeps_hostOps8 _ main_arg2 (by decide)
    _ = W19 m ρ c (Proc.devRef .tc main_arg2) := W20_of_ne m ρ c main_arg2 (by decide)
    _ = W18 m ρ c (Proc.devRef .tc main_arg2) := KCarry.keeps_hostOps7 _ main_arg2 (by decide)
    _ = W17 m ρ c (Proc.devRef .tc main_arg2) := W18_of_ne m ρ c main_arg2 (by decide)
    _ = W16 m ρ c (Proc.devRef .tc main_arg2) := KCarry.keeps_hostOps6 _ main_arg2 (by decide)
theorem W24_W16_arg3 (c : Dev nD) : W24 m ρ c (Proc.devRef .tc main_arg3) = W16 m ρ c (Proc.devRef .tc main_arg3) :=
  calc W24 m ρ c (Proc.devRef .tc main_arg3)
    _ = W23 m ρ c (Proc.devRef .tc main_arg3) := W24_of_ne m ρ c main_arg3 (by decide)
    _ = W22 m ρ c (Proc.devRef .tc main_arg3) := KCarry.keeps_hostOps8_2 _ main_arg3 (by decide)
    _ = W21 m ρ c (Proc.devRef .tc main_arg3) := KCarry.keeps_hostOps8_1 _ main_arg3 (by decide)
    _ = W20 m ρ c (Proc.devRef .tc main_arg3) := KCarry.keeps_hostOps8 _ main_arg3 (by decide)
    _ = W19 m ρ c (Proc.devRef .tc main_arg3) := W20_of_ne m ρ c main_arg3 (by decide)
    _ = W18 m ρ c (Proc.devRef .tc main_arg3) := KCarry.keeps_hostOps7 _ main_arg3 (by decide)
    _ = W17 m ρ c (Proc.devRef .tc main_arg3) := W18_of_ne m ρ c main_arg3 (by decide)
    _ = W16 m ρ c (Proc.devRef .tc main_arg3) := KCarry.keeps_hostOps6 _ main_arg3 (by decide)
theorem W24_W16_arg4 (c : Dev nD) : W24 m ρ c (Proc.devRef .tc main_arg4) = W16 m ρ c (Proc.devRef .tc main_arg4) :=
  calc W24 m ρ c (Proc.devRef .tc main_arg4)
    _ = W23 m ρ c (Proc.devRef .tc main_arg4) := W24_of_ne m ρ c main_arg4 (by decide)
    _ = W22 m ρ c (Proc.devRef .tc main_arg4) := KCarry.keeps_hostOps8_2 _ main_arg4 (by decide)
    _ = W21 m ρ c (Proc.devRef .tc main_arg4) := KCarry.keeps_hostOps8_1 _ main_arg4 (by decide)
    _ = W20 m ρ c (Proc.devRef .tc main_arg4) := KCarry.keeps_hostOps8 _ main_arg4 (by decide)
    _ = W19 m ρ c (Proc.devRef .tc main_arg4) := W20_of_ne m ρ c main_arg4 (by decide)
    _ = W18 m ρ c (Proc.devRef .tc main_arg4) := KCarry.keeps_hostOps7 _ main_arg4 (by decide)
    _ = W17 m ρ c (Proc.devRef .tc main_arg4) := W18_of_ne m ρ c main_arg4 (by decide)
    _ = W16 m ρ c (Proc.devRef .tc main_arg4) := KCarry.keeps_hostOps6 _ main_arg4 (by decide)
theorem W24_W16_arg5 (c : Dev nD) : W24 m ρ c (Proc.devRef .tc main_arg5) = W16 m ρ c (Proc.devRef .tc main_arg5) :=
  calc W24 m ρ c (Proc.devRef .tc main_arg5)
    _ = W23 m ρ c (Proc.devRef .tc main_arg5) := W24_of_ne m ρ c main_arg5 (by decide)
    _ = W22 m ρ c (Proc.devRef .tc main_arg5) := KCarry.keeps_hostOps8_2 _ main_arg5 (by decide)
    _ = W21 m ρ c (Proc.devRef .tc main_arg5) := KCarry.keeps_hostOps8_1 _ main_arg5 (by decide)
    _ = W20 m ρ c (Proc.devRef .tc main_arg5) := KCarry.keeps_hostOps8 _ main_arg5 (by decide)
    _ = W19 m ρ c (Proc.devRef .tc main_arg5) := W20_of_ne m ρ c main_arg5 (by decide)
    _ = W18 m ρ c (Proc.devRef .tc main_arg5) := KCarry.keeps_hostOps7 _ main_arg5 (by decide)
    _ = W17 m ρ c (Proc.devRef .tc main_arg5) := W18_of_ne m ρ c main_arg5 (by decide)
    _ = W16 m ρ c (Proc.devRef .tc main_arg5) := KCarry.keeps_hostOps6 _ main_arg5 (by decide)
theorem W24_W16_arg6 (c : Dev nD) : W24 m ρ c (Proc.devRef .tc main_arg6) = W16 m ρ c (Proc.devRef .tc main_arg6) :=
  calc W24 m ρ c (Proc.devRef .tc main_arg6)
    _ = W23 m ρ c (Proc.devRef .tc main_arg6) := W24_of_ne m ρ c main_arg6 (by decide)
    _ = W22 m ρ c (Proc.devRef .tc main_arg6) := KCarry.keeps_hostOps8_2 _ main_arg6 (by decide)
    _ = W21 m ρ c (Proc.devRef .tc main_arg6) := KCarry.keeps_hostOps8_1 _ main_arg6 (by decide)
    _ = W20 m ρ c (Proc.devRef .tc main_arg6) := KCarry.keeps_hostOps8 _ main_arg6 (by decide)
    _ = W19 m ρ c (Proc.devRef .tc main_arg6) := W20_of_ne m ρ c main_arg6 (by decide)
    _ = W18 m ρ c (Proc.devRef .tc main_arg6) := KCarry.keeps_hostOps7 _ main_arg6 (by decide)
    _ = W17 m ρ c (Proc.devRef .tc main_arg6) := W18_of_ne m ρ c main_arg6 (by decide)
    _ = W16 m ρ c (Proc.devRef .tc main_arg6) := KCarry.keeps_hostOps6 _ main_arg6 (by decide)
theorem W24_W16_arg7 (c : Dev nD) : W24 m ρ c (Proc.devRef .tc main_arg7) = W16 m ρ c (Proc.devRef .tc main_arg7) :=
  calc W24 m ρ c (Proc.devRef .tc main_arg7)
    _ = W23 m ρ c (Proc.devRef .tc main_arg7) := W24_of_ne m ρ c main_arg7 (by decide)
    _ = W22 m ρ c (Proc.devRef .tc main_arg7) := KCarry.keeps_hostOps8_2 _ main_arg7 (by decide)
    _ = W21 m ρ c (Proc.devRef .tc main_arg7) := KCarry.keeps_hostOps8_1 _ main_arg7 (by decide)
    _ = W20 m ρ c (Proc.devRef .tc main_arg7) := KCarry.keeps_hostOps8 _ main_arg7 (by decide)
    _ = W19 m ρ c (Proc.devRef .tc main_arg7) := W20_of_ne m ρ c main_arg7 (by decide)
    _ = W18 m ρ c (Proc.devRef .tc main_arg7) := KCarry.keeps_hostOps7 _ main_arg7 (by decide)
    _ = W17 m ρ c (Proc.devRef .tc main_arg7) := W18_of_ne m ρ c main_arg7 (by decide)
    _ = W16 m ρ c (Proc.devRef .tc main_arg7) := KCarry.keeps_hostOps6 _ main_arg7 (by decide)
theorem W24_W16_arg8 (c : Dev nD) : W24 m ρ c (Proc.devRef .tc main_arg8) = W16 m ρ c (Proc.devRef .tc main_arg8) :=
  calc W24 m ρ c (Proc.devRef .tc main_arg8)
    _ = W23 m ρ c (Proc.devRef .tc main_arg8) := W24_of_ne m ρ c main_arg8 (by decide)
    _ = W22 m ρ c (Proc.devRef .tc main_arg8) := KCarry.keeps_hostOps8_2 _ main_arg8 (by decide)
    _ = W21 m ρ c (Proc.devRef .tc main_arg8) := KCarry.keeps_hostOps8_1 _ main_arg8 (by decide)
    _ = W20 m ρ c (Proc.devRef .tc main_arg8) := KCarry.keeps_hostOps8 _ main_arg8 (by decide)
    _ = W19 m ρ c (Proc.devRef .tc main_arg8) := W20_of_ne m ρ c main_arg8 (by decide)
    _ = W18 m ρ c (Proc.devRef .tc main_arg8) := KCarry.keeps_hostOps7 _ main_arg8 (by decide)
    _ = W17 m ρ c (Proc.devRef .tc main_arg8) := W18_of_ne m ρ c main_arg8 (by decide)
    _ = W16 m ρ c (Proc.devRef .tc main_arg8) := KCarry.keeps_hostOps6 _ main_arg8 (by decide)
theorem W24_W16_arg9 (c : Dev nD) : W24 m ρ c (Proc.devRef .tc main_arg9) = W16 m ρ c (Proc.devRef .tc main_arg9) :=
  calc W24 m ρ c (Proc.devRef .tc main_arg9)
    _ = W23 m ρ c (Proc.devRef .tc main_arg9) := W24_of_ne m ρ c main_arg9 (by decide)
    _ = W22 m ρ c (Proc.devRef .tc main_arg9) := KCarry.keeps_hostOps8_2 _ main_arg9 (by decide)
    _ = W21 m ρ c (Proc.devRef .tc main_arg9) := KCarry.keeps_hostOps8_1 _ main_arg9 (by decide)
    _ = W20 m ρ c (Proc.devRef .tc main_arg9) := KCarry.keeps_hostOps8 _ main_arg9 (by decide)
    _ = W19 m ρ c (Proc.devRef .tc main_arg9) := W20_of_ne m ρ c main_arg9 (by decide)
    _ = W18 m ρ c (Proc.devRef .tc main_arg9) := KCarry.keeps_hostOps7 _ main_arg9 (by decide)
    _ = W17 m ρ c (Proc.devRef .tc main_arg9) := W18_of_ne m ρ c main_arg9 (by decide)
    _ = W16 m ρ c (Proc.devRef .tc main_arg9) := KCarry.keeps_hostOps6 _ main_arg9 (by decide)
theorem W24_W16_arg10 (c : Dev nD) : W24 m ρ c (Proc.devRef .tc main_arg10) = W16 m ρ c (Proc.devRef .tc main_arg10) :=
  calc W24 m ρ c (Proc.devRef .tc main_arg10)
    _ = W23 m ρ c (Proc.devRef .tc main_arg10) := W24_of_ne m ρ c main_arg10 (by decide)
    _ = W22 m ρ c (Proc.devRef .tc main_arg10) := KCarry.keeps_hostOps8_2 _ main_arg10 (by decide)
    _ = W21 m ρ c (Proc.devRef .tc main_arg10) := KCarry.keeps_hostOps8_1 _ main_arg10 (by decide)
    _ = W20 m ρ c (Proc.devRef .tc main_arg10) := KCarry.keeps_hostOps8 _ main_arg10 (by decide)
    _ = W19 m ρ c (Proc.devRef .tc main_arg10) := W20_of_ne m ρ c main_arg10 (by decide)
    _ = W18 m ρ c (Proc.devRef .tc main_arg10) := KCarry.keeps_hostOps7 _ main_arg10 (by decide)
    _ = W17 m ρ c (Proc.devRef .tc main_arg10) := W18_of_ne m ρ c main_arg10 (by decide)
    _ = W16 m ρ c (Proc.devRef .tc main_arg10) := KCarry.keeps_hostOps6 _ main_arg10 (by decide)
theorem W24_W16_arg11 (c : Dev nD) : W24 m ρ c (Proc.devRef .tc main_arg11) = W16 m ρ c (Proc.devRef .tc main_arg11) :=
  calc W24 m ρ c (Proc.devRef .tc main_arg11)
    _ = W23 m ρ c (Proc.devRef .tc main_arg11) := W24_of_ne m ρ c main_arg11 (by decide)
    _ = W22 m ρ c (Proc.devRef .tc main_arg11) := KCarry.keeps_hostOps8_2 _ main_arg11 (by decide)
    _ = W21 m ρ c (Proc.devRef .tc main_arg11) := KCarry.keeps_hostOps8_1 _ main_arg11 (by decide)
    _ = W20 m ρ c (Proc.devRef .tc main_arg11) := KCarry.keeps_hostOps8 _ main_arg11 (by decide)
    _ = W19 m ρ c (Proc.devRef .tc main_arg11) := W20_of_ne m ρ c main_arg11 (by decide)
    _ = W18 m ρ c (Proc.devRef .tc main_arg11) := KCarry.keeps_hostOps7 _ main_arg11 (by decide)
    _ = W17 m ρ c (Proc.devRef .tc main_arg11) := W18_of_ne m ρ c main_arg11 (by decide)
    _ = W16 m ρ c (Proc.devRef .tc main_arg11) := KCarry.keeps_hostOps6 _ main_arg11 (by decide)
theorem W24_W16_arg12 (c : Dev nD) : W24 m ρ c (Proc.devRef .tc main_arg12) = W16 m ρ c (Proc.devRef .tc main_arg12) :=
  calc W24 m ρ c (Proc.devRef .tc main_arg12)
    _ = W23 m ρ c (Proc.devRef .tc main_arg12) := W24_of_ne m ρ c main_arg12 (by decide)
    _ = W22 m ρ c (Proc.devRef .tc main_arg12) := KCarry.keeps_hostOps8_2 _ main_arg12 (by decide)
    _ = W21 m ρ c (Proc.devRef .tc main_arg12) := KCarry.keeps_hostOps8_1 _ main_arg12 (by decide)
    _ = W20 m ρ c (Proc.devRef .tc main_arg12) := KCarry.keeps_hostOps8 _ main_arg12 (by decide)
    _ = W19 m ρ c (Proc.devRef .tc main_arg12) := W20_of_ne m ρ c main_arg12 (by decide)
    _ = W18 m ρ c (Proc.devRef .tc main_arg12) := KCarry.keeps_hostOps7 _ main_arg12 (by decide)
    _ = W17 m ρ c (Proc.devRef .tc main_arg12) := W18_of_ne m ρ c main_arg12 (by decide)
    _ = W16 m ρ c (Proc.devRef .tc main_arg12) := KCarry.keeps_hostOps6 _ main_arg12 (by decide)
theorem W24_W16_arg13 (c : Dev nD) : W24 m ρ c (Proc.devRef .tc main_arg13) = W16 m ρ c (Proc.devRef .tc main_arg13) :=
  calc W24 m ρ c (Proc.devRef .tc main_arg13)
    _ = W23 m ρ c (Proc.devRef .tc main_arg13) := W24_of_ne m ρ c main_arg13 (by decide)
    _ = W22 m ρ c (Proc.devRef .tc main_arg13) := KCarry.keeps_hostOps8_2 _ main_arg13 (by decide)
    _ = W21 m ρ c (Proc.devRef .tc main_arg13) := KCarry.keeps_hostOps8_1 _ main_arg13 (by decide)
    _ = W20 m ρ c (Proc.devRef .tc main_arg13) := KCarry.keeps_hostOps8 _ main_arg13 (by decide)
    _ = W19 m ρ c (Proc.devRef .tc main_arg13) := W20_of_ne m ρ c main_arg13 (by decide)
    _ = W18 m ρ c (Proc.devRef .tc main_arg13) := KCarry.keeps_hostOps7 _ main_arg13 (by decide)
    _ = W17 m ρ c (Proc.devRef .tc main_arg13) := W18_of_ne m ρ c main_arg13 (by decide)
    _ = W16 m ρ c (Proc.devRef .tc main_arg13) := KCarry.keeps_hostOps6 _ main_arg13 (by decide)
theorem W24_W16_arg14 (c : Dev nD) : W24 m ρ c (Proc.devRef .tc main_arg14) = W16 m ρ c (Proc.devRef .tc main_arg14) :=
  calc W24 m ρ c (Proc.devRef .tc main_arg14)
    _ = W23 m ρ c (Proc.devRef .tc main_arg14) := W24_of_ne m ρ c main_arg14 (by decide)
    _ = W22 m ρ c (Proc.devRef .tc main_arg14) := KCarry.keeps_hostOps8_2 _ main_arg14 (by decide)
    _ = W21 m ρ c (Proc.devRef .tc main_arg14) := KCarry.keeps_hostOps8_1 _ main_arg14 (by decide)
    _ = W20 m ρ c (Proc.devRef .tc main_arg14) := KCarry.keeps_hostOps8 _ main_arg14 (by decide)
    _ = W19 m ρ c (Proc.devRef .tc main_arg14) := W20_of_ne m ρ c main_arg14 (by decide)
    _ = W18 m ρ c (Proc.devRef .tc main_arg14) := KCarry.keeps_hostOps7 _ main_arg14 (by decide)
    _ = W17 m ρ c (Proc.devRef .tc main_arg14) := W18_of_ne m ρ c main_arg14 (by decide)
    _ = W16 m ρ c (Proc.devRef .tc main_arg14) := KCarry.keeps_hostOps6 _ main_arg14 (by decide)
theorem W24_W16_arg15 (c : Dev nD) : W24 m ρ c (Proc.devRef .tc main_arg15) = W16 m ρ c (Proc.devRef .tc main_arg15) :=
  calc W24 m ρ c (Proc.devRef .tc main_arg15)
    _ = W23 m ρ c (Proc.devRef .tc main_arg15) := W24_of_ne m ρ c main_arg15 (by decide)
    _ = W22 m ρ c (Proc.devRef .tc main_arg15) := KCarry.keeps_hostOps8_2 _ main_arg15 (by decide)
    _ = W21 m ρ c (Proc.devRef .tc main_arg15) := KCarry.keeps_hostOps8_1 _ main_arg15 (by decide)
    _ = W20 m ρ c (Proc.devRef .tc main_arg15) := KCarry.keeps_hostOps8 _ main_arg15 (by decide)
    _ = W19 m ρ c (Proc.devRef .tc main_arg15) := W20_of_ne m ρ c main_arg15 (by decide)
    _ = W18 m ρ c (Proc.devRef .tc main_arg15) := KCarry.keeps_hostOps7 _ main_arg15 (by decide)
    _ = W17 m ρ c (Proc.devRef .tc main_arg15) := W18_of_ne m ρ c main_arg15 (by decide)
    _ = W16 m ρ c (Proc.devRef .tc main_arg15) := KCarry.keeps_hostOps6 _ main_arg15 (by decide)
theorem W24_W16_arg16 (c : Dev nD) : W24 m ρ c (Proc.devRef .tc main_arg16) = W16 m ρ c (Proc.devRef .tc main_arg16) :=
  calc W24 m ρ c (Proc.devRef .tc main_arg16)
    _ = W23 m ρ c (Proc.devRef .tc main_arg16) := W24_of_ne m ρ c main_arg16 (by decide)
    _ = W22 m ρ c (Proc.devRef .tc main_arg16) := KCarry.keeps_hostOps8_2 _ main_arg16 (by decide)
    _ = W21 m ρ c (Proc.devRef .tc main_arg16) := KCarry.keeps_hostOps8_1 _ main_arg16 (by decide)
    _ = W20 m ρ c (Proc.devRef .tc main_arg16) := KCarry.keeps_hostOps8 _ main_arg16 (by decide)
    _ = W19 m ρ c (Proc.devRef .tc main_arg16) := W20_of_ne m ρ c main_arg16 (by decide)
    _ = W18 m ρ c (Proc.devRef .tc main_arg16) := KCarry.keeps_hostOps7 _ main_arg16 (by decide)
    _ = W17 m ρ c (Proc.devRef .tc main_arg16) := W18_of_ne m ρ c main_arg16 (by decide)
    _ = W16 m ρ c (Proc.devRef .tc main_arg16) := KCarry.keeps_hostOps6 _ main_arg16 (by decide)
theorem W24_W16_arg17 (c : Dev nD) : W24 m ρ c (Proc.devRef .tc main_arg17) = W16 m ρ c (Proc.devRef .tc main_arg17) :=
  calc W24 m ρ c (Proc.devRef .tc main_arg17)
    _ = W23 m ρ c (Proc.devRef .tc main_arg17) := W24_of_ne m ρ c main_arg17 (by decide)
    _ = W22 m ρ c (Proc.devRef .tc main_arg17) := KCarry.keeps_hostOps8_2 _ main_arg17 (by decide)
    _ = W21 m ρ c (Proc.devRef .tc main_arg17) := KCarry.keeps_hostOps8_1 _ main_arg17 (by decide)
    _ = W20 m ρ c (Proc.devRef .tc main_arg17) := KCarry.keeps_hostOps8 _ main_arg17 (by decide)
    _ = W19 m ρ c (Proc.devRef .tc main_arg17) := W20_of_ne m ρ c main_arg17 (by decide)
    _ = W18 m ρ c (Proc.devRef .tc main_arg17) := KCarry.keeps_hostOps7 _ main_arg17 (by decide)
    _ = W17 m ρ c (Proc.devRef .tc main_arg17) := W18_of_ne m ρ c main_arg17 (by decide)
    _ = W16 m ρ c (Proc.devRef .tc main_arg17) := KCarry.keeps_hostOps6 _ main_arg17 (by decide)
theorem W24_W16_arg18 (c : Dev nD) : W24 m ρ c (Proc.devRef .tc main_arg18) = W16 m ρ c (Proc.devRef .tc main_arg18) :=
  calc W24 m ρ c (Proc.devRef .tc main_arg18)
    _ = W23 m ρ c (Proc.devRef .tc main_arg18) := W24_of_ne m ρ c main_arg18 (by decide)
    _ = W22 m ρ c (Proc.devRef .tc main_arg18) := KCarry.keeps_hostOps8_2 _ main_arg18 (by decide)
    _ = W21 m ρ c (Proc.devRef .tc main_arg18) := KCarry.keeps_hostOps8_1 _ main_arg18 (by decide)
    _ = W20 m ρ c (Proc.devRef .tc main_arg18) := KCarry.keeps_hostOps8 _ main_arg18 (by decide)
    _ = W19 m ρ c (Proc.devRef .tc main_arg18) := W20_of_ne m ρ c main_arg18 (by decide)
    _ = W18 m ρ c (Proc.devRef .tc main_arg18) := KCarry.keeps_hostOps7 _ main_arg18 (by decide)
    _ = W17 m ρ c (Proc.devRef .tc main_arg18) := W18_of_ne m ρ c main_arg18 (by decide)
    _ = W16 m ρ c (Proc.devRef .tc main_arg18) := KCarry.keeps_hostOps6 _ main_arg18 (by decide)
theorem W24_W16_arg19 (c : Dev nD) : W24 m ρ c (Proc.devRef .tc main_arg19) = W16 m ρ c (Proc.devRef .tc main_arg19) :=
  calc W24 m ρ c (Proc.devRef .tc main_arg19)
    _ = W23 m ρ c (Proc.devRef .tc main_arg19) := W24_of_ne m ρ c main_arg19 (by decide)
    _ = W22 m ρ c (Proc.devRef .tc main_arg19) := KCarry.keeps_hostOps8_2 _ main_arg19 (by decide)
    _ = W21 m ρ c (Proc.devRef .tc main_arg19) := KCarry.keeps_hostOps8_1 _ main_arg19 (by decide)
    _ = W20 m ρ c (Proc.devRef .tc main_arg19) := KCarry.keeps_hostOps8 _ main_arg19 (by decide)
    _ = W19 m ρ c (Proc.devRef .tc main_arg19) := W20_of_ne m ρ c main_arg19 (by decide)
    _ = W18 m ρ c (Proc.devRef .tc main_arg19) := KCarry.keeps_hostOps7 _ main_arg19 (by decide)
    _ = W17 m ρ c (Proc.devRef .tc main_arg19) := W18_of_ne m ρ c main_arg19 (by decide)
    _ = W16 m ρ c (Proc.devRef .tc main_arg19) := KCarry.keeps_hostOps6 _ main_arg19 (by decide)
theorem W24_W16_arg20 (c : Dev nD) : W24 m ρ c (Proc.devRef .tc main_arg20) = W16 m ρ c (Proc.devRef .tc main_arg20) :=
  calc W24 m ρ c (Proc.devRef .tc main_arg20)
    _ = W23 m ρ c (Proc.devRef .tc main_arg20) := W24_of_ne m ρ c main_arg20 (by decide)
    _ = W22 m ρ c (Proc.devRef .tc main_arg20) := KCarry.keeps_hostOps8_2 _ main_arg20 (by decide)
    _ = W21 m ρ c (Proc.devRef .tc main_arg20) := KCarry.keeps_hostOps8_1 _ main_arg20 (by decide)
    _ = W20 m ρ c (Proc.devRef .tc main_arg20) := KCarry.keeps_hostOps8 _ main_arg20 (by decide)
    _ = W19 m ρ c (Proc.devRef .tc main_arg20) := W20_of_ne m ρ c main_arg20 (by decide)
    _ = W18 m ρ c (Proc.devRef .tc main_arg20) := KCarry.keeps_hostOps7 _ main_arg20 (by decide)
    _ = W17 m ρ c (Proc.devRef .tc main_arg20) := W18_of_ne m ρ c main_arg20 (by decide)
    _ = W16 m ρ c (Proc.devRef .tc main_arg20) := KCarry.keeps_hostOps6 _ main_arg20 (by decide)
theorem W24_W16_arg21 (c : Dev nD) : W24 m ρ c (Proc.devRef .tc main_arg21) = W16 m ρ c (Proc.devRef .tc main_arg21) :=
  calc W24 m ρ c (Proc.devRef .tc main_arg21)
    _ = W23 m ρ c (Proc.devRef .tc main_arg21) := W24_of_ne m ρ c main_arg21 (by decide)
    _ = W22 m ρ c (Proc.devRef .tc main_arg21) := KCarry.keeps_hostOps8_2 _ main_arg21 (by decide)
    _ = W21 m ρ c (Proc.devRef .tc main_arg21) := KCarry.keeps_hostOps8_1 _ main_arg21 (by decide)
    _ = W20 m ρ c (Proc.devRef .tc main_arg21) := KCarry.keeps_hostOps8 _ main_arg21 (by decide)
    _ = W19 m ρ c (Proc.devRef .tc main_arg21) := W20_of_ne m ρ c main_arg21 (by decide)
    _ = W18 m ρ c (Proc.devRef .tc main_arg21) := KCarry.keeps_hostOps7 _ main_arg21 (by decide)
    _ = W17 m ρ c (Proc.devRef .tc main_arg21) := W18_of_ne m ρ c main_arg21 (by decide)
    _ = W16 m ρ c (Proc.devRef .tc main_arg21) := KCarry.keeps_hostOps6 _ main_arg21 (by decide)
theorem W24_W16_arg22 (c : Dev nD) : W24 m ρ c (Proc.devRef .tc main_arg22) = W16 m ρ c (Proc.devRef .tc main_arg22) :=
  calc W24 m ρ c (Proc.devRef .tc main_arg22)
    _ = W23 m ρ c (Proc.devRef .tc main_arg22) := W24_of_ne m ρ c main_arg22 (by decide)
    _ = W22 m ρ c (Proc.devRef .tc main_arg22) := KCarry.keeps_hostOps8_2 _ main_arg22 (by decide)
    _ = W21 m ρ c (Proc.devRef .tc main_arg22) := KCarry.keeps_hostOps8_1 _ main_arg22 (by decide)
    _ = W20 m ρ c (Proc.devRef .tc main_arg22) := KCarry.keeps_hostOps8 _ main_arg22 (by decide)
    _ = W19 m ρ c (Proc.devRef .tc main_arg22) := W20_of_ne m ρ c main_arg22 (by decide)
    _ = W18 m ρ c (Proc.devRef .tc main_arg22) := KCarry.keeps_hostOps7 _ main_arg22 (by decide)
    _ = W17 m ρ c (Proc.devRef .tc main_arg22) := W18_of_ne m ρ c main_arg22 (by decide)
    _ = W16 m ρ c (Proc.devRef .tc main_arg22) := KCarry.keeps_hostOps6 _ main_arg22 (by decide)
theorem W24_W16_arg23 (c : Dev nD) : W24 m ρ c (Proc.devRef .tc main_arg23) = W16 m ρ c (Proc.devRef .tc main_arg23) :=
  calc W24 m ρ c (Proc.devRef .tc main_arg23)
    _ = W23 m ρ c (Proc.devRef .tc main_arg23) := W24_of_ne m ρ c main_arg23 (by decide)
    _ = W22 m ρ c (Proc.devRef .tc main_arg23) := KCarry.keeps_hostOps8_2 _ main_arg23 (by decide)
    _ = W21 m ρ c (Proc.devRef .tc main_arg23) := KCarry.keeps_hostOps8_1 _ main_arg23 (by decide)
    _ = W20 m ρ c (Proc.devRef .tc main_arg23) := KCarry.keeps_hostOps8 _ main_arg23 (by decide)
    _ = W19 m ρ c (Proc.devRef .tc main_arg23) := W20_of_ne m ρ c main_arg23 (by decide)
    _ = W18 m ρ c (Proc.devRef .tc main_arg23) := KCarry.keeps_hostOps7 _ main_arg23 (by decide)
    _ = W17 m ρ c (Proc.devRef .tc main_arg23) := W18_of_ne m ρ c main_arg23 (by decide)
    _ = W16 m ρ c (Proc.devRef .tc main_arg23) := KCarry.keeps_hostOps6 _ main_arg23 (by decide)
theorem W24_W16_arg24 (c : Dev nD) : W24 m ρ c (Proc.devRef .tc main_arg24) = W16 m ρ c (Proc.devRef .tc main_arg24) :=
  calc W24 m ρ c (Proc.devRef .tc main_arg24)
    _ = W23 m ρ c (Proc.devRef .tc main_arg24) := W24_of_ne m ρ c main_arg24 (by decide)
    _ = W22 m ρ c (Proc.devRef .tc main_arg24) := KCarry.keeps_hostOps8_2 _ main_arg24 (by decide)
    _ = W21 m ρ c (Proc.devRef .tc main_arg24) := KCarry.keeps_hostOps8_1 _ main_arg24 (by decide)
    _ = W20 m ρ c (Proc.devRef .tc main_arg24) := KCarry.keeps_hostOps8 _ main_arg24 (by decide)
    _ = W19 m ρ c (Proc.devRef .tc main_arg24) := W20_of_ne m ρ c main_arg24 (by decide)
    _ = W18 m ρ c (Proc.devRef .tc main_arg24) := KCarry.keeps_hostOps7 _ main_arg24 (by decide)
    _ = W17 m ρ c (Proc.devRef .tc main_arg24) := W18_of_ne m ρ c main_arg24 (by decide)
    _ = W16 m ρ c (Proc.devRef .tc main_arg24) := KCarry.keeps_hostOps6 _ main_arg24 (by decide)
theorem W24_W16_arg25 (c : Dev nD) : W24 m ρ c (Proc.devRef .tc main_arg25) = W16 m ρ c (Proc.devRef .tc main_arg25) :=
  calc W24 m ρ c (Proc.devRef .tc main_arg25)
    _ = W23 m ρ c (Proc.devRef .tc main_arg25) := W24_of_ne m ρ c main_arg25 (by decide)
    _ = W22 m ρ c (Proc.devRef .tc main_arg25) := KCarry.keeps_hostOps8_2 _ main_arg25 (by decide)
    _ = W21 m ρ c (Proc.devRef .tc main_arg25) := KCarry.keeps_hostOps8_1 _ main_arg25 (by decide)
    _ = W20 m ρ c (Proc.devRef .tc main_arg25) := KCarry.keeps_hostOps8 _ main_arg25 (by decide)
    _ = W19 m ρ c (Proc.devRef .tc main_arg25) := W20_of_ne m ρ c main_arg25 (by decide)
    _ = W18 m ρ c (Proc.devRef .tc main_arg25) := KCarry.keeps_hostOps7 _ main_arg25 (by decide)
    _ = W17 m ρ c (Proc.devRef .tc main_arg25) := W18_of_ne m ρ c main_arg25 (by decide)
    _ = W16 m ρ c (Proc.devRef .tc main_arg25) := KCarry.keeps_hostOps6 _ main_arg25 (by decide)
theorem W24_W16_arg26 (c : Dev nD) : W24 m ρ c (Proc.devRef .tc main_arg26) = W16 m ρ c (Proc.devRef .tc main_arg26) :=
  calc W24 m ρ c (Proc.devRef .tc main_arg26)
    _ = W23 m ρ c (Proc.devRef .tc main_arg26) := W24_of_ne m ρ c main_arg26 (by decide)
    _ = W22 m ρ c (Proc.devRef .tc main_arg26) := KCarry.keeps_hostOps8_2 _ main_arg26 (by decide)
    _ = W21 m ρ c (Proc.devRef .tc main_arg26) := KCarry.keeps_hostOps8_1 _ main_arg26 (by decide)
    _ = W20 m ρ c (Proc.devRef .tc main_arg26) := KCarry.keeps_hostOps8 _ main_arg26 (by decide)
    _ = W19 m ρ c (Proc.devRef .tc main_arg26) := W20_of_ne m ρ c main_arg26 (by decide)
    _ = W18 m ρ c (Proc.devRef .tc main_arg26) := KCarry.keeps_hostOps7 _ main_arg26 (by decide)
    _ = W17 m ρ c (Proc.devRef .tc main_arg26) := W18_of_ne m ρ c main_arg26 (by decide)
    _ = W16 m ρ c (Proc.devRef .tc main_arg26) := KCarry.keeps_hostOps6 _ main_arg26 (by decide)
theorem W24_W16_src (c : Dev nD) : W24 m ρ c (Proc.devRef .tc main_v1) = W16 m ρ c (Proc.devRef .tc main_v1) :=
  calc W24 m ρ c (Proc.devRef .tc main_v1)
    _ = W23 m ρ c (Proc.devRef .tc main_v1) := W24_of_ne m ρ c main_v1 (by decide)
    _ = W22 m ρ c (Proc.devRef .tc main_v1) := KCarry.keeps_hostOps8_2 _ main_v1 (by decide)
    _ = W21 m ρ c (Proc.devRef .tc main_v1) := KCarry.keeps_hostOps8_1 _ main_v1 (by decide)
    _ = W20 m ρ c (Proc.devRef .tc main_v1) := KCarry.keeps_hostOps8 _ main_v1 (by decide)
    _ = W19 m ρ c (Proc.devRef .tc main_v1) := W20_of_ne m ρ c main_v1 (by decide)
    _ = W18 m ρ c (Proc.devRef .tc main_v1) := KCarry.keeps_hostOps7 _ main_v1 (by decide)
    _ = W17 m ρ c (Proc.devRef .tc main_v1) := W18_of_ne m ρ c main_v1 (by decide)
    _ = W16 m ρ c (Proc.devRef .tc main_v1) := KCarry.keeps_hostOps6 _ main_v1 (by decide)
theorem W24_W16_dst (c : Dev nD) : W24 m ρ c (Proc.devRef .tc main_v3) = W16 m ρ c (Proc.devRef .tc main_v3) :=
  calc W24 m ρ c (Proc.devRef .tc main_v3)
    _ = W23 m ρ c (Proc.devRef .tc main_v3) := W24_of_ne m ρ c main_v3 (by decide)
    _ = W22 m ρ c (Proc.devRef .tc main_v3) := KCarry.keeps_hostOps8_2 _ main_v3 (by decide)
    _ = W21 m ρ c (Proc.devRef .tc main_v3) := KCarry.keeps_hostOps8_1 _ main_v3 (by decide)
    _ = W20 m ρ c (Proc.devRef .tc main_v3) := KCarry.keeps_hostOps8 _ main_v3 (by decide)
    _ = W19 m ρ c (Proc.devRef .tc main_v3) := W20_of_ne m ρ c main_v3 (by decide)
    _ = W18 m ρ c (Proc.devRef .tc main_v3) := KCarry.keeps_hostOps7 _ main_v3 (by decide)
    _ = W17 m ρ c (Proc.devRef .tc main_v3) := W18_of_ne m ρ c main_v3 (by decide)
    _ = W16 m ρ c (Proc.devRef .tc main_v3) := KCarry.keeps_hostOps6 _ main_v3 (by decide)

end Cert.KernelValue

end
-- ==== Proof.KCarry32.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the eight segments of the fourth layer, each buffer at boundary 32 equal to itself at boundary 24.
-/
import proofs.«425927_j69028714381396_2_alg».proof.Proof.FrameKIW
import Idealize.ShloMosaic.Lib.StableHlo.Run

-- deciding that two of the program's several hundred references differ recurses once per reference
set_option maxRecDepth 16384

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The argument arrays. -/
abbrev KCarry.argRefs32 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
/-- The carried buffers: the argument arrays and the two edge-endpoint vectors. -/
abbrev KCarry.carried32 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3]

/-! ## The host stretches of the layer -/

/-- No operation of this stretch has one of the carried buffers as its result. -/
theorem KCarry.keeps_hostOps9 (V0 : Valuation τ sig (Elt F)) (r : Ref sig .tc) (hr : r ∈ KCarry.carried32) :
    StableHlo.after hostOps9 V0 (Proc.devRef .tc r) = V0 (Proc.devRef .tc r) :=
  StableHlo.after_of_forall_not_mem (b := Proc.devRef .tc r) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps10 (V0 : Valuation τ sig (Elt F)) (r : Ref sig .tc) (hr : r ∈ KCarry.carried32) :
    StableHlo.after hostOps10 V0 (Proc.devRef .tc r) = V0 (Proc.devRef .tc r) :=
  StableHlo.after_of_forall_not_mem (b := Proc.devRef .tc r) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps11 (V0 : Valuation τ sig (Elt F)) (r : Ref sig .tc) (hr : r ∈ KCarry.carried32) :
    StableHlo.after hostOps11 V0 (Proc.devRef .tc r) = V0 (Proc.devRef .tc r) :=
  StableHlo.after_of_forall_not_mem (b := Proc.devRef .tc r) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps11_1 (V0 : Valuation τ sig (Elt F)) (r : Ref sig .tc) (hr : r ∈ KCarry.carried32) :
    StableHlo.after hostOps11_1 V0 (Proc.devRef .tc r) = V0 (Proc.devRef .tc r) :=
  StableHlo.after_of_forall_not_mem (b := Proc.devRef .tc r) _ _ (List.forall_iff_forall_mem.mp (by
    simp only [hostOps11_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps11_2 (V0 : Valuation τ sig (Elt F)) (r : Ref sig .tc) (hr : r ∈ KCarry.carried32) :
    StableHlo.after hostOps11_2 V0 (Proc.devRef .tc r) = V0 (Proc.devRef .tc r) :=
  StableHlo.after_of_forall_not_mem (b := Proc.devRef .tc r) _ _ (List.forall_iff_forall_mem.mp (by
    simp only [hostOps11_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-! ## The walks -/

theorem W32_W24_arg0 (c : Dev nD) : W32 m ρ c (Proc.devRef .tc main_arg0) = W24 m ρ c (Proc.devRef .tc main_arg0) :=
  calc W32 m ρ c (Proc.devRef .tc main_arg0)
    _ = W31 m ρ c (Proc.devRef .tc main_arg0) := W32_of_ne m ρ c main_arg0 (by decide)
    _ = W30 m ρ c (Proc.devRef .tc main_arg0) := KCarry.keeps_hostOps11_2 _ main_arg0 (by decide)
    _ = W29 m ρ c (Proc.devRef .tc main_arg0) := KCarry.keeps_hostOps11_1 _ main_arg0 (by decide)
    _ = W28 m ρ c (Proc.devRef .tc main_arg0) := KCarry.keeps_hostOps11 _ main_arg0 (by decide)
    _ = W27 m ρ c (Proc.devRef .tc main_arg0) := W28_of_ne m ρ c main_arg0 (by decide)
    _ = W26 m ρ c (Proc.devRef .tc main_arg0) := KCarry.keeps_hostOps10 _ main_arg0 (by decide)
    _ = W25 m ρ c (Proc.devRef .tc main_arg0) := (W26_arr m ρ c 0).trans (((dat9 (V25 m ρ) c).arrAt_in 0 rfl _).trans (A_eq9 (V25 m ρ) c 0))
    _ = W24 m ρ c (Proc.devRef .tc main_arg0) := KCarry.keeps_hostOps9 _ main_arg0 (by decide)
theorem W32_W24_arg1 (c : Dev nD) : W32 m ρ c (Proc.devRef .tc main_arg1) = W24 m ρ c (Proc.devRef .tc main_arg1) :=
  calc W32 m ρ c (Proc.devRef .tc main_arg1)
    _ = W31 m ρ c (Proc.devRef .tc main_arg1) := W32_of_ne m ρ c main_arg1 (by decide)
    _ = W30 m ρ c (Proc.devRef .tc main_arg1) := KCarry.keeps_hostOps11_2 _ main_arg1 (by decide)
    _ = W29 m ρ c (Proc.devRef .tc main_arg1) := KCarry.keeps_hostOps11_1 _ main_arg1 (by decide)
    _ = W28 m ρ c (Proc.devRef .tc main_arg1) := KCarry.keeps_hostOps11 _ main_arg1 (by decide)
    _ = W27 m ρ c (Proc.devRef .tc main_arg1) := W28_of_ne m ρ c main_arg1 (by decide)
    _ = W26 m ρ c (Proc.devRef .tc main_arg1) := KCarry.keeps_hostOps10 _ main_arg1 (by decide)
    _ = W25 m ρ c (Proc.devRef .tc main_arg1) := W26_of_ne m ρ c main_arg1 (by decide)
    _ = W24 m ρ c (Proc.devRef .tc main_arg1) := KCarry.keeps_hostOps9 _ main_arg1 (by decide)
theorem W32_W24_arg2 (c : Dev nD) : W32 m ρ c (Proc.devRef .tc main_arg2) = W24 m ρ c (Proc.devRef .tc main_arg2) :=
  calc W32 m ρ c (Proc.devRef .tc main_arg2)
    _ = W31 m ρ c (Proc.devRef .tc main_arg2) := W32_of_ne m ρ c main_arg2 (by decide)
    _ = W30 m ρ c (Proc.devRef .tc main_arg2) := KCarry.keeps_hostOps11_2 _ main_arg2 (by decide)
    _ = W29 m ρ c (Proc.devRef .tc main_arg2) := KCarry.keeps_hostOps11_1 _ main_arg2 (by decide)
    _ = W28 m ρ c (Proc.devRef .tc main_arg2) := KCarry.keeps_hostOps11 _ main_arg2 (by decide)
    _ = W27 m ρ c (Proc.devRef .tc main_arg2) := W28_of_ne m ρ c main_arg2 (by decide)
    _ = W26 m ρ c (Proc.devRef .tc main_arg2) := KCarry.keeps_hostOps10 _ main_arg2 (by decide)
    _ = W25 m ρ c (Proc.devRef .tc main_arg2) := W26_of_ne m ρ c main_arg2 (by decide)
    _ = W24 m ρ c (Proc.devRef .tc main_arg2) := KCarry.keeps_hostOps9 _ main_arg2 (by decide)
theorem W32_W24_arg3 (c : Dev nD) : W32 m ρ c (Proc.devRef .tc main_arg3) = W24 m ρ c (Proc.devRef .tc main_arg3) :=
  calc W32 m ρ c (Proc.devRef .tc main_arg3)
    _ = W31 m ρ c (Proc.devRef .tc main_arg3) := W32_of_ne m ρ c main_arg3 (by decide)
    _ = W30 m ρ c (Proc.devRef .tc main_arg3) := KCarry.keeps_hostOps11_2 _ main_arg3 (by decide)
    _ = W29 m ρ c (Proc.devRef .tc main_arg3) := KCarry.keeps_hostOps11_1 _ main_arg3 (by decide)
    _ = W28 m ρ c (Proc.devRef .tc main_arg3) := KCarry.keeps_hostOps11 _ main_arg3 (by decide)
    _ = W27 m ρ c (Proc.devRef .tc main_arg3) := W28_of_ne m ρ c main_arg3 (by decide)
    _ = W26 m ρ c (Proc.devRef .tc main_arg3) := KCarry.keeps_hostOps10 _ main_arg3 (by decide)
    _ = W25 m ρ c (Proc.devRef .tc main_arg3) := W26_of_ne m ρ c main_arg3 (by decide)
    _ = W24 m ρ c (Proc.devRef .tc main_arg3) := KCarry.keeps_hostOps9 _ main_arg3 (by decide)
theorem W32_W24_arg4 (c : Dev nD) : W32 m ρ c (Proc.devRef .tc main_arg4) = W24 m ρ c (Proc.devRef .tc main_arg4) :=
  calc W32 m ρ c (Proc.devRef .tc main_arg4)
    _ = W31 m ρ c (Proc.devRef .tc main_arg4) := W32_of_ne m ρ c main_arg4 (by decide)
    _ = W30 m ρ c (Proc.devRef .tc main_arg4) := KCarry.keeps_hostOps11_2 _ main_arg4 (by decide)
    _ = W29 m ρ c (Proc.devRef .tc main_arg4) := KCarry.keeps_hostOps11_1 _ main_arg4 (by decide)
    _ = W28 m ρ c (Proc.devRef .tc main_arg4) := KCarry.keeps_hostOps11 _ main_arg4 (by decide)
    _ = W27 m ρ c (Proc.devRef .tc main_arg4) := W28_of_ne m ρ c main_arg4 (by decide)
    _ = W26 m ρ c (Proc.devRef .tc main_arg4) := KCarry.keeps_hostOps10 _ main_arg4 (by decide)
    _ = W25 m ρ c (Proc.devRef .tc main_arg4) := W26_of_ne m ρ c main_arg4 (by decide)
    _ = W24 m ρ c (Proc.devRef .tc main_arg4) := KCarry.keeps_hostOps9 _ main_arg4 (by decide)
theorem W32_W24_arg5 (c : Dev nD) : W32 m ρ c (Proc.devRef .tc main_arg5) = W24 m ρ c (Proc.devRef .tc main_arg5) :=
  calc W32 m ρ c (Proc.devRef .tc main_arg5)
    _ = W31 m ρ c (Proc.devRef .tc main_arg5) := W32_of_ne m ρ c main_arg5 (by decide)
    _ = W30 m ρ c (Proc.devRef .tc main_arg5) := KCarry.keeps_hostOps11_2 _ main_arg5 (by decide)
    _ = W29 m ρ c (Proc.devRef .tc main_arg5) := KCarry.keeps_hostOps11_1 _ main_arg5 (by decide)
    _ = W28 m ρ c (Proc.devRef .tc main_arg5) := KCarry.keeps_hostOps11 _ main_arg5 (by decide)
    _ = W27 m ρ c (Proc.devRef .tc main_arg5) := W28_of_ne m ρ c main_arg5 (by decide)
    _ = W26 m ρ c (Proc.devRef .tc main_arg5) := KCarry.keeps_hostOps10 _ main_arg5 (by decide)
    _ = W25 m ρ c (Proc.devRef .tc main_arg5) := W26_of_ne m ρ c main_arg5 (by decide)
    _ = W24 m ρ c (Proc.devRef .tc main_arg5) := KCarry.keeps_hostOps9 _ main_arg5 (by decide)
theorem W32_W24_arg6 (c : Dev nD) : W32 m ρ c (Proc.devRef .tc main_arg6) = W24 m ρ c (Proc.devRef .tc main_arg6) :=
  calc W32 m ρ c (Proc.devRef .tc main_arg6)
    _ = W31 m ρ c (Proc.devRef .tc main_arg6) := W32_of_ne m ρ c main_arg6 (by decide)
    _ = W30 m ρ c (Proc.devRef .tc main_arg6) := KCarry.keeps_hostOps11_2 _ main_arg6 (by decide)
    _ = W29 m ρ c (Proc.devRef .tc main_arg6) := KCarry.keeps_hostOps11_1 _ main_arg6 (by decide)
    _ = W28 m ρ c (Proc.devRef .tc main_arg6) := KCarry.keeps_hostOps11 _ main_arg6 (by decide)
    _ = W27 m ρ c (Proc.devRef .tc main_arg6) := W28_of_ne m ρ c main_arg6 (by decide)
    _ = W26 m ρ c (Proc.devRef .tc main_arg6) := KCarry.keeps_hostOps10 _ main_arg6 (by decide)
    _ = W25 m ρ c (Proc.devRef .tc main_arg6) := W26_of_ne m ρ c main_arg6 (by decide)
    _ = W24 m ρ c (Proc.devRef .tc main_arg6) := KCarry.keeps_hostOps9 _ main_arg6 (by decide)
theorem W32_W24_arg7 (c : Dev nD) : W32 m ρ c (Proc.devRef .tc main_arg7) = W24 m ρ c (Proc.devRef .tc main_arg7) :=
  calc W32 m ρ c (Proc.devRef .tc main_arg7)
    _ = W31 m ρ c (Proc.devRef .tc main_arg7) := W32_of_ne m ρ c main_arg7 (by decide)
    _ = W30 m ρ c (Proc.devRef .tc main_arg7) := KCarry.keeps_hostOps11_2 _ main_arg7 (by decide)
    _ = W29 m ρ c (Proc.devRef .tc main_arg7) := KCarry.keeps_hostOps11_1 _ main_arg7 (by decide)
    _ = W28 m ρ c (Proc.devRef .tc main_arg7) := KCarry.keeps_hostOps11 _ main_arg7 (by decide)
    _ = W27 m ρ c (Proc.devRef .tc main_arg7) := W28_of_ne m ρ c main_arg7 (by decide)
    _ = W26 m ρ c (Proc.devRef .tc main_arg7) := KCarry.keeps_hostOps10 _ main_arg7 (by decide)
    _ = W25 m ρ c (Proc.devRef .tc main_arg7) := W26_of_ne m ρ c main_arg7 (by decide)
    _ = W24 m ρ c (Proc.devRef .tc main_arg7) := KCarry.keeps_hostOps9 _ main_arg7 (by decide)
theorem W32_W24_arg8 (c : Dev nD) : W32 m ρ c (Proc.devRef .tc main_arg8) = W24 m ρ c (Proc.devRef .tc main_arg8) :=
  calc W32 m ρ c (Proc.devRef .tc main_arg8)
    _ = W31 m ρ c (Proc.devRef .tc main_arg8) := W32_of_ne m ρ c main_arg8 (by decide)
    _ = W30 m ρ c (Proc.devRef .tc main_arg8) := KCarry.keeps_hostOps11_2 _ main_arg8 (by decide)
    _ = W29 m ρ c (Proc.devRef .tc main_arg8) := KCarry.keeps_hostOps11_1 _ main_arg8 (by decide)
    _ = W28 m ρ c (Proc.devRef .tc main_arg8) := KCarry.keeps_hostOps11 _ main_arg8 (by decide)
    _ = W27 m ρ c (Proc.devRef .tc main_arg8) := W28_of_ne m ρ c main_arg8 (by decide)
    _ = W26 m ρ c (Proc.devRef .tc main_arg8) := KCarry.keeps_hostOps10 _ main_arg8 (by decide)
    _ = W25 m ρ c (Proc.devRef .tc main_arg8) := W26_of_ne m ρ c main_arg8 (by decide)
    _ = W24 m ρ c (Proc.devRef .tc main_arg8) := KCarry.keeps_hostOps9 _ main_arg8 (by decide)
theorem W32_W24_arg9 (c : Dev nD) : W32 m ρ c (Proc.devRef .tc main_arg9) = W24 m ρ c (Proc.devRef .tc main_arg9) :=
  calc W32 m ρ c (Proc.devRef .tc main_arg9)
    _ = W31 m ρ c (Proc.devRef .tc main_arg9) := W32_of_ne m ρ c main_arg9 (by decide)
    _ = W30 m ρ c (Proc.devRef .tc main_arg9) := KCarry.keeps_hostOps11_2 _ main_arg9 (by decide)
    _ = W29 m ρ c (Proc.devRef .tc main_arg9) := KCarry.keeps_hostOps11_1 _ main_arg9 (by decide)
    _ = W28 m ρ c (Proc.devRef .tc main_arg9) := KCarry.keeps_hostOps11 _ main_arg9 (by decide)
    _ = W27 m ρ c (Proc.devRef .tc main_arg9) := W28_of_ne m ρ c main_arg9 (by decide)
    _ = W26 m ρ c (Proc.devRef .tc main_arg9) := KCarry.keeps_hostOps10 _ main_arg9 (by decide)
    _ = W25 m ρ c (Proc.devRef .tc main_arg9) := W26_of_ne m ρ c main_arg9 (by decide)
    _ = W24 m ρ c (Proc.devRef .tc main_arg9) := KCarry.keeps_hostOps9 _ main_arg9 (by decide)
theorem W32_W24_arg10 (c : Dev nD) : W32 m ρ c (Proc.devRef .tc main_arg10) = W24 m ρ c (Proc.devRef .tc main_arg10) :=
  calc W32 m ρ c (Proc.devRef .tc main_arg10)
    _ = W31 m ρ c (Proc.devRef .tc main_arg10) := W32_of_ne m ρ c main_arg10 (by decide)
    _ = W30 m ρ c (Proc.devRef .tc main_arg10) := KCarry.keeps_hostOps11_2 _ main_arg10 (by decide)
    _ = W29 m ρ c (Proc.devRef .tc main_arg10) := KCarry.keeps_hostOps11_1 _ main_arg10 (by decide)
    _ = W28 m ρ c (Proc.devRef .tc main_arg10) := KCarry.keeps_hostOps11 _ main_arg10 (by decide)
    _ = W27 m ρ c (Proc.devRef .tc main_arg10) := W28_of_ne m ρ c main_arg10 (by decide)
    _ = W26 m ρ c (Proc.devRef .tc main_arg10) := KCarry.keeps_hostOps10 _ main_arg10 (by decide)
    _ = W25 m ρ c (Proc.devRef .tc main_arg10) := W26_of_ne m ρ c main_arg10 (by decide)
    _ = W24 m ρ c (Proc.devRef .tc main_arg10) := KCarry.keeps_hostOps9 _ main_arg10 (by decide)
theorem W32_W24_arg11 (c : Dev nD) : W32 m ρ c (Proc.devRef .tc main_arg11) = W24 m ρ c (Proc.devRef .tc main_arg11) :=
  calc W32 m ρ c (Proc.devRef .tc main_arg11)
    _ = W31 m ρ c (Proc.devRef .tc main_arg11) := W32_of_ne m ρ c main_arg11 (by decide)
    _ = W30 m ρ c (Proc.devRef .tc main_arg11) := KCarry.keeps_hostOps11_2 _ main_arg11 (by decide)
    _ = W29 m ρ c (Proc.devRef .tc main_arg11) := KCarry.keeps_hostOps11_1 _ main_arg11 (by decide)
    _ = W28 m ρ c (Proc.devRef .tc main_arg11) := KCarry.keeps_hostOps11 _ main_arg11 (by decide)
    _ = W27 m ρ c (Proc.devRef .tc main_arg11) := W28_of_ne m ρ c main_arg11 (by decide)
    _ = W26 m ρ c (Proc.devRef .tc main_arg11) := KCarry.keeps_hostOps10 _ main_arg11 (by decide)
    _ = W25 m ρ c (Proc.devRef .tc main_arg11) := W26_of_ne m ρ c main_arg11 (by decide)
    _ = W24 m ρ c (Proc.devRef .tc main_arg11) := KCarry.keeps_hostOps9 _ main_arg11 (by decide)
theorem W32_W24_arg12 (c : Dev nD) : W32 m ρ c (Proc.devRef .tc main_arg12) = W24 m ρ c (Proc.devRef .tc main_arg12) :=
  calc W32 m ρ c (Proc.devRef .tc main_arg12)
    _ = W31 m ρ c (Proc.devRef .tc main_arg12) := W32_of_ne m ρ c main_arg12 (by decide)
    _ = W30 m ρ c (Proc.devRef .tc main_arg12) := KCarry.keeps_hostOps11_2 _ main_arg12 (by decide)
    _ = W29 m ρ c (Proc.devRef .tc main_arg12) := KCarry.keeps_hostOps11_1 _ main_arg12 (by decide)
    _ = W28 m ρ c (Proc.devRef .tc main_arg12) := KCarry.keeps_hostOps11 _ main_arg12 (by decide)
    _ = W27 m ρ c (Proc.devRef .tc main_arg12) := W28_of_ne m ρ c main_arg12 (by decide)
    _ = W26 m ρ c (Proc.devRef .tc main_arg12) := KCarry.keeps_hostOps10 _ main_arg12 (by decide)
    _ = W25 m ρ c (Proc.devRef .tc main_arg12) := W26_of_ne m ρ c main_arg12 (by decide)
    _ = W24 m ρ c (Proc.devRef .tc main_arg12) := KCarry.keeps_hostOps9 _ main_arg12 (by decide)
theorem W32_W24_arg13 (c : Dev nD) : W32 m ρ c (Proc.devRef .tc main_arg13) = W24 m ρ c (Proc.devRef .tc main_arg13) :=
  calc W32 m ρ c (Proc.devRef .tc main_arg13)
    _ = W31 m ρ c (Proc.devRef .tc main_arg13) := W32_of_ne m ρ c main_arg13 (by decide)
    _ = W30 m ρ c (Proc.devRef .tc main_arg13) := KCarry.keeps_hostOps11_2 _ main_arg13 (by decide)
    _ = W29 m ρ c (Proc.devRef .tc main_arg13) := KCarry.keeps_hostOps11_1 _ main_arg13 (by decide)
    _ = W28 m ρ c (Proc.devRef .tc main_arg13) := KCarry.keeps_hostOps11 _ main_arg13 (by decide)
    _ = W27 m ρ c (Proc.devRef .tc main_arg13) := W28_of_ne m ρ c main_arg13 (by decide)
    _ = W26 m ρ c (Proc.devRef .tc main_arg13) := KCarry.keeps_hostOps10 _ main_arg13 (by decide)
    _ = W25 m ρ c (Proc.devRef .tc main_arg13) := W26_of_ne m ρ c main_arg13 (by decide)
    _ = W24 m ρ c (Proc.devRef .tc main_arg13) := KCarry.keeps_hostOps9 _ main_arg13 (by decide)
theorem W32_W24_arg14 (c : Dev nD) : W32 m ρ c (Proc.devRef .tc main_arg14) = W24 m ρ c (Proc.devRef .tc main_arg14) :=
  calc W32 m ρ c (Proc.devRef .tc main_arg14)
    _ = W31 m ρ c (Proc.devRef .tc main_arg14) := W32_of_ne m ρ c main_arg14 (by decide)
    _ = W30 m ρ c (Proc.devRef .tc main_arg14) := KCarry.keeps_hostOps11_2 _ main_arg14 (by decide)
    _ = W29 m ρ c (Proc.devRef .tc main_arg14) := KCarry.keeps_hostOps11_1 _ main_arg14 (by decide)
    _ = W28 m ρ c (Proc.devRef .tc main_arg14) := KCarry.keeps_hostOps11 _ main_arg14 (by decide)
    _ = W27 m ρ c (Proc.devRef .tc main_arg14) := W28_of_ne m ρ c main_arg14 (by decide)
    _ = W26 m ρ c (Proc.devRef .tc main_arg14) := KCarry.keeps_hostOps10 _ main_arg14 (by decide)
    _ = W25 m ρ c (Proc.devRef .tc main_arg14) := W26_of_ne m ρ c main_arg14 (by decide)
    _ = W24 m ρ c (Proc.devRef .tc main_arg14) := KCarry.keeps_hostOps9 _ main_arg14 (by decide)
theorem W32_W24_arg15 (c : Dev nD) : W32 m ρ c (Proc.devRef .tc main_arg15) = W24 m ρ c (Proc.devRef .tc main_arg15) :=
  calc W32 m ρ c (Proc.devRef .tc main_arg15)
    _ = W31 m ρ c (Proc.devRef .tc main_arg15) := W32_of_ne m ρ c main_arg15 (by decide)
    _ = W30 m ρ c (Proc.devRef .tc main_arg15) := KCarry.keeps_hostOps11_2 _ main_arg15 (by decide)
    _ = W29 m ρ c (Proc.devRef .tc main_arg15) := KCarry.keeps_hostOps11_1 _ main_arg15 (by decide)
    _ = W28 m ρ c (Proc.devRef .tc main_arg15) := KCarry.keeps_hostOps11 _ main_arg15 (by decide)
    _ = W27 m ρ c (Proc.devRef .tc main_arg15) := W28_of_ne m ρ c main_arg15 (by decide)
    _ = W26 m ρ c (Proc.devRef .tc main_arg15) := KCarry.keeps_hostOps10 _ main_arg15 (by decide)
    _ = W25 m ρ c (Proc.devRef .tc main_arg15) := W26_of_ne m ρ c main_arg15 (by decide)
    _ = W24 m ρ c (Proc.devRef .tc main_arg15) := KCarry.keeps_hostOps9 _ main_arg15 (by decide)
theorem W32_W24_arg16 (c : Dev nD) : W32 m ρ c (Proc.devRef .tc main_arg16) = W24 m ρ c (Proc.devRef .tc main_arg16) :=
  calc W32 m ρ c (Proc.devRef .tc main_arg16)
    _ = W31 m ρ c (Proc.devRef .tc main_arg16) := W32_of_ne m ρ c main_arg16 (by decide)
    _ = W30 m ρ c (Proc.devRef .tc main_arg16) := KCarry.keeps_hostOps11_2 _ main_arg16 (by decide)
    _ = W29 m ρ c (Proc.devRef .tc main_arg16) := KCarry.keeps_hostOps11_1 _ main_arg16 (by decide)
    _ = W28 m ρ c (Proc.devRef .tc main_arg16) := KCarry.keeps_hostOps11 _ main_arg16 (by decide)
    _ = W27 m ρ c (Proc.devRef .tc main_arg16) := W28_of_ne m ρ c main_arg16 (by decide)
    _ = W26 m ρ c (Proc.devRef .tc main_arg16) := KCarry.keeps_hostOps10 _ main_arg16 (by decide)
    _ = W25 m ρ c (Proc.devRef .tc main_arg16) := W26_of_ne m ρ c main_arg16 (by decide)
    _ = W24 m ρ c (Proc.devRef .tc main_arg16) := KCarry.keeps_hostOps9 _ main_arg16 (by decide)
theorem W32_W24_arg17 (c : Dev nD) : W32 m ρ c (Proc.devRef .tc main_arg17) = W24 m ρ c (Proc.devRef .tc main_arg17) :=
  calc W32 m ρ c (Proc.devRef .tc main_arg17)
    _ = W31 m ρ c (Proc.devRef .tc main_arg17) := W32_of_ne m ρ c main_arg17 (by decide)
    _ = W30 m ρ c (Proc.devRef .tc main_arg17) := KCarry.keeps_hostOps11_2 _ main_arg17 (by decide)
    _ = W29 m ρ c (Proc.devRef .tc main_arg17) := KCarry.keeps_hostOps11_1 _ main_arg17 (by decide)
    _ = W28 m ρ c (Proc.devRef .tc main_arg17) := KCarry.keeps_hostOps11 _ main_arg17 (by decide)
    _ = W27 m ρ c (Proc.devRef .tc main_arg17) := W28_of_ne m ρ c main_arg17 (by decide)
    _ = W26 m ρ c (Proc.devRef .tc main_arg17) := KCarry.keeps_hostOps10 _ main_arg17 (by decide)
    _ = W25 m ρ c (Proc.devRef .tc main_arg17) := W26_of_ne m ρ c main_arg17 (by decide)
    _ = W24 m ρ c (Proc.devRef .tc main_arg17) := KCarry.keeps_hostOps9 _ main_arg17 (by decide)
theorem W32_W24_arg18 (c : Dev nD) : W32 m ρ c (Proc.devRef .tc main_arg18) = W24 m ρ c (Proc.devRef .tc main_arg18) :=
  calc W32 m ρ c (Proc.devRef .tc main_arg18)
    _ = W31 m ρ c (Proc.devRef .tc main_arg18) := W32_of_ne m ρ c main_arg18 (by decide)
    _ = W30 m ρ c (Proc.devRef .tc main_arg18) := KCarry.keeps_hostOps11_2 _ main_arg18 (by decide)
    _ = W29 m ρ c (Proc.devRef .tc main_arg18) := KCarry.keeps_hostOps11_1 _ main_arg18 (by decide)
    _ = W28 m ρ c (Proc.devRef .tc main_arg18) := KCarry.keeps_hostOps11 _ main_arg18 (by decide)
    _ = W27 m ρ c (Proc.devRef .tc main_arg18) := W28_of_ne m ρ c main_arg18 (by decide)
    _ = W26 m ρ c (Proc.devRef .tc main_arg18) := KCarry.keeps_hostOps10 _ main_arg18 (by decide)
    _ = W25 m ρ c (Proc.devRef .tc main_arg18) := W26_of_ne m ρ c main_arg18 (by decide)
    _ = W24 m ρ c (Proc.devRef .tc main_arg18) := KCarry.keeps_hostOps9 _ main_arg18 (by decide)
theorem W32_W24_arg19 (c : Dev nD) : W32 m ρ c (Proc.devRef .tc main_arg19) = W24 m ρ c (Proc.devRef .tc main_arg19) :=
  calc W32 m ρ c (Proc.devRef .tc main_arg19)
    _ = W31 m ρ c (Proc.devRef .tc main_arg19) := W32_of_ne m ρ c main_arg19 (by decide)
    _ = W30 m ρ c (Proc.devRef .tc main_arg19) := KCarry.keeps_hostOps11_2 _ main_arg19 (by decide)
    _ = W29 m ρ c (Proc.devRef .tc main_arg19) := KCarry.keeps_hostOps11_1 _ main_arg19 (by decide)
    _ = W28 m ρ c (Proc.devRef .tc main_arg19) := KCarry.keeps_hostOps11 _ main_arg19 (by decide)
    _ = W27 m ρ c (Proc.devRef .tc main_arg19) := W28_of_ne m ρ c main_arg19 (by decide)
    _ = W26 m ρ c (Proc.devRef .tc main_arg19) := KCarry.keeps_hostOps10 _ main_arg19 (by decide)
    _ = W25 m ρ c (Proc.devRef .tc main_arg19) := W26_of_ne m ρ c main_arg19 (by decide)
    _ = W24 m ρ c (Proc.devRef .tc main_arg19) := KCarry.keeps_hostOps9 _ main_arg19 (by decide)
theorem W32_W24_arg20 (c : Dev nD) : W32 m ρ c (Proc.devRef .tc main_arg20) = W24 m ρ c (Proc.devRef .tc main_arg20) :=
  calc W32 m ρ c (Proc.devRef .tc main_arg20)
    _ = W31 m ρ c (Proc.devRef .tc main_arg20) := W32_of_ne m ρ c main_arg20 (by decide)
    _ = W30 m ρ c (Proc.devRef .tc main_arg20) := KCarry.keeps_hostOps11_2 _ main_arg20 (by decide)
    _ = W29 m ρ c (Proc.devRef .tc main_arg20) := KCarry.keeps_hostOps11_1 _ main_arg20 (by decide)
    _ = W28 m ρ c (Proc.devRef .tc main_arg20) := KCarry.keeps_hostOps11 _ main_arg20 (by decide)
    _ = W27 m ρ c (Proc.devRef .tc main_arg20) := W28_of_ne m ρ c main_arg20 (by decide)
    _ = W26 m ρ c (Proc.devRef .tc main_arg20) := KCarry.keeps_hostOps10 _ main_arg20 (by decide)
    _ = W25 m ρ c (Proc.devRef .tc main_arg20) := W26_of_ne m ρ c main_arg20 (by decide)
    _ = W24 m ρ c (Proc.devRef .tc main_arg20) := KCarry.keeps_hostOps9 _ main_arg20 (by decide)
theorem W32_W24_arg21 (c : Dev nD) : W32 m ρ c (Proc.devRef .tc main_arg21) = W24 m ρ c (Proc.devRef .tc main_arg21) :=
  calc W32 m ρ c (Proc.devRef .tc main_arg21)
    _ = W31 m ρ c (Proc.devRef .tc main_arg21) := W32_of_ne m ρ c main_arg21 (by decide)
    _ = W30 m ρ c (Proc.devRef .tc main_arg21) := KCarry.keeps_hostOps11_2 _ main_arg21 (by decide)
    _ = W29 m ρ c (Proc.devRef .tc main_arg21) := KCarry.keeps_hostOps11_1 _ main_arg21 (by decide)
    _ = W28 m ρ c (Proc.devRef .tc main_arg21) := KCarry.keeps_hostOps11 _ main_arg21 (by decide)
    _ = W27 m ρ c (Proc.devRef .tc main_arg21) := W28_of_ne m ρ c main_arg21 (by decide)
    _ = W26 m ρ c (Proc.devRef .tc main_arg21) := KCarry.keeps_hostOps10 _ main_arg21 (by decide)
    _ = W25 m ρ c (Proc.devRef .tc main_arg21) := W26_of_ne m ρ c main_arg21 (by decide)
    _ = W24 m ρ c (Proc.devRef .tc main_arg21) := KCarry.keeps_hostOps9 _ main_arg21 (by decide)
theorem W32_W24_arg22 (c : Dev nD) : W32 m ρ c (Proc.devRef .tc main_arg22) = W24 m ρ c (Proc.devRef .tc main_arg22) :=
  calc W32 m ρ c (Proc.devRef .tc main_arg22)
    _ = W31 m ρ c (Proc.devRef .tc main_arg22) := W32_of_ne m ρ c main_arg22 (by decide)
    _ = W30 m ρ c (Proc.devRef .tc main_arg22) := KCarry.keeps_hostOps11_2 _ main_arg22 (by decide)
    _ = W29 m ρ c (Proc.devRef .tc main_arg22) := KCarry.keeps_hostOps11_1 _ main_arg22 (by decide)
    _ = W28 m ρ c (Proc.devRef .tc main_arg22) := KCarry.keeps_hostOps11 _ main_arg22 (by decide)
    _ = W27 m ρ c (Proc.devRef .tc main_arg22) := W28_of_ne m ρ c main_arg22 (by decide)
    _ = W26 m ρ c (Proc.devRef .tc main_arg22) := KCarry.keeps_hostOps10 _ main_arg22 (by decide)
    _ = W25 m ρ c (Proc.devRef .tc main_arg22) := W26_of_ne m ρ c main_arg22 (by decide)
    _ = W24 m ρ c (Proc.devRef .tc main_arg22) := KCarry.keeps_hostOps9 _ main_arg22 (by decide)
theorem W32_W24_arg23 (c : Dev nD) : W32 m ρ c (Proc.devRef .tc main_arg23) = W24 m ρ c (Proc.devRef .tc main_arg23) :=
  calc W32 m ρ c (Proc.devRef .tc main_arg23)
    _ = W31 m ρ c (Proc.devRef .tc main_arg23) := W32_of_ne m ρ c main_arg23 (by decide)
    _ = W30 m ρ c (Proc.devRef .tc main_arg23) := KCarry.keeps_hostOps11_2 _ main_arg23 (by decide)
    _ = W29 m ρ c (Proc.devRef .tc main_arg23) := KCarry.keeps_hostOps11_1 _ main_arg23 (by decide)
    _ = W28 m ρ c (Proc.devRef .tc main_arg23) := KCarry.keeps_hostOps11 _ main_arg23 (by decide)
    _ = W27 m ρ c (Proc.devRef .tc main_arg23) := W28_of_ne m ρ c main_arg23 (by decide)
    _ = W26 m ρ c (Proc.devRef .tc main_arg23) := KCarry.keeps_hostOps10 _ main_arg23 (by decide)
    _ = W25 m ρ c (Proc.devRef .tc main_arg23) := W26_of_ne m ρ c main_arg23 (by decide)
    _ = W24 m ρ c (Proc.devRef .tc main_arg23) := KCarry.keeps_hostOps9 _ main_arg23 (by decide)
theorem W32_W24_arg24 (c : Dev nD) : W32 m ρ c (Proc.devRef .tc main_arg24) = W24 m ρ c (Proc.devRef .tc main_arg24) :=
  calc W32 m ρ c (Proc.devRef .tc main_arg24)
    _ = W31 m ρ c (Proc.devRef .tc main_arg24) := W32_of_ne m ρ c main_arg24 (by decide)
    _ = W30 m ρ c (Proc.devRef .tc main_arg24) := KCarry.keeps_hostOps11_2 _ main_arg24 (by decide)
    _ = W29 m ρ c (Proc.devRef .tc main_arg24) := KCarry.keeps_hostOps11_1 _ main_arg24 (by decide)
    _ = W28 m ρ c (Proc.devRef .tc main_arg24) := KCarry.keeps_hostOps11 _ main_arg24 (by decide)
    _ = W27 m ρ c (Proc.devRef .tc main_arg24) := W28_of_ne m ρ c main_arg24 (by decide)
    _ = W26 m ρ c (Proc.devRef .tc main_arg24) := KCarry.keeps_hostOps10 _ main_arg24 (by decide)
    _ = W25 m ρ c (Proc.devRef .tc main_arg24) := W26_of_ne m ρ c main_arg24 (by decide)
    _ = W24 m ρ c (Proc.devRef .tc main_arg24) := KCarry.keeps_hostOps9 _ main_arg24 (by decide)
theorem W32_W24_arg25 (c : Dev nD) : W32 m ρ c (Proc.devRef .tc main_arg25) = W24 m ρ c (Proc.devRef .tc main_arg25) :=
  calc W32 m ρ c (Proc.devRef .tc main_arg25)
    _ = W31 m ρ c (Proc.devRef .tc main_arg25) := W32_of_ne m ρ c main_arg25 (by decide)
    _ = W30 m ρ c (Proc.devRef .tc main_arg25) := KCarry.keeps_hostOps11_2 _ main_arg25 (by decide)
    _ = W29 m ρ c (Proc.devRef .tc main_arg25) := KCarry.keeps_hostOps11_1 _ main_arg25 (by decide)
    _ = W28 m ρ c (Proc.devRef .tc main_arg25) := KCarry.keeps_hostOps11 _ main_arg25 (by decide)
    _ = W27 m ρ c (Proc.devRef .tc main_arg25) := W28_of_ne m ρ c main_arg25 (by decide)
    _ = W26 m ρ c (Proc.devRef .tc main_arg25) := KCarry.keeps_hostOps10 _ main_arg25 (by decide)
    _ = W25 m ρ c (Proc.devRef .tc main_arg25) := W26_of_ne m ρ c main_arg25 (by decide)
    _ = W24 m ρ c (Proc.devRef .tc main_arg25) := KCarry.keeps_hostOps9 _ main_arg25 (by decide)
theorem W32_W24_arg26 (c : Dev nD) : W32 m ρ c (Proc.devRef .tc main_arg26) = W24 m ρ c (Proc.devRef .tc main_arg26) :=
  calc W32 m ρ c (Proc.devRef .tc main_arg26)
    _ = W31 m ρ c (Proc.devRef .tc main_arg26) := W32_of_ne m ρ c main_arg26 (by decide)
    _ = W30 m ρ c (Proc.devRef .tc main_arg26) := KCarry.keeps_hostOps11_2 _ main_arg26 (by decide)
    _ = W29 m ρ c (Proc.devRef .tc main_arg26) := KCarry.keeps_hostOps11_1 _ main_arg26 (by decide)
    _ = W28 m ρ c (Proc.devRef .tc main_arg26) := KCarry.keeps_hostOps11 _ main_arg26 (by decide)
    _ = W27 m ρ c (Proc.devRef .tc main_arg26) := W28_of_ne m ρ c main_arg26 (by decide)
    _ = W26 m ρ c (Proc.devRef .tc main_arg26) := KCarry.keeps_hostOps10 _ main_arg26 (by decide)
    _ = W25 m ρ c (Proc.devRef .tc main_arg26) := W26_of_ne m ρ c main_arg26 (by decide)
    _ = W24 m ρ c (Proc.devRef .tc main_arg26) := KCarry.keeps_hostOps9 _ main_arg26 (by decide)
theorem W32_W24_src (c : Dev nD) : W32 m ρ c (Proc.devRef .tc main_v1) = W24 m ρ c (Proc.devRef .tc main_v1) :=
  calc W32 m ρ c (Proc.devRef .tc main_v1)
    _ = W31 m ρ c (Proc.devRef .tc main_v1) := W32_of_ne m ρ c main_v1 (by decide)
    _ = W30 m ρ c (Proc.devRef .tc main_v1) := KCarry.keeps_hostOps11_2 _ main_v1 (by decide)
    _ = W29 m ρ c (Proc.devRef .tc main_v1) := KCarry.keeps_hostOps11_1 _ main_v1 (by decide)
    _ = W28 m ρ c (Proc.devRef .tc main_v1) := KCarry.keeps_hostOps11 _ main_v1 (by decide)
    _ = W27 m ρ c (Proc.devRef .tc main_v1) := W28_of_ne m ρ c main_v1 (by decide)
    _ = W26 m ρ c (Proc.devRef .tc main_v1) := KCarry.keeps_hostOps10 _ main_v1 (by decide)
    _ = W25 m ρ c (Proc.devRef .tc main_v1) := W26_of_ne m ρ c main_v1 (by decide)
    _ = W24 m ρ c (Proc.devRef .tc main_v1) := KCarry.keeps_hostOps9 _ main_v1 (by decide)
theorem W32_W24_dst (c : Dev nD) : W32 m ρ c (Proc.devRef .tc main_v3) = W24 m ρ c (Proc.devRef .tc main_v3) :=
  calc W32 m ρ c (Proc.devRef .tc main_v3)
    _ = W31 m ρ c (Proc.devRef .tc main_v3) := W32_of_ne m ρ c main_v3 (by decide)
    _ = W30 m ρ c (Proc.devRef .tc main_v3) := KCarry.keeps_hostOps11_2 _ main_v3 (by decide)
    _ = W29 m ρ c (Proc.devRef .tc main_v3) := KCarry.keeps_hostOps11_1 _ main_v3 (by decide)
    _ = W28 m ρ c (Proc.devRef .tc main_v3) := KCarry.keeps_hostOps11 _ main_v3 (by decide)
    _ = W27 m ρ c (Proc.devRef .tc main_v3) := W28_of_ne m ρ c main_v3 (by decide)
    _ = W26 m ρ c (Proc.devRef .tc main_v3) := KCarry.keeps_hostOps10 _ main_v3 (by decide)
    _ = W25 m ρ c (Proc.devRef .tc main_v3) := W26_of_ne m ρ c main_v3 (by decide)
    _ = W24 m ρ c (Proc.devRef .tc main_v3) := KCarry.keeps_hostOps9 _ main_v3 (by decide)

end Cert.KernelValue

end
-- ==== Proof.KCarry40.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the eight segments of the fifth layer, each buffer at boundary 40 equal to itself at boundary 32.
-/
import proofs.«425927_j69028714381396_2_alg».proof.Proof.FrameKIW
import Idealize.ShloMosaic.Lib.StableHlo.Run

-- deciding that two of the program's several hundred references differ recurses once per reference
set_option maxRecDepth 16384

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-- The argument arrays. -/
abbrev KCarry.argRefs40 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
/-- The carried buffers: the argument arrays and the two edge-endpoint vectors. -/
abbrev KCarry.carried40 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_v1, main_v3]

/-! ## The host stretches of the layer -/

/-- No operation of this stretch has one of the carried buffers as its result. -/
theorem KCarry.keeps_hostOps12 (V0 : Valuation τ sig (Elt F)) (r : Ref sig .tc) (hr : r ∈ KCarry.carried40) :
    StableHlo.after hostOps12 V0 (Proc.devRef .tc r) = V0 (Proc.devRef .tc r) :=
  StableHlo.after_of_forall_not_mem (b := Proc.devRef .tc r) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps13 (V0 : Valuation τ sig (Elt F)) (r : Ref sig .tc) (hr : r ∈ KCarry.carried40) :
    StableHlo.after hostOps13 V0 (Proc.devRef .tc r) = V0 (Proc.devRef .tc r) :=
  StableHlo.after_of_forall_not_mem (b := Proc.devRef .tc r) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps14 (V0 : Valuation τ sig (Elt F)) (r : Ref sig .tc) (hr : r ∈ KCarry.carried40) :
    StableHlo.after hostOps14 V0 (Proc.devRef .tc r) = V0 (Proc.devRef .tc r) :=
  StableHlo.after_of_forall_not_mem (b := Proc.devRef .tc r) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps14_1 (V0 : Valuation τ sig (Elt F)) (r : Ref sig .tc) (hr : r ∈ KCarry.carried40) :
    StableHlo.after hostOps14_1 V0 (Proc.devRef .tc r) = V0 (Proc.devRef .tc r) :=
  StableHlo.after_of_forall_not_mem (b := Proc.devRef .tc r) _ _ (List.forall_iff_forall_mem.mp (by
    simp only [hostOps14_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- No operation of this stretch has one of the carried buffers as its result. -/
theorem KCarry.keeps_hostOps14_2 (V0 : Valuation τ sig (Elt F)) (r : Ref sig .tc) (hr : r ∈ KCarry.carried40) :
    StableHlo.after hostOps14_2 V0 (Proc.devRef .tc r) = V0 (Proc.devRef .tc r) :=
  StableHlo.after_of_forall_not_mem (b := Proc.devRef .tc r) _ _ (List.forall_iff_forall_mem.mp (by
    simp only [hostOps14_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-! ## The walks -/

theorem W40_W32_arg0 (c : Dev nD) : W40 m ρ c (Proc.devRef .tc main_arg0) = W32 m ρ c (Proc.devRef .tc main_arg0) :=
  calc W40 m ρ c (Proc.devRef .tc main_arg0)
    _ = W39 m ρ c (Proc.devRef .tc main_arg0) := W40_of_ne m ρ c main_arg0 (by decide)
    _ = W38 m ρ c (Proc.devRef .tc main_arg0) := KCarry.keeps_hostOps14_2 _ main_arg0 (by decide)
    _ = W37 m ρ c (Proc.devRef .tc main_arg0) := KCarry.keeps_hostOps14_1 _ main_arg0 (by decide)
    _ = W36 m ρ c (Proc.devRef .tc main_arg0) := KCarry.keeps_hostOps14 _ main_arg0 (by decide)
    _ = W35 m ρ c (Proc.devRef .tc main_arg0) := W36_of_ne m ρ c main_arg0 (by decide)
    _ = W34 m ρ c (Proc.devRef .tc main_arg0) := KCarry.keeps_hostOps13 _ main_arg0 (by decide)
    _ = W33 m ρ c (Proc.devRef .tc main_arg0) := (W34_arr m ρ c 0).trans (((dat12 (V33 m ρ) c).arrAt_in 0 rfl _).trans (A_eq12 (V33 m ρ) c 0))
    _ = W32 m ρ c (Proc.devRef .tc main_arg0) := KCarry.keeps_hostOps12 _ main_arg0 (by decide)
theorem W40_W32_arg1 (c : Dev nD) : W40 m ρ c (Proc.devRef .tc main_arg1) = W32 m ρ c (Proc.devRef .tc main_arg1) :=
  calc W40 m ρ c (Proc.devRef .tc main_arg1)
    _ = W39 m ρ c (Proc.devRef .tc main_arg1) := W40_of_ne m ρ c main_arg1 (by decide)
    _ = W38 m ρ c (Proc.devRef .tc main_arg1) := KCarry.keeps_hostOps14_2 _ main_arg1 (by decide)
    _ = W37 m ρ c (Proc.devRef .tc main_arg1) := KCarry.keeps_hostOps14_1 _ main_arg1 (by decide)
    _ = W36 m ρ c (Proc.devRef .tc main_arg1) := KCarry.keeps_hostOps14 _ main_arg1 (by decide)
    _ = W35 m ρ c (Proc.devRef .tc main_arg1) := W36_of_ne m ρ c main_arg1 (by decide)
    _ = W34 m ρ c (Proc.devRef .tc main_arg1) := KCarry.keeps_hostOps13 _ main_arg1 (by decide)
    _ = W33 m ρ c (Proc.devRef .tc main_arg1) := W34_of_ne m ρ c main_arg1 (by decide)
    _ = W32 m ρ c (Proc.devRef .tc main_arg1) := KCarry.keeps_hostOps12 _ main_arg1 (by decide)
theorem W40_W32_arg2 (c : Dev nD) : W40 m ρ c (Proc.devRef .tc main_arg2) = W32 m ρ c (Proc.devRef .tc main_arg2) :=
  calc W40 m ρ c (Proc.devRef .tc main_arg2)
    _ = W39 m ρ c (Proc.devRef .tc main_arg2) := W40_of_ne m ρ c main_arg2 (by decide)
    _ = W38 m ρ c (Proc.devRef .tc main_arg2) := KCarry.keeps_hostOps14_2 _ main_arg2 (by decide)
    _ = W37 m ρ c (Proc.devRef .tc main_arg2) := KCarry.keeps_hostOps14_1 _ main_arg2 (by decide)
    _ = W36 m ρ c (Proc.devRef .tc main_arg2) := KCarry.keeps_hostOps14 _ main_arg2 (by decide)
    _ = W35 m ρ c (Proc.devRef .tc main_arg2) := W36_of_ne m ρ c main_arg2 (by decide)
    _ = W34 m ρ c (Proc.devRef .tc main_arg2) := KCarry.keeps_hostOps13 _ main_arg2 (by decide)
    _ = W33 m ρ c (Proc.devRef .tc main_arg2) := W34_of_ne m ρ c main_arg2 (by decide)
    _ = W32 m ρ c (Proc.devRef .tc main_arg2) := KCarry.keeps_hostOps12 _ main_arg2 (by decide)
theorem W40_W32_arg3 (c : Dev nD) : W40 m ρ c (Proc.devRef .tc main_arg3) = W32 m ρ c (Proc.devRef .tc main_arg3) :=
  calc W40 m ρ c (Proc.devRef .tc main_arg3)
    _ = W39 m ρ c (Proc.devRef .tc main_arg3) := W40_of_ne m ρ c main_arg3 (by decide)
    _ = W38 m ρ c (Proc.devRef .tc main_arg3) := KCarry.keeps_hostOps14_2 _ main_arg3 (by decide)
    _ = W37 m ρ c (Proc.devRef .tc main_arg3) := KCarry.keeps_hostOps14_1 _ main_arg3 (by decide)
    _ = W36 m ρ c (Proc.devRef .tc main_arg3) := KCarry.keeps_hostOps14 _ main_arg3 (by decide)
    _ = W35 m ρ c (Proc.devRef .tc main_arg3) := W36_of_ne m ρ c main_arg3 (by decide)
    _ = W34 m ρ c (Proc.devRef .tc main_arg3) := KCarry.keeps_hostOps13 _ main_arg3 (by decide)
    _ = W33 m ρ c (Proc.devRef .tc main_arg3) := W34_of_ne m ρ c main_arg3 (by decide)
    _ = W32 m ρ c (Proc.devRef .tc main_arg3) := KCarry.keeps_hostOps12 _ main_arg3 (by decide)
theorem W40_W32_arg4 (c : Dev nD) : W40 m ρ c (Proc.devRef .tc main_arg4) = W32 m ρ c (Proc.devRef .tc main_arg4) :=
  calc W40 m ρ c (Proc.devRef .tc main_arg4)
    _ = W39 m ρ c (Proc.devRef .tc main_arg4) := W40_of_ne m ρ c main_arg4 (by decide)
    _ = W38 m ρ c (Proc.devRef .tc main_arg4) := KCarry.keeps_hostOps14_2 _ main_arg4 (by decide)
    _ = W37 m ρ c (Proc.devRef .tc main_arg4) := KCarry.keeps_hostOps14_1 _ main_arg4 (by decide)
    _ = W36 m ρ c (Proc.devRef .tc main_arg4) := KCarry.keeps_hostOps14 _ main_arg4 (by decide)
    _ = W35 m ρ c (Proc.devRef .tc main_arg4) := W36_of_ne m ρ c main_arg4 (by decide)
    _ = W34 m ρ c (Proc.devRef .tc main_arg4) := KCarry.keeps_hostOps13 _ main_arg4 (by decide)
    _ = W33 m ρ c (Proc.devRef .tc main_arg4) := W34_of_ne m ρ c main_arg4 (by decide)
    _ = W32 m ρ c (Proc.devRef .tc main_arg4) := KCarry.keeps_hostOps12 _ main_arg4 (by decide)
theorem W40_W32_arg5 (c : Dev nD) : W40 m ρ c (Proc.devRef .tc main_arg5) = W32 m ρ c (Proc.devRef .tc main_arg5) :=
  calc W40 m ρ c (Proc.devRef .tc main_arg5)
    _ = W39 m ρ c (Proc.devRef .tc main_arg5) := W40_of_ne m ρ c main_arg5 (by decide)
    _ = W38 m ρ c (Proc.devRef .tc main_arg5) := KCarry.keeps_hostOps14_2 _ main_arg5 (by decide)
    _ = W37 m ρ c (Proc.devRef .tc main_arg5) := KCarry.keeps_hostOps14_1 _ main_arg5 (by decide)
    _ = W36 m ρ c (Proc.devRef .tc main_arg5) := KCarry.keeps_hostOps14 _ main_arg5 (by decide)
    _ = W35 m ρ c (Proc.devRef .tc main_arg5) := W36_of_ne m ρ c main_arg5 (by decide)
    _ = W34 m ρ c (Proc.devRef .tc main_arg5) := KCarry.keeps_hostOps13 _ main_arg5 (by decide)
    _ = W33 m ρ c (Proc.devRef .tc main_arg5) := W34_of_ne m ρ c main_arg5 (by decide)
    _ = W32 m ρ c (Proc.devRef .tc main_arg5) := KCarry.keeps_hostOps12 _ main_arg5 (by decide)
theorem W40_W32_arg6 (c : Dev nD) : W40 m ρ c (Proc.devRef .tc main_arg6) = W32 m ρ c (Proc.devRef .tc main_arg6) :=
  calc W40 m ρ c (Proc.devRef .tc main_arg6)
    _ = W39 m ρ c (Proc.devRef .tc main_arg6) := W40_of_ne m ρ c main_arg6 (by decide)
    _ = W38 m ρ c (Proc.devRef .tc main_arg6) := KCarry.keeps_hostOps14_2 _ main_arg6 (by decide)
    _ = W37 m ρ c (Proc.devRef .tc main_arg6) := KCarry.keeps_hostOps14_1 _ main_arg6 (by decide)
    _ = W36 m ρ c (Proc.devRef .tc main_arg6) := KCarry.keeps_hostOps14 _ main_arg6 (by decide)
    _ = W35 m ρ c (Proc.devRef .tc main_arg6) := W36_of_ne m ρ c main_arg6 (by decide)
    _ = W34 m ρ c (Proc.devRef .tc main_arg6) := KCarry.keeps_hostOps13 _ main_arg6 (by decide)
    _ = W33 m ρ c (Proc.devRef .tc main_arg6) := W34_of_ne m ρ c main_arg6 (by decide)
    _ = W32 m ρ c (Proc.devRef .tc main_arg6) := KCarry.keeps_hostOps12 _ main_arg6 (by decide)
theorem W40_W32_arg7 (c : Dev nD) : W40 m ρ c (Proc.devRef .tc main_arg7) = W32 m ρ c (Proc.devRef .tc main_arg7) :=
  calc W40 m ρ c (Proc.devRef .tc main_arg7)
    _ = W39 m ρ c (Proc.devRef .tc main_arg7) := W40_of_ne m ρ c main_arg7 (by decide)
    _ = W38 m ρ c (Proc.devRef .tc main_arg7) := KCarry.keeps_hostOps14_2 _ main_arg7 (by decide)
    _ = W37 m ρ c (Proc.devRef .tc main_arg7) := KCarry.keeps_hostOps14_1 _ main_arg7 (by decide)
    _ = W36 m ρ c (Proc.devRef .tc main_arg7) := KCarry.keeps_hostOps14 _ main_arg7 (by decide)
    _ = W35 m ρ c (Proc.devRef .tc main_arg7) := W36_of_ne m ρ c main_arg7 (by decide)
    _ = W34 m ρ c (Proc.devRef .tc main_arg7) := KCarry.keeps_hostOps13 _ main_arg7 (by decide)
    _ = W33 m ρ c (Proc.devRef .tc main_arg7) := W34_of_ne m ρ c main_arg7 (by decide)
    _ = W32 m ρ c (Proc.devRef .tc main_arg7) := KCarry.keeps_hostOps12 _ main_arg7 (by decide)
theorem W40_W32_arg8 (c : Dev nD) : W40 m ρ c (Proc.devRef .tc main_arg8) = W32 m ρ c (Proc.devRef .tc main_arg8) :=
  calc W40 m ρ c (Proc.devRef .tc main_arg8)
    _ = W39 m ρ c (Proc.devRef .tc main_arg8) := W40_of_ne m ρ c main_arg8 (by decide)
    _ = W38 m ρ c (Proc.devRef .tc main_arg8) := KCarry.keeps_hostOps14_2 _ main_arg8 (by decide)
    _ = W37 m ρ c (Proc.devRef .tc main_arg8) := KCarry.keeps_hostOps14_1 _ main_arg8 (by decide)
    _ = W36 m ρ c (Proc.devRef .tc main_arg8) := KCarry.keeps_hostOps14 _ main_arg8 (by decide)
    _ = W35 m ρ c (Proc.devRef .tc main_arg8) := W36_of_ne m ρ c main_arg8 (by decide)
    _ = W34 m ρ c (Proc.devRef .tc main_arg8) := KCarry.keeps_hostOps13 _ main_arg8 (by decide)
    _ = W33 m ρ c (Proc.devRef .tc main_arg8) := W34_of_ne m ρ c main_arg8 (by decide)
    _ = W32 m ρ c (Proc.devRef .tc main_arg8) := KCarry.keeps_hostOps12 _ main_arg8 (by decide)
theorem W40_W32_arg9 (c : Dev nD) : W40 m ρ c (Proc.devRef .tc main_arg9) = W32 m ρ c (Proc.devRef .tc main_arg9) :=
  calc W40 m ρ c (Proc.devRef .tc main_arg9)
    _ = W39 m ρ c (Proc.devRef .tc main_arg9) := W40_of_ne m ρ c main_arg9 (by decide)
    _ = W38 m ρ c (Proc.devRef .tc main_arg9) := KCarry.keeps_hostOps14_2 _ main_arg9 (by decide)
    _ = W37 m ρ c (Proc.devRef .tc main_arg9) := KCarry.keeps_hostOps14_1 _ main_arg9 (by decide)
    _ = W36 m ρ c (Proc.devRef .tc main_arg9) := KCarry.keeps_hostOps14 _ main_arg9 (by decide)
    _ = W35 m ρ c (Proc.devRef .tc main_arg9) := W36_of_ne m ρ c main_arg9 (by decide)
    _ = W34 m ρ c (Proc.devRef .tc main_arg9) := KCarry.keeps_hostOps13 _ main_arg9 (by decide)
    _ = W33 m ρ c (Proc.devRef .tc main_arg9) := W34_of_ne m ρ c main_arg9 (by decide)
    _ = W32 m ρ c (Proc.devRef .tc main_arg9) := KCarry.keeps_hostOps12 _ main_arg9 (by decide)
theorem W40_W32_arg10 (c : Dev nD) : W40 m ρ c (Proc.devRef .tc main_arg10) = W32 m ρ c (Proc.devRef .tc main_arg10) :=
  calc W40 m ρ c (Proc.devRef .tc main_arg10)
    _ = W39 m ρ c (Proc.devRef .tc main_arg10) := W40_of_ne m ρ c main_arg10 (by decide)
    _ = W38 m ρ c (Proc.devRef .tc main_arg10) := KCarry.keeps_hostOps14_2 _ main_arg10 (by decide)
    _ = W37 m ρ c (Proc.devRef .tc main_arg10) := KCarry.keeps_hostOps14_1 _ main_arg10 (by decide)
    _ = W36 m ρ c (Proc.devRef .tc main_arg10) := KCarry.keeps_hostOps14 _ main_arg10 (by decide)
    _ = W35 m ρ c (Proc.devRef .tc main_arg10) := W36_of_ne m ρ c main_arg10 (by decide)
    _ = W34 m ρ c (Proc.devRef .tc main_arg10) := KCarry.keeps_hostOps13 _ main_arg10 (by decide)
    _ = W33 m ρ c (Proc.devRef .tc main_arg10) := W34_of_ne m ρ c main_arg10 (by decide)
    _ = W32 m ρ c (Proc.devRef .tc main_arg10) := KCarry.keeps_hostOps12 _ main_arg10 (by decide)
theorem W40_W32_arg11 (c : Dev nD) : W40 m ρ c (Proc.devRef .tc main_arg11) = W32 m ρ c (Proc.devRef .tc main_arg11) :=
  calc W40 m ρ c (Proc.devRef .tc main_arg11)
    _ = W39 m ρ c (Proc.devRef .tc main_arg11) := W40_of_ne m ρ c main_arg11 (by decide)
    _ = W38 m ρ c (Proc.devRef .tc main_arg11) := KCarry.keeps_hostOps14_2 _ main_arg11 (by decide)
    _ = W37 m ρ c (Proc.devRef .tc main_arg11) := KCarry.keeps_hostOps14_1 _ main_arg11 (by decide)
    _ = W36 m ρ c (Proc.devRef .tc main_arg11) := KCarry.keeps_hostOps14 _ main_arg11 (by decide)
    _ = W35 m ρ c (Proc.devRef .tc main_arg11) := W36_of_ne m ρ c main_arg11 (by decide)
    _ = W34 m ρ c (Proc.devRef .tc main_arg11) := KCarry.keeps_hostOps13 _ main_arg11 (by decide)
    _ = W33 m ρ c (Proc.devRef .tc main_arg11) := W34_of_ne m ρ c main_arg11 (by decide)
    _ = W32 m ρ c (Proc.devRef .tc main_arg11) := KCarry.keeps_hostOps12 _ main_arg11 (by decide)
theorem W40_W32_arg12 (c : Dev nD) : W40 m ρ c (Proc.devRef .tc main_arg12) = W32 m ρ c (Proc.devRef .tc main_arg12) :=
  calc W40 m ρ c (Proc.devRef .tc main_arg12)
    _ = W39 m ρ c (Proc.devRef .tc main_arg12) := W40_of_ne m ρ c main_arg12 (by decide)
    _ = W38 m ρ c (Proc.devRef .tc main_arg12) := KCarry.keeps_hostOps14_2 _ main_arg12 (by decide)
    _ = W37 m ρ c (Proc.devRef .tc main_arg12) := KCarry.keeps_hostOps14_1 _ main_arg12 (by decide)
    _ = W36 m ρ c (Proc.devRef .tc main_arg12) := KCarry.keeps_hostOps14 _ main_arg12 (by decide)
    _ = W35 m ρ c (Proc.devRef .tc main_arg12) := W36_of_ne m ρ c main_arg12 (by decide)
    _ = W34 m ρ c (Proc.devRef .tc main_arg12) := KCarry.keeps_hostOps13 _ main_arg12 (by decide)
    _ = W33 m ρ c (Proc.devRef .tc main_arg12) := W34_of_ne m ρ c main_arg12 (by decide)
    _ = W32 m ρ c (Proc.devRef .tc main_arg12) := KCarry.keeps_hostOps12 _ main_arg12 (by decide)
theorem W40_W32_arg13 (c : Dev nD) : W40 m ρ c (Proc.devRef .tc main_arg13) = W32 m ρ c (Proc.devRef .tc main_arg13) :=
  calc W40 m ρ c (Proc.devRef .tc main_arg13)
    _ = W39 m ρ c (Proc.devRef .tc main_arg13) := W40_of_ne m ρ c main_arg13 (by decide)
    _ = W38 m ρ c (Proc.devRef .tc main_arg13) := KCarry.keeps_hostOps14_2 _ main_arg13 (by decide)
    _ = W37 m ρ c (Proc.devRef .tc main_arg13) := KCarry.keeps_hostOps14_1 _ main_arg13 (by decide)
    _ = W36 m ρ c (Proc.devRef .tc main_arg13) := KCarry.keeps_hostOps14 _ main_arg13 (by decide)
    _ = W35 m ρ c (Proc.devRef .tc main_arg13) := W36_of_ne m ρ c main_arg13 (by decide)
    _ = W34 m ρ c (Proc.devRef .tc main_arg13) := KCarry.keeps_hostOps13 _ main_arg13 (by decide)
    _ = W33 m ρ c (Proc.devRef .tc main_arg13) := W34_of_ne m ρ c main_arg13 (by decide)
    _ = W32 m ρ c (Proc.devRef .tc main_arg13) := KCarry.keeps_hostOps12 _ main_arg13 (by decide)
theorem W40_W32_arg14 (c : Dev nD) : W40 m ρ c (Proc.devRef .tc main_arg14) = W32 m ρ c (Proc.devRef .tc main_arg14) :=
  calc W40 m ρ c (Proc.devRef .tc main_arg14)
    _ = W39 m ρ c (Proc.devRef .tc main_arg14) := W40_of_ne m ρ c main_arg14 (by decide)
    _ = W38 m ρ c (Proc.devRef .tc main_arg14) := KCarry.keeps_hostOps14_2 _ main_arg14 (by decide)
    _ = W37 m ρ c (Proc.devRef .tc main_arg14) := KCarry.keeps_hostOps14_1 _ main_arg14 (by decide)
    _ = W36 m ρ c (Proc.devRef .tc main_arg14) := KCarry.keeps_hostOps14 _ main_arg14 (by decide)
    _ = W35 m ρ c (Proc.devRef .tc main_arg14) := W36_of_ne m ρ c main_arg14 (by decide)
    _ = W34 m ρ c (Proc.devRef .tc main_arg14) := KCarry.keeps_hostOps13 _ main_arg14 (by decide)
    _ = W33 m ρ c (Proc.devRef .tc main_arg14) := W34_of_ne m ρ c main_arg14 (by decide)
    _ = W32 m ρ c (Proc.devRef .tc main_arg14) := KCarry.keeps_hostOps12 _ main_arg14 (by decide)
theorem W40_W32_arg15 (c : Dev nD) : W40 m ρ c (Proc.devRef .tc main_arg15) = W32 m ρ c (Proc.devRef .tc main_arg15) :=
  calc W40 m ρ c (Proc.devRef .tc main_arg15)
    _ = W39 m ρ c (Proc.devRef .tc main_arg15) := W40_of_ne m ρ c main_arg15 (by decide)
    _ = W38 m ρ c (Proc.devRef .tc main_arg15) := KCarry.keeps_hostOps14_2 _ main_arg15 (by decide)
    _ = W37 m ρ c (Proc.devRef .tc main_arg15) := KCarry.keeps_hostOps14_1 _ main_arg15 (by decide)
    _ = W36 m ρ c (Proc.devRef .tc main_arg15) := KCarry.keeps_hostOps14 _ main_arg15 (by decide)
    _ = W35 m ρ c (Proc.devRef .tc main_arg15) := W36_of_ne m ρ c main_arg15 (by decide)
    _ = W34 m ρ c (Proc.devRef .tc main_arg15) := KCarry.keeps_hostOps13 _ main_arg15 (by decide)
    _ = W33 m ρ c (Proc.devRef .tc main_arg15) := W34_of_ne m ρ c main_arg15 (by decide)
    _ = W32 m ρ c (Proc.devRef .tc main_arg15) := KCarry.keeps_hostOps12 _ main_arg15 (by decide)
theorem W40_W32_arg16 (c : Dev nD) : W40 m ρ c (Proc.devRef .tc main_arg16) = W32 m ρ c (Proc.devRef .tc main_arg16) :=
  calc W40 m ρ c (Proc.devRef .tc main_arg16)
    _ = W39 m ρ c (Proc.devRef .tc main_arg16) := W40_of_ne m ρ c main_arg16 (by decide)
    _ = W38 m ρ c (Proc.devRef .tc main_arg16) := KCarry.keeps_hostOps14_2 _ main_arg16 (by decide)
    _ = W37 m ρ c (Proc.devRef .tc main_arg16) := KCarry.keeps_hostOps14_1 _ main_arg16 (by decide)
    _ = W36 m ρ c (Proc.devRef .tc main_arg16) := KCarry.keeps_hostOps14 _ main_arg16 (by decide)
    _ = W35 m ρ c (Proc.devRef .tc main_arg16) := W36_of_ne m ρ c main_arg16 (by decide)
    _ = W34 m ρ c (Proc.devRef .tc main_arg16) := KCarry.keeps_hostOps13 _ main_arg16 (by decide)
    _ = W33 m ρ c (Proc.devRef .tc main_arg16) := W34_of_ne m ρ c main_arg16 (by decide)
    _ = W32 m ρ c (Proc.devRef .tc main_arg16) := KCarry.keeps_hostOps12 _ main_arg16 (by decide)
theorem W40_W32_arg17 (c : Dev nD) : W40 m ρ c (Proc.devRef .tc main_arg17) = W32 m ρ c (Proc.devRef .tc main_arg17) :=
  calc W40 m ρ c (Proc.devRef .tc main_arg17)
    _ = W39 m ρ c (Proc.devRef .tc main_arg17) := W40_of_ne m ρ c main_arg17 (by decide)
    _ = W38 m ρ c (Proc.devRef .tc main_arg17) := KCarry.keeps_hostOps14_2 _ main_arg17 (by decide)
    _ = W37 m ρ c (Proc.devRef .tc main_arg17) := KCarry.keeps_hostOps14_1 _ main_arg17 (by decide)
    _ = W36 m ρ c (Proc.devRef .tc main_arg17) := KCarry.keeps_hostOps14 _ main_arg17 (by decide)
    _ = W35 m ρ c (Proc.devRef .tc main_arg17) := W36_of_ne m ρ c main_arg17 (by decide)
    _ = W34 m ρ c (Proc.devRef .tc main_arg17) := KCarry.keeps_hostOps13 _ main_arg17 (by decide)
    _ = W33 m ρ c (Proc.devRef .tc main_arg17) := W34_of_ne m ρ c main_arg17 (by decide)
    _ = W32 m ρ c (Proc.devRef .tc main_arg17) := KCarry.keeps_hostOps12 _ main_arg17 (by decide)
theorem W40_W32_arg18 (c : Dev nD) : W40 m ρ c (Proc.devRef .tc main_arg18) = W32 m ρ c (Proc.devRef .tc main_arg18) :=
  calc W40 m ρ c (Proc.devRef .tc main_arg18)
    _ = W39 m ρ c (Proc.devRef .tc main_arg18) := W40_of_ne m ρ c main_arg18 (by decide)
    _ = W38 m ρ c (Proc.devRef .tc main_arg18) := KCarry.keeps_hostOps14_2 _ main_arg18 (by decide)
    _ = W37 m ρ c (Proc.devRef .tc main_arg18) := KCarry.keeps_hostOps14_1 _ main_arg18 (by decide)
    _ = W36 m ρ c (Proc.devRef .tc main_arg18) := KCarry.keeps_hostOps14 _ main_arg18 (by decide)
    _ = W35 m ρ c (Proc.devRef .tc main_arg18) := W36_of_ne m ρ c main_arg18 (by decide)
    _ = W34 m ρ c (Proc.devRef .tc main_arg18) := KCarry.keeps_hostOps13 _ main_arg18 (by decide)
    _ = W33 m ρ c (Proc.devRef .tc main_arg18) := W34_of_ne m ρ c main_arg18 (by decide)
    _ = W32 m ρ c (Proc.devRef .tc main_arg18) := KCarry.keeps_hostOps12 _ main_arg18 (by decide)
theorem W40_W32_arg19 (c : Dev nD) : W40 m ρ c (Proc.devRef .tc main_arg19) = W32 m ρ c (Proc.devRef .tc main_arg19) :=
  calc W40 m ρ c (Proc.devRef .tc main_arg19)
    _ = W39 m ρ c (Proc.devRef .tc main_arg19) := W40_of_ne m ρ c main_arg19 (by decide)
    _ = W38 m ρ c (Proc.devRef .tc main_arg19) := KCarry.keeps_hostOps14_2 _ main_arg19 (by decide)
    _ = W37 m ρ c (Proc.devRef .tc main_arg19) := KCarry.keeps_hostOps14_1 _ main_arg19 (by decide)
    _ = W36 m ρ c (Proc.devRef .tc main_arg19) := KCarry.keeps_hostOps14 _ main_arg19 (by decide)
    _ = W35 m ρ c (Proc.devRef .tc main_arg19) := W36_of_ne m ρ c main_arg19 (by decide)
    _ = W34 m ρ c (Proc.devRef .tc main_arg19) := KCarry.keeps_hostOps13 _ main_arg19 (by decide)
    _ = W33 m ρ c (Proc.devRef .tc main_arg19) := W34_of_ne m ρ c main_arg19 (by decide)
    _ = W32 m ρ c (Proc.devRef .tc main_arg19) := KCarry.keeps_hostOps12 _ main_arg19 (by decide)
theorem W40_W32_arg20 (c : Dev nD) : W40 m ρ c (Proc.devRef .tc main_arg20) = W32 m ρ c (Proc.devRef .tc main_arg20) :=
  calc W40 m ρ c (Proc.devRef .tc main_arg20)
    _ = W39 m ρ c (Proc.devRef .tc main_arg20) := W40_of_ne m ρ c main_arg20 (by decide)
    _ = W38 m ρ c (Proc.devRef .tc main_arg20) := KCarry.keeps_hostOps14_2 _ main_arg20 (by decide)
    _ = W37 m ρ c (Proc.devRef .tc main_arg20) := KCarry.keeps_hostOps14_1 _ main_arg20 (by decide)
    _ = W36 m ρ c (Proc.devRef .tc main_arg20) := KCarry.keeps_hostOps14 _ main_arg20 (by decide)
    _ = W35 m ρ c (Proc.devRef .tc main_arg20) := W36_of_ne m ρ c main_arg20 (by decide)
    _ = W34 m ρ c (Proc.devRef .tc main_arg20) := KCarry.keeps_hostOps13 _ main_arg20 (by decide)
    _ = W33 m ρ c (Proc.devRef .tc main_arg20) := W34_of_ne m ρ c main_arg20 (by decide)
    _ = W32 m ρ c (Proc.devRef .tc main_arg20) := KCarry.keeps_hostOps12 _ main_arg20 (by decide)
theorem W40_W32_arg21 (c : Dev nD) : W40 m ρ c (Proc.devRef .tc main_arg21) = W32 m ρ c (Proc.devRef .tc main_arg21) :=
  calc W40 m ρ c (Proc.devRef .tc main_arg21)
    _ = W39 m ρ c (Proc.devRef .tc main_arg21) := W40_of_ne m ρ c main_arg21 (by decide)
    _ = W38 m ρ c (Proc.devRef .tc main_arg21) := KCarry.keeps_hostOps14_2 _ main_arg21 (by decide)
    _ = W37 m ρ c (Proc.devRef .tc main_arg21) := KCarry.keeps_hostOps14_1 _ main_arg21 (by decide)
    _ = W36 m ρ c (Proc.devRef .tc main_arg21) := KCarry.keeps_hostOps14 _ main_arg21 (by decide)
    _ = W35 m ρ c (Proc.devRef .tc main_arg21) := W36_of_ne m ρ c main_arg21 (by decide)
    _ = W34 m ρ c (Proc.devRef .tc main_arg21) := KCarry.keeps_hostOps13 _ main_arg21 (by decide)
    _ = W33 m ρ c (Proc.devRef .tc main_arg21) := W34_of_ne m ρ c main_arg21 (by decide)
    _ = W32 m ρ c (Proc.devRef .tc main_arg21) := KCarry.keeps_hostOps12 _ main_arg21 (by decide)
theorem W40_W32_arg22 (c : Dev nD) : W40 m ρ c (Proc.devRef .tc main_arg22) = W32 m ρ c (Proc.devRef .tc main_arg22) :=
  calc W40 m ρ c (Proc.devRef .tc main_arg22)
    _ = W39 m ρ c (Proc.devRef .tc main_arg22) := W40_of_ne m ρ c main_arg22 (by decide)
    _ = W38 m ρ c (Proc.devRef .tc main_arg22) := KCarry.keeps_hostOps14_2 _ main_arg22 (by decide)
    _ = W37 m ρ c (Proc.devRef .tc main_arg22) := KCarry.keeps_hostOps14_1 _ main_arg22 (by decide)
    _ = W36 m ρ c (Proc.devRef .tc main_arg22) := KCarry.keeps_hostOps14 _ main_arg22 (by decide)
    _ = W35 m ρ c (Proc.devRef .tc main_arg22) := W36_of_ne m ρ c main_arg22 (by decide)
    _ = W34 m ρ c (Proc.devRef .tc main_arg22) := KCarry.keeps_hostOps13 _ main_arg22 (by decide)
    _ = W33 m ρ c (Proc.devRef .tc main_arg22) := W34_of_ne m ρ c main_arg22 (by decide)
    _ = W32 m ρ c (Proc.devRef .tc main_arg22) := KCarry.keeps_hostOps12 _ main_arg22 (by decide)
theorem W40_W32_arg23 (c : Dev nD) : W40 m ρ c (Proc.devRef .tc main_arg23) = W32 m ρ c (Proc.devRef .tc main_arg23) :=
  calc W40 m ρ c (Proc.devRef .tc main_arg23)
    _ = W39 m ρ c (Proc.devRef .tc main_arg23) := W40_of_ne m ρ c main_arg23 (by decide)
    _ = W38 m ρ c (Proc.devRef .tc main_arg23) := KCarry.keeps_hostOps14_2 _ main_arg23 (by decide)
    _ = W37 m ρ c (Proc.devRef .tc main_arg23) := KCarry.keeps_hostOps14_1 _ main_arg23 (by decide)
    _ = W36 m ρ c (Proc.devRef .tc main_arg23) := KCarry.keeps_hostOps14 _ main_arg23 (by decide)
    _ = W35 m ρ c (Proc.devRef .tc main_arg23) := W36_of_ne m ρ c main_arg23 (by decide)
    _ = W34 m ρ c (Proc.devRef .tc main_arg23) := KCarry.keeps_hostOps13 _ main_arg23 (by decide)
    _ = W33 m ρ c (Proc.devRef .tc main_arg23) := W34_of_ne m ρ c main_arg23 (by decide)
    _ = W32 m ρ c (Proc.devRef .tc main_arg23) := KCarry.keeps_hostOps12 _ main_arg23 (by decide)
theorem W40_W32_arg24 (c : Dev nD) : W40 m ρ c (Proc.devRef .tc main_arg24) = W32 m ρ c (Proc.devRef .tc main_arg24) :=
  calc W40 m ρ c (Proc.devRef .tc main_arg24)
    _ = W39 m ρ c (Proc.devRef .tc main_arg24) := W40_of_ne m ρ c main_arg24 (by decide)
    _ = W38 m ρ c (Proc.devRef .tc main_arg24) := KCarry.keeps_hostOps14_2 _ main_arg24 (by decide)
    _ = W37 m ρ c (Proc.devRef .tc main_arg24) := KCarry.keeps_hostOps14_1 _ main_arg24 (by decide)
    _ = W36 m ρ c (Proc.devRef .tc main_arg24) := KCarry.keeps_hostOps14 _ main_arg24 (by decide)
    _ = W35 m ρ c (Proc.devRef .tc main_arg24) := W36_of_ne m ρ c main_arg24 (by decide)
    _ = W34 m ρ c (Proc.devRef .tc main_arg24) := KCarry.keeps_hostOps13 _ main_arg24 (by decide)
    _ = W33 m ρ c (Proc.devRef .tc main_arg24) := W34_of_ne m ρ c main_arg24 (by decide)
    _ = W32 m ρ c (Proc.devRef .tc main_arg24) := KCarry.keeps_hostOps12 _ main_arg24 (by decide)
theorem W40_W32_arg25 (c : Dev nD) : W40 m ρ c (Proc.devRef .tc main_arg25) = W32 m ρ c (Proc.devRef .tc main_arg25) :=
  calc W40 m ρ c (Proc.devRef .tc main_arg25)
    _ = W39 m ρ c (Proc.devRef .tc main_arg25) := W40_of_ne m ρ c main_arg25 (by decide)
    _ = W38 m ρ c (Proc.devRef .tc main_arg25) := KCarry.keeps_hostOps14_2 _ main_arg25 (by decide)
    _ = W37 m ρ c (Proc.devRef .tc main_arg25) := KCarry.keeps_hostOps14_1 _ main_arg25 (by decide)
    _ = W36 m ρ c (Proc.devRef .tc main_arg25) := KCarry.keeps_hostOps14 _ main_arg25 (by decide)
    _ = W35 m ρ c (Proc.devRef .tc main_arg25) := W36_of_ne m ρ c main_arg25 (by decide)
    _ = W34 m ρ c (Proc.devRef .tc main_arg25) := KCarry.keeps_hostOps13 _ main_arg25 (by decide)
    _ = W33 m ρ c (Proc.devRef .tc main_arg25) := W34_of_ne m ρ c main_arg25 (by decide)
    _ = W32 m ρ c (Proc.devRef .tc main_arg25) := KCarry.keeps_hostOps12 _ main_arg25 (by decide)
theorem W40_W32_arg26 (c : Dev nD) : W40 m ρ c (Proc.devRef .tc main_arg26) = W32 m ρ c (Proc.devRef .tc main_arg26) :=
  calc W40 m ρ c (Proc.devRef .tc main_arg26)
    _ = W39 m ρ c (Proc.devRef .tc main_arg26) := W40_of_ne m ρ c main_arg26 (by decide)
    _ = W38 m ρ c (Proc.devRef .tc main_arg26) := KCarry.keeps_hostOps14_2 _ main_arg26 (by decide)
    _ = W37 m ρ c (Proc.devRef .tc main_arg26) := KCarry.keeps_hostOps14_1 _ main_arg26 (by decide)
    _ = W36 m ρ c (Proc.devRef .tc main_arg26) := KCarry.keeps_hostOps14 _ main_arg26 (by decide)
    _ = W35 m ρ c (Proc.devRef .tc main_arg26) := W36_of_ne m ρ c main_arg26 (by decide)
    _ = W34 m ρ c (Proc.devRef .tc main_arg26) := KCarry.keeps_hostOps13 _ main_arg26 (by decide)
    _ = W33 m ρ c (Proc.devRef .tc main_arg26) := W34_of_ne m ρ c main_arg26 (by decide)
    _ = W32 m ρ c (Proc.devRef .tc main_arg26) := KCarry.keeps_hostOps12 _ main_arg26 (by decide)
theorem W40_W32_src (c : Dev nD) : W40 m ρ c (Proc.devRef .tc main_v1) = W32 m ρ c (Proc.devRef .tc main_v1) :=
  calc W40 m ρ c (Proc.devRef .tc main_v1)
    _ = W39 m ρ c (Proc.devRef .tc main_v1) := W40_of_ne m ρ c main_v1 (by decide)
    _ = W38 m ρ c (Proc.devRef .tc main_v1) := KCarry.keeps_hostOps14_2 _ main_v1 (by decide)
    _ = W37 m ρ c (Proc.devRef .tc main_v1) := KCarry.keeps_hostOps14_1 _ main_v1 (by decide)
    _ = W36 m ρ c (Proc.devRef .tc main_v1) := KCarry.keeps_hostOps14 _ main_v1 (by decide)
    _ = W35 m ρ c (Proc.devRef .tc main_v1) := W36_of_ne m ρ c main_v1 (by decide)
    _ = W34 m ρ c (Proc.devRef .tc main_v1) := KCarry.keeps_hostOps13 _ main_v1 (by decide)
    _ = W33 m ρ c (Proc.devRef .tc main_v1) := W34_of_ne m ρ c main_v1 (by decide)
    _ = W32 m ρ c (Proc.devRef .tc main_v1) := KCarry.keeps_hostOps12 _ main_v1 (by decide)
theorem W40_W32_dst (c : Dev nD) : W40 m ρ c (Proc.devRef .tc main_v3) = W32 m ρ c (Proc.devRef .tc main_v3) :=
  calc W40 m ρ c (Proc.devRef .tc main_v3)
    _ = W39 m ρ c (Proc.devRef .tc main_v3) := W40_of_ne m ρ c main_v3 (by decide)
    _ = W38 m ρ c (Proc.devRef .tc main_v3) := KCarry.keeps_hostOps14_2 _ main_v3 (by decide)
    _ = W37 m ρ c (Proc.devRef .tc main_v3) := KCarry.keeps_hostOps14_1 _ main_v3 (by decide)
    _ = W36 m ρ c (Proc.devRef .tc main_v3) := KCarry.keeps_hostOps14 _ main_v3 (by decide)
    _ = W35 m ρ c (Proc.devRef .tc main_v3) := W36_of_ne m ρ c main_v3 (by decide)
    _ = W34 m ρ c (Proc.devRef .tc main_v3) := KCarry.keeps_hostOps13 _ main_v3 (by decide)
    _ = W33 m ρ c (Proc.devRef .tc main_v3) := W34_of_ne m ρ c main_v3 (by decide)
    _ = W32 m ρ c (Proc.devRef .tc main_v3) := KCarry.keeps_hostOps12 _ main_v3 (by decide)

end Cert.KernelValue

end
-- ==== Proof.KCarry.lean ====
/-
  The buffers that nothing in a layer writes, carried across the layer: the 27 argument arrays, and the two
  edge-endpoint vectors (row 0 and row 1 of the edge table, sliced and reshaped once by the first host stretch).
  At each layer's exit (the segment boundaries 8, 16, 24, 32, 40) an argument array still holds its launch
  contents and the two endpoint vectors hold the source and the target node of every edge.
  Each walk goes back one segment at a time: a host stretch writes none of these buffers (no operation of the
  stretch has one of them as its result), a region leaves every buffer that is not one of its windows as it
  found it, and an input window's array is handed back as it was entered. A boundary's walk is the eight
  segments of its layer followed by the previous boundary's lemma.
  THIS MODULE: the layers joined, boundary by boundary.
-/
import proofs.«425927_j69028714381396_2_alg».proof.Proof.KCarry8
import proofs.«425927_j69028714381396_2_alg».proof.Proof.KCarry16
import proofs.«425927_j69028714381396_2_alg».proof.Proof.KCarry24
import proofs.«425927_j69028714381396_2_alg».proof.Proof.KCarry32
import proofs.«425927_j69028714381396_2_alg».proof.Proof.KCarry40

noncomputable section

namespace Cert.KernelValue

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg)

/-! ## Boundary 16: the exit of layer 1 -/

theorem W16_arg0 (c : Dev nD) : W16 m ρ c (Proc.devRef .tc main_arg0) = m ((c : Thread nD τ).loc main_arg0) :=
  (W16_W8_arg0 m ρ c).trans (W8_arg0 m ρ c)
theorem W16_arg1 (c : Dev nD) : W16 m ρ c (Proc.devRef .tc main_arg1) = m ((c : Thread nD τ).loc main_arg1) :=
  (W16_W8_arg1 m ρ c).trans (W8_arg1 m ρ c)
theorem W16_arg2 (c : Dev nD) : W16 m ρ c (Proc.devRef .tc main_arg2) = m ((c : Thread nD τ).loc main_arg2) :=
  (W16_W8_arg2 m ρ c).trans (W8_arg2 m ρ c)
theorem W16_arg3 (c : Dev nD) : W16 m ρ c (Proc.devRef .tc main_arg3) = m ((c : Thread nD τ).loc main_arg3) :=
  (W16_W8_arg3 m ρ c).trans (W8_arg3 m ρ c)
theorem W16_arg4 (c : Dev nD) : W16 m ρ c (Proc.devRef .tc main_arg4) = m ((c : Thread nD τ).loc main_arg4) :=
  (W16_W8_arg4 m ρ c).trans (W8_arg4 m ρ c)
theorem W16_arg5 (c : Dev nD) : W16 m ρ c (Proc.devRef .tc main_arg5) = m ((c : Thread nD τ).loc main_arg5) :=
  (W16_W8_arg5 m ρ c).trans (W8_arg5 m ρ c)
theorem W16_arg6 (c : Dev nD) : W16 m ρ c (Proc.devRef .tc main_arg6) = m ((c : Thread nD τ).loc main_arg6) :=
  (W16_W8_arg6 m ρ c).trans (W8_arg6 m ρ c)
theorem W16_arg7 (c : Dev nD) : W16 m ρ c (Proc.devRef .tc main_arg7) = m ((c : Thread nD τ).loc main_arg7) :=
  (W16_W8_arg7 m ρ c).trans (W8_arg7 m ρ c)
theorem W16_arg8 (c : Dev nD) : W16 m ρ c (Proc.devRef .tc main_arg8) = m ((c : Thread nD τ).loc main_arg8) :=
  (W16_W8_arg8 m ρ c).trans (W8_arg8 m ρ c)
theorem W16_arg9 (c : Dev nD) : W16 m ρ c (Proc.devRef .tc main_arg9) = m ((c : Thread nD τ).loc main_arg9) :=
  (W16_W8_arg9 m ρ c).trans (W8_arg9 m ρ c)
theorem W16_arg10 (c : Dev nD) : W16 m ρ c (Proc.devRef .tc main_arg10) = m ((c : Thread nD τ).loc main_arg10) :=
  (W16_W8_arg10 m ρ c).trans (W8_arg10 m ρ c)
theorem W16_arg11 (c : Dev nD) : W16 m ρ c (Proc.devRef .tc main_arg11) = m ((c : Thread nD τ).loc main_arg11) :=
  (W16_W8_arg11 m ρ c).trans (W8_arg11 m ρ c)
theorem W16_arg12 (c : Dev nD) : W16 m ρ c (Proc.devRef .tc main_arg12) = m ((c : Thread nD τ).loc main_arg12) :=
  (W16_W8_arg12 m ρ c).trans (W8_arg12 m ρ c)
theorem W16_arg13 (c : Dev nD) : W16 m ρ c (Proc.devRef .tc main_arg13) = m ((c : Thread nD τ).loc main_arg13) :=
  (W16_W8_arg13 m ρ c).trans (W8_arg13 m ρ c)
theorem W16_arg14 (c : Dev nD) : W16 m ρ c (Proc.devRef .tc main_arg14) = m ((c : Thread nD τ).loc main_arg14) :=
  (W16_W8_arg14 m ρ c).trans (W8_arg14 m ρ c)
theorem W16_arg15 (c : Dev nD) : W16 m ρ c (Proc.devRef .tc main_arg15) = m ((c : Thread nD τ).loc main_arg15) :=
  (W16_W8_arg15 m ρ c).trans (W8_arg15 m ρ c)
theorem W16_arg16 (c : Dev nD) : W16 m ρ c (Proc.devRef .tc main_arg16) = m ((c : Thread nD τ).loc main_arg16) :=
  (W16_W8_arg16 m ρ c).trans (W8_arg16 m ρ c)
theorem W16_arg17 (c : Dev nD) : W16 m ρ c (Proc.devRef .tc main_arg17) = m ((c : Thread nD τ).loc main_arg17) :=
  (W16_W8_arg17 m ρ c).trans (W8_arg17 m ρ c)
theorem W16_arg18 (c : Dev nD) : W16 m ρ c (Proc.devRef .tc main_arg18) = m ((c : Thread nD τ).loc main_arg18) :=
  (W16_W8_arg18 m ρ c).trans (W8_arg18 m ρ c)
theorem W16_arg19 (c : Dev nD) : W16 m ρ c (Proc.devRef .tc main_arg19) = m ((c : Thread nD τ).loc main_arg19) :=
  (W16_W8_arg19 m ρ c).trans (W8_arg19 m ρ c)
theorem W16_arg20 (c : Dev nD) : W16 m ρ c (Proc.devRef .tc main_arg20) = m ((c : Thread nD τ).loc main_arg20) :=
  (W16_W8_arg20 m ρ c).trans (W8_arg20 m ρ c)
theorem W16_arg21 (c : Dev nD) : W16 m ρ c (Proc.devRef .tc main_arg21) = m ((c : Thread nD τ).loc main_arg21) :=
  (W16_W8_arg21 m ρ c).trans (W8_arg21 m ρ c)
theorem W16_arg22 (c : Dev nD) : W16 m ρ c (Proc.devRef .tc main_arg22) = m ((c : Thread nD τ).loc main_arg22) :=
  (W16_W8_arg22 m ρ c).trans (W8_arg22 m ρ c)
theorem W16_arg23 (c : Dev nD) : W16 m ρ c (Proc.devRef .tc main_arg23) = m ((c : Thread nD τ).loc main_arg23) :=
  (W16_W8_arg23 m ρ c).trans (W8_arg23 m ρ c)
theorem W16_arg24 (c : Dev nD) : W16 m ρ c (Proc.devRef .tc main_arg24) = m ((c : Thread nD τ).loc main_arg24) :=
  (W16_W8_arg24 m ρ c).trans (W8_arg24 m ρ c)
theorem W16_arg25 (c : Dev nD) : W16 m ρ c (Proc.devRef .tc main_arg25) = m ((c : Thread nD τ).loc main_arg25) :=
  (W16_W8_arg25 m ρ c).trans (W8_arg25 m ρ c)
theorem W16_arg26 (c : Dev nD) : W16 m ρ c (Proc.devRef .tc main_arg26) = m ((c : Thread nD τ).loc main_arg26) :=
  (W16_W8_arg26 m ρ c).trans (W8_arg26 m ρ c)
theorem W16_src (c : Dev nD) : W16 m ρ c (Proc.devRef .tc main_v1) = Cert.Spec.srcOf (m ((c : Thread nD τ).loc main_arg1)) :=
  (W16_W8_src m ρ c).trans (W8_src m ρ c)
theorem W16_dst (c : Dev nD) : W16 m ρ c (Proc.devRef .tc main_v3) = Cert.Spec.dstOf (m ((c : Thread nD τ).loc main_arg1)) :=
  (W16_W8_dst m ρ c).trans (W8_dst m ρ c)

/-! ## Boundary 24: the exit of layer 2 -/

theorem W24_arg0 (c : Dev nD) : W24 m ρ c (Proc.devRef .tc main_arg0) = m ((c : Thread nD τ).loc main_arg0) :=
  (W24_W16_arg0 m ρ c).trans (W16_arg0 m ρ c)
theorem W24_arg1 (c : Dev nD) : W24 m ρ c (Proc.devRef .tc main_arg1) = m ((c : Thread nD τ).loc main_arg1) :=
  (W24_W16_arg1 m ρ c).trans (W16_arg1 m ρ c)
theorem W24_arg2 (c : Dev nD) : W24 m ρ c (Proc.devRef .tc main_arg2) = m ((c : Thread nD τ).loc main_arg2) :=
  (W24_W16_arg2 m ρ c).trans (W16_arg2 m ρ c)
theorem W24_arg3 (c : Dev nD) : W24 m ρ c (Proc.devRef .tc main_arg3) = m ((c : Thread nD τ).loc main_arg3) :=
  (W24_W16_arg3 m ρ c).trans (W16_arg3 m ρ c)
theorem W24_arg4 (c : Dev nD) : W24 m ρ c (Proc.devRef .tc main_arg4) = m ((c : Thread nD τ).loc main_arg4) :=
  (W24_W16_arg4 m ρ c).trans (W16_arg4 m ρ c)
theorem W24_arg5 (c : Dev nD) : W24 m ρ c (Proc.devRef .tc main_arg5) = m ((c : Thread nD τ).loc main_arg5) :=
  (W24_W16_arg5 m ρ c).trans (W16_arg5 m ρ c)
theorem W24_arg6 (c : Dev nD) : W24 m ρ c (Proc.devRef .tc main_arg6) = m ((c : Thread nD τ).loc main_arg6) :=
  (W24_W16_arg6 m ρ c).trans (W16_arg6 m ρ c)
theorem W24_arg7 (c : Dev nD) : W24 m ρ c (Proc.devRef .tc main_arg7) = m ((c : Thread nD τ).loc main_arg7) :=
  (W24_W16_arg7 m ρ c).trans (W16_arg7 m ρ c)
theorem W24_arg8 (c : Dev nD) : W24 m ρ c (Proc.devRef .tc main_arg8) = m ((c : Thread nD τ).loc main_arg8) :=
  (W24_W16_arg8 m ρ c).trans (W16_arg8 m ρ c)
theorem W24_arg9 (c : Dev nD) : W24 m ρ c (Proc.devRef .tc main_arg9) = m ((c : Thread nD τ).loc main_arg9) :=
  (W24_W16_arg9 m ρ c).trans (W16_arg9 m ρ c)
theorem W24_arg10 (c : Dev nD) : W24 m ρ c (Proc.devRef .tc main_arg10) = m ((c : Thread nD τ).loc main_arg10) :=
  (W24_W16_arg10 m ρ c).trans (W16_arg10 m ρ c)
theorem W24_arg11 (c : Dev nD) : W24 m ρ c (Proc.devRef .tc main_arg11) = m ((c : Thread nD τ).loc main_arg11) :=
  (W24_W16_arg11 m ρ c).trans (W16_arg11 m ρ c)
theorem W24_arg12 (c : Dev nD) : W24 m ρ c (Proc.devRef .tc main_arg12) = m ((c : Thread nD τ).loc main_arg12) :=
  (W24_W16_arg12 m ρ c).trans (W16_arg12 m ρ c)
theorem W24_arg13 (c : Dev nD) : W24 m ρ c (Proc.devRef .tc main_arg13) = m ((c : Thread nD τ).loc main_arg13) :=
  (W24_W16_arg13 m ρ c).trans (W16_arg13 m ρ c)
theorem W24_arg14 (c : Dev nD) : W24 m ρ c (Proc.devRef .tc main_arg14) = m ((c : Thread nD τ).loc main_arg14) :=
  (W24_W16_arg14 m ρ c).trans (W16_arg14 m ρ c)
theorem W24_arg15 (c : Dev nD) : W24 m ρ c (Proc.devRef .tc main_arg15) = m ((c : Thread nD τ).loc main_arg15) :=
  (W24_W16_arg15 m ρ c).trans (W16_arg15 m ρ c)
theorem W24_arg16 (c : Dev nD) : W24 m ρ c (Proc.devRef .tc main_arg16) = m ((c : Thread nD τ).loc main_arg16) :=
  (W24_W16_arg16 m ρ c).trans (W16_arg16 m ρ c)
theorem W24_arg17 (c : Dev nD) : W24 m ρ c (Proc.devRef .tc main_arg17) = m ((c : Thread nD τ).loc main_arg17) :=
  (W24_W16_arg17 m ρ c).trans (W16_arg17 m ρ c)
theorem W24_arg18 (c : Dev nD) : W24 m ρ c (Proc.devRef .tc main_arg18) = m ((c : Thread nD τ).loc main_arg18) :=
  (W24_W16_arg18 m ρ c).trans (W16_arg18 m ρ c)
theorem W24_arg19 (c : Dev nD) : W24 m ρ c (Proc.devRef .tc main_arg19) = m ((c : Thread nD τ).loc main_arg19) :=
  (W24_W16_arg19 m ρ c).trans (W16_arg19 m ρ c)
theorem W24_arg20 (c : Dev nD) : W24 m ρ c (Proc.devRef .tc main_arg20) = m ((c : Thread nD τ).loc main_arg20) :=
  (W24_W16_arg20 m ρ c).trans (W16_arg20 m ρ c)
theorem W24_arg21 (c : Dev nD) : W24 m ρ c (Proc.devRef .tc main_arg21) = m ((c : Thread nD τ).loc main_arg21) :=
  (W24_W16_arg21 m ρ c).trans (W16_arg21 m ρ c)
theorem W24_arg22 (c : Dev nD) : W24 m ρ c (Proc.devRef .tc main_arg22) = m ((c : Thread nD τ).loc main_arg22) :=
  (W24_W16_arg22 m ρ c).trans (W16_arg22 m ρ c)
theorem W24_arg23 (c : Dev nD) : W24 m ρ c (Proc.devRef .tc main_arg23) = m ((c : Thread nD τ).loc main_arg23) :=
  (W24_W16_arg23 m ρ c).trans (W16_arg23 m ρ c)
theorem W24_arg24 (c : Dev nD) : W24 m ρ c (Proc.devRef .tc main_arg24) = m ((c : Thread nD τ).loc main_arg24) :=
  (W24_W16_arg24 m ρ c).trans (W16_arg24 m ρ c)
theorem W24_arg25 (c : Dev nD) : W24 m ρ c (Proc.devRef .tc main_arg25) = m ((c : Thread nD τ).loc main_arg25) :=
  (W24_W16_arg25 m ρ c).trans (W16_arg25 m ρ c)
theorem W24_arg26 (c : Dev nD) : W24 m ρ c (Proc.devRef .tc main_arg26) = m ((c : Thread nD τ).loc main_arg26) :=
  (W24_W16_arg26 m ρ c).trans (W16_arg26 m ρ c)
theorem W24_src (c : Dev nD) : W24 m ρ c (Proc.devRef .tc main_v1) = Cert.Spec.srcOf (m ((c : Thread nD τ).loc main_arg1)) :=
  (W24_W16_src m ρ c).trans (W16_src m ρ c)
theorem W24_dst (c : Dev nD) : W24 m ρ c (Proc.devRef .tc main_v3) = Cert.Spec.dstOf (m ((c : Thread nD τ).loc main_arg1)) :=
  (W24_W16_dst m ρ c).trans (W16_dst m ρ c)

/-! ## Boundary 32: the exit of layer 3 -/

theorem W32_arg0 (c : Dev nD) : W32 m ρ c (Proc.devRef .tc main_arg0) = m ((c : Thread nD τ).loc main_arg0) :=
  (W32_W24_arg0 m ρ c).trans (W24_arg0 m ρ c)
theorem W32_arg1 (c : Dev nD) : W32 m ρ c (Proc.devRef .tc main_arg1) = m ((c : Thread nD τ).loc main_arg1) :=
  (W32_W24_arg1 m ρ c).trans (W24_arg1 m ρ c)
theorem W32_arg2 (c : Dev nD) : W32 m ρ c (Proc.devRef .tc main_arg2) = m ((c : Thread nD τ).loc main_arg2) :=
  (W32_W24_arg2 m ρ c).trans (W24_arg2 m ρ c)
theorem W32_arg3 (c : Dev nD) : W32 m ρ c (Proc.devRef .tc main_arg3) = m ((c : Thread nD τ).loc main_arg3) :=
  (W32_W24_arg3 m ρ c).trans (W24_arg3 m ρ c)
theorem W32_arg4 (c : Dev nD) : W32 m ρ c (Proc.devRef .tc main_arg4) = m ((c : Thread nD τ).loc main_arg4) :=
  (W32_W24_arg4 m ρ c).trans (W24_arg4 m ρ c)
theorem W32_arg5 (c : Dev nD) : W32 m ρ c (Proc.devRef .tc main_arg5) = m ((c : Thread nD τ).loc main_arg5) :=
  (W32_W24_arg5 m ρ c).trans (W24_arg5 m ρ c)
theorem W32_arg6 (c : Dev nD) : W32 m ρ c (Proc.devRef .tc main_arg6) = m ((c : Thread nD τ).loc main_arg6) :=
  (W32_W24_arg6 m ρ c).trans (W24_arg6 m ρ c)
theorem W32_arg7 (c : Dev nD) : W32 m ρ c (Proc.devRef .tc main_arg7) = m ((c : Thread nD τ).loc main_arg7) :=
  (W32_W24_arg7 m ρ c).trans (W24_arg7 m ρ c)
theorem W32_arg8 (c : Dev nD) : W32 m ρ c (Proc.devRef .tc main_arg8) = m ((c : Thread nD τ).loc main_arg8) :=
  (W32_W24_arg8 m ρ c).trans (W24_arg8 m ρ c)
theorem W32_arg9 (c : Dev nD) : W32 m ρ c (Proc.devRef .tc main_arg9) = m ((c : Thread nD τ).loc main_arg9) :=
  (W32_W24_arg9 m ρ c).trans (W24_arg9 m ρ c)
theorem W32_arg10 (c : Dev nD) : W32 m ρ c (Proc.devRef .tc main_arg10) = m ((c : Thread nD τ).loc main_arg10) :=
  (W32_W24_arg10 m ρ c).trans (W24_arg10 m ρ c)
theorem W32_arg11 (c : Dev nD) : W32 m ρ c (Proc.devRef .tc main_arg11) = m ((c : Thread nD τ).loc main_arg11) :=
  (W32_W24_arg11 m ρ c).trans (W24_arg11 m ρ c)
theorem W32_arg12 (c : Dev nD) : W32 m ρ c (Proc.devRef .tc main_arg12) = m ((c : Thread nD τ).loc main_arg12) :=
  (W32_W24_arg12 m ρ c).trans (W24_arg12 m ρ c)
theorem W32_arg13 (c : Dev nD) : W32 m ρ c (Proc.devRef .tc main_arg13) = m ((c : Thread nD τ).loc main_arg13) :=
  (W32_W24_arg13 m ρ c).trans (W24_arg13 m ρ c)
theorem W32_arg14 (c : Dev nD) : W32 m ρ c (Proc.devRef .tc main_arg14) = m ((c : Thread nD τ).loc main_arg14) :=
  (W32_W24_arg14 m ρ c).trans (W24_arg14 m ρ c)
theorem W32_arg15 (c : Dev nD) : W32 m ρ c (Proc.devRef .tc main_arg15) = m ((c : Thread nD τ).loc main_arg15) :=
  (W32_W24_arg15 m ρ c).trans (W24_arg15 m ρ c)
theorem W32_arg16 (c : Dev nD) : W32 m ρ c (Proc.devRef .tc main_arg16) = m ((c : Thread nD τ).loc main_arg16) :=
  (W32_W24_arg16 m ρ c).trans (W24_arg16 m ρ c)
theorem W32_arg17 (c : Dev nD) : W32 m ρ c (Proc.devRef .tc main_arg17) = m ((c : Thread nD τ).loc main_arg17) :=
  (W32_W24_arg17 m ρ c).trans (W24_arg17 m ρ c)
theorem W32_arg18 (c : Dev nD) : W32 m ρ c (Proc.devRef .tc main_arg18) = m ((c : Thread nD τ).loc main_arg18) :=
  (W32_W24_arg18 m ρ c).trans (W24_arg18 m ρ c)
theorem W32_arg19 (c : Dev nD) : W32 m ρ c (Proc.devRef .tc main_arg19) = m ((c : Thread nD τ).loc main_arg19) :=
  (W32_W24_arg19 m ρ c).trans (W24_arg19 m ρ c)
theorem W32_arg20 (c : Dev nD) : W32 m ρ c (Proc.devRef .tc main_arg20) = m ((c : Thread nD τ).loc main_arg20) :=
  (W32_W24_arg20 m ρ c).trans (W24_arg20 m ρ c)
theorem W32_arg21 (c : Dev nD) : W32 m ρ c (Proc.devRef .tc main_arg21) = m ((c : Thread nD τ).loc main_arg21) :=
  (W32_W24_arg21 m ρ c).trans (W24_arg21 m ρ c)
theorem W32_arg22 (c : Dev nD) : W32 m ρ c (Proc.devRef .tc main_arg22) = m ((c : Thread nD τ).loc main_arg22) :=
  (W32_W24_arg22 m ρ c).trans (W24_arg22 m ρ c)
theorem W32_arg23 (c : Dev nD) : W32 m ρ c (Proc.devRef .tc main_arg23) = m ((c : Thread nD τ).loc main_arg23) :=
  (W32_W24_arg23 m ρ c).trans (W24_arg23 m ρ c)
theorem W32_arg24 (c : Dev nD) : W32 m ρ c (Proc.devRef .tc main_arg24) = m ((c : Thread nD τ).loc main_arg24) :=
  (W32_W24_arg24 m ρ c).trans (W24_arg24 m ρ c)
theorem W32_arg25 (c : Dev nD) : W32 m ρ c (Proc.devRef .tc main_arg25) = m ((c : Thread nD τ).loc main_arg25) :=
  (W32_W24_arg25 m ρ c).trans (W24_arg25 m ρ c)
theorem W32_arg26 (c : Dev nD) : W32 m ρ c (Proc.devRef .tc main_arg26) = m ((c : Thread nD τ).loc main_arg26) :=
  (W32_W24_arg26 m ρ c).trans (W24_arg26 m ρ c)
theorem W32_src (c : Dev nD) : W32 m ρ c (Proc.devRef .tc main_v1) = Cert.Spec.srcOf (m ((c : Thread nD τ).loc main_arg1)) :=
  (W32_W24_src m ρ c).trans (W24_src m ρ c)
theorem W32_dst (c : Dev nD) : W32 m ρ c (Proc.devRef .tc main_v3) = Cert.Spec.dstOf (m ((c : Thread nD τ).loc main_arg1)) :=
  (W32_W24_dst m ρ c).trans (W24_dst m ρ c)

/-! ## Boundary 40: the exit of layer 4 -/

theorem W40_arg0 (c : Dev nD) : W40 m ρ c (Proc.devRef .tc main_arg0) = m ((c : Thread nD τ).loc main_arg0) :=
  (W40_W32_arg0 m ρ c).trans (W32_arg0 m ρ c)
theorem W40_arg1 (c : Dev nD) : W40 m ρ c (Proc.devRef .tc main_arg1) = m ((c : Thread nD τ).loc main_arg1) :=
  (W40_W32_arg1 m ρ c).trans (W32_arg1 m ρ c)
theorem W40_arg2 (c : Dev nD) : W40 m ρ c (Proc.devRef .tc main_arg2) = m ((c : Thread nD τ).loc main_arg2) :=
  (W40_W32_arg2 m ρ c).trans (W32_arg2 m ρ c)
theorem W40_arg3 (c : Dev nD) : W40 m ρ c (Proc.devRef .tc main_arg3) = m ((c : Thread nD τ).loc main_arg3) :=
  (W40_W32_arg3 m ρ c).trans (W32_arg3 m ρ c)
theorem W40_arg4 (c : Dev nD) : W40 m ρ c (Proc.devRef .tc main_arg4) = m ((c : Thread nD τ).loc main_arg4) :=
  (W40_W32_arg4 m ρ c).trans (W32_arg4 m ρ c)
theorem W40_arg5 (c : Dev nD) : W40 m ρ c (Proc.devRef .tc main_arg5) = m ((c : Thread nD τ).loc main_arg5) :=
  (W40_W32_arg5 m ρ c).trans (W32_arg5 m ρ c)
theorem W40_arg6 (c : Dev nD) : W40 m ρ c (Proc.devRef .tc main_arg6) = m ((c : Thread nD τ).loc main_arg6) :=
  (W40_W32_arg6 m ρ c).trans (W32_arg6 m ρ c)
theorem W40_arg7 (c : Dev nD) : W40 m ρ c (Proc.devRef .tc main_arg7) = m ((c : Thread nD τ).loc main_arg7) :=
  (W40_W32_arg7 m ρ c).trans (W32_arg7 m ρ c)
theorem W40_arg8 (c : Dev nD) : W40 m ρ c (Proc.devRef .tc main_arg8) = m ((c : Thread nD τ).loc main_arg8) :=
  (W40_W32_arg8 m ρ c).trans (W32_arg8 m ρ c)
theorem W40_arg9 (c : Dev nD) : W40 m ρ c (Proc.devRef .tc main_arg9) = m ((c : Thread nD τ).loc main_arg9) :=
  (W40_W32_arg9 m ρ c).trans (W32_arg9 m ρ c)
theorem W40_arg10 (c : Dev nD) : W40 m ρ c (Proc.devRef .tc main_arg10) = m ((c : Thread nD τ).loc main_arg10) :=
  (W40_W32_arg10 m ρ c).trans (W32_arg10 m ρ c)
theorem W40_arg11 (c : Dev nD) : W40 m ρ c (Proc.devRef .tc main_arg11) = m ((c : Thread nD τ).loc main_arg11) :=
  (W40_W32_arg11 m ρ c).trans (W32_arg11 m ρ c)
theorem W40_arg12 (c : Dev nD) : W40 m ρ c (Proc.devRef .tc main_arg12) = m ((c : Thread nD τ).loc main_arg12) :=
  (W40_W32_arg12 m ρ c).trans (W32_arg12 m ρ c)
theorem W40_arg13 (c : Dev nD) : W40 m ρ c (Proc.devRef .tc main_arg13) = m ((c : Thread nD τ).loc main_arg13) :=
  (W40_W32_arg13 m ρ c).trans (W32_arg13 m ρ c)
theorem W40_arg14 (c : Dev nD) : W40 m ρ c (Proc.devRef .tc main_arg14) = m ((c : Thread nD τ).loc main_arg14) :=
  (W40_W32_arg14 m ρ c).trans (W32_arg14 m ρ c)
theorem W40_arg15 (c : Dev nD) : W40 m ρ c (Proc.devRef .tc main_arg15) = m ((c : Thread nD τ).loc main_arg15) :=
  (W40_W32_arg15 m ρ c).trans (W32_arg15 m ρ c)
theorem W40_arg16 (c : Dev nD) : W40 m ρ c (Proc.devRef .tc main_arg16) = m ((c : Thread nD τ).loc main_arg16) :=
  (W40_W32_arg16 m ρ c).trans (W32_arg16 m ρ c)
theorem W40_arg17 (c : Dev nD) : W40 m ρ c (Proc.devRef .tc main_arg17) = m ((c : Thread nD τ).loc main_arg17) :=
  (W40_W32_arg17 m ρ c).trans (W32_arg17 m ρ c)
theorem W40_arg18 (c : Dev nD) : W40 m ρ c (Proc.devRef .tc main_arg18) = m ((c : Thread nD τ).loc main_arg18) :=
  (W40_W32_arg18 m ρ c).trans (W32_arg18 m ρ c)
theorem W40_arg19 (c : Dev nD) : W40 m ρ c (Proc.devRef .tc main_arg19) = m ((c : Thread nD τ).loc main_arg19) :=
  (W40_W32_arg19 m ρ c).trans (W32_arg19 m ρ c)
theorem W40_arg20 (c : Dev nD) : W40 m ρ c (Proc.devRef .tc main_arg20) = m ((c : Thread nD τ).loc main_arg20) :=
  (W40_W32_arg20 m ρ c).trans (W32_arg20 m ρ c)
theorem W40_arg21 (c : Dev nD) : W40 m ρ c (Proc.devRef .tc main_arg21) = m ((c : Thread nD τ).loc main_arg21) :=
  (W40_W32_arg21 m ρ c).trans (W32_arg21 m ρ c)
theorem W40_arg22 (c : Dev nD) : W40 m ρ c (Proc.devRef .tc main_arg22) = m ((c : Thread nD τ).loc main_arg22) :=
  (W40_W32_arg22 m ρ c).trans (W32_arg22 m ρ c)
theorem W40_arg23 (c : Dev nD) : W40 m ρ c (Proc.devRef .tc main_arg23) = m ((c : Thread nD τ).loc main_arg23) :=
  (W40_W32_arg23 m ρ c).trans (W32_arg23 m ρ c)
theorem W40_arg24 (c : Dev nD) : W40 m ρ c (Proc.devRef .tc main_arg24) = m ((c : Thread nD τ).loc main_arg24) :=
  (W40_W32_arg24 m ρ c).trans (W32_arg24 m ρ c)
theorem W40_arg25 (c : Dev nD) : W40 m ρ c (Proc.devRef .tc main_arg25) = m ((c : Thread nD τ).loc main_arg25) :=
  (W40_W32_arg25 m ρ c).trans (W32_arg25 m ρ c)
theorem W40_arg26 (c : Dev nD) : W40 m ρ c (Proc.devRef .tc main_arg26) = m ((c : Thread nD τ).loc main_arg26) :=
  (W40_W32_arg26 m ρ c).trans (W32_arg26 m ρ c)
theorem W40_src (c : Dev nD) : W40 m ρ c (Proc.devRef .tc main_v1) = Cert.Spec.srcOf (m ((c : Thread nD τ).loc main_arg1)) :=
  (W40_W32_src m ρ c).trans (W32_src m ρ c)
theorem W40_dst (c : Dev nD) : W40 m ρ c (Proc.devRef .tc main_v3) = Cert.Spec.dstOf (m ((c : Thread nD τ).loc main_arg1)) :=
  (W40_W32_dst m ρ c).trans (W32_dst m ρ c)

end Cert.KernelValue

end
-- ==== Proof.KStage1HostA.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import Idealize.ShloMosaic.Lib.StableHlo.Run

/-!
  The host stretches of layer 1 (the layers counted from 0), read off as functions of the buffers they read (first part): the
  stretch before the linear region and the stretch before the gated update. Each lemma is about the stretch
  alone, at any contents of the buffers before it: a result buffer holds the composition of the operations that
  lead to it, which is the reference's slice (or aggregation) function of the same inputs by unfolding.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The stretch before the linear region: the layer's slices of the stacked weights

Each is row 1 of a stacked argument, cut out and reshaped; the bias is kept as a [1, 32] row. The previous
layer's features are not touched. -/

theorem ops3_keep_xp (V : Valuation τ sig (Elt F)) :
    StableHlo.after hostOps3 V (Proc.devRef .tc main_v41) = V (Proc.devRef .tc main_v41) := by
  carry_over hostOps3

theorem ops3_emb (V : Valuation τ sig (Elt F)) (a5 : Vec F S5x50x32 .f32) (h : V (Proc.devRef .tc main_arg5) = a5) :
    StableHlo.after hostOps3 V (Proc.devRef .tc main_v43) = Cert.Spec.emb1 a5 := by
  subst h; dsimp only [hostOps3]; after_results; all_goals rfl

theorem ops3_cw (V : Valuation τ sig (Elt F)) (a8 : Vec F S5x32x32 .f32) (h : V (Proc.devRef .tc main_arg8) = a8) :
    StableHlo.after hostOps3 V (Proc.devRef .tc main_v45) = Cert.Spec.cw1 a8 := by
  subst h; dsimp only [hostOps3]; after_results; all_goals rfl

theorem ops3_tw (V : Valuation τ sig (Elt F)) (a6 : Vec F S5x64x32 .f32) (h : V (Proc.devRef .tc main_arg6) = a6) :
    StableHlo.after hostOps3 V (Proc.devRef .tc main_v47) = Cert.Spec.tw1 a6 := by
  subst h; dsimp only [hostOps3]; after_results; all_goals rfl

theorem ops3_tb (V : Valuation τ sig (Elt F)) (a7 : Vec F S5x32 .f32) (h : V (Proc.devRef .tc main_arg7) = a7) :
    StableHlo.after hostOps3 V (Proc.devRef .tc main_v50) = shapeCast S1x32 (Cert.Spec.b32_1 a7) shapeCasts_S32_S1x32 := by
  subst h; dsimp only [hostOps3]; after_results; all_goals rfl

/-! ## The stretch before the gated update: the message aggregation and the gate weights' slices

The projected features are gathered at every edge's source node and added up at its target node; the two
32 × 96 gate weights and the two 96-entry gate biases (kept as [1, 96] rows) are row 1 of their stacks.
The linear region's first result is not touched. -/

theorem ops4_keep_xl (V : Valuation τ sig (Elt F)) :
    StableHlo.after hostOps4 V (Proc.devRef .tc main_v51_0) = V (Proc.devRef .tc main_v51_0) := by
  carry_over hostOps4

set_option maxHeartbeats 1000000 in
theorem ops4_agg (V : Valuation τ sig (Elt F)) (mm : Vec F S160000x32 .f32) (s d : Vec F S2560000 .i32)
    (hm : V (Proc.devRef .tc main_v51_1) = mm) (hs : V (Proc.devRef .tc main_v1) = s) (hd : V (Proc.devRef .tc main_v3) = d) :
    StableHlo.after hostOps4 V (Proc.devRef .tc main_v61) = Cert.Spec.agg mm s d := by
  subst hm hs hd; dsimp only [hostOps4]; after_results_simp; all_goals rfl

theorem ops4_wi (V : Valuation τ sig (Elt F)) (a9 : Vec F S5x32x96 .f32) (h : V (Proc.devRef .tc main_arg9) = a9) :
    StableHlo.after hostOps4 V (Proc.devRef .tc main_v63) = Cert.Spec.wi1 a9 := by
  subst h; dsimp only [hostOps4]; after_results; all_goals rfl

theorem ops4_wh (V : Valuation τ sig (Elt F)) (a10 : Vec F S5x32x96 .f32) (h : V (Proc.devRef .tc main_arg10) = a10) :
    StableHlo.after hostOps4 V (Proc.devRef .tc main_v65) = Cert.Spec.wi1 a10 := by
  subst h; dsimp only [hostOps4]; after_results; all_goals rfl

theorem ops4_bi (V : Valuation τ sig (Elt F)) (a11 : Vec F S5x96 .f32) (h : V (Proc.devRef .tc main_arg11) = a11) :
    StableHlo.after hostOps4 V (Proc.devRef .tc main_v68) = shapeCast S1x96 (Cert.Spec.b96_1 a11) shapeCasts_S96_S1x96 := by
  subst h; dsimp only [hostOps4]; after_results; all_goals rfl

theorem ops4_bh (V : Valuation τ sig (Elt F)) (a12 : Vec F S5x96 .f32) (h : V (Proc.devRef .tc main_arg12) = a12) :
    StableHlo.after hostOps4 V (Proc.devRef .tc main_v71) = shapeCast S1x96 (Cert.Spec.b96_1 a12) shapeCasts_S96_S1x96 := by
  subst h; dsimp only [hostOps4]; after_results; all_goals rfl

end Cert.KernelValue

end
-- ==== Proof.KStage1HostB.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import proofs.«425927_j69028714381396_2_alg».proof.Proof.KHost
import Idealize.ShloMosaic.Lib.StableHlo.Run

/-!
  The host stretches of layer 1 (the layers counted from 0), read off as functions of the buffers they read (second part): the
  three stretches before the normalisation. Each lemma is about the stretch alone, at any contents of the
  buffers before it.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three stretches before the normalisation: the column mean, the column variance, the scale and shift rows

The mean row is the column sum over the row count; the variance row is what the inlined variance computation
leaves (it reads the integer zero the mean's stretch wrote last); the scale and the shift are row 1 of their
stacks kept as [1, 32] rows. None of them touches the gated update's result. -/

theorem ops5_keep_x (V : Valuation τ sig (Elt F)) :
    StableHlo.after hostOps5 V (Proc.devRef .tc main_v72) = V (Proc.devRef .tc main_v72) := by
  carry_over hostOps5
theorem ops5_1_keep_x (V : Valuation τ sig (Elt F)) :
    StableHlo.after hostOps5_1 V (Proc.devRef .tc main_v72) = V (Proc.devRef .tc main_v72) := by
  carry_over hostOps5_1
theorem ops5_2_keep_x (V : Valuation τ sig (Elt F)) :
    StableHlo.after hostOps5_2 V (Proc.devRef .tc main_v72) = V (Proc.devRef .tc main_v72) := by
  carry_over hostOps5_2
theorem ops5_1_keep_mean (V : Valuation τ sig (Elt F)) :
    StableHlo.after hostOps5_1 V (Proc.devRef .tc main_v76) = V (Proc.devRef .tc main_v76) := by
  carry_over hostOps5_1
theorem ops5_2_keep_mean (V : Valuation τ sig (Elt F)) :
    StableHlo.after hostOps5_2 V (Proc.devRef .tc main_v76) = V (Proc.devRef .tc main_v76) := by
  carry_over hostOps5_2
theorem ops5_2_keep_var (V : Valuation τ sig (Elt F)) :
    StableHlo.after hostOps5_2 V (Proc.devRef .tc main_v77) = V (Proc.devRef .tc main_v77) := by
  carry_over hostOps5_2

theorem ops5_mean (V : Valuation τ sig (Elt F)) (x : Vec F S160000x32 .f32) (h : V (Proc.devRef .tc main_v72) = x) :
    StableHlo.after hostOps5 V (Proc.devRef .tc main_v76)
      = Host.divf (F := F) (broadcastInDim S1x32 ![1] bcast_S32_S1x32_1
          (Host.reduceAdd (F := F) x (constant (F := F) S_ .f32 0x00000000#32) reducesTo_S160000x32_S32_d0 h_S_))
        (broadcastInDim S1x32 ![] bcast_S_S1x32 (constant (F := F) S_ .f32 0x481C4000#32)) := by
  subst h; dsimp only [hostOps5]; after_results; all_goals rfl

theorem ops5_zero (V : Valuation τ sig (Elt F)) :
    StableHlo.after hostOps5 V (Proc.devRef .tc main_c_9) = (constantI S_ 32 0#32 : Vec F S_ .i32) := by
  dsimp only [hostOps5]; after_results; all_goals rfl

set_option maxHeartbeats 1000000 in
theorem ops5_1_var (V : Valuation τ sig (Elt Ideal)) (x : Vec Ideal S160000x32 .f32) (h : V (Proc.devRef .tc main_v72) = x)
    (hc : V (Proc.devRef .tc main_c_9) = (constantI S_ 32 0#32 : Vec Ideal S_ .i32)) :
    StableHlo.after hostOps5_1 V (Proc.devRef .tc main_v77) = kvar x := by
  subst h; dsimp only [hostOps5_1]; after_results_simp
  simp only [StableHlo.TRef.ofBuf, StableHlo.TRef.toBuf, cast_eq]
  rw [hc]; rfl

theorem ops5_2_g (V : Valuation τ sig (Elt F)) (a13 : Vec F S5x32 .f32) (h : V (Proc.devRef .tc main_arg13) = a13) :
    StableHlo.after hostOps5_2 V (Proc.devRef .tc main_v80) = shapeCast S1x32 (Cert.Spec.b32_1 a13) shapeCasts_S32_S1x32 := by
  subst h; dsimp only [hostOps5_2]; after_results; all_goals rfl

theorem ops5_2_b (V : Valuation τ sig (Elt F)) (a14 : Vec F S5x32 .f32) (h : V (Proc.devRef .tc main_arg14) = a14) :
    StableHlo.after hostOps5_2 V (Proc.devRef .tc main_v83) = shapeCast S1x32 (Cert.Spec.b32_1 a14) shapeCasts_S32_S1x32 := by
  subst h; dsimp only [hostOps5_2]; after_results; all_goals rfl

end Cert.KernelValue

end
-- ==== Proof.EmbedLNPay3.lean ====
/-
  One layer's embedding + linear + projection block, read at an index, at the ideal values (floats are extended reals,
  a change of float format is the identity, a matrix product is an exact finite sum).
  The block's linear payload at (p, q) is  Σ_k cat(p, k) · W(k, q) + b(q),  where cat(p, ·) is row p of the previous
  features beside  Σ_k [z(p,0) = k] · T(k, ·) + Σ_k [z(p,1) = k] · T(k, ·);  a sum against a one-hot row selects the
  table's row, so this is the reference's gather of rows z(p,0) and z(p,1), added (the reference reads an index signed
  and clamped into [0, 49], which changes nothing for an index in [0, 50)). The projected payload is that row against
  the 32×32 projection. Both are met with the reference's stage functions index by index. Then the windows' blocks at a
  grid point: the index block and the feature block are rows t · 8000 … t · 8000 + 7999 of their arrays, the table, the
  weight, the bias row and the projection are read whole, so each payload of the blocks is block t of its stage function
  of the arrays; and the 20 output blocks tile the 160000 rows.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import proofs.«425927_j69028714381396_2_alg».proof.Proof.Gen.KernelIdeal.Points
import Idealize.ShloMosaic.PureOps.Ideal
import Idealize.ShloMosaic.Lib.KernelVsHost
import Idealize.ShloMosaic.Lib.ValueLayout
import Idealize.ShloMosaic.Lib.IdealHost

noncomputable section

namespace Cert.KernelValue.EmbedLN3

open Idealize.ShloMosaic Idealize.ShloMosaic.ValueIdx

/-! ## A product of two matrices, read at an index -/

/-- The contraction's sum of a rows × columns product, re-indexed by the contracted coordinate: given where each
    operand index sits on each axis, the sum over the contraction index set is the sum over `Fin k` of the products
    of the row's and the column's entries. -/
theorem sum_contr_eq {m k n : Nat} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (A : (⟨2, ![m, k]⟩ : Shape).Idx → EReal) (B : (⟨2, ![k, n]⟩ : Shape).Idx → EReal) (a : Fin m) (b : Fin n) :
    ∑ q : D.contr.Idx, A (D.lhsIdx (ix2 a b) q) * B (D.rhsIdx (ix2 a b) q) = ∑ c : Fin k, A (ix2 a c) * B (ix2 c b) := by
  rw [← Equiv.sum_comp (contrEquiv1 D k hr hs).symm]
  refine Finset.sum_congr rfl fun c _ => ?_
  have hk := contrEquiv1_symm_val D k hr hs c
  have el : D.lhsIdx (ix2 a b) ((contrEquiv1 D k hr hs).symm c) = ix2 a c := funext fun ax => Fin.ext (by
    match ax with
    | ⟨0, _⟩ => exact l0 _ _
    | ⟨1, _⟩ => exact (l1 _ _).trans hk)
  have er : D.rhsIdx (ix2 a b) ((contrEquiv1 D k hr hs).symm c) = ix2 c b := funext fun ax => Fin.ext (by
    match ax with
    | ⟨0, _⟩ => exact (r0 _ _).trans hk
    | ⟨1, _⟩ => exact r1 _ _)
  rw [el, er]

section K50

theorem lhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 0).val = (i 0).val := by
  unfold DotDims.lhsIdx
  rw [dif_neg (show ¬(0 : Fin Cert.KernelIdeal.S8000x50.rank) ∈ Cert.KernelIdeal.dot_S8000x50_S50x32_S8000x32_1_0_0_1_n_n.lhsBatch from List.not_mem_nil),
    dif_pos (show (0 : Fin Cert.KernelIdeal.S8000x50.rank) ∈ Cert.KernelIdeal.dot_S8000x50_S50x32_S8000x32_1_0_0_1_n_n.lhsNonContracting from List.mem_singleton.mpr rfl)]
  rfl
theorem lhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 1).val = (q ⟨0, Nat.one_pos⟩).val :=
  Cert.KernelIdeal.dot_S8000x50_S50x32_S8000x32_1_0_0_1_n_n.lhsIdx_val_of_single rfl i q
theorem rhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 0).val = (q ⟨0, Nat.one_pos⟩).val :=
  Cert.KernelIdeal.dot_S8000x50_S50x32_S8000x32_1_0_0_1_n_n.rhsIdx_val_of_single rfl i q
theorem rhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 1).val = (i 1).val := by
  unfold DotDims.rhsIdx
  rw [dif_neg (show ¬(1 : Fin Cert.KernelIdeal.S50x32.rank) ∈ Cert.KernelIdeal.dot_S8000x50_S50x32_S8000x32_1_0_0_1_n_n.rhsBatch from List.not_mem_nil),
    dif_pos (show (1 : Fin Cert.KernelIdeal.S50x32.rank) ∈ Cert.KernelIdeal.dot_S8000x50_S50x32_S8000x32_1_0_0_1_n_n.rhsNonContracting from List.mem_singleton.mpr rfl)]
  rfl

theorem matmul50_apply (A : FVec Ideal Cert.KernelIdeal.S8000x50 .bf16) (B : FVec Ideal Cert.KernelIdeal.S50x32 .bf16) (p : Fin 8000) (d : Fin 32) :
    matmul Cert.KernelIdeal.dot_S8000x50_S50x32_S8000x32_1_0_0_1_n_n none A B (constant (F := Ideal) Cert.KernelIdeal.S8000x32 .f32 0x00000000#32) (ix2 p d)
      = ∑ k : Fin 50, A (ix2 p k) * B (ix2 k d) := by
  show FloatOps.matmul _ none A B _ (ix2 p d) = _
  rw [Ideal.matmul_constant_zero_apply]
  exact sum_contr_eq _ rfl rfl lhs_k50_0 lhs_k50_1 rhs_k50_0 rhs_k50_1 A B p d
end K50
section R64

theorem lhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 0).val = (i 0).val := by
  unfold DotDims.lhsIdx
  rw [dif_neg (show ¬(0 : Fin Cert.ReferenceIdeal.S160000x64.rank) ∈ Cert.ReferenceIdeal.dot_S160000x64_S64x32_S160000x32_1_0_0_1_n_n.lhsBatch from List.not_mem_nil),
    dif_pos (show (0 : Fin Cert.ReferenceIdeal.S160000x64.rank) ∈ Cert.ReferenceIdeal.dot_S160000x64_S64x32_S160000x32_1_0_0_1_n_n.lhsNonContracting from List.mem_singleton.mpr rfl)]
  rfl
theorem lhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 1).val = (q ⟨0, Nat.one_pos⟩).val :=
  Cert.ReferenceIdeal.dot_S160000x64_S64x32_S160000x32_1_0_0_1_n_n.lhsIdx_val_of_single rfl i q
theorem rhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 0).val = (q ⟨0, Nat.one_pos⟩).val :=
  Cert.ReferenceIdeal.dot_S160000x64_S64x32_S160000x32_1_0_0_1_n_n.rhsIdx_val_of_single rfl i q
theorem rhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 1).val = (i 1).val := by
  unfold DotDims.rhsIdx
  rw [dif_neg (show ¬(1 : Fin Cert.ReferenceIdeal.S64x32.rank) ∈ Cert.ReferenceIdeal.dot_S160000x64_S64x32_S160000x32_1_0_0_1_n_n.rhsBatch from List.not_mem_nil),
    dif_pos (show (1 : Fin Cert.ReferenceIdeal.S64x32.rank) ∈ Cert.ReferenceIdeal.dot_S160000x64_S64x32_S160000x32_1_0_0_1_n_n.rhsNonContracting from List.mem_singleton.mpr rfl)]
  rfl

theorem dot64_apply (A : FVec Ideal Cert.ReferenceIdeal.S160000x64 .f32) (B : FVec Ideal Cert.ReferenceIdeal.S64x32 .f32) (p : Fin 160000) (d : Fin 32) :
    (Host.dotGeneral Cert.ReferenceIdeal.dot_S160000x64_S64x32_S160000x32_1_0_0_1_n_n none A B : FVec Ideal Cert.ReferenceIdeal.S160000x32 .f32) (ix2 p d)
      = ∑ k : Fin 64, A (ix2 p k) * B (ix2 k d) := by
  show FloatOps.dotGeneral _ none _ A B (ix2 p d) = _
  rw [Ideal.dotGeneral_apply]
  exact sum_contr_eq _ rfl rfl lhs_r64_0 lhs_r64_1 rhs_r64_0 rhs_r64_1 A B p d
end R64

/-! ## One-hot rows -/

/-- The widened bit of a word comparison, made a float: one where the words are equal, zero elsewhere. -/
theorem sitofp_cmpi_eq (x y : BitVec 32) :
    (FloatOps.sitofp (F := Ideal) .f32 ((IntOp.cmpi .eq x y).setWidth 32) : Ideal .f32) = if x = y then 1 else 0 := by
  show (((BitVec.setWidth 32 (IntOp.cmpi .eq x y)).toInt : ℝ) : EReal) = _
  rw [toInt_setWidth_bit]
  by_cases h : x = y
  · subst h; simp [IntOp.cmpi]
  · simp [IntOp.cmpi, h]

/-- A sum against a one-hot row selects its term: no finiteness is needed, since zero times anything is zero. -/
theorem sum_onehot_mul {n : Nat} (z : BitVec 32) (hz : z.toNat < n) (hn : n < 2 ^ 32) (f : Fin n → EReal) :
    ∑ k : Fin n, (if z = BitVec.ofNat 32 k.val then (1 : EReal) else 0) * f k = f ⟨z.toNat, hz⟩ := by
  rw [Finset.sum_eq_single (⟨z.toNat, hz⟩ : Fin n)]
  · rw [if_pos (by simp), one_mul]
  · intro b _ hb
    rw [if_neg, zero_mul]
    intro h
    apply hb
    apply Fin.ext
    have := congrArg BitVec.toNat h
    simp [BitVec.toNat_ofNat] at this
    have hb' := b.isLt
    rw [Nat.mod_eq_of_lt (by omega)] at this
    exact this.symm
  · intro h; exact absurd (Finset.mem_univ _) h

section K64

theorem lhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 0).val = (i 0).val := by
  unfold DotDims.lhsIdx
  rw [dif_neg (show ¬(0 : Fin Cert.KernelIdeal.S8000x64.rank) ∈ Cert.KernelIdeal.dot_S8000x64_S64x32_S8000x32_1_0_0_1_n_n.lhsBatch from List.not_mem_nil),
    dif_pos (show (0 : Fin Cert.KernelIdeal.S8000x64.rank) ∈ Cert.KernelIdeal.dot_S8000x64_S64x32_S8000x32_1_0_0_1_n_n.lhsNonContracting from List.mem_singleton.mpr rfl)]
  rfl
theorem lhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 1).val = (q ⟨0, Nat.one_pos⟩).val :=
  Cert.KernelIdeal.dot_S8000x64_S64x32_S8000x32_1_0_0_1_n_n.lhsIdx_val_of_single rfl i q
theorem rhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 0).val = (q ⟨0, Nat.one_pos⟩).val :=
  Cert.KernelIdeal.dot_S8000x64_S64x32_S8000x32_1_0_0_1_n_n.rhsIdx_val_of_single rfl i q
theorem rhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 1).val = (i 1).val := by
  unfold DotDims.rhsIdx
  rw [dif_neg (show ¬(1 : Fin Cert.KernelIdeal.S64x32.rank) ∈ Cert.KernelIdeal.dot_S8000x64_S64x32_S8000x32_1_0_0_1_n_n.rhsBatch from List.not_mem_nil),
    dif_pos (show (1 : Fin Cert.KernelIdeal.S64x32.rank) ∈ Cert.KernelIdeal.dot_S8000x64_S64x32_S8000x32_1_0_0_1_n_n.rhsNonContracting from List.mem_singleton.mpr rfl)]
  rfl

theorem matmul64_apply (A : FVec Ideal Cert.KernelIdeal.S8000x64 .bf16) (B : FVec Ideal Cert.KernelIdeal.S64x32 .bf16) (p : Fin 8000) (d : Fin 32) :
    matmul Cert.KernelIdeal.dot_S8000x64_S64x32_S8000x32_1_0_0_1_n_n none A B (constant (F := Ideal) Cert.KernelIdeal.S8000x32 .f32 0x00000000#32) (ix2 p d)
      = ∑ k : Fin 64, A (ix2 p k) * B (ix2 k d) := by
  show FloatOps.matmul _ none A B _ (ix2 p d) = _
  rw [Ideal.matmul_constant_zero_apply]
  exact sum_contr_eq _ rfl rfl lhs_k64_0 lhs_k64_1 rhs_k64_0 rhs_k64_1 A B p d
end K64
section K32

theorem lhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 0).val = (i 0).val := by
  unfold DotDims.lhsIdx
  rw [dif_neg (show ¬(0 : Fin Cert.KernelIdeal.S8000x32.rank) ∈ Cert.KernelIdeal.dot_S8000x32_S32x32_S8000x32_1_0_0_1_n_n.lhsBatch from List.not_mem_nil),
    dif_pos (show (0 : Fin Cert.KernelIdeal.S8000x32.rank) ∈ Cert.KernelIdeal.dot_S8000x32_S32x32_S8000x32_1_0_0_1_n_n.lhsNonContracting from List.mem_singleton.mpr rfl)]
  rfl
theorem lhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 1).val = (q ⟨0, Nat.one_pos⟩).val :=
  Cert.KernelIdeal.dot_S8000x32_S32x32_S8000x32_1_0_0_1_n_n.lhsIdx_val_of_single rfl i q
theorem rhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 0).val = (q ⟨0, Nat.one_pos⟩).val :=
  Cert.KernelIdeal.dot_S8000x32_S32x32_S8000x32_1_0_0_1_n_n.rhsIdx_val_of_single rfl i q
theorem rhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 1).val = (i 1).val := by
  unfold DotDims.rhsIdx
  rw [dif_neg (show ¬(1 : Fin Cert.KernelIdeal.S32x32.rank) ∈ Cert.KernelIdeal.dot_S8000x32_S32x32_S8000x32_1_0_0_1_n_n.rhsBatch from List.not_mem_nil),
    dif_pos (show (1 : Fin Cert.KernelIdeal.S32x32.rank) ∈ Cert.KernelIdeal.dot_S8000x32_S32x32_S8000x32_1_0_0_1_n_n.rhsNonContracting from List.mem_singleton.mpr rfl)]
  rfl

theorem matmul32_apply (A : FVec Ideal Cert.KernelIdeal.S8000x32 .bf16) (B : FVec Ideal Cert.KernelIdeal.S32x32 .bf16) (p : Fin 8000) (d : Fin 32) :
    matmul Cert.KernelIdeal.dot_S8000x32_S32x32_S8000x32_1_0_0_1_n_n none A B (constant (F := Ideal) Cert.KernelIdeal.S8000x32 .f32 0x00000000#32) (ix2 p d)
      = ∑ k : Fin 32, A (ix2 p k) * B (ix2 k d) := by
  show FloatOps.matmul _ none A B _ (ix2 p d) = _
  rw [Ideal.matmul_constant_zero_apply]
  exact sum_contr_eq _ rfl rfl lhs_k32_0 lhs_k32_1 rhs_k32_0 rhs_k32_1 A B p d
end K32
section R32

theorem lhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 0).val = (i 0).val := by
  unfold DotDims.lhsIdx
  rw [dif_neg (show ¬(0 : Fin Cert.ReferenceIdeal.S160000x32.rank) ∈ Cert.ReferenceIdeal.dot_S160000x32_S32x32_S160000x32_1_0_0_1_n_n.lhsBatch from List.not_mem_nil),
    dif_pos (show (0 : Fin Cert.ReferenceIdeal.S160000x32.rank) ∈ Cert.ReferenceIdeal.dot_S160000x32_S32x32_S160000x32_1_0_0_1_n_n.lhsNonContracting from List.mem_singleton.mpr rfl)]
  rfl
theorem lhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 1).val = (q ⟨0, Nat.one_pos⟩).val :=
  Cert.ReferenceIdeal.dot_S160000x32_S32x32_S160000x32_1_0_0_1_n_n.lhsIdx_val_of_single rfl i q
theorem rhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 0).val = (q ⟨0, Nat.one_pos⟩).val :=
  Cert.ReferenceIdeal.dot_S160000x32_S32x32_S160000x32_1_0_0_1_n_n.rhsIdx_val_of_single rfl i q
theorem rhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 1).val = (i 1).val := by
  unfold DotDims.rhsIdx
  rw [dif_neg (show ¬(1 : Fin Cert.ReferenceIdeal.S32x32.rank) ∈ Cert.ReferenceIdeal.dot_S160000x32_S32x32_S160000x32_1_0_0_1_n_n.rhsBatch from List.not_mem_nil),
    dif_pos (show (1 : Fin Cert.ReferenceIdeal.S32x32.rank) ∈ Cert.ReferenceIdeal.dot_S160000x32_S32x32_S160000x32_1_0_0_1_n_n.rhsNonContracting from List.mem_singleton.mpr rfl)]
  rfl

theorem dot32_apply (A : FVec Ideal Cert.ReferenceIdeal.S160000x32 .f32) (B : FVec Ideal Cert.ReferenceIdeal.S32x32 .f32) (p : Fin 160000) (d : Fin 32) :
    (Host.dotGeneral Cert.ReferenceIdeal.dot_S160000x32_S32x32_S160000x32_1_0_0_1_n_n none A B : FVec Ideal Cert.ReferenceIdeal.S160000x32 .f32) (ix2 p d)
      = ∑ k : Fin 32, A (ix2 p k) * B (ix2 k d) := by
  show FloatOps.dotGeneral _ none _ A B (ix2 p d) = _
  rw [Ideal.dotGeneral_apply]
  exact sum_contr_eq _ rfl rfl lhs_r32_0 lhs_r32_1 rhs_r32_0 rhs_r32_1 A B p d
end R32

/-! ## The kernel's one-hot row -/

section OneHot
open Cert.KernelIdeal Cert.KernelIdeal.Gen

/-- Column `c` of the index block, compared with the lane number along 50 lanes and made a float: at (p, k) it is one
    where the index is k and zero elsewhere. -/
theorem onehot_apply (v0 : Vec Ideal S8000x2 .i32) (c : Fin 2) (o : Nat) (ho : o = c.val) (hs : S8000x2.Slices ![0, o] S8000x1)
    (p : Fin 8000) (k : Fin 50) :
    (truncf .bf16 (sitofp .f32 (extui 32 (cmpi .eq (broadcastTo S8000x50 (extractStridedSlice S8000x1 ![0, o] v0 hs) broadcasts_S8000x1_S8000x50)
        (iota .tc S8000x50 32 [1] iota_S8000x50_d1_w32)) natLt_1_32)) bitsLt_bf16_f32 : FVec Ideal S8000x50 .bf16) (ix2 p k)
      = if v0 (ix2 p c) = BitVec.ofNat 32 k.val then 1 else 0 := by
  rw [truncf_apply, sitofp_apply, extui_apply]
  show FloatOps.sitofp (F := Ideal) .f32 ((IntOp.cmpi .eq (broadcastTo S8000x50 (extractStridedSlice S8000x1 ![0, o] v0 hs) broadcasts_S8000x1_S8000x50 (ix2 p k))
      (iota .tc S8000x50 32 [1] iota_S8000x50_d1_w32 (ix2 p k))).setWidth 32) = _
  rw [sitofp_cmpi_eq, iota_single_apply,
    broadcastTo_apply _ broadcasts_S8000x1_S8000x50 (ix2 p k) (ix2 p (0 : Fin 1)) (fun a => by
      match a with
      | ⟨0, _⟩ => rfl
      | ⟨1, _⟩ => rfl),
    slice2_axis1_apply o v0 hs p (0 : Fin 1) c (by simp [ho])]
end OneHot

/-! ## The reference's embedding lookup, read at an index -/

section RefEmbed
open Cert.ReferenceIdeal Cert.ReferenceIdeal.Facts₀

/-- The gather of table rows at (i, j, d): the table's row named by the start index at (i, j, 0), read signed and
    clamped into [0, 49], at column d. -/
theorem gather_rows_apply (e : FVec Ideal S50x32 .f32) (idx : IVec S160000x2x1 32) (i : Fin 160000) (j : Fin 2) (d : Fin 32) :
    Host.gather gather_S50x32_S160000x2x1_S160000x2x32_2_0_n_n_0_2_132 e idx (ix3 i j d)
      = e (ix2 (⟨min (idx (ix3 i j (0 : Fin 1))).toInt.toNat 49, by omega⟩ : Fin 50) d) := by
  unfold Host.gather
  refine congrArg e (funext fun a => Fin.ext ?_)
  match a with
  | ⟨0, _⟩ =>
    show gather_S50x32_S160000x2x1_S160000x2x32_2_0_n_n_0_2_132.start (ix3 i j d) idx 0
      + gather_S50x32_S160000x2x1_S160000x2x32_2_0_n_n_0_2_132.batchCoord (ix3 i j d) 0
      + gather_S50x32_S160000x2x1_S160000x2x32_2_0_n_n_0_2_132.offCoord (ix3 i j d) 0 = min _ 49
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x32_S160000x2x1_S160000x2x32_2_0_n_n_0_2_132.startIndexMap from List.mem_singleton.mpr rfl)]
    have hsi : gather_S50x32_S160000x2x1_S160000x2x32_2_0_n_n_0_2_132.siIdx (ix3 i j d)
        ⟨List.idxOf (0 : Fin 2) gather_S50x32_S160000x2x1_S160000x2x32_2_0_n_n_0_2_132.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50x32_S160000x2x1_S160000x2x32_2_0_n_n_0_2_132.start (ix3 i j d) idx 1
      + gather_S50x32_S160000x2x1_S160000x2x32_2_0_n_n_0_2_132.batchCoord (ix3 i j d) 1
      + gather_S50x32_S160000x2x1_S160000x2x32_2_0_n_n_0_2_132.offCoord (ix3 i j d) 1 = d.val
    rw [GatherDims.batchCoord_eq_zero _ _ _ List.not_mem_nil]
    unfold GatherDims.start
    rw [dif_neg (show ¬(1 : Fin 2) ∈ gather_S50x32_S160000x2x1_S160000x2x32_2_0_n_n_0_2_132.startIndexMap from
      fun h => absurd (List.mem_singleton.mp h) (by decide))]
    simp only [Nat.add_zero, Nat.zero_add]
    rfl

/-- Under the range fact a lookup index is its own wrapped form. -/
theorem wrapZ_apply (z : Vec Ideal S160000x2 .i32) (j : S160000x2.Idx) (hz : (z j).toNat < 50) :
    Cert.Spec.wrapZ z j = z j := by
  unfold Cert.Spec.wrapZ
  rw [select_apply]
  show Scalar.select (IntOp.cmpi .slt (z j) _) _ (z j) = z j
  have h0 : IntOp.cmpi .slt (z j) (broadcastInDim S160000x2 ![] bcast_S_S160000x2 (constantI S_ 32 0#32) j) = 0#1 := by
    rw [broadcastInDim_scalar_apply]
    show BitVec.ofBool ((z j).slt 0#32) = 0#1
    have : (z j).slt 0#32 = false := by
      rw [BitVec.slt, decide_eq_false_iff_not]
      have h1 : (z j).toInt = (z j).toNat := BitVec.toInt_eq_toNat_of_lt (by omega)
      rw [h1]; simp
    rw [this]; rfl
  rw [h0, select_zero]

/-- Row i of the embedding stage: the table's rows named by the two lookup indices of row i, added. -/
theorem embed_apply (e : Vec Ideal S50x32 .f32) (z : Vec Ideal S160000x2 .i32) (i : Fin 160000) (d : Fin 32)
    (hz0 : (z (ix2 i 0)).toNat < 50) (hz1 : (z (ix2 i 1)).toNat < 50) :
    Cert.Spec.embed e z (ix2 i d) = e (ix2 (⟨(z (ix2 i 0)).toNat, hz0⟩ : Fin 50) d) + e (ix2 (⟨(z (ix2 i 1)).toNat, hz1⟩ : Fin 50) d) := by
  unfold Cert.Spec.embed
  rw [hostReduceAdd_apply]
  have hR : S160000x2x32.Reduces [1] S160000x32 := by decide
  rw [Ideal.hostReduceAdd_single reducesTo_S160000x2x32_S160000x32_d1 hR]
  have hl : ∀ k : Fin 2, hR.lift (ix2 i d) k = ix3 i k d := fun k => funext fun c => Fin.ext (by
    match c with
    | ⟨0, _⟩ => rfl
    | ⟨1, _⟩ => rfl
    | ⟨2, _⟩ => rfl)
  have hb : ∀ j : Fin 2, broadcastInDim S160000x2x1 ![0, 1] bcast_S160000x2_S160000x2x1_0_1 (Cert.Spec.wrapZ z) (ix3 i j (0 : Fin 1))
      = Cert.Spec.wrapZ z (ix2 i j) := fun j =>
    broadcastInDim_apply _ _ _ _ (ix2 i j) (fun a => by
      match a with
      | ⟨0, _⟩ => rfl
      | ⟨1, _⟩ => rfl)
  have hm : ∀ (w : BitVec 32), w.toNat < 50 → min w.toInt.toNat 49 = w.toNat := by
    intro w hw
    rw [BitVec.toInt_eq_toNat_of_lt (by omega)]
    simp only [Int.toNat_natCast]
    omega
  show Ideal.ofBits .f32 0x00000000#32 + ∑ k : Fin 2, _ = _
  rw [Ideal.ofBits_zero_f32, zero_add, Fin.sum_univ_two, hl 0, hl 1, gather_rows_apply, gather_rows_apply]
  refine congrArg₂ (· + ·) (congrArg (fun r => e (ix2 r d)) (Fin.ext ?_)) (congrArg (fun r => e (ix2 r d)) (Fin.ext ?_))
  · show min _ 49 = (z (ix2 i 0)).toNat
    rw [hb, wrapZ_apply z _ hz0, hm _ hz0]
  · show min _ 49 = (z (ix2 i 1)).toNat
    rw [hb, wrapZ_apply z _ hz1, hm _ hz1]

/-- The linear stage at (i, q): row i of the previous features beside the embedding, against column q of the weight,
    plus entry q of the bias. -/
theorem lin_apply (xp zl : Vec Ideal S160000x32 .f32) (tw : Vec Ideal S64x32 .f32) (tb : Vec Ideal S32 .f32) (i : Fin 160000) (q : Fin 32) :
    Cert.Spec.lin xp zl tw tb (ix2 i q)
      = (∑ k : Fin 64, concatenate S160000x64 1 [⟨S160000x32, xp⟩, ⟨S160000x32, zl⟩] concatenates_S160000x32_S160000x32_S160000x64_d1 (ix2 i k) * tw (ix2 k q))
        + tb (ix1 q) := by
  unfold Cert.Spec.lin
  rw [addf_apply, dot64_apply]
  congr 1
  show broadcastInDim S160000x32 ![0, 1] bcast_S1x32_S160000x32_0_1 (broadcastInDim S1x32 ![1] bcast_S32_S1x32_1 tb) (ix2 i q) = tb (ix1 q)
  rw [broadcastInDim_apply _ _ _ (ix2 i q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl)]

/-- The projection stage at (i, q). -/
theorem conv_apply (x : Vec Ideal S160000x32 .f32) (w : Vec Ideal S32x32 .f32) (i : Fin 160000) (q : Fin 32) :
    Cert.Spec.conv x w (ix2 i q) = ∑ k : Fin 32, x (ix2 i k) * w (ix2 k q) := by
  unfold Cert.Spec.conv
  exact dot32_apply x w i q
end RefEmbed

/-! ## The kernel's payloads, read at an index -/

section Payload
open Cert.KernelIdeal Cert.KernelIdeal.Gen

/-- The block's embedding part at (p, d): each one-hot row against the table selects the row its index names. -/
theorem zl_apply (v0 : Vec Ideal S8000x2 .i32) (v1 : Vec Ideal S50x32 .f32) (p : Fin 8000) (d : Fin 32)
    (h0 : (v0 (ix2 p 0)).toNat < 50) (h1 : (v0 (ix2 p 1)).toNat < 50) :
    (addf
      (matmul dot_S8000x50_S50x32_S8000x32_1_0_0_1_n_n none
        (truncf .bf16 (sitofp .f32 (extui 32 (cmpi .eq (broadcastTo S8000x50 (extractStridedSlice S8000x1 ![0, 0] v0 slices_S8000x2_o0_0_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      (matmul dot_S8000x50_S50x32_S8000x32_1_0_0_1_n_n none
        (truncf .bf16 (sitofp .f32 (extui 32 (cmpi .eq (broadcastTo S8000x50 (extractStridedSlice S8000x1 ![0, 1] v0 slices_S8000x2_o0_1_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      : FVec Ideal S8000x32 .f32) (ix2 p d)
      = v1 (ix2 (⟨(v0 (ix2 p 0)).toNat, h0⟩ : Fin 50) d) + v1 (ix2 (⟨(v0 (ix2 p 1)).toNat, h1⟩ : Fin 50) d) := by
  rw [addf_apply, matmul50_apply, matmul50_apply]
  simp only [onehot_apply v0 0 0 rfl, onehot_apply v0 1 1 rfl, truncf_apply]
  rw [sum_onehot_mul _ h0 (by norm_num) (fun k => v1 (ix2 k d)), sum_onehot_mul _ h1 (by norm_num) (fun k => v1 (ix2 k d))]

/-- THE LINEAR PAYLOAD IS THE LINEAR STAGE: at row p of a block whose index and feature rows are rows i of the arrays,
    with the table, the weight and the bias row the arrays', the stored value at (p, q) is the stage's at (i, q). -/
theorem pay1_eq_lin
    (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : v29 (ix2 (0 : Fin 1) q) = tb (ix1 q)) (hz : ∀ c : Fin 2, (z (ix2 i c)).toNat < 50) :
    k3_pay1 v0 v1 v21 v24 v29 (ix2 p q) = Cert.Spec.lin xp (Cert.Spec.embed e z) tw tb (ix2 i q) := by
  subst e2 e3
  unfold k3_pay1
  dsimp only
  rw [addf_apply, matmul64_apply, broadcastTo_1b_ab_apply]
  simp only [truncf_apply, shapeCast_self]
  rw [lin_apply]
  refine congrArg₂ (· + ·) (Finset.sum_congr rfl fun k _ => ?_) e4
  refine congrArg₂ (· * ·) ?_ rfl
  by_cases hk : k.val < 32
  · rw [concatenate_pair_apply_left (1 : Fin 2) v21 _ concatenates_S8000x32_S8000x32_S8000x64_d1 (ix2 p k) rfl (ix2 p (⟨k.val, hk⟩ : Fin 32)) (fun b => by
        match b with
        | ⟨0, _⟩ => rfl
        | ⟨1, _⟩ => rfl),
      concatenate_pair_apply_left (1 : Fin 2) xp _ Cert.ReferenceIdeal.Facts₀.concatenates_S160000x32_S160000x32_S160000x64_d1 (ix2 i k) rfl (ix2 i (⟨k.val, hk⟩ : Fin 32)) (fun b => by
        match b with
        | ⟨0, _⟩ => rfl
        | ⟨1, _⟩ => rfl)]
    exact e1 _
  · have hk' : k.val - 32 < 32 := by have := k.isLt; omega
    have h0 : (v0 (ix2 p 0)).toNat < 50 := by rw [e0]; exact hz 0
    have h1 : (v0 (ix2 p 1)).toNat < 50 := by rw [e0]; exact hz 1
    rw [concatenate_pair_apply_right (t := S8000x64) (s₁ := S8000x32) (s₂ := S8000x32) (1 : Fin 2) v21 _ concatenates_S8000x32_S8000x32_S8000x64_d1 (ix2 p k) rfl rfl (ix2 p (⟨k.val - 32, hk'⟩ : Fin 32)) (fun b hb => by
        match b, hb with
        | ⟨0, _⟩, _ => rfl
        | ⟨1, _⟩, hb => exact absurd rfl hb) (by show (k.val - 32) + 32 = k.val; omega),
      concatenate_pair_apply_right (t := Cert.ReferenceIdeal.S160000x64) (s₁ := Cert.ReferenceIdeal.S160000x32) (s₂ := Cert.ReferenceIdeal.S160000x32) (1 : Fin 2) xp _ Cert.ReferenceIdeal.Facts₀.concatenates_S160000x32_S160000x32_S160000x64_d1 (ix2 i k) rfl rfl (ix2 i (⟨k.val - 32, hk'⟩ : Fin 32)) (fun b hb => by
        match b, hb with
        | ⟨0, _⟩, _ => rfl
        | ⟨1, _⟩, hb => exact absurd rfl hb) (by show (k.val - 32) + 32 = k.val; omega),
      zl_apply v0 v1 p _ h0 h1, embed_apply v1 z i _ (hz 0) (hz 1)]
    refine congrArg₂ (· + ·) (congrArg (fun r => v1 (ix2 r _)) (Fin.ext ?_)) (congrArg (fun r => v1 (ix2 r _)) (Fin.ext ?_))
    · show (v0 (ix2 p 0)).toNat = (z (ix2 i 0)).toNat
      rw [e0]
    · show (v0 (ix2 p 1)).toNat = (z (ix2 i 1)).toNat
      rw [e0]

/-- The projected payload at (p, q): row p of the linear payload against column q of the projection. -/
theorem pay2_apply (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32) (p : Fin 8000) (q : Fin 32) :
    k3_pay2 v0 v1 v21 v24 v29 v34 (ix2 p q) = ∑ k : Fin 32, k3_pay1 v0 v1 v21 v24 v29 (ix2 p k) * v34 (ix2 k q) := by
  unfold k3_pay2
  try dsimp only
  rw [matmul32_apply]
  simp only [truncf_apply, shapeCast_self]

/-- THE PROJECTED PAYLOAD IS THE PROJECTION STAGE of the linear stage, under the same reading of the block. -/
theorem pay2_eq_conv
    (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : ∀ k : Fin 32, v29 (ix2 (0 : Fin 1) k) = tb (ix1 k)) (e5 : v34 = w)
    (hz : ∀ c : Fin 2, (z (ix2 i c)).toNat < 50) :
    k3_pay2 v0 v1 v21 v24 v29 v34 (ix2 p q)
      = Cert.Spec.conv (Cert.Spec.lin xp (Cert.Spec.embed e z) tw tb) w (ix2 i q) := by
  subst e5
  rw [pay2_apply, conv_apply]
  refine Finset.sum_congr rfl fun k _ => ?_
  rw [pay1_eq_lin v0 v1 v21 v24 v29 z xp e tw tb p i k e0 e1 e2 e3 (e4 k) hz]
/-- The same at any index of the block and of the array: the two share their column, and the block's row holds the
    array's row. -/
theorem pay1_at (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (hz : ∀ j, (z j).toNat < 50) :
    k3_pay1 v0 v1 v21 v24 v29 y = Cert.Spec.lin xp (Cert.Spec.embed e z) tw tb i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay1_eq_lin v0 v1 v21 v24 v29 z xp e tw tb p i0 i1 e0 e1 e2 e3 (e4 _) (fun c => hz _)

theorem pay2_at (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (e5 : v34 = w)
    (hz : ∀ j, (z j).toNat < 50) :
    k3_pay2 v0 v1 v21 v24 v29 v34 y = Cert.Spec.conv (Cert.Spec.lin xp (Cert.Spec.embed e z) tw tb) w i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay2_eq_conv v0 v1 v21 v24 v29 v34 z xp e tw tb w p i0 i1 e0 e1 e2 e3 e4 e5 (fun c => hz _)
end Payload

/-! ## The windows' blocks at a grid point -/

section Blocks
open Cert.KernelIdeal Cert.KernelIdeal.Gen

/-- The index maps over the grid: the index block, the feature block and the two output blocks are block t of their
    arrays' rows; the table, the weight, the bias row and the projection are whole at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- What the input windows' blocks at point t hold, against row t · 8000 + (the block's row) of the arrays: the index
    block's and the feature block's rows are the arrays' rows; the table, the weight and the projection are read whole;
    the bias row is the bias. -/
theorem reads_at (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32)
    (h4 : ∀ k : Fin 32, A4 (ix2 (0 : Fin 1) k) = tb (ix1 k)) (t : Fin cfg3.N) (r : Fin 8000) (i0 : Fin 160000)
    (hi0 : i0.val = t.val * 8000 + r.val) :
    (∀ c : Fin 2, ((cfg3.win 0).blk t).view.read (Elt Ideal) A0 (ix2 r c) = A0 (ix2 i0 c))
    ∧ (∀ k : Fin 32, ((cfg3.win 1).blk t).view.read (Elt Ideal) A1 (ix2 r k) = A1 (ix2 i0 k))
    ∧ ((cfg3.win 2).blk t).view.read (Elt Ideal) A2 = A2
    ∧ ((cfg3.win 3).blk t).view.read (Elt Ideal) A3 = A3
    ∧ (∀ k : Fin 32, ((cfg3.win 4).blk t).view.read (Elt Ideal) A4 (ix2 (0 : Fin 1) k) = tb (ix1 k))
    ∧ ((cfg3.win 5).blk t).view.read (Elt Ideal) A5 = A5 := by
  obtain ⟨f00, f01, f10, f11, f20, f21, f30, f31, f40, f41, f50, f51, f60, f61, f70, f71⟩ := idx_facts t
  refine ⟨fun c' => ?_, fun k => ?_, funext fun x => ?_, funext fun x => ?_, fun k => ?_, funext fun x => ?_⟩
  · show A0 (((cfg3.win 0).blk t).view.emb (ix2 r c')) = A0 (ix2 i0 c')
    refine congrArg A0 (funext fun a => Fin.ext ?_)
    match a with
    | ⟨0, _⟩ => show win3_0.index t (0 : Fin 2) * 8000 + 1 * r.val = i0.val; rw [f00, hi0]; omega
    | ⟨1, _⟩ => show win3_0.index t (1 : Fin 2) * 2 + 1 * c'.val = c'.val; rw [f01]; omega
  · show A1 (((cfg3.win 1).blk t).view.emb (ix2 r k)) = A1 (ix2 i0 k)
    refine congrArg A1 (funext fun a => Fin.ext ?_)
    match a with
    | ⟨0, _⟩ => show win3_1.index t (0 : Fin 2) * 8000 + 1 * r.val = i0.val; rw [f10, hi0]; omega
    | ⟨1, _⟩ => show win3_1.index t (1 : Fin 2) * 32 + 1 * k.val = k.val; rw [f11]; omega
  · show A2 (((cfg3.win 2).blk t).view.emb x) = A2 x
    refine congrArg A2 (funext fun a => Fin.ext ?_)
    match a with
    | ⟨0, _⟩ => show win3_2.index t (0 : Fin 2) * 50 + 1 * (x 0).val = (x 0).val; rw [f20]; omega
    | ⟨1, _⟩ => show win3_2.index t (1 : Fin 2) * 32 + 1 * (x 1).val = (x 1).val; rw [f21]; omega
  · show A3 (((cfg3.win 3).blk t).view.emb x) = A3 x
    refine congrArg A3 (funext fun a => Fin.ext ?_)
    match a with
    | ⟨0, _⟩ => show win3_3.index t (0 : Fin 2) * 64 + 1 * (x 0).val = (x 0).val; rw [f30]; omega
    | ⟨1, _⟩ => show win3_3.index t (1 : Fin 2) * 32 + 1 * (x 1).val = (x 1).val; rw [f31]; omega
  · show A4 (((cfg3.win 4).blk t).view.emb (ix2 (0 : Fin 1) k)) = tb (ix1 k)
    refine Eq.trans (congrArg A4 (funext fun a => Fin.ext ?_)) (h4 k)
    match a with
    | ⟨0, _⟩ => show win3_4.index t (0 : Fin 2) * 1 + 1 * 0 = 0; rw [f40]
    | ⟨1, _⟩ => show win3_4.index t (1 : Fin 2) * 32 + 1 * k.val = k.val; rw [f41]; omega
  · show A5 (((cfg3.win 5).blk t).view.emb x) = A5 x
    refine congrArg A5 (funext fun a => Fin.ext ?_)
    match a with
    | ⟨0, _⟩ => show win3_5.index t (0 : Fin 2) * 32 + 1 * (x 0).val = (x 0).val; rw [f50]; omega
    | ⟨1, _⟩ => show win3_5.index t (1 : Fin 2) * 32 + 1 * (x 1).val = (x 1).val; rw [f51]; omega

/-- THE LINEAR BLOCK: the linear payload of the windows' blocks at point t is block t of the linear stage of the arrays. -/
theorem block_lin (A0 : Vec Ideal S160000x2 .i32) (A1 : Vec Ideal S160000x32 .f32) (A2 : Vec Ideal S50x32 .f32) (A3 : Vec Ideal S64x32 .f32)
    (A4 : Vec Ideal S1x32 .f32) (tb : Vec Ideal Cert.ReferenceIdeal.S32 .f32) (hz : ∀ j, (A0 j).toNat < 50)
    (h4 : ∀ k : Fin 32, A4 (ix2 (0 : Fin 1) k) = tb (ix1 k)) (t : Fin cfg3.N) :
    k3_pay1 (((cfg3.win 0).blk t).view.read (Elt Ideal) A0) (((cfg3.win 2).blk t).view.read (Elt Ideal) A2)
        (((cfg3.win 1).blk t).view.read (Elt Ideal) A1) (((cfg3.win 3).blk t).view.read (Elt Ideal) A3)
        (((cfg3.win 4).blk t).view.read (Elt Ideal) A4)
      = ((cfg3.win 6).blk t).view.read (Elt Ideal) (Cert.Spec.lin A1 (Cert.Spec.embed A2 A0) A3 tb) := by
  funext y
  show k3_pay1 (F := Ideal) _ _ _ _ _ y = Cert.Spec.lin A1 (Cert.Spec.embed A2 A0) A3 tb (((cfg3.win 6).blk t).view.emb y)
  have hi0 : ((((cfg3.win 6).blk t).view.emb y) 0).val = t.val * 8000 + (y 0).val := by
    show win3_6.index t (0 : Fin 2) * 8000 + 1 * (y 0).val = _
    rw [(idx_facts t).2.2.2.2.2.2.2.2.2.2.2.2.1]; omega
  have hi1 : ((((cfg3.win 6).blk t).view.emb y) 1).val = (y 1).val := by
    show win3_6.index t (1 : Fin 2) * 32 + 1 * (y 1).val = _
    rw [(idx_facts t).2.2.2.2.2.2.2.2.2.2.2.2.2.1]; omega
  obtain ⟨e0, e1, e2, e3, e4, -⟩ := reads_at A0 A1 A2 A3 A4 (fun _ => 0) tb h4 t (y 0) ((((cfg3.win 6).blk t).view.emb y) 0) hi0
  exact pay1_at _ _ _ _ _ A0 A1 A2 A3 tb y _ hi1 e0 e1 e2 e3 e4 hz

/-- THE PROJECTED BLOCK: the projected payload of the windows' blocks at point t is block t of the projection stage. -/
theorem block_conv (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32) (hz : ∀ j, (A0 j).toNat < 50)
    (h4 : ∀ k : Fin 32, A4 (ix2 (0 : Fin 1) k) = tb (ix1 k)) (t : Fin cfg3.N) :
    k3_pay2 (((cfg3.win 0).blk t).view.read (Elt Ideal) A0) (((cfg3.win 2).blk t).view.read (Elt Ideal) A2)
        (((cfg3.win 1).blk t).view.read (Elt Ideal) A1) (((cfg3.win 3).blk t).view.read (Elt Ideal) A3)
        (((cfg3.win 4).blk t).view.read (Elt Ideal) A4) (((cfg3.win 5).blk t).view.read (Elt Ideal) A5)
      = ((cfg3.win 7).blk t).view.read (Elt Ideal) (Cert.Spec.conv (Cert.Spec.lin A1 (Cert.Spec.embed A2 A0) A3 tb) A5) := by
  funext y
  show k3_pay2 (F := Ideal) _ _ _ _ _ _ y
    = Cert.Spec.conv (Cert.Spec.lin A1 (Cert.Spec.embed A2 A0) A3 tb) A5 (((cfg3.win 7).blk t).view.emb y)
  have hi0 : ((((cfg3.win 7).blk t).view.emb y) 0).val = t.val * 8000 + (y 0).val := by
    show win3_7.index t (0 : Fin 2) * 8000 + 1 * (y 0).val = _
    rw [(idx_facts t).2.2.2.2.2.2.2.2.2.2.2.2.2.2.1]; omega
  have hi1 : ((((cfg3.win 7).blk t).view.emb y) 1).val = (y 1).val := by
    show win3_7.index t (1 : Fin 2) * 32 + 1 * (y 1).val = _
    rw [(idx_facts t).2.2.2.2.2.2.2.2.2.2.2.2.2.2.2]; omega
  obtain ⟨e0, e1, e2, e3, e4, e5⟩ := reads_at A0 A1 A2 A3 A4 A5 tb h4 t (y 0) ((((cfg3.win 7).blk t).view.emb y) 0) hi0
  exact pay2_at _ _ _ _ _ _ A0 A1 A2 A3 tb A5 y _ hi1 e0 e1 e2 e3 e4 e5 hz

/-! ## The output blocks tile their arrays -/

/-- An index of an output array is in point t's block iff each coordinate is in the block's range on its axis. -/
theorem mem_blk6 (t : Fin cfg3.N) (i : S160000x32.Idx) :
    i ∈ ((cfg3.win 6).blk t).view.set ↔ ∀ a : Fin 2, win3_6.index t a * S8000x32.size a ≤ (i a).val ∧ (i a).val < win3_6.index t a * S8000x32.size a + S8000x32.size a := by
  show i ∈ ((View.whole win3_6.arr.view.ref).slice (win3_6.rect t)).set ↔ _
  rw [View.set_slice_whole, Rect.mem_set_unit]
  exact Iff.rfl
theorem mem_blk7 (t : Fin cfg3.N) (i : S160000x32.Idx) :
    i ∈ ((cfg3.win 7).blk t).view.set ↔ ∀ a : Fin 2, win3_7.index t a * S8000x32.size a ≤ (i a).val ∧ (i a).val < win3_7.index t a * S8000x32.size a + S8000x32.size a := by
  show i ∈ ((View.whole win3_7.arr.view.ref).slice (win3_7.rect t)).set ↔ _
  rw [View.set_slice_whole, Rect.mem_set_unit]
  exact Iff.rfl

/-- Row r of an output array is in the block of point r / 8000. -/
theorem cover6 (i : S160000x32.Idx) : ∃ t : Fin cfg3.N, (cfg3.win 6).flush t = true ∧ i ∈ ((cfg3.win 6).blk t).view.set := by
  have hi0 : (i 0).val < 160000 := (i 0).isLt
  have hi1 : (i 1).val < 32 := (i 1).isLt
  obtain ⟨t, ht⟩ : ∃ t : Fin cfg3.N, t.val = (i 0).val / 8000 := ⟨⟨(i 0).val / 8000, by rw [show cfg3.N = 20 from (by decide : grid3.N = 20)]; omega⟩, rfl⟩
  obtain ⟨f00, f01, f10, f11, f20, f21, f30, f31, f40, f41, f50, f51, f60, f61, f70, f71⟩ := idx_facts t
  refine ⟨t, flush3_6 t, ?_⟩
  rw [mem_blk6]
  intro a
  match a with
  | ⟨0, _⟩ => show win3_6.index t (0 : Fin 2) * 8000 ≤ (i 0).val ∧ (i 0).val < win3_6.index t (0 : Fin 2) * 8000 + 8000; rw [f60, ht]; omega
  | ⟨1, _⟩ => show win3_6.index t (1 : Fin 2) * 32 ≤ (i 1).val ∧ (i 1).val < win3_6.index t (1 : Fin 2) * 32 + 32; rw [f61]; omega
theorem cover7 (i : S160000x32.Idx) : ∃ t : Fin cfg3.N, (cfg3.win 7).flush t = true ∧ i ∈ ((cfg3.win 7).blk t).view.set := by
  have hi0 : (i 0).val < 160000 := (i 0).isLt
  have hi1 : (i 1).val < 32 := (i 1).isLt
  obtain ⟨t, ht⟩ : ∃ t : Fin cfg3.N, t.val = (i 0).val / 8000 := ⟨⟨(i 0).val / 8000, by rw [show cfg3.N = 20 from (by decide : grid3.N = 20)]; omega⟩, rfl⟩
  obtain ⟨f00, f01, f10, f11, f20, f21, f30, f31, f40, f41, f50, f51, f60, f61, f70, f71⟩ := idx_facts t
  refine ⟨t, flush3_7 t, ?_⟩
  rw [mem_blk7]
  intro a
  match a with
  | ⟨0, _⟩ => show win3_7.index t (0 : Fin 2) * 8000 ≤ (i 0).val ∧ (i 0).val < win3_7.index t (0 : Fin 2) * 8000 + 8000; rw [f70, ht]; omega
  | ⟨1, _⟩ => show win3_7.index t (1 : Fin 2) * 32 ≤ (i 1).val ∧ (i 1).val < win3_7.index t (1 : Fin 2) * 32 + 32; rw [f71]; omega
end Blocks
end Cert.KernelValue.EmbedLN3

end
-- ==== Proof.EmbedLN3.lean ====
/-
  One layer's embedding + linear + projection region: what its two output arrays hold after the grid's 20 points.
  At each point the body's two stores leave, in the two staging buffers, the linear payload and the projected payload of
  the windows' blocks; these are block t of the linear stage and of the projection stage of the arrays the region finds
  in its input windows; the 20 blocks of 8000 rows tile the 160000 rows, so each output array ends holding its stage
  function of the inputs.
-/
import proofs.«425927_j69028714381396_2_alg».proof.Proof.FrameKIW
import proofs.«425927_j69028714381396_2_alg».proof.Proof.EmbedLNPay3
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

namespace EmbedLN3

theorem hz2 : (![0, 0] : Fin 2 → Nat) = fun _ => 0 := funext fun a => by fin_cases a <;> rfl

variable (V : (c : Dev nD) → (b : Ref sig .tc) → Buf (Elt Ideal) ((c : Thread nD τ).loc b))

/-- The arrays the region finds in its six input windows, at their literal types. -/
abbrev arr0 (c : Dev nD) : Vec Ideal S160000x2 .i32 := V c (Pipeline.arrRef spec3 0)
abbrev arr1 (c : Dev nD) : Vec Ideal S160000x32 .f32 := V c (Pipeline.arrRef spec3 1)
abbrev arr2 (c : Dev nD) : Vec Ideal S50x32 .f32 := V c (Pipeline.arrRef spec3 2)
abbrev arr3 (c : Dev nD) : Vec Ideal S64x32 .f32 := V c (Pipeline.arrRef spec3 3)
abbrev arr4 (c : Dev nD) : Vec Ideal S1x32 .f32 := V c (Pipeline.arrRef spec3 4)
abbrev arr5 (c : Dev nD) : Vec Ideal S32x32 .f32 := V c (Pipeline.arrRef spec3 5)

/-- What point t writes back to the linear output: block t of the linear stage of the arrays the region finds. -/
theorem flushed6_eq (c : Dev nD) (tb : Vec Ideal S32 .f32) (hz : ∀ j, (arr0 V c j).toNat < 50)
    (h4 : ∀ q : Fin 32, arr4 V c (ix2 (0 : Fin 1) q) = tb (ix1 q)) (t : Fin cfg3.N) :
    (dat3 (F := Ideal) V c).flushed 6 t = ((cfg3.win 6).blk t).view.read (Elt Ideal)
      (Cert.Spec.lin (arr1 V c) (Cert.Spec.embed (arr2 V c) (arr0 V c)) (arr3 V c) tb) := by
  show (cfg3.win 6).cut (grid3.coords t) ((dat3 V c).after 6 t) = _
  rw [after3_6]
  unfold out3_6
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2]
  exact block_lin (arr0 V c) (arr1 V c) (arr2 V c) (arr3 V c) (arr4 V c) tb hz h4 t

/-- What point t writes back to the projected output: block t of the projection stage. -/
theorem flushed7_eq (c : Dev nD) (tb : Vec Ideal S32 .f32) (hz : ∀ j, (arr0 V c j).toNat < 50)
    (h4 : ∀ q : Fin 32, arr4 V c (ix2 (0 : Fin 1) q) = tb (ix1 q)) (t : Fin cfg3.N) :
    (dat3 (F := Ideal) V c).flushed 7 t = ((cfg3.win 7).blk t).view.read (Elt Ideal)
      (Cert.Spec.conv (Cert.Spec.lin (arr1 V c) (Cert.Spec.embed (arr2 V c) (arr0 V c)) (arr3 V c) tb) (arr5 V c)) := by
  show (cfg3.win 7).cut (grid3.coords t) ((dat3 V c).after 7 t) = _
  rw [after3_7]
  unfold out3_7
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2, View.ld_unit_zero (S := S32x32) hz2]
  exact block_conv (arr0 V c) (arr1 V c) (arr2 V c) (arr3 V c) (arr4 V c) (arr5 V c) tb hz h4 t

end EmbedLN3

/-- THE LINEAR OUTPUT after the region: the linear stage of the previous features and the embedding of the indices. -/
theorem embedN3_xlin (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (hz : ∀ i, (z i).toNat < 50)
    (h0 : V c (Pipeline.arrRef spec3 0) = z) (h1 : V c (Pipeline.arrRef spec3 1) = xp) (h2 : V c (Pipeline.arrRef spec3 2) = e)
    (h3 : V c (Pipeline.arrRef spec3 3) = tw)
    (h4 : ∀ q : Fin 32, (V c (Pipeline.arrRef spec3 4) : Vec Ideal S1x32 .f32) (ix2 (0 : Fin 1) q) = tb (ix1 q)) :
    (dat3 (F := Ideal) V c).arrAt 6 cfg3.N = Cert.Spec.lin xp (Cert.Spec.embed e z) tw tb := by
  subst h0 h1 h2 h3
  exact (dat3 (F := Ideal) V c).arrAt_eq_of_cover 6 _ (fun t _ => EmbedLN3.flushed6_eq V c tb hz h4 t) EmbedLN3.cover6

/-- THE PROJECTED OUTPUT after the region: the projection stage of the linear output. -/
theorem embedN3_m (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (w : Vec Ideal S32x32 .f32) (hz : ∀ i, (z i).toNat < 50)
    (h0 : V c (Pipeline.arrRef spec3 0) = z) (h1 : V c (Pipeline.arrRef spec3 1) = xp) (h2 : V c (Pipeline.arrRef spec3 2) = e)
    (h3 : V c (Pipeline.arrRef spec3 3) = tw)
    (h4 : ∀ q : Fin 32, (V c (Pipeline.arrRef spec3 4) : Vec Ideal S1x32 .f32) (ix2 (0 : Fin 1) q) = tb (ix1 q))
    (h5 : V c (Pipeline.arrRef spec3 5) = w) :
    (dat3 (F := Ideal) V c).arrAt 7 cfg3.N = Cert.Spec.conv (Cert.Spec.lin xp (Cert.Spec.embed e z) tw tb) w := by
  subst h0 h1 h2 h3 h5
  exact (dat3 (F := Ideal) V c).arrAt_eq_of_cover 7 _ (fun t _ => EmbedLN3.flushed7_eq V c tb hz h4 t) EmbedLN3.cover7

end Cert.KernelValue

end
-- ==== Proof.GruPay4.lean ====
/-
  The gated-update kernel's body in region 4 (the same operations on the same shapes as in region 1), read at one
  entry, and its meeting with the reference's gated update. The lemmas that do not name a region (a matrix product at
  an entry, the column slices, the bias row, the reference at an entry) are imported.
-/
import proofs.«425927_j69028714381396_2_alg».proof.Proof.GruPay1

noncomputable section

namespace Cert.KernelValue.Gru

open Idealize.ShloMosaic Idealize.ShloMosaic.ValueIdx Cert.KernelIdeal Cert.KernelIdeal.Gen
open scoped BigOperators

/-! ## Region 4: the body's value at an entry, and its meeting with the reference -/

/-- The kernel's matrix product into a zero accumulator, read at (p, k): the row times the column. -/
theorem mm4_apply {φ₁ φ₂ : FTy} (A : FVec Ideal S8000x32 φ₁) (B : FVec Ideal S32x96 φ₂) (p : Fin 8000) (k : Fin 96) :
    matmul dot_S8000x32_S32x96_S8000x96_1_0_0_1_n_n none A B (constant (F := Ideal) S8000x96 .f32 0x00000000#32) (ix2 p k)
      = ∑ j : Fin 32, A (ix2 p j) * B (ix2 j k) :=
  (Ideal.matmul_constant_zero_apply _ none A B (ix2 p k)).trans
    (dot2_sum dot_S8000x32_S32x96_S8000x96_1_0_0_1_n_n rfl rfl rfl rfl rfl rfl A B p k)

/-- The body's value at entry (p, q) of its block is the gated update of row p of the two row blocks. -/
theorem pay4_apply (x0 x1 : Vec Ideal S8000x32 .f32) (w2 w3 : Vec Ideal S32x96 .f32) (b4 b5 : Vec Ideal S1x96 .f32)
    (p : Fin 8000) (q : Fin 32) :
    k4_pay1 (F := Ideal) x0 x1 w2 w3 b4 b5 (ix2 p q)
      = cell (fun j => x0 (ix2 p j)) (fun j => x1 (ix2 p j)) w2 w3 (fun k => b4 (ix2 0 k)) (fun k => b5 (ix2 0 k)) q := by
  unfold k4_pay1
  simp only [shapeCast_self, addf_apply, mulf_apply, subf_apply, logistic_apply, tanh_apply, broadcast_apply,
    slice0, slice1, slice2, mm4_apply, row_bcast, truncf_apply]
  rw [show FloatOps.ofBits (F := Ideal) .f32 0x3F800000#32 = 1 from Ideal.ofBits_one_f32]
  rfl

/-- Entry y of the body's value, on row blocks that are rows t·8000 onwards of the two arrays, the whole weights and the
    bias rows, is entry i of the reference's gated update, i being y moved down t blocks. -/
theorem pay4_eq_gru [Cert.ReferenceIdeal.Facts₀]
    (x0 x1 : Vec Ideal S8000x32 .f32) (w2 w3 : Vec Ideal S32x96 .f32) (b4 b5 : Vec Ideal S1x96 .f32)
    (x ag : Vec Ideal S160000x32 .f32) (wi wh : Vec Ideal S32x96 .f32) (bi bh : Vec Ideal S96 .f32)
    (tv : Nat) (y : S8000x32.Idx) (i : S160000x32.Idx)
    (hi0 : (i 0).val = tv * 8000 + (y 0).val) (hi1 : (i 1).val = (y 1).val)
    (h0 : ∀ (y' : S8000x32.Idx) (i' : S160000x32.Idx), (i' 0).val = tv * 8000 + (y' 0).val → (i' 1).val = (y' 1).val → x0 y' = x i')
    (h1 : ∀ (y' : S8000x32.Idx) (i' : S160000x32.Idx), (i' 0).val = tv * 8000 + (y' 0).val → (i' 1).val = (y' 1).val → x1 y' = ag i')
    (h2 : w2 = wi) (h3 : w3 = wh)
    (h4 : ∀ k : Fin 96, b4 (ix2 0 k) = bi (ix1 k)) (h5 : ∀ k : Fin 96, b5 (ix2 0 k) = bh (ix1 k)) :
    k4_pay1 (F := Ideal) x0 x1 w2 w3 b4 b5 y = Cert.Spec.gru (F := Ideal) x ag wi wh bi bh i := by
  obtain ⟨p, q, rfl⟩ : ∃ (p : Fin 8000) (q : Fin 32), y = ix2 p q := ⟨y 0, y 1, eq_ix2 y⟩
  obtain ⟨r, s, rfl⟩ : ∃ (r : Fin 160000) (s : Fin 32), i = ix2 r s := ⟨i 0, i 1, eq_ix2 i⟩
  obtain rfl : s = q := Fin.ext hi1
  rw [pay4_apply, gru_apply]
  subst h2 h3
  have e0 : (fun j => x0 (ix2 p j)) = fun j => x (ix2 r j) := funext fun j => h0 _ _ hi0 rfl
  have e1 : (fun j => x1 (ix2 p j)) = fun j => ag (ix2 r j) := funext fun j => h1 _ _ hi0 rfl
  have e4 : (fun k => b4 (ix2 0 k)) = fun k => bi (ix1 k) := funext h4
  have e5 : (fun k => b5 (ix2 0 k)) = fun k => bh (ix1 k) := funext h5
  rw [e0, e1, e4, e5]

end Cert.KernelValue.Gru

end
-- ==== Proof.Gru4.lean ====
/-
  The array the gated-update region leaves in its output window is the reference's gated update of the arrays it finds
  in its input windows. The grid has 20 points; at point t the two row-blocked inputs and the output are at rows
  8000 t … 8000 t + 7999, the two weights and the two bias rows are whole at every point. So what point t writes back is
  block t of the one whole-array function (the body's value at entry (p, q) of the block is the reference's at
  (8000 t + p, q)), and the 20 blocks cover the 160000 rows: row r is in block r / 8000.
-/
import proofs.«425927_j69028714381396_2_alg».proof.Proof.FrameKIW
import proofs.«425927_j69028714381396_2_alg».proof.Proof.Gen.ReferenceIdeal
import proofs.«425927_j69028714381396_2_alg».proof.Proof.GruPay4
import Idealize.ShloMosaic.Lib.Pipeline.Value

set_option maxRecDepth 16384

noncomputable section

namespace Cert.KernelValue.Gru4

open Idealize.ShloMosaic Idealize.ShloMosaic.TcCoe Idealize.ShloMosaic.ValueIdx Idealize.SL.Sem
open Idealize.ShloMosaic.Pipeline (Dat)
open Cert.KernelIdeal Cert.KernelIdeal.Gen Cert.KernelValue.Gru

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the others at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-! ## The arrays the region finds and the blocks of them at a point, at their literal types -/

abbrev arrX (c : Dev nD) : Vec Ideal S160000x32 .f32 := V c (Pipeline.arrRef spec4 0)
abbrev arrA (c : Dev nD) : Vec Ideal S160000x32 .f32 := V c (Pipeline.arrRef spec4 1)
abbrev arrWi (c : Dev nD) : Vec Ideal S32x96 .f32 := V c (Pipeline.arrRef spec4 2)
abbrev arrWh (c : Dev nD) : Vec Ideal S32x96 .f32 := V c (Pipeline.arrRef spec4 3)
abbrev arrBi (c : Dev nD) : Vec Ideal S1x96 .f32 := V c (Pipeline.arrRef spec4 4)
abbrev arrBh (c : Dev nD) : Vec Ideal S1x96 .f32 := V c (Pipeline.arrRef spec4 5)
abbrev blkX (c : Dev nD) (t : Fin cfg4.N) : Vec Ideal S8000x32 .f32 := iblk4 V c 0 t
abbrev blkA (c : Dev nD) (t : Fin cfg4.N) : Vec Ideal S8000x32 .f32 := iblk4 V c 1 t
abbrev blkWi (c : Dev nD) (t : Fin cfg4.N) : Vec Ideal S32x96 .f32 := iblk4 V c 2 t
abbrev blkWh (c : Dev nD) (t : Fin cfg4.N) : Vec Ideal S32x96 .f32 := iblk4 V c 3 t
abbrev blkBi (c : Dev nD) (t : Fin cfg4.N) : Vec Ideal S1x96 .f32 := iblk4 V c 4 t
abbrev blkBh (c : Dev nD) (t : Fin cfg4.N) : Vec Ideal S1x96 .f32 := iblk4 V c 5 t

/-- Entry y of the first input's block at point t is entry (8000 t + y₀, y₁) of its array. -/
theorem blkX_apply (c : Dev nD) (t : Fin cfg4.N) (y : S8000x32.Idx) (i : S160000x32.Idx)
    (hi0 : (i 0).val = t.val * 8000 + (y 0).val) (hi1 : (i 1).val = (y 1).val) : blkX V c t y = arrX V c i := by
  obtain ⟨e0, e1, -⟩ := idx_facts t
  show V c (Pipeline.arrRef spec4 0) (((cfg4.win 0).blk t).view.emb y) = V c (Pipeline.arrRef spec4 0) i
  refine congrArg (V c (Pipeline.arrRef spec4 0)) (funext fun a => Fin.ext ?_)
  match a with
  | ⟨0, _⟩ => show win4_0.index t (0 : Fin 2) * 8000 + 1 * (y 0).val = (i 0).val; omega
  | ⟨1, _⟩ => show win4_0.index t (1 : Fin 2) * 32 + 1 * (y 1).val = (i 1).val; omega

/-- The same for the second input. -/
theorem blkA_apply (c : Dev nD) (t : Fin cfg4.N) (y : S8000x32.Idx) (i : S160000x32.Idx)
    (hi0 : (i 0).val = t.val * 8000 + (y 0).val) (hi1 : (i 1).val = (y 1).val) : blkA V c t y = arrA V c i := by
  obtain ⟨-, -, e0, e1, -⟩ := idx_facts t
  show V c (Pipeline.arrRef spec4 1) (((cfg4.win 1).blk t).view.emb y) = V c (Pipeline.arrRef spec4 1) i
  refine congrArg (V c (Pipeline.arrRef spec4 1)) (funext fun a => Fin.ext ?_)
  match a with
  | ⟨0, _⟩ => show win4_1.index t (0 : Fin 2) * 8000 + 1 * (y 0).val = (i 0).val; omega
  | ⟨1, _⟩ => show win4_1.index t (1 : Fin 2) * 32 + 1 * (y 1).val = (i 1).val; omega

/-- A whole window's block is its array, at every point. -/
theorem blkWi_eq (c : Dev nD) (t : Fin cfg4.N) : blkWi V c t = arrWi V c := by
  obtain ⟨-, -, -, -, e0, e1, -⟩ := idx_facts t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 32 + 1 * (y 0).val = (y 0).val; omega
  | ⟨1, _⟩ => show win4_2.index t (1 : Fin 2) * 96 + 1 * (y 1).val = (y 1).val; omega

theorem blkWh_eq (c : Dev nD) (t : Fin cfg4.N) : blkWh V c t = arrWh V c := by
  obtain ⟨-, -, -, -, -, -, e0, e1, -⟩ := idx_facts t
  funext y
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 32 + 1 * (y 0).val = (y 0).val; omega
  | ⟨1, _⟩ => show win4_3.index t (1 : Fin 2) * 96 + 1 * (y 1).val = (y 1).val; omega

theorem blkBi_eq (c : Dev nD) (t : Fin cfg4.N) : blkBi V c t = arrBi V c := by
  obtain ⟨-, -, -, -, -, -, -, -, e0, e1, -⟩ := idx_facts t
  funext y
  show V c (Pipeline.arrRef spec4 4) (((cfg4.win 4).blk t).view.emb y) = V c (Pipeline.arrRef spec4 4) y
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 96 + 1 * (y 1).val = (y 1).val; omega

theorem blkBh_eq (c : Dev nD) (t : Fin cfg4.N) : blkBh V c t = arrBh V c := by
  obtain ⟨-, -, -, -, -, -, -, -, -, -, e0, e1, -⟩ := idx_facts t
  funext y
  show V c (Pipeline.arrRef spec4 5) (((cfg4.win 5).blk t).view.emb y) = V c (Pipeline.arrRef spec4 5) y
  refine congrArg (V c (Pipeline.arrRef spec4 5)) (funext fun a => Fin.ext ?_)
  match a with
  | ⟨0, _⟩ => show win4_5.index t (0 : Fin 2) * 1 + 1 * (y 0).val = (y 0).val; omega
  | ⟨1, _⟩ => show win4_5.index t (1 : Fin 2) * 96 + 1 * (y 1).val = (y 1).val; omega

/-! ## What a point writes back, the cover, the array -/

/-- What point t writes back is block t of the reference's gated update of the arrays the region finds. -/
theorem flushed_eq (c : Dev nD) (x ag : Vec Ideal S160000x32 .f32) (wi wh : Vec Ideal S32x96 .f32) (bi bh : Vec Ideal S96 .f32)
    (h0 : arrX V c = x) (h1 : arrA V c = ag) (h2 : arrWi V c = wi) (h3 : arrWh V c = wh)
    (h4 : ∀ q : Fin 96, arrBi V c (ix2 0 q) = bi (ix1 q)) (h5 : ∀ q : Fin 96, arrBh V c (ix2 0 q) = bh (ix1 q))
    (t : Fin cfg4.N) :
    (dat4 (F := Ideal) V c).flushed 6 t
      = ((cfg4.win 6).blk t).view.read (Elt Ideal) (Cert.Spec.gru (F := Ideal) x ag wi wh bi bh) := by
  show (cfg4.win 6).cut (grid4.coords t) ((dat4 (F := Ideal) V c).after 6 t) = _
  rw [after4_6]
  unfold out4_6
  rw [View.canon_unit_zero hz]
  simp only [View.ld_unit_zero (S := S8000x32) hz, View.ld_unit_zero (S := S32x96) hz, View.ld_unit_zero (S := S1x96) hz]
  obtain ⟨-, -, -, -, -, -, -, -, -, -, -, -, e0, e1⟩ := idx_facts t
  funext j
  show k4_pay1 (F := Ideal) (blkX V c t) (blkA V c t) (blkWi V c t) (blkWh V c t) (blkBi V c t) (blkBh V c t)
      ((cfg4.win 6).xinj (grid4.coords t) j)
    = Cert.Spec.gru (F := Ideal) x ag wi wh bi bh (((cfg4.win 6).blk t).view.emb j)
  refine pay4_eq_gru (blkX V c t) (blkA V c t) (blkWi V c t) (blkWh V c t) (blkBi V c t) (blkBh V c t) x ag wi wh bi bh t.val
    ((cfg4.win 6).xinj (grid4.coords t) j) (((cfg4.win 6).blk t).view.emb j) ?_ ?_ ?_ ?_ ?_ ?_ ?_ ?_
  · show win4_6.index t (0 : Fin 2) * 8000 + 1 * (j 0).val = t.val * 8000 + (j 0).val; omega
  · show win4_6.index t (1 : Fin 2) * 32 + 1 * (j 1).val = (j 1).val; omega
  · intro y' i' hy0 hy1; rw [← h0]; exact blkX_apply V c t y' i' hy0 hy1
  · intro y' i' hy0 hy1; rw [← h1]; exact blkA_apply V c t y' i' hy0 hy1
  · rw [← h2]; exact blkWi_eq V c t
  · rw [← h3]; exact blkWh_eq V c t
  · intro k; rw [← h4 k]; exact congrFun (blkBi_eq V c t) (ix2 0 k)
  · intro k; rw [← h5 k]; exact congrFun (blkBh_eq V c t) (ix2 0 k)

/-- An index of the output array is in point t's block iff each coordinate is in the block's range on its axis. -/
theorem mem_blk (t : Fin cfg4.N) (i : S160000x32.Idx) :
    i ∈ ((cfg4.win 6).blk t).view.set
      ↔ ∀ a : Fin 2, win4_6.index t a * S8000x32.size a ≤ (i a).val ∧ (i a).val < win4_6.index t a * S8000x32.size a + S8000x32.size a := by
  show i ∈ ((View.whole (Pipeline.arrRef spec4 6)).slice (win4_6.rect t)).set ↔ _
  rw [View.set_slice_whole, Rect.mem_set_unit]
  exact Iff.rfl

/-- Every index of the output array is in some point's block: row r in block r / 8000. -/
theorem cover (i : S160000x32.Idx) :
    ∃ t : Fin cfg4.N, (cfg4.win 6).flush t = true ∧ i ∈ ((cfg4.win 6).blk t).view.set := by
  have hi0 : (i 0).val < 160000 := (i 0).isLt
  have hi1 : (i 1).val < 32 := (i 1).isLt
  obtain ⟨t, ht⟩ : ∃ t : Fin cfg4.N, t.val = (i 0).val / 8000 :=
    ⟨⟨(i 0).val / 8000, by rw [show cfg4.N = 20 from N_4]; omega⟩, rfl⟩
  obtain ⟨-, -, -, -, -, -, -, -, -, -, -, -, e0, e1⟩ := idx_facts t
  refine ⟨t, flush4_6 t, ?_⟩
  rw [mem_blk]
  intro a
  match a with
  | ⟨0, _⟩ =>
    show win4_6.index t (0 : Fin 2) * 8000 ≤ (i 0).val ∧ (i 0).val < win4_6.index t (0 : Fin 2) * 8000 + 8000
    omega
  | ⟨1, _⟩ =>
    show win4_6.index t (1 : Fin 2) * 32 ≤ (i 1).val ∧ (i 1).val < win4_6.index t (1 : Fin 2) * 32 + 32
    omega

end Cert.KernelValue.Gru4

namespace Cert.KernelValue

open Idealize.ShloMosaic Idealize.ShloMosaic.TcCoe Idealize.ShloMosaic.ValueIdx Idealize.SL.Sem
open Cert.KernelIdeal Cert.KernelIdeal.Gen

/-- The output array after the region's run is the reference's gated update of the arrays the region finds in its
    input windows (the two biases found as one-row matrices). -/
theorem gru4_value (V : (c : Dev nD) → (b : Ref sig .tc) → Buf (Elt Ideal) ((c : Thread nD τ).loc b)) (c : Dev nD)
    (x ag : Vec Ideal S160000x32 .f32) (wi wh : Vec Ideal S32x96 .f32) (bi bh : Vec Ideal S96 .f32)
    (h0 : V c (Pipeline.arrRef spec4 0) = x) (h1 : V c (Pipeline.arrRef spec4 1) = ag)
    (h2 : V c (Pipeline.arrRef spec4 2) = wi) (h3 : V c (Pipeline.arrRef spec4 3) = wh)
    (h4 : ∀ q : Fin 96, V c (Pipeline.arrRef spec4 4) (ValueIdx.ix2 0 q) = bi (ValueIdx.ix1 q))
    (h5 : ∀ q : Fin 96, V c (Pipeline.arrRef spec4 5) (ValueIdx.ix2 0 q) = bh (ValueIdx.ix1 q)) :
    (dat4 (F := Ideal) V c).arrAt 6 cfg4.N = Cert.Spec.gru x ag wi wh bi bh :=
  (dat4 (F := Ideal) V c).arrAt_eq_of_cover 6 (Cert.Spec.gru (F := Ideal) x ag wi wh bi bh)
    (fun t _ => Gru4.flushed_eq V c x ag wi wh bi bh h0 h1 h2 h3 h4 h5 t) (fun i => Gru4.cover i)

end Cert.KernelValue

end
-- ==== Proof.BnPay5.lean ====
/-
  Batch normalisation with an affine map, one block of rows at a time, for the region numbered 5: the same block
  arithmetic as the first such region's, read at an index, and its meeting with the reference's normalisation.
-/
import proofs.«425927_j69028714381396_2_alg».proof.Proof.BnPay2

noncomputable section

namespace Cert.KernelValue.Bn

open Idealize.ShloMosaic Idealize.ShloMosaic.ValueIdx

section Block

open Cert.KernelIdeal Cert.KernelIdeal.Gen

/-- Entry (p, q) of the block's result: the block's entry normalised by the four rows' entries at column q
    (a [1,32] row broadcast down 8000 rows reads its column). -/
theorem k5_pay1_apply (x0 : Vec Ideal S8000x32 .f32) (mu va ga be : Vec Ideal S1x32 .f32) (p : Fin 8000) (q : Fin 32) :
    k5_pay1 (F := Ideal) x0 mu va ga be (ix2 p q)
      = bnAt (x0 (ix2 p q)) (mu (ix2 0 q)) (va (ix2 0 q)) (ga (ix2 0 q)) (be (ix2 0 q)) := by
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

end Block
section Meeting

open Cert.KernelIdeal Cert.KernelIdeal.Gen
variable [Cert.ReferenceIdeal.Facts₀]

/-- A block entry and the array entry it covers: if the block's x operand reads x there, the columns agree, and
    the four one-row operands read the column mean, the column variance, the scale and the shift, then the block's
    result at the entry is the reference's normalisation at the array entry. -/
theorem bn5_block_meets (x0 : Vec Ideal S8000x32 .f32) (mu va ga be : Vec Ideal S1x32 .f32)
    (x : Vec Ideal S160000x32 .f32) (g b : Vec Ideal S32 .f32) (j : S8000x32.Idx) (k : S160000x32.Idx)
    (hk : (k 1).val = (j 1).val)
    (hx : x0 j = x k)
    (hmu : ∀ q : Fin 32, mu (ix2 0 q) = Cert.Spec.mean32 x (ix1 q))
    (hva : ∀ q : Fin 32, va (ix2 0 q) = Cert.Spec.var32 x (ix1 q))
    (hga : ∀ q : Fin 32, ga (ix2 0 q) = g (ix1 q))
    (hbe : ∀ q : Fin 32, be (ix2 0 q) = b (ix1 q)) :
    k5_pay1 (F := Ideal) x0 mu va ga be j = Cert.Spec.bn x g b k := by
  obtain ⟨p, q, rfl⟩ : ∃ (p : Fin 8000) (q : Fin 32), j = ix2 p q := ⟨j 0, j 1, eq_ix2 j⟩
  obtain ⟨r, q', rfl⟩ : ∃ (r : Fin 160000) (q' : Fin 32), k = ix2 r q' := ⟨k 0, k 1, eq_ix2 k⟩
  obtain rfl : q' = q := Fin.ext hk
  rw [k5_pay1_apply, bn_apply, hx, hmu, hva, hga, hbe]

end Meeting

end Cert.KernelValue.Bn

end
-- ==== Proof.Bn5.lean ====
/-
  The batch-normalisation region, from blocks to the array. The grid has 20 points; point t reads rows
  8000 t … 8000 t + 7999 of the x array and the four whole one-row arrays (column means, column variances, scale,
  shift), and writes the same rows of the output array. What point t writes back is block t of the reference's
  normalisation of the x array (the block's arithmetic meets the reference's entry by entry), the 20 row blocks cover
  the output array, so after the region the output array is the reference's normalisation.
-/
import proofs.«425927_j69028714381396_2_alg».proof.Proof.FrameKIW
import proofs.«425927_j69028714381396_2_alg».proof.Proof.Gen.ReferenceIdeal
import proofs.«425927_j69028714381396_2_alg».proof.Proof.BnPay5
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Bn

/-- The zero offsets of a whole-buffer access. -/
theorem bn5_off : (![0, 0] : Fin 2 → Nat) = fun _ => 0 := funext fun a => by fin_cases a <;> rfl

/-- The index maps over the grid of 20 points: the x window's and the output window's row-block index is the
    point's number and their column-block index is zero; the four one-row windows sit at block (0, 0). -/
theorem bn5_idx : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Block t of the x window reads the x array where block t of the output window lies: both are rows
    8000 t … 8000 t + 7999, all 32 columns. -/
theorem bn5_xblk (c : Dev nD) (x : Vec Ideal S160000x32 .f32) (h0 : V c (Pipeline.arrRef spec5 0) = x)
    (t : Fin cfg5.N) (j : S8000x32.Idx) :
    iblk5 V c 0 t j = x (((cfg5.win 5).blk t).view.emb j) := by
  obtain ⟨e00, e01, e50, e51, e10, e11, e20, e21, e30, e31, e40, e41⟩ := bn5_idx t
  have he : ((cfg5.win 0).blk t).view.emb j = ((cfg5.win 5).blk t).view.emb j := by
    funext a; apply Fin.ext
    match a with
    | ⟨0, _⟩ => show win5_0.index t (0 : Fin 2) * 8000 + 1 * (j 0).val = win5_5.index t (0 : Fin 2) * 8000 + 1 * (j 0).val; omega
    | ⟨1, _⟩ => show win5_0.index t (1 : Fin 2) * 32 + 1 * (j 1).val = win5_5.index t (1 : Fin 2) * 32 + 1 * (j 1).val; omega
  show V c (Pipeline.arrRef spec5 0) (((cfg5.win 0).blk t).view.emb j) = x (((cfg5.win 5).blk t).view.emb j)
  rw [he, h0]

/-- An entry of block t of the output window keeps its column. -/
theorem bn5_col (t : Fin cfg5.N) (j : S8000x32.Idx) : ((((cfg5.win 5).blk t).view.emb j) 1).val = (j 1).val := by
  obtain ⟨e00, e01, e50, e51, e10, e11, e20, e21, e30, e31, e40, e41⟩ := bn5_idx t
  show win5_5.index t (1 : Fin 2) * 32 + 1 * (j 1).val = (j 1).val
  omega

/-- Block t of the one-row window 1 (the column means) is its whole array: at block index (0, 0) the block's entry
    (0, q) is the array's entry (0, q). -/
theorem bn5_row1 (c : Dev nD) (f : Fin 32 → EReal)
    (h : ∀ q : Fin 32, V c (Pipeline.arrRef spec5 1) (ValueIdx.ix2 0 q) = f q) (t : Fin cfg5.N) (q : Fin 32) :
    iblk5 V c 1 t (ix2 (0 : Fin 1) q) = f q := by
  obtain ⟨e00, e01, e50, e51, e10, e11, e20, e21, e30, e31, e40, e41⟩ := bn5_idx t
  have he : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 32 + 1 * q.val = q.val; omega
  show V c (Pipeline.arrRef spec5 1) (((cfg5.win 1).blk t).view.emb (ix2 (0 : Fin 1) q)) = _
  rw [he]
  exact h q

/-- Block t of the one-row window 2 (the column variances) is its whole array: at block index (0, 0) the block's entry
    (0, q) is the array's entry (0, q). -/
theorem bn5_row2 (c : Dev nD) (f : Fin 32 → EReal)
    (h : ∀ q : Fin 32, V c (Pipeline.arrRef spec5 2) (ValueIdx.ix2 0 q) = f q) (t : Fin cfg5.N) (q : Fin 32) :
    iblk5 V c 2 t (ix2 (0 : Fin 1) q) = f q := by
  obtain ⟨e00, e01, e50, e51, e10, e11, e20, e21, e30, e31, e40, e41⟩ := bn5_idx t
  have he : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 32 + 1 * q.val = q.val; omega
  show V c (Pipeline.arrRef spec5 2) (((cfg5.win 2).blk t).view.emb (ix2 (0 : Fin 1) q)) = _
  rw [he]
  exact h q

/-- Block t of the one-row window 3 (the scale) is its whole array: at block index (0, 0) the block's entry
    (0, q) is the array's entry (0, q). -/
theorem bn5_row3 (c : Dev nD) (f : Fin 32 → EReal)
    (h : ∀ q : Fin 32, V c (Pipeline.arrRef spec5 3) (ValueIdx.ix2 0 q) = f q) (t : Fin cfg5.N) (q : Fin 32) :
    iblk5 V c 3 t (ix2 (0 : Fin 1) q) = f q := by
  obtain ⟨e00, e01, e50, e51, e10, e11, e20, e21, e30, e31, e40, e41⟩ := bn5_idx t
  have he : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 32 + 1 * q.val = q.val; omega
  show V c (Pipeline.arrRef spec5 3) (((cfg5.win 3).blk t).view.emb (ix2 (0 : Fin 1) q)) = _
  rw [he]
  exact h q

/-- Block t of the one-row window 4 (the shift) is its whole array: at block index (0, 0) the block's entry
    (0, q) is the array's entry (0, q). -/
theorem bn5_row4 (c : Dev nD) (f : Fin 32 → EReal)
    (h : ∀ q : Fin 32, V c (Pipeline.arrRef spec5 4) (ValueIdx.ix2 0 q) = f q) (t : Fin cfg5.N) (q : Fin 32) :
    iblk5 V c 4 t (ix2 (0 : Fin 1) q) = f q := by
  obtain ⟨e00, e01, e50, e51, e10, e11, e20, e21, e30, e31, e40, e41⟩ := bn5_idx t
  have he : ((cfg5.win 4).blk t).view.emb (ix2 (0 : Fin 1) q) = ix2 (0 : Fin 1) q := by
    funext a; apply Fin.ext
    match a with
    | ⟨0, _⟩ => show win5_4.index t (0 : Fin 2) * 1 + 1 * 0 = 0; omega
    | ⟨1, _⟩ => show win5_4.index t (1 : Fin 2) * 32 + 1 * q.val = q.val; omega
  show V c (Pipeline.arrRef spec5 4) (((cfg5.win 4).blk t).view.emb (ix2 (0 : Fin 1) q)) = _
  rw [he]
  exact h q

set_option maxHeartbeats 1000000 in
/-- WHAT POINT t WRITES BACK is block t of the reference's normalisation of the arrays the region finds: the x
    window's block and the output's are the same rows of their arrays, and each one-row window's block is its
    whole array. -/
theorem bn5_flushed (c : Dev nD) (x : Vec Ideal S160000x32 .f32) (g b : Vec Ideal S32 .f32)
    (h0 : V c (Pipeline.arrRef spec5 0) = x)
    (h1 : ∀ q : Fin 32, V c (Pipeline.arrRef spec5 1) (ValueIdx.ix2 0 q) = Cert.Spec.mean32 x (ValueIdx.ix1 q))
    (h2 : ∀ q : Fin 32, V c (Pipeline.arrRef spec5 2) (ValueIdx.ix2 0 q) = Cert.Spec.var32 x (ValueIdx.ix1 q))
    (h3 : ∀ q : Fin 32, V c (Pipeline.arrRef spec5 3) (ValueIdx.ix2 0 q) = g (ValueIdx.ix1 q))
    (h4 : ∀ q : Fin 32, V c (Pipeline.arrRef spec5 4) (ValueIdx.ix2 0 q) = b (ValueIdx.ix1 q))
    (t : Fin cfg5.N) :
    (dat5 (F := Ideal) V c).flushed 5 t = ((cfg5.win 5).blk t).view.read (Elt Ideal) (Cert.Spec.bn x g b) := by
  show (cfg5.win 5).cut (grid5.coords t) ((dat5 (F := Ideal) V c).after 5 t) = _
  rw [after5_5]
  unfold out5_5
  rw [View.canon_unit_zero bn5_off]
  simp only [View.ld_unit_zero (S := S8000x32) bn5_off, View.ld_unit_zero (S := S1x32) bn5_off]
  funext j
  show k5_pay1 (F := Ideal) (iblk5 V c 0 t) (iblk5 V c 1 t) (iblk5 V c 2 t) (iblk5 V c 3 t) (iblk5 V c 4 t) j
    = Cert.Spec.bn x g b (((cfg5.win 5).blk t).view.emb j)
  exact bn5_block_meets (iblk5 V c 0 t) (iblk5 V c 1 t) (iblk5 V c 2 t) (iblk5 V c 3 t) (iblk5 V c 4 t) x g b j
    (((cfg5.win 5).blk t).view.emb j) (bn5_col t j) (bn5_xblk V c x h0 t j)
    (bn5_row1 V c (fun q => Cert.Spec.mean32 x (ix1 q)) h1 t)
    (bn5_row2 V c (fun q => Cert.Spec.var32 x (ix1 q)) h2 t)
    (bn5_row3 V c (fun q => g (ix1 q)) h3 t)
    (bn5_row4 V c (fun q => b (ix1 q)) h4 t)

/-- An index of the output array is in point t's block iff each coordinate is in the block's range on its axis. -/
theorem bn5_mem_blk (t : Fin cfg5.N) (i : S160000x32.Idx) :
    i ∈ ((cfg5.win 5).blk t).view.set ↔ ∀ a : Fin 2, win5_5.index t a * S8000x32.size a ≤ (i a).val
      ∧ (i a).val < win5_5.index t a * S8000x32.size a + S8000x32.size a := by
  show i ∈ ((View.whole main_v84).slice (win5_5.rect t)).set ↔ _
  rw [View.set_slice_whole, Rect.mem_set_unit]
  exact Iff.rfl

/-- The 20 row blocks cover the array: row r lies in the block of point r / 8000. -/
theorem bn5_cover (i : S160000x32.Idx) :
    ∃ t : Fin cfg5.N, (cfg5.win 5).flush t = true ∧ i ∈ ((cfg5.win 5).blk t).view.set := by
  have hi0 : (i 0).val < 160000 := (i 0).isLt
  have hi1 : (i 1).val < 32 := (i 1).isLt
  have hN : cfg5.N = 20 := N_5
  let t : Fin cfg5.N := ⟨(i 0).val / 8000, by rw [hN]; omega⟩
  have ht : t.val = (i 0).val / 8000 := rfl
  obtain ⟨e00, e01, e50, e51, -⟩ := bn5_idx t
  refine ⟨t, flush5_5 t, ?_⟩
  rw [bn5_mem_blk]
  intro a
  match a with
  | ⟨0, _⟩ =>
    show win5_5.index t (0 : Fin 2) * 8000 ≤ (i 0).val ∧ (i 0).val < win5_5.index t (0 : Fin 2) * 8000 + 8000
    omega
  | ⟨1, _⟩ =>
    show win5_5.index t (1 : Fin 2) * 32 ≤ (i 1).val ∧ (i 1).val < win5_5.index t (1 : Fin 2) * 32 + 32
    omega

end Bn

set_option maxHeartbeats 1000000 in
/-- THE OUTPUT ARRAY after the region is the reference's normalisation of the x array by the column means, the
    column variances, the scale and the shift the region finds in its one-row windows. -/
theorem bn5_value (c : Dev nD) (x : Vec Ideal S160000x32 .f32) (g b : Vec Ideal S32 .f32)
    (h0 : V c (Pipeline.arrRef spec5 0) = x)
    (h1 : ∀ q : Fin 32, V c (Pipeline.arrRef spec5 1) (ValueIdx.ix2 0 q) = Cert.Spec.mean32 x (ValueIdx.ix1 q))
    (h2 : ∀ q : Fin 32, V c (Pipeline.arrRef spec5 2) (ValueIdx.ix2 0 q) = Cert.Spec.var32 x (ValueIdx.ix1 q))
    (h3 : ∀ q : Fin 32, V c (Pipeline.arrRef spec5 3) (ValueIdx.ix2 0 q) = g (ValueIdx.ix1 q))
    (h4 : ∀ q : Fin 32, V c (Pipeline.arrRef spec5 4) (ValueIdx.ix2 0 q) = b (ValueIdx.ix1 q)) :
    (dat5 (F := Ideal) V c).arrAt 5 cfg5.N = Cert.Spec.bn x g b :=
  (dat5 (F := Ideal) V c).arrAt_eq_of_cover 5 (Cert.Spec.bn x g b)
    (fun t _ => Bn.bn5_flushed V c x g b h0 h1 h2 h3 h4 t) Bn.bn5_cover

end Cert.KernelValue

end
-- ==== Proof.KStage1.lean ====
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KCarry
import proofs.«425927_j69028714381396_2_alg».proof.Proof.KHost
import proofs.«425927_j69028714381396_2_alg».proof.Proof.KStage1HostA
import proofs.«425927_j69028714381396_2_alg».proof.Proof.KStage1HostB
import proofs.«425927_j69028714381396_2_alg».proof.Proof.EmbedLN3
import proofs.«425927_j69028714381396_2_alg».proof.Proof.Gru4
import proofs.«425927_j69028714381396_2_alg».proof.Proof.Bn5
import Idealize.ShloMosaic.Lib.StableHlo.Run

/-!
  Layer 1 (the layers counted from 0) of the kernel program read off the run's fold, from boundary 8 (the previous layer's exit)
  to boundary 16: the stretch of weight slices, the linear region, the aggregation stretch, the gated update,
  the three normalisation stretches, the normalisation region. Each region's result is the reference's stage
  function of what its windows hold at entry; each window at entry is a buffer carried from an earlier boundary
  or a host stretch's function of such buffers. Composed, the layer's result is the reference's layer function
  of the previous layer's result and the launch arguments.
-/

-- deciding that two of the program's several hundred references differ recurses once per reference
set_option maxRecDepth 16384

noncomputable section

namespace Cert.KernelValue

open Idealize.ShloMosaic Idealize.ShloMosaic.TcCoe Cert.KernelIdeal Cert.KernelIdeal.Gen

variable (m : (ℓ : Loc nD τ sig) → Buf (Elt Ideal) ℓ) (ρ : Dev nD → PrngReg)

/-! ## The carried buffers inside the layer

The gate weights' stacks and the two edge-endpoint vectors are read after the linear region (boundary 10), the
scale and shift stacks after the gated update and two of the normalisation's stretches (boundary 14). No
stretch writes them and they are windows of neither region, so each still holds what it held at boundary 8. -/

theorem L1.at10_src (c : Dev nD) :
    W10 m ρ c (Proc.devRef .tc main_v1) = Cert.Spec.srcOf (m ((c : Thread nD τ).loc main_arg1)) :=
  (W10_of_ne m ρ c main_v1 (by decide)).trans ((KCarry.keeps_hostOps3 (W8 m ρ c) main_v1 (by decide)).trans (W8_src m ρ c))
theorem L1.at10_dst (c : Dev nD) :
    W10 m ρ c (Proc.devRef .tc main_v3) = Cert.Spec.dstOf (m ((c : Thread nD τ).loc main_arg1)) :=
  (W10_of_ne m ρ c main_v3 (by decide)).trans ((KCarry.keeps_hostOps3 (W8 m ρ c) main_v3 (by decide)).trans (W8_dst m ρ c))
theorem L1.at10_arg9 (c : Dev nD) :
    W10 m ρ c (Proc.devRef .tc main_arg9) = m ((c : Thread nD τ).loc main_arg9) :=
  (W10_of_ne m ρ c main_arg9 (by decide)).trans ((KCarry.keeps_hostOps3 (W8 m ρ c) main_arg9 (by decide)).trans (W8_arg9 m ρ c))
theorem L1.at10_arg10 (c : Dev nD) :
    W10 m ρ c (Proc.devRef .tc main_arg10) = m ((c : Thread nD τ).loc main_arg10) :=
  (W10_of_ne m ρ c main_arg10 (by decide)).trans ((KCarry.keeps_hostOps3 (W8 m ρ c) main_arg10 (by decide)).trans (W8_arg10 m ρ c))
theorem L1.at10_arg11 (c : Dev nD) :
    W10 m ρ c (Proc.devRef .tc main_arg11) = m ((c : Thread nD τ).loc main_arg11) :=
  (W10_of_ne m ρ c main_arg11 (by decide)).trans ((KCarry.keeps_hostOps3 (W8 m ρ c) main_arg11 (by decide)).trans (W8_arg11 m ρ c))
theorem L1.at10_arg12 (c : Dev nD) :
    W10 m ρ c (Proc.devRef .tc main_arg12) = m ((c : Thread nD τ).loc main_arg12) :=
  (W10_of_ne m ρ c main_arg12 (by decide)).trans ((KCarry.keeps_hostOps3 (W8 m ρ c) main_arg12 (by decide)).trans (W8_arg12 m ρ c))

theorem L1.at14_arg13 (c : Dev nD) :
    W14 m ρ c (Proc.devRef .tc main_arg13) = m ((c : Thread nD τ).loc main_arg13) :=
  calc W14 m ρ c (Proc.devRef .tc main_arg13)
    _ = W13 m ρ c (Proc.devRef .tc main_arg13) := KCarry.keeps_hostOps5_1 _ main_arg13 (by decide)
    _ = W12 m ρ c (Proc.devRef .tc main_arg13) := KCarry.keeps_hostOps5 _ main_arg13 (by decide)
    _ = W11 m ρ c (Proc.devRef .tc main_arg13) := W12_of_ne m ρ c main_arg13 (by decide)
    _ = W10 m ρ c (Proc.devRef .tc main_arg13) := KCarry.keeps_hostOps4 _ main_arg13 (by decide)
    _ = W9 m ρ c (Proc.devRef .tc main_arg13) := W10_of_ne m ρ c main_arg13 (by decide)
    _ = W8 m ρ c (Proc.devRef .tc main_arg13) := KCarry.keeps_hostOps3 _ main_arg13 (by decide)
    _ = m ((c : Thread nD τ).loc main_arg13) := W8_arg13 m ρ c
theorem L1.at14_arg14 (c : Dev nD) :
    W14 m ρ c (Proc.devRef .tc main_arg14) = m ((c : Thread nD τ).loc main_arg14) :=
  calc W14 m ρ c (Proc.devRef .tc main_arg14)
    _ = W13 m ρ c (Proc.devRef .tc main_arg14) := KCarry.keeps_hostOps5_1 _ main_arg14 (by decide)
    _ = W12 m ρ c (Proc.devRef .tc main_arg14) := KCarry.keeps_hostOps5 _ main_arg14 (by decide)
    _ = W11 m ρ c (Proc.devRef .tc main_arg14) := W12_of_ne m ρ c main_arg14 (by decide)
    _ = W10 m ρ c (Proc.devRef .tc main_arg14) := KCarry.keeps_hostOps4 _ main_arg14 (by decide)
    _ = W9 m ρ c (Proc.devRef .tc main_arg14) := W10_of_ne m ρ c main_arg14 (by decide)
    _ = W8 m ρ c (Proc.devRef .tc main_arg14) := KCarry.keeps_hostOps3 _ main_arg14 (by decide)
    _ = m ((c : Thread nD τ).loc main_arg14) := W8_arg14 m ρ c

/-! ## The linear region

Its windows at entry: the integer input and the previous layer's features as boundary 8 left them, and the
stretch's four slices of the stacked weights (the bias as a row). Its two results are the layer's linear
input and that input's projection. -/

theorem L1.lin (c : Dev nD)
    (hz : ∀ i, ((m ((c : Thread nD τ).loc main_arg0) : Vec Ideal S160000x2 .i32) i).toNat < 50) :
    W10 m ρ c (Proc.devRef .tc main_v51_0)
      = Cert.Spec.lin (W8 m ρ c (Proc.devRef .tc main_v41))
          (Cert.Spec.embed (Cert.Spec.emb1 (m ((c : Thread nD τ).loc main_arg5))) (m ((c : Thread nD τ).loc main_arg0)))
          (Cert.Spec.tw1 (m ((c : Thread nD τ).loc main_arg6))) (Cert.Spec.b32_1 (m ((c : Thread nD τ).loc main_arg7))) :=
  (W10_arr m ρ c 6).trans
    (embedN3_xlin (V9 m ρ) c (m ((c : Thread nD τ).loc main_arg0)) (W8 m ρ c (Proc.devRef .tc main_v41))
      (Cert.Spec.emb1 (m ((c : Thread nD τ).loc main_arg5))) (Cert.Spec.tw1 (m ((c : Thread nD τ).loc main_arg6)))
      (Cert.Spec.b32_1 (m ((c : Thread nD τ).loc main_arg7))) hz
      ((KCarry.keeps_hostOps3 (W8 m ρ c) main_arg0 (by decide)).trans (W8_arg0 m ρ c))
      (ops3_keep_xp (W8 m ρ c))
      (ops3_emb (W8 m ρ c) _ (W8_arg5 m ρ c))
      (ops3_tw (W8 m ρ c) _ (W8_arg6 m ρ c))
      (fun q => (congrFun (ops3_tb (W8 m ρ c) _ (W8_arg7 m ρ c)) (ValueIdx.ix2 0 q)).trans (row32_apply _ q)))

theorem L1.msg (c : Dev nD)
    (hz : ∀ i, ((m ((c : Thread nD τ).loc main_arg0) : Vec Ideal S160000x2 .i32) i).toNat < 50) :
    W10 m ρ c (Proc.devRef .tc main_v51_1)
      = Cert.Spec.conv (Cert.Spec.lin (W8 m ρ c (Proc.devRef .tc main_v41))
          (Cert.Spec.embed (Cert.Spec.emb1 (m ((c : Thread nD τ).loc main_arg5))) (m ((c : Thread nD τ).loc main_arg0)))
          (Cert.Spec.tw1 (m ((c : Thread nD τ).loc main_arg6))) (Cert.Spec.b32_1 (m ((c : Thread nD τ).loc main_arg7))))
        (Cert.Spec.cw1 (m ((c : Thread nD τ).loc main_arg8))) :=
  (W10_arr m ρ c 7).trans
    (embedN3_m (V9 m ρ) c (m ((c : Thread nD τ).loc main_arg0)) (W8 m ρ c (Proc.devRef .tc main_v41))
      (Cert.Spec.emb1 (m ((c : Thread nD τ).loc main_arg5))) (Cert.Spec.tw1 (m ((c : Thread nD τ).loc main_arg6)))
      (Cert.Spec.b32_1 (m ((c : Thread nD τ).loc main_arg7))) (Cert.Spec.cw1 (m ((c : Thread nD τ).loc main_arg8))) hz
      ((KCarry.keeps_hostOps3 (W8 m ρ c) main_arg0 (by decide)).trans (W8_arg0 m ρ c))
      (ops3_keep_xp (W8 m ρ c))
      (ops3_emb (W8 m ρ c) _ (W8_arg5 m ρ c))
      (ops3_tw (W8 m ρ c) _ (W8_arg6 m ρ c))
      (fun q => (congrFun (ops3_tb (W8 m ρ c) _ (W8_arg7 m ρ c)) (ValueIdx.ix2 0 q)).trans (row32_apply _ q))
      (ops3_cw (W8 m ρ c) _ (W8_arg8 m ρ c)))

/-! ## The gated update

Its windows at entry: the linear input as the linear region left it, the aggregation of the projection over
the edges, and the stretch's slices of the gate weights (the biases as rows). -/

theorem L1.gru (c : Dev nD) (xl mm : Vec Ideal S160000x32 .f32)
    (hxl : W10 m ρ c (Proc.devRef .tc main_v51_0) = xl) (hmm : W10 m ρ c (Proc.devRef .tc main_v51_1) = mm) :
    W12 m ρ c (Proc.devRef .tc main_v72)
      = Cert.Spec.gru xl
          (Cert.Spec.agg mm (Cert.Spec.srcOf (m ((c : Thread nD τ).loc main_arg1))) (Cert.Spec.dstOf (m ((c : Thread nD τ).loc main_arg1))))
          (Cert.Spec.wi1 (m ((c : Thread nD τ).loc main_arg9))) (Cert.Spec.wi1 (m ((c : Thread nD τ).loc main_arg10)))
          (Cert.Spec.b96_1 (m ((c : Thread nD τ).loc main_arg11))) (Cert.Spec.b96_1 (m ((c : Thread nD τ).loc main_arg12))) :=
  (W12_arr m ρ c 6).trans
    (gru4_value (V11 m ρ) c xl
      (Cert.Spec.agg mm (Cert.Spec.srcOf (m ((c : Thread nD τ).loc main_arg1))) (Cert.Spec.dstOf (m ((c : Thread nD τ).loc main_arg1))))
      (Cert.Spec.wi1 (m ((c : Thread nD τ).loc main_arg9))) (Cert.Spec.wi1 (m ((c : Thread nD τ).loc main_arg10)))
      (Cert.Spec.b96_1 (m ((c : Thread nD τ).loc main_arg11))) (Cert.Spec.b96_1 (m ((c : Thread nD τ).loc main_arg12)))
      ((ops4_keep_xl (W10 m ρ c)).trans hxl)
      (ops4_agg (W10 m ρ c) mm _ _ hmm (L1.at10_src m ρ c) (L1.at10_dst m ρ c))
      (ops4_wi (W10 m ρ c) _ (L1.at10_arg9 m ρ c))
      (ops4_wh (W10 m ρ c) _ (L1.at10_arg10 m ρ c))
      (fun q => (congrFun (ops4_bi (W10 m ρ c) _ (L1.at10_arg11 m ρ c)) (ValueIdx.ix2 0 q)).trans (row96_apply _ q))
      (fun q => (congrFun (ops4_bh (W10 m ρ c) _ (L1.at10_arg12 m ρ c)) (ValueIdx.ix2 0 q)).trans (row96_apply _ q)))

/-! ## The normalisation

Its windows at entry: the gated update's result, untouched by the three stretches; the mean row and the
variance row the first two stretches compute from it, read entry by entry as the column mean and the biased
column variance; the scale and shift rows. -/

theorem L1.bn (c : Dev nD) (x : Vec Ideal S160000x32 .f32) (hx : W12 m ρ c (Proc.devRef .tc main_v72) = x) :
    W16 m ρ c (Proc.devRef .tc main_v84)
      = Cert.Spec.bn x (Cert.Spec.b32_1 (m ((c : Thread nD τ).loc main_arg13))) (Cert.Spec.b32_1 (m ((c : Thread nD τ).loc main_arg14))) :=
  (W16_arr m ρ c 5).trans
    (bn5_value (V15 m ρ) c x
      (Cert.Spec.b32_1 (m ((c : Thread nD τ).loc main_arg13))) (Cert.Spec.b32_1 (m ((c : Thread nD τ).loc main_arg14)))
      ((ops5_2_keep_x (W14 m ρ c)).trans ((ops5_1_keep_x (W13 m ρ c)).trans ((ops5_keep_x (W12 m ρ c)).trans hx)))
      (fun q => (congrFun ((ops5_2_keep_mean (W14 m ρ c)).trans ((ops5_1_keep_mean (W13 m ρ c)).trans
        (ops5_mean (W12 m ρ c) x hx))) (ValueIdx.ix2 0 q)).trans (meanRow x q))
      (fun q => (congrFun ((ops5_2_keep_var (W14 m ρ c)).trans
        (ops5_1_var (W13 m ρ c) x ((ops5_keep_x (W12 m ρ c)).trans hx) (ops5_zero (W12 m ρ c)))) (ValueIdx.ix2 0 q)).trans (varRow x q))
      (fun q => (congrFun (ops5_2_g (W14 m ρ c) _ (L1.at14_arg13 m ρ c)) (ValueIdx.ix2 0 q)).trans (row32_apply _ q))
      (fun q => (congrFun (ops5_2_b (W14 m ρ c) _ (L1.at14_arg14 m ρ c)) (ValueIdx.ix2 0 q)).trans (row32_apply _ q)))

/-! ## The layer -/

/-- The layer's result is the reference's layer function of the previous layer's result and the arguments:
    the linear input, its projection aggregated over the edges, the gated update, the normalisation. -/
theorem stage1 (c : Dev nD)
    (hz : ∀ i, ((m ((c : Thread nD τ).loc main_arg0) : Vec Ideal S160000x2 .i32) i).toNat < 50) :
    W16 m ρ c (Proc.devRef .tc main_v84)
      = Cert.Spec.x1 (W8 m ρ c (Proc.devRef .tc main_v41)) (m ((c : Thread nD τ).loc main_arg0))
          (Cert.Spec.srcOf (m ((c : Thread nD τ).loc main_arg1))) (Cert.Spec.dstOf (m ((c : Thread nD τ).loc main_arg1)))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) :=
  L1.bn m ρ c _ (L1.gru m ρ c _ _ (L1.lin m ρ c hz) (L1.msg m ρ c hz))

end Cert.KernelValue

end
-- ==== Proof.KStage2HostA.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import Idealize.ShloMosaic.Lib.StableHlo.Run

/-!
  The host stretches of layer 2 (the layers counted from 0), read off as functions of the buffers they read (first part): the
  stretch before the linear region and the stretch before the gated update. Each lemma is about the stretch
  alone, at any contents of the buffers before it: a result buffer holds the composition of the operations that
  lead to it, which is the reference's slice (or aggregation) function of the same inputs by unfolding.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The stretch before the linear region: the layer's slices of the stacked weights

Each is row 2 of a stacked argument, cut out and reshaped; the bias is kept as a [1, 32] row. The previous
layer's features are not touched. -/

theorem ops6_keep_xp (V : Valuation τ sig (Elt F)) :
    StableHlo.after hostOps6 V (Proc.devRef .tc main_v84) = V (Proc.devRef .tc main_v84) := by
  carry_over hostOps6

theorem ops6_emb (V : Valuation τ sig (Elt F)) (a5 : Vec F S5x50x32 .f32) (h : V (Proc.devRef .tc main_arg5) = a5) :
    StableHlo.after hostOps6 V (Proc.devRef .tc main_v86) = Cert.Spec.emb2 a5 := by
  subst h; dsimp only [hostOps6]; after_results; all_goals rfl

theorem ops6_cw (V : Valuation τ sig (Elt F)) (a8 : Vec F S5x32x32 .f32) (h : V (Proc.devRef .tc main_arg8) = a8) :
    StableHlo.after hostOps6 V (Proc.devRef .tc main_v88) = Cert.Spec.cw2 a8 := by
  subst h; dsimp only [hostOps6]; after_results; all_goals rfl

theorem ops6_tw (V : Valuation τ sig (Elt F)) (a6 : Vec F S5x64x32 .f32) (h : V (Proc.devRef .tc main_arg6) = a6) :
    StableHlo.after hostOps6 V (Proc.devRef .tc main_v90) = Cert.Spec.tw2 a6 := by
  subst h; dsimp only [hostOps6]; after_results; all_goals rfl

theorem ops6_tb (V : Valuation τ sig (Elt F)) (a7 : Vec F S5x32 .f32) (h : V (Proc.devRef .tc main_arg7) = a7) :
    StableHlo.after hostOps6 V (Proc.devRef .tc main_v93) = shapeCast S1x32 (Cert.Spec.b32_2 a7) shapeCasts_S32_S1x32 := by
  subst h; dsimp only [hostOps6]; after_results; all_goals rfl

/-! ## The stretch before the gated update: the message aggregation and the gate weights' slices

The projected features are gathered at every edge's source node and added up at its target node; the two
32 × 96 gate weights and the two 96-entry gate biases (kept as [1, 96] rows) are row 2 of their stacks.
The linear region's first result is not touched. -/

theorem ops7_keep_xl (V : Valuation τ sig (Elt F)) :
    StableHlo.after hostOps7 V (Proc.devRef .tc main_v94_0) = V (Proc.devRef .tc main_v94_0) := by
  carry_over hostOps7

set_option maxHeartbeats 1000000 in
theorem ops7_agg (V : Valuation τ sig (Elt F)) (mm : Vec F S160000x32 .f32) (s d : Vec F S2560000 .i32)
    (hm : V (Proc.devRef .tc main_v94_1) = mm) (hs : V (Proc.devRef .tc main_v1) = s) (hd : V (Proc.devRef .tc main_v3) = d) :
    StableHlo.after hostOps7 V (Proc.devRef .tc main_v104) = Cert.Spec.agg mm s d := by
  subst hm hs hd; dsimp only [hostOps7]; after_results_simp; all_goals rfl

theorem ops7_wi (V : Valuation τ sig (Elt F)) (a9 : Vec F S5x32x96 .f32) (h : V (Proc.devRef .tc main_arg9) = a9) :
    StableHlo.after hostOps7 V (Proc.devRef .tc main_v106) = Cert.Spec.wi2 a9 := by
  subst h; dsimp only [hostOps7]; after_results; all_goals rfl

theorem ops7_wh (V : Valuation τ sig (Elt F)) (a10 : Vec F S5x32x96 .f32) (h : V (Proc.devRef .tc main_arg10) = a10) :
    StableHlo.after hostOps7 V (Proc.devRef .tc main_v108) = Cert.Spec.wi2 a10 := by
  subst h; dsimp only [hostOps7]; after_results; all_goals rfl

theorem ops7_bi (V : Valuation τ sig (Elt F)) (a11 : Vec F S5x96 .f32) (h : V (Proc.devRef .tc main_arg11) = a11) :
    StableHlo.after hostOps7 V (Proc.devRef .tc main_v111) = shapeCast S1x96 (Cert.Spec.b96_2 a11) shapeCasts_S96_S1x96 := by
  subst h; dsimp only [hostOps7]; after_results; all_goals rfl

theorem ops7_bh (V : Valuation τ sig (Elt F)) (a12 : Vec F S5x96 .f32) (h : V (Proc.devRef .tc main_arg12) = a12) :
    StableHlo.after hostOps7 V (Proc.devRef .tc main_v114) = shapeCast S1x96 (Cert.Spec.b96_2 a12) shapeCasts_S96_S1x96 := by
  subst h; dsimp only [hostOps7]; after_results; all_goals rfl

end Cert.KernelValue

end
-- ==== Proof.KStage2HostB.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import proofs.«425927_j69028714381396_2_alg».proof.Proof.KHost
import Idealize.ShloMosaic.Lib.StableHlo.Run

/-!
  The host stretches of layer 2 (the layers counted from 0), read off as functions of the buffers they read (second part): the
  three stretches before the normalisation. Each lemma is about the stretch alone, at any contents of the
  buffers before it.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three stretches before the normalisation: the column mean, the column variance, the scale and shift rows

The mean row is the column sum over the row count; the variance row is what the inlined variance computation
leaves (it reads the integer zero the mean's stretch wrote last); the scale and the shift are row 2 of their
stacks kept as [1, 32] rows. None of them touches the gated update's result. -/

theorem ops8_keep_x (V : Valuation τ sig (Elt F)) :
    StableHlo.after hostOps8 V (Proc.devRef .tc main_v115) = V (Proc.devRef .tc main_v115) := by
  carry_over hostOps8
theorem ops8_1_keep_x (V : Valuation τ sig (Elt F)) :
    StableHlo.after hostOps8_1 V (Proc.devRef .tc main_v115) = V (Proc.devRef .tc main_v115) := by
  carry_over hostOps8_1
theorem ops8_2_keep_x (V : Valuation τ sig (Elt F)) :
    StableHlo.after hostOps8_2 V (Proc.devRef .tc main_v115) = V (Proc.devRef .tc main_v115) := by
  carry_over hostOps8_2
theorem ops8_1_keep_mean (V : Valuation τ sig (Elt F)) :
    StableHlo.after hostOps8_1 V (Proc.devRef .tc main_v119) = V (Proc.devRef .tc main_v119) := by
  carry_over hostOps8_1
theorem ops8_2_keep_mean (V : Valuation τ sig (Elt F)) :
    StableHlo.after hostOps8_2 V (Proc.devRef .tc main_v119) = V (Proc.devRef .tc main_v119) := by
  carry_over hostOps8_2
theorem ops8_2_keep_var (V : Valuation τ sig (Elt F)) :
    StableHlo.after hostOps8_2 V (Proc.devRef .tc main_v120) = V (Proc.devRef .tc main_v120) := by
  carry_over hostOps8_2

theorem ops8_mean (V : Valuation τ sig (Elt F)) (x : Vec F S160000x32 .f32) (h : V (Proc.devRef .tc main_v115) = x) :
    StableHlo.after hostOps8 V (Proc.devRef .tc main_v119)
      = Host.divf (F := F) (broadcastInDim S1x32 ![1] bcast_S32_S1x32_1
          (Host.reduceAdd (F := F) x (constant (F := F) S_ .f32 0x00000000#32) reducesTo_S160000x32_S32_d0 h_S_))
        (broadcastInDim S1x32 ![] bcast_S_S1x32 (constant (F := F) S_ .f32 0x481C4000#32)) := by
  subst h; dsimp only [hostOps8]; after_results; all_goals rfl

theorem ops8_zero (V : Valuation τ sig (Elt F)) :
    StableHlo.after hostOps8 V (Proc.devRef .tc main_c_15) = (constantI S_ 32 0#32 : Vec F S_ .i32) := by
  dsimp only [hostOps8]; after_results; all_goals rfl

set_option maxHeartbeats 1000000 in
theorem ops8_1_var (V : Valuation τ sig (Elt Ideal)) (x : Vec Ideal S160000x32 .f32) (h : V (Proc.devRef .tc main_v115) = x)
    (hc : V (Proc.devRef .tc main_c_15) = (constantI S_ 32 0#32 : Vec Ideal S_ .i32)) :
    StableHlo.after hostOps8_1 V (Proc.devRef .tc main_v120) = kvar x := by
  subst h; dsimp only [hostOps8_1]; after_results_simp
  simp only [StableHlo.TRef.ofBuf, StableHlo.TRef.toBuf, cast_eq]
  rw [hc]; rfl

theorem ops8_2_g (V : Valuation τ sig (Elt F)) (a13 : Vec F S5x32 .f32) (h : V (Proc.devRef .tc main_arg13) = a13) :
    StableHlo.after hostOps8_2 V (Proc.devRef .tc main_v123) = shapeCast S1x32 (Cert.Spec.b32_2 a13) shapeCasts_S32_S1x32 := by
  subst h; dsimp only [hostOps8_2]; after_results; all_goals rfl

theorem ops8_2_b (V : Valuation τ sig (Elt F)) (a14 : Vec F S5x32 .f32) (h : V (Proc.devRef .tc main_arg14) = a14) :
    StableHlo.after hostOps8_2 V (Proc.devRef .tc main_v126) = shapeCast S1x32 (Cert.Spec.b32_2 a14) shapeCasts_S32_S1x32 := by
  subst h; dsimp only [hostOps8_2]; after_results; all_goals rfl

end Cert.KernelValue

end
-- ==== Proof.EmbedLNPay6.lean ====
/-
  One layer's embedding + linear + projection block, read at an index, at the ideal values (floats are extended reals,
  a change of float format is the identity, a matrix product is an exact finite sum).
  The block's linear payload at (p, q) is  Σ_k cat(p, k) · W(k, q) + b(q),  where cat(p, ·) is row p of the previous
  features beside  Σ_k [z(p,0) = k] · T(k, ·) + Σ_k [z(p,1) = k] · T(k, ·);  a sum against a one-hot row selects the
  table's row, so this is the reference's gather of rows z(p,0) and z(p,1), added (the reference reads an index signed
  and clamped into [0, 49], which changes nothing for an index in [0, 50)). The projected payload is that row against
  the 32×32 projection. Both are met with the reference's stage functions index by index. Then the windows' blocks at a
  grid point: the index block and the feature block are rows t · 8000 … t · 8000 + 7999 of their arrays, the table, the
  weight, the bias row and the projection are read whole, so each payload of the blocks is block t of its stage function
  of the arrays; and the 20 output blocks tile the 160000 rows.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import proofs.«425927_j69028714381396_2_alg».proof.Proof.Gen.KernelIdeal.Points
import Idealize.ShloMosaic.PureOps.Ideal
import Idealize.ShloMosaic.Lib.KernelVsHost
import Idealize.ShloMosaic.Lib.ValueLayout
import Idealize.ShloMosaic.Lib.IdealHost

noncomputable section

namespace Cert.KernelValue.EmbedLN6

open Idealize.ShloMosaic Idealize.ShloMosaic.ValueIdx

/-! ## A product of two matrices, read at an index -/

/-- The contraction's sum of a rows × columns product, re-indexed by the contracted coordinate: given where each
    operand index sits on each axis, the sum over the contraction index set is the sum over `Fin k` of the products
    of the row's and the column's entries. -/
theorem sum_contr_eq {m k n : Nat} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (A : (⟨2, ![m, k]⟩ : Shape).Idx → EReal) (B : (⟨2, ![k, n]⟩ : Shape).Idx → EReal) (a : Fin m) (b : Fin n) :
    ∑ q : D.contr.Idx, A (D.lhsIdx (ix2 a b) q) * B (D.rhsIdx (ix2 a b) q) = ∑ c : Fin k, A (ix2 a c) * B (ix2 c b) := by
  rw [← Equiv.sum_comp (contrEquiv1 D k hr hs).symm]
  refine Finset.sum_congr rfl fun c _ => ?_
  have hk := contrEquiv1_symm_val D k hr hs c
  have el : D.lhsIdx (ix2 a b) ((contrEquiv1 D k hr hs).symm c) = ix2 a c := funext fun ax => Fin.ext (by
    match ax with
    | ⟨0, _⟩ => exact l0 _ _
    | ⟨1, _⟩ => exact (l1 _ _).trans hk)
  have er : D.rhsIdx (ix2 a b) ((contrEquiv1 D k hr hs).symm c) = ix2 c b := funext fun ax => Fin.ext (by
    match ax with
    | ⟨0, _⟩ => exact (r0 _ _).trans hk
    | ⟨1, _⟩ => exact r1 _ _)
  rw [el, er]

section K50

theorem lhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 0).val = (i 0).val := by
  unfold DotDims.lhsIdx
  rw [dif_neg (show ¬(0 : Fin Cert.KernelIdeal.S8000x50.rank) ∈ Cert.KernelIdeal.dot_S8000x50_S50x32_S8000x32_1_0_0_1_n_n.lhsBatch from List.not_mem_nil),
    dif_pos (show (0 : Fin Cert.KernelIdeal.S8000x50.rank) ∈ Cert.KernelIdeal.dot_S8000x50_S50x32_S8000x32_1_0_0_1_n_n.lhsNonContracting from List.mem_singleton.mpr rfl)]
  rfl
theorem lhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 1).val = (q ⟨0, Nat.one_pos⟩).val :=
  Cert.KernelIdeal.dot_S8000x50_S50x32_S8000x32_1_0_0_1_n_n.lhsIdx_val_of_single rfl i q
theorem rhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 0).val = (q ⟨0, Nat.one_pos⟩).val :=
  Cert.KernelIdeal.dot_S8000x50_S50x32_S8000x32_1_0_0_1_n_n.rhsIdx_val_of_single rfl i q
theorem rhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 1).val = (i 1).val := by
  unfold DotDims.rhsIdx
  rw [dif_neg (show ¬(1 : Fin Cert.KernelIdeal.S50x32.rank) ∈ Cert.KernelIdeal.dot_S8000x50_S50x32_S8000x32_1_0_0_1_n_n.rhsBatch from List.not_mem_nil),
    dif_pos (show (1 : Fin Cert.KernelIdeal.S50x32.rank) ∈ Cert.KernelIdeal.dot_S8000x50_S50x32_S8000x32_1_0_0_1_n_n.rhsNonContracting from List.mem_singleton.mpr rfl)]
  rfl

theorem matmul50_apply (A : FVec Ideal Cert.KernelIdeal.S8000x50 .bf16) (B : FVec Ideal Cert.KernelIdeal.S50x32 .bf16) (p : Fin 8000) (d : Fin 32) :
    matmul Cert.KernelIdeal.dot_S8000x50_S50x32_S8000x32_1_0_0_1_n_n none A B (constant (F := Ideal) Cert.KernelIdeal.S8000x32 .f32 0x00000000#32) (ix2 p d)
      = ∑ k : Fin 50, A (ix2 p k) * B (ix2 k d) := by
  show FloatOps.matmul _ none A B _ (ix2 p d) = _
  rw [Ideal.matmul_constant_zero_apply]
  exact sum_contr_eq _ rfl rfl lhs_k50_0 lhs_k50_1 rhs_k50_0 rhs_k50_1 A B p d
end K50
section R64

theorem lhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 0).val = (i 0).val := by
  unfold DotDims.lhsIdx
  rw [dif_neg (show ¬(0 : Fin Cert.ReferenceIdeal.S160000x64.rank) ∈ Cert.ReferenceIdeal.dot_S160000x64_S64x32_S160000x32_1_0_0_1_n_n.lhsBatch from List.not_mem_nil),
    dif_pos (show (0 : Fin Cert.ReferenceIdeal.S160000x64.rank) ∈ Cert.ReferenceIdeal.dot_S160000x64_S64x32_S160000x32_1_0_0_1_n_n.lhsNonContracting from List.mem_singleton.mpr rfl)]
  rfl
theorem lhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 1).val = (q ⟨0, Nat.one_pos⟩).val :=
  Cert.ReferenceIdeal.dot_S160000x64_S64x32_S160000x32_1_0_0_1_n_n.lhsIdx_val_of_single rfl i q
theorem rhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 0).val = (q ⟨0, Nat.one_pos⟩).val :=
  Cert.ReferenceIdeal.dot_S160000x64_S64x32_S160000x32_1_0_0_1_n_n.rhsIdx_val_of_single rfl i q
theorem rhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 1).val = (i 1).val := by
  unfold DotDims.rhsIdx
  rw [dif_neg (show ¬(1 : Fin Cert.ReferenceIdeal.S64x32.rank) ∈ Cert.ReferenceIdeal.dot_S160000x64_S64x32_S160000x32_1_0_0_1_n_n.rhsBatch from List.not_mem_nil),
    dif_pos (show (1 : Fin Cert.ReferenceIdeal.S64x32.rank) ∈ Cert.ReferenceIdeal.dot_S160000x64_S64x32_S160000x32_1_0_0_1_n_n.rhsNonContracting from List.mem_singleton.mpr rfl)]
  rfl

theorem dot64_apply (A : FVec Ideal Cert.ReferenceIdeal.S160000x64 .f32) (B : FVec Ideal Cert.ReferenceIdeal.S64x32 .f32) (p : Fin 160000) (d : Fin 32) :
    (Host.dotGeneral Cert.ReferenceIdeal.dot_S160000x64_S64x32_S160000x32_1_0_0_1_n_n none A B : FVec Ideal Cert.ReferenceIdeal.S160000x32 .f32) (ix2 p d)
      = ∑ k : Fin 64, A (ix2 p k) * B (ix2 k d) := by
  show FloatOps.dotGeneral _ none _ A B (ix2 p d) = _
  rw [Ideal.dotGeneral_apply]
  exact sum_contr_eq _ rfl rfl lhs_r64_0 lhs_r64_1 rhs_r64_0 rhs_r64_1 A B p d
end R64

/-! ## One-hot rows -/

/-- The widened bit of a word comparison, made a float: one where the words are equal, zero elsewhere. -/
theorem sitofp_cmpi_eq (x y : BitVec 32) :
    (FloatOps.sitofp (F := Ideal) .f32 ((IntOp.cmpi .eq x y).setWidth 32) : Ideal .f32) = if x = y then 1 else 0 := by
  show (((BitVec.setWidth 32 (IntOp.cmpi .eq x y)).toInt : ℝ) : EReal) = _
  rw [toInt_setWidth_bit]
  by_cases h : x = y
  · subst h; simp [IntOp.cmpi]
  · simp [IntOp.cmpi, h]

/-- A sum against a one-hot row selects its term: no finiteness is needed, since zero times anything is zero. -/
theorem sum_onehot_mul {n : Nat} (z : BitVec 32) (hz : z.toNat < n) (hn : n < 2 ^ 32) (f : Fin n → EReal) :
    ∑ k : Fin n, (if z = BitVec.ofNat 32 k.val then (1 : EReal) else 0) * f k = f ⟨z.toNat, hz⟩ := by
  rw [Finset.sum_eq_single (⟨z.toNat, hz⟩ : Fin n)]
  · rw [if_pos (by simp), one_mul]
  · intro b _ hb
    rw [if_neg, zero_mul]
    intro h
    apply hb
    apply Fin.ext
    have := congrArg BitVec.toNat h
    simp [BitVec.toNat_ofNat] at this
    have hb' := b.isLt
    rw [Nat.mod_eq_of_lt (by omega)] at this
    exact this.symm
  · intro h; exact absurd (Finset.mem_univ _) h

section K64

theorem lhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 0).val = (i 0).val := by
  unfold DotDims.lhsIdx
  rw [dif_neg (show ¬(0 : Fin Cert.KernelIdeal.S8000x64.rank) ∈ Cert.KernelIdeal.dot_S8000x64_S64x32_S8000x32_1_0_0_1_n_n.lhsBatch from List.not_mem_nil),
    dif_pos (show (0 : Fin Cert.KernelIdeal.S8000x64.rank) ∈ Cert.KernelIdeal.dot_S8000x64_S64x32_S8000x32_1_0_0_1_n_n.lhsNonContracting from List.mem_singleton.mpr rfl)]
  rfl
theorem lhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 1).val = (q ⟨0, Nat.one_pos⟩).val :=
  Cert.KernelIdeal.dot_S8000x64_S64x32_S8000x32_1_0_0_1_n_n.lhsIdx_val_of_single rfl i q
theorem rhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 0).val = (q ⟨0, Nat.one_pos⟩).val :=
  Cert.KernelIdeal.dot_S8000x64_S64x32_S8000x32_1_0_0_1_n_n.rhsIdx_val_of_single rfl i q
theorem rhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 1).val = (i 1).val := by
  unfold DotDims.rhsIdx
  rw [dif_neg (show ¬(1 : Fin Cert.KernelIdeal.S64x32.rank) ∈ Cert.KernelIdeal.dot_S8000x64_S64x32_S8000x32_1_0_0_1_n_n.rhsBatch from List.not_mem_nil),
    dif_pos (show (1 : Fin Cert.KernelIdeal.S64x32.rank) ∈ Cert.KernelIdeal.dot_S8000x64_S64x32_S8000x32_1_0_0_1_n_n.rhsNonContracting from List.mem_singleton.mpr rfl)]
  rfl

theorem matmul64_apply (A : FVec Ideal Cert.KernelIdeal.S8000x64 .bf16) (B : FVec Ideal Cert.KernelIdeal.S64x32 .bf16) (p : Fin 8000) (d : Fin 32) :
    matmul Cert.KernelIdeal.dot_S8000x64_S64x32_S8000x32_1_0_0_1_n_n none A B (constant (F := Ideal) Cert.KernelIdeal.S8000x32 .f32 0x00000000#32) (ix2 p d)
      = ∑ k : Fin 64, A (ix2 p k) * B (ix2 k d) := by
  show FloatOps.matmul _ none A B _ (ix2 p d) = _
  rw [Ideal.matmul_constant_zero_apply]
  exact sum_contr_eq _ rfl rfl lhs_k64_0 lhs_k64_1 rhs_k64_0 rhs_k64_1 A B p d
end K64
section K32

theorem lhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 0).val = (i 0).val := by
  unfold DotDims.lhsIdx
  rw [dif_neg (show ¬(0 : Fin Cert.KernelIdeal.S8000x32.rank) ∈ Cert.KernelIdeal.dot_S8000x32_S32x32_S8000x32_1_0_0_1_n_n.lhsBatch from List.not_mem_nil),
    dif_pos (show (0 : Fin Cert.KernelIdeal.S8000x32.rank) ∈ Cert.KernelIdeal.dot_S8000x32_S32x32_S8000x32_1_0_0_1_n_n.lhsNonContracting from List.mem_singleton.mpr rfl)]
  rfl
theorem lhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 1).val = (q ⟨0, Nat.one_pos⟩).val :=
  Cert.KernelIdeal.dot_S8000x32_S32x32_S8000x32_1_0_0_1_n_n.lhsIdx_val_of_single rfl i q
theorem rhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 0).val = (q ⟨0, Nat.one_pos⟩).val :=
  Cert.KernelIdeal.dot_S8000x32_S32x32_S8000x32_1_0_0_1_n_n.rhsIdx_val_of_single rfl i q
theorem rhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 1).val = (i 1).val := by
  unfold DotDims.rhsIdx
  rw [dif_neg (show ¬(1 : Fin Cert.KernelIdeal.S32x32.rank) ∈ Cert.KernelIdeal.dot_S8000x32_S32x32_S8000x32_1_0_0_1_n_n.rhsBatch from List.not_mem_nil),
    dif_pos (show (1 : Fin Cert.KernelIdeal.S32x32.rank) ∈ Cert.KernelIdeal.dot_S8000x32_S32x32_S8000x32_1_0_0_1_n_n.rhsNonContracting from List.mem_singleton.mpr rfl)]
  rfl

theorem matmul32_apply (A : FVec Ideal Cert.KernelIdeal.S8000x32 .bf16) (B : FVec Ideal Cert.KernelIdeal.S32x32 .bf16) (p : Fin 8000) (d : Fin 32) :
    matmul Cert.KernelIdeal.dot_S8000x32_S32x32_S8000x32_1_0_0_1_n_n none A B (constant (F := Ideal) Cert.KernelIdeal.S8000x32 .f32 0x00000000#32) (ix2 p d)
      = ∑ k : Fin 32, A (ix2 p k) * B (ix2 k d) := by
  show FloatOps.matmul _ none A B _ (ix2 p d) = _
  rw [Ideal.matmul_constant_zero_apply]
  exact sum_contr_eq _ rfl rfl lhs_k32_0 lhs_k32_1 rhs_k32_0 rhs_k32_1 A B p d
end K32
section R32

theorem lhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 0).val = (i 0).val := by
  unfold DotDims.lhsIdx
  rw [dif_neg (show ¬(0 : Fin Cert.ReferenceIdeal.S160000x32.rank) ∈ Cert.ReferenceIdeal.dot_S160000x32_S32x32_S160000x32_1_0_0_1_n_n.lhsBatch from List.not_mem_nil),
    dif_pos (show (0 : Fin Cert.ReferenceIdeal.S160000x32.rank) ∈ Cert.ReferenceIdeal.dot_S160000x32_S32x32_S160000x32_1_0_0_1_n_n.lhsNonContracting from List.mem_singleton.mpr rfl)]
  rfl
theorem lhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 1).val = (q ⟨0, Nat.one_pos⟩).val :=
  Cert.ReferenceIdeal.dot_S160000x32_S32x32_S160000x32_1_0_0_1_n_n.lhsIdx_val_of_single rfl i q
theorem rhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 0).val = (q ⟨0, Nat.one_pos⟩).val :=
  Cert.ReferenceIdeal.dot_S160000x32_S32x32_S160000x32_1_0_0_1_n_n.rhsIdx_val_of_single rfl i q
theorem rhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 1).val = (i 1).val := by
  unfold DotDims.rhsIdx
  rw [dif_neg (show ¬(1 : Fin Cert.ReferenceIdeal.S32x32.rank) ∈ Cert.ReferenceIdeal.dot_S160000x32_S32x32_S160000x32_1_0_0_1_n_n.rhsBatch from List.not_mem_nil),
    dif_pos (show (1 : Fin Cert.ReferenceIdeal.S32x32.rank) ∈ Cert.ReferenceIdeal.dot_S160000x32_S32x32_S160000x32_1_0_0_1_n_n.rhsNonContracting from List.mem_singleton.mpr rfl)]
  rfl

theorem dot32_apply (A : FVec Ideal Cert.ReferenceIdeal.S160000x32 .f32) (B : FVec Ideal Cert.ReferenceIdeal.S32x32 .f32) (p : Fin 160000) (d : Fin 32) :
    (Host.dotGeneral Cert.ReferenceIdeal.dot_S160000x32_S32x32_S160000x32_1_0_0_1_n_n none A B : FVec Ideal Cert.ReferenceIdeal.S160000x32 .f32) (ix2 p d)
      = ∑ k : Fin 32, A (ix2 p k) * B (ix2 k d) := by
  show FloatOps.dotGeneral _ none _ A B (ix2 p d) = _
  rw [Ideal.dotGeneral_apply]
  exact sum_contr_eq _ rfl rfl lhs_r32_0 lhs_r32_1 rhs_r32_0 rhs_r32_1 A B p d
end R32

/-! ## The kernel's one-hot row -/

section OneHot
open Cert.KernelIdeal Cert.KernelIdeal.Gen

/-- Column `c` of the index block, compared with the lane number along 50 lanes and made a float: at (p, k) it is one
    where the index is k and zero elsewhere. -/
theorem onehot_apply (v0 : Vec Ideal S8000x2 .i32) (c : Fin 2) (o : Nat) (ho : o = c.val) (hs : S8000x2.Slices ![0, o] S8000x1)
    (p : Fin 8000) (k : Fin 50) :
    (truncf .bf16 (sitofp .f32 (extui 32 (cmpi .eq (broadcastTo S8000x50 (extractStridedSlice S8000x1 ![0, o] v0 hs) broadcasts_S8000x1_S8000x50)
        (iota .tc S8000x50 32 [1] iota_S8000x50_d1_w32)) natLt_1_32)) bitsLt_bf16_f32 : FVec Ideal S8000x50 .bf16) (ix2 p k)
      = if v0 (ix2 p c) = BitVec.ofNat 32 k.val then 1 else 0 := by
  rw [truncf_apply, sitofp_apply, extui_apply]
  show FloatOps.sitofp (F := Ideal) .f32 ((IntOp.cmpi .eq (broadcastTo S8000x50 (extractStridedSlice S8000x1 ![0, o] v0 hs) broadcasts_S8000x1_S8000x50 (ix2 p k))
      (iota .tc S8000x50 32 [1] iota_S8000x50_d1_w32 (ix2 p k))).setWidth 32) = _
  rw [sitofp_cmpi_eq, iota_single_apply,
    broadcastTo_apply _ broadcasts_S8000x1_S8000x50 (ix2 p k) (ix2 p (0 : Fin 1)) (fun a => by
      match a with
      | ⟨0, _⟩ => rfl
      | ⟨1, _⟩ => rfl),
    slice2_axis1_apply o v0 hs p (0 : Fin 1) c (by simp [ho])]
end OneHot

/-! ## The reference's embedding lookup, read at an index -/

section RefEmbed
open Cert.ReferenceIdeal Cert.ReferenceIdeal.Facts₀

/-- The gather of table rows at (i, j, d): the table's row named by the start index at (i, j, 0), read signed and
    clamped into [0, 49], at column d. -/
theorem gather_rows_apply (e : FVec Ideal S50x32 .f32) (idx : IVec S160000x2x1 32) (i : Fin 160000) (j : Fin 2) (d : Fin 32) :
    Host.gather gather_S50x32_S160000x2x1_S160000x2x32_2_0_n_n_0_2_132 e idx (ix3 i j d)
      = e (ix2 (⟨min (idx (ix3 i j (0 : Fin 1))).toInt.toNat 49, by omega⟩ : Fin 50) d) := by
  unfold Host.gather
  refine congrArg e (funext fun a => Fin.ext ?_)
  match a with
  | ⟨0, _⟩ =>
    show gather_S50x32_S160000x2x1_S160000x2x32_2_0_n_n_0_2_132.start (ix3 i j d) idx 0
      + gather_S50x32_S160000x2x1_S160000x2x32_2_0_n_n_0_2_132.batchCoord (ix3 i j d) 0
      + gather_S50x32_S160000x2x1_S160000x2x32_2_0_n_n_0_2_132.offCoord (ix3 i j d) 0 = min _ 49
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x32_S160000x2x1_S160000x2x32_2_0_n_n_0_2_132.startIndexMap from List.mem_singleton.mpr rfl)]
    have hsi : gather_S50x32_S160000x2x1_S160000x2x32_2_0_n_n_0_2_132.siIdx (ix3 i j d)
        ⟨List.idxOf (0 : Fin 2) gather_S50x32_S160000x2x1_S160000x2x32_2_0_n_n_0_2_132.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50x32_S160000x2x1_S160000x2x32_2_0_n_n_0_2_132.start (ix3 i j d) idx 1
      + gather_S50x32_S160000x2x1_S160000x2x32_2_0_n_n_0_2_132.batchCoord (ix3 i j d) 1
      + gather_S50x32_S160000x2x1_S160000x2x32_2_0_n_n_0_2_132.offCoord (ix3 i j d) 1 = d.val
    rw [GatherDims.batchCoord_eq_zero _ _ _ List.not_mem_nil]
    unfold GatherDims.start
    rw [dif_neg (show ¬(1 : Fin 2) ∈ gather_S50x32_S160000x2x1_S160000x2x32_2_0_n_n_0_2_132.startIndexMap from
      fun h => absurd (List.mem_singleton.mp h) (by decide))]
    simp only [Nat.add_zero, Nat.zero_add]
    rfl

/-- Under the range fact a lookup index is its own wrapped form. -/
theorem wrapZ_apply (z : Vec Ideal S160000x2 .i32) (j : S160000x2.Idx) (hz : (z j).toNat < 50) :
    Cert.Spec.wrapZ z j = z j := by
  unfold Cert.Spec.wrapZ
  rw [select_apply]
  show Scalar.select (IntOp.cmpi .slt (z j) _) _ (z j) = z j
  have h0 : IntOp.cmpi .slt (z j) (broadcastInDim S160000x2 ![] bcast_S_S160000x2 (constantI S_ 32 0#32) j) = 0#1 := by
    rw [broadcastInDim_scalar_apply]
    show BitVec.ofBool ((z j).slt 0#32) = 0#1
    have : (z j).slt 0#32 = false := by
      rw [BitVec.slt, decide_eq_false_iff_not]
      have h1 : (z j).toInt = (z j).toNat := BitVec.toInt_eq_toNat_of_lt (by omega)
      rw [h1]; simp
    rw [this]; rfl
  rw [h0, select_zero]

/-- Row i of the embedding stage: the table's rows named by the two lookup indices of row i, added. -/
theorem embed_apply (e : Vec Ideal S50x32 .f32) (z : Vec Ideal S160000x2 .i32) (i : Fin 160000) (d : Fin 32)
    (hz0 : (z (ix2 i 0)).toNat < 50) (hz1 : (z (ix2 i 1)).toNat < 50) :
    Cert.Spec.embed e z (ix2 i d) = e (ix2 (⟨(z (ix2 i 0)).toNat, hz0⟩ : Fin 50) d) + e (ix2 (⟨(z (ix2 i 1)).toNat, hz1⟩ : Fin 50) d) := by
  unfold Cert.Spec.embed
  rw [hostReduceAdd_apply]
  have hR : S160000x2x32.Reduces [1] S160000x32 := by decide
  rw [Ideal.hostReduceAdd_single reducesTo_S160000x2x32_S160000x32_d1 hR]
  have hl : ∀ k : Fin 2, hR.lift (ix2 i d) k = ix3 i k d := fun k => funext fun c => Fin.ext (by
    match c with
    | ⟨0, _⟩ => rfl
    | ⟨1, _⟩ => rfl
    | ⟨2, _⟩ => rfl)
  have hb : ∀ j : Fin 2, broadcastInDim S160000x2x1 ![0, 1] bcast_S160000x2_S160000x2x1_0_1 (Cert.Spec.wrapZ z) (ix3 i j (0 : Fin 1))
      = Cert.Spec.wrapZ z (ix2 i j) := fun j =>
    broadcastInDim_apply _ _ _ _ (ix2 i j) (fun a => by
      match a with
      | ⟨0, _⟩ => rfl
      | ⟨1, _⟩ => rfl)
  have hm : ∀ (w : BitVec 32), w.toNat < 50 → min w.toInt.toNat 49 = w.toNat := by
    intro w hw
    rw [BitVec.toInt_eq_toNat_of_lt (by omega)]
    simp only [Int.toNat_natCast]
    omega
  show Ideal.ofBits .f32 0x00000000#32 + ∑ k : Fin 2, _ = _
  rw [Ideal.ofBits_zero_f32, zero_add, Fin.sum_univ_two, hl 0, hl 1, gather_rows_apply, gather_rows_apply]
  refine congrArg₂ (· + ·) (congrArg (fun r => e (ix2 r d)) (Fin.ext ?_)) (congrArg (fun r => e (ix2 r d)) (Fin.ext ?_))
  · show min _ 49 = (z (ix2 i 0)).toNat
    rw [hb, wrapZ_apply z _ hz0, hm _ hz0]
  · show min _ 49 = (z (ix2 i 1)).toNat
    rw [hb, wrapZ_apply z _ hz1, hm _ hz1]

/-- The linear stage at (i, q): row i of the previous features beside the embedding, against column q of the weight,
    plus entry q of the bias. -/
theorem lin_apply (xp zl : Vec Ideal S160000x32 .f32) (tw : Vec Ideal S64x32 .f32) (tb : Vec Ideal S32 .f32) (i : Fin 160000) (q : Fin 32) :
    Cert.Spec.lin xp zl tw tb (ix2 i q)
      = (∑ k : Fin 64, concatenate S160000x64 1 [⟨S160000x32, xp⟩, ⟨S160000x32, zl⟩] concatenates_S160000x32_S160000x32_S160000x64_d1 (ix2 i k) * tw (ix2 k q))
        + tb (ix1 q) := by
  unfold Cert.Spec.lin
  rw [addf_apply, dot64_apply]
  congr 1
  show broadcastInDim S160000x32 ![0, 1] bcast_S1x32_S160000x32_0_1 (broadcastInDim S1x32 ![1] bcast_S32_S1x32_1 tb) (ix2 i q) = tb (ix1 q)
  rw [broadcastInDim_apply _ _ _ (ix2 i q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl)]

/-- The projection stage at (i, q). -/
theorem conv_apply (x : Vec Ideal S160000x32 .f32) (w : Vec Ideal S32x32 .f32) (i : Fin 160000) (q : Fin 32) :
    Cert.Spec.conv x w (ix2 i q) = ∑ k : Fin 32, x (ix2 i k) * w (ix2 k q) := by
  unfold Cert.Spec.conv
  exact dot32_apply x w i q
end RefEmbed

/-! ## The kernel's payloads, read at an index -/

section Payload
open Cert.KernelIdeal Cert.KernelIdeal.Gen

/-- The block's embedding part at (p, d): each one-hot row against the table selects the row its index names. -/
theorem zl_apply (v0 : Vec Ideal S8000x2 .i32) (v1 : Vec Ideal S50x32 .f32) (p : Fin 8000) (d : Fin 32)
    (h0 : (v0 (ix2 p 0)).toNat < 50) (h1 : (v0 (ix2 p 1)).toNat < 50) :
    (addf
      (matmul dot_S8000x50_S50x32_S8000x32_1_0_0_1_n_n none
        (truncf .bf16 (sitofp .f32 (extui 32 (cmpi .eq (broadcastTo S8000x50 (extractStridedSlice S8000x1 ![0, 0] v0 slices_S8000x2_o0_0_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      (matmul dot_S8000x50_S50x32_S8000x32_1_0_0_1_n_n none
        (truncf .bf16 (sitofp .f32 (extui 32 (cmpi .eq (broadcastTo S8000x50 (extractStridedSlice S8000x1 ![0, 1] v0 slices_S8000x2_o0_1_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      : FVec Ideal S8000x32 .f32) (ix2 p d)
      = v1 (ix2 (⟨(v0 (ix2 p 0)).toNat, h0⟩ : Fin 50) d) + v1 (ix2 (⟨(v0 (ix2 p 1)).toNat, h1⟩ : Fin 50) d) := by
  rw [addf_apply, matmul50_apply, matmul50_apply]
  simp only [onehot_apply v0 0 0 rfl, onehot_apply v0 1 1 rfl, truncf_apply]
  rw [sum_onehot_mul _ h0 (by norm_num) (fun k => v1 (ix2 k d)), sum_onehot_mul _ h1 (by norm_num) (fun k => v1 (ix2 k d))]

/-- THE LINEAR PAYLOAD IS THE LINEAR STAGE: at row p of a block whose index and feature rows are rows i of the arrays,
    with the table, the weight and the bias row the arrays', the stored value at (p, q) is the stage's at (i, q). -/
theorem pay1_eq_lin
    (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : v29 (ix2 (0 : Fin 1) q) = tb (ix1 q)) (hz : ∀ c : Fin 2, (z (ix2 i c)).toNat < 50) :
    k6_pay1 v0 v1 v21 v24 v29 (ix2 p q) = Cert.Spec.lin xp (Cert.Spec.embed e z) tw tb (ix2 i q) := by
  subst e2 e3
  unfold k6_pay1
  dsimp only
  rw [addf_apply, matmul64_apply, broadcastTo_1b_ab_apply]
  simp only [truncf_apply, shapeCast_self]
  rw [lin_apply]
  refine congrArg₂ (· + ·) (Finset.sum_congr rfl fun k _ => ?_) e4
  refine congrArg₂ (· * ·) ?_ rfl
  by_cases hk : k.val < 32
  · rw [concatenate_pair_apply_left (1 : Fin 2) v21 _ concatenates_S8000x32_S8000x32_S8000x64_d1 (ix2 p k) rfl (ix2 p (⟨k.val, hk⟩ : Fin 32)) (fun b => by
        match b with
        | ⟨0, _⟩ => rfl
        | ⟨1, _⟩ => rfl),
      concatenate_pair_apply_left (1 : Fin 2) xp _ Cert.ReferenceIdeal.Facts₀.concatenates_S160000x32_S160000x32_S160000x64_d1 (ix2 i k) rfl (ix2 i (⟨k.val, hk⟩ : Fin 32)) (fun b => by
        match b with
        | ⟨0, _⟩ => rfl
        | ⟨1, _⟩ => rfl)]
    exact e1 _
  · have hk' : k.val - 32 < 32 := by have := k.isLt; omega
    have h0 : (v0 (ix2 p 0)).toNat < 50 := by rw [e0]; exact hz 0
    have h1 : (v0 (ix2 p 1)).toNat < 50 := by rw [e0]; exact hz 1
    rw [concatenate_pair_apply_right (t := S8000x64) (s₁ := S8000x32) (s₂ := S8000x32) (1 : Fin 2) v21 _ concatenates_S8000x32_S8000x32_S8000x64_d1 (ix2 p k) rfl rfl (ix2 p (⟨k.val - 32, hk'⟩ : Fin 32)) (fun b hb => by
        match b, hb with
        | ⟨0, _⟩, _ => rfl
        | ⟨1, _⟩, hb => exact absurd rfl hb) (by show (k.val - 32) + 32 = k.val; omega),
      concatenate_pair_apply_right (t := Cert.ReferenceIdeal.S160000x64) (s₁ := Cert.ReferenceIdeal.S160000x32) (s₂ := Cert.ReferenceIdeal.S160000x32) (1 : Fin 2) xp _ Cert.ReferenceIdeal.Facts₀.concatenates_S160000x32_S160000x32_S160000x64_d1 (ix2 i k) rfl rfl (ix2 i (⟨k.val - 32, hk'⟩ : Fin 32)) (fun b hb => by
        match b, hb with
        | ⟨0, _⟩, _ => rfl
        | ⟨1, _⟩, hb => exact absurd rfl hb) (by show (k.val - 32) + 32 = k.val; omega),
      zl_apply v0 v1 p _ h0 h1, embed_apply v1 z i _ (hz 0) (hz 1)]
    refine congrArg₂ (· + ·) (congrArg (fun r => v1 (ix2 r _)) (Fin.ext ?_)) (congrArg (fun r => v1 (ix2 r _)) (Fin.ext ?_))
    · show (v0 (ix2 p 0)).toNat = (z (ix2 i 0)).toNat
      rw [e0]
    · show (v0 (ix2 p 1)).toNat = (z (ix2 i 1)).toNat
      rw [e0]

/-- The projected payload at (p, q): row p of the linear payload against column q of the projection. -/
theorem pay2_apply (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32) (p : Fin 8000) (q : Fin 32) :
    k6_pay2 v0 v1 v21 v24 v29 v34 (ix2 p q) = ∑ k : Fin 32, k6_pay1 v0 v1 v21 v24 v29 (ix2 p k) * v34 (ix2 k q) := by
  unfold k6_pay2
  try dsimp only
  rw [matmul32_apply]
  simp only [truncf_apply, shapeCast_self]

/-- THE PROJECTED PAYLOAD IS THE PROJECTION STAGE of the linear stage, under the same reading of the block. -/
theorem pay2_eq_conv
    (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : ∀ k : Fin 32, v29 (ix2 (0 : Fin 1) k) = tb (ix1 k)) (e5 : v34 = w)
    (hz : ∀ c : Fin 2, (z (ix2 i c)).toNat < 50) :
    k6_pay2 v0 v1 v21 v24 v29 v34 (ix2 p q)
      = Cert.Spec.conv (Cert.Spec.lin xp (Cert.Spec.embed e z) tw tb) w (ix2 i q) := by
  subst e5
  rw [pay2_apply, conv_apply]
  refine Finset.sum_congr rfl fun k _ => ?_
  rw [pay1_eq_lin v0 v1 v21 v24 v29 z xp e tw tb p i k e0 e1 e2 e3 (e4 k) hz]
/-- The same at any index of the block and of the array: the two share their column, and the block's row holds the
    array's row. -/
theorem pay1_at (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (hz : ∀ j, (z j).toNat < 50) :
    k6_pay1 v0 v1 v21 v24 v29 y = Cert.Spec.lin xp (Cert.Spec.embed e z) tw tb i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay1_eq_lin v0 v1 v21 v24 v29 z xp e tw tb p i0 i1 e0 e1 e2 e3 (e4 _) (fun c => hz _)

theorem pay2_at (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (e5 : v34 = w)
    (hz : ∀ j, (z j).toNat < 50) :
    k6_pay2 v0 v1 v21 v24 v29 v34 y = Cert.Spec.conv (Cert.Spec.lin xp (Cert.Spec.embed e z) tw tb) w i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay2_eq_conv v0 v1 v21 v24 v29 v34 z xp e tw tb w p i0 i1 e0 e1 e2 e3 e4 e5 (fun c => hz _)
end Payload

/-! ## The windows' blocks at a grid point -/

section Blocks
open Cert.KernelIdeal Cert.KernelIdeal.Gen

/-- The index maps over the grid: the index block, the feature block and the two output blocks are block t of their
    arrays' rows; the table, the weight, the bias row and the projection are whole at every point. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-- What the input windows' blocks at point t hold, against row t · 8000 + (the block's row) of the arrays: the index
    block's and the feature block's rows are the arrays' rows; the table, the weight and the projection are read whole;
    the bias row is the bias. -/
theorem reads_at (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32)
    (h4 : ∀ k : Fin 32, A4 (ix2 (0 : Fin 1) k) = tb (ix1 k)) (t : Fin cfg6.N) (r : Fin 8000) (i0 : Fin 160000)
    (hi0 : i0.val = t.val * 8000 + r.val) :
    (∀ c : Fin 2, ((cfg6.win 0).blk t).view.read (Elt Ideal) A0 (ix2 r c) = A0 (ix2 i0 c))
    ∧ (∀ k : Fin 32, ((cfg6.win 1).blk t).view.read (Elt Ideal) A1 (ix2 r k) = A1 (ix2 i0 k))
    ∧ ((cfg6.win 2).blk t).view.read (Elt Ideal) A2 = A2
    ∧ ((cfg6.win 3).blk t).view.read (Elt Ideal) A3 = A3
    ∧ (∀ k : Fin 32, ((cfg6.win 4).blk t).view.read (Elt Ideal) A4 (ix2 (0 : Fin 1) k) = tb (ix1 k))
    ∧ ((cfg6.win 5).blk t).view.read (Elt Ideal) A5 = A5 := by
  obtain ⟨f00, f01, f10, f11, f20, f21, f30, f31, f40, f41, f50, f51, f60, f61, f70, f71⟩ := idx_facts t
  refine ⟨fun c' => ?_, fun k => ?_, funext fun x => ?_, funext fun x => ?_, fun k => ?_, funext fun x => ?_⟩
  · show A0 (((cfg6.win 0).blk t).view.emb (ix2 r c')) = A0 (ix2 i0 c')
    refine congrArg A0 (funext fun a => Fin.ext ?_)
    match a with
    | ⟨0, _⟩ => show win6_0.index t (0 : Fin 2) * 8000 + 1 * r.val = i0.val; rw [f00, hi0]; omega
    | ⟨1, _⟩ => show win6_0.index t (1 : Fin 2) * 2 + 1 * c'.val = c'.val; rw [f01]; omega
  · show A1 (((cfg6.win 1).blk t).view.emb (ix2 r k)) = A1 (ix2 i0 k)
    refine congrArg A1 (funext fun a => Fin.ext ?_)
    match a with
    | ⟨0, _⟩ => show win6_1.index t (0 : Fin 2) * 8000 + 1 * r.val = i0.val; rw [f10, hi0]; omega
    | ⟨1, _⟩ => show win6_1.index t (1 : Fin 2) * 32 + 1 * k.val = k.val; rw [f11]; omega
  · show A2 (((cfg6.win 2).blk t).view.emb x) = A2 x
    refine congrArg A2 (funext fun a => Fin.ext ?_)
    match a with
    | ⟨0, _⟩ => show win6_2.index t (0 : Fin 2) * 50 + 1 * (x 0).val = (x 0).val; rw [f20]; omega
    | ⟨1, _⟩ => show win6_2.index t (1 : Fin 2) * 32 + 1 * (x 1).val = (x 1).val; rw [f21]; omega
  · show A3 (((cfg6.win 3).blk t).view.emb x) = A3 x
    refine congrArg A3 (funext fun a => Fin.ext ?_)
    match a with
    | ⟨0, _⟩ => show win6_3.index t (0 : Fin 2) * 64 + 1 * (x 0).val = (x 0).val; rw [f30]; omega
    | ⟨1, _⟩ => show win6_3.index t (1 : Fin 2) * 32 + 1 * (x 1).val = (x 1).val; rw [f31]; omega
  · show A4 (((cfg6.win 4).blk t).view.emb (ix2 (0 : Fin 1) k)) = tb (ix1 k)
    refine Eq.trans (congrArg A4 (funext fun a => Fin.ext ?_)) (h4 k)
    match a with
    | ⟨0, _⟩ => show win6_4.index t (0 : Fin 2) * 1 + 1 * 0 = 0; rw [f40]
    | ⟨1, _⟩ => show win6_4.index t (1 : Fin 2) * 32 + 1 * k.val = k.val; rw [f41]; omega
  · show A5 (((cfg6.win 5).blk t).view.emb x) = A5 x
    refine congrArg A5 (funext fun a => Fin.ext ?_)
    match a with
    | ⟨0, _⟩ => show win6_5.index t (0 : Fin 2) * 32 + 1 * (x 0).val = (x 0).val; rw [f50]; omega
    | ⟨1, _⟩ => show win6_5.index t (1 : Fin 2) * 32 + 1 * (x 1).val = (x 1).val; rw [f51]; omega

/-- THE LINEAR BLOCK: the linear payload of the windows' blocks at point t is block t of the linear stage of the arrays. -/
theorem block_lin (A0 : Vec Ideal S160000x2 .i32) (A1 : Vec Ideal S160000x32 .f32) (A2 : Vec Ideal S50x32 .f32) (A3 : Vec Ideal S64x32 .f32)
    (A4 : Vec Ideal S1x32 .f32) (tb : Vec Ideal Cert.ReferenceIdeal.S32 .f32) (hz : ∀ j, (A0 j).toNat < 50)
    (h4 : ∀ k : Fin 32, A4 (ix2 (0 : Fin 1) k) = tb (ix1 k)) (t : Fin cfg6.N) :
    k6_pay1 (((cfg6.win 0).blk t).view.read (Elt Ideal) A0) (((cfg6.win 2).blk t).view.read (Elt Ideal) A2)
        (((cfg6.win 1).blk t).view.read (Elt Ideal) A1) (((cfg6.win 3).blk t).view.read (Elt Ideal) A3)
        (((cfg6.win 4).blk t).view.read (Elt Ideal) A4)
      = ((cfg6.win 6).blk t).view.read (Elt Ideal) (Cert.Spec.lin A1 (Cert.Spec.embed A2 A0) A3 tb) := by
  funext y
  show k6_pay1 (F := Ideal) _ _ _ _ _ y = Cert.Spec.lin A1 (Cert.Spec.embed A2 A0) A3 tb (((cfg6.win 6).blk t).view.emb y)
  have hi0 : ((((cfg6.win 6).blk t).view.emb y) 0).val = t.val * 8000 + (y 0).val := by
    show win6_6.index t (0 : Fin 2) * 8000 + 1 * (y 0).val = _
    rw [(idx_facts t).2.2.2.2.2.2.2.2.2.2.2.2.1]; omega
  have hi1 : ((((cfg6.win 6).blk t).view.emb y) 1).val = (y 1).val := by
    show win6_6.index t (1 : Fin 2) * 32 + 1 * (y 1).val = _
    rw [(idx_facts t).2.2.2.2.2.2.2.2.2.2.2.2.2.1]; omega
  obtain ⟨e0, e1, e2, e3, e4, -⟩ := reads_at A0 A1 A2 A3 A4 (fun _ => 0) tb h4 t (y 0) ((((cfg6.win 6).blk t).view.emb y) 0) hi0
  exact pay1_at _ _ _ _ _ A0 A1 A2 A3 tb y _ hi1 e0 e1 e2 e3 e4 hz

/-- THE PROJECTED BLOCK: the projected payload of the windows' blocks at point t is block t of the projection stage. -/
theorem block_conv (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32) (hz : ∀ j, (A0 j).toNat < 50)
    (h4 : ∀ k : Fin 32, A4 (ix2 (0 : Fin 1) k) = tb (ix1 k)) (t : Fin cfg6.N) :
    k6_pay2 (((cfg6.win 0).blk t).view.read (Elt Ideal) A0) (((cfg6.win 2).blk t).view.read (Elt Ideal) A2)
        (((cfg6.win 1).blk t).view.read (Elt Ideal) A1) (((cfg6.win 3).blk t).view.read (Elt Ideal) A3)
        (((cfg6.win 4).blk t).view.read (Elt Ideal) A4) (((cfg6.win 5).blk t).view.read (Elt Ideal) A5)
      = ((cfg6.win 7).blk t).view.read (Elt Ideal) (Cert.Spec.conv (Cert.Spec.lin A1 (Cert.Spec.embed A2 A0) A3 tb) A5) := by
  funext y
  show k6_pay2 (F := Ideal) _ _ _ _ _ _ y
    = Cert.Spec.conv (Cert.Spec.lin A1 (Cert.Spec.embed A2 A0) A3 tb) A5 (((cfg6.win 7).blk t).view.emb y)
  have hi0 : ((((cfg6.win 7).blk t).view.emb y) 0).val = t.val * 8000 + (y 0).val := by
    show win6_7.index t (0 : Fin 2) * 8000 + 1 * (y 0).val = _
    rw [(idx_facts t).2.2.2.2.2.2.2.2.2.2.2.2.2.2.1]; omega
  have hi1 : ((((cfg6.win 7).blk t).view.emb y) 1).val = (y 1).val := by
    show win6_7.index t (1 : Fin 2) * 32 + 1 * (y 1).val = _
    rw [(idx_facts t).2.2.2.2.2.2.2.2.2.2.2.2.2.2.2]; omega
  obtain ⟨e0, e1, e2, e3, e4, e5⟩ := reads_at A0 A1 A2 A3 A4 A5 tb h4 t (y 0) ((((cfg6.win 7).blk t).view.emb y) 0) hi0
  exact pay2_at _ _ _ _ _ _ A0 A1 A2 A3 tb A5 y _ hi1 e0 e1 e2 e3 e4 e5 hz

/-! ## The output blocks tile their arrays -/

/-- An index of an output array is in point t's block iff each coordinate is in the block's range on its axis. -/
theorem mem_blk6 (t : Fin cfg6.N) (i : S160000x32.Idx) :
    i ∈ ((cfg6.win 6).blk t).view.set ↔ ∀ a : Fin 2, win6_6.index t a * S8000x32.size a ≤ (i a).val ∧ (i a).val < win6_6.index t a * S8000x32.size a + S8000x32.size a := by
  show i ∈ ((View.whole win6_6.arr.view.ref).slice (win6_6.rect t)).set ↔ _
  rw [View.set_slice_whole, Rect.mem_set_unit]
  exact Iff.rfl
theorem mem_blk7 (t : Fin cfg6.N) (i : S160000x32.Idx) :
    i ∈ ((cfg6.win 7).blk t).view.set ↔ ∀ a : Fin 2, win6_7.index t a * S8000x32.size a ≤ (i a).val ∧ (i a).val < win6_7.index t a * S8000x32.size a + S8000x32.size a := by
  show i ∈ ((View.whole win6_7.arr.view.ref).slice (win6_7.rect t)).set ↔ _
  rw [View.set_slice_whole, Rect.mem_set_unit]
  exact Iff.rfl

/-- Row r of an output array is in the block of point r / 8000. -/
theorem cover6 (i : S160000x32.Idx) : ∃ t : Fin cfg6.N, (cfg6.win 6).flush t = true ∧ i ∈ ((cfg6.win 6).blk t).view.set := by
  have hi0 : (i 0).val < 160000 := (i 0).isLt
  have hi1 : (i 1).val < 32 := (i 1).isLt
  obtain ⟨t, ht⟩ : ∃ t : Fin cfg6.N, t.val = (i 0).val / 8000 := ⟨⟨(i 0).val / 8000, by rw [show cfg6.N = 20 from (by decide : grid6.N = 20)]; omega⟩, rfl⟩
  obtain ⟨f00, f01, f10, f11, f20, f21, f30, f31, f40, f41, f50, f51, f60, f61, f70, f71⟩ := idx_facts t
  refine ⟨t, flush6_6 t, ?_⟩
  rw [mem_blk6]
  intro a
  match a with
  | ⟨0, _⟩ => show win6_6.index t (0 : Fin 2) * 8000 ≤ (i 0).val ∧ (i 0).val < win6_6.index t (0 : Fin 2) * 8000 + 8000; rw [f60, ht]; omega
  | ⟨1, _⟩ => show win6_6.index t (1 : Fin 2) * 32 ≤ (i 1).val ∧ (i 1).val < win6_6.index t (1 : Fin 2) * 32 + 32; rw [f61]; omega
theorem cover7 (i : S160000x32.Idx) : ∃ t : Fin cfg6.N, (cfg6.win 7).flush t = true ∧ i ∈ ((cfg6.win 7).blk t).view.set := by
  have hi0 : (i 0).val < 160000 := (i 0).isLt
  have hi1 : (i 1).val < 32 := (i 1).isLt
  obtain ⟨t, ht⟩ : ∃ t : Fin cfg6.N, t.val = (i 0).val / 8000 := ⟨⟨(i 0).val / 8000, by rw [show cfg6.N = 20 from (by decide : grid6.N = 20)]; omega⟩, rfl⟩
  obtain ⟨f00, f01, f10, f11, f20, f21, f30, f31, f40, f41, f50, f51, f60, f61, f70, f71⟩ := idx_facts t
  refine ⟨t, flush6_7 t, ?_⟩
  rw [mem_blk7]
  intro a
  match a with
  | ⟨0, _⟩ => show win6_7.index t (0 : Fin 2) * 8000 ≤ (i 0).val ∧ (i 0).val < win6_7.index t (0 : Fin 2) * 8000 + 8000; rw [f70, ht]; omega
  | ⟨1, _⟩ => show win6_7.index t (1 : Fin 2) * 32 ≤ (i 1).val ∧ (i 1).val < win6_7.index t (1 : Fin 2) * 32 + 32; rw [f71]; omega
end Blocks
end Cert.KernelValue.EmbedLN6

end
-- ==== Proof.EmbedLN6.lean ====
/-
  One layer's embedding + linear + projection region: what its two output arrays hold after the grid's 20 points.
  At each point the body's two stores leave, in the two staging buffers, the linear payload and the projected payload of
  the windows' blocks; these are block t of the linear stage and of the projection stage of the arrays the region finds
  in its input windows; the 20 blocks of 8000 rows tile the 160000 rows, so each output array ends holding its stage
  function of the inputs.
-/
import proofs.«425927_j69028714381396_2_alg».proof.Proof.FrameKIW
import proofs.«425927_j69028714381396_2_alg».proof.Proof.EmbedLNPay6
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

namespace EmbedLN6

theorem hz2 : (![0, 0] : Fin 2 → Nat) = fun _ => 0 := funext fun a => by fin_cases a <;> rfl

variable (V : (c : Dev nD) → (b : Ref sig .tc) → Buf (Elt Ideal) ((c : Thread nD τ).loc b))

/-- The arrays the region finds in its six input windows, at their literal types. -/
abbrev arr0 (c : Dev nD) : Vec Ideal S160000x2 .i32 := V c (Pipeline.arrRef spec6 0)
abbrev arr1 (c : Dev nD) : Vec Ideal S160000x32 .f32 := V c (Pipeline.arrRef spec6 1)
abbrev arr2 (c : Dev nD) : Vec Ideal S50x32 .f32 := V c (Pipeline.arrRef spec6 2)
abbrev arr3 (c : Dev nD) : Vec Ideal S64x32 .f32 := V c (Pipeline.arrRef spec6 3)
abbrev arr4 (c : Dev nD) : Vec Ideal S1x32 .f32 := V c (Pipeline.arrRef spec6 4)
abbrev arr5 (c : Dev nD) : Vec Ideal S32x32 .f32 := V c (Pipeline.arrRef spec6 5)

/-- What point t writes back to the linear output: block t of the linear stage of the arrays the region finds. -/
theorem flushed6_eq (c : Dev nD) (tb : Vec Ideal S32 .f32) (hz : ∀ j, (arr0 V c j).toNat < 50)
    (h4 : ∀ q : Fin 32, arr4 V c (ix2 (0 : Fin 1) q) = tb (ix1 q)) (t : Fin cfg6.N) :
    (dat6 (F := Ideal) V c).flushed 6 t = ((cfg6.win 6).blk t).view.read (Elt Ideal)
      (Cert.Spec.lin (arr1 V c) (Cert.Spec.embed (arr2 V c) (arr0 V c)) (arr3 V c) tb) := by
  show (cfg6.win 6).cut (grid6.coords t) ((dat6 V c).after 6 t) = _
  rw [after6_6]
  unfold out6_6
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2]
  exact block_lin (arr0 V c) (arr1 V c) (arr2 V c) (arr3 V c) (arr4 V c) tb hz h4 t

/-- What point t writes back to the projected output: block t of the projection stage. -/
theorem flushed7_eq (c : Dev nD) (tb : Vec Ideal S32 .f32) (hz : ∀ j, (arr0 V c j).toNat < 50)
    (h4 : ∀ q : Fin 32, arr4 V c (ix2 (0 : Fin 1) q) = tb (ix1 q)) (t : Fin cfg6.N) :
    (dat6 (F := Ideal) V c).flushed 7 t = ((cfg6.win 7).blk t).view.read (Elt Ideal)
      (Cert.Spec.conv (Cert.Spec.lin (arr1 V c) (Cert.Spec.embed (arr2 V c) (arr0 V c)) (arr3 V c) tb) (arr5 V c)) := by
  show (cfg6.win 7).cut (grid6.coords t) ((dat6 V c).after 7 t) = _
  rw [after6_7]
  unfold out6_7
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2, View.ld_unit_zero (S := S32x32) hz2]
  exact block_conv (arr0 V c) (arr1 V c) (arr2 V c) (arr3 V c) (arr4 V c) (arr5 V c) tb hz h4 t

end EmbedLN6

/-- THE LINEAR OUTPUT after the region: the linear stage of the previous features and the embedding of the indices. -/
theorem embedN6_xlin (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (hz : ∀ i, (z i).toNat < 50)
    (h0 : V c (Pipeline.arrRef spec6 0) = z) (h1 : V c (Pipeline.arrRef spec6 1) = xp) (h2 : V c (Pipeline.arrRef spec6 2) = e)
    (h3 : V c (Pipeline.arrRef spec6 3) = tw)
    (h4 : ∀ q : Fin 32, (V c (Pipeline.arrRef spec6 4) : Vec Ideal S1x32 .f32) (ix2 (0 : Fin 1) q) = tb (ix1 q)) :
    (dat6 (F := Ideal) V c).arrAt 6 cfg6.N = Cert.Spec.lin xp (Cert.Spec.embed e z) tw tb := by
  subst h0 h1 h2 h3
  exact (dat6 (F := Ideal) V c).arrAt_eq_of_cover 6 _ (fun t _ => EmbedLN6.flushed6_eq V c tb hz h4 t) EmbedLN6.cover6

/-- THE PROJECTED OUTPUT after the region: the projection stage of the linear output. -/
theorem embedN6_m (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (w : Vec Ideal S32x32 .f32) (hz : ∀ i, (z i).toNat < 50)
    (h0 : V c (Pipeline.arrRef spec6 0) = z) (h1 : V c (Pipeline.arrRef spec6 1) = xp) (h2 : V c (Pipeline.arrRef spec6 2) = e)
    (h3 : V c (Pipeline.arrRef spec6 3) = tw)
    (h4 : ∀ q : Fin 32, (V c (Pipeline.arrRef spec6 4) : Vec Ideal S1x32 .f32) (ix2 (0 : Fin 1) q) = tb (ix1 q))
    (h5 : V c (Pipeline.arrRef spec6 5) = w) :
    (dat6 (F := Ideal) V c).arrAt 7 cfg6.N = Cert.Spec.conv (Cert.Spec.lin xp (Cert.Spec.embed e z) tw tb) w := by
  subst h0 h1 h2 h3 h5
  exact (dat6 (F := Ideal) V c).arrAt_eq_of_cover 7 _ (fun t _ => EmbedLN6.flushed7_eq V c tb hz h4 t) EmbedLN6.cover7

end Cert.KernelValue

end
-- ==== Proof.GruPay7.lean ====
/-
  The gated-update kernel's body in region 7 (the same operations on the same shapes as in region 1), read at one
  entry, and its meeting with the reference's gated update. The lemmas that do not name a region (a matrix product at
  an entry, the column slices, the bias row, the reference at an entry) are imported.
-/
import proofs.«425927_j69028714381396_2_alg».proof.Proof.GruPay1

noncomputable section

namespace Cert.KernelValue.Gru

open Idealize.ShloMosaic Idealize.ShloMosaic.ValueIdx Cert.KernelIdeal Cert.KernelIdeal.Gen
open scoped BigOperators

/-! ## Region 7: the body's value at an entry, and its meeting with the reference -/

/-- The kernel's matrix product into a zero accumulator, read at (p, k): the row times the column. -/
theorem mm7_apply {φ₁ φ₂ : FTy} (A : FVec Ideal S8000x32 φ₁) (B : FVec Ideal S32x96 φ₂) (p : Fin 8000) (k : Fin 96) :
    matmul dot_S8000x32_S32x96_S8000x96_1_0_0_1_n_n none A B (constant (F := Ideal) S8000x96 .f32 0x00000000#32) (ix2 p k)
      = ∑ j : Fin 32, A (ix2 p j) * B (ix2 j k) :=
  (Ideal.matmul_constant_zero_apply _ none A B (ix2 p k)).trans
    (dot2_sum dot_S8000x32_S32x96_S8000x96_1_0_0_1_n_n rfl rfl rfl rfl rfl rfl A B p k)

/-- The body's value at entry (p, q) of its block is the gated update of row p of the two row blocks. -/
theorem pay7_apply (x0 x1 : Vec Ideal S8000x32 .f32) (w2 w3 : Vec Ideal S32x96 .f32) (b4 b5 : Vec Ideal S1x96 .f32)
    (p : Fin 8000) (q : Fin 32) :
    k7_pay1 (F := Ideal) x0 x1 w2 w3 b4 b5 (ix2 p q)
      = cell (fun j => x0 (ix2 p j)) (fun j => x1 (ix2 p j)) w2 w3 (fun k => b4 (ix2 0 k)) (fun k => b5 (ix2 0 k)) q := by
  unfold k7_pay1
  simp only [shapeCast_self, addf_apply, mulf_apply, subf_apply, logistic_apply, tanh_apply, broadcast_apply,
    slice0, slice1, slice2, mm7_apply, row_bcast, truncf_apply]
  rw [show FloatOps.ofBits (F := Ideal) .f32 0x3F800000#32 = 1 from Ideal.ofBits_one_f32]
  rfl

/-- Entry y of the body's value, on row blocks that are rows t·8000 onwards of the two arrays, the whole weights and the
    bias rows, is entry i of the reference's gated update, i being y moved down t blocks. -/
theorem pay7_eq_gru [Cert.ReferenceIdeal.Facts₀]
    (x0 x1 : Vec Ideal S8000x32 .f32) (w2 w3 : Vec Ideal S32x96 .f32) (b4 b5 : Vec Ideal S1x96 .f32)
    (x ag : Vec Ideal S160000x32 .f32) (wi wh : Vec Ideal S32x96 .f32) (bi bh : Vec Ideal S96 .f32)
    (tv : Nat) (y : S8000x32.Idx) (i : S160000x32.Idx)
    (hi0 : (i 0).val = tv * 8000 + (y 0).val) (hi1 : (i 1).val = (y 1).val)
    (h0 : ∀ (y' : S8000x32.Idx) (i' : S160000x32.Idx), (i' 0).val = tv * 8000 + (y' 0).val → (i' 1).val = (y' 1).val → x0 y' = x i')
    (h1 : ∀ (y' : S8000x32.Idx) (i' : S160000x32.Idx), (i' 0).val = tv * 8000 + (y' 0).val → (i' 1).val = (y' 1).val → x1 y' = ag i')
    (h2 : w2 = wi) (h3 : w3 = wh)
    (h4 : ∀ k : Fin 96, b4 (ix2 0 k) = bi (ix1 k)) (h5 : ∀ k : Fin 96, b5 (ix2 0 k) = bh (ix1 k)) :
    k7_pay1 (F := Ideal) x0 x1 w2 w3 b4 b5 y = Cert.Spec.gru (F := Ideal) x ag wi wh bi bh i := by
  obtain ⟨p, q, rfl⟩ : ∃ (p : Fin 8000) (q : Fin 32), y = ix2 p q := ⟨y 0, y 1, eq_ix2 y⟩
  obtain ⟨r, s, rfl⟩ : ∃ (r : Fin 160000) (s : Fin 32), i = ix2 r s := ⟨i 0, i 1, eq_ix2 i⟩
  obtain rfl : s = q := Fin.ext hi1
  rw [pay7_apply, gru_apply]
  subst h2 h3
  have e0 : (fun j => x0 (ix2 p j)) = fun j => x (ix2 r j) := funext fun j => h0 _ _ hi0 rfl
  have e1 : (fun j => x1 (ix2 p j)) = fun j => ag (ix2 r j) := funext fun j => h1 _ _ hi0 rfl
  have e4 : (fun k => b4 (ix2 0 k)) = fun k => bi (ix1 k) := funext h4
  have e5 : (fun k => b5 (ix2 0 k)) = fun k => bh (ix1 k) := funext h5
  rw [e0, e1, e4, e5]

end Cert.KernelValue.Gru

end
-- ==== Proof.Gru7.lean ====
/-
  The array the gated-update region leaves in its output window is the reference's gated update of the arrays it finds
  in its input windows. The grid has 20 points; at point t the two row-blocked inputs and the output are at rows
  8000 t … 8000 t + 7999, the two weights and the two bias rows are whole at every point. So what point t writes back is
  block t of the one whole-array function (the body's value at entry (p, q) of the block is the reference's at
  (8000 t + p, q)), and the 20 blocks cover the 160000 rows: row r is in block r / 8000.
-/
import proofs.«425927_j69028714381396_2_alg».proof.Proof.FrameKIW
import proofs.«425927_j69028714381396_2_alg».proof.Proof.Gen.ReferenceIdeal
import proofs.«425927_j69028714381396_2_alg».proof.Proof.GruPay7
import Idealize.ShloMosaic.Lib.Pipeline.Value

set_option maxRecDepth 16384

noncomputable section

namespace Cert.KernelValue.Gru7

open Idealize.ShloMosaic Idealize.ShloMosaic.TcCoe Idealize.ShloMosaic.ValueIdx Idealize.SL.Sem
open Idealize.ShloMosaic.Pipeline (Dat)
open Cert.KernelIdeal Cert.KernelIdeal.Gen Cert.KernelValue.Gru

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the others at block (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-! ## The arrays the region finds and the blocks of them at a point, at their literal types -/

abbrev arrX (c : Dev nD) : Vec Ideal S160000x32 .f32 := V c (Pipeline.arrRef spec7 0)
abbrev arrA (c : Dev nD) : Vec Ideal S160000x32 .f32 := V c (Pipeline.arrRef spec7 1)
abbrev arrWi (c : Dev nD) : Vec Ideal S32x96 .f32 := V c (Pipeline.arrRef spec7 2)
abbrev arrWh (c : Dev nD) : Vec Ideal S32x96 .f32 := V c (Pipeline.arrRef spec7 3)
abbrev arrBi (c : Dev nD) : Vec Ideal S1x96 .f32 := V c (Pipeline.arrRef spec7 4)
abbrev arrBh (c : Dev nD) : Vec Ideal S1x96 .f32 := V c (Pipeline.arrRef spec7 5)
abbrev blkX (c : Dev nD) (t : Fin cfg7.N) : Vec Ideal S8000x32 .f32 := iblk7 V c 0 t
abbrev blkA (c : Dev nD) (t : Fin cfg7.N) : Vec Ideal S8000x32 .f32 := iblk7 V c 1 t
abbrev blkWi (c : Dev nD) (t : Fin cfg7.N) : Vec Ideal S32x96 .f32 := iblk7 V c 2 t
abbrev blkWh (c : Dev nD) (t : Fin cfg7.N) : Vec Ideal S32x96 .f32 := iblk7 V c 3 t
abbrev blkBi (c : Dev nD) (t : Fin cfg7.N) : Vec Ideal S1x96 .f32 := iblk7 V c 4 t
abbrev blkBh (c : Dev nD) (t : Fin cfg7.N) : Vec Ideal S1x96 .f32 := iblk7 V c 5 t

/-- Entry y of the first input's block at point t is entry (8000 t + y₀, y₁) of its array. -/
theorem blkX_apply (c : Dev nD) (t : Fin cfg7.N) (y : S8000x32.Idx) (i : S160000x32.Idx)
    (hi0 : (i 0).val = t.val * 8000 + (y 0).val) (hi1 : (i 1).val = (y 1).val) : blkX V c t y = arrX V c i := by
  obtain ⟨e0, e1, -⟩ := idx_facts t
  show V c (Pipeline.arrRef spec7 0) (((cfg7.win 0).blk t).view.emb y) = V c (Pipeline.arrRef spec7 0) i
  refine congrArg (V c (Pipeline.arrRef spec7 0)) (funext fun a => Fin.ext ?_)
  match a with
  | ⟨0, _⟩ => show win7_0.index t (0 : Fin 2) * 8000 + 1 * (y 0).val = (i 0).val; omega
  | ⟨1, _⟩ => show win7_0.index t (1 : Fin 2) * 32 + 1 * (y 1).val = (i 1).val; omega

/-- The same for the second input. -/
theorem blkA_apply (c : Dev nD) (t : Fin cfg7.N) (y : S8000x32.Idx) (i : S160000x32.Idx)
    (hi0 : (i 0).val = t.val * 8000 + (y 0).val) (hi1 : (i 1).val = (y 1).val) : blkA V c t y = arrA V c i := by
  obtain ⟨-, -, e0, e1, -⟩ := idx_facts t
  show V c (Pipeline.arrRef spec7 1) (((cfg7.win 1).blk t).view.emb y) = V c (Pipeline.arrRef spec7 1) i
  refine congrArg (V c (Pipeline.arrRef spec7 1)) (funext fun a => Fin.ext ?_)
  match a with
  | ⟨0, _⟩ => show win7_1.index t (0 : Fin 2) * 8000 + 1 * (y 0).val = (i 0).val; omega
  | ⟨1, _⟩ => show win7_1.index t (1 : Fin 2) * 32 + 1 * (y 1).val = (i 1).val; omega

/-- A whole window's block is its array, at every point. -/
theorem blkWi_eq (c : Dev nD) (t : Fin cfg7.N) : blkWi V c t = arrWi V c := by
  obtain ⟨-, -, -, -, e0, e1, -⟩ := idx_facts t
  funext y
  show V c (Pipeline.arrRef spec7 2) (((cfg7.win 2).blk t).view.emb y) = V c (Pipeline.arrRef spec7 2) y
  refine congrArg (V c (Pipeline.arrRef spec7 2)) (funext fun a => Fin.ext ?_)
  match a with
  | ⟨0, _⟩ => show win7_2.index t (0 : Fin 2) * 32 + 1 * (y 0).val = (y 0).val; omega
  | ⟨1, _⟩ => show win7_2.index t (1 : Fin 2) * 96 + 1 * (y 1).val = (y 1).val; omega

theorem blkWh_eq (c : Dev nD) (t : Fin cfg7.N) : blkWh V c t = arrWh V c := by
  obtain ⟨-, -, -, -, -, -, e0, e1, -⟩ := idx_facts t
  funext y
  show V c (Pipeline.arrRef spec7 3) (((cfg7.win 3).blk t).view.emb y) = V c (Pipeline.arrRef spec7 3) y
  refine congrArg (V c (Pipeline.arrRef spec7 3)) (funext fun a => Fin.ext ?_)
  match a with
  | ⟨0, _⟩ => show win7_3.index t (0 : Fin 2) * 32 + 1 * (y 0).val = (y 0).val; omega
  | ⟨1, _⟩ => show win7_3.index t (1 : Fin 2) * 96 + 1 * (y 1).val = (y 1).val; omega

theorem blkBi_eq (c : Dev nD) (t : Fin cfg7.N) : blkBi V c t = arrBi V c := by
  obtain ⟨-, -, -, -, -, -, -, -, e0, e1, -⟩ := idx_facts t
  funext y
  show V c (Pipeline.arrRef spec7 4) (((cfg7.win 4).blk t).view.emb y) = V c (Pipeline.arrRef spec7 4) y
  refine congrArg (V c (Pipeline.arrRef spec7 4)) (funext fun a => Fin.ext ?_)
  match a with
  | ⟨0, _⟩ => show win7_4.index t (0 : Fin 2) * 1 + 1 * (y 0).val = (y 0).val; omega
  | ⟨1, _⟩ => show win7_4.index t (1 : Fin 2) * 96 + 1 * (y 1).val = (y 1).val; omega

theorem blkBh_eq (c : Dev nD) (t : Fin cfg7.N) : blkBh V c t = arrBh V c := by
  obtain ⟨-, -, -, -, -, -, -, -, -, -, e0, e1, -⟩ := idx_facts t
  funext y
  show V c (Pipeline.arrRef spec7 5) (((cfg7.win 5).blk t).view.emb y) = V c (Pipeline.arrRef spec7 5) y
  refine congrArg (V c (Pipeline.arrRef spec7 5)) (funext fun a => Fin.ext ?_)
  match a with
  | ⟨0, _⟩ => show win7_5.index t (0 : Fin 2) * 1 + 1 * (y 0).val = (y 0).val; omega
  | ⟨1, _⟩ => show win7_5.index t (1 : Fin 2) * 96 + 1 * (y 1).val = (y 1).val; omega

/-! ## What a point writes back, the cover, the array -/

/-- What point t writes back is block t of the reference's gated update of the arrays the region finds. -/
theorem flushed_eq (c : Dev nD) (x ag : Vec Ideal S160000x32 .f32) (wi wh : Vec Ideal S32x96 .f32) (bi bh : Vec Ideal S96 .f32)
    (h0 : arrX V c = x) (h1 : arrA V c = ag) (h2 : arrWi V c = wi) (h3 : arrWh V c = wh)
    (h4 : ∀ q : Fin 96, arrBi V c (ix2 0 q) = bi (ix1 q)) (h5 : ∀ q : Fin 96, arrBh V c (ix2 0 q) = bh (ix1 q))
    (t : Fin cfg7.N) :
    (dat7 (F := Ideal) V c).flushed 6 t
      = ((cfg7.win 6).blk t).view.read (Elt Ideal) (Cert.Spec.gru (F := Ideal) x ag wi wh bi bh) := by
  show (cfg7.win 6).cut (grid7.coords t) ((dat7 (F := Ideal) V c).after 6 t) = _
  rw [after7_6]
  unfold out7_6
  rw [View.canon_unit_zero hz]
  simp only [View.ld_unit_zero (S := S8000x32) hz, View.ld_unit_zero (S := S32x96) hz, View.ld_unit_zero (S := S1x96) hz]
  obtain ⟨-, -, -, -, -, -, -, -, -, -, -, -, e0, e1⟩ := idx_facts t
  funext j
  show k7_pay1 (F := Ideal) (blkX V c t) (blkA V c t) (blkWi V c t) (blkWh V c t) (blkBi V c t) (blkBh V c t)
      ((cfg7.win 6).xinj (grid7.coords t) j)
    = Cert.Spec.gru (F := Ideal) x ag wi wh bi bh (((cfg7.win 6).blk t).view.emb j)
  refine pay7_eq_gru (blkX V c t) (blkA V c t) (blkWi V c t) (blkWh V c t) (blkBi V c t) (blkBh V c t) x ag wi wh bi bh t.val
    ((cfg7.win 6).xinj (grid7.coords t) j) (((cfg7.win 6).blk t).view.emb j) ?_ ?_ ?_ ?_ ?_ ?_ ?_ ?_
  · show win7_6.index t (0 : Fin 2) * 8000 + 1 * (j 0).val = t.val * 8000 + (j 0).val; omega
  · show win7_6.index t (1 : Fin 2) * 32 + 1 * (j 1).val = (j 1).val; omega
  · intro y' i' hy0 hy1; rw [← h0]; exact blkX_apply V c t y' i' hy0 hy1
  · intro y' i' hy0 hy1; rw [← h1]; exact blkA_apply V c t y' i' hy0 hy1
  · rw [← h2]; exact blkWi_eq V c t
  · rw [← h3]; exact blkWh_eq V c t
  · intro k; rw [← h4 k]; exact congrFun (blkBi_eq V c t) (ix2 0 k)
  · intro k; rw [← h5 k]; exact congrFun (blkBh_eq V c t) (ix2 0 k)

/-- An index of the output array is in point t's block iff each coordinate is in the block's range on its axis. -/
theorem mem_blk (t : Fin cfg7.N) (i : S160000x32.Idx) :
    i ∈ ((cfg7.win 6).blk t).view.set
      ↔ ∀ a : Fin 2, win7_6.index t a * S8000x32.size a ≤ (i a).val ∧ (i a).val < win7_6.index t a * S8000x32.size a + S8000x32.size a := by
  show i ∈ ((View.whole (Pipeline.arrRef spec7 6)).slice (win7_6.rect t)).set ↔ _
  rw [View.set_slice_whole, Rect.mem_set_unit]
  exact Iff.rfl

/-- Every index of the output array is in some point's block: row r in block r / 8000. -/
theorem cover (i : S160000x32.Idx) :
    ∃ t : Fin cfg7.N, (cfg7.win 6).flush t = true ∧ i ∈ ((cfg7.win 6).blk t).view.set := by
  have hi0 : (i 0).val < 160000 := (i 0).isLt
  have hi1 : (i 1).val < 32 := (i 1).isLt
  obtain ⟨t, ht⟩ : ∃ t : Fin cfg7.N, t.val = (i 0).val / 8000 :=
    ⟨⟨(i 0).val / 8000, by rw [show cfg7.N = 20 from N_7]; omega⟩, rfl⟩
  obtain ⟨-, -, -, -, -, -, -, -, -, -, -, -, e0, e1⟩ := idx_facts t
  refine ⟨t, flush7_6 t, ?_⟩
  rw [mem_blk]
  intro a
  match a with
  | ⟨0, _⟩ =>
    show win7_6.index t (0 : Fin 2) * 8000 ≤ (i 0).val ∧ (i 0).val < win7_6.index t (0 : Fin 2) * 8000 + 8000
    omega
  | ⟨1, _⟩ =>
    show win7_6.index t (1 : Fin 2) * 32 ≤ (i 1).val ∧ (i 1).val < win7_6.index t (1 : Fin 2) * 32 + 32
    omega

end Cert.KernelValue.Gru7

namespace Cert.KernelValue

open Idealize.ShloMosaic Idealize.ShloMosaic.TcCoe Idealize.ShloMosaic.ValueIdx Idealize.SL.Sem
open Cert.KernelIdeal Cert.KernelIdeal.Gen

/-- The output array after the region's run is the reference's gated update of the arrays the region finds in its
    input windows (the two biases found as one-row matrices). -/
theorem gru7_value (V : (c : Dev nD) → (b : Ref sig .tc) → Buf (Elt Ideal) ((c : Thread nD τ).loc b)) (c : Dev nD)
    (x ag : Vec Ideal S160000x32 .f32) (wi wh : Vec Ideal S32x96 .f32) (bi bh : Vec Ideal S96 .f32)
    (h0 : V c (Pipeline.arrRef spec7 0) = x) (h1 : V c (Pipeline.arrRef spec7 1) = ag)
    (h2 : V c (Pipeline.arrRef spec7 2) = wi) (h3 : V c (Pipeline.arrRef spec7 3) = wh)
    (h4 : ∀ q : Fin 96, V c (Pipeline.arrRef spec7 4) (ValueIdx.ix2 0 q) = bi (ValueIdx.ix1 q))
    (h5 : ∀ q : Fin 96, V c (Pipeline.arrRef spec7 5) (ValueIdx.ix2 0 q) = bh (ValueIdx.ix1 q)) :
    (dat7 (F := Ideal) V c).arrAt 6 cfg7.N = Cert.Spec.gru x ag wi wh bi bh :=
  (dat7 (F := Ideal) V c).arrAt_eq_of_cover 6 (Cert.Spec.gru (F := Ideal) x ag wi wh bi bh)
    (fun t _ => Gru7.flushed_eq V c x ag wi wh bi bh h0 h1 h2 h3 h4 h5 t) (fun i => Gru7.cover i)

end Cert.KernelValue

end
-- ==== Proof.BnPay8.lean ====
/-
  Batch normalisation with an affine map, one block of rows at a time, for the region numbered 8: the same block
  arithmetic as the first such region's, read at an index, and its meeting with the reference's normalisation.
-/
import proofs.«425927_j69028714381396_2_alg».proof.Proof.BnPay2

noncomputable section

namespace Cert.KernelValue.Bn

open Idealize.ShloMosaic Idealize.ShloMosaic.ValueIdx

section Block

open Cert.KernelIdeal Cert.KernelIdeal.Gen

/-- Entry (p, q) of the block's result: the block's entry normalised by the four rows' entries at column q
    (a [1,32] row broadcast down 8000 rows reads its column). -/
theorem k8_pay1_apply (x0 : Vec Ideal S8000x32 .f32) (mu va ga be : Vec Ideal S1x32 .f32) (p : Fin 8000) (q : Fin 32) :
    k8_pay1 (F := Ideal) x0 mu va ga be (ix2 p q)
      = bnAt (x0 (ix2 p q)) (mu (ix2 0 q)) (va (ix2 0 q)) (ga (ix2 0 q)) (be (ix2 0 q)) := by
  unfold k8_pay1
  simp only [shapeCast_self]
  rw [addf_apply, mulf_apply, mulf_apply, subf_apply, broadcastTo_1b_ab_apply, broadcastTo_1b_ab_apply,
    broadcastTo_1b_ab_apply, broadcastTo_1b_ab_apply]
  rfl

end Block
section Meeting

open Cert.KernelIdeal Cert.KernelIdeal.Gen
variable [Cert.ReferenceIdeal.Facts₀]

/-- A block entry and the array entry it covers: if the block's x operand reads x there, the columns agree, and
    the four one-row operands read the column mean, the column variance, the scale and the shift, then the block's
    result at the entry is the reference's normalisation at the array entry. -/
theorem bn8_block_meets (x0 : Vec Ideal S8000x32 .f32) (mu va ga be : Vec Ideal S1x32 .f32)
    (x : Vec Ideal S160000x32 .f32) (g b : Vec Ideal S32 .f32) (j : S8000x32.Idx) (k : S160000x32.Idx)
    (hk : (k 1).val = (j 1).val)
    (hx : x0 j = x k)
    (hmu : ∀ q : Fin 32, mu (ix2 0 q) = Cert.Spec.mean32 x (ix1 q))
    (hva : ∀ q : Fin 32, va (ix2 0 q) = Cert.Spec.var32 x (ix1 q))
    (hga : ∀ q : Fin 32, ga (ix2 0 q) = g (ix1 q))
    (hbe : ∀ q : Fin 32, be (ix2 0 q) = b (ix1 q)) :
    k8_pay1 (F := Ideal) x0 mu va ga be j = Cert.Spec.bn x g b k := by
  obtain ⟨p, q, rfl⟩ : ∃ (p : Fin 8000) (q : Fin 32), j = ix2 p q := ⟨j 0, j 1, eq_ix2 j⟩
  obtain ⟨r, q', rfl⟩ : ∃ (r : Fin 160000) (q' : Fin 32), k = ix2 r q' := ⟨k 0, k 1, eq_ix2 k⟩
  obtain rfl : q' = q := Fin.ext hk
  rw [k8_pay1_apply, bn_apply, hx, hmu, hva, hga, hbe]

end Meeting

end Cert.KernelValue.Bn

end
-- ==== Proof.Bn8.lean ====
/-
  The batch-normalisation region, from blocks to the array. The grid has 20 points; point t reads rows
  8000 t … 8000 t + 7999 of the x array and the four whole one-row arrays (column means, column variances, scale,
  shift), and writes the same rows of the output array. What point t writes back is block t of the reference's
  normalisation of the x array (the block's arithmetic meets the reference's entry by entry), the 20 row blocks cover
  the output array, so after the region the output array is the reference's normalisation.
-/
import proofs.«425927_j69028714381396_2_alg».proof.Proof.FrameKIW
import proofs.«425927_j69028714381396_2_alg».proof.Proof.Gen.ReferenceIdeal
import proofs.«425927_j69028714381396_2_alg».proof.Proof.BnPay8
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Bn

/-- The zero offsets of a whole-buffer access. -/
theorem bn8_off : (![0, 0] : Fin 2 → Nat) = fun _ => 0 := funext fun a => by fin_cases a <;> rfl

/-- The index maps over the grid of 20 points: the x window's and the output window's row-block index is the
    point's number and their column-block index is zero; the four one-row windows sit at block (0, 0). -/
theorem bn8_idx : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Block t of the x window reads the x array where block t of the output window lies: both are rows
    8000 t … 8000 t + 7999, all 32 columns. -/
theorem bn8_xblk (c : Dev nD) (x : Vec Ideal S160000x32 .f32) (h0 : V c (Pipeline.arrRef spec8 0) = x)
    (t : Fin cfg8.N) (j : S8000x32.Idx) :
    iblk8 V c 0 t j = x (((cfg8.win 5).blk t).view.emb j) := by
  obtain ⟨e00, e01, e50, e51, e10, e11, e20, e21, e30, e31, e40, e41⟩ := bn8_idx t
  have he : ((cfg8.win 0).blk t).view.emb j = ((cfg8.win 5).blk t).view.emb j := by
    funext a; apply Fin.ext
    match a with
    | ⟨0, _⟩ => show win8_0.index t (0 : Fin 2) * 8000 + 1 * (j 0).val = win8_5.index t (0 : Fin 2) * 8000 + 1 * (j 0).val; omega
    | ⟨1, _⟩ => show win8_0.index t (1 : Fin 2) * 32 + 1 * (j 1).val = win8_5.index t (1 : Fin 2) * 32 + 1 * (j 1).val; omega
  show V c (Pipeline.arrRef spec8 0) (((cfg8.win 0).blk t).view.emb j) = x (((cfg8.win 5).blk t).view.emb j)
  rw [he, h0]

/-- An entry of block t of the output window keeps its column. -/
theorem bn8_col (t : Fin cfg8.N) (j : S8000x32.Idx) : ((((cfg8.win 5).blk t).view.emb j) 1).val = (j 1).val := by
  obtain ⟨e00, e01, e50, e51, e10, e11, e20, e21, e30, e31, e40, e41⟩ := bn8_idx t
  show win8_5.index t (1 : Fin 2) * 32 + 1 * (j 1).val = (j 1).val
  omega

/-- Block t of the one-row window 1 (the column means) is its whole array: at block index (0, 0) the block's entry
    (0, q) is the array's entry (0, q). -/
theorem bn8_row1 (c : Dev nD) (f : Fin 32 → EReal)
    (h : ∀ q : Fin 32, V c (Pipeline.arrRef spec8 1) (ValueIdx.ix2 0 q) = f q) (t : Fin cfg8.N) (q : Fin 32) :
    iblk8 V c 1 t (ix2 (0 : Fin 1) q) = f q := by
  obtain ⟨e00, e01, e50, e51, e10, e11, e20, e21, e30, e31, e40, e41⟩ := bn8_idx t
  have he : ((cfg8.win 1).blk t).view.emb (ix2 (0 : Fin 1) q) = ix2 (0 : Fin 1) q := by
    funext a; apply Fin.ext
    match a with
    | ⟨0, _⟩ => show win8_1.index t (0 : Fin 2) * 1 + 1 * 0 = 0; omega
    | ⟨1, _⟩ => show win8_1.index t (1 : Fin 2) * 32 + 1 * q.val = q.val; omega
  show V c (Pipeline.arrRef spec8 1) (((cfg8.win 1).blk t).view.emb (ix2 (0 : Fin 1) q)) = _
  rw [he]
  exact h q

/-- Block t of the one-row window 2 (the column variances) is its whole array: at block index (0, 0) the block's entry
    (0, q) is the array's entry (0, q). -/
theorem bn8_row2 (c : Dev nD) (f : Fin 32 → EReal)
    (h : ∀ q : Fin 32, V c (Pipeline.arrRef spec8 2) (ValueIdx.ix2 0 q) = f q) (t : Fin cfg8.N) (q : Fin 32) :
    iblk8 V c 2 t (ix2 (0 : Fin 1) q) = f q := by
  obtain ⟨e00, e01, e50, e51, e10, e11, e20, e21, e30, e31, e40, e41⟩ := bn8_idx t
  have he : ((cfg8.win 2).blk t).view.emb (ix2 (0 : Fin 1) q) = ix2 (0 : Fin 1) q := by
    funext a; apply Fin.ext
    match a with
    | ⟨0, _⟩ => show win8_2.index t (0 : Fin 2) * 1 + 1 * 0 = 0; omega
    | ⟨1, _⟩ => show win8_2.index t (1 : Fin 2) * 32 + 1 * q.val = q.val; omega
  show V c (Pipeline.arrRef spec8 2) (((cfg8.win 2).blk t).view.emb (ix2 (0 : Fin 1) q)) = _
  rw [he]
  exact h q

/-- Block t of the one-row window 3 (the scale) is its whole array: at block index (0, 0) the block's entry
    (0, q) is the array's entry (0, q). -/
theorem bn8_row3 (c : Dev nD) (f : Fin 32 → EReal)
    (h : ∀ q : Fin 32, V c (Pipeline.arrRef spec8 3) (ValueIdx.ix2 0 q) = f q) (t : Fin cfg8.N) (q : Fin 32) :
    iblk8 V c 3 t (ix2 (0 : Fin 1) q) = f q := by
  obtain ⟨e00, e01, e50, e51, e10, e11, e20, e21, e30, e31, e40, e41⟩ := bn8_idx t
  have he : ((cfg8.win 3).blk t).view.emb (ix2 (0 : Fin 1) q) = ix2 (0 : Fin 1) q := by
    funext a; apply Fin.ext
    match a with
    | ⟨0, _⟩ => show win8_3.index t (0 : Fin 2) * 1 + 1 * 0 = 0; omega
    | ⟨1, _⟩ => show win8_3.index t (1 : Fin 2) * 32 + 1 * q.val = q.val; omega
  show V c (Pipeline.arrRef spec8 3) (((cfg8.win 3).blk t).view.emb (ix2 (0 : Fin 1) q)) = _
  rw [he]
  exact h q

/-- Block t of the one-row window 4 (the shift) is its whole array: at block index (0, 0) the block's entry
    (0, q) is the array's entry (0, q). -/
theorem bn8_row4 (c : Dev nD) (f : Fin 32 → EReal)
    (h : ∀ q : Fin 32, V c (Pipeline.arrRef spec8 4) (ValueIdx.ix2 0 q) = f q) (t : Fin cfg8.N) (q : Fin 32) :
    iblk8 V c 4 t (ix2 (0 : Fin 1) q) = f q := by
  obtain ⟨e00, e01, e50, e51, e10, e11, e20, e21, e30, e31, e40, e41⟩ := bn8_idx t
  have he : ((cfg8.win 4).blk t).view.emb (ix2 (0 : Fin 1) q) = ix2 (0 : Fin 1) q := by
    funext a; apply Fin.ext
    match a with
    | ⟨0, _⟩ => show win8_4.index t (0 : Fin 2) * 1 + 1 * 0 = 0; omega
    | ⟨1, _⟩ => show win8_4.index t (1 : Fin 2) * 32 + 1 * q.val = q.val; omega
  show V c (Pipeline.arrRef spec8 4) (((cfg8.win 4).blk t).view.emb (ix2 (0 : Fin 1) q)) = _
  rw [he]
  exact h q

set_option maxHeartbeats 1000000 in
/-- WHAT POINT t WRITES BACK is block t of the reference's normalisation of the arrays the region finds: the x
    window's block and the output's are the same rows of their arrays, and each one-row window's block is its
    whole array. -/
theorem bn8_flushed (c : Dev nD) (x : Vec Ideal S160000x32 .f32) (g b : Vec Ideal S32 .f32)
    (h0 : V c (Pipeline.arrRef spec8 0) = x)
    (h1 : ∀ q : Fin 32, V c (Pipeline.arrRef spec8 1) (ValueIdx.ix2 0 q) = Cert.Spec.mean32 x (ValueIdx.ix1 q))
    (h2 : ∀ q : Fin 32, V c (Pipeline.arrRef spec8 2) (ValueIdx.ix2 0 q) = Cert.Spec.var32 x (ValueIdx.ix1 q))
    (h3 : ∀ q : Fin 32, V c (Pipeline.arrRef spec8 3) (ValueIdx.ix2 0 q) = g (ValueIdx.ix1 q))
    (h4 : ∀ q : Fin 32, V c (Pipeline.arrRef spec8 4) (ValueIdx.ix2 0 q) = b (ValueIdx.ix1 q))
    (t : Fin cfg8.N) :
    (dat8 (F := Ideal) V c).flushed 5 t = ((cfg8.win 5).blk t).view.read (Elt Ideal) (Cert.Spec.bn x g b) := by
  show (cfg8.win 5).cut (grid8.coords t) ((dat8 (F := Ideal) V c).after 5 t) = _
  rw [after8_5]
  unfold out8_5
  rw [View.canon_unit_zero bn8_off]
  simp only [View.ld_unit_zero (S := S8000x32) bn8_off, View.ld_unit_zero (S := S1x32) bn8_off]
  funext j
  show k8_pay1 (F := Ideal) (iblk8 V c 0 t) (iblk8 V c 1 t) (iblk8 V c 2 t) (iblk8 V c 3 t) (iblk8 V c 4 t) j
    = Cert.Spec.bn x g b (((cfg8.win 5).blk t).view.emb j)
  exact bn8_block_meets (iblk8 V c 0 t) (iblk8 V c 1 t) (iblk8 V c 2 t) (iblk8 V c 3 t) (iblk8 V c 4 t) x g b j
    (((cfg8.win 5).blk t).view.emb j) (bn8_col t j) (bn8_xblk V c x h0 t j)
    (bn8_row1 V c (fun q => Cert.Spec.mean32 x (ix1 q)) h1 t)
    (bn8_row2 V c (fun q => Cert.Spec.var32 x (ix1 q)) h2 t)
    (bn8_row3 V c (fun q => g (ix1 q)) h3 t)
    (bn8_row4 V c (fun q => b (ix1 q)) h4 t)

/-- An index of the output array is in point t's block iff each coordinate is in the block's range on its axis. -/
theorem bn8_mem_blk (t : Fin cfg8.N) (i : S160000x32.Idx) :
    i ∈ ((cfg8.win 5).blk t).view.set ↔ ∀ a : Fin 2, win8_5.index t a * S8000x32.size a ≤ (i a).val
      ∧ (i a).val < win8_5.index t a * S8000x32.size a + S8000x32.size a := by
  show i ∈ ((View.whole main_v127).slice (win8_5.rect t)).set ↔ _
  rw [View.set_slice_whole, Rect.mem_set_unit]
  exact Iff.rfl

/-- The 20 row blocks cover the array: row r lies in the block of point r / 8000. -/
theorem bn8_cover (i : S160000x32.Idx) :
    ∃ t : Fin cfg8.N, (cfg8.win 5).flush t = true ∧ i ∈ ((cfg8.win 5).blk t).view.set := by
  have hi0 : (i 0).val < 160000 := (i 0).isLt
  have hi1 : (i 1).val < 32 := (i 1).isLt
  have hN : cfg8.N = 20 := N_8
  let t : Fin cfg8.N := ⟨(i 0).val / 8000, by rw [hN]; omega⟩
  have ht : t.val = (i 0).val / 8000 := rfl
  obtain ⟨e00, e01, e50, e51, -⟩ := bn8_idx t
  refine ⟨t, flush8_5 t, ?_⟩
  rw [bn8_mem_blk]
  intro a
  match a with
  | ⟨0, _⟩ =>
    show win8_5.index t (0 : Fin 2) * 8000 ≤ (i 0).val ∧ (i 0).val < win8_5.index t (0 : Fin 2) * 8000 + 8000
    omega
  | ⟨1, _⟩ =>
    show win8_5.index t (1 : Fin 2) * 32 ≤ (i 1).val ∧ (i 1).val < win8_5.index t (1 : Fin 2) * 32 + 32
    omega

end Bn

set_option maxHeartbeats 1000000 in
/-- THE OUTPUT ARRAY after the region is the reference's normalisation of the x array by the column means, the
    column variances, the scale and the shift the region finds in its one-row windows. -/
theorem bn8_value (c : Dev nD) (x : Vec Ideal S160000x32 .f32) (g b : Vec Ideal S32 .f32)
    (h0 : V c (Pipeline.arrRef spec8 0) = x)
    (h1 : ∀ q : Fin 32, V c (Pipeline.arrRef spec8 1) (ValueIdx.ix2 0 q) = Cert.Spec.mean32 x (ValueIdx.ix1 q))
    (h2 : ∀ q : Fin 32, V c (Pipeline.arrRef spec8 2) (ValueIdx.ix2 0 q) = Cert.Spec.var32 x (ValueIdx.ix1 q))
    (h3 : ∀ q : Fin 32, V c (Pipeline.arrRef spec8 3) (ValueIdx.ix2 0 q) = g (ValueIdx.ix1 q))
    (h4 : ∀ q : Fin 32, V c (Pipeline.arrRef spec8 4) (ValueIdx.ix2 0 q) = b (ValueIdx.ix1 q)) :
    (dat8 (F := Ideal) V c).arrAt 5 cfg8.N = Cert.Spec.bn x g b :=
  (dat8 (F := Ideal) V c).arrAt_eq_of_cover 5 (Cert.Spec.bn x g b)
    (fun t _ => Bn.bn8_flushed V c x g b h0 h1 h2 h3 h4 t) Bn.bn8_cover

end Cert.KernelValue

end
-- ==== Proof.KStage2.lean ====
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KCarry
import proofs.«425927_j69028714381396_2_alg».proof.Proof.KHost
import proofs.«425927_j69028714381396_2_alg».proof.Proof.KStage2HostA
import proofs.«425927_j69028714381396_2_alg».proof.Proof.KStage2HostB
import proofs.«425927_j69028714381396_2_alg».proof.Proof.EmbedLN6
import proofs.«425927_j69028714381396_2_alg».proof.Proof.Gru7
import proofs.«425927_j69028714381396_2_alg».proof.Proof.Bn8
import Idealize.ShloMosaic.Lib.StableHlo.Run

/-!
  Layer 2 (the layers counted from 0) of the kernel program read off the run's fold, from boundary 16 (the previous layer's exit)
  to boundary 24: the stretch of weight slices, the linear region, the aggregation stretch, the gated update,
  the three normalisation stretches, the normalisation region. Each region's result is the reference's stage
  function of what its windows hold at entry; each window at entry is a buffer carried from an earlier boundary
  or a host stretch's function of such buffers. Composed, the layer's result is the reference's layer function
  of the previous layer's result and the launch arguments.
-/

-- deciding that two of the program's several hundred references differ recurses once per reference
set_option maxRecDepth 16384

noncomputable section

namespace Cert.KernelValue

open Idealize.ShloMosaic Idealize.ShloMosaic.TcCoe Cert.KernelIdeal Cert.KernelIdeal.Gen

variable (m : (ℓ : Loc nD τ sig) → Buf (Elt Ideal) ℓ) (ρ : Dev nD → PrngReg)

/-! ## The carried buffers inside the layer

The gate weights' stacks and the two edge-endpoint vectors are read after the linear region (boundary 18), the
scale and shift stacks after the gated update and two of the normalisation's stretches (boundary 22). No
stretch writes them and they are windows of neither region, so each still holds what it held at boundary 16. -/

theorem L2.at18_src (c : Dev nD) :
    W18 m ρ c (Proc.devRef .tc main_v1) = Cert.Spec.srcOf (m ((c : Thread nD τ).loc main_arg1)) :=
  (W18_of_ne m ρ c main_v1 (by decide)).trans ((KCarry.keeps_hostOps6 (W16 m ρ c) main_v1 (by decide)).trans (W16_src m ρ c))
theorem L2.at18_dst (c : Dev nD) :
    W18 m ρ c (Proc.devRef .tc main_v3) = Cert.Spec.dstOf (m ((c : Thread nD τ).loc main_arg1)) :=
  (W18_of_ne m ρ c main_v3 (by decide)).trans ((KCarry.keeps_hostOps6 (W16 m ρ c) main_v3 (by decide)).trans (W16_dst m ρ c))
theorem L2.at18_arg9 (c : Dev nD) :
    W18 m ρ c (Proc.devRef .tc main_arg9) = m ((c : Thread nD τ).loc main_arg9) :=
  (W18_of_ne m ρ c main_arg9 (by decide)).trans ((KCarry.keeps_hostOps6 (W16 m ρ c) main_arg9 (by decide)).trans (W16_arg9 m ρ c))
theorem L2.at18_arg10 (c : Dev nD) :
    W18 m ρ c (Proc.devRef .tc main_arg10) = m ((c : Thread nD τ).loc main_arg10) :=
  (W18_of_ne m ρ c main_arg10 (by decide)).trans ((KCarry.keeps_hostOps6 (W16 m ρ c) main_arg10 (by decide)).trans (W16_arg10 m ρ c))
theorem L2.at18_arg11 (c : Dev nD) :
    W18 m ρ c (Proc.devRef .tc main_arg11) = m ((c : Thread nD τ).loc main_arg11) :=
  (W18_of_ne m ρ c main_arg11 (by decide)).trans ((KCarry.keeps_hostOps6 (W16 m ρ c) main_arg11 (by decide)).trans (W16_arg11 m ρ c))
theorem L2.at18_arg12 (c : Dev nD) :
    W18 m ρ c (Proc.devRef .tc main_arg12) = m ((c : Thread nD τ).loc main_arg12) :=
  (W18_of_ne m ρ c main_arg12 (by decide)).trans ((KCarry.keeps_hostOps6 (W16 m ρ c) main_arg12 (by decide)).trans (W16_arg12 m ρ c))

theorem L2.at22_arg13 (c : Dev nD) :
    W22 m ρ c (Proc.devRef .tc main_arg13) = m ((c : Thread nD τ).loc main_arg13) :=
  calc W22 m ρ c (Proc.devRef .tc main_arg13)
    _ = W21 m ρ c (Proc.devRef .tc main_arg13) := KCarry.keeps_hostOps8_1 _ main_arg13 (by decide)
    _ = W20 m ρ c (Proc.devRef .tc main_arg13) := KCarry.keeps_hostOps8 _ main_arg13 (by decide)
    _ = W19 m ρ c (Proc.devRef .tc main_arg13) := W20_of_ne m ρ c main_arg13 (by decide)
    _ = W18 m ρ c (Proc.devRef .tc main_arg13) := KCarry.keeps_hostOps7 _ main_arg13 (by decide)
    _ = W17 m ρ c (Proc.devRef .tc main_arg13) := W18_of_ne m ρ c main_arg13 (by decide)
    _ = W16 m ρ c (Proc.devRef .tc main_arg13) := KCarry.keeps_hostOps6 _ main_arg13 (by decide)
    _ = m ((c : Thread nD τ).loc main_arg13) := W16_arg13 m ρ c
theorem L2.at22_arg14 (c : Dev nD) :
    W22 m ρ c (Proc.devRef .tc main_arg14) = m ((c : Thread nD τ).loc main_arg14) :=
  calc W22 m ρ c (Proc.devRef .tc main_arg14)
    _ = W21 m ρ c (Proc.devRef .tc main_arg14) := KCarry.keeps_hostOps8_1 _ main_arg14 (by decide)
    _ = W20 m ρ c (Proc.devRef .tc main_arg14) := KCarry.keeps_hostOps8 _ main_arg14 (by decide)
    _ = W19 m ρ c (Proc.devRef .tc main_arg14) := W20_of_ne m ρ c main_arg14 (by decide)
    _ = W18 m ρ c (Proc.devRef .tc main_arg14) := KCarry.keeps_hostOps7 _ main_arg14 (by decide)
    _ = W17 m ρ c (Proc.devRef .tc main_arg14) := W18_of_ne m ρ c main_arg14 (by decide)
    _ = W16 m ρ c (Proc.devRef .tc main_arg14) := KCarry.keeps_hostOps6 _ main_arg14 (by decide)
    _ = m ((c : Thread nD τ).loc main_arg14) := W16_arg14 m ρ c

/-! ## The linear region

Its windows at entry: the integer input and the previous layer's features as boundary 16 left them, and the
stretch's four slices of the stacked weights (the bias as a row). Its two results are the layer's linear
input and that input's projection. -/

theorem L2.lin (c : Dev nD)
    (hz : ∀ i, ((m ((c : Thread nD τ).loc main_arg0) : Vec Ideal S160000x2 .i32) i).toNat < 50) :
    W18 m ρ c (Proc.devRef .tc main_v94_0)
      = Cert.Spec.lin (W16 m ρ c (Proc.devRef .tc main_v84))
          (Cert.Spec.embed (Cert.Spec.emb2 (m ((c : Thread nD τ).loc main_arg5))) (m ((c : Thread nD τ).loc main_arg0)))
          (Cert.Spec.tw2 (m ((c : Thread nD τ).loc main_arg6))) (Cert.Spec.b32_2 (m ((c : Thread nD τ).loc main_arg7))) :=
  (W18_arr m ρ c 6).trans
    (embedN6_xlin (V17 m ρ) c (m ((c : Thread nD τ).loc main_arg0)) (W16 m ρ c (Proc.devRef .tc main_v84))
      (Cert.Spec.emb2 (m ((c : Thread nD τ).loc main_arg5))) (Cert.Spec.tw2 (m ((c : Thread nD τ).loc main_arg6)))
      (Cert.Spec.b32_2 (m ((c : Thread nD τ).loc main_arg7))) hz
      ((KCarry.keeps_hostOps6 (W16 m ρ c) main_arg0 (by decide)).trans (W16_arg0 m ρ c))
      (ops6_keep_xp (W16 m ρ c))
      (ops6_emb (W16 m ρ c) _ (W16_arg5 m ρ c))
      (ops6_tw (W16 m ρ c) _ (W16_arg6 m ρ c))
      (fun q => (congrFun (ops6_tb (W16 m ρ c) _ (W16_arg7 m ρ c)) (ValueIdx.ix2 0 q)).trans (row32_apply _ q)))

theorem L2.msg (c : Dev nD)
    (hz : ∀ i, ((m ((c : Thread nD τ).loc main_arg0) : Vec Ideal S160000x2 .i32) i).toNat < 50) :
    W18 m ρ c (Proc.devRef .tc main_v94_1)
      = Cert.Spec.conv (Cert.Spec.lin (W16 m ρ c (Proc.devRef .tc main_v84))
          (Cert.Spec.embed (Cert.Spec.emb2 (m ((c : Thread nD τ).loc main_arg5))) (m ((c : Thread nD τ).loc main_arg0)))
          (Cert.Spec.tw2 (m ((c : Thread nD τ).loc main_arg6))) (Cert.Spec.b32_2 (m ((c : Thread nD τ).loc main_arg7))))
        (Cert.Spec.cw2 (m ((c : Thread nD τ).loc main_arg8))) :=
  (W18_arr m ρ c 7).trans
    (embedN6_m (V17 m ρ) c (m ((c : Thread nD τ).loc main_arg0)) (W16 m ρ c (Proc.devRef .tc main_v84))
      (Cert.Spec.emb2 (m ((c : Thread nD τ).loc main_arg5))) (Cert.Spec.tw2 (m ((c : Thread nD τ).loc main_arg6)))
      (Cert.Spec.b32_2 (m ((c : Thread nD τ).loc main_arg7))) (Cert.Spec.cw2 (m ((c : Thread nD τ).loc main_arg8))) hz
      ((KCarry.keeps_hostOps6 (W16 m ρ c) main_arg0 (by decide)).trans (W16_arg0 m ρ c))
      (ops6_keep_xp (W16 m ρ c))
      (ops6_emb (W16 m ρ c) _ (W16_arg5 m ρ c))
      (ops6_tw (W16 m ρ c) _ (W16_arg6 m ρ c))
      (fun q => (congrFun (ops6_tb (W16 m ρ c) _ (W16_arg7 m ρ c)) (ValueIdx.ix2 0 q)).trans (row32_apply _ q))
      (ops6_cw (W16 m ρ c) _ (W16_arg8 m ρ c)))

/-! ## The gated update

Its windows at entry: the linear input as the linear region left it, the aggregation of the projection over
the edges, and the stretch's slices of the gate weights (the biases as rows). -/

theorem L2.gru (c : Dev nD) (xl mm : Vec Ideal S160000x32 .f32)
    (hxl : W18 m ρ c (Proc.devRef .tc main_v94_0) = xl) (hmm : W18 m ρ c (Proc.devRef .tc main_v94_1) = mm) :
    W20 m ρ c (Proc.devRef .tc main_v115)
      = Cert.Spec.gru xl
          (Cert.Spec.agg mm (Cert.Spec.srcOf (m ((c : Thread nD τ).loc main_arg1))) (Cert.Spec.dstOf (m ((c : Thread nD τ).loc main_arg1))))
          (Cert.Spec.wi2 (m ((c : Thread nD τ).loc main_arg9))) (Cert.Spec.wi2 (m ((c : Thread nD τ).loc main_arg10)))
          (Cert.Spec.b96_2 (m ((c : Thread nD τ).loc main_arg11))) (Cert.Spec.b96_2 (m ((c : Thread nD τ).loc main_arg12))) :=
  (W20_arr m ρ c 6).trans
    (gru7_value (V19 m ρ) c xl
      (Cert.Spec.agg mm (Cert.Spec.srcOf (m ((c : Thread nD τ).loc main_arg1))) (Cert.Spec.dstOf (m ((c : Thread nD τ).loc main_arg1))))
      (Cert.Spec.wi2 (m ((c : Thread nD τ).loc main_arg9))) (Cert.Spec.wi2 (m ((c : Thread nD τ).loc main_arg10)))
      (Cert.Spec.b96_2 (m ((c : Thread nD τ).loc main_arg11))) (Cert.Spec.b96_2 (m ((c : Thread nD τ).loc main_arg12)))
      ((ops7_keep_xl (W18 m ρ c)).trans hxl)
      (ops7_agg (W18 m ρ c) mm _ _ hmm (L2.at18_src m ρ c) (L2.at18_dst m ρ c))
      (ops7_wi (W18 m ρ c) _ (L2.at18_arg9 m ρ c))
      (ops7_wh (W18 m ρ c) _ (L2.at18_arg10 m ρ c))
      (fun q => (congrFun (ops7_bi (W18 m ρ c) _ (L2.at18_arg11 m ρ c)) (ValueIdx.ix2 0 q)).trans (row96_apply _ q))
      (fun q => (congrFun (ops7_bh (W18 m ρ c) _ (L2.at18_arg12 m ρ c)) (ValueIdx.ix2 0 q)).trans (row96_apply _ q)))

/-! ## The normalisation

Its windows at entry: the gated update's result, untouched by the three stretches; the mean row and the
variance row the first two stretches compute from it, read entry by entry as the column mean and the biased
column variance; the scale and shift rows. -/

theorem L2.bn (c : Dev nD) (x : Vec Ideal S160000x32 .f32) (hx : W20 m ρ c (Proc.devRef .tc main_v115) = x) :
    W24 m ρ c (Proc.devRef .tc main_v127)
      = Cert.Spec.bn x (Cert.Spec.b32_2 (m ((c : Thread nD τ).loc main_arg13))) (Cert.Spec.b32_2 (m ((c : Thread nD τ).loc main_arg14))) :=
  (W24_arr m ρ c 5).trans
    (bn8_value (V23 m ρ) c x
      (Cert.Spec.b32_2 (m ((c : Thread nD τ).loc main_arg13))) (Cert.Spec.b32_2 (m ((c : Thread nD τ).loc main_arg14)))
      ((ops8_2_keep_x (W22 m ρ c)).trans ((ops8_1_keep_x (W21 m ρ c)).trans ((ops8_keep_x (W20 m ρ c)).trans hx)))
      (fun q => (congrFun ((ops8_2_keep_mean (W22 m ρ c)).trans ((ops8_1_keep_mean (W21 m ρ c)).trans
        (ops8_mean (W20 m ρ c) x hx))) (ValueIdx.ix2 0 q)).trans (meanRow x q))
      (fun q => (congrFun ((ops8_2_keep_var (W22 m ρ c)).trans
        (ops8_1_var (W21 m ρ c) x ((ops8_keep_x (W20 m ρ c)).trans hx) (ops8_zero (W20 m ρ c)))) (ValueIdx.ix2 0 q)).trans (varRow x q))
      (fun q => (congrFun (ops8_2_g (W22 m ρ c) _ (L2.at22_arg13 m ρ c)) (ValueIdx.ix2 0 q)).trans (row32_apply _ q))
      (fun q => (congrFun (ops8_2_b (W22 m ρ c) _ (L2.at22_arg14 m ρ c)) (ValueIdx.ix2 0 q)).trans (row32_apply _ q)))

/-! ## The layer -/

/-- The layer's result is the reference's layer function of the previous layer's result and the arguments:
    the linear input, its projection aggregated over the edges, the gated update, the normalisation. -/
theorem stage2 (c : Dev nD)
    (hz : ∀ i, ((m ((c : Thread nD τ).loc main_arg0) : Vec Ideal S160000x2 .i32) i).toNat < 50) :
    W24 m ρ c (Proc.devRef .tc main_v127)
      = Cert.Spec.x2 (W16 m ρ c (Proc.devRef .tc main_v84)) (m ((c : Thread nD τ).loc main_arg0))
          (Cert.Spec.srcOf (m ((c : Thread nD τ).loc main_arg1))) (Cert.Spec.dstOf (m ((c : Thread nD τ).loc main_arg1)))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) :=
  L2.bn m ρ c _ (L2.gru m ρ c _ _ (L2.lin m ρ c hz) (L2.msg m ρ c hz))

end Cert.KernelValue

end
-- ==== Proof.KStage3HostA.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import Idealize.ShloMosaic.Lib.StableHlo.Run

/-!
  The host stretches of layer 3 (the layers counted from 0), read off as functions of the buffers they read (first part): the
  stretch before the linear region and the stretch before the gated update. Each lemma is about the stretch
  alone, at any contents of the buffers before it: a result buffer holds the composition of the operations that
  lead to it, which is the reference's slice (or aggregation) function of the same inputs by unfolding.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The stretch before the linear region: the layer's slices of the stacked weights

Each is row 3 of a stacked argument, cut out and reshaped; the bias is kept as a [1, 32] row. The previous
layer's features are not touched. -/

theorem ops9_keep_xp (V : Valuation τ sig (Elt F)) :
    StableHlo.after hostOps9 V (Proc.devRef .tc main_v127) = V (Proc.devRef .tc main_v127) := by
  carry_over hostOps9

theorem ops9_emb (V : Valuation τ sig (Elt F)) (a5 : Vec F S5x50x32 .f32) (h : V (Proc.devRef .tc main_arg5) = a5) :
    StableHlo.after hostOps9 V (Proc.devRef .tc main_v129) = Cert.Spec.emb3 a5 := by
  subst h; dsimp only [hostOps9]; after_results; all_goals rfl

theorem ops9_cw (V : Valuation τ sig (Elt F)) (a8 : Vec F S5x32x32 .f32) (h : V (Proc.devRef .tc main_arg8) = a8) :
    StableHlo.after hostOps9 V (Proc.devRef .tc main_v131) = Cert.Spec.cw3 a8 := by
  subst h; dsimp only [hostOps9]; after_results; all_goals rfl

theorem ops9_tw (V : Valuation τ sig (Elt F)) (a6 : Vec F S5x64x32 .f32) (h : V (Proc.devRef .tc main_arg6) = a6) :
    StableHlo.after hostOps9 V (Proc.devRef .tc main_v133) = Cert.Spec.tw3 a6 := by
  subst h; dsimp only [hostOps9]; after_results; all_goals rfl

theorem ops9_tb (V : Valuation τ sig (Elt F)) (a7 : Vec F S5x32 .f32) (h : V (Proc.devRef .tc main_arg7) = a7) :
    StableHlo.after hostOps9 V (Proc.devRef .tc main_v136) = shapeCast S1x32 (Cert.Spec.b32_3 a7) shapeCasts_S32_S1x32 := by
  subst h; dsimp only [hostOps9]; after_results; all_goals rfl

/-! ## The stretch before the gated update: the message aggregation and the gate weights' slices

The projected features are gathered at every edge's source node and added up at its target node; the two
32 × 96 gate weights and the two 96-entry gate biases (kept as [1, 96] rows) are row 3 of their stacks.
The linear region's first result is not touched. -/

theorem ops10_keep_xl (V : Valuation τ sig (Elt F)) :
    StableHlo.after hostOps10 V (Proc.devRef .tc main_v137_0) = V (Proc.devRef .tc main_v137_0) := by
  carry_over hostOps10

set_option maxHeartbeats 1000000 in
theorem ops10_agg (V : Valuation τ sig (Elt F)) (mm : Vec F S160000x32 .f32) (s d : Vec F S2560000 .i32)
    (hm : V (Proc.devRef .tc main_v137_1) = mm) (hs : V (Proc.devRef .tc main_v1) = s) (hd : V (Proc.devRef .tc main_v3) = d) :
    StableHlo.after hostOps10 V (Proc.devRef .tc main_v147) = Cert.Spec.agg mm s d := by
  subst hm hs hd; dsimp only [hostOps10]; after_results_simp; all_goals rfl

theorem ops10_wi (V : Valuation τ sig (Elt F)) (a9 : Vec F S5x32x96 .f32) (h : V (Proc.devRef .tc main_arg9) = a9) :
    StableHlo.after hostOps10 V (Proc.devRef .tc main_v149) = Cert.Spec.wi3 a9 := by
  subst h; dsimp only [hostOps10]; after_results; all_goals rfl

theorem ops10_wh (V : Valuation τ sig (Elt F)) (a10 : Vec F S5x32x96 .f32) (h : V (Proc.devRef .tc main_arg10) = a10) :
    StableHlo.after hostOps10 V (Proc.devRef .tc main_v151) = Cert.Spec.wi3 a10 := by
  subst h; dsimp only [hostOps10]; after_results; all_goals rfl

theorem ops10_bi (V : Valuation τ sig (Elt F)) (a11 : Vec F S5x96 .f32) (h : V (Proc.devRef .tc main_arg11) = a11) :
    StableHlo.after hostOps10 V (Proc.devRef .tc main_v154) = shapeCast S1x96 (Cert.Spec.b96_3 a11) shapeCasts_S96_S1x96 := by
  subst h; dsimp only [hostOps10]; after_results; all_goals rfl

theorem ops10_bh (V : Valuation τ sig (Elt F)) (a12 : Vec F S5x96 .f32) (h : V (Proc.devRef .tc main_arg12) = a12) :
    StableHlo.after hostOps10 V (Proc.devRef .tc main_v157) = shapeCast S1x96 (Cert.Spec.b96_3 a12) shapeCasts_S96_S1x96 := by
  subst h; dsimp only [hostOps10]; after_results; all_goals rfl

end Cert.KernelValue

end
-- ==== Proof.KStage3HostB.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import proofs.«425927_j69028714381396_2_alg».proof.Proof.KHost
import Idealize.ShloMosaic.Lib.StableHlo.Run

/-!
  The host stretches of layer 3 (the layers counted from 0), read off as functions of the buffers they read (second part): the
  three stretches before the normalisation. Each lemma is about the stretch alone, at any contents of the
  buffers before it.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three stretches before the normalisation: the column mean, the column variance, the scale and shift rows

The mean row is the column sum over the row count; the variance row is what the inlined variance computation
leaves (it reads the integer zero the mean's stretch wrote last); the scale and the shift are row 3 of their
stacks kept as [1, 32] rows. None of them touches the gated update's result. -/

theorem ops11_keep_x (V : Valuation τ sig (Elt F)) :
    StableHlo.after hostOps11 V (Proc.devRef .tc main_v158) = V (Proc.devRef .tc main_v158) := by
  carry_over hostOps11
theorem ops11_1_keep_x (V : Valuation τ sig (Elt F)) :
    StableHlo.after hostOps11_1 V (Proc.devRef .tc main_v158) = V (Proc.devRef .tc main_v158) := by
  carry_over hostOps11_1
theorem ops11_2_keep_x (V : Valuation τ sig (Elt F)) :
    StableHlo.after hostOps11_2 V (Proc.devRef .tc main_v158) = V (Proc.devRef .tc main_v158) := by
  carry_over hostOps11_2
theorem ops11_1_keep_mean (V : Valuation τ sig (Elt F)) :
    StableHlo.after hostOps11_1 V (Proc.devRef .tc main_v162) = V (Proc.devRef .tc main_v162) := by
  carry_over hostOps11_1
theorem ops11_2_keep_mean (V : Valuation τ sig (Elt F)) :
    StableHlo.after hostOps11_2 V (Proc.devRef .tc main_v162) = V (Proc.devRef .tc main_v162) := by
  carry_over hostOps11_2
theorem ops11_2_keep_var (V : Valuation τ sig (Elt F)) :
    StableHlo.after hostOps11_2 V (Proc.devRef .tc main_v163) = V (Proc.devRef .tc main_v163) := by
  carry_over hostOps11_2

theorem ops11_mean (V : Valuation τ sig (Elt F)) (x : Vec F S160000x32 .f32) (h : V (Proc.devRef .tc main_v158) = x) :
    StableHlo.after hostOps11 V (Proc.devRef .tc main_v162)
      = Host.divf (F := F) (broadcastInDim S1x32 ![1] bcast_S32_S1x32_1
          (Host.reduceAdd (F := F) x (constant (F := F) S_ .f32 0x00000000#32) reducesTo_S160000x32_S32_d0 h_S_))
        (broadcastInDim S1x32 ![] bcast_S_S1x32 (constant (F := F) S_ .f32 0x481C4000#32)) := by
  subst h; dsimp only [hostOps11]; after_results; all_goals rfl

theorem ops11_zero (V : Valuation τ sig (Elt F)) :
    StableHlo.after hostOps11 V (Proc.devRef .tc main_c_21) = (constantI S_ 32 0#32 : Vec F S_ .i32) := by
  dsimp only [hostOps11]; after_results; all_goals rfl

set_option maxHeartbeats 1000000 in
theorem ops11_1_var (V : Valuation τ sig (Elt Ideal)) (x : Vec Ideal S160000x32 .f32) (h : V (Proc.devRef .tc main_v158) = x)
    (hc : V (Proc.devRef .tc main_c_21) = (constantI S_ 32 0#32 : Vec Ideal S_ .i32)) :
    StableHlo.after hostOps11_1 V (Proc.devRef .tc main_v163) = kvar x := by
  subst h; dsimp only [hostOps11_1]; after_results_simp
  simp only [StableHlo.TRef.ofBuf, StableHlo.TRef.toBuf, cast_eq]
  rw [hc]; rfl

theorem ops11_2_g (V : Valuation τ sig (Elt F)) (a13 : Vec F S5x32 .f32) (h : V (Proc.devRef .tc main_arg13) = a13) :
    StableHlo.after hostOps11_2 V (Proc.devRef .tc main_v166) = shapeCast S1x32 (Cert.Spec.b32_3 a13) shapeCasts_S32_S1x32 := by
  subst h; dsimp only [hostOps11_2]; after_results; all_goals rfl

theorem ops11_2_b (V : Valuation τ sig (Elt F)) (a14 : Vec F S5x32 .f32) (h : V (Proc.devRef .tc main_arg14) = a14) :
    StableHlo.after hostOps11_2 V (Proc.devRef .tc main_v169) = shapeCast S1x32 (Cert.Spec.b32_3 a14) shapeCasts_S32_S1x32 := by
  subst h; dsimp only [hostOps11_2]; after_results; all_goals rfl

end Cert.KernelValue

end
-- ==== Proof.EmbedLNPay9.lean ====
/-
  One layer's embedding + linear + projection block, read at an index, at the ideal values (floats are extended reals,
  a change of float format is the identity, a matrix product is an exact finite sum).
  The block's linear payload at (p, q) is  Σ_k cat(p, k) · W(k, q) + b(q),  where cat(p, ·) is row p of the previous
  features beside  Σ_k [z(p,0) = k] · T(k, ·) + Σ_k [z(p,1) = k] · T(k, ·);  a sum against a one-hot row selects the
  table's row, so this is the reference's gather of rows z(p,0) and z(p,1), added (the reference reads an index signed
  and clamped into [0, 49], which changes nothing for an index in [0, 50)). The projected payload is that row against
  the 32×32 projection. Both are met with the reference's stage functions index by index. Then the windows' blocks at a
  grid point: the index block and the feature block are rows t · 8000 … t · 8000 + 7999 of their arrays, the table, the
  weight, the bias row and the projection are read whole, so each payload of the blocks is block t of its stage function
  of the arrays; and the 20 output blocks tile the 160000 rows.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import proofs.«425927_j69028714381396_2_alg».proof.Proof.Gen.KernelIdeal.Points
import Idealize.ShloMosaic.PureOps.Ideal
import Idealize.ShloMosaic.Lib.KernelVsHost
import Idealize.ShloMosaic.Lib.ValueLayout
import Idealize.ShloMosaic.Lib.IdealHost

noncomputable section

namespace Cert.KernelValue.EmbedLN9

open Idealize.ShloMosaic Idealize.ShloMosaic.ValueIdx

/-! ## A product of two matrices, read at an index -/

/-- The contraction's sum of a rows × columns product, re-indexed by the contracted coordinate: given where each
    operand index sits on each axis, the sum over the contraction index set is the sum over `Fin k` of the products
    of the row's and the column's entries. -/
theorem sum_contr_eq {m k n : Nat} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (A : (⟨2, ![m, k]⟩ : Shape).Idx → EReal) (B : (⟨2, ![k, n]⟩ : Shape).Idx → EReal) (a : Fin m) (b : Fin n) :
    ∑ q : D.contr.Idx, A (D.lhsIdx (ix2 a b) q) * B (D.rhsIdx (ix2 a b) q) = ∑ c : Fin k, A (ix2 a c) * B (ix2 c b) := by
  rw [← Equiv.sum_comp (contrEquiv1 D k hr hs).symm]
  refine Finset.sum_congr rfl fun c _ => ?_
  have hk := contrEquiv1_symm_val D k hr hs c
  have el : D.lhsIdx (ix2 a b) ((contrEquiv1 D k hr hs).symm c) = ix2 a c := funext fun ax => Fin.ext (by
    match ax with
    | ⟨0, _⟩ => exact l0 _ _
    | ⟨1, _⟩ => exact (l1 _ _).trans hk)
  have er : D.rhsIdx (ix2 a b) ((contrEquiv1 D k hr hs).symm c) = ix2 c b := funext fun ax => Fin.ext (by
    match ax with
    | ⟨0, _⟩ => exact (r0 _ _).trans hk
    | ⟨1, _⟩ => exact r1 _ _)
  rw [el, er]

section K50

theorem lhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 0).val = (i 0).val := by
  unfold DotDims.lhsIdx
  rw [dif_neg (show ¬(0 : Fin Cert.KernelIdeal.S8000x50.rank) ∈ Cert.KernelIdeal.dot_S8000x50_S50x32_S8000x32_1_0_0_1_n_n.lhsBatch from List.not_mem_nil),
    dif_pos (show (0 : Fin Cert.KernelIdeal.S8000x50.rank) ∈ Cert.KernelIdeal.dot_S8000x50_S50x32_S8000x32_1_0_0_1_n_n.lhsNonContracting from List.mem_singleton.mpr rfl)]
  rfl
theorem lhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 1).val = (q ⟨0, Nat.one_pos⟩).val :=
  Cert.KernelIdeal.dot_S8000x50_S50x32_S8000x32_1_0_0_1_n_n.lhsIdx_val_of_single rfl i q
theorem rhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 0).val = (q ⟨0, Nat.one_pos⟩).val :=
  Cert.KernelIdeal.dot_S8000x50_S50x32_S8000x32_1_0_0_1_n_n.rhsIdx_val_of_single rfl i q
theorem rhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 1).val = (i 1).val := by
  unfold DotDims.rhsIdx
  rw [dif_neg (show ¬(1 : Fin Cert.KernelIdeal.S50x32.rank) ∈ Cert.KernelIdeal.dot_S8000x50_S50x32_S8000x32_1_0_0_1_n_n.rhsBatch from List.not_mem_nil),
    dif_pos (show (1 : Fin Cert.KernelIdeal.S50x32.rank) ∈ Cert.KernelIdeal.dot_S8000x50_S50x32_S8000x32_1_0_0_1_n_n.rhsNonContracting from List.mem_singleton.mpr rfl)]
  rfl

theorem matmul50_apply (A : FVec Ideal Cert.KernelIdeal.S8000x50 .bf16) (B : FVec Ideal Cert.KernelIdeal.S50x32 .bf16) (p : Fin 8000) (d : Fin 32) :
    matmul Cert.KernelIdeal.dot_S8000x50_S50x32_S8000x32_1_0_0_1_n_n none A B (constant (F := Ideal) Cert.KernelIdeal.S8000x32 .f32 0x00000000#32) (ix2 p d)
      = ∑ k : Fin 50, A (ix2 p k) * B (ix2 k d) := by
  show FloatOps.matmul _ none A B _ (ix2 p d) = _
  rw [Ideal.matmul_constant_zero_apply]
  exact sum_contr_eq _ rfl rfl lhs_k50_0 lhs_k50_1 rhs_k50_0 rhs_k50_1 A B p d
end K50
section R64

theorem lhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 0).val = (i 0).val := by
  unfold DotDims.lhsIdx
  rw [dif_neg (show ¬(0 : Fin Cert.ReferenceIdeal.S160000x64.rank) ∈ Cert.ReferenceIdeal.dot_S160000x64_S64x32_S160000x32_1_0_0_1_n_n.lhsBatch from List.not_mem_nil),
    dif_pos (show (0 : Fin Cert.ReferenceIdeal.S160000x64.rank) ∈ Cert.ReferenceIdeal.dot_S160000x64_S64x32_S160000x32_1_0_0_1_n_n.lhsNonContracting from List.mem_singleton.mpr rfl)]
  rfl
theorem lhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 1).val = (q ⟨0, Nat.one_pos⟩).val :=
  Cert.ReferenceIdeal.dot_S160000x64_S64x32_S160000x32_1_0_0_1_n_n.lhsIdx_val_of_single rfl i q
theorem rhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 0).val = (q ⟨0, Nat.one_pos⟩).val :=
  Cert.ReferenceIdeal.dot_S160000x64_S64x32_S160000x32_1_0_0_1_n_n.rhsIdx_val_of_single rfl i q
theorem rhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 1).val = (i 1).val := by
  unfold DotDims.rhsIdx
  rw [dif_neg (show ¬(1 : Fin Cert.ReferenceIdeal.S64x32.rank) ∈ Cert.ReferenceIdeal.dot_S160000x64_S64x32_S160000x32_1_0_0_1_n_n.rhsBatch from List.not_mem_nil),
    dif_pos (show (1 : Fin Cert.ReferenceIdeal.S64x32.rank) ∈ Cert.ReferenceIdeal.dot_S160000x64_S64x32_S160000x32_1_0_0_1_n_n.rhsNonContracting from List.mem_singleton.mpr rfl)]
  rfl

theorem dot64_apply (A : FVec Ideal Cert.ReferenceIdeal.S160000x64 .f32) (B : FVec Ideal Cert.ReferenceIdeal.S64x32 .f32) (p : Fin 160000) (d : Fin 32) :
    (Host.dotGeneral Cert.ReferenceIdeal.dot_S160000x64_S64x32_S160000x32_1_0_0_1_n_n none A B : FVec Ideal Cert.ReferenceIdeal.S160000x32 .f32) (ix2 p d)
      = ∑ k : Fin 64, A (ix2 p k) * B (ix2 k d) := by
  show FloatOps.dotGeneral _ none _ A B (ix2 p d) = _
  rw [Ideal.dotGeneral_apply]
  exact sum_contr_eq _ rfl rfl lhs_r64_0 lhs_r64_1 rhs_r64_0 rhs_r64_1 A B p d
end R64

/-! ## One-hot rows -/

/-- The widened bit of a word comparison, made a float: one where the words are equal, zero elsewhere. -/
theorem sitofp_cmpi_eq (x y : BitVec 32) :
    (FloatOps.sitofp (F := Ideal) .f32 ((IntOp.cmpi .eq x y).setWidth 32) : Ideal .f32) = if x = y then 1 else 0 := by
  show (((BitVec.setWidth 32 (IntOp.cmpi .eq x y)).toInt : ℝ) : EReal) = _
  rw [toInt_setWidth_bit]
  by_cases h : x = y
  · subst h; simp [IntOp.cmpi]
  · simp [IntOp.cmpi, h]

/-- A sum against a one-hot row selects its term: no finiteness is needed, since zero times anything is zero. -/
theorem sum_onehot_mul {n : Nat} (z : BitVec 32) (hz : z.toNat < n) (hn : n < 2 ^ 32) (f : Fin n → EReal) :
    ∑ k : Fin n, (if z = BitVec.ofNat 32 k.val then (1 : EReal) else 0) * f k = f ⟨z.toNat, hz⟩ := by
  rw [Finset.sum_eq_single (⟨z.toNat, hz⟩ : Fin n)]
  · rw [if_pos (by simp), one_mul]
  · intro b _ hb
    rw [if_neg, zero_mul]
    intro h
    apply hb
    apply Fin.ext
    have := congrArg BitVec.toNat h
    simp [BitVec.toNat_ofNat] at this
    have hb' := b.isLt
    rw [Nat.mod_eq_of_lt (by omega)] at this
    exact this.symm
  · intro h; exact absurd (Finset.mem_univ _) h

section K64

theorem lhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 0).val = (i 0).val := by
  unfold DotDims.lhsIdx
  rw [dif_neg (show ¬(0 : Fin Cert.KernelIdeal.S8000x64.rank) ∈ Cert.KernelIdeal.dot_S8000x64_S64x32_S8000x32_1_0_0_1_n_n.lhsBatch from List.not_mem_nil),
    dif_pos (show (0 : Fin Cert.KernelIdeal.S8000x64.rank) ∈ Cert.KernelIdeal.dot_S8000x64_S64x32_S8000x32_1_0_0_1_n_n.lhsNonContracting from List.mem_singleton.mpr rfl)]
  rfl
theorem lhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 1).val = (q ⟨0, Nat.one_pos⟩).val :=
  Cert.KernelIdeal.dot_S8000x64_S64x32_S8000x32_1_0_0_1_n_n.lhsIdx_val_of_single rfl i q
theorem rhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 0).val = (q ⟨0, Nat.one_pos⟩).val :=
  Cert.KernelIdeal.dot_S8000x64_S64x32_S8000x32_1_0_0_1_n_n.rhsIdx_val_of_single rfl i q
theorem rhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 1).val = (i 1).val := by
  unfold DotDims.rhsIdx
  rw [dif_neg (show ¬(1 : Fin Cert.KernelIdeal.S64x32.rank) ∈ Cert.KernelIdeal.dot_S8000x64_S64x32_S8000x32_1_0_0_1_n_n.rhsBatch from List.not_mem_nil),
    dif_pos (show (1 : Fin Cert.KernelIdeal.S64x32.rank) ∈ Cert.KernelIdeal.dot_S8000x64_S64x32_S8000x32_1_0_0_1_n_n.rhsNonContracting from List.mem_singleton.mpr rfl)]
  rfl

theorem matmul64_apply (A : FVec Ideal Cert.KernelIdeal.S8000x64 .bf16) (B : FVec Ideal Cert.KernelIdeal.S64x32 .bf16) (p : Fin 8000) (d : Fin 32) :
    matmul Cert.KernelIdeal.dot_S8000x64_S64x32_S8000x32_1_0_0_1_n_n none A B (constant (F := Ideal) Cert.KernelIdeal.S8000x32 .f32 0x00000000#32) (ix2 p d)
      = ∑ k : Fin 64, A (ix2 p k) * B (ix2 k d) := by
  show FloatOps.matmul _ none A B _ (ix2 p d) = _
  rw [Ideal.matmul_constant_zero_apply]
  exact sum_contr_eq _ rfl rfl lhs_k64_0 lhs_k64_1 rhs_k64_0 rhs_k64_1 A B p d
end K64
section K32

theorem lhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 0).val = (i 0).val := by
  unfold DotDims.lhsIdx
  rw [dif_neg (show ¬(0 : Fin Cert.KernelIdeal.S8000x32.rank) ∈ Cert.KernelIdeal.dot_S8000x32_S32x32_S8000x32_1_0_0_1_n_n.lhsBatch from List.not_mem_nil),
    dif_pos (show (0 : Fin Cert.KernelIdeal.S8000x32.rank) ∈ Cert.KernelIdeal.dot_S8000x32_S32x32_S8000x32_1_0_0_1_n_n.lhsNonContracting from List.mem_singleton.mpr rfl)]
  rfl
theorem lhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 1).val = (q ⟨0, Nat.one_pos⟩).val :=
  Cert.KernelIdeal.dot_S8000x32_S32x32_S8000x32_1_0_0_1_n_n.lhsIdx_val_of_single rfl i q
theorem rhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 0).val = (q ⟨0, Nat.one_pos⟩).val :=
  Cert.KernelIdeal.dot_S8000x32_S32x32_S8000x32_1_0_0_1_n_n.rhsIdx_val_of_single rfl i q
theorem rhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 1).val = (i 1).val := by
  unfold DotDims.rhsIdx
  rw [dif_neg (show ¬(1 : Fin Cert.KernelIdeal.S32x32.rank) ∈ Cert.KernelIdeal.dot_S8000x32_S32x32_S8000x32_1_0_0_1_n_n.rhsBatch from List.not_mem_nil),
    dif_pos (show (1 : Fin Cert.KernelIdeal.S32x32.rank) ∈ Cert.KernelIdeal.dot_S8000x32_S32x32_S8000x32_1_0_0_1_n_n.rhsNonContracting from List.mem_singleton.mpr rfl)]
  rfl

theorem matmul32_apply (A : FVec Ideal Cert.KernelIdeal.S8000x32 .bf16) (B : FVec Ideal Cert.KernelIdeal.S32x32 .bf16) (p : Fin 8000) (d : Fin 32) :
    matmul Cert.KernelIdeal.dot_S8000x32_S32x32_S8000x32_1_0_0_1_n_n none A B (constant (F := Ideal) Cert.KernelIdeal.S8000x32 .f32 0x00000000#32) (ix2 p d)
      = ∑ k : Fin 32, A (ix2 p k) * B (ix2 k d) := by
  show FloatOps.matmul _ none A B _ (ix2 p d) = _
  rw [Ideal.matmul_constant_zero_apply]
  exact sum_contr_eq _ rfl rfl lhs_k32_0 lhs_k32_1 rhs_k32_0 rhs_k32_1 A B p d
end K32
section R32

theorem lhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 0).val = (i 0).val := by
  unfold DotDims.lhsIdx
  rw [dif_neg (show ¬(0 : Fin Cert.ReferenceIdeal.S160000x32.rank) ∈ Cert.ReferenceIdeal.dot_S160000x32_S32x32_S160000x32_1_0_0_1_n_n.lhsBatch from List.not_mem_nil),
    dif_pos (show (0 : Fin Cert.ReferenceIdeal.S160000x32.rank) ∈ Cert.ReferenceIdeal.dot_S160000x32_S32x32_S160000x32_1_0_0_1_n_n.lhsNonContracting from List.mem_singleton.mpr rfl)]
  rfl
theorem lhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 1).val = (q ⟨0, Nat.one_pos⟩).val :=
  Cert.ReferenceIdeal.dot_S160000x32_S32x32_S160000x32_1_0_0_1_n_n.lhsIdx_val_of_single rfl i q
theorem rhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 0).val = (q ⟨0, Nat.one_pos⟩).val :=
  Cert.ReferenceIdeal.dot_S160000x32_S32x32_S160000x32_1_0_0_1_n_n.rhsIdx_val_of_single rfl i q
theorem rhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 1).val = (i 1).val := by
  unfold DotDims.rhsIdx
  rw [dif_neg (show ¬(1 : Fin Cert.ReferenceIdeal.S32x32.rank) ∈ Cert.ReferenceIdeal.dot_S160000x32_S32x32_S160000x32_1_0_0_1_n_n.rhsBatch from List.not_mem_nil),
    dif_pos (show (1 : Fin Cert.ReferenceIdeal.S32x32.rank) ∈ Cert.ReferenceIdeal.dot_S160000x32_S32x32_S160000x32_1_0_0_1_n_n.rhsNonContracting from List.mem_singleton.mpr rfl)]
  rfl

theorem dot32_apply (A : FVec Ideal Cert.ReferenceIdeal.S160000x32 .f32) (B : FVec Ideal Cert.ReferenceIdeal.S32x32 .f32) (p : Fin 160000) (d : Fin 32) :
    (Host.dotGeneral Cert.ReferenceIdeal.dot_S160000x32_S32x32_S160000x32_1_0_0_1_n_n none A B : FVec Ideal Cert.ReferenceIdeal.S160000x32 .f32) (ix2 p d)
      = ∑ k : Fin 32, A (ix2 p k) * B (ix2 k d) := by
  show FloatOps.dotGeneral _ none _ A B (ix2 p d) = _
  rw [Ideal.dotGeneral_apply]
  exact sum_contr_eq _ rfl rfl lhs_r32_0 lhs_r32_1 rhs_r32_0 rhs_r32_1 A B p d
end R32

/-! ## The kernel's one-hot row -/

section OneHot
open Cert.KernelIdeal Cert.KernelIdeal.Gen

/-- Column `c` of the index block, compared with the lane number along 50 lanes and made a float: at (p, k) it is one
    where the index is k and zero elsewhere. -/
theorem onehot_apply (v0 : Vec Ideal S8000x2 .i32) (c : Fin 2) (o : Nat) (ho : o = c.val) (hs : S8000x2.Slices ![0, o] S8000x1)
    (p : Fin 8000) (k : Fin 50) :
    (truncf .bf16 (sitofp .f32 (extui 32 (cmpi .eq (broadcastTo S8000x50 (extractStridedSlice S8000x1 ![0, o] v0 hs) broadcasts_S8000x1_S8000x50)
        (iota .tc S8000x50 32 [1] iota_S8000x50_d1_w32)) natLt_1_32)) bitsLt_bf16_f32 : FVec Ideal S8000x50 .bf16) (ix2 p k)
      = if v0 (ix2 p c) = BitVec.ofNat 32 k.val then 1 else 0 := by
  rw [truncf_apply, sitofp_apply, extui_apply]
  show FloatOps.sitofp (F := Ideal) .f32 ((IntOp.cmpi .eq (broadcastTo S8000x50 (extractStridedSlice S8000x1 ![0, o] v0 hs) broadcasts_S8000x1_S8000x50 (ix2 p k))
      (iota .tc S8000x50 32 [1] iota_S8000x50_d1_w32 (ix2 p k))).setWidth 32) = _
  rw [sitofp_cmpi_eq, iota_single_apply,
    broadcastTo_apply _ broadcasts_S8000x1_S8000x50 (ix2 p k) (ix2 p (0 : Fin 1)) (fun a => by
      match a with
      | ⟨0, _⟩ => rfl
      | ⟨1, _⟩ => rfl),
    slice2_axis1_apply o v0 hs p (0 : Fin 1) c (by simp [ho])]
end OneHot

/-! ## The reference's embedding lookup, read at an index -/

section RefEmbed
open Cert.ReferenceIdeal Cert.ReferenceIdeal.Facts₀

/-- The gather of table rows at (i, j, d): the table's row named by the start index at (i, j, 0), read signed and
    clamped into [0, 49], at column d. -/
theorem gather_rows_apply (e : FVec Ideal S50x32 .f32) (idx : IVec S160000x2x1 32) (i : Fin 160000) (j : Fin 2) (d : Fin 32) :
    Host.gather gather_S50x32_S160000x2x1_S160000x2x32_2_0_n_n_0_2_132 e idx (ix3 i j d)
      = e (ix2 (⟨min (idx (ix3 i j (0 : Fin 1))).toInt.toNat 49, by omega⟩ : Fin 50) d) := by
  unfold Host.gather
  refine congrArg e (funext fun a => Fin.ext ?_)
  match a with
  | ⟨0, _⟩ =>
    show gather_S50x32_S160000x2x1_S160000x2x32_2_0_n_n_0_2_132.start (ix3 i j d) idx 0
      + gather_S50x32_S160000x2x1_S160000x2x32_2_0_n_n_0_2_132.batchCoord (ix3 i j d) 0
      + gather_S50x32_S160000x2x1_S160000x2x32_2_0_n_n_0_2_132.offCoord (ix3 i j d) 0 = min _ 49
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x32_S160000x2x1_S160000x2x32_2_0_n_n_0_2_132.startIndexMap from List.mem_singleton.mpr rfl)]
    have hsi : gather_S50x32_S160000x2x1_S160000x2x32_2_0_n_n_0_2_132.siIdx (ix3 i j d)
        ⟨List.idxOf (0 : Fin 2) gather_S50x32_S160000x2x1_S160000x2x32_2_0_n_n_0_2_132.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50x32_S160000x2x1_S160000x2x32_2_0_n_n_0_2_132.start (ix3 i j d) idx 1
      + gather_S50x32_S160000x2x1_S160000x2x32_2_0_n_n_0_2_132.batchCoord (ix3 i j d) 1
      + gather_S50x32_S160000x2x1_S160000x2x32_2_0_n_n_0_2_132.offCoord (ix3 i j d) 1 = d.val
    rw [GatherDims.batchCoord_eq_zero _ _ _ List.not_mem_nil]
    unfold GatherDims.start
    rw [dif_neg (show ¬(1 : Fin 2) ∈ gather_S50x32_S160000x2x1_S160000x2x32_2_0_n_n_0_2_132.startIndexMap from
      fun h => absurd (List.mem_singleton.mp h) (by decide))]
    simp only [Nat.add_zero, Nat.zero_add]
    rfl

/-- Under the range fact a lookup index is its own wrapped form. -/
theorem wrapZ_apply (z : Vec Ideal S160000x2 .i32) (j : S160000x2.Idx) (hz : (z j).toNat < 50) :
    Cert.Spec.wrapZ z j = z j := by
  unfold Cert.Spec.wrapZ
  rw [select_apply]
  show Scalar.select (IntOp.cmpi .slt (z j) _) _ (z j) = z j
  have h0 : IntOp.cmpi .slt (z j) (broadcastInDim S160000x2 ![] bcast_S_S160000x2 (constantI S_ 32 0#32) j) = 0#1 := by
    rw [broadcastInDim_scalar_apply]
    show BitVec.ofBool ((z j).slt 0#32) = 0#1
    have : (z j).slt 0#32 = false := by
      rw [BitVec.slt, decide_eq_false_iff_not]
      have h1 : (z j).toInt = (z j).toNat := BitVec.toInt_eq_toNat_of_lt (by omega)
      rw [h1]; simp
    rw [this]; rfl
  rw [h0, select_zero]

/-- Row i of the embedding stage: the table's rows named by the two lookup indices of row i, added. -/
theorem embed_apply (e : Vec Ideal S50x32 .f32) (z : Vec Ideal S160000x2 .i32) (i : Fin 160000) (d : Fin 32)
    (hz0 : (z (ix2 i 0)).toNat < 50) (hz1 : (z (ix2 i 1)).toNat < 50) :
    Cert.Spec.embed e z (ix2 i d) = e (ix2 (⟨(z (ix2 i 0)).toNat, hz0⟩ : Fin 50) d) + e (ix2 (⟨(z (ix2 i 1)).toNat, hz1⟩ : Fin 50) d) := by
  unfold Cert.Spec.embed
  rw [hostReduceAdd_apply]
  have hR : S160000x2x32.Reduces [1] S160000x32 := by decide
  rw [Ideal.hostReduceAdd_single reducesTo_S160000x2x32_S160000x32_d1 hR]
  have hl : ∀ k : Fin 2, hR.lift (ix2 i d) k = ix3 i k d := fun k => funext fun c => Fin.ext (by
    match c with
    | ⟨0, _⟩ => rfl
    | ⟨1, _⟩ => rfl
    | ⟨2, _⟩ => rfl)
  have hb : ∀ j : Fin 2, broadcastInDim S160000x2x1 ![0, 1] bcast_S160000x2_S160000x2x1_0_1 (Cert.Spec.wrapZ z) (ix3 i j (0 : Fin 1))
      = Cert.Spec.wrapZ z (ix2 i j) := fun j =>
    broadcastInDim_apply _ _ _ _ (ix2 i j) (fun a => by
      match a with
      | ⟨0, _⟩ => rfl
      | ⟨1, _⟩ => rfl)
  have hm : ∀ (w : BitVec 32), w.toNat < 50 → min w.toInt.toNat 49 = w.toNat := by
    intro w hw
    rw [BitVec.toInt_eq_toNat_of_lt (by omega)]
    simp only [Int.toNat_natCast]
    omega
  show Ideal.ofBits .f32 0x00000000#32 + ∑ k : Fin 2, _ = _
  rw [Ideal.ofBits_zero_f32, zero_add, Fin.sum_univ_two, hl 0, hl 1, gather_rows_apply, gather_rows_apply]
  refine congrArg₂ (· + ·) (congrArg (fun r => e (ix2 r d)) (Fin.ext ?_)) (congrArg (fun r => e (ix2 r d)) (Fin.ext ?_))
  · show min _ 49 = (z (ix2 i 0)).toNat
    rw [hb, wrapZ_apply z _ hz0, hm _ hz0]
  · show min _ 49 = (z (ix2 i 1)).toNat
    rw [hb, wrapZ_apply z _ hz1, hm _ hz1]

/-- The linear stage at (i, q): row i of the previous features beside the embedding, against column q of the weight,
    plus entry q of the bias. -/
theorem lin_apply (xp zl : Vec Ideal S160000x32 .f32) (tw : Vec Ideal S64x32 .f32) (tb : Vec Ideal S32 .f32) (i : Fin 160000) (q : Fin 32) :
    Cert.Spec.lin xp zl tw tb (ix2 i q)
      = (∑ k : Fin 64, concatenate S160000x64 1 [⟨S160000x32, xp⟩, ⟨S160000x32, zl⟩] concatenates_S160000x32_S160000x32_S160000x64_d1 (ix2 i k) * tw (ix2 k q))
        + tb (ix1 q) := by
  unfold Cert.Spec.lin
  rw [addf_apply, dot64_apply]
  congr 1
  show broadcastInDim S160000x32 ![0, 1] bcast_S1x32_S160000x32_0_1 (broadcastInDim S1x32 ![1] bcast_S32_S1x32_1 tb) (ix2 i q) = tb (ix1 q)
  rw [broadcastInDim_apply _ _ _ (ix2 i q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl)]

/-- The projection stage at (i, q). -/
theorem conv_apply (x : Vec Ideal S160000x32 .f32) (w : Vec Ideal S32x32 .f32) (i : Fin 160000) (q : Fin 32) :
    Cert.Spec.conv x w (ix2 i q) = ∑ k : Fin 32, x (ix2 i k) * w (ix2 k q) := by
  unfold Cert.Spec.conv
  exact dot32_apply x w i q
end RefEmbed

/-! ## The kernel's payloads, read at an index -/

section Payload
open Cert.KernelIdeal Cert.KernelIdeal.Gen

/-- The block's embedding part at (p, d): each one-hot row against the table selects the row its index names. -/
theorem zl_apply (v0 : Vec Ideal S8000x2 .i32) (v1 : Vec Ideal S50x32 .f32) (p : Fin 8000) (d : Fin 32)
    (h0 : (v0 (ix2 p 0)).toNat < 50) (h1 : (v0 (ix2 p 1)).toNat < 50) :
    (addf
      (matmul dot_S8000x50_S50x32_S8000x32_1_0_0_1_n_n none
        (truncf .bf16 (sitofp .f32 (extui 32 (cmpi .eq (broadcastTo S8000x50 (extractStridedSlice S8000x1 ![0, 0] v0 slices_S8000x2_o0_0_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      (matmul dot_S8000x50_S50x32_S8000x32_1_0_0_1_n_n none
        (truncf .bf16 (sitofp .f32 (extui 32 (cmpi .eq (broadcastTo S8000x50 (extractStridedSlice S8000x1 ![0, 1] v0 slices_S8000x2_o0_1_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      : FVec Ideal S8000x32 .f32) (ix2 p d)
      = v1 (ix2 (⟨(v0 (ix2 p 0)).toNat, h0⟩ : Fin 50) d) + v1 (ix2 (⟨(v0 (ix2 p 1)).toNat, h1⟩ : Fin 50) d) := by
  rw [addf_apply, matmul50_apply, matmul50_apply]
  simp only [onehot_apply v0 0 0 rfl, onehot_apply v0 1 1 rfl, truncf_apply]
  rw [sum_onehot_mul _ h0 (by norm_num) (fun k => v1 (ix2 k d)), sum_onehot_mul _ h1 (by norm_num) (fun k => v1 (ix2 k d))]

/-- THE LINEAR PAYLOAD IS THE LINEAR STAGE: at row p of a block whose index and feature rows are rows i of the arrays,
    with the table, the weight and the bias row the arrays', the stored value at (p, q) is the stage's at (i, q). -/
theorem pay1_eq_lin
    (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : v29 (ix2 (0 : Fin 1) q) = tb (ix1 q)) (hz : ∀ c : Fin 2, (z (ix2 i c)).toNat < 50) :
    k9_pay1 v0 v1 v21 v24 v29 (ix2 p q) = Cert.Spec.lin xp (Cert.Spec.embed e z) tw tb (ix2 i q) := by
  subst e2 e3
  unfold k9_pay1
  dsimp only
  rw [addf_apply, matmul64_apply, broadcastTo_1b_ab_apply]
  simp only [truncf_apply, shapeCast_self]
  rw [lin_apply]
  refine congrArg₂ (· + ·) (Finset.sum_congr rfl fun k _ => ?_) e4
  refine congrArg₂ (· * ·) ?_ rfl
  by_cases hk : k.val < 32
  · rw [concatenate_pair_apply_left (1 : Fin 2) v21 _ concatenates_S8000x32_S8000x32_S8000x64_d1 (ix2 p k) rfl (ix2 p (⟨k.val, hk⟩ : Fin 32)) (fun b => by
        match b with
        | ⟨0, _⟩ => rfl
        | ⟨1, _⟩ => rfl),
      concatenate_pair_apply_left (1 : Fin 2) xp _ Cert.ReferenceIdeal.Facts₀.concatenates_S160000x32_S160000x32_S160000x64_d1 (ix2 i k) rfl (ix2 i (⟨k.val, hk⟩ : Fin 32)) (fun b => by
        match b with
        | ⟨0, _⟩ => rfl
        | ⟨1, _⟩ => rfl)]
    exact e1 _
  · have hk' : k.val - 32 < 32 := by have := k.isLt; omega
    have h0 : (v0 (ix2 p 0)).toNat < 50 := by rw [e0]; exact hz 0
    have h1 : (v0 (ix2 p 1)).toNat < 50 := by rw [e0]; exact hz 1
    rw [concatenate_pair_apply_right (t := S8000x64) (s₁ := S8000x32) (s₂ := S8000x32) (1 : Fin 2) v21 _ concatenates_S8000x32_S8000x32_S8000x64_d1 (ix2 p k) rfl rfl (ix2 p (⟨k.val - 32, hk'⟩ : Fin 32)) (fun b hb => by
        match b, hb with
        | ⟨0, _⟩, _ => rfl
        | ⟨1, _⟩, hb => exact absurd rfl hb) (by show (k.val - 32) + 32 = k.val; omega),
      concatenate_pair_apply_right (t := Cert.ReferenceIdeal.S160000x64) (s₁ := Cert.ReferenceIdeal.S160000x32) (s₂ := Cert.ReferenceIdeal.S160000x32) (1 : Fin 2) xp _ Cert.ReferenceIdeal.Facts₀.concatenates_S160000x32_S160000x32_S160000x64_d1 (ix2 i k) rfl rfl (ix2 i (⟨k.val - 32, hk'⟩ : Fin 32)) (fun b hb => by
        match b, hb with
        | ⟨0, _⟩, _ => rfl
        | ⟨1, _⟩, hb => exact absurd rfl hb) (by show (k.val - 32) + 32 = k.val; omega),
      zl_apply v0 v1 p _ h0 h1, embed_apply v1 z i _ (hz 0) (hz 1)]
    refine congrArg₂ (· + ·) (congrArg (fun r => v1 (ix2 r _)) (Fin.ext ?_)) (congrArg (fun r => v1 (ix2 r _)) (Fin.ext ?_))
    · show (v0 (ix2 p 0)).toNat = (z (ix2 i 0)).toNat
      rw [e0]
    · show (v0 (ix2 p 1)).toNat = (z (ix2 i 1)).toNat
      rw [e0]

/-- The projected payload at (p, q): row p of the linear payload against column q of the projection. -/
theorem pay2_apply (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32) (p : Fin 8000) (q : Fin 32) :
    k9_pay2 v0 v1 v21 v24 v29 v34 (ix2 p q) = ∑ k : Fin 32, k9_pay1 v0 v1 v21 v24 v29 (ix2 p k) * v34 (ix2 k q) := by
  unfold k9_pay2
  try dsimp only
  rw [matmul32_apply]
  simp only [truncf_apply, shapeCast_self]

/-- THE PROJECTED PAYLOAD IS THE PROJECTION STAGE of the linear stage, under the same reading of the block. -/
theorem pay2_eq_conv
    (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : ∀ k : Fin 32, v29 (ix2 (0 : Fin 1) k) = tb (ix1 k)) (e5 : v34 = w)
    (hz : ∀ c : Fin 2, (z (ix2 i c)).toNat < 50) :
    k9_pay2 v0 v1 v21 v24 v29 v34 (ix2 p q)
      = Cert.Spec.conv (Cert.Spec.lin xp (Cert.Spec.embed e z) tw tb) w (ix2 i q) := by
  subst e5
  rw [pay2_apply, conv_apply]
  refine Finset.sum_congr rfl fun k _ => ?_
  rw [pay1_eq_lin v0 v1 v21 v24 v29 z xp e tw tb p i k e0 e1 e2 e3 (e4 k) hz]
/-- The same at any index of the block and of the array: the two share their column, and the block's row holds the
    array's row. -/
theorem pay1_at (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (hz : ∀ j, (z j).toNat < 50) :
    k9_pay1 v0 v1 v21 v24 v29 y = Cert.Spec.lin xp (Cert.Spec.embed e z) tw tb i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay1_eq_lin v0 v1 v21 v24 v29 z xp e tw tb p i0 i1 e0 e1 e2 e3 (e4 _) (fun c => hz _)

theorem pay2_at (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (e5 : v34 = w)
    (hz : ∀ j, (z j).toNat < 50) :
    k9_pay2 v0 v1 v21 v24 v29 v34 y = Cert.Spec.conv (Cert.Spec.lin xp (Cert.Spec.embed e z) tw tb) w i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay2_eq_conv v0 v1 v21 v24 v29 v34 z xp e tw tb w p i0 i1 e0 e1 e2 e3 e4 e5 (fun c => hz _)
end Payload

/-! ## The windows' blocks at a grid point -/

section Blocks
open Cert.KernelIdeal Cert.KernelIdeal.Gen

/-- The index maps over the grid: the index block, the feature block and the two output blocks are block t of their
    arrays' rows; the table, the weight, the bias row and the projection are whole at every point. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0
    ∧ win9_7.index t (0 : Fin 2) = t.val ∧ win9_7.index t (1 : Fin 2) = 0 :=
  (by decide +kernel : ∀ t : Fin grid9.N, _)

/-- What the input windows' blocks at point t hold, against row t · 8000 + (the block's row) of the arrays: the index
    block's and the feature block's rows are the arrays' rows; the table, the weight and the projection are read whole;
    the bias row is the bias. -/
theorem reads_at (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32)
    (h4 : ∀ k : Fin 32, A4 (ix2 (0 : Fin 1) k) = tb (ix1 k)) (t : Fin cfg9.N) (r : Fin 8000) (i0 : Fin 160000)
    (hi0 : i0.val = t.val * 8000 + r.val) :
    (∀ c : Fin 2, ((cfg9.win 0).blk t).view.read (Elt Ideal) A0 (ix2 r c) = A0 (ix2 i0 c))
    ∧ (∀ k : Fin 32, ((cfg9.win 1).blk t).view.read (Elt Ideal) A1 (ix2 r k) = A1 (ix2 i0 k))
    ∧ ((cfg9.win 2).blk t).view.read (Elt Ideal) A2 = A2
    ∧ ((cfg9.win 3).blk t).view.read (Elt Ideal) A3 = A3
    ∧ (∀ k : Fin 32, ((cfg9.win 4).blk t).view.read (Elt Ideal) A4 (ix2 (0 : Fin 1) k) = tb (ix1 k))
    ∧ ((cfg9.win 5).blk t).view.read (Elt Ideal) A5 = A5 := by
  obtain ⟨f00, f01, f10, f11, f20, f21, f30, f31, f40, f41, f50, f51, f60, f61, f70, f71⟩ := idx_facts t
  refine ⟨fun c' => ?_, fun k => ?_, funext fun x => ?_, funext fun x => ?_, fun k => ?_, funext fun x => ?_⟩
  · show A0 (((cfg9.win 0).blk t).view.emb (ix2 r c')) = A0 (ix2 i0 c')
    refine congrArg A0 (funext fun a => Fin.ext ?_)
    match a with
    | ⟨0, _⟩ => show win9_0.index t (0 : Fin 2) * 8000 + 1 * r.val = i0.val; rw [f00, hi0]; omega
    | ⟨1, _⟩ => show win9_0.index t (1 : Fin 2) * 2 + 1 * c'.val = c'.val; rw [f01]; omega
  · show A1 (((cfg9.win 1).blk t).view.emb (ix2 r k)) = A1 (ix2 i0 k)
    refine congrArg A1 (funext fun a => Fin.ext ?_)
    match a with
    | ⟨0, _⟩ => show win9_1.index t (0 : Fin 2) * 8000 + 1 * r.val = i0.val; rw [f10, hi0]; omega
    | ⟨1, _⟩ => show win9_1.index t (1 : Fin 2) * 32 + 1 * k.val = k.val; rw [f11]; omega
  · show A2 (((cfg9.win 2).blk t).view.emb x) = A2 x
    refine congrArg A2 (funext fun a => Fin.ext ?_)
    match a with
    | ⟨0, _⟩ => show win9_2.index t (0 : Fin 2) * 50 + 1 * (x 0).val = (x 0).val; rw [f20]; omega
    | ⟨1, _⟩ => show win9_2.index t (1 : Fin 2) * 32 + 1 * (x 1).val = (x 1).val; rw [f21]; omega
  · show A3 (((cfg9.win 3).blk t).view.emb x) = A3 x
    refine congrArg A3 (funext fun a => Fin.ext ?_)
    match a with
    | ⟨0, _⟩ => show win9_3.index t (0 : Fin 2) * 64 + 1 * (x 0).val = (x 0).val; rw [f30]; omega
    | ⟨1, _⟩ => show win9_3.index t (1 : Fin 2) * 32 + 1 * (x 1).val = (x 1).val; rw [f31]; omega
  · show A4 (((cfg9.win 4).blk t).view.emb (ix2 (0 : Fin 1) k)) = tb (ix1 k)
    refine Eq.trans (congrArg A4 (funext fun a => Fin.ext ?_)) (h4 k)
    match a with
    | ⟨0, _⟩ => show win9_4.index t (0 : Fin 2) * 1 + 1 * 0 = 0; rw [f40]
    | ⟨1, _⟩ => show win9_4.index t (1 : Fin 2) * 32 + 1 * k.val = k.val; rw [f41]; omega
  · show A5 (((cfg9.win 5).blk t).view.emb x) = A5 x
    refine congrArg A5 (funext fun a => Fin.ext ?_)
    match a with
    | ⟨0, _⟩ => show win9_5.index t (0 : Fin 2) * 32 + 1 * (x 0).val = (x 0).val; rw [f50]; omega
    | ⟨1, _⟩ => show win9_5.index t (1 : Fin 2) * 32 + 1 * (x 1).val = (x 1).val; rw [f51]; omega

/-- THE LINEAR BLOCK: the linear payload of the windows' blocks at point t is block t of the linear stage of the arrays. -/
theorem block_lin (A0 : Vec Ideal S160000x2 .i32) (A1 : Vec Ideal S160000x32 .f32) (A2 : Vec Ideal S50x32 .f32) (A3 : Vec Ideal S64x32 .f32)
    (A4 : Vec Ideal S1x32 .f32) (tb : Vec Ideal Cert.ReferenceIdeal.S32 .f32) (hz : ∀ j, (A0 j).toNat < 50)
    (h4 : ∀ k : Fin 32, A4 (ix2 (0 : Fin 1) k) = tb (ix1 k)) (t : Fin cfg9.N) :
    k9_pay1 (((cfg9.win 0).blk t).view.read (Elt Ideal) A0) (((cfg9.win 2).blk t).view.read (Elt Ideal) A2)
        (((cfg9.win 1).blk t).view.read (Elt Ideal) A1) (((cfg9.win 3).blk t).view.read (Elt Ideal) A3)
        (((cfg9.win 4).blk t).view.read (Elt Ideal) A4)
      = ((cfg9.win 6).blk t).view.read (Elt Ideal) (Cert.Spec.lin A1 (Cert.Spec.embed A2 A0) A3 tb) := by
  funext y
  show k9_pay1 (F := Ideal) _ _ _ _ _ y = Cert.Spec.lin A1 (Cert.Spec.embed A2 A0) A3 tb (((cfg9.win 6).blk t).view.emb y)
  have hi0 : ((((cfg9.win 6).blk t).view.emb y) 0).val = t.val * 8000 + (y 0).val := by
    show win9_6.index t (0 : Fin 2) * 8000 + 1 * (y 0).val = _
    rw [(idx_facts t).2.2.2.2.2.2.2.2.2.2.2.2.1]; omega
  have hi1 : ((((cfg9.win 6).blk t).view.emb y) 1).val = (y 1).val := by
    show win9_6.index t (1 : Fin 2) * 32 + 1 * (y 1).val = _
    rw [(idx_facts t).2.2.2.2.2.2.2.2.2.2.2.2.2.1]; omega
  obtain ⟨e0, e1, e2, e3, e4, -⟩ := reads_at A0 A1 A2 A3 A4 (fun _ => 0) tb h4 t (y 0) ((((cfg9.win 6).blk t).view.emb y) 0) hi0
  exact pay1_at _ _ _ _ _ A0 A1 A2 A3 tb y _ hi1 e0 e1 e2 e3 e4 hz

/-- THE PROJECTED BLOCK: the projected payload of the windows' blocks at point t is block t of the projection stage. -/
theorem block_conv (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32) (hz : ∀ j, (A0 j).toNat < 50)
    (h4 : ∀ k : Fin 32, A4 (ix2 (0 : Fin 1) k) = tb (ix1 k)) (t : Fin cfg9.N) :
    k9_pay2 (((cfg9.win 0).blk t).view.read (Elt Ideal) A0) (((cfg9.win 2).blk t).view.read (Elt Ideal) A2)
        (((cfg9.win 1).blk t).view.read (Elt Ideal) A1) (((cfg9.win 3).blk t).view.read (Elt Ideal) A3)
        (((cfg9.win 4).blk t).view.read (Elt Ideal) A4) (((cfg9.win 5).blk t).view.read (Elt Ideal) A5)
      = ((cfg9.win 7).blk t).view.read (Elt Ideal) (Cert.Spec.conv (Cert.Spec.lin A1 (Cert.Spec.embed A2 A0) A3 tb) A5) := by
  funext y
  show k9_pay2 (F := Ideal) _ _ _ _ _ _ y
    = Cert.Spec.conv (Cert.Spec.lin A1 (Cert.Spec.embed A2 A0) A3 tb) A5 (((cfg9.win 7).blk t).view.emb y)
  have hi0 : ((((cfg9.win 7).blk t).view.emb y) 0).val = t.val * 8000 + (y 0).val := by
    show win9_7.index t (0 : Fin 2) * 8000 + 1 * (y 0).val = _
    rw [(idx_facts t).2.2.2.2.2.2.2.2.2.2.2.2.2.2.1]; omega
  have hi1 : ((((cfg9.win 7).blk t).view.emb y) 1).val = (y 1).val := by
    show win9_7.index t (1 : Fin 2) * 32 + 1 * (y 1).val = _
    rw [(idx_facts t).2.2.2.2.2.2.2.2.2.2.2.2.2.2.2]; omega
  obtain ⟨e0, e1, e2, e3, e4, e5⟩ := reads_at A0 A1 A2 A3 A4 A5 tb h4 t (y 0) ((((cfg9.win 7).blk t).view.emb y) 0) hi0
  exact pay2_at _ _ _ _ _ _ A0 A1 A2 A3 tb A5 y _ hi1 e0 e1 e2 e3 e4 e5 hz

/-! ## The output blocks tile their arrays -/

/-- An index of an output array is in point t's block iff each coordinate is in the block's range on its axis. -/
theorem mem_blk6 (t : Fin cfg9.N) (i : S160000x32.Idx) :
    i ∈ ((cfg9.win 6).blk t).view.set ↔ ∀ a : Fin 2, win9_6.index t a * S8000x32.size a ≤ (i a).val ∧ (i a).val < win9_6.index t a * S8000x32.size a + S8000x32.size a := by
  show i ∈ ((View.whole win9_6.arr.view.ref).slice (win9_6.rect t)).set ↔ _
  rw [View.set_slice_whole, Rect.mem_set_unit]
  exact Iff.rfl
theorem mem_blk7 (t : Fin cfg9.N) (i : S160000x32.Idx) :
    i ∈ ((cfg9.win 7).blk t).view.set ↔ ∀ a : Fin 2, win9_7.index t a * S8000x32.size a ≤ (i a).val ∧ (i a).val < win9_7.index t a * S8000x32.size a + S8000x32.size a := by
  show i ∈ ((View.whole win9_7.arr.view.ref).slice (win9_7.rect t)).set ↔ _
  rw [View.set_slice_whole, Rect.mem_set_unit]
  exact Iff.rfl

/-- Row r of an output array is in the block of point r / 8000. -/
theorem cover6 (i : S160000x32.Idx) : ∃ t : Fin cfg9.N, (cfg9.win 6).flush t = true ∧ i ∈ ((cfg9.win 6).blk t).view.set := by
  have hi0 : (i 0).val < 160000 := (i 0).isLt
  have hi1 : (i 1).val < 32 := (i 1).isLt
  obtain ⟨t, ht⟩ : ∃ t : Fin cfg9.N, t.val = (i 0).val / 8000 := ⟨⟨(i 0).val / 8000, by rw [show cfg9.N = 20 from (by decide : grid9.N = 20)]; omega⟩, rfl⟩
  obtain ⟨f00, f01, f10, f11, f20, f21, f30, f31, f40, f41, f50, f51, f60, f61, f70, f71⟩ := idx_facts t
  refine ⟨t, flush9_6 t, ?_⟩
  rw [mem_blk6]
  intro a
  match a with
  | ⟨0, _⟩ => show win9_6.index t (0 : Fin 2) * 8000 ≤ (i 0).val ∧ (i 0).val < win9_6.index t (0 : Fin 2) * 8000 + 8000; rw [f60, ht]; omega
  | ⟨1, _⟩ => show win9_6.index t (1 : Fin 2) * 32 ≤ (i 1).val ∧ (i 1).val < win9_6.index t (1 : Fin 2) * 32 + 32; rw [f61]; omega
theorem cover7 (i : S160000x32.Idx) : ∃ t : Fin cfg9.N, (cfg9.win 7).flush t = true ∧ i ∈ ((cfg9.win 7).blk t).view.set := by
  have hi0 : (i 0).val < 160000 := (i 0).isLt
  have hi1 : (i 1).val < 32 := (i 1).isLt
  obtain ⟨t, ht⟩ : ∃ t : Fin cfg9.N, t.val = (i 0).val / 8000 := ⟨⟨(i 0).val / 8000, by rw [show cfg9.N = 20 from (by decide : grid9.N = 20)]; omega⟩, rfl⟩
  obtain ⟨f00, f01, f10, f11, f20, f21, f30, f31, f40, f41, f50, f51, f60, f61, f70, f71⟩ := idx_facts t
  refine ⟨t, flush9_7 t, ?_⟩
  rw [mem_blk7]
  intro a
  match a with
  | ⟨0, _⟩ => show win9_7.index t (0 : Fin 2) * 8000 ≤ (i 0).val ∧ (i 0).val < win9_7.index t (0 : Fin 2) * 8000 + 8000; rw [f70, ht]; omega
  | ⟨1, _⟩ => show win9_7.index t (1 : Fin 2) * 32 ≤ (i 1).val ∧ (i 1).val < win9_7.index t (1 : Fin 2) * 32 + 32; rw [f71]; omega
end Blocks
end Cert.KernelValue.EmbedLN9

end
-- ==== Proof.EmbedLN9.lean ====
/-
  One layer's embedding + linear + projection region: what its two output arrays hold after the grid's 20 points.
  At each point the body's two stores leave, in the two staging buffers, the linear payload and the projected payload of
  the windows' blocks; these are block t of the linear stage and of the projection stage of the arrays the region finds
  in its input windows; the 20 blocks of 8000 rows tile the 160000 rows, so each output array ends holding its stage
  function of the inputs.
-/
import proofs.«425927_j69028714381396_2_alg».proof.Proof.FrameKIW
import proofs.«425927_j69028714381396_2_alg».proof.Proof.EmbedLNPay9
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

namespace EmbedLN9

theorem hz2 : (![0, 0] : Fin 2 → Nat) = fun _ => 0 := funext fun a => by fin_cases a <;> rfl

variable (V : (c : Dev nD) → (b : Ref sig .tc) → Buf (Elt Ideal) ((c : Thread nD τ).loc b))

/-- The arrays the region finds in its six input windows, at their literal types. -/
abbrev arr0 (c : Dev nD) : Vec Ideal S160000x2 .i32 := V c (Pipeline.arrRef spec9 0)
abbrev arr1 (c : Dev nD) : Vec Ideal S160000x32 .f32 := V c (Pipeline.arrRef spec9 1)
abbrev arr2 (c : Dev nD) : Vec Ideal S50x32 .f32 := V c (Pipeline.arrRef spec9 2)
abbrev arr3 (c : Dev nD) : Vec Ideal S64x32 .f32 := V c (Pipeline.arrRef spec9 3)
abbrev arr4 (c : Dev nD) : Vec Ideal S1x32 .f32 := V c (Pipeline.arrRef spec9 4)
abbrev arr5 (c : Dev nD) : Vec Ideal S32x32 .f32 := V c (Pipeline.arrRef spec9 5)

/-- What point t writes back to the linear output: block t of the linear stage of the arrays the region finds. -/
theorem flushed6_eq (c : Dev nD) (tb : Vec Ideal S32 .f32) (hz : ∀ j, (arr0 V c j).toNat < 50)
    (h4 : ∀ q : Fin 32, arr4 V c (ix2 (0 : Fin 1) q) = tb (ix1 q)) (t : Fin cfg9.N) :
    (dat9 (F := Ideal) V c).flushed 6 t = ((cfg9.win 6).blk t).view.read (Elt Ideal)
      (Cert.Spec.lin (arr1 V c) (Cert.Spec.embed (arr2 V c) (arr0 V c)) (arr3 V c) tb) := by
  show (cfg9.win 6).cut (grid9.coords t) ((dat9 V c).after 6 t) = _
  rw [after9_6]
  unfold out9_6
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2]
  exact block_lin (arr0 V c) (arr1 V c) (arr2 V c) (arr3 V c) (arr4 V c) tb hz h4 t

/-- What point t writes back to the projected output: block t of the projection stage. -/
theorem flushed7_eq (c : Dev nD) (tb : Vec Ideal S32 .f32) (hz : ∀ j, (arr0 V c j).toNat < 50)
    (h4 : ∀ q : Fin 32, arr4 V c (ix2 (0 : Fin 1) q) = tb (ix1 q)) (t : Fin cfg9.N) :
    (dat9 (F := Ideal) V c).flushed 7 t = ((cfg9.win 7).blk t).view.read (Elt Ideal)
      (Cert.Spec.conv (Cert.Spec.lin (arr1 V c) (Cert.Spec.embed (arr2 V c) (arr0 V c)) (arr3 V c) tb) (arr5 V c)) := by
  show (cfg9.win 7).cut (grid9.coords t) ((dat9 V c).after 7 t) = _
  rw [after9_7]
  unfold out9_7
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2, View.ld_unit_zero (S := S32x32) hz2]
  exact block_conv (arr0 V c) (arr1 V c) (arr2 V c) (arr3 V c) (arr4 V c) (arr5 V c) tb hz h4 t

end EmbedLN9

/-- THE LINEAR OUTPUT after the region: the linear stage of the previous features and the embedding of the indices. -/
theorem embedN9_xlin (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (hz : ∀ i, (z i).toNat < 50)
    (h0 : V c (Pipeline.arrRef spec9 0) = z) (h1 : V c (Pipeline.arrRef spec9 1) = xp) (h2 : V c (Pipeline.arrRef spec9 2) = e)
    (h3 : V c (Pipeline.arrRef spec9 3) = tw)
    (h4 : ∀ q : Fin 32, (V c (Pipeline.arrRef spec9 4) : Vec Ideal S1x32 .f32) (ix2 (0 : Fin 1) q) = tb (ix1 q)) :
    (dat9 (F := Ideal) V c).arrAt 6 cfg9.N = Cert.Spec.lin xp (Cert.Spec.embed e z) tw tb := by
  subst h0 h1 h2 h3
  exact (dat9 (F := Ideal) V c).arrAt_eq_of_cover 6 _ (fun t _ => EmbedLN9.flushed6_eq V c tb hz h4 t) EmbedLN9.cover6

/-- THE PROJECTED OUTPUT after the region: the projection stage of the linear output. -/
theorem embedN9_m (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (w : Vec Ideal S32x32 .f32) (hz : ∀ i, (z i).toNat < 50)
    (h0 : V c (Pipeline.arrRef spec9 0) = z) (h1 : V c (Pipeline.arrRef spec9 1) = xp) (h2 : V c (Pipeline.arrRef spec9 2) = e)
    (h3 : V c (Pipeline.arrRef spec9 3) = tw)
    (h4 : ∀ q : Fin 32, (V c (Pipeline.arrRef spec9 4) : Vec Ideal S1x32 .f32) (ix2 (0 : Fin 1) q) = tb (ix1 q))
    (h5 : V c (Pipeline.arrRef spec9 5) = w) :
    (dat9 (F := Ideal) V c).arrAt 7 cfg9.N = Cert.Spec.conv (Cert.Spec.lin xp (Cert.Spec.embed e z) tw tb) w := by
  subst h0 h1 h2 h3 h5
  exact (dat9 (F := Ideal) V c).arrAt_eq_of_cover 7 _ (fun t _ => EmbedLN9.flushed7_eq V c tb hz h4 t) EmbedLN9.cover7

end Cert.KernelValue

end
-- ==== Proof.GruPay10.lean ====
/-
  The gated-update kernel's body in region 10 (the same operations on the same shapes as in region 1), read at one
  entry, and its meeting with the reference's gated update. The lemmas that do not name a region (a matrix product at
  an entry, the column slices, the bias row, the reference at an entry) are imported.
-/
import proofs.«425927_j69028714381396_2_alg».proof.Proof.GruPay1

noncomputable section

namespace Cert.KernelValue.Gru

open Idealize.ShloMosaic Idealize.ShloMosaic.ValueIdx Cert.KernelIdeal Cert.KernelIdeal.Gen
open scoped BigOperators

/-! ## Region 10: the body's value at an entry, and its meeting with the reference -/

/-- The kernel's matrix product into a zero accumulator, read at (p, k): the row times the column. -/
theorem mm10_apply {φ₁ φ₂ : FTy} (A : FVec Ideal S8000x32 φ₁) (B : FVec Ideal S32x96 φ₂) (p : Fin 8000) (k : Fin 96) :
    matmul dot_S8000x32_S32x96_S8000x96_1_0_0_1_n_n none A B (constant (F := Ideal) S8000x96 .f32 0x00000000#32) (ix2 p k)
      = ∑ j : Fin 32, A (ix2 p j) * B (ix2 j k) :=
  (Ideal.matmul_constant_zero_apply _ none A B (ix2 p k)).trans
    (dot2_sum dot_S8000x32_S32x96_S8000x96_1_0_0_1_n_n rfl rfl rfl rfl rfl rfl A B p k)

/-- The body's value at entry (p, q) of its block is the gated update of row p of the two row blocks. -/
theorem pay10_apply (x0 x1 : Vec Ideal S8000x32 .f32) (w2 w3 : Vec Ideal S32x96 .f32) (b4 b5 : Vec Ideal S1x96 .f32)
    (p : Fin 8000) (q : Fin 32) :
    k10_pay1 (F := Ideal) x0 x1 w2 w3 b4 b5 (ix2 p q)
      = cell (fun j => x0 (ix2 p j)) (fun j => x1 (ix2 p j)) w2 w3 (fun k => b4 (ix2 0 k)) (fun k => b5 (ix2 0 k)) q := by
  unfold k10_pay1
  simp only [shapeCast_self, addf_apply, mulf_apply, subf_apply, logistic_apply, tanh_apply, broadcast_apply,
    slice0, slice1, slice2, mm10_apply, row_bcast, truncf_apply]
  rw [show FloatOps.ofBits (F := Ideal) .f32 0x3F800000#32 = 1 from Ideal.ofBits_one_f32]
  rfl

/-- Entry y of the body's value, on row blocks that are rows t·8000 onwards of the two arrays, the whole weights and the
    bias rows, is entry i of the reference's gated update, i being y moved down t blocks. -/
theorem pay10_eq_gru [Cert.ReferenceIdeal.Facts₀]
    (x0 x1 : Vec Ideal S8000x32 .f32) (w2 w3 : Vec Ideal S32x96 .f32) (b4 b5 : Vec Ideal S1x96 .f32)
    (x ag : Vec Ideal S160000x32 .f32) (wi wh : Vec Ideal S32x96 .f32) (bi bh : Vec Ideal S96 .f32)
    (tv : Nat) (y : S8000x32.Idx) (i : S160000x32.Idx)
    (hi0 : (i 0).val = tv * 8000 + (y 0).val) (hi1 : (i 1).val = (y 1).val)
    (h0 : ∀ (y' : S8000x32.Idx) (i' : S160000x32.Idx), (i' 0).val = tv * 8000 + (y' 0).val → (i' 1).val = (y' 1).val → x0 y' = x i')
    (h1 : ∀ (y' : S8000x32.Idx) (i' : S160000x32.Idx), (i' 0).val = tv * 8000 + (y' 0).val → (i' 1).val = (y' 1).val → x1 y' = ag i')
    (h2 : w2 = wi) (h3 : w3 = wh)
    (h4 : ∀ k : Fin 96, b4 (ix2 0 k) = bi (ix1 k)) (h5 : ∀ k : Fin 96, b5 (ix2 0 k) = bh (ix1 k)) :
    k10_pay1 (F := Ideal) x0 x1 w2 w3 b4 b5 y = Cert.Spec.gru (F := Ideal) x ag wi wh bi bh i := by
  obtain ⟨p, q, rfl⟩ : ∃ (p : Fin 8000) (q : Fin 32), y = ix2 p q := ⟨y 0, y 1, eq_ix2 y⟩
  obtain ⟨r, s, rfl⟩ : ∃ (r : Fin 160000) (s : Fin 32), i = ix2 r s := ⟨i 0, i 1, eq_ix2 i⟩
  obtain rfl : s = q := Fin.ext hi1
  rw [pay10_apply, gru_apply]
  subst h2 h3
  have e0 : (fun j => x0 (ix2 p j)) = fun j => x (ix2 r j) := funext fun j => h0 _ _ hi0 rfl
  have e1 : (fun j => x1 (ix2 p j)) = fun j => ag (ix2 r j) := funext fun j => h1 _ _ hi0 rfl
  have e4 : (fun k => b4 (ix2 0 k)) = fun k => bi (ix1 k) := funext h4
  have e5 : (fun k => b5 (ix2 0 k)) = fun k => bh (ix1 k) := funext h5
  rw [e0, e1, e4, e5]

end Cert.KernelValue.Gru

end
-- ==== Proof.Gru10.lean ====
/-
  The array the gated-update region leaves in its output window is the reference's gated update of the arrays it finds
  in its input windows. The grid has 20 points; at point t the two row-blocked inputs and the output are at rows
  8000 t … 8000 t + 7999, the two weights and the two bias rows are whole at every point. So what point t writes back is
  block t of the one whole-array function (the body's value at entry (p, q) of the block is the reference's at
  (8000 t + p, q)), and the 20 blocks cover the 160000 rows: row r is in block r / 8000.
-/
import proofs.«425927_j69028714381396_2_alg».proof.Proof.FrameKIW
import proofs.«425927_j69028714381396_2_alg».proof.Proof.Gen.ReferenceIdeal
import proofs.«425927_j69028714381396_2_alg».proof.Proof.GruPay10
import Idealize.ShloMosaic.Lib.Pipeline.Value

set_option maxRecDepth 16384

noncomputable section

namespace Cert.KernelValue.Gru10

open Idealize.ShloMosaic Idealize.ShloMosaic.TcCoe Idealize.ShloMosaic.ValueIdx Idealize.SL.Sem
open Idealize.ShloMosaic.Pipeline (Dat)
open Cert.KernelIdeal Cert.KernelIdeal.Gen Cert.KernelValue.Gru

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the others at block (0, 0). -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

/-! ## The arrays the region finds and the blocks of them at a point, at their literal types -/

abbrev arrX (c : Dev nD) : Vec Ideal S160000x32 .f32 := V c (Pipeline.arrRef spec10 0)
abbrev arrA (c : Dev nD) : Vec Ideal S160000x32 .f32 := V c (Pipeline.arrRef spec10 1)
abbrev arrWi (c : Dev nD) : Vec Ideal S32x96 .f32 := V c (Pipeline.arrRef spec10 2)
abbrev arrWh (c : Dev nD) : Vec Ideal S32x96 .f32 := V c (Pipeline.arrRef spec10 3)
abbrev arrBi (c : Dev nD) : Vec Ideal S1x96 .f32 := V c (Pipeline.arrRef spec10 4)
abbrev arrBh (c : Dev nD) : Vec Ideal S1x96 .f32 := V c (Pipeline.arrRef spec10 5)
abbrev blkX (c : Dev nD) (t : Fin cfg10.N) : Vec Ideal S8000x32 .f32 := iblk10 V c 0 t
abbrev blkA (c : Dev nD) (t : Fin cfg10.N) : Vec Ideal S8000x32 .f32 := iblk10 V c 1 t
abbrev blkWi (c : Dev nD) (t : Fin cfg10.N) : Vec Ideal S32x96 .f32 := iblk10 V c 2 t
abbrev blkWh (c : Dev nD) (t : Fin cfg10.N) : Vec Ideal S32x96 .f32 := iblk10 V c 3 t
abbrev blkBi (c : Dev nD) (t : Fin cfg10.N) : Vec Ideal S1x96 .f32 := iblk10 V c 4 t
abbrev blkBh (c : Dev nD) (t : Fin cfg10.N) : Vec Ideal S1x96 .f32 := iblk10 V c 5 t

/-- Entry y of the first input's block at point t is entry (8000 t + y₀, y₁) of its array. -/
theorem blkX_apply (c : Dev nD) (t : Fin cfg10.N) (y : S8000x32.Idx) (i : S160000x32.Idx)
    (hi0 : (i 0).val = t.val * 8000 + (y 0).val) (hi1 : (i 1).val = (y 1).val) : blkX V c t y = arrX V c i := by
  obtain ⟨e0, e1, -⟩ := idx_facts t
  show V c (Pipeline.arrRef spec10 0) (((cfg10.win 0).blk t).view.emb y) = V c (Pipeline.arrRef spec10 0) i
  refine congrArg (V c (Pipeline.arrRef spec10 0)) (funext fun a => Fin.ext ?_)
  match a with
  | ⟨0, _⟩ => show win10_0.index t (0 : Fin 2) * 8000 + 1 * (y 0).val = (i 0).val; omega
  | ⟨1, _⟩ => show win10_0.index t (1 : Fin 2) * 32 + 1 * (y 1).val = (i 1).val; omega

/-- The same for the second input. -/
theorem blkA_apply (c : Dev nD) (t : Fin cfg10.N) (y : S8000x32.Idx) (i : S160000x32.Idx)
    (hi0 : (i 0).val = t.val * 8000 + (y 0).val) (hi1 : (i 1).val = (y 1).val) : blkA V c t y = arrA V c i := by
  obtain ⟨-, -, e0, e1, -⟩ := idx_facts t
  show V c (Pipeline.arrRef spec10 1) (((cfg10.win 1).blk t).view.emb y) = V c (Pipeline.arrRef spec10 1) i
  refine congrArg (V c (Pipeline.arrRef spec10 1)) (funext fun a => Fin.ext ?_)
  match a with
  | ⟨0, _⟩ => show win10_1.index t (0 : Fin 2) * 8000 + 1 * (y 0).val = (i 0).val; omega
  | ⟨1, _⟩ => show win10_1.index t (1 : Fin 2) * 32 + 1 * (y 1).val = (i 1).val; omega

/-- A whole window's block is its array, at every point. -/
theorem blkWi_eq (c : Dev nD) (t : Fin cfg10.N) : blkWi V c t = arrWi V c := by
  obtain ⟨-, -, -, -, e0, e1, -⟩ := idx_facts t
  funext y
  show V c (Pipeline.arrRef spec10 2) (((cfg10.win 2).blk t).view.emb y) = V c (Pipeline.arrRef spec10 2) y
  refine congrArg (V c (Pipeline.arrRef spec10 2)) (funext fun a => Fin.ext ?_)
  match a with
  | ⟨0, _⟩ => show win10_2.index t (0 : Fin 2) * 32 + 1 * (y 0).val = (y 0).val; omega
  | ⟨1, _⟩ => show win10_2.index t (1 : Fin 2) * 96 + 1 * (y 1).val = (y 1).val; omega

theorem blkWh_eq (c : Dev nD) (t : Fin cfg10.N) : blkWh V c t = arrWh V c := by
  obtain ⟨-, -, -, -, -, -, e0, e1, -⟩ := idx_facts t
  funext y
  show V c (Pipeline.arrRef spec10 3) (((cfg10.win 3).blk t).view.emb y) = V c (Pipeline.arrRef spec10 3) y
  refine congrArg (V c (Pipeline.arrRef spec10 3)) (funext fun a => Fin.ext ?_)
  match a with
  | ⟨0, _⟩ => show win10_3.index t (0 : Fin 2) * 32 + 1 * (y 0).val = (y 0).val; omega
  | ⟨1, _⟩ => show win10_3.index t (1 : Fin 2) * 96 + 1 * (y 1).val = (y 1).val; omega

theorem blkBi_eq (c : Dev nD) (t : Fin cfg10.N) : blkBi V c t = arrBi V c := by
  obtain ⟨-, -, -, -, -, -, -, -, e0, e1, -⟩ := idx_facts t
  funext y
  show V c (Pipeline.arrRef spec10 4) (((cfg10.win 4).blk t).view.emb y) = V c (Pipeline.arrRef spec10 4) y
  refine congrArg (V c (Pipeline.arrRef spec10 4)) (funext fun a => Fin.ext ?_)
  match a with
  | ⟨0, _⟩ => show win10_4.index t (0 : Fin 2) * 1 + 1 * (y 0).val = (y 0).val; omega
  | ⟨1, _⟩ => show win10_4.index t (1 : Fin 2) * 96 + 1 * (y 1).val = (y 1).val; omega

theorem blkBh_eq (c : Dev nD) (t : Fin cfg10.N) : blkBh V c t = arrBh V c := by
  obtain ⟨-, -, -, -, -, -, -, -, -, -, e0, e1, -⟩ := idx_facts t
  funext y
  show V c (Pipeline.arrRef spec10 5) (((cfg10.win 5).blk t).view.emb y) = V c (Pipeline.arrRef spec10 5) y
  refine congrArg (V c (Pipeline.arrRef spec10 5)) (funext fun a => Fin.ext ?_)
  match a with
  | ⟨0, _⟩ => show win10_5.index t (0 : Fin 2) * 1 + 1 * (y 0).val = (y 0).val; omega
  | ⟨1, _⟩ => show win10_5.index t (1 : Fin 2) * 96 + 1 * (y 1).val = (y 1).val; omega

/-! ## What a point writes back, the cover, the array -/

/-- What point t writes back is block t of the reference's gated update of the arrays the region finds. -/
theorem flushed_eq (c : Dev nD) (x ag : Vec Ideal S160000x32 .f32) (wi wh : Vec Ideal S32x96 .f32) (bi bh : Vec Ideal S96 .f32)
    (h0 : arrX V c = x) (h1 : arrA V c = ag) (h2 : arrWi V c = wi) (h3 : arrWh V c = wh)
    (h4 : ∀ q : Fin 96, arrBi V c (ix2 0 q) = bi (ix1 q)) (h5 : ∀ q : Fin 96, arrBh V c (ix2 0 q) = bh (ix1 q))
    (t : Fin cfg10.N) :
    (dat10 (F := Ideal) V c).flushed 6 t
      = ((cfg10.win 6).blk t).view.read (Elt Ideal) (Cert.Spec.gru (F := Ideal) x ag wi wh bi bh) := by
  show (cfg10.win 6).cut (grid10.coords t) ((dat10 (F := Ideal) V c).after 6 t) = _
  rw [after10_6]
  unfold out10_6
  rw [View.canon_unit_zero hz]
  simp only [View.ld_unit_zero (S := S8000x32) hz, View.ld_unit_zero (S := S32x96) hz, View.ld_unit_zero (S := S1x96) hz]
  obtain ⟨-, -, -, -, -, -, -, -, -, -, -, -, e0, e1⟩ := idx_facts t
  funext j
  show k10_pay1 (F := Ideal) (blkX V c t) (blkA V c t) (blkWi V c t) (blkWh V c t) (blkBi V c t) (blkBh V c t)
      ((cfg10.win 6).xinj (grid10.coords t) j)
    = Cert.Spec.gru (F := Ideal) x ag wi wh bi bh (((cfg10.win 6).blk t).view.emb j)
  refine pay10_eq_gru (blkX V c t) (blkA V c t) (blkWi V c t) (blkWh V c t) (blkBi V c t) (blkBh V c t) x ag wi wh bi bh t.val
    ((cfg10.win 6).xinj (grid10.coords t) j) (((cfg10.win 6).blk t).view.emb j) ?_ ?_ ?_ ?_ ?_ ?_ ?_ ?_
  · show win10_6.index t (0 : Fin 2) * 8000 + 1 * (j 0).val = t.val * 8000 + (j 0).val; omega
  · show win10_6.index t (1 : Fin 2) * 32 + 1 * (j 1).val = (j 1).val; omega
  · intro y' i' hy0 hy1; rw [← h0]; exact blkX_apply V c t y' i' hy0 hy1
  · intro y' i' hy0 hy1; rw [← h1]; exact blkA_apply V c t y' i' hy0 hy1
  · rw [← h2]; exact blkWi_eq V c t
  · rw [← h3]; exact blkWh_eq V c t
  · intro k; rw [← h4 k]; exact congrFun (blkBi_eq V c t) (ix2 0 k)
  · intro k; rw [← h5 k]; exact congrFun (blkBh_eq V c t) (ix2 0 k)

/-- An index of the output array is in point t's block iff each coordinate is in the block's range on its axis. -/
theorem mem_blk (t : Fin cfg10.N) (i : S160000x32.Idx) :
    i ∈ ((cfg10.win 6).blk t).view.set
      ↔ ∀ a : Fin 2, win10_6.index t a * S8000x32.size a ≤ (i a).val ∧ (i a).val < win10_6.index t a * S8000x32.size a + S8000x32.size a := by
  show i ∈ ((View.whole (Pipeline.arrRef spec10 6)).slice (win10_6.rect t)).set ↔ _
  rw [View.set_slice_whole, Rect.mem_set_unit]
  exact Iff.rfl

/-- Every index of the output array is in some point's block: row r in block r / 8000. -/
theorem cover (i : S160000x32.Idx) :
    ∃ t : Fin cfg10.N, (cfg10.win 6).flush t = true ∧ i ∈ ((cfg10.win 6).blk t).view.set := by
  have hi0 : (i 0).val < 160000 := (i 0).isLt
  have hi1 : (i 1).val < 32 := (i 1).isLt
  obtain ⟨t, ht⟩ : ∃ t : Fin cfg10.N, t.val = (i 0).val / 8000 :=
    ⟨⟨(i 0).val / 8000, by rw [show cfg10.N = 20 from N_10]; omega⟩, rfl⟩
  obtain ⟨-, -, -, -, -, -, -, -, -, -, -, -, e0, e1⟩ := idx_facts t
  refine ⟨t, flush10_6 t, ?_⟩
  rw [mem_blk]
  intro a
  match a with
  | ⟨0, _⟩ =>
    show win10_6.index t (0 : Fin 2) * 8000 ≤ (i 0).val ∧ (i 0).val < win10_6.index t (0 : Fin 2) * 8000 + 8000
    omega
  | ⟨1, _⟩ =>
    show win10_6.index t (1 : Fin 2) * 32 ≤ (i 1).val ∧ (i 1).val < win10_6.index t (1 : Fin 2) * 32 + 32
    omega

end Cert.KernelValue.Gru10

namespace Cert.KernelValue

open Idealize.ShloMosaic Idealize.ShloMosaic.TcCoe Idealize.ShloMosaic.ValueIdx Idealize.SL.Sem
open Cert.KernelIdeal Cert.KernelIdeal.Gen

/-- The output array after the region's run is the reference's gated update of the arrays the region finds in its
    input windows (the two biases found as one-row matrices). -/
theorem gru10_value (V : (c : Dev nD) → (b : Ref sig .tc) → Buf (Elt Ideal) ((c : Thread nD τ).loc b)) (c : Dev nD)
    (x ag : Vec Ideal S160000x32 .f32) (wi wh : Vec Ideal S32x96 .f32) (bi bh : Vec Ideal S96 .f32)
    (h0 : V c (Pipeline.arrRef spec10 0) = x) (h1 : V c (Pipeline.arrRef spec10 1) = ag)
    (h2 : V c (Pipeline.arrRef spec10 2) = wi) (h3 : V c (Pipeline.arrRef spec10 3) = wh)
    (h4 : ∀ q : Fin 96, V c (Pipeline.arrRef spec10 4) (ValueIdx.ix2 0 q) = bi (ValueIdx.ix1 q))
    (h5 : ∀ q : Fin 96, V c (Pipeline.arrRef spec10 5) (ValueIdx.ix2 0 q) = bh (ValueIdx.ix1 q)) :
    (dat10 (F := Ideal) V c).arrAt 6 cfg10.N = Cert.Spec.gru x ag wi wh bi bh :=
  (dat10 (F := Ideal) V c).arrAt_eq_of_cover 6 (Cert.Spec.gru (F := Ideal) x ag wi wh bi bh)
    (fun t _ => Gru10.flushed_eq V c x ag wi wh bi bh h0 h1 h2 h3 h4 h5 t) (fun i => Gru10.cover i)

end Cert.KernelValue

end
-- ==== Proof.BnPay11.lean ====
/-
  Batch normalisation with an affine map, one block of rows at a time, for the region numbered 11: the same block
  arithmetic as the first such region's, read at an index, and its meeting with the reference's normalisation.
-/
import proofs.«425927_j69028714381396_2_alg».proof.Proof.BnPay2

noncomputable section

namespace Cert.KernelValue.Bn

open Idealize.ShloMosaic Idealize.ShloMosaic.ValueIdx

section Block

open Cert.KernelIdeal Cert.KernelIdeal.Gen

/-- Entry (p, q) of the block's result: the block's entry normalised by the four rows' entries at column q
    (a [1,32] row broadcast down 8000 rows reads its column). -/
theorem k11_pay1_apply (x0 : Vec Ideal S8000x32 .f32) (mu va ga be : Vec Ideal S1x32 .f32) (p : Fin 8000) (q : Fin 32) :
    k11_pay1 (F := Ideal) x0 mu va ga be (ix2 p q)
      = bnAt (x0 (ix2 p q)) (mu (ix2 0 q)) (va (ix2 0 q)) (ga (ix2 0 q)) (be (ix2 0 q)) := by
  unfold k11_pay1
  simp only [shapeCast_self]
  rw [addf_apply, mulf_apply, mulf_apply, subf_apply, broadcastTo_1b_ab_apply, broadcastTo_1b_ab_apply,
    broadcastTo_1b_ab_apply, broadcastTo_1b_ab_apply]
  rfl

end Block
section Meeting

open Cert.KernelIdeal Cert.KernelIdeal.Gen
variable [Cert.ReferenceIdeal.Facts₀]

/-- A block entry and the array entry it covers: if the block's x operand reads x there, the columns agree, and
    the four one-row operands read the column mean, the column variance, the scale and the shift, then the block's
    result at the entry is the reference's normalisation at the array entry. -/
theorem bn11_block_meets (x0 : Vec Ideal S8000x32 .f32) (mu va ga be : Vec Ideal S1x32 .f32)
    (x : Vec Ideal S160000x32 .f32) (g b : Vec Ideal S32 .f32) (j : S8000x32.Idx) (k : S160000x32.Idx)
    (hk : (k 1).val = (j 1).val)
    (hx : x0 j = x k)
    (hmu : ∀ q : Fin 32, mu (ix2 0 q) = Cert.Spec.mean32 x (ix1 q))
    (hva : ∀ q : Fin 32, va (ix2 0 q) = Cert.Spec.var32 x (ix1 q))
    (hga : ∀ q : Fin 32, ga (ix2 0 q) = g (ix1 q))
    (hbe : ∀ q : Fin 32, be (ix2 0 q) = b (ix1 q)) :
    k11_pay1 (F := Ideal) x0 mu va ga be j = Cert.Spec.bn x g b k := by
  obtain ⟨p, q, rfl⟩ : ∃ (p : Fin 8000) (q : Fin 32), j = ix2 p q := ⟨j 0, j 1, eq_ix2 j⟩
  obtain ⟨r, q', rfl⟩ : ∃ (r : Fin 160000) (q' : Fin 32), k = ix2 r q' := ⟨k 0, k 1, eq_ix2 k⟩
  obtain rfl : q' = q := Fin.ext hk
  rw [k11_pay1_apply, bn_apply, hx, hmu, hva, hga, hbe]

end Meeting

end Cert.KernelValue.Bn

end
-- ==== Proof.Bn11.lean ====
/-
  The batch-normalisation region, from blocks to the array. The grid has 20 points; point t reads rows
  8000 t … 8000 t + 7999 of the x array and the four whole one-row arrays (column means, column variances, scale,
  shift), and writes the same rows of the output array. What point t writes back is block t of the reference's
  normalisation of the x array (the block's arithmetic meets the reference's entry by entry), the 20 row blocks cover
  the output array, so after the region the output array is the reference's normalisation.
-/
import proofs.«425927_j69028714381396_2_alg».proof.Proof.FrameKIW
import proofs.«425927_j69028714381396_2_alg».proof.Proof.Gen.ReferenceIdeal
import proofs.«425927_j69028714381396_2_alg».proof.Proof.BnPay11
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Bn

/-- The zero offsets of a whole-buffer access. -/
theorem bn11_off : (![0, 0] : Fin 2 → Nat) = fun _ => 0 := funext fun a => by fin_cases a <;> rfl

/-- The index maps over the grid of 20 points: the x window's and the output window's row-block index is the
    point's number and their column-block index is zero; the four one-row windows sit at block (0, 0). -/
theorem bn11_idx : ∀ t : Fin cfg11.N,
    win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Block t of the x window reads the x array where block t of the output window lies: both are rows
    8000 t … 8000 t + 7999, all 32 columns. -/
theorem bn11_xblk (c : Dev nD) (x : Vec Ideal S160000x32 .f32) (h0 : V c (Pipeline.arrRef spec11 0) = x)
    (t : Fin cfg11.N) (j : S8000x32.Idx) :
    iblk11 V c 0 t j = x (((cfg11.win 5).blk t).view.emb j) := by
  obtain ⟨e00, e01, e50, e51, e10, e11, e20, e21, e30, e31, e40, e41⟩ := bn11_idx t
  have he : ((cfg11.win 0).blk t).view.emb j = ((cfg11.win 5).blk t).view.emb j := by
    funext a; apply Fin.ext
    match a with
    | ⟨0, _⟩ => show win11_0.index t (0 : Fin 2) * 8000 + 1 * (j 0).val = win11_5.index t (0 : Fin 2) * 8000 + 1 * (j 0).val; omega
    | ⟨1, _⟩ => show win11_0.index t (1 : Fin 2) * 32 + 1 * (j 1).val = win11_5.index t (1 : Fin 2) * 32 + 1 * (j 1).val; omega
  show V c (Pipeline.arrRef spec11 0) (((cfg11.win 0).blk t).view.emb j) = x (((cfg11.win 5).blk t).view.emb j)
  rw [he, h0]

/-- An entry of block t of the output window keeps its column. -/
theorem bn11_col (t : Fin cfg11.N) (j : S8000x32.Idx) : ((((cfg11.win 5).blk t).view.emb j) 1).val = (j 1).val := by
  obtain ⟨e00, e01, e50, e51, e10, e11, e20, e21, e30, e31, e40, e41⟩ := bn11_idx t
  show win11_5.index t (1 : Fin 2) * 32 + 1 * (j 1).val = (j 1).val
  omega

/-- Block t of the one-row window 1 (the column means) is its whole array: at block index (0, 0) the block's entry
    (0, q) is the array's entry (0, q). -/
theorem bn11_row1 (c : Dev nD) (f : Fin 32 → EReal)
    (h : ∀ q : Fin 32, V c (Pipeline.arrRef spec11 1) (ValueIdx.ix2 0 q) = f q) (t : Fin cfg11.N) (q : Fin 32) :
    iblk11 V c 1 t (ix2 (0 : Fin 1) q) = f q := by
  obtain ⟨e00, e01, e50, e51, e10, e11, e20, e21, e30, e31, e40, e41⟩ := bn11_idx t
  have he : ((cfg11.win 1).blk t).view.emb (ix2 (0 : Fin 1) q) = ix2 (0 : Fin 1) q := by
    funext a; apply Fin.ext
    match a with
    | ⟨0, _⟩ => show win11_1.index t (0 : Fin 2) * 1 + 1 * 0 = 0; omega
    | ⟨1, _⟩ => show win11_1.index t (1 : Fin 2) * 32 + 1 * q.val = q.val; omega
  show V c (Pipeline.arrRef spec11 1) (((cfg11.win 1).blk t).view.emb (ix2 (0 : Fin 1) q)) = _
  rw [he]
  exact h q

/-- Block t of the one-row window 2 (the column variances) is its whole array: at block index (0, 0) the block's entry
    (0, q) is the array's entry (0, q). -/
theorem bn11_row2 (c : Dev nD) (f : Fin 32 → EReal)
    (h : ∀ q : Fin 32, V c (Pipeline.arrRef spec11 2) (ValueIdx.ix2 0 q) = f q) (t : Fin cfg11.N) (q : Fin 32) :
    iblk11 V c 2 t (ix2 (0 : Fin 1) q) = f q := by
  obtain ⟨e00, e01, e50, e51, e10, e11, e20, e21, e30, e31, e40, e41⟩ := bn11_idx t
  have he : ((cfg11.win 2).blk t).view.emb (ix2 (0 : Fin 1) q) = ix2 (0 : Fin 1) q := by
    funext a; apply Fin.ext
    match a with
    | ⟨0, _⟩ => show win11_2.index t (0 : Fin 2) * 1 + 1 * 0 = 0; omega
    | ⟨1, _⟩ => show win11_2.index t (1 : Fin 2) * 32 + 1 * q.val = q.val; omega
  show V c (Pipeline.arrRef spec11 2) (((cfg11.win 2).blk t).view.emb (ix2 (0 : Fin 1) q)) = _
  rw [he]
  exact h q

/-- Block t of the one-row window 3 (the scale) is its whole array: at block index (0, 0) the block's entry
    (0, q) is the array's entry (0, q). -/
theorem bn11_row3 (c : Dev nD) (f : Fin 32 → EReal)
    (h : ∀ q : Fin 32, V c (Pipeline.arrRef spec11 3) (ValueIdx.ix2 0 q) = f q) (t : Fin cfg11.N) (q : Fin 32) :
    iblk11 V c 3 t (ix2 (0 : Fin 1) q) = f q := by
  obtain ⟨e00, e01, e50, e51, e10, e11, e20, e21, e30, e31, e40, e41⟩ := bn11_idx t
  have he : ((cfg11.win 3).blk t).view.emb (ix2 (0 : Fin 1) q) = ix2 (0 : Fin 1) q := by
    funext a; apply Fin.ext
    match a with
    | ⟨0, _⟩ => show win11_3.index t (0 : Fin 2) * 1 + 1 * 0 = 0; omega
    | ⟨1, _⟩ => show win11_3.index t (1 : Fin 2) * 32 + 1 * q.val = q.val; omega
  show V c (Pipeline.arrRef spec11 3) (((cfg11.win 3).blk t).view.emb (ix2 (0 : Fin 1) q)) = _
  rw [he]
  exact h q

/-- Block t of the one-row window 4 (the shift) is its whole array: at block index (0, 0) the block's entry
    (0, q) is the array's entry (0, q). -/
theorem bn11_row4 (c : Dev nD) (f : Fin 32 → EReal)
    (h : ∀ q : Fin 32, V c (Pipeline.arrRef spec11 4) (ValueIdx.ix2 0 q) = f q) (t : Fin cfg11.N) (q : Fin 32) :
    iblk11 V c 4 t (ix2 (0 : Fin 1) q) = f q := by
  obtain ⟨e00, e01, e50, e51, e10, e11, e20, e21, e30, e31, e40, e41⟩ := bn11_idx t
  have he : ((cfg11.win 4).blk t).view.emb (ix2 (0 : Fin 1) q) = ix2 (0 : Fin 1) q := by
    funext a; apply Fin.ext
    match a with
    | ⟨0, _⟩ => show win11_4.index t (0 : Fin 2) * 1 + 1 * 0 = 0; omega
    | ⟨1, _⟩ => show win11_4.index t (1 : Fin 2) * 32 + 1 * q.val = q.val; omega
  show V c (Pipeline.arrRef spec11 4) (((cfg11.win 4).blk t).view.emb (ix2 (0 : Fin 1) q)) = _
  rw [he]
  exact h q

set_option maxHeartbeats 1000000 in
/-- WHAT POINT t WRITES BACK is block t of the reference's normalisation of the arrays the region finds: the x
    window's block and the output's are the same rows of their arrays, and each one-row window's block is its
    whole array. -/
theorem bn11_flushed (c : Dev nD) (x : Vec Ideal S160000x32 .f32) (g b : Vec Ideal S32 .f32)
    (h0 : V c (Pipeline.arrRef spec11 0) = x)
    (h1 : ∀ q : Fin 32, V c (Pipeline.arrRef spec11 1) (ValueIdx.ix2 0 q) = Cert.Spec.mean32 x (ValueIdx.ix1 q))
    (h2 : ∀ q : Fin 32, V c (Pipeline.arrRef spec11 2) (ValueIdx.ix2 0 q) = Cert.Spec.var32 x (ValueIdx.ix1 q))
    (h3 : ∀ q : Fin 32, V c (Pipeline.arrRef spec11 3) (ValueIdx.ix2 0 q) = g (ValueIdx.ix1 q))
    (h4 : ∀ q : Fin 32, V c (Pipeline.arrRef spec11 4) (ValueIdx.ix2 0 q) = b (ValueIdx.ix1 q))
    (t : Fin cfg11.N) :
    (dat11 (F := Ideal) V c).flushed 5 t = ((cfg11.win 5).blk t).view.read (Elt Ideal) (Cert.Spec.bn x g b) := by
  show (cfg11.win 5).cut (grid11.coords t) ((dat11 (F := Ideal) V c).after 5 t) = _
  rw [after11_5]
  unfold out11_5
  rw [View.canon_unit_zero bn11_off]
  simp only [View.ld_unit_zero (S := S8000x32) bn11_off, View.ld_unit_zero (S := S1x32) bn11_off]
  funext j
  show k11_pay1 (F := Ideal) (iblk11 V c 0 t) (iblk11 V c 1 t) (iblk11 V c 2 t) (iblk11 V c 3 t) (iblk11 V c 4 t) j
    = Cert.Spec.bn x g b (((cfg11.win 5).blk t).view.emb j)
  exact bn11_block_meets (iblk11 V c 0 t) (iblk11 V c 1 t) (iblk11 V c 2 t) (iblk11 V c 3 t) (iblk11 V c 4 t) x g b j
    (((cfg11.win 5).blk t).view.emb j) (bn11_col t j) (bn11_xblk V c x h0 t j)
    (bn11_row1 V c (fun q => Cert.Spec.mean32 x (ix1 q)) h1 t)
    (bn11_row2 V c (fun q => Cert.Spec.var32 x (ix1 q)) h2 t)
    (bn11_row3 V c (fun q => g (ix1 q)) h3 t)
    (bn11_row4 V c (fun q => b (ix1 q)) h4 t)

/-- An index of the output array is in point t's block iff each coordinate is in the block's range on its axis. -/
theorem bn11_mem_blk (t : Fin cfg11.N) (i : S160000x32.Idx) :
    i ∈ ((cfg11.win 5).blk t).view.set ↔ ∀ a : Fin 2, win11_5.index t a * S8000x32.size a ≤ (i a).val
      ∧ (i a).val < win11_5.index t a * S8000x32.size a + S8000x32.size a := by
  show i ∈ ((View.whole main_v170).slice (win11_5.rect t)).set ↔ _
  rw [View.set_slice_whole, Rect.mem_set_unit]
  exact Iff.rfl

/-- The 20 row blocks cover the array: row r lies in the block of point r / 8000. -/
theorem bn11_cover (i : S160000x32.Idx) :
    ∃ t : Fin cfg11.N, (cfg11.win 5).flush t = true ∧ i ∈ ((cfg11.win 5).blk t).view.set := by
  have hi0 : (i 0).val < 160000 := (i 0).isLt
  have hi1 : (i 1).val < 32 := (i 1).isLt
  have hN : cfg11.N = 20 := N_11
  let t : Fin cfg11.N := ⟨(i 0).val / 8000, by rw [hN]; omega⟩
  have ht : t.val = (i 0).val / 8000 := rfl
  obtain ⟨e00, e01, e50, e51, -⟩ := bn11_idx t
  refine ⟨t, flush11_5 t, ?_⟩
  rw [bn11_mem_blk]
  intro a
  match a with
  | ⟨0, _⟩ =>
    show win11_5.index t (0 : Fin 2) * 8000 ≤ (i 0).val ∧ (i 0).val < win11_5.index t (0 : Fin 2) * 8000 + 8000
    omega
  | ⟨1, _⟩ =>
    show win11_5.index t (1 : Fin 2) * 32 ≤ (i 1).val ∧ (i 1).val < win11_5.index t (1 : Fin 2) * 32 + 32
    omega

end Bn

set_option maxHeartbeats 1000000 in
/-- THE OUTPUT ARRAY after the region is the reference's normalisation of the x array by the column means, the
    column variances, the scale and the shift the region finds in its one-row windows. -/
theorem bn11_value (c : Dev nD) (x : Vec Ideal S160000x32 .f32) (g b : Vec Ideal S32 .f32)
    (h0 : V c (Pipeline.arrRef spec11 0) = x)
    (h1 : ∀ q : Fin 32, V c (Pipeline.arrRef spec11 1) (ValueIdx.ix2 0 q) = Cert.Spec.mean32 x (ValueIdx.ix1 q))
    (h2 : ∀ q : Fin 32, V c (Pipeline.arrRef spec11 2) (ValueIdx.ix2 0 q) = Cert.Spec.var32 x (ValueIdx.ix1 q))
    (h3 : ∀ q : Fin 32, V c (Pipeline.arrRef spec11 3) (ValueIdx.ix2 0 q) = g (ValueIdx.ix1 q))
    (h4 : ∀ q : Fin 32, V c (Pipeline.arrRef spec11 4) (ValueIdx.ix2 0 q) = b (ValueIdx.ix1 q)) :
    (dat11 (F := Ideal) V c).arrAt 5 cfg11.N = Cert.Spec.bn x g b :=
  (dat11 (F := Ideal) V c).arrAt_eq_of_cover 5 (Cert.Spec.bn x g b)
    (fun t _ => Bn.bn11_flushed V c x g b h0 h1 h2 h3 h4 t) Bn.bn11_cover

end Cert.KernelValue

end
-- ==== Proof.KStage3.lean ====
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KCarry
import proofs.«425927_j69028714381396_2_alg».proof.Proof.KHost
import proofs.«425927_j69028714381396_2_alg».proof.Proof.KStage3HostA
import proofs.«425927_j69028714381396_2_alg».proof.Proof.KStage3HostB
import proofs.«425927_j69028714381396_2_alg».proof.Proof.EmbedLN9
import proofs.«425927_j69028714381396_2_alg».proof.Proof.Gru10
import proofs.«425927_j69028714381396_2_alg».proof.Proof.Bn11
import Idealize.ShloMosaic.Lib.StableHlo.Run

/-!
  Layer 3 (the layers counted from 0) of the kernel program read off the run's fold, from boundary 24 (the previous layer's exit)
  to boundary 32: the stretch of weight slices, the linear region, the aggregation stretch, the gated update,
  the three normalisation stretches, the normalisation region. Each region's result is the reference's stage
  function of what its windows hold at entry; each window at entry is a buffer carried from an earlier boundary
  or a host stretch's function of such buffers. Composed, the layer's result is the reference's layer function
  of the previous layer's result and the launch arguments.
-/

-- deciding that two of the program's several hundred references differ recurses once per reference
set_option maxRecDepth 16384

noncomputable section

namespace Cert.KernelValue

open Idealize.ShloMosaic Idealize.ShloMosaic.TcCoe Cert.KernelIdeal Cert.KernelIdeal.Gen

variable (m : (ℓ : Loc nD τ sig) → Buf (Elt Ideal) ℓ) (ρ : Dev nD → PrngReg)

/-! ## The carried buffers inside the layer

The gate weights' stacks and the two edge-endpoint vectors are read after the linear region (boundary 26), the
scale and shift stacks after the gated update and two of the normalisation's stretches (boundary 30). No
stretch writes them and they are windows of neither region, so each still holds what it held at boundary 24. -/

theorem L3.at26_src (c : Dev nD) :
    W26 m ρ c (Proc.devRef .tc main_v1) = Cert.Spec.srcOf (m ((c : Thread nD τ).loc main_arg1)) :=
  (W26_of_ne m ρ c main_v1 (by decide)).trans ((KCarry.keeps_hostOps9 (W24 m ρ c) main_v1 (by decide)).trans (W24_src m ρ c))
theorem L3.at26_dst (c : Dev nD) :
    W26 m ρ c (Proc.devRef .tc main_v3) = Cert.Spec.dstOf (m ((c : Thread nD τ).loc main_arg1)) :=
  (W26_of_ne m ρ c main_v3 (by decide)).trans ((KCarry.keeps_hostOps9 (W24 m ρ c) main_v3 (by decide)).trans (W24_dst m ρ c))
theorem L3.at26_arg9 (c : Dev nD) :
    W26 m ρ c (Proc.devRef .tc main_arg9) = m ((c : Thread nD τ).loc main_arg9) :=
  (W26_of_ne m ρ c main_arg9 (by decide)).trans ((KCarry.keeps_hostOps9 (W24 m ρ c) main_arg9 (by decide)).trans (W24_arg9 m ρ c))
theorem L3.at26_arg10 (c : Dev nD) :
    W26 m ρ c (Proc.devRef .tc main_arg10) = m ((c : Thread nD τ).loc main_arg10) :=
  (W26_of_ne m ρ c main_arg10 (by decide)).trans ((KCarry.keeps_hostOps9 (W24 m ρ c) main_arg10 (by decide)).trans (W24_arg10 m ρ c))
theorem L3.at26_arg11 (c : Dev nD) :
    W26 m ρ c (Proc.devRef .tc main_arg11) = m ((c : Thread nD τ).loc main_arg11) :=
  (W26_of_ne m ρ c main_arg11 (by decide)).trans ((KCarry.keeps_hostOps9 (W24 m ρ c) main_arg11 (by decide)).trans (W24_arg11 m ρ c))
theorem L3.at26_arg12 (c : Dev nD) :
    W26 m ρ c (Proc.devRef .tc main_arg12) = m ((c : Thread nD τ).loc main_arg12) :=
  (W26_of_ne m ρ c main_arg12 (by decide)).trans ((KCarry.keeps_hostOps9 (W24 m ρ c) main_arg12 (by decide)).trans (W24_arg12 m ρ c))

theorem L3.at30_arg13 (c : Dev nD) :
    W30 m ρ c (Proc.devRef .tc main_arg13) = m ((c : Thread nD τ).loc main_arg13) :=
  calc W30 m ρ c (Proc.devRef .tc main_arg13)
    _ = W29 m ρ c (Proc.devRef .tc main_arg13) := KCarry.keeps_hostOps11_1 _ main_arg13 (by decide)
    _ = W28 m ρ c (Proc.devRef .tc main_arg13) := KCarry.keeps_hostOps11 _ main_arg13 (by decide)
    _ = W27 m ρ c (Proc.devRef .tc main_arg13) := W28_of_ne m ρ c main_arg13 (by decide)
    _ = W26 m ρ c (Proc.devRef .tc main_arg13) := KCarry.keeps_hostOps10 _ main_arg13 (by decide)
    _ = W25 m ρ c (Proc.devRef .tc main_arg13) := W26_of_ne m ρ c main_arg13 (by decide)
    _ = W24 m ρ c (Proc.devRef .tc main_arg13) := KCarry.keeps_hostOps9 _ main_arg13 (by decide)
    _ = m ((c : Thread nD τ).loc main_arg13) := W24_arg13 m ρ c
theorem L3.at30_arg14 (c : Dev nD) :
    W30 m ρ c (Proc.devRef .tc main_arg14) = m ((c : Thread nD τ).loc main_arg14) :=
  calc W30 m ρ c (Proc.devRef .tc main_arg14)
    _ = W29 m ρ c (Proc.devRef .tc main_arg14) := KCarry.keeps_hostOps11_1 _ main_arg14 (by decide)
    _ = W28 m ρ c (Proc.devRef .tc main_arg14) := KCarry.keeps_hostOps11 _ main_arg14 (by decide)
    _ = W27 m ρ c (Proc.devRef .tc main_arg14) := W28_of_ne m ρ c main_arg14 (by decide)
    _ = W26 m ρ c (Proc.devRef .tc main_arg14) := KCarry.keeps_hostOps10 _ main_arg14 (by decide)
    _ = W25 m ρ c (Proc.devRef .tc main_arg14) := W26_of_ne m ρ c main_arg14 (by decide)
    _ = W24 m ρ c (Proc.devRef .tc main_arg14) := KCarry.keeps_hostOps9 _ main_arg14 (by decide)
    _ = m ((c : Thread nD τ).loc main_arg14) := W24_arg14 m ρ c

/-! ## The linear region

Its windows at entry: the integer input and the previous layer's features as boundary 24 left them, and the
stretch's four slices of the stacked weights (the bias as a row). Its two results are the layer's linear
input and that input's projection. -/

theorem L3.lin (c : Dev nD)
    (hz : ∀ i, ((m ((c : Thread nD τ).loc main_arg0) : Vec Ideal S160000x2 .i32) i).toNat < 50) :
    W26 m ρ c (Proc.devRef .tc main_v137_0)
      = Cert.Spec.lin (W24 m ρ c (Proc.devRef .tc main_v127))
          (Cert.Spec.embed (Cert.Spec.emb3 (m ((c : Thread nD τ).loc main_arg5))) (m ((c : Thread nD τ).loc main_arg0)))
          (Cert.Spec.tw3 (m ((c : Thread nD τ).loc main_arg6))) (Cert.Spec.b32_3 (m ((c : Thread nD τ).loc main_arg7))) :=
  (W26_arr m ρ c 6).trans
    (embedN9_xlin (V25 m ρ) c (m ((c : Thread nD τ).loc main_arg0)) (W24 m ρ c (Proc.devRef .tc main_v127))
      (Cert.Spec.emb3 (m ((c : Thread nD τ).loc main_arg5))) (Cert.Spec.tw3 (m ((c : Thread nD τ).loc main_arg6)))
      (Cert.Spec.b32_3 (m ((c : Thread nD τ).loc main_arg7))) hz
      ((KCarry.keeps_hostOps9 (W24 m ρ c) main_arg0 (by decide)).trans (W24_arg0 m ρ c))
      (ops9_keep_xp (W24 m ρ c))
      (ops9_emb (W24 m ρ c) _ (W24_arg5 m ρ c))
      (ops9_tw (W24 m ρ c) _ (W24_arg6 m ρ c))
      (fun q => (congrFun (ops9_tb (W24 m ρ c) _ (W24_arg7 m ρ c)) (ValueIdx.ix2 0 q)).trans (row32_apply _ q)))

theorem L3.msg (c : Dev nD)
    (hz : ∀ i, ((m ((c : Thread nD τ).loc main_arg0) : Vec Ideal S160000x2 .i32) i).toNat < 50) :
    W26 m ρ c (Proc.devRef .tc main_v137_1)
      = Cert.Spec.conv (Cert.Spec.lin (W24 m ρ c (Proc.devRef .tc main_v127))
          (Cert.Spec.embed (Cert.Spec.emb3 (m ((c : Thread nD τ).loc main_arg5))) (m ((c : Thread nD τ).loc main_arg0)))
          (Cert.Spec.tw3 (m ((c : Thread nD τ).loc main_arg6))) (Cert.Spec.b32_3 (m ((c : Thread nD τ).loc main_arg7))))
        (Cert.Spec.cw3 (m ((c : Thread nD τ).loc main_arg8))) :=
  (W26_arr m ρ c 7).trans
    (embedN9_m (V25 m ρ) c (m ((c : Thread nD τ).loc main_arg0)) (W24 m ρ c (Proc.devRef .tc main_v127))
      (Cert.Spec.emb3 (m ((c : Thread nD τ).loc main_arg5))) (Cert.Spec.tw3 (m ((c : Thread nD τ).loc main_arg6)))
      (Cert.Spec.b32_3 (m ((c : Thread nD τ).loc main_arg7))) (Cert.Spec.cw3 (m ((c : Thread nD τ).loc main_arg8))) hz
      ((KCarry.keeps_hostOps9 (W24 m ρ c) main_arg0 (by decide)).trans (W24_arg0 m ρ c))
      (ops9_keep_xp (W24 m ρ c))
      (ops9_emb (W24 m ρ c) _ (W24_arg5 m ρ c))
      (ops9_tw (W24 m ρ c) _ (W24_arg6 m ρ c))
      (fun q => (congrFun (ops9_tb (W24 m ρ c) _ (W24_arg7 m ρ c)) (ValueIdx.ix2 0 q)).trans (row32_apply _ q))
      (ops9_cw (W24 m ρ c) _ (W24_arg8 m ρ c)))

/-! ## The gated update

Its windows at entry: the linear input as the linear region left it, the aggregation of the projection over
the edges, and the stretch's slices of the gate weights (the biases as rows). -/

theorem L3.gru (c : Dev nD) (xl mm : Vec Ideal S160000x32 .f32)
    (hxl : W26 m ρ c (Proc.devRef .tc main_v137_0) = xl) (hmm : W26 m ρ c (Proc.devRef .tc main_v137_1) = mm) :
    W28 m ρ c (Proc.devRef .tc main_v158)
      = Cert.Spec.gru xl
          (Cert.Spec.agg mm (Cert.Spec.srcOf (m ((c : Thread nD τ).loc main_arg1))) (Cert.Spec.dstOf (m ((c : Thread nD τ).loc main_arg1))))
          (Cert.Spec.wi3 (m ((c : Thread nD τ).loc main_arg9))) (Cert.Spec.wi3 (m ((c : Thread nD τ).loc main_arg10)))
          (Cert.Spec.b96_3 (m ((c : Thread nD τ).loc main_arg11))) (Cert.Spec.b96_3 (m ((c : Thread nD τ).loc main_arg12))) :=
  (W28_arr m ρ c 6).trans
    (gru10_value (V27 m ρ) c xl
      (Cert.Spec.agg mm (Cert.Spec.srcOf (m ((c : Thread nD τ).loc main_arg1))) (Cert.Spec.dstOf (m ((c : Thread nD τ).loc main_arg1))))
      (Cert.Spec.wi3 (m ((c : Thread nD τ).loc main_arg9))) (Cert.Spec.wi3 (m ((c : Thread nD τ).loc main_arg10)))
      (Cert.Spec.b96_3 (m ((c : Thread nD τ).loc main_arg11))) (Cert.Spec.b96_3 (m ((c : Thread nD τ).loc main_arg12)))
      ((ops10_keep_xl (W26 m ρ c)).trans hxl)
      (ops10_agg (W26 m ρ c) mm _ _ hmm (L3.at26_src m ρ c) (L3.at26_dst m ρ c))
      (ops10_wi (W26 m ρ c) _ (L3.at26_arg9 m ρ c))
      (ops10_wh (W26 m ρ c) _ (L3.at26_arg10 m ρ c))
      (fun q => (congrFun (ops10_bi (W26 m ρ c) _ (L3.at26_arg11 m ρ c)) (ValueIdx.ix2 0 q)).trans (row96_apply _ q))
      (fun q => (congrFun (ops10_bh (W26 m ρ c) _ (L3.at26_arg12 m ρ c)) (ValueIdx.ix2 0 q)).trans (row96_apply _ q)))

/-! ## The normalisation

Its windows at entry: the gated update's result, untouched by the three stretches; the mean row and the
variance row the first two stretches compute from it, read entry by entry as the column mean and the biased
column variance; the scale and shift rows. -/

theorem L3.bn (c : Dev nD) (x : Vec Ideal S160000x32 .f32) (hx : W28 m ρ c (Proc.devRef .tc main_v158) = x) :
    W32 m ρ c (Proc.devRef .tc main_v170)
      = Cert.Spec.bn x (Cert.Spec.b32_3 (m ((c : Thread nD τ).loc main_arg13))) (Cert.Spec.b32_3 (m ((c : Thread nD τ).loc main_arg14))) :=
  (W32_arr m ρ c 5).trans
    (bn11_value (V31 m ρ) c x
      (Cert.Spec.b32_3 (m ((c : Thread nD τ).loc main_arg13))) (Cert.Spec.b32_3 (m ((c : Thread nD τ).loc main_arg14)))
      ((ops11_2_keep_x (W30 m ρ c)).trans ((ops11_1_keep_x (W29 m ρ c)).trans ((ops11_keep_x (W28 m ρ c)).trans hx)))
      (fun q => (congrFun ((ops11_2_keep_mean (W30 m ρ c)).trans ((ops11_1_keep_mean (W29 m ρ c)).trans
        (ops11_mean (W28 m ρ c) x hx))) (ValueIdx.ix2 0 q)).trans (meanRow x q))
      (fun q => (congrFun ((ops11_2_keep_var (W30 m ρ c)).trans
        (ops11_1_var (W29 m ρ c) x ((ops11_keep_x (W28 m ρ c)).trans hx) (ops11_zero (W28 m ρ c)))) (ValueIdx.ix2 0 q)).trans (varRow x q))
      (fun q => (congrFun (ops11_2_g (W30 m ρ c) _ (L3.at30_arg13 m ρ c)) (ValueIdx.ix2 0 q)).trans (row32_apply _ q))
      (fun q => (congrFun (ops11_2_b (W30 m ρ c) _ (L3.at30_arg14 m ρ c)) (ValueIdx.ix2 0 q)).trans (row32_apply _ q)))

/-! ## The layer -/

/-- The layer's result is the reference's layer function of the previous layer's result and the arguments:
    the linear input, its projection aggregated over the edges, the gated update, the normalisation. -/
theorem stage3 (c : Dev nD)
    (hz : ∀ i, ((m ((c : Thread nD τ).loc main_arg0) : Vec Ideal S160000x2 .i32) i).toNat < 50) :
    W32 m ρ c (Proc.devRef .tc main_v170)
      = Cert.Spec.x3 (W24 m ρ c (Proc.devRef .tc main_v127)) (m ((c : Thread nD τ).loc main_arg0))
          (Cert.Spec.srcOf (m ((c : Thread nD τ).loc main_arg1))) (Cert.Spec.dstOf (m ((c : Thread nD τ).loc main_arg1)))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) :=
  L3.bn m ρ c _ (L3.gru m ρ c _ _ (L3.lin m ρ c hz) (L3.msg m ρ c hz))

end Cert.KernelValue

end
-- ==== Proof.KStage4HostA.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import Idealize.ShloMosaic.Lib.StableHlo.Run

/-!
  The host stretches of layer 4 (the layers counted from 0), read off as functions of the buffers they read (first part): the
  stretch before the linear region and the stretch before the gated update. Each lemma is about the stretch
  alone, at any contents of the buffers before it: a result buffer holds the composition of the operations that
  lead to it, which is the reference's slice (or aggregation) function of the same inputs by unfolding.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The stretch before the linear region: the layer's slices of the stacked weights

Each is row 4 of a stacked argument, cut out and reshaped; the bias is kept as a [1, 32] row. The previous
layer's features are not touched. -/

theorem ops12_keep_xp (V : Valuation τ sig (Elt F)) :
    StableHlo.after hostOps12 V (Proc.devRef .tc main_v170) = V (Proc.devRef .tc main_v170) := by
  carry_over hostOps12

theorem ops12_emb (V : Valuation τ sig (Elt F)) (a5 : Vec F S5x50x32 .f32) (h : V (Proc.devRef .tc main_arg5) = a5) :
    StableHlo.after hostOps12 V (Proc.devRef .tc main_v172) = Cert.Spec.emb4 a5 := by
  subst h; dsimp only [hostOps12]; after_results; all_goals rfl

theorem ops12_cw (V : Valuation τ sig (Elt F)) (a8 : Vec F S5x32x32 .f32) (h : V (Proc.devRef .tc main_arg8) = a8) :
    StableHlo.after hostOps12 V (Proc.devRef .tc main_v174) = Cert.Spec.cw4 a8 := by
  subst h; dsimp only [hostOps12]; after_results; all_goals rfl

theorem ops12_tw (V : Valuation τ sig (Elt F)) (a6 : Vec F S5x64x32 .f32) (h : V (Proc.devRef .tc main_arg6) = a6) :
    StableHlo.after hostOps12 V (Proc.devRef .tc main_v176) = Cert.Spec.tw4 a6 := by
  subst h; dsimp only [hostOps12]; after_results; all_goals rfl

theorem ops12_tb (V : Valuation τ sig (Elt F)) (a7 : Vec F S5x32 .f32) (h : V (Proc.devRef .tc main_arg7) = a7) :
    StableHlo.after hostOps12 V (Proc.devRef .tc main_v179) = shapeCast S1x32 (Cert.Spec.b32_4 a7) shapeCasts_S32_S1x32 := by
  subst h; dsimp only [hostOps12]; after_results; all_goals rfl

/-! ## The stretch before the gated update: the message aggregation and the gate weights' slices

The projected features are gathered at every edge's source node and added up at its target node; the two
32 × 96 gate weights and the two 96-entry gate biases (kept as [1, 96] rows) are row 4 of their stacks.
The linear region's first result is not touched. -/

theorem ops13_keep_xl (V : Valuation τ sig (Elt F)) :
    StableHlo.after hostOps13 V (Proc.devRef .tc main_v180_0) = V (Proc.devRef .tc main_v180_0) := by
  carry_over hostOps13

set_option maxHeartbeats 1000000 in
theorem ops13_agg (V : Valuation τ sig (Elt F)) (mm : Vec F S160000x32 .f32) (s d : Vec F S2560000 .i32)
    (hm : V (Proc.devRef .tc main_v180_1) = mm) (hs : V (Proc.devRef .tc main_v1) = s) (hd : V (Proc.devRef .tc main_v3) = d) :
    StableHlo.after hostOps13 V (Proc.devRef .tc main_v190) = Cert.Spec.agg mm s d := by
  subst hm hs hd; dsimp only [hostOps13]; after_results_simp; all_goals rfl

theorem ops13_wi (V : Valuation τ sig (Elt F)) (a9 : Vec F S5x32x96 .f32) (h : V (Proc.devRef .tc main_arg9) = a9) :
    StableHlo.after hostOps13 V (Proc.devRef .tc main_v192) = Cert.Spec.wi4 a9 := by
  subst h; dsimp only [hostOps13]; after_results; all_goals rfl

theorem ops13_wh (V : Valuation τ sig (Elt F)) (a10 : Vec F S5x32x96 .f32) (h : V (Proc.devRef .tc main_arg10) = a10) :
    StableHlo.after hostOps13 V (Proc.devRef .tc main_v194) = Cert.Spec.wi4 a10 := by
  subst h; dsimp only [hostOps13]; after_results; all_goals rfl

theorem ops13_bi (V : Valuation τ sig (Elt F)) (a11 : Vec F S5x96 .f32) (h : V (Proc.devRef .tc main_arg11) = a11) :
    StableHlo.after hostOps13 V (Proc.devRef .tc main_v197) = shapeCast S1x96 (Cert.Spec.b96_4 a11) shapeCasts_S96_S1x96 := by
  subst h; dsimp only [hostOps13]; after_results; all_goals rfl

theorem ops13_bh (V : Valuation τ sig (Elt F)) (a12 : Vec F S5x96 .f32) (h : V (Proc.devRef .tc main_arg12) = a12) :
    StableHlo.after hostOps13 V (Proc.devRef .tc main_v200) = shapeCast S1x96 (Cert.Spec.b96_4 a12) shapeCasts_S96_S1x96 := by
  subst h; dsimp only [hostOps13]; after_results; all_goals rfl

end Cert.KernelValue

end
-- ==== Proof.KStage4HostB.lean ====
import proofs.«425927_j69028714381396_2_alg».proof.Proof.Gen.KernelIdeal.Launch
import proofs.«425927_j69028714381396_2_alg».proof.Proof.Gen.ReferenceIdeal
import proofs.«425927_j69028714381396_2_alg».proof.Proof.Spec
import proofs.«425927_j69028714381396_2_alg».proof.Proof.KHost
import Idealize.ShloMosaic.Lib.StableHlo.Run

/-!
  The host stretches of layer 4 (the layers counted from 0), read off as functions of the buffers they read (second part): the
  three stretches before the normalisation. Each lemma is about the stretch alone, at any contents of the
  buffers before it.
-/

-- deciding that two of the program's several hundred references differ recurses once per reference
set_option maxRecDepth 16384

noncomputable section

namespace Cert.KernelValue

open Idealize.ShloMosaic Idealize.ShloMosaic.TcCoe Idealize.SL.Sem Cert.KernelIdeal Cert.KernelIdeal.Gen

variable {F : FTy → Type} [FloatOps F]

/-- A buffer that is the result of no operation of the stretch holds after it what it held before. -/
local macro "carry_over" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three stretches before the normalisation: the column mean, the column variance, the scale and shift rows

The mean row is the column sum over the row count; the variance row is what the inlined variance computation
leaves (it reads the integer zero the mean's stretch wrote last); the scale and the shift are row 4 of their
stacks kept as [1, 32] rows. None of them touches the gated update's result. -/

theorem ops14_keep_x (V : Valuation τ sig (Elt F)) :
    StableHlo.after hostOps14 V (Proc.devRef .tc main_v201) = V (Proc.devRef .tc main_v201) := by
  carry_over hostOps14
theorem ops14_1_keep_x (V : Valuation τ sig (Elt F)) :
    StableHlo.after hostOps14_1 V (Proc.devRef .tc main_v201) = V (Proc.devRef .tc main_v201) := by
  carry_over hostOps14_1
theorem ops14_2_keep_x (V : Valuation τ sig (Elt F)) :
    StableHlo.after hostOps14_2 V (Proc.devRef .tc main_v201) = V (Proc.devRef .tc main_v201) := by
  carry_over hostOps14_2
theorem ops14_1_keep_mean (V : Valuation τ sig (Elt F)) :
    StableHlo.after hostOps14_1 V (Proc.devRef .tc main_v205) = V (Proc.devRef .tc main_v205) := by
  carry_over hostOps14_1
theorem ops14_2_keep_mean (V : Valuation τ sig (Elt F)) :
    StableHlo.after hostOps14_2 V (Proc.devRef .tc main_v205) = V (Proc.devRef .tc main_v205) := by
  carry_over hostOps14_2
theorem ops14_2_keep_var (V : Valuation τ sig (Elt F)) :
    StableHlo.after hostOps14_2 V (Proc.devRef .tc main_v206) = V (Proc.devRef .tc main_v206) := by
  carry_over hostOps14_2

theorem ops14_mean (V : Valuation τ sig (Elt F)) (x : Vec F S160000x32 .f32) (h : V (Proc.devRef .tc main_v201) = x) :
    StableHlo.after hostOps14 V (Proc.devRef .tc main_v205)
      = Host.divf (F := F) (broadcastInDim S1x32 ![1] bcast_S32_S1x32_1
          (Host.reduceAdd (F := F) x (constant (F := F) S_ .f32 0x00000000#32) reducesTo_S160000x32_S32_d0 h_S_))
        (broadcastInDim S1x32 ![] bcast_S_S1x32 (constant (F := F) S_ .f32 0x481C4000#32)) := by
  subst h; dsimp only [hostOps14]; after_results; all_goals rfl

theorem ops14_zero (V : Valuation τ sig (Elt F)) :
    StableHlo.after hostOps14 V (Proc.devRef .tc main_c_27) = (constantI S_ 32 0#32 : Vec F S_ .i32) := by
  dsimp only [hostOps14]; after_results; all_goals rfl

set_option maxHeartbeats 1000000 in
theorem ops14_1_var (V : Valuation τ sig (Elt Ideal)) (x : Vec Ideal S160000x32 .f32) (h : V (Proc.devRef .tc main_v201) = x)
    (hc : V (Proc.devRef .tc main_c_27) = (constantI S_ 32 0#32 : Vec Ideal S_ .i32)) :
    StableHlo.after hostOps14_1 V (Proc.devRef .tc main_v206) = kvar x := by
  subst h; dsimp only [hostOps14_1]; after_results_simp
  simp only [StableHlo.TRef.ofBuf, StableHlo.TRef.toBuf, cast_eq]
  rw [hc]; rfl

theorem ops14_2_g (V : Valuation τ sig (Elt F)) (a13 : Vec F S5x32 .f32) (h : V (Proc.devRef .tc main_arg13) = a13) :
    StableHlo.after hostOps14_2 V (Proc.devRef .tc main_v209) = shapeCast S1x32 (Cert.Spec.b32_4 a13) shapeCasts_S32_S1x32 := by
  subst h; dsimp only [hostOps14_2]; after_results; all_goals rfl

theorem ops14_2_b (V : Valuation τ sig (Elt F)) (a14 : Vec F S5x32 .f32) (h : V (Proc.devRef .tc main_arg14) = a14) :
    StableHlo.after hostOps14_2 V (Proc.devRef .tc main_v212) = shapeCast S1x32 (Cert.Spec.b32_4 a14) shapeCasts_S32_S1x32 := by
  subst h; dsimp only [hostOps14_2]; after_results; all_goals rfl

end Cert.KernelValue

end
-- ==== Proof.EmbedLNPay12.lean ====
/-
  One layer's embedding + linear + projection block, read at an index, at the ideal values (floats are extended reals,
  a change of float format is the identity, a matrix product is an exact finite sum).
  The block's linear payload at (p, q) is  Σ_k cat(p, k) · W(k, q) + b(q),  where cat(p, ·) is row p of the previous
  features beside  Σ_k [z(p,0) = k] · T(k, ·) + Σ_k [z(p,1) = k] · T(k, ·);  a sum against a one-hot row selects the
  table's row, so this is the reference's gather of rows z(p,0) and z(p,1), added (the reference reads an index signed
  and clamped into [0, 49], which changes nothing for an index in [0, 50)). The projected payload is that row against
  the 32×32 projection. Both are met with the reference's stage functions index by index. Then the windows' blocks at a
  grid point: the index block and the feature block are rows t · 8000 … t · 8000 + 7999 of their arrays, the table, the
  weight, the bias row and the projection are read whole, so each payload of the blocks is block t of its stage function
  of the arrays; and the 20 output blocks tile the 160000 rows.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import proofs.«425927_j69028714381396_2_alg».proof.Proof.Gen.KernelIdeal.Points
import Idealize.ShloMosaic.PureOps.Ideal
import Idealize.ShloMosaic.Lib.KernelVsHost
import Idealize.ShloMosaic.Lib.ValueLayout
import Idealize.ShloMosaic.Lib.IdealHost

noncomputable section

namespace Cert.KernelValue.EmbedLN12

open Idealize.ShloMosaic Idealize.ShloMosaic.ValueIdx

/-! ## A product of two matrices, read at an index -/

/-- The contraction's sum of a rows × columns product, re-indexed by the contracted coordinate: given where each
    operand index sits on each axis, the sum over the contraction index set is the sum over `Fin k` of the products
    of the row's and the column's entries. -/
theorem sum_contr_eq {m k n : Nat} (D : DotDims ⟨2, ![m, k]⟩ ⟨2, ![k, n]⟩ ⟨2, ![m, n]⟩)
    (hr : D.contr.rank = 1) (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (A : (⟨2, ![m, k]⟩ : Shape).Idx → EReal) (B : (⟨2, ![k, n]⟩ : Shape).Idx → EReal) (a : Fin m) (b : Fin n) :
    ∑ q : D.contr.Idx, A (D.lhsIdx (ix2 a b) q) * B (D.rhsIdx (ix2 a b) q) = ∑ c : Fin k, A (ix2 a c) * B (ix2 c b) := by
  rw [← Equiv.sum_comp (contrEquiv1 D k hr hs).symm]
  refine Finset.sum_congr rfl fun c _ => ?_
  have hk := contrEquiv1_symm_val D k hr hs c
  have el : D.lhsIdx (ix2 a b) ((contrEquiv1 D k hr hs).symm c) = ix2 a c := funext fun ax => Fin.ext (by
    match ax with
    | ⟨0, _⟩ => exact l0 _ _
    | ⟨1, _⟩ => exact (l1 _ _).trans hk)
  have er : D.rhsIdx (ix2 a b) ((contrEquiv1 D k hr hs).symm c) = ix2 c b := funext fun ax => Fin.ext (by
    match ax with
    | ⟨0, _⟩ => exact (r0 _ _).trans hk
    | ⟨1, _⟩ => exact r1 _ _)
  rw [el, er]

section K50

theorem lhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 0).val = (i 0).val := by
  unfold DotDims.lhsIdx
  rw [dif_neg (show ¬(0 : Fin Cert.KernelIdeal.S8000x50.rank) ∈ Cert.KernelIdeal.dot_S8000x50_S50x32_S8000x32_1_0_0_1_n_n.lhsBatch from List.not_mem_nil),
    dif_pos (show (0 : Fin Cert.KernelIdeal.S8000x50.rank) ∈ Cert.KernelIdeal.dot_S8000x50_S50x32_S8000x32_1_0_0_1_n_n.lhsNonContracting from List.mem_singleton.mpr rfl)]
  rfl
theorem lhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.lhsIdx i q 1).val = (q ⟨0, Nat.one_pos⟩).val :=
  Cert.KernelIdeal.dot_S8000x50_S50x32_S8000x32_1_0_0_1_n_n.lhsIdx_val_of_single rfl i q
theorem rhs_k50_0 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 0).val = (q ⟨0, Nat.one_pos⟩).val :=
  Cert.KernelIdeal.dot_S8000x50_S50x32_S8000x32_1_0_0_1_n_n.rhsIdx_val_of_single rfl i q
theorem rhs_k50_1 (i : Cert.KernelIdeal.S8000x32.Idx) (q : Cert.KernelIdeal.dot_S8000x50_S50x32_S8000x32_1_0_0_1_n_n.contr.Idx) :
    (Cert.KernelIdeal.dot_S8000x50_S50x32_S8000x32_1_0_0_1_n_n.rhsIdx i q 1).val = (i 1).val := by
  unfold DotDims.rhsIdx
  rw [dif_neg (show ¬(1 : Fin Cert.KernelIdeal.S50x32.rank) ∈ Cert.KernelIdeal.dot_S8000x50_S50x32_S8000x32_1_0_0_1_n_n.rhsBatch from List.not_mem_nil),
    dif_pos (show (1 : Fin Cert.KernelIdeal.S50x32.rank) ∈ Cert.KernelIdeal.dot_S8000x50_S50x32_S8000x32_1_0_0_1_n_n.rhsNonContracting from List.mem_singleton.mpr rfl)]
  rfl

theorem matmul50_apply (A : FVec Ideal Cert.KernelIdeal.S8000x50 .bf16) (B : FVec Ideal Cert.KernelIdeal.S50x32 .bf16) (p : Fin 8000) (d : Fin 32) :
    matmul Cert.KernelIdeal.dot_S8000x50_S50x32_S8000x32_1_0_0_1_n_n none A B (constant (F := Ideal) Cert.KernelIdeal.S8000x32 .f32 0x00000000#32) (ix2 p d)
      = ∑ k : Fin 50, A (ix2 p k) * B (ix2 k d) := by
  show FloatOps.matmul _ none A B _ (ix2 p d) = _
  rw [Ideal.matmul_constant_zero_apply]
  exact sum_contr_eq _ rfl rfl lhs_k50_0 lhs_k50_1 rhs_k50_0 rhs_k50_1 A B p d
end K50
section R64

theorem lhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 0).val = (i 0).val := by
  unfold DotDims.lhsIdx
  rw [dif_neg (show ¬(0 : Fin Cert.ReferenceIdeal.S160000x64.rank) ∈ Cert.ReferenceIdeal.dot_S160000x64_S64x32_S160000x32_1_0_0_1_n_n.lhsBatch from List.not_mem_nil),
    dif_pos (show (0 : Fin Cert.ReferenceIdeal.S160000x64.rank) ∈ Cert.ReferenceIdeal.dot_S160000x64_S64x32_S160000x32_1_0_0_1_n_n.lhsNonContracting from List.mem_singleton.mpr rfl)]
  rfl
theorem lhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.lhsIdx i q 1).val = (q ⟨0, Nat.one_pos⟩).val :=
  Cert.ReferenceIdeal.dot_S160000x64_S64x32_S160000x32_1_0_0_1_n_n.lhsIdx_val_of_single rfl i q
theorem rhs_r64_0 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 0).val = (q ⟨0, Nat.one_pos⟩).val :=
  Cert.ReferenceIdeal.dot_S160000x64_S64x32_S160000x32_1_0_0_1_n_n.rhsIdx_val_of_single rfl i q
theorem rhs_r64_1 (i : Cert.ReferenceIdeal.S160000x32.Idx) (q : Cert.ReferenceIdeal.dot_S160000x64_S64x32_S160000x32_1_0_0_1_n_n.contr.Idx) :
    (Cert.ReferenceIdeal.dot_S160000x64_S64x32_S160000x32_1_0_0_1_n_n.rhsIdx i q 1).val = (i 1).val := by
  unfold DotDims.rhsIdx
  rw [dif_neg (show ¬(1 : Fin Cert.ReferenceIdeal.S64x32.rank) ∈ Cert.ReferenceIdeal.dot_S160000x64_S64x32_S160000x32_1_0_0_1_n_n.rhsBatch from List.not_mem_nil),
    dif_pos (show (1 : Fin Cert.ReferenceIdeal.S64x32.rank) ∈ Cert.ReferenceIdeal.dot_S160000x64_S64x32_S160000x32_1_0_0_1_n_n.rhsNonContracting from List.mem_singleton.mpr rfl)]
  rfl

theorem dot64_apply (A : FVec Ideal Cert.ReferenceIdeal.S160000x64 .f32) (B : FVec Ideal Cert.ReferenceIdeal.S64x32 .f32) (p : Fin 160000) (d : Fin 32) :
    (Host.dotGeneral Cert.ReferenceIdeal.dot_S160000x64_S64x32_S160000x32_1_0_0_1_n_n none A B : FVec Ideal Cert.ReferenceIdeal.S160000x32 .f32) (ix2 p d)
      = ∑ k : Fin 64, A (ix2 p k) * B (ix2 k d) := by
  show FloatOps.dotGeneral _ none _ A B (ix2 p d) = _
  rw [Ideal.dotGeneral_apply]
  exact sum_contr_eq _ rfl rfl lhs_r64_0 lhs_r64_1 rhs_r64_0 rhs_r64_1 A B p d
end R64

/-! ## One-hot rows -/

/-- The widened bit of a word comparison, made a float: one where the words are equal, zero elsewhere. -/
theorem sitofp_cmpi_eq (x y : BitVec 32) :
    (FloatOps.sitofp (F := Ideal) .f32 ((IntOp.cmpi .eq x y).setWidth 32) : Ideal .f32) = if x = y then 1 else 0 := by
  show (((BitVec.setWidth 32 (IntOp.cmpi .eq x y)).toInt : ℝ) : EReal) = _
  rw [toInt_setWidth_bit]
  by_cases h : x = y
  · subst h; simp [IntOp.cmpi]
  · simp [IntOp.cmpi, h]

/-- A sum against a one-hot row selects its term: no finiteness is needed, since zero times anything is zero. -/
theorem sum_onehot_mul {n : Nat} (z : BitVec 32) (hz : z.toNat < n) (hn : n < 2 ^ 32) (f : Fin n → EReal) :
    ∑ k : Fin n, (if z = BitVec.ofNat 32 k.val then (1 : EReal) else 0) * f k = f ⟨z.toNat, hz⟩ := by
  rw [Finset.sum_eq_single (⟨z.toNat, hz⟩ : Fin n)]
  · rw [if_pos (by simp), one_mul]
  · intro b _ hb
    rw [if_neg, zero_mul]
    intro h
    apply hb
    apply Fin.ext
    have := congrArg BitVec.toNat h
    simp [BitVec.toNat_ofNat] at this
    have hb' := b.isLt
    rw [Nat.mod_eq_of_lt (by omega)] at this
    exact this.symm
  · intro h; exact absurd (Finset.mem_univ _) h

section K64

theorem lhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 0).val = (i 0).val := by
  unfold DotDims.lhsIdx
  rw [dif_neg (show ¬(0 : Fin Cert.KernelIdeal.S8000x64.rank) ∈ Cert.KernelIdeal.dot_S8000x64_S64x32_S8000x32_1_0_0_1_n_n.lhsBatch from List.not_mem_nil),
    dif_pos (show (0 : Fin Cert.KernelIdeal.S8000x64.rank) ∈ Cert.KernelIdeal.dot_S8000x64_S64x32_S8000x32_1_0_0_1_n_n.lhsNonContracting from List.mem_singleton.mpr rfl)]
  rfl
theorem lhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.lhsIdx i q 1).val = (q ⟨0, Nat.one_pos⟩).val :=
  Cert.KernelIdeal.dot_S8000x64_S64x32_S8000x32_1_0_0_1_n_n.lhsIdx_val_of_single rfl i q
theorem rhs_k64_0 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 0).val = (q ⟨0, Nat.one_pos⟩).val :=
  Cert.KernelIdeal.dot_S8000x64_S64x32_S8000x32_1_0_0_1_n_n.rhsIdx_val_of_single rfl i q
theorem rhs_k64_1 (i : Cert.KernelIdeal.S8000x32.Idx) (q : Cert.KernelIdeal.dot_S8000x64_S64x32_S8000x32_1_0_0_1_n_n.contr.Idx) :
    (Cert.KernelIdeal.dot_S8000x64_S64x32_S8000x32_1_0_0_1_n_n.rhsIdx i q 1).val = (i 1).val := by
  unfold DotDims.rhsIdx
  rw [dif_neg (show ¬(1 : Fin Cert.KernelIdeal.S64x32.rank) ∈ Cert.KernelIdeal.dot_S8000x64_S64x32_S8000x32_1_0_0_1_n_n.rhsBatch from List.not_mem_nil),
    dif_pos (show (1 : Fin Cert.KernelIdeal.S64x32.rank) ∈ Cert.KernelIdeal.dot_S8000x64_S64x32_S8000x32_1_0_0_1_n_n.rhsNonContracting from List.mem_singleton.mpr rfl)]
  rfl

theorem matmul64_apply (A : FVec Ideal Cert.KernelIdeal.S8000x64 .bf16) (B : FVec Ideal Cert.KernelIdeal.S64x32 .bf16) (p : Fin 8000) (d : Fin 32) :
    matmul Cert.KernelIdeal.dot_S8000x64_S64x32_S8000x32_1_0_0_1_n_n none A B (constant (F := Ideal) Cert.KernelIdeal.S8000x32 .f32 0x00000000#32) (ix2 p d)
      = ∑ k : Fin 64, A (ix2 p k) * B (ix2 k d) := by
  show FloatOps.matmul _ none A B _ (ix2 p d) = _
  rw [Ideal.matmul_constant_zero_apply]
  exact sum_contr_eq _ rfl rfl lhs_k64_0 lhs_k64_1 rhs_k64_0 rhs_k64_1 A B p d
end K64
section K32

theorem lhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 0).val = (i 0).val := by
  unfold DotDims.lhsIdx
  rw [dif_neg (show ¬(0 : Fin Cert.KernelIdeal.S8000x32.rank) ∈ Cert.KernelIdeal.dot_S8000x32_S32x32_S8000x32_1_0_0_1_n_n.lhsBatch from List.not_mem_nil),
    dif_pos (show (0 : Fin Cert.KernelIdeal.S8000x32.rank) ∈ Cert.KernelIdeal.dot_S8000x32_S32x32_S8000x32_1_0_0_1_n_n.lhsNonContracting from List.mem_singleton.mpr rfl)]
  rfl
theorem lhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.lhsIdx i q 1).val = (q ⟨0, Nat.one_pos⟩).val :=
  Cert.KernelIdeal.dot_S8000x32_S32x32_S8000x32_1_0_0_1_n_n.lhsIdx_val_of_single rfl i q
theorem rhs_k32_0 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 0).val = (q ⟨0, Nat.one_pos⟩).val :=
  Cert.KernelIdeal.dot_S8000x32_S32x32_S8000x32_1_0_0_1_n_n.rhsIdx_val_of_single rfl i q
theorem rhs_k32_1 (i : Cert.KernelIdeal.S8000x32.Idx) (q : Cert.KernelIdeal.dot_S8000x32_S32x32_S8000x32_1_0_0_1_n_n.contr.Idx) :
    (Cert.KernelIdeal.dot_S8000x32_S32x32_S8000x32_1_0_0_1_n_n.rhsIdx i q 1).val = (i 1).val := by
  unfold DotDims.rhsIdx
  rw [dif_neg (show ¬(1 : Fin Cert.KernelIdeal.S32x32.rank) ∈ Cert.KernelIdeal.dot_S8000x32_S32x32_S8000x32_1_0_0_1_n_n.rhsBatch from List.not_mem_nil),
    dif_pos (show (1 : Fin Cert.KernelIdeal.S32x32.rank) ∈ Cert.KernelIdeal.dot_S8000x32_S32x32_S8000x32_1_0_0_1_n_n.rhsNonContracting from List.mem_singleton.mpr rfl)]
  rfl

theorem matmul32_apply (A : FVec Ideal Cert.KernelIdeal.S8000x32 .bf16) (B : FVec Ideal Cert.KernelIdeal.S32x32 .bf16) (p : Fin 8000) (d : Fin 32) :
    matmul Cert.KernelIdeal.dot_S8000x32_S32x32_S8000x32_1_0_0_1_n_n none A B (constant (F := Ideal) Cert.KernelIdeal.S8000x32 .f32 0x00000000#32) (ix2 p d)
      = ∑ k : Fin 32, A (ix2 p k) * B (ix2 k d) := by
  show FloatOps.matmul _ none A B _ (ix2 p d) = _
  rw [Ideal.matmul_constant_zero_apply]
  exact sum_contr_eq _ rfl rfl lhs_k32_0 lhs_k32_1 rhs_k32_0 rhs_k32_1 A B p d
end K32
section R32

theorem lhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 0).val = (i 0).val := by
  unfold DotDims.lhsIdx
  rw [dif_neg (show ¬(0 : Fin Cert.ReferenceIdeal.S160000x32.rank) ∈ Cert.ReferenceIdeal.dot_S160000x32_S32x32_S160000x32_1_0_0_1_n_n.lhsBatch from List.not_mem_nil),
    dif_pos (show (0 : Fin Cert.ReferenceIdeal.S160000x32.rank) ∈ Cert.ReferenceIdeal.dot_S160000x32_S32x32_S160000x32_1_0_0_1_n_n.lhsNonContracting from List.mem_singleton.mpr rfl)]
  rfl
theorem lhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.lhsIdx i q 1).val = (q ⟨0, Nat.one_pos⟩).val :=
  Cert.ReferenceIdeal.dot_S160000x32_S32x32_S160000x32_1_0_0_1_n_n.lhsIdx_val_of_single rfl i q
theorem rhs_r32_0 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 0).val = (q ⟨0, Nat.one_pos⟩).val :=
  Cert.ReferenceIdeal.dot_S160000x32_S32x32_S160000x32_1_0_0_1_n_n.rhsIdx_val_of_single rfl i q
theorem rhs_r32_1 (i : Cert.ReferenceIdeal.S160000x32.Idx) (q : Cert.ReferenceIdeal.dot_S160000x32_S32x32_S160000x32_1_0_0_1_n_n.contr.Idx) :
    (Cert.ReferenceIdeal.dot_S160000x32_S32x32_S160000x32_1_0_0_1_n_n.rhsIdx i q 1).val = (i 1).val := by
  unfold DotDims.rhsIdx
  rw [dif_neg (show ¬(1 : Fin Cert.ReferenceIdeal.S32x32.rank) ∈ Cert.ReferenceIdeal.dot_S160000x32_S32x32_S160000x32_1_0_0_1_n_n.rhsBatch from List.not_mem_nil),
    dif_pos (show (1 : Fin Cert.ReferenceIdeal.S32x32.rank) ∈ Cert.ReferenceIdeal.dot_S160000x32_S32x32_S160000x32_1_0_0_1_n_n.rhsNonContracting from List.mem_singleton.mpr rfl)]
  rfl

theorem dot32_apply (A : FVec Ideal Cert.ReferenceIdeal.S160000x32 .f32) (B : FVec Ideal Cert.ReferenceIdeal.S32x32 .f32) (p : Fin 160000) (d : Fin 32) :
    (Host.dotGeneral Cert.ReferenceIdeal.dot_S160000x32_S32x32_S160000x32_1_0_0_1_n_n none A B : FVec Ideal Cert.ReferenceIdeal.S160000x32 .f32) (ix2 p d)
      = ∑ k : Fin 32, A (ix2 p k) * B (ix2 k d) := by
  show FloatOps.dotGeneral _ none _ A B (ix2 p d) = _
  rw [Ideal.dotGeneral_apply]
  exact sum_contr_eq _ rfl rfl lhs_r32_0 lhs_r32_1 rhs_r32_0 rhs_r32_1 A B p d
end R32

/-! ## The kernel's one-hot row -/

section OneHot
open Cert.KernelIdeal Cert.KernelIdeal.Gen

/-- Column `c` of the index block, compared with the lane number along 50 lanes and made a float: at (p, k) it is one
    where the index is k and zero elsewhere. -/
theorem onehot_apply (v0 : Vec Ideal S8000x2 .i32) (c : Fin 2) (o : Nat) (ho : o = c.val) (hs : S8000x2.Slices ![0, o] S8000x1)
    (p : Fin 8000) (k : Fin 50) :
    (truncf .bf16 (sitofp .f32 (extui 32 (cmpi .eq (broadcastTo S8000x50 (extractStridedSlice S8000x1 ![0, o] v0 hs) broadcasts_S8000x1_S8000x50)
        (iota .tc S8000x50 32 [1] iota_S8000x50_d1_w32)) natLt_1_32)) bitsLt_bf16_f32 : FVec Ideal S8000x50 .bf16) (ix2 p k)
      = if v0 (ix2 p c) = BitVec.ofNat 32 k.val then 1 else 0 := by
  rw [truncf_apply, sitofp_apply, extui_apply]
  show FloatOps.sitofp (F := Ideal) .f32 ((IntOp.cmpi .eq (broadcastTo S8000x50 (extractStridedSlice S8000x1 ![0, o] v0 hs) broadcasts_S8000x1_S8000x50 (ix2 p k))
      (iota .tc S8000x50 32 [1] iota_S8000x50_d1_w32 (ix2 p k))).setWidth 32) = _
  rw [sitofp_cmpi_eq, iota_single_apply,
    broadcastTo_apply _ broadcasts_S8000x1_S8000x50 (ix2 p k) (ix2 p (0 : Fin 1)) (fun a => by
      match a with
      | ⟨0, _⟩ => rfl
      | ⟨1, _⟩ => rfl),
    slice2_axis1_apply o v0 hs p (0 : Fin 1) c (by simp [ho])]
end OneHot

/-! ## The reference's embedding lookup, read at an index -/

section RefEmbed
open Cert.ReferenceIdeal Cert.ReferenceIdeal.Facts₀

/-- The gather of table rows at (i, j, d): the table's row named by the start index at (i, j, 0), read signed and
    clamped into [0, 49], at column d. -/
theorem gather_rows_apply (e : FVec Ideal S50x32 .f32) (idx : IVec S160000x2x1 32) (i : Fin 160000) (j : Fin 2) (d : Fin 32) :
    Host.gather gather_S50x32_S160000x2x1_S160000x2x32_2_0_n_n_0_2_132 e idx (ix3 i j d)
      = e (ix2 (⟨min (idx (ix3 i j (0 : Fin 1))).toInt.toNat 49, by omega⟩ : Fin 50) d) := by
  unfold Host.gather
  refine congrArg e (funext fun a => Fin.ext ?_)
  match a with
  | ⟨0, _⟩ =>
    show gather_S50x32_S160000x2x1_S160000x2x32_2_0_n_n_0_2_132.start (ix3 i j d) idx 0
      + gather_S50x32_S160000x2x1_S160000x2x32_2_0_n_n_0_2_132.batchCoord (ix3 i j d) 0
      + gather_S50x32_S160000x2x1_S160000x2x32_2_0_n_n_0_2_132.offCoord (ix3 i j d) 0 = min _ 49
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x32_S160000x2x1_S160000x2x32_2_0_n_n_0_2_132.startIndexMap from List.mem_singleton.mpr rfl)]
    have hsi : gather_S50x32_S160000x2x1_S160000x2x32_2_0_n_n_0_2_132.siIdx (ix3 i j d)
        ⟨List.idxOf (0 : Fin 2) gather_S50x32_S160000x2x1_S160000x2x32_2_0_n_n_0_2_132.startIndexMap,
          List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S50x32_S160000x2x1_S160000x2x32_2_0_n_n_0_2_132.start (ix3 i j d) idx 1
      + gather_S50x32_S160000x2x1_S160000x2x32_2_0_n_n_0_2_132.batchCoord (ix3 i j d) 1
      + gather_S50x32_S160000x2x1_S160000x2x32_2_0_n_n_0_2_132.offCoord (ix3 i j d) 1 = d.val
    rw [GatherDims.batchCoord_eq_zero _ _ _ List.not_mem_nil]
    unfold GatherDims.start
    rw [dif_neg (show ¬(1 : Fin 2) ∈ gather_S50x32_S160000x2x1_S160000x2x32_2_0_n_n_0_2_132.startIndexMap from
      fun h => absurd (List.mem_singleton.mp h) (by decide))]
    simp only [Nat.add_zero, Nat.zero_add]
    rfl

/-- Under the range fact a lookup index is its own wrapped form. -/
theorem wrapZ_apply (z : Vec Ideal S160000x2 .i32) (j : S160000x2.Idx) (hz : (z j).toNat < 50) :
    Cert.Spec.wrapZ z j = z j := by
  unfold Cert.Spec.wrapZ
  rw [select_apply]
  show Scalar.select (IntOp.cmpi .slt (z j) _) _ (z j) = z j
  have h0 : IntOp.cmpi .slt (z j) (broadcastInDim S160000x2 ![] bcast_S_S160000x2 (constantI S_ 32 0#32) j) = 0#1 := by
    rw [broadcastInDim_scalar_apply]
    show BitVec.ofBool ((z j).slt 0#32) = 0#1
    have : (z j).slt 0#32 = false := by
      rw [BitVec.slt, decide_eq_false_iff_not]
      have h1 : (z j).toInt = (z j).toNat := BitVec.toInt_eq_toNat_of_lt (by omega)
      rw [h1]; simp
    rw [this]; rfl
  rw [h0, select_zero]

/-- Row i of the embedding stage: the table's rows named by the two lookup indices of row i, added. -/
theorem embed_apply (e : Vec Ideal S50x32 .f32) (z : Vec Ideal S160000x2 .i32) (i : Fin 160000) (d : Fin 32)
    (hz0 : (z (ix2 i 0)).toNat < 50) (hz1 : (z (ix2 i 1)).toNat < 50) :
    Cert.Spec.embed e z (ix2 i d) = e (ix2 (⟨(z (ix2 i 0)).toNat, hz0⟩ : Fin 50) d) + e (ix2 (⟨(z (ix2 i 1)).toNat, hz1⟩ : Fin 50) d) := by
  unfold Cert.Spec.embed
  rw [hostReduceAdd_apply]
  have hR : S160000x2x32.Reduces [1] S160000x32 := by decide
  rw [Ideal.hostReduceAdd_single reducesTo_S160000x2x32_S160000x32_d1 hR]
  have hl : ∀ k : Fin 2, hR.lift (ix2 i d) k = ix3 i k d := fun k => funext fun c => Fin.ext (by
    match c with
    | ⟨0, _⟩ => rfl
    | ⟨1, _⟩ => rfl
    | ⟨2, _⟩ => rfl)
  have hb : ∀ j : Fin 2, broadcastInDim S160000x2x1 ![0, 1] bcast_S160000x2_S160000x2x1_0_1 (Cert.Spec.wrapZ z) (ix3 i j (0 : Fin 1))
      = Cert.Spec.wrapZ z (ix2 i j) := fun j =>
    broadcastInDim_apply _ _ _ _ (ix2 i j) (fun a => by
      match a with
      | ⟨0, _⟩ => rfl
      | ⟨1, _⟩ => rfl)
  have hm : ∀ (w : BitVec 32), w.toNat < 50 → min w.toInt.toNat 49 = w.toNat := by
    intro w hw
    rw [BitVec.toInt_eq_toNat_of_lt (by omega)]
    simp only [Int.toNat_natCast]
    omega
  show Ideal.ofBits .f32 0x00000000#32 + ∑ k : Fin 2, _ = _
  rw [Ideal.ofBits_zero_f32, zero_add, Fin.sum_univ_two, hl 0, hl 1, gather_rows_apply, gather_rows_apply]
  refine congrArg₂ (· + ·) (congrArg (fun r => e (ix2 r d)) (Fin.ext ?_)) (congrArg (fun r => e (ix2 r d)) (Fin.ext ?_))
  · show min _ 49 = (z (ix2 i 0)).toNat
    rw [hb, wrapZ_apply z _ hz0, hm _ hz0]
  · show min _ 49 = (z (ix2 i 1)).toNat
    rw [hb, wrapZ_apply z _ hz1, hm _ hz1]

/-- The linear stage at (i, q): row i of the previous features beside the embedding, against column q of the weight,
    plus entry q of the bias. -/
theorem lin_apply (xp zl : Vec Ideal S160000x32 .f32) (tw : Vec Ideal S64x32 .f32) (tb : Vec Ideal S32 .f32) (i : Fin 160000) (q : Fin 32) :
    Cert.Spec.lin xp zl tw tb (ix2 i q)
      = (∑ k : Fin 64, concatenate S160000x64 1 [⟨S160000x32, xp⟩, ⟨S160000x32, zl⟩] concatenates_S160000x32_S160000x32_S160000x64_d1 (ix2 i k) * tw (ix2 k q))
        + tb (ix1 q) := by
  unfold Cert.Spec.lin
  rw [addf_apply, dot64_apply]
  congr 1
  show broadcastInDim S160000x32 ![0, 1] bcast_S1x32_S160000x32_0_1 (broadcastInDim S1x32 ![1] bcast_S32_S1x32_1 tb) (ix2 i q) = tb (ix1 q)
  rw [broadcastInDim_apply _ _ _ (ix2 i q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl)]

/-- The projection stage at (i, q). -/
theorem conv_apply (x : Vec Ideal S160000x32 .f32) (w : Vec Ideal S32x32 .f32) (i : Fin 160000) (q : Fin 32) :
    Cert.Spec.conv x w (ix2 i q) = ∑ k : Fin 32, x (ix2 i k) * w (ix2 k q) := by
  unfold Cert.Spec.conv
  exact dot32_apply x w i q
end RefEmbed

/-! ## The kernel's payloads, read at an index -/

section Payload
open Cert.KernelIdeal Cert.KernelIdeal.Gen

/-- The block's embedding part at (p, d): each one-hot row against the table selects the row its index names. -/
theorem zl_apply (v0 : Vec Ideal S8000x2 .i32) (v1 : Vec Ideal S50x32 .f32) (p : Fin 8000) (d : Fin 32)
    (h0 : (v0 (ix2 p 0)).toNat < 50) (h1 : (v0 (ix2 p 1)).toNat < 50) :
    (addf
      (matmul dot_S8000x50_S50x32_S8000x32_1_0_0_1_n_n none
        (truncf .bf16 (sitofp .f32 (extui 32 (cmpi .eq (broadcastTo S8000x50 (extractStridedSlice S8000x1 ![0, 0] v0 slices_S8000x2_o0_0_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      (matmul dot_S8000x50_S50x32_S8000x32_1_0_0_1_n_n none
        (truncf .bf16 (sitofp .f32 (extui 32 (cmpi .eq (broadcastTo S8000x50 (extractStridedSlice S8000x1 ![0, 1] v0 slices_S8000x2_o0_1_S8000x1) broadcasts_S8000x1_S8000x50)
          (iota .tc S8000x50 32 [1] iota_S8000x50_d1_w32)) natLt_1_32)) bitsLt_bf16_f32)
        (truncf .bf16 v1 bitsLt_bf16_f32) (constant (F := Ideal) S8000x32 .f32 0x00000000#32))
      : FVec Ideal S8000x32 .f32) (ix2 p d)
      = v1 (ix2 (⟨(v0 (ix2 p 0)).toNat, h0⟩ : Fin 50) d) + v1 (ix2 (⟨(v0 (ix2 p 1)).toNat, h1⟩ : Fin 50) d) := by
  rw [addf_apply, matmul50_apply, matmul50_apply]
  simp only [onehot_apply v0 0 0 rfl, onehot_apply v0 1 1 rfl, truncf_apply]
  rw [sum_onehot_mul _ h0 (by norm_num) (fun k => v1 (ix2 k d)), sum_onehot_mul _ h1 (by norm_num) (fun k => v1 (ix2 k d))]

/-- THE LINEAR PAYLOAD IS THE LINEAR STAGE: at row p of a block whose index and feature rows are rows i of the arrays,
    with the table, the weight and the bias row the arrays', the stored value at (p, q) is the stage's at (i, q). -/
theorem pay1_eq_lin
    (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : v29 (ix2 (0 : Fin 1) q) = tb (ix1 q)) (hz : ∀ c : Fin 2, (z (ix2 i c)).toNat < 50) :
    k12_pay1 v0 v1 v21 v24 v29 (ix2 p q) = Cert.Spec.lin xp (Cert.Spec.embed e z) tw tb (ix2 i q) := by
  subst e2 e3
  unfold k12_pay1
  dsimp only
  rw [addf_apply, matmul64_apply, broadcastTo_1b_ab_apply]
  simp only [truncf_apply, shapeCast_self]
  rw [lin_apply]
  refine congrArg₂ (· + ·) (Finset.sum_congr rfl fun k _ => ?_) e4
  refine congrArg₂ (· * ·) ?_ rfl
  by_cases hk : k.val < 32
  · rw [concatenate_pair_apply_left (1 : Fin 2) v21 _ concatenates_S8000x32_S8000x32_S8000x64_d1 (ix2 p k) rfl (ix2 p (⟨k.val, hk⟩ : Fin 32)) (fun b => by
        match b with
        | ⟨0, _⟩ => rfl
        | ⟨1, _⟩ => rfl),
      concatenate_pair_apply_left (1 : Fin 2) xp _ Cert.ReferenceIdeal.Facts₀.concatenates_S160000x32_S160000x32_S160000x64_d1 (ix2 i k) rfl (ix2 i (⟨k.val, hk⟩ : Fin 32)) (fun b => by
        match b with
        | ⟨0, _⟩ => rfl
        | ⟨1, _⟩ => rfl)]
    exact e1 _
  · have hk' : k.val - 32 < 32 := by have := k.isLt; omega
    have h0 : (v0 (ix2 p 0)).toNat < 50 := by rw [e0]; exact hz 0
    have h1 : (v0 (ix2 p 1)).toNat < 50 := by rw [e0]; exact hz 1
    rw [concatenate_pair_apply_right (t := S8000x64) (s₁ := S8000x32) (s₂ := S8000x32) (1 : Fin 2) v21 _ concatenates_S8000x32_S8000x32_S8000x64_d1 (ix2 p k) rfl rfl (ix2 p (⟨k.val - 32, hk'⟩ : Fin 32)) (fun b hb => by
        match b, hb with
        | ⟨0, _⟩, _ => rfl
        | ⟨1, _⟩, hb => exact absurd rfl hb) (by show (k.val - 32) + 32 = k.val; omega),
      concatenate_pair_apply_right (t := Cert.ReferenceIdeal.S160000x64) (s₁ := Cert.ReferenceIdeal.S160000x32) (s₂ := Cert.ReferenceIdeal.S160000x32) (1 : Fin 2) xp _ Cert.ReferenceIdeal.Facts₀.concatenates_S160000x32_S160000x32_S160000x64_d1 (ix2 i k) rfl rfl (ix2 i (⟨k.val - 32, hk'⟩ : Fin 32)) (fun b hb => by
        match b, hb with
        | ⟨0, _⟩, _ => rfl
        | ⟨1, _⟩, hb => exact absurd rfl hb) (by show (k.val - 32) + 32 = k.val; omega),
      zl_apply v0 v1 p _ h0 h1, embed_apply v1 z i _ (hz 0) (hz 1)]
    refine congrArg₂ (· + ·) (congrArg (fun r => v1 (ix2 r _)) (Fin.ext ?_)) (congrArg (fun r => v1 (ix2 r _)) (Fin.ext ?_))
    · show (v0 (ix2 p 0)).toNat = (z (ix2 i 0)).toNat
      rw [e0]
    · show (v0 (ix2 p 1)).toNat = (z (ix2 i 1)).toNat
      rw [e0]

/-- The projected payload at (p, q): row p of the linear payload against column q of the projection. -/
theorem pay2_apply (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32) (p : Fin 8000) (q : Fin 32) :
    k12_pay2 v0 v1 v21 v24 v29 v34 (ix2 p q) = ∑ k : Fin 32, k12_pay1 v0 v1 v21 v24 v29 (ix2 p k) * v34 (ix2 k q) := by
  unfold k12_pay2
  try dsimp only
  rw [matmul32_apply]
  simp only [truncf_apply, shapeCast_self]

/-- THE PROJECTED PAYLOAD IS THE PROJECTION STAGE of the linear stage, under the same reading of the block. -/
theorem pay2_eq_conv
    (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (p : Fin 8000) (i : Fin 160000) (q : Fin 32)
    (e0 : ∀ c : Fin 2, v0 (ix2 p c) = z (ix2 i c)) (e1 : ∀ k : Fin 32, v21 (ix2 p k) = xp (ix2 i k))
    (e2 : v1 = e) (e3 : v24 = tw) (e4 : ∀ k : Fin 32, v29 (ix2 (0 : Fin 1) k) = tb (ix1 k)) (e5 : v34 = w)
    (hz : ∀ c : Fin 2, (z (ix2 i c)).toNat < 50) :
    k12_pay2 v0 v1 v21 v24 v29 v34 (ix2 p q)
      = Cert.Spec.conv (Cert.Spec.lin xp (Cert.Spec.embed e z) tw tb) w (ix2 i q) := by
  subst e5
  rw [pay2_apply, conv_apply]
  refine Finset.sum_congr rfl fun k _ => ?_
  rw [pay1_eq_lin v0 v1 v21 v24 v29 z xp e tw tb p i k e0 e1 e2 e3 (e4 k) hz]
/-- The same at any index of the block and of the array: the two share their column, and the block's row holds the
    array's row. -/
theorem pay1_at (v0 : Vec Ideal S8000x2 .i32) (v1 : Vec Ideal S50x32 .f32) (v21 : Vec Ideal S8000x32 .f32) (v24 : Vec Ideal S64x32 .f32) (v29 : Vec Ideal S1x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (hz : ∀ j, (z j).toNat < 50) :
    k12_pay1 v0 v1 v21 v24 v29 y = Cert.Spec.lin xp (Cert.Spec.embed e z) tw tb i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay1_eq_lin v0 v1 v21 v24 v29 z xp e tw tb p i0 i1 e0 e1 e2 e3 (e4 _) (fun c => hz _)

theorem pay2_at (v0 : Vec Ideal S8000x2 .i32) (v1 : Vec Ideal S50x32 .f32) (v21 : Vec Ideal S8000x32 .f32) (v24 : Vec Ideal S64x32 .f32) (v29 : Vec Ideal S1x32 .f32)
    (v34 : Vec Ideal S32x32 .f32)
    (z : Vec Ideal Cert.ReferenceIdeal.S160000x2 .i32) (xp : Vec Ideal Cert.ReferenceIdeal.S160000x32 .f32) (e : Vec Ideal Cert.ReferenceIdeal.S50x32 .f32)
    (tw : Vec Ideal Cert.ReferenceIdeal.S64x32 .f32) (tb : Vec Ideal Cert.ReferenceIdeal.S32 .f32) (w : Vec Ideal Cert.ReferenceIdeal.S32x32 .f32)
    (y : S8000x32.Idx) (i : Cert.ReferenceIdeal.S160000x32.Idx) (hi : (i 1).val = (y 1).val)
    (e0 : ∀ c : Fin 2, v0 (ix2 (y 0) c) = z (ix2 (i 0) c)) (e1 : ∀ k : Fin 32, v21 (ix2 (y 0) k) = xp (ix2 (i 0) k))
    (e2 : v1 = e) (e3 : v24 = tw) (e4 : ∀ k : Fin 32, v29 (ix2 (0 : Fin 1) k) = tb (ix1 k)) (e5 : v34 = w)
    (hz : ∀ j, (z j).toNat < 50) :
    k12_pay2 v0 v1 v21 v24 v29 v34 y = Cert.Spec.conv (Cert.Spec.lin xp (Cert.Spec.embed e z) tw tb) w i := by
  obtain ⟨p, q, rfl⟩ : ∃ (p : Fin 8000) (q : Fin 32), y = ix2 p q := ⟨y 0, y 1, eq_ix2 y⟩
  obtain ⟨i0, i1, rfl⟩ : ∃ (i0 : Fin 160000) (i1 : Fin 32), i = ix2 i0 i1 := ⟨i 0, i 1, eq_ix2 i⟩
  obtain rfl : i1 = q := Fin.ext hi
  exact pay2_eq_conv v0 v1 v21 v24 v29 v34 z xp e tw tb w p i0 i1 e0 e1 e2 e3 e4 e5 (fun c => hz _)
end Payload

/-! ## The windows' blocks at a grid point -/

section Blocks
open Cert.KernelIdeal Cert.KernelIdeal.Gen

/-- The index maps over the grid: the index block, the feature block and the two output blocks are block t of their
    arrays' rows; the table, the weight, the bias row and the projection are whole at every point. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0 :=
  (by decide +kernel : ∀ t : Fin grid12.N, _)

/-- What the input windows' blocks at point t hold, against row t · 8000 + (the block's row) of the arrays: the index
    block's and the feature block's rows are the arrays' rows; the table, the weight and the projection are read whole;
    the bias row is the bias. -/
theorem reads_at (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32)
    (h4 : ∀ k : Fin 32, A4 (ix2 (0 : Fin 1) k) = tb (ix1 k)) (t : Fin cfg12.N) (r : Fin 8000) (i0 : Fin 160000)
    (hi0 : i0.val = t.val * 8000 + r.val) :
    (∀ c : Fin 2, ((cfg12.win 0).blk t).view.read (Elt Ideal) A0 (ix2 r c) = A0 (ix2 i0 c))
    ∧ (∀ k : Fin 32, ((cfg12.win 1).blk t).view.read (Elt Ideal) A1 (ix2 r k) = A1 (ix2 i0 k))
    ∧ ((cfg12.win 2).blk t).view.read (Elt Ideal) A2 = A2
    ∧ ((cfg12.win 3).blk t).view.read (Elt Ideal) A3 = A3
    ∧ (∀ k : Fin 32, ((cfg12.win 4).blk t).view.read (Elt Ideal) A4 (ix2 (0 : Fin 1) k) = tb (ix1 k))
    ∧ ((cfg12.win 5).blk t).view.read (Elt Ideal) A5 = A5 := by
  obtain ⟨f00, f01, f10, f11, f20, f21, f30, f31, f40, f41, f50, f51, f60, f61, f70, f71⟩ := idx_facts t
  refine ⟨fun c' => ?_, fun k => ?_, funext fun x => ?_, funext fun x => ?_, fun k => ?_, funext fun x => ?_⟩
  · show A0 (((cfg12.win 0).blk t).view.emb (ix2 r c')) = A0 (ix2 i0 c')
    refine congrArg A0 (funext fun a => Fin.ext ?_)
    match a with
    | ⟨0, _⟩ => show win12_0.index t (0 : Fin 2) * 8000 + 1 * r.val = i0.val; rw [f00, hi0]; omega
    | ⟨1, _⟩ => show win12_0.index t (1 : Fin 2) * 2 + 1 * c'.val = c'.val; rw [f01]; omega
  · show A1 (((cfg12.win 1).blk t).view.emb (ix2 r k)) = A1 (ix2 i0 k)
    refine congrArg A1 (funext fun a => Fin.ext ?_)
    match a with
    | ⟨0, _⟩ => show win12_1.index t (0 : Fin 2) * 8000 + 1 * r.val = i0.val; rw [f10, hi0]; omega
    | ⟨1, _⟩ => show win12_1.index t (1 : Fin 2) * 32 + 1 * k.val = k.val; rw [f11]; omega
  · show A2 (((cfg12.win 2).blk t).view.emb x) = A2 x
    refine congrArg A2 (funext fun a => Fin.ext ?_)
    match a with
    | ⟨0, _⟩ => show win12_2.index t (0 : Fin 2) * 50 + 1 * (x 0).val = (x 0).val; rw [f20]; omega
    | ⟨1, _⟩ => show win12_2.index t (1 : Fin 2) * 32 + 1 * (x 1).val = (x 1).val; rw [f21]; omega
  · show A3 (((cfg12.win 3).blk t).view.emb x) = A3 x
    refine congrArg A3 (funext fun a => Fin.ext ?_)
    match a with
    | ⟨0, _⟩ => show win12_3.index t (0 : Fin 2) * 64 + 1 * (x 0).val = (x 0).val; rw [f30]; omega
    | ⟨1, _⟩ => show win12_3.index t (1 : Fin 2) * 32 + 1 * (x 1).val = (x 1).val; rw [f31]; omega
  · show A4 (((cfg12.win 4).blk t).view.emb (ix2 (0 : Fin 1) k)) = tb (ix1 k)
    refine Eq.trans (congrArg A4 (funext fun a => Fin.ext ?_)) (h4 k)
    match a with
    | ⟨0, _⟩ => show win12_4.index t (0 : Fin 2) * 1 + 1 * 0 = 0; rw [f40]
    | ⟨1, _⟩ => show win12_4.index t (1 : Fin 2) * 32 + 1 * k.val = k.val; rw [f41]; omega
  · show A5 (((cfg12.win 5).blk t).view.emb x) = A5 x
    refine congrArg A5 (funext fun a => Fin.ext ?_)
    match a with
    | ⟨0, _⟩ => show win12_5.index t (0 : Fin 2) * 32 + 1 * (x 0).val = (x 0).val; rw [f50]; omega
    | ⟨1, _⟩ => show win12_5.index t (1 : Fin 2) * 32 + 1 * (x 1).val = (x 1).val; rw [f51]; omega

/-- THE LINEAR BLOCK: the linear payload of the windows' blocks at point t is block t of the linear stage of the arrays. -/
theorem block_lin (A0 : Vec Ideal S160000x2 .i32) (A1 : Vec Ideal S160000x32 .f32) (A2 : Vec Ideal S50x32 .f32) (A3 : Vec Ideal S64x32 .f32)
    (A4 : Vec Ideal S1x32 .f32) (tb : Vec Ideal Cert.ReferenceIdeal.S32 .f32) (hz : ∀ j, (A0 j).toNat < 50)
    (h4 : ∀ k : Fin 32, A4 (ix2 (0 : Fin 1) k) = tb (ix1 k)) (t : Fin cfg12.N) :
    k12_pay1 (((cfg12.win 0).blk t).view.read (Elt Ideal) A0) (((cfg12.win 2).blk t).view.read (Elt Ideal) A2)
        (((cfg12.win 1).blk t).view.read (Elt Ideal) A1) (((cfg12.win 3).blk t).view.read (Elt Ideal) A3)
        (((cfg12.win 4).blk t).view.read (Elt Ideal) A4)
      = ((cfg12.win 6).blk t).view.read (Elt Ideal) (Cert.Spec.lin A1 (Cert.Spec.embed A2 A0) A3 tb) := by
  funext y
  show k12_pay1 (F := Ideal) _ _ _ _ _ y = Cert.Spec.lin A1 (Cert.Spec.embed A2 A0) A3 tb (((cfg12.win 6).blk t).view.emb y)
  have hi0 : ((((cfg12.win 6).blk t).view.emb y) 0).val = t.val * 8000 + (y 0).val := by
    show win12_6.index t (0 : Fin 2) * 8000 + 1 * (y 0).val = _
    rw [(idx_facts t).2.2.2.2.2.2.2.2.2.2.2.2.1]; omega
  have hi1 : ((((cfg12.win 6).blk t).view.emb y) 1).val = (y 1).val := by
    show win12_6.index t (1 : Fin 2) * 32 + 1 * (y 1).val = _
    rw [(idx_facts t).2.2.2.2.2.2.2.2.2.2.2.2.2.1]; omega
  obtain ⟨e0, e1, e2, e3, e4, -⟩ := reads_at A0 A1 A2 A3 A4 (fun _ => 0) tb h4 t (y 0) ((((cfg12.win 6).blk t).view.emb y) 0) hi0
  exact pay1_at _ _ _ _ _ A0 A1 A2 A3 tb y _ hi1 e0 e1 e2 e3 e4 hz

/-- THE PROJECTED BLOCK: the projected payload of the windows' blocks at point t is block t of the projection stage. -/
theorem block_conv (A0 : Vec Ideal S160000x2 .i32) (A1 : Vec Ideal S160000x32 .f32) (A2 : Vec Ideal S50x32 .f32) (A3 : Vec Ideal S64x32 .f32)
    (A4 : Vec Ideal S1x32 .f32) (A5 : Vec Ideal S32x32 .f32) (tb : Vec Ideal Cert.ReferenceIdeal.S32 .f32) (hz : ∀ j, (A0 j).toNat < 50)
    (h4 : ∀ k : Fin 32, A4 (ix2 (0 : Fin 1) k) = tb (ix1 k)) (t : Fin cfg12.N) :
    k12_pay2 (((cfg12.win 0).blk t).view.read (Elt Ideal) A0) (((cfg12.win 2).blk t).view.read (Elt Ideal) A2)
        (((cfg12.win 1).blk t).view.read (Elt Ideal) A1) (((cfg12.win 3).blk t).view.read (Elt Ideal) A3)
        (((cfg12.win 4).blk t).view.read (Elt Ideal) A4) (((cfg12.win 5).blk t).view.read (Elt Ideal) A5)
      = ((cfg12.win 7).blk t).view.read (Elt Ideal) (Cert.Spec.conv (Cert.Spec.lin A1 (Cert.Spec.embed A2 A0) A3 tb) A5) := by
  funext y
  show k12_pay2 (F := Ideal) _ _ _ _ _ _ y
    = Cert.Spec.conv (Cert.Spec.lin A1 (Cert.Spec.embed A2 A0) A3 tb) A5 (((cfg12.win 7).blk t).view.emb y)
  have hi0 : ((((cfg12.win 7).blk t).view.emb y) 0).val = t.val * 8000 + (y 0).val := by
    show win12_7.index t (0 : Fin 2) * 8000 + 1 * (y 0).val = _
    rw [(idx_facts t).2.2.2.2.2.2.2.2.2.2.2.2.2.2.1]; omega
  have hi1 : ((((cfg12.win 7).blk t).view.emb y) 1).val = (y 1).val := by
    show win12_7.index t (1 : Fin 2) * 32 + 1 * (y 1).val = _
    rw [(idx_facts t).2.2.2.2.2.2.2.2.2.2.2.2.2.2.2]; omega
  obtain ⟨e0, e1, e2, e3, e4, e5⟩ := reads_at A0 A1 A2 A3 A4 A5 tb h4 t (y 0) ((((cfg12.win 7).blk t).view.emb y) 0) hi0
  exact pay2_at _ _ _ _ _ _ A0 A1 A2 A3 tb A5 y _ hi1 e0 e1 e2 e3 e4 e5 hz

/-! ## The output blocks tile their arrays -/

/-- An index of an output array is in point t's block iff each coordinate is in the block's range on its axis. -/
theorem mem_blk6 (t : Fin cfg12.N) (i : S160000x32.Idx) :
    i ∈ ((cfg12.win 6).blk t).view.set ↔ ∀ a : Fin 2, win12_6.index t a * S8000x32.size a ≤ (i a).val ∧ (i a).val < win12_6.index t a * S8000x32.size a + S8000x32.size a := by
  show i ∈ ((View.whole win12_6.arr.view.ref).slice (win12_6.rect t)).set ↔ _
  rw [View.set_slice_whole, Rect.mem_set_unit]
  exact Iff.rfl
theorem mem_blk7 (t : Fin cfg12.N) (i : S160000x32.Idx) :
    i ∈ ((cfg12.win 7).blk t).view.set ↔ ∀ a : Fin 2, win12_7.index t a * S8000x32.size a ≤ (i a).val ∧ (i a).val < win12_7.index t a * S8000x32.size a + S8000x32.size a := by
  show i ∈ ((View.whole win12_7.arr.view.ref).slice (win12_7.rect t)).set ↔ _
  rw [View.set_slice_whole, Rect.mem_set_unit]
  exact Iff.rfl

/-- Row r of an output array is in the block of point r / 8000. -/
theorem cover6 (i : S160000x32.Idx) : ∃ t : Fin cfg12.N, (cfg12.win 6).flush t = true ∧ i ∈ ((cfg12.win 6).blk t).view.set := by
  have hi0 : (i 0).val < 160000 := (i 0).isLt
  have hi1 : (i 1).val < 32 := (i 1).isLt
  obtain ⟨t, ht⟩ : ∃ t : Fin cfg12.N, t.val = (i 0).val / 8000 := ⟨⟨(i 0).val / 8000, by rw [show cfg12.N = 20 from (by decide : grid12.N = 20)]; omega⟩, rfl⟩
  obtain ⟨f00, f01, f10, f11, f20, f21, f30, f31, f40, f41, f50, f51, f60, f61, f70, f71⟩ := idx_facts t
  refine ⟨t, flush12_6 t, ?_⟩
  rw [mem_blk6]
  intro a
  match a with
  | ⟨0, _⟩ => show win12_6.index t (0 : Fin 2) * 8000 ≤ (i 0).val ∧ (i 0).val < win12_6.index t (0 : Fin 2) * 8000 + 8000; rw [f60, ht]; omega
  | ⟨1, _⟩ => show win12_6.index t (1 : Fin 2) * 32 ≤ (i 1).val ∧ (i 1).val < win12_6.index t (1 : Fin 2) * 32 + 32; rw [f61]; omega
theorem cover7 (i : S160000x32.Idx) : ∃ t : Fin cfg12.N, (cfg12.win 7).flush t = true ∧ i ∈ ((cfg12.win 7).blk t).view.set := by
  have hi0 : (i 0).val < 160000 := (i 0).isLt
  have hi1 : (i 1).val < 32 := (i 1).isLt
  obtain ⟨t, ht⟩ : ∃ t : Fin cfg12.N, t.val = (i 0).val / 8000 := ⟨⟨(i 0).val / 8000, by rw [show cfg12.N = 20 from (by decide : grid12.N = 20)]; omega⟩, rfl⟩
  obtain ⟨f00, f01, f10, f11, f20, f21, f30, f31, f40, f41, f50, f51, f60, f61, f70, f71⟩ := idx_facts t
  refine ⟨t, flush12_7 t, ?_⟩
  rw [mem_blk7]
  intro a
  match a with
  | ⟨0, _⟩ => show win12_7.index t (0 : Fin 2) * 8000 ≤ (i 0).val ∧ (i 0).val < win12_7.index t (0 : Fin 2) * 8000 + 8000; rw [f70, ht]; omega
  | ⟨1, _⟩ => show win12_7.index t (1 : Fin 2) * 32 ≤ (i 1).val ∧ (i 1).val < win12_7.index t (1 : Fin 2) * 32 + 32; rw [f71]; omega
end Blocks
end Cert.KernelValue.EmbedLN12

end
-- ==== Proof.EmbedLN12.lean ====
/-
  One layer's embedding + linear + projection region: what its two output arrays hold after the grid's 20 points.
  At each point the body's two stores leave, in the two staging buffers, the linear payload and the projected payload of
  the windows' blocks; these are block t of the linear stage and of the projection stage of the arrays the region finds
  in its input windows; the 20 blocks of 8000 rows tile the 160000 rows, so each output array ends holding its stage
  function of the inputs.
-/
import proofs.«425927_j69028714381396_2_alg».proof.Proof.FrameKIW
import proofs.«425927_j69028714381396_2_alg».proof.Proof.EmbedLNPay12
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

namespace EmbedLN12

theorem hz2 : (![0, 0] : Fin 2 → Nat) = fun _ => 0 := funext fun a => by fin_cases a <;> rfl

variable (V : (c : Dev nD) → (b : Ref sig .tc) → Buf (Elt Ideal) ((c : Thread nD τ).loc b))

/-- The arrays the region finds in its six input windows, at their literal types. -/
abbrev arr0 (c : Dev nD) : Vec Ideal S160000x2 .i32 := V c (Pipeline.arrRef spec12 0)
abbrev arr1 (c : Dev nD) : Vec Ideal S160000x32 .f32 := V c (Pipeline.arrRef spec12 1)
abbrev arr2 (c : Dev nD) : Vec Ideal S50x32 .f32 := V c (Pipeline.arrRef spec12 2)
abbrev arr3 (c : Dev nD) : Vec Ideal S64x32 .f32 := V c (Pipeline.arrRef spec12 3)
abbrev arr4 (c : Dev nD) : Vec Ideal S1x32 .f32 := V c (Pipeline.arrRef spec12 4)
abbrev arr5 (c : Dev nD) : Vec Ideal S32x32 .f32 := V c (Pipeline.arrRef spec12 5)

/-- What point t writes back to the linear output: block t of the linear stage of the arrays the region finds. -/
theorem flushed6_eq (c : Dev nD) (tb : Vec Ideal S32 .f32) (hz : ∀ j, (arr0 V c j).toNat < 50)
    (h4 : ∀ q : Fin 32, arr4 V c (ix2 (0 : Fin 1) q) = tb (ix1 q)) (t : Fin cfg12.N) :
    (dat12 (F := Ideal) V c).flushed 6 t = ((cfg12.win 6).blk t).view.read (Elt Ideal)
      (Cert.Spec.lin (arr1 V c) (Cert.Spec.embed (arr2 V c) (arr0 V c)) (arr3 V c) tb) := by
  show (cfg12.win 6).cut (grid12.coords t) ((dat12 V c).after 6 t) = _
  rw [after12_6]
  unfold out12_6
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2]
  exact block_lin (arr0 V c) (arr1 V c) (arr2 V c) (arr3 V c) (arr4 V c) tb hz h4 t

/-- What point t writes back to the projected output: block t of the projection stage. -/
theorem flushed7_eq (c : Dev nD) (tb : Vec Ideal S32 .f32) (hz : ∀ j, (arr0 V c j).toNat < 50)
    (h4 : ∀ q : Fin 32, arr4 V c (ix2 (0 : Fin 1) q) = tb (ix1 q)) (t : Fin cfg12.N) :
    (dat12 (F := Ideal) V c).flushed 7 t = ((cfg12.win 7).blk t).view.read (Elt Ideal)
      (Cert.Spec.conv (Cert.Spec.lin (arr1 V c) (Cert.Spec.embed (arr2 V c) (arr0 V c)) (arr3 V c) tb) (arr5 V c)) := by
  show (cfg12.win 7).cut (grid12.coords t) ((dat12 V c).after 7 t) = _
  rw [after12_7]
  unfold out12_7
  rw [View.canon_unit_zero hz2]
  simp only [View.ld_unit_zero (S := S8000x2) hz2, View.ld_unit_zero (S := S50x32) hz2, View.ld_unit_zero (S := S8000x32) hz2,
    View.ld_unit_zero (S := S64x32) hz2, View.ld_unit_zero (S := S1x32) hz2, View.ld_unit_zero (S := S32x32) hz2]
  exact block_conv (arr0 V c) (arr1 V c) (arr2 V c) (arr3 V c) (arr4 V c) (arr5 V c) tb hz h4 t

end EmbedLN12

/-- THE LINEAR OUTPUT after the region: the linear stage of the previous features and the embedding of the indices. -/
theorem embedN12_xlin (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (hz : ∀ i, (z i).toNat < 50)
    (h0 : V c (Pipeline.arrRef spec12 0) = z) (h1 : V c (Pipeline.arrRef spec12 1) = xp) (h2 : V c (Pipeline.arrRef spec12 2) = e)
    (h3 : V c (Pipeline.arrRef spec12 3) = tw)
    (h4 : ∀ q : Fin 32, (V c (Pipeline.arrRef spec12 4) : Vec Ideal S1x32 .f32) (ix2 (0 : Fin 1) q) = tb (ix1 q)) :
    (dat12 (F := Ideal) V c).arrAt 6 cfg12.N = Cert.Spec.lin xp (Cert.Spec.embed e z) tw tb := by
  subst h0 h1 h2 h3
  exact (dat12 (F := Ideal) V c).arrAt_eq_of_cover 6 _ (fun t _ => EmbedLN12.flushed6_eq V c tb hz h4 t) EmbedLN12.cover6

/-- THE PROJECTED OUTPUT after the region: the projection stage of the linear output. -/
theorem embedN12_m (V : (c : Dev nD) → (b : Ref sig .tc) → Buf (Elt Ideal) ((c : Thread nD τ).loc b)) (c : Dev nD)
    (z : Vec Ideal S160000x2 .i32) (xp : Vec Ideal S160000x32 .f32) (e : Vec Ideal S50x32 .f32) (tw : Vec Ideal S64x32 .f32)
    (tb : Vec Ideal S32 .f32) (w : Vec Ideal S32x32 .f32) (hz : ∀ i, (z i).toNat < 50)
    (h0 : V c (Pipeline.arrRef spec12 0) = z) (h1 : V c (Pipeline.arrRef spec12 1) = xp) (h2 : V c (Pipeline.arrRef spec12 2) = e)
    (h3 : V c (Pipeline.arrRef spec12 3) = tw)
    (h4 : ∀ q : Fin 32, (V c (Pipeline.arrRef spec12 4) : Vec Ideal S1x32 .f32) (ix2 (0 : Fin 1) q) = tb (ix1 q))
    (h5 : V c (Pipeline.arrRef spec12 5) = w) :
    (dat12 (F := Ideal) V c).arrAt 7 cfg12.N = Cert.Spec.conv (Cert.Spec.lin xp (Cert.Spec.embed e z) tw tb) w := by
  subst h0 h1 h2 h3 h5
  exact (dat12 (F := Ideal) V c).arrAt_eq_of_cover 7 _ (fun t _ => EmbedLN12.flushed7_eq V c tb hz h4 t) EmbedLN12.cover7

end Cert.KernelValue

end
-- ==== Proof.GruPay13.lean ====
/-
  The gated-update kernel's body in region 13 (the same operations on the same shapes as in region 1), read at one
  entry, and its meeting with the reference's gated update. The lemmas that do not name a region (a matrix product at
  an entry, the column slices, the bias row, the reference at an entry) are imported.
-/
import proofs.«425927_j69028714381396_2_alg».proof.Proof.GruPay1

noncomputable section

namespace Cert.KernelValue.Gru

open Idealize.ShloMosaic Idealize.ShloMosaic.ValueIdx Cert.KernelIdeal Cert.KernelIdeal.Gen
open scoped BigOperators

/-! ## Region 13: the body's value at an entry, and its meeting with the reference -/

/-- The kernel's matrix product into a zero accumulator, read at (p, k): the row times the column. -/
theorem mm13_apply {φ₁ φ₂ : FTy} (A : FVec Ideal S8000x32 φ₁) (B : FVec Ideal S32x96 φ₂) (p : Fin 8000) (k : Fin 96) :
    matmul dot_S8000x32_S32x96_S8000x96_1_0_0_1_n_n none A B (constant (F := Ideal) S8000x96 .f32 0x00000000#32) (ix2 p k)
      = ∑ j : Fin 32, A (ix2 p j) * B (ix2 j k) :=
  (Ideal.matmul_constant_zero_apply _ none A B (ix2 p k)).trans
    (dot2_sum dot_S8000x32_S32x96_S8000x96_1_0_0_1_n_n rfl rfl rfl rfl rfl rfl A B p k)

/-- The body's value at entry (p, q) of its block is the gated update of row p of the two row blocks. -/
theorem pay13_apply (x0 x1 : Vec Ideal S8000x32 .f32) (w2 w3 : Vec Ideal S32x96 .f32) (b4 b5 : Vec Ideal S1x96 .f32)
    (p : Fin 8000) (q : Fin 32) :
    k13_pay1 (F := Ideal) x0 x1 w2 w3 b4 b5 (ix2 p q)
      = cell (fun j => x0 (ix2 p j)) (fun j => x1 (ix2 p j)) w2 w3 (fun k => b4 (ix2 0 k)) (fun k => b5 (ix2 0 k)) q := by
  unfold k13_pay1
  simp only [shapeCast_self, addf_apply, mulf_apply, subf_apply, logistic_apply, tanh_apply, broadcast_apply,
    slice0, slice1, slice2, mm13_apply, row_bcast, truncf_apply]
  rw [show FloatOps.ofBits (F := Ideal) .f32 0x3F800000#32 = 1 from Ideal.ofBits_one_f32]
  rfl

/-- Entry y of the body's value, on row blocks that are rows t·8000 onwards of the two arrays, the whole weights and the
    bias rows, is entry i of the reference's gated update, i being y moved down t blocks. -/
theorem pay13_eq_gru [Cert.ReferenceIdeal.Facts₀]
    (x0 x1 : Vec Ideal S8000x32 .f32) (w2 w3 : Vec Ideal S32x96 .f32) (b4 b5 : Vec Ideal S1x96 .f32)
    (x ag : Vec Ideal S160000x32 .f32) (wi wh : Vec Ideal S32x96 .f32) (bi bh : Vec Ideal S96 .f32)
    (tv : Nat) (y : S8000x32.Idx) (i : S160000x32.Idx)
    (hi0 : (i 0).val = tv * 8000 + (y 0).val) (hi1 : (i 1).val = (y 1).val)
    (h0 : ∀ (y' : S8000x32.Idx) (i' : S160000x32.Idx), (i' 0).val = tv * 8000 + (y' 0).val → (i' 1).val = (y' 1).val → x0 y' = x i')
    (h1 : ∀ (y' : S8000x32.Idx) (i' : S160000x32.Idx), (i' 0).val = tv * 8000 + (y' 0).val → (i' 1).val = (y' 1).val → x1 y' = ag i')
    (h2 : w2 = wi) (h3 : w3 = wh)
    (h4 : ∀ k : Fin 96, b4 (ix2 0 k) = bi (ix1 k)) (h5 : ∀ k : Fin 96, b5 (ix2 0 k) = bh (ix1 k)) :
    k13_pay1 (F := Ideal) x0 x1 w2 w3 b4 b5 y = Cert.Spec.gru (F := Ideal) x ag wi wh bi bh i := by
  obtain ⟨p, q, rfl⟩ : ∃ (p : Fin 8000) (q : Fin 32), y = ix2 p q := ⟨y 0, y 1, eq_ix2 y⟩
  obtain ⟨r, s, rfl⟩ : ∃ (r : Fin 160000) (s : Fin 32), i = ix2 r s := ⟨i 0, i 1, eq_ix2 i⟩
  obtain rfl : s = q := Fin.ext hi1
  rw [pay13_apply, gru_apply]
  subst h2 h3
  have e0 : (fun j => x0 (ix2 p j)) = fun j => x (ix2 r j) := funext fun j => h0 _ _ hi0 rfl
  have e1 : (fun j => x1 (ix2 p j)) = fun j => ag (ix2 r j) := funext fun j => h1 _ _ hi0 rfl
  have e4 : (fun k => b4 (ix2 0 k)) = fun k => bi (ix1 k) := funext h4
  have e5 : (fun k => b5 (ix2 0 k)) = fun k => bh (ix1 k) := funext h5
  rw [e0, e1, e4, e5]

end Cert.KernelValue.Gru

end
-- ==== Proof.Gru13.lean ====
/-
  The array the gated-update region leaves in its output window is the reference's gated update of the arrays it finds
  in its input windows. The grid has 20 points; at point t the two row-blocked inputs and the output are at rows
  8000 t … 8000 t + 7999, the two weights and the two bias rows are whole at every point. So what point t writes back is
  block t of the one whole-array function (the body's value at entry (p, q) of the block is the reference's at
  (8000 t + p, q)), and the 20 blocks cover the 160000 rows: row r is in block r / 8000.
-/
import proofs.«425927_j69028714381396_2_alg».proof.Proof.FrameKIW
import proofs.«425927_j69028714381396_2_alg».proof.Proof.Gen.ReferenceIdeal
import proofs.«425927_j69028714381396_2_alg».proof.Proof.GruPay13
import Idealize.ShloMosaic.Lib.Pipeline.Value

set_option maxRecDepth 16384

noncomputable section

namespace Cert.KernelValue.Gru13

open Idealize.ShloMosaic Idealize.ShloMosaic.TcCoe Idealize.ShloMosaic.ValueIdx Idealize.SL.Sem
open Idealize.ShloMosaic.Pipeline (Dat)
open Cert.KernelIdeal Cert.KernelIdeal.Gen Cert.KernelValue.Gru

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the others at block (0, 0). -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-! ## The arrays the region finds and the blocks of them at a point, at their literal types -/

abbrev arrX (c : Dev nD) : Vec Ideal S160000x32 .f32 := V c (Pipeline.arrRef spec13 0)
abbrev arrA (c : Dev nD) : Vec Ideal S160000x32 .f32 := V c (Pipeline.arrRef spec13 1)
abbrev arrWi (c : Dev nD) : Vec Ideal S32x96 .f32 := V c (Pipeline.arrRef spec13 2)
abbrev arrWh (c : Dev nD) : Vec Ideal S32x96 .f32 := V c (Pipeline.arrRef spec13 3)
abbrev arrBi (c : Dev nD) : Vec Ideal S1x96 .f32 := V c (Pipeline.arrRef spec13 4)
abbrev arrBh (c : Dev nD) : Vec Ideal S1x96 .f32 := V c (Pipeline.arrRef spec13 5)
abbrev blkX (c : Dev nD) (t : Fin cfg13.N) : Vec Ideal S8000x32 .f32 := iblk13 V c 0 t
abbrev blkA (c : Dev nD) (t : Fin cfg13.N) : Vec Ideal S8000x32 .f32 := iblk13 V c 1 t
abbrev blkWi (c : Dev nD) (t : Fin cfg13.N) : Vec Ideal S32x96 .f32 := iblk13 V c 2 t
abbrev blkWh (c : Dev nD) (t : Fin cfg13.N) : Vec Ideal S32x96 .f32 := iblk13 V c 3 t
abbrev blkBi (c : Dev nD) (t : Fin cfg13.N) : Vec Ideal S1x96 .f32 := iblk13 V c 4 t
abbrev blkBh (c : Dev nD) (t : Fin cfg13.N) : Vec Ideal S1x96 .f32 := iblk13 V c 5 t

/-- Entry y of the first input's block at point t is entry (8000 t + y₀, y₁) of its array. -/
theorem blkX_apply (c : Dev nD) (t : Fin cfg13.N) (y : S8000x32.Idx) (i : S160000x32.Idx)
    (hi0 : (i 0).val = t.val * 8000 + (y 0).val) (hi1 : (i 1).val = (y 1).val) : blkX V c t y = arrX V c i := by
  obtain ⟨e0, e1, -⟩ := idx_facts t
  show V c (Pipeline.arrRef spec13 0) (((cfg13.win 0).blk t).view.emb y) = V c (Pipeline.arrRef spec13 0) i
  refine congrArg (V c (Pipeline.arrRef spec13 0)) (funext fun a => Fin.ext ?_)
  match a with
  | ⟨0, _⟩ => show win13_0.index t (0 : Fin 2) * 8000 + 1 * (y 0).val = (i 0).val; omega
  | ⟨1, _⟩ => show win13_0.index t (1 : Fin 2) * 32 + 1 * (y 1).val = (i 1).val; omega

/-- The same for the second input. -/
theorem blkA_apply (c : Dev nD) (t : Fin cfg13.N) (y : S8000x32.Idx) (i : S160000x32.Idx)
    (hi0 : (i 0).val = t.val * 8000 + (y 0).val) (hi1 : (i 1).val = (y 1).val) : blkA V c t y = arrA V c i := by
  obtain ⟨-, -, e0, e1, -⟩ := idx_facts t
  show V c (Pipeline.arrRef spec13 1) (((cfg13.win 1).blk t).view.emb y) = V c (Pipeline.arrRef spec13 1) i
  refine congrArg (V c (Pipeline.arrRef spec13 1)) (funext fun a => Fin.ext ?_)
  match a with
  | ⟨0, _⟩ => show win13_1.index t (0 : Fin 2) * 8000 + 1 * (y 0).val = (i 0).val; omega
  | ⟨1, _⟩ => show win13_1.index t (1 : Fin 2) * 32 + 1 * (y 1).val = (i 1).val; omega

/-- A whole window's block is its array, at every point. -/
theorem blkWi_eq (c : Dev nD) (t : Fin cfg13.N) : blkWi V c t = arrWi V c := by
  obtain ⟨-, -, -, -, e0, e1, -⟩ := idx_facts t
  funext y
  show V c (Pipeline.arrRef spec13 2) (((cfg13.win 2).blk t).view.emb y) = V c (Pipeline.arrRef spec13 2) y
  refine congrArg (V c (Pipeline.arrRef spec13 2)) (funext fun a => Fin.ext ?_)
  match a with
  | ⟨0, _⟩ => show win13_2.index t (0 : Fin 2) * 32 + 1 * (y 0).val = (y 0).val; omega
  | ⟨1, _⟩ => show win13_2.index t (1 : Fin 2) * 96 + 1 * (y 1).val = (y 1).val; omega

theorem blkWh_eq (c : Dev nD) (t : Fin cfg13.N) : blkWh V c t = arrWh V c := by
  obtain ⟨-, -, -, -, -, -, e0, e1, -⟩ := idx_facts t
  funext y
  show V c (Pipeline.arrRef spec13 3) (((cfg13.win 3).blk t).view.emb y) = V c (Pipeline.arrRef spec13 3) y
  refine congrArg (V c (Pipeline.arrRef spec13 3)) (funext fun a => Fin.ext ?_)
  match a with
  | ⟨0, _⟩ => show win13_3.index t (0 : Fin 2) * 32 + 1 * (y 0).val = (y 0).val; omega
  | ⟨1, _⟩ => show win13_3.index t (1 : Fin 2) * 96 + 1 * (y 1).val = (y 1).val; omega

theorem blkBi_eq (c : Dev nD) (t : Fin cfg13.N) : blkBi V c t = arrBi V c := by
  obtain ⟨-, -, -, -, -, -, -, -, e0, e1, -⟩ := idx_facts t
  funext y
  show V c (Pipeline.arrRef spec13 4) (((cfg13.win 4).blk t).view.emb y) = V c (Pipeline.arrRef spec13 4) y
  refine congrArg (V c (Pipeline.arrRef spec13 4)) (funext fun a => Fin.ext ?_)
  match a with
  | ⟨0, _⟩ => show win13_4.index t (0 : Fin 2) * 1 + 1 * (y 0).val = (y 0).val; omega
  | ⟨1, _⟩ => show win13_4.index t (1 : Fin 2) * 96 + 1 * (y 1).val = (y 1).val; omega

theorem blkBh_eq (c : Dev nD) (t : Fin cfg13.N) : blkBh V c t = arrBh V c := by
  obtain ⟨-, -, -, -, -, -, -, -, -, -, e0, e1, -⟩ := idx_facts t
  funext y
  show V c (Pipeline.arrRef spec13 5) (((cfg13.win 5).blk t).view.emb y) = V c (Pipeline.arrRef spec13 5) y
  refine congrArg (V c (Pipeline.arrRef spec13 5)) (funext fun a => Fin.ext ?_)
  match a with
  | ⟨0, _⟩ => show win13_5.index t (0 : Fin 2) * 1 + 1 * (y 0).val = (y 0).val; omega
  | ⟨1, _⟩ => show win13_5.index t (1 : Fin 2) * 96 + 1 * (y 1).val = (y 1).val; omega

/-! ## What a point writes back, the cover, the array -/

/-- What point t writes back is block t of the reference's gated update of the arrays the region finds. -/
theorem flushed_eq (c : Dev nD) (x ag : Vec Ideal S160000x32 .f32) (wi wh : Vec Ideal S32x96 .f32) (bi bh : Vec Ideal S96 .f32)
    (h0 : arrX V c = x) (h1 : arrA V c = ag) (h2 : arrWi V c = wi) (h3 : arrWh V c = wh)
    (h4 : ∀ q : Fin 96, arrBi V c (ix2 0 q) = bi (ix1 q)) (h5 : ∀ q : Fin 96, arrBh V c (ix2 0 q) = bh (ix1 q))
    (t : Fin cfg13.N) :
    (dat13 (F := Ideal) V c).flushed 6 t
      = ((cfg13.win 6).blk t).view.read (Elt Ideal) (Cert.Spec.gru (F := Ideal) x ag wi wh bi bh) := by
  show (cfg13.win 6).cut (grid13.coords t) ((dat13 (F := Ideal) V c).after 6 t) = _
  rw [after13_6]
  unfold out13_6
  rw [View.canon_unit_zero hz]
  simp only [View.ld_unit_zero (S := S8000x32) hz, View.ld_unit_zero (S := S32x96) hz, View.ld_unit_zero (S := S1x96) hz]
  obtain ⟨-, -, -, -, -, -, -, -, -, -, -, -, e0, e1⟩ := idx_facts t
  funext j
  show k13_pay1 (F := Ideal) (blkX V c t) (blkA V c t) (blkWi V c t) (blkWh V c t) (blkBi V c t) (blkBh V c t)
      ((cfg13.win 6).xinj (grid13.coords t) j)
    = Cert.Spec.gru (F := Ideal) x ag wi wh bi bh (((cfg13.win 6).blk t).view.emb j)
  refine pay13_eq_gru (blkX V c t) (blkA V c t) (blkWi V c t) (blkWh V c t) (blkBi V c t) (blkBh V c t) x ag wi wh bi bh t.val
    ((cfg13.win 6).xinj (grid13.coords t) j) (((cfg13.win 6).blk t).view.emb j) ?_ ?_ ?_ ?_ ?_ ?_ ?_ ?_
  · show win13_6.index t (0 : Fin 2) * 8000 + 1 * (j 0).val = t.val * 8000 + (j 0).val; omega
  · show win13_6.index t (1 : Fin 2) * 32 + 1 * (j 1).val = (j 1).val; omega
  · intro y' i' hy0 hy1; rw [← h0]; exact blkX_apply V c t y' i' hy0 hy1
  · intro y' i' hy0 hy1; rw [← h1]; exact blkA_apply V c t y' i' hy0 hy1
  · rw [← h2]; exact blkWi_eq V c t
  · rw [← h3]; exact blkWh_eq V c t
  · intro k; rw [← h4 k]; exact congrFun (blkBi_eq V c t) (ix2 0 k)
  · intro k; rw [← h5 k]; exact congrFun (blkBh_eq V c t) (ix2 0 k)

/-- An index of the output array is in point t's block iff each coordinate is in the block's range on its axis. -/
theorem mem_blk (t : Fin cfg13.N) (i : S160000x32.Idx) :
    i ∈ ((cfg13.win 6).blk t).view.set
      ↔ ∀ a : Fin 2, win13_6.index t a * S8000x32.size a ≤ (i a).val ∧ (i a).val < win13_6.index t a * S8000x32.size a + S8000x32.size a := by
  show i ∈ ((View.whole (Pipeline.arrRef spec13 6)).slice (win13_6.rect t)).set ↔ _
  rw [View.set_slice_whole, Rect.mem_set_unit]
  exact Iff.rfl

/-- Every index of the output array is in some point's block: row r in block r / 8000. -/
theorem cover (i : S160000x32.Idx) :
    ∃ t : Fin cfg13.N, (cfg13.win 6).flush t = true ∧ i ∈ ((cfg13.win 6).blk t).view.set := by
  have hi0 : (i 0).val < 160000 := (i 0).isLt
  have hi1 : (i 1).val < 32 := (i 1).isLt
  obtain ⟨t, ht⟩ : ∃ t : Fin cfg13.N, t.val = (i 0).val / 8000 :=
    ⟨⟨(i 0).val / 8000, by rw [show cfg13.N = 20 from N_13]; omega⟩, rfl⟩
  obtain ⟨-, -, -, -, -, -, -, -, -, -, -, -, e0, e1⟩ := idx_facts t
  refine ⟨t, flush13_6 t, ?_⟩
  rw [mem_blk]
  intro a
  match a with
  | ⟨0, _⟩ =>
    show win13_6.index t (0 : Fin 2) * 8000 ≤ (i 0).val ∧ (i 0).val < win13_6.index t (0 : Fin 2) * 8000 + 8000
    omega
  | ⟨1, _⟩ =>
    show win13_6.index t (1 : Fin 2) * 32 ≤ (i 1).val ∧ (i 1).val < win13_6.index t (1 : Fin 2) * 32 + 32
    omega

end Cert.KernelValue.Gru13

namespace Cert.KernelValue

open Idealize.ShloMosaic Idealize.ShloMosaic.TcCoe Idealize.ShloMosaic.ValueIdx Idealize.SL.Sem
open Cert.KernelIdeal Cert.KernelIdeal.Gen

/-- The output array after the region's run is the reference's gated update of the arrays the region finds in its
    input windows (the two biases found as one-row matrices). -/
theorem gru13_value (V : (c : Dev nD) → (b : Ref sig .tc) → Buf (Elt Ideal) ((c : Thread nD τ).loc b)) (c : Dev nD)
    (x ag : Vec Ideal S160000x32 .f32) (wi wh : Vec Ideal S32x96 .f32) (bi bh : Vec Ideal S96 .f32)
    (h0 : V c (Pipeline.arrRef spec13 0) = x) (h1 : V c (Pipeline.arrRef spec13 1) = ag)
    (h2 : V c (Pipeline.arrRef spec13 2) = wi) (h3 : V c (Pipeline.arrRef spec13 3) = wh)
    (h4 : ∀ q : Fin 96, V c (Pipeline.arrRef spec13 4) (ValueIdx.ix2 0 q) = bi (ValueIdx.ix1 q))
    (h5 : ∀ q : Fin 96, V c (Pipeline.arrRef spec13 5) (ValueIdx.ix2 0 q) = bh (ValueIdx.ix1 q)) :
    (dat13 (F := Ideal) V c).arrAt 6 cfg13.N = Cert.Spec.gru x ag wi wh bi bh :=
  (dat13 (F := Ideal) V c).arrAt_eq_of_cover 6 (Cert.Spec.gru (F := Ideal) x ag wi wh bi bh)
    (fun t _ => Gru13.flushed_eq V c x ag wi wh bi bh h0 h1 h2 h3 h4 h5 t) (fun i => Gru13.cover i)

end Cert.KernelValue

end
-- ==== Proof.BnPay14.lean ====
/-
  Batch normalisation with an affine map, one block of rows at a time, for the region numbered 14: the same block
  arithmetic as the first such region's, read at an index, and its meeting with the reference's normalisation.
-/
import proofs.«425927_j69028714381396_2_alg».proof.Proof.BnPay2

noncomputable section

namespace Cert.KernelValue.Bn

open Idealize.ShloMosaic Idealize.ShloMosaic.ValueIdx

section Block

open Cert.KernelIdeal Cert.KernelIdeal.Gen

/-- Entry (p, q) of the block's result: the block's entry normalised by the four rows' entries at column q
    (a [1,32] row broadcast down 8000 rows reads its column). -/
theorem k14_pay1_apply (x0 : Vec Ideal S8000x32 .f32) (mu va ga be : Vec Ideal S1x32 .f32) (p : Fin 8000) (q : Fin 32) :
    k14_pay1 (F := Ideal) x0 mu va ga be (ix2 p q)
      = bnAt (x0 (ix2 p q)) (mu (ix2 0 q)) (va (ix2 0 q)) (ga (ix2 0 q)) (be (ix2 0 q)) := by
  unfold k14_pay1
  simp only [shapeCast_self]
  rw [addf_apply, mulf_apply, mulf_apply, subf_apply, broadcastTo_1b_ab_apply, broadcastTo_1b_ab_apply,
    broadcastTo_1b_ab_apply, broadcastTo_1b_ab_apply]
  rfl

end Block
section Meeting

open Cert.KernelIdeal Cert.KernelIdeal.Gen
variable [Cert.ReferenceIdeal.Facts₀]

/-- A block entry and the array entry it covers: if the block's x operand reads x there, the columns agree, and
    the four one-row operands read the column mean, the column variance, the scale and the shift, then the block's
    result at the entry is the reference's normalisation at the array entry. -/
theorem bn14_block_meets (x0 : Vec Ideal S8000x32 .f32) (mu va ga be : Vec Ideal S1x32 .f32)
    (x : Vec Ideal S160000x32 .f32) (g b : Vec Ideal S32 .f32) (j : S8000x32.Idx) (k : S160000x32.Idx)
    (hk : (k 1).val = (j 1).val)
    (hx : x0 j = x k)
    (hmu : ∀ q : Fin 32, mu (ix2 0 q) = Cert.Spec.mean32 x (ix1 q))
    (hva : ∀ q : Fin 32, va (ix2 0 q) = Cert.Spec.var32 x (ix1 q))
    (hga : ∀ q : Fin 32, ga (ix2 0 q) = g (ix1 q))
    (hbe : ∀ q : Fin 32, be (ix2 0 q) = b (ix1 q)) :
    k14_pay1 (F := Ideal) x0 mu va ga be j = Cert.Spec.bn x g b k := by
  obtain ⟨p, q, rfl⟩ : ∃ (p : Fin 8000) (q : Fin 32), j = ix2 p q := ⟨j 0, j 1, eq_ix2 j⟩
  obtain ⟨r, q', rfl⟩ : ∃ (r : Fin 160000) (q' : Fin 32), k = ix2 r q' := ⟨k 0, k 1, eq_ix2 k⟩
  obtain rfl : q' = q := Fin.ext hk
  rw [k14_pay1_apply, bn_apply, hx, hmu, hva, hga, hbe]

end Meeting

end Cert.KernelValue.Bn

end
-- ==== Proof.Bn14.lean ====
/-
  The batch-normalisation region, from blocks to the array. The grid has 20 points; point t reads rows
  8000 t … 8000 t + 7999 of the x array and the four whole one-row arrays (column means, column variances, scale,
  shift), and writes the same rows of the output array. What point t writes back is block t of the reference's
  normalisation of the x array (the block's arithmetic meets the reference's entry by entry), the 20 row blocks cover
  the output array, so after the region the output array is the reference's normalisation.
-/
import proofs.«425927_j69028714381396_2_alg».proof.Proof.FrameKIW
import proofs.«425927_j69028714381396_2_alg».proof.Proof.Gen.ReferenceIdeal
import proofs.«425927_j69028714381396_2_alg».proof.Proof.BnPay14
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

namespace Bn

/-- The zero offsets of a whole-buffer access. -/
theorem bn14_off : (![0, 0] : Fin 2 → Nat) = fun _ => 0 := funext fun a => by fin_cases a <;> rfl

/-- The index maps over the grid of 20 points: the x window's and the output window's row-block index is the
    point's number and their column-block index is zero; the four one-row windows sit at block (0, 0). -/
theorem bn14_idx : ∀ t : Fin cfg14.N,
    win14_0.index t (0 : Fin 2) = t.val ∧ win14_0.index t (1 : Fin 2) = 0
    ∧ win14_5.index t (0 : Fin 2) = t.val ∧ win14_5.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

/-- Block t of the x window reads the x array where block t of the output window lies: both are rows
    8000 t … 8000 t + 7999, all 32 columns. -/
theorem bn14_xblk (c : Dev nD) (x : Vec Ideal S160000x32 .f32) (h0 : V c (Pipeline.arrRef spec14 0) = x)
    (t : Fin cfg14.N) (j : S8000x32.Idx) :
    iblk14 V c 0 t j = x (((cfg14.win 5).blk t).view.emb j) := by
  obtain ⟨e00, e01, e50, e51, e10, e11, e20, e21, e30, e31, e40, e41⟩ := bn14_idx t
  have he : ((cfg14.win 0).blk t).view.emb j = ((cfg14.win 5).blk t).view.emb j := by
    funext a; apply Fin.ext
    match a with
    | ⟨0, _⟩ => show win14_0.index t (0 : Fin 2) * 8000 + 1 * (j 0).val = win14_5.index t (0 : Fin 2) * 8000 + 1 * (j 0).val; omega
    | ⟨1, _⟩ => show win14_0.index t (1 : Fin 2) * 32 + 1 * (j 1).val = win14_5.index t (1 : Fin 2) * 32 + 1 * (j 1).val; omega
  show V c (Pipeline.arrRef spec14 0) (((cfg14.win 0).blk t).view.emb j) = x (((cfg14.win 5).blk t).view.emb j)
  rw [he, h0]

/-- An entry of block t of the output window keeps its column. -/
theorem bn14_col (t : Fin cfg14.N) (j : S8000x32.Idx) : ((((cfg14.win 5).blk t).view.emb j) 1).val = (j 1).val := by
  obtain ⟨e00, e01, e50, e51, e10, e11, e20, e21, e30, e31, e40, e41⟩ := bn14_idx t
  show win14_5.index t (1 : Fin 2) * 32 + 1 * (j 1).val = (j 1).val
  omega

/-- Block t of the one-row window 1 (the column means) is its whole array: at block index (0, 0) the block's entry
    (0, q) is the array's entry (0, q). -/
theorem bn14_row1 (c : Dev nD) (f : Fin 32 → EReal)
    (h : ∀ q : Fin 32, V c (Pipeline.arrRef spec14 1) (ValueIdx.ix2 0 q) = f q) (t : Fin cfg14.N) (q : Fin 32) :
    iblk14 V c 1 t (ix2 (0 : Fin 1) q) = f q := by
  obtain ⟨e00, e01, e50, e51, e10, e11, e20, e21, e30, e31, e40, e41⟩ := bn14_idx t
  have he : ((cfg14.win 1).blk t).view.emb (ix2 (0 : Fin 1) q) = ix2 (0 : Fin 1) q := by
    funext a; apply Fin.ext
    match a with
    | ⟨0, _⟩ => show win14_1.index t (0 : Fin 2) * 1 + 1 * 0 = 0; omega
    | ⟨1, _⟩ => show win14_1.index t (1 : Fin 2) * 32 + 1 * q.val = q.val; omega
  show V c (Pipeline.arrRef spec14 1) (((cfg14.win 1).blk t).view.emb (ix2 (0 : Fin 1) q)) = _
  rw [he]
  exact h q

/-- Block t of the one-row window 2 (the column variances) is its whole array: at block index (0, 0) the block's entry
    (0, q) is the array's entry (0, q). -/
theorem bn14_row2 (c : Dev nD) (f : Fin 32 → EReal)
    (h : ∀ q : Fin 32, V c (Pipeline.arrRef spec14 2) (ValueIdx.ix2 0 q) = f q) (t : Fin cfg14.N) (q : Fin 32) :
    iblk14 V c 2 t (ix2 (0 : Fin 1) q) = f q := by
  obtain ⟨e00, e01, e50, e51, e10, e11, e20, e21, e30, e31, e40, e41⟩ := bn14_idx t
  have he : ((cfg14.win 2).blk t).view.emb (ix2 (0 : Fin 1) q) = ix2 (0 : Fin 1) q := by
    funext a; apply Fin.ext
    match a with
    | ⟨0, _⟩ => show win14_2.index t (0 : Fin 2) * 1 + 1 * 0 = 0; omega
    | ⟨1, _⟩ => show win14_2.index t (1 : Fin 2) * 32 + 1 * q.val = q.val; omega
  show V c (Pipeline.arrRef spec14 2) (((cfg14.win 2).blk t).view.emb (ix2 (0 : Fin 1) q)) = _
  rw [he]
  exact h q

/-- Block t of the one-row window 3 (the scale) is its whole array: at block index (0, 0) the block's entry
    (0, q) is the array's entry (0, q). -/
theorem bn14_row3 (c : Dev nD) (f : Fin 32 → EReal)
    (h : ∀ q : Fin 32, V c (Pipeline.arrRef spec14 3) (ValueIdx.ix2 0 q) = f q) (t : Fin cfg14.N) (q : Fin 32) :
    iblk14 V c 3 t (ix2 (0 : Fin 1) q) = f q := by
  obtain ⟨e00, e01, e50, e51, e10, e11, e20, e21, e30, e31, e40, e41⟩ := bn14_idx t
  have he : ((cfg14.win 3).blk t).view.emb (ix2 (0 : Fin 1) q) = ix2 (0 : Fin 1) q := by
    funext a; apply Fin.ext
    match a with
    | ⟨0, _⟩ => show win14_3.index t (0 : Fin 2) * 1 + 1 * 0 = 0; omega
    | ⟨1, _⟩ => show win14_3.index t (1 : Fin 2) * 32 + 1 * q.val = q.val; omega
  show V c (Pipeline.arrRef spec14 3) (((cfg14.win 3).blk t).view.emb (ix2 (0 : Fin 1) q)) = _
  rw [he]
  exact h q

/-- Block t of the one-row window 4 (the shift) is its whole array: at block index (0, 0) the block's entry
    (0, q) is the array's entry (0, q). -/
theorem bn14_row4 (c : Dev nD) (f : Fin 32 → EReal)
    (h : ∀ q : Fin 32, V c (Pipeline.arrRef spec14 4) (ValueIdx.ix2 0 q) = f q) (t : Fin cfg14.N) (q : Fin 32) :
    iblk14 V c 4 t (ix2 (0 : Fin 1) q) = f q := by
  obtain ⟨e00, e01, e50, e51, e10, e11, e20, e21, e30, e31, e40, e41⟩ := bn14_idx t
  have he : ((cfg14.win 4).blk t).view.emb (ix2 (0 : Fin 1) q) = ix2 (0 : Fin 1) q := by
    funext a; apply Fin.ext
    match a with
    | ⟨0, _⟩ => show win14_4.index t (0 : Fin 2) * 1 + 1 * 0 = 0; omega
    | ⟨1, _⟩ => show win14_4.index t (1 : Fin 2) * 32 + 1 * q.val = q.val; omega
  show V c (Pipeline.arrRef spec14 4) (((cfg14.win 4).blk t).view.emb (ix2 (0 : Fin 1) q)) = _
  rw [he]
  exact h q

set_option maxHeartbeats 1000000 in
/-- WHAT POINT t WRITES BACK is block t of the reference's normalisation of the arrays the region finds: the x
    window's block and the output's are the same rows of their arrays, and each one-row window's block is its
    whole array. -/
theorem bn14_flushed (c : Dev nD) (x : Vec Ideal S160000x32 .f32) (g b : Vec Ideal S32 .f32)
    (h0 : V c (Pipeline.arrRef spec14 0) = x)
    (h1 : ∀ q : Fin 32, V c (Pipeline.arrRef spec14 1) (ValueIdx.ix2 0 q) = Cert.Spec.mean32 x (ValueIdx.ix1 q))
    (h2 : ∀ q : Fin 32, V c (Pipeline.arrRef spec14 2) (ValueIdx.ix2 0 q) = Cert.Spec.var32 x (ValueIdx.ix1 q))
    (h3 : ∀ q : Fin 32, V c (Pipeline.arrRef spec14 3) (ValueIdx.ix2 0 q) = g (ValueIdx.ix1 q))
    (h4 : ∀ q : Fin 32, V c (Pipeline.arrRef spec14 4) (ValueIdx.ix2 0 q) = b (ValueIdx.ix1 q))
    (t : Fin cfg14.N) :
    (dat14 (F := Ideal) V c).flushed 5 t = ((cfg14.win 5).blk t).view.read (Elt Ideal) (Cert.Spec.bn x g b) := by
  show (cfg14.win 5).cut (grid14.coords t) ((dat14 (F := Ideal) V c).after 5 t) = _
  rw [after14_5]
  unfold out14_5
  rw [View.canon_unit_zero bn14_off]
  simp only [View.ld_unit_zero (S := S8000x32) bn14_off, View.ld_unit_zero (S := S1x32) bn14_off]
  funext j
  show k14_pay1 (F := Ideal) (iblk14 V c 0 t) (iblk14 V c 1 t) (iblk14 V c 2 t) (iblk14 V c 3 t) (iblk14 V c 4 t) j
    = Cert.Spec.bn x g b (((cfg14.win 5).blk t).view.emb j)
  exact bn14_block_meets (iblk14 V c 0 t) (iblk14 V c 1 t) (iblk14 V c 2 t) (iblk14 V c 3 t) (iblk14 V c 4 t) x g b j
    (((cfg14.win 5).blk t).view.emb j) (bn14_col t j) (bn14_xblk V c x h0 t j)
    (bn14_row1 V c (fun q => Cert.Spec.mean32 x (ix1 q)) h1 t)
    (bn14_row2 V c (fun q => Cert.Spec.var32 x (ix1 q)) h2 t)
    (bn14_row3 V c (fun q => g (ix1 q)) h3 t)
    (bn14_row4 V c (fun q => b (ix1 q)) h4 t)

/-- An index of the output array is in point t's block iff each coordinate is in the block's range on its axis. -/
theorem bn14_mem_blk (t : Fin cfg14.N) (i : S160000x32.Idx) :
    i ∈ ((cfg14.win 5).blk t).view.set ↔ ∀ a : Fin 2, win14_5.index t a * S8000x32.size a ≤ (i a).val
      ∧ (i a).val < win14_5.index t a * S8000x32.size a + S8000x32.size a := by
  show i ∈ ((View.whole main_v213).slice (win14_5.rect t)).set ↔ _
  rw [View.set_slice_whole, Rect.mem_set_unit]
  exact Iff.rfl

/-- The 20 row blocks cover the array: row r lies in the block of point r / 8000. -/
theorem bn14_cover (i : S160000x32.Idx) :
    ∃ t : Fin cfg14.N, (cfg14.win 5).flush t = true ∧ i ∈ ((cfg14.win 5).blk t).view.set := by
  have hi0 : (i 0).val < 160000 := (i 0).isLt
  have hi1 : (i 1).val < 32 := (i 1).isLt
  have hN : cfg14.N = 20 := N_14
  let t : Fin cfg14.N := ⟨(i 0).val / 8000, by rw [hN]; omega⟩
  have ht : t.val = (i 0).val / 8000 := rfl
  obtain ⟨e00, e01, e50, e51, -⟩ := bn14_idx t
  refine ⟨t, flush14_5 t, ?_⟩
  rw [bn14_mem_blk]
  intro a
  match a with
  | ⟨0, _⟩ =>
    show win14_5.index t (0 : Fin 2) * 8000 ≤ (i 0).val ∧ (i 0).val < win14_5.index t (0 : Fin 2) * 8000 + 8000
    omega
  | ⟨1, _⟩ =>
    show win14_5.index t (1 : Fin 2) * 32 ≤ (i 1).val ∧ (i 1).val < win14_5.index t (1 : Fin 2) * 32 + 32
    omega

end Bn

set_option maxHeartbeats 1000000 in
/-- THE OUTPUT ARRAY after the region is the reference's normalisation of the x array by the column means, the
    column variances, the scale and the shift the region finds in its one-row windows. -/
theorem bn14_value (c : Dev nD) (x : Vec Ideal S160000x32 .f32) (g b : Vec Ideal S32 .f32)
    (h0 : V c (Pipeline.arrRef spec14 0) = x)
    (h1 : ∀ q : Fin 32, V c (Pipeline.arrRef spec14 1) (ValueIdx.ix2 0 q) = Cert.Spec.mean32 x (ValueIdx.ix1 q))
    (h2 : ∀ q : Fin 32, V c (Pipeline.arrRef spec14 2) (ValueIdx.ix2 0 q) = Cert.Spec.var32 x (ValueIdx.ix1 q))
    (h3 : ∀ q : Fin 32, V c (Pipeline.arrRef spec14 3) (ValueIdx.ix2 0 q) = g (ValueIdx.ix1 q))
    (h4 : ∀ q : Fin 32, V c (Pipeline.arrRef spec14 4) (ValueIdx.ix2 0 q) = b (ValueIdx.ix1 q)) :
    (dat14 (F := Ideal) V c).arrAt 5 cfg14.N = Cert.Spec.bn x g b :=
  (dat14 (F := Ideal) V c).arrAt_eq_of_cover 5 (Cert.Spec.bn x g b)
    (fun t _ => Bn.bn14_flushed V c x g b h0 h1 h2 h3 h4 t) Bn.bn14_cover

end Cert.KernelValue

end
-- ==== Proof.KStage4.lean ====
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KCarry
import proofs.«425927_j69028714381396_2_alg».proof.Proof.KHost
import proofs.«425927_j69028714381396_2_alg».proof.Proof.KStage4HostA
import proofs.«425927_j69028714381396_2_alg».proof.Proof.KStage4HostB
import proofs.«425927_j69028714381396_2_alg».proof.Proof.EmbedLN12
import proofs.«425927_j69028714381396_2_alg».proof.Proof.Gru13
import proofs.«425927_j69028714381396_2_alg».proof.Proof.Bn14
import Idealize.ShloMosaic.Lib.StableHlo.Run

/-!
  Layer 4 (the layers counted from 0) of the kernel program read off the run's fold, from boundary 32 (the previous layer's exit)
  to boundary 40: the stretch of weight slices, the linear region, the aggregation stretch, the gated update,
  the three normalisation stretches, the normalisation region. Each region's result is the reference's stage
  function of what its windows hold at entry; each window at entry is a buffer carried from an earlier boundary
  or a host stretch's function of such buffers. Composed, the layer's result is the reference's layer function
  of the previous layer's result and the launch arguments.
-/

-- deciding that two of the program's several hundred references differ recurses once per reference
set_option maxRecDepth 16384

noncomputable section

namespace Cert.KernelValue

open Idealize.ShloMosaic Idealize.ShloMosaic.TcCoe Cert.KernelIdeal Cert.KernelIdeal.Gen

variable (m : (ℓ : Loc nD τ sig) → Buf (Elt Ideal) ℓ) (ρ : Dev nD → PrngReg)

/-! ## The carried buffers inside the layer

The gate weights' stacks and the two edge-endpoint vectors are read after the linear region (boundary 34), the
scale and shift stacks after the gated update and two of the normalisation's stretches (boundary 38). No
stretch writes them and they are windows of neither region, so each still holds what it held at boundary 32. -/

theorem L4.at34_src (c : Dev nD) :
    W34 m ρ c (Proc.devRef .tc main_v1) = Cert.Spec.srcOf (m ((c : Thread nD τ).loc main_arg1)) :=
  (W34_of_ne m ρ c main_v1 (by decide)).trans ((KCarry.keeps_hostOps12 (W32 m ρ c) main_v1 (by decide)).trans (W32_src m ρ c))
theorem L4.at34_dst (c : Dev nD) :
    W34 m ρ c (Proc.devRef .tc main_v3) = Cert.Spec.dstOf (m ((c : Thread nD τ).loc main_arg1)) :=
  (W34_of_ne m ρ c main_v3 (by decide)).trans ((KCarry.keeps_hostOps12 (W32 m ρ c) main_v3 (by decide)).trans (W32_dst m ρ c))
theorem L4.at34_arg9 (c : Dev nD) :
    W34 m ρ c (Proc.devRef .tc main_arg9) = m ((c : Thread nD τ).loc main_arg9) :=
  (W34_of_ne m ρ c main_arg9 (by decide)).trans ((KCarry.keeps_hostOps12 (W32 m ρ c) main_arg9 (by decide)).trans (W32_arg9 m ρ c))
theorem L4.at34_arg10 (c : Dev nD) :
    W34 m ρ c (Proc.devRef .tc main_arg10) = m ((c : Thread nD τ).loc main_arg10) :=
  (W34_of_ne m ρ c main_arg10 (by decide)).trans ((KCarry.keeps_hostOps12 (W32 m ρ c) main_arg10 (by decide)).trans (W32_arg10 m ρ c))
theorem L4.at34_arg11 (c : Dev nD) :
    W34 m ρ c (Proc.devRef .tc main_arg11) = m ((c : Thread nD τ).loc main_arg11) :=
  (W34_of_ne m ρ c main_arg11 (by decide)).trans ((KCarry.keeps_hostOps12 (W32 m ρ c) main_arg11 (by decide)).trans (W32_arg11 m ρ c))
theorem L4.at34_arg12 (c : Dev nD) :
    W34 m ρ c (Proc.devRef .tc main_arg12) = m ((c : Thread nD τ).loc main_arg12) :=
  (W34_of_ne m ρ c main_arg12 (by decide)).trans ((KCarry.keeps_hostOps12 (W32 m ρ c) main_arg12 (by decide)).trans (W32_arg12 m ρ c))

theorem L4.at38_arg13 (c : Dev nD) :
    W38 m ρ c (Proc.devRef .tc main_arg13) = m ((c : Thread nD τ).loc main_arg13) :=
  calc W38 m ρ c (Proc.devRef .tc main_arg13)
    _ = W37 m ρ c (Proc.devRef .tc main_arg13) := KCarry.keeps_hostOps14_1 _ main_arg13 (by decide)
    _ = W36 m ρ c (Proc.devRef .tc main_arg13) := KCarry.keeps_hostOps14 _ main_arg13 (by decide)
    _ = W35 m ρ c (Proc.devRef .tc main_arg13) := W36_of_ne m ρ c main_arg13 (by decide)
    _ = W34 m ρ c (Proc.devRef .tc main_arg13) := KCarry.keeps_hostOps13 _ main_arg13 (by decide)
    _ = W33 m ρ c (Proc.devRef .tc main_arg13) := W34_of_ne m ρ c main_arg13 (by decide)
    _ = W32 m ρ c (Proc.devRef .tc main_arg13) := KCarry.keeps_hostOps12 _ main_arg13 (by decide)
    _ = m ((c : Thread nD τ).loc main_arg13) := W32_arg13 m ρ c
theorem L4.at38_arg14 (c : Dev nD) :
    W38 m ρ c (Proc.devRef .tc main_arg14) = m ((c : Thread nD τ).loc main_arg14) :=
  calc W38 m ρ c (Proc.devRef .tc main_arg14)
    _ = W37 m ρ c (Proc.devRef .tc main_arg14) := KCarry.keeps_hostOps14_1 _ main_arg14 (by decide)
    _ = W36 m ρ c (Proc.devRef .tc main_arg14) := KCarry.keeps_hostOps14 _ main_arg14 (by decide)
    _ = W35 m ρ c (Proc.devRef .tc main_arg14) := W36_of_ne m ρ c main_arg14 (by decide)
    _ = W34 m ρ c (Proc.devRef .tc main_arg14) := KCarry.keeps_hostOps13 _ main_arg14 (by decide)
    _ = W33 m ρ c (Proc.devRef .tc main_arg14) := W34_of_ne m ρ c main_arg14 (by decide)
    _ = W32 m ρ c (Proc.devRef .tc main_arg14) := KCarry.keeps_hostOps12 _ main_arg14 (by decide)
    _ = m ((c : Thread nD τ).loc main_arg14) := W32_arg14 m ρ c

/-! ## The linear region

Its windows at entry: the integer input and the previous layer's features as boundary 32 left them, and the
stretch's four slices of the stacked weights (the bias as a row). Its two results are the layer's linear
input and that input's projection. -/

theorem L4.lin (c : Dev nD)
    (hz : ∀ i, ((m ((c : Thread nD τ).loc main_arg0) : Vec Ideal S160000x2 .i32) i).toNat < 50) :
    W34 m ρ c (Proc.devRef .tc main_v180_0)
      = Cert.Spec.lin (W32 m ρ c (Proc.devRef .tc main_v170))
          (Cert.Spec.embed (Cert.Spec.emb4 (m ((c : Thread nD τ).loc main_arg5))) (m ((c : Thread nD τ).loc main_arg0)))
          (Cert.Spec.tw4 (m ((c : Thread nD τ).loc main_arg6))) (Cert.Spec.b32_4 (m ((c : Thread nD τ).loc main_arg7))) :=
  (W34_arr m ρ c 6).trans
    (embedN12_xlin (V33 m ρ) c (m ((c : Thread nD τ).loc main_arg0)) (W32 m ρ c (Proc.devRef .tc main_v170))
      (Cert.Spec.emb4 (m ((c : Thread nD τ).loc main_arg5))) (Cert.Spec.tw4 (m ((c : Thread nD τ).loc main_arg6)))
      (Cert.Spec.b32_4 (m ((c : Thread nD τ).loc main_arg7))) hz
      ((KCarry.keeps_hostOps12 (W32 m ρ c) main_arg0 (by decide)).trans (W32_arg0 m ρ c))
      (ops12_keep_xp (W32 m ρ c))
      (ops12_emb (W32 m ρ c) _ (W32_arg5 m ρ c))
      (ops12_tw (W32 m ρ c) _ (W32_arg6 m ρ c))
      (fun q => (congrFun (ops12_tb (W32 m ρ c) _ (W32_arg7 m ρ c)) (ValueIdx.ix2 0 q)).trans (row32_apply _ q)))

theorem L4.msg (c : Dev nD)
    (hz : ∀ i, ((m ((c : Thread nD τ).loc main_arg0) : Vec Ideal S160000x2 .i32) i).toNat < 50) :
    W34 m ρ c (Proc.devRef .tc main_v180_1)
      = Cert.Spec.conv (Cert.Spec.lin (W32 m ρ c (Proc.devRef .tc main_v170))
          (Cert.Spec.embed (Cert.Spec.emb4 (m ((c : Thread nD τ).loc main_arg5))) (m ((c : Thread nD τ).loc main_arg0)))
          (Cert.Spec.tw4 (m ((c : Thread nD τ).loc main_arg6))) (Cert.Spec.b32_4 (m ((c : Thread nD τ).loc main_arg7))))
        (Cert.Spec.cw4 (m ((c : Thread nD τ).loc main_arg8))) :=
  (W34_arr m ρ c 7).trans
    (embedN12_m (V33 m ρ) c (m ((c : Thread nD τ).loc main_arg0)) (W32 m ρ c (Proc.devRef .tc main_v170))
      (Cert.Spec.emb4 (m ((c : Thread nD τ).loc main_arg5))) (Cert.Spec.tw4 (m ((c : Thread nD τ).loc main_arg6)))
      (Cert.Spec.b32_4 (m ((c : Thread nD τ).loc main_arg7))) (Cert.Spec.cw4 (m ((c : Thread nD τ).loc main_arg8))) hz
      ((KCarry.keeps_hostOps12 (W32 m ρ c) main_arg0 (by decide)).trans (W32_arg0 m ρ c))
      (ops12_keep_xp (W32 m ρ c))
      (ops12_emb (W32 m ρ c) _ (W32_arg5 m ρ c))
      (ops12_tw (W32 m ρ c) _ (W32_arg6 m ρ c))
      (fun q => (congrFun (ops12_tb (W32 m ρ c) _ (W32_arg7 m ρ c)) (ValueIdx.ix2 0 q)).trans (row32_apply _ q))
      (ops12_cw (W32 m ρ c) _ (W32_arg8 m ρ c)))

/-! ## The gated update

Its windows at entry: the linear input as the linear region left it, the aggregation of the projection over
the edges, and the stretch's slices of the gate weights (the biases as rows). -/

theorem L4.gru (c : Dev nD) (xl mm : Vec Ideal S160000x32 .f32)
    (hxl : W34 m ρ c (Proc.devRef .tc main_v180_0) = xl) (hmm : W34 m ρ c (Proc.devRef .tc main_v180_1) = mm) :
    W36 m ρ c (Proc.devRef .tc main_v201)
      = Cert.Spec.gru xl
          (Cert.Spec.agg mm (Cert.Spec.srcOf (m ((c : Thread nD τ).loc main_arg1))) (Cert.Spec.dstOf (m ((c : Thread nD τ).loc main_arg1))))
          (Cert.Spec.wi4 (m ((c : Thread nD τ).loc main_arg9))) (Cert.Spec.wi4 (m ((c : Thread nD τ).loc main_arg10)))
          (Cert.Spec.b96_4 (m ((c : Thread nD τ).loc main_arg11))) (Cert.Spec.b96_4 (m ((c : Thread nD τ).loc main_arg12))) :=
  (W36_arr m ρ c 6).trans
    (gru13_value (V35 m ρ) c xl
      (Cert.Spec.agg mm (Cert.Spec.srcOf (m ((c : Thread nD τ).loc main_arg1))) (Cert.Spec.dstOf (m ((c : Thread nD τ).loc main_arg1))))
      (Cert.Spec.wi4 (m ((c : Thread nD τ).loc main_arg9))) (Cert.Spec.wi4 (m ((c : Thread nD τ).loc main_arg10)))
      (Cert.Spec.b96_4 (m ((c : Thread nD τ).loc main_arg11))) (Cert.Spec.b96_4 (m ((c : Thread nD τ).loc main_arg12)))
      ((ops13_keep_xl (W34 m ρ c)).trans hxl)
      (ops13_agg (W34 m ρ c) mm _ _ hmm (L4.at34_src m ρ c) (L4.at34_dst m ρ c))
      (ops13_wi (W34 m ρ c) _ (L4.at34_arg9 m ρ c))
      (ops13_wh (W34 m ρ c) _ (L4.at34_arg10 m ρ c))
      (fun q => (congrFun (ops13_bi (W34 m ρ c) _ (L4.at34_arg11 m ρ c)) (ValueIdx.ix2 0 q)).trans (row96_apply _ q))
      (fun q => (congrFun (ops13_bh (W34 m ρ c) _ (L4.at34_arg12 m ρ c)) (ValueIdx.ix2 0 q)).trans (row96_apply _ q)))

/-! ## The normalisation

Its windows at entry: the gated update's result, untouched by the three stretches; the mean row and the
variance row the first two stretches compute from it, read entry by entry as the column mean and the biased
column variance; the scale and shift rows. -/

theorem L4.bn (c : Dev nD) (x : Vec Ideal S160000x32 .f32) (hx : W36 m ρ c (Proc.devRef .tc main_v201) = x) :
    W40 m ρ c (Proc.devRef .tc main_v213)
      = Cert.Spec.bn x (Cert.Spec.b32_4 (m ((c : Thread nD τ).loc main_arg13))) (Cert.Spec.b32_4 (m ((c : Thread nD τ).loc main_arg14))) :=
  (W40_arr m ρ c 5).trans
    (bn14_value (V39 m ρ) c x
      (Cert.Spec.b32_4 (m ((c : Thread nD τ).loc main_arg13))) (Cert.Spec.b32_4 (m ((c : Thread nD τ).loc main_arg14)))
      ((ops14_2_keep_x (W38 m ρ c)).trans ((ops14_1_keep_x (W37 m ρ c)).trans ((ops14_keep_x (W36 m ρ c)).trans hx)))
      (fun q => (congrFun ((ops14_2_keep_mean (W38 m ρ c)).trans ((ops14_1_keep_mean (W37 m ρ c)).trans
        (ops14_mean (W36 m ρ c) x hx))) (ValueIdx.ix2 0 q)).trans (meanRow x q))
      (fun q => (congrFun ((ops14_2_keep_var (W38 m ρ c)).trans
        (ops14_1_var (W37 m ρ c) x ((ops14_keep_x (W36 m ρ c)).trans hx) (ops14_zero (W36 m ρ c)))) (ValueIdx.ix2 0 q)).trans (varRow x q))
      (fun q => (congrFun (ops14_2_g (W38 m ρ c) _ (L4.at38_arg13 m ρ c)) (ValueIdx.ix2 0 q)).trans (row32_apply _ q))
      (fun q => (congrFun (ops14_2_b (W38 m ρ c) _ (L4.at38_arg14 m ρ c)) (ValueIdx.ix2 0 q)).trans (row32_apply _ q)))

/-! ## The layer -/

/-- The layer's result is the reference's layer function of the previous layer's result and the arguments:
    the linear input, its projection aggregated over the edges, the gated update, the normalisation. -/
theorem stage4 (c : Dev nD)
    (hz : ∀ i, ((m ((c : Thread nD τ).loc main_arg0) : Vec Ideal S160000x2 .i32) i).toNat < 50) :
    W40 m ρ c (Proc.devRef .tc main_v213)
      = Cert.Spec.x4 (W32 m ρ c (Proc.devRef .tc main_v170)) (m ((c : Thread nD τ).loc main_arg0))
          (Cert.Spec.srcOf (m ((c : Thread nD τ).loc main_arg1))) (Cert.Spec.dstOf (m ((c : Thread nD τ).loc main_arg1)))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) :=
  L4.bn m ρ c _ (L4.gru m ρ c _ _ (L4.lin m ρ c hz) (L4.msg m ρ c hz))

end Cert.KernelValue

end
-- ==== Proof.MlpPay15.lean ====
/-
  The two-layer perceptron's block arithmetic against the reference's stage function, over variables of the literal
  block types, at the ideal values: a change of float format is the identity; a matrix product accumulated into a zero
  splat is the host's product with no accumulator (0 + x = x); a one-row matrix laid down the rows is the bias vector
  laid along every row; a splat of the scalar zero is the host's broadcast of the zero constant.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import Idealize.ShloMosaic.Lib.KernelVsHost
import Idealize.ShloMosaic.Lib.ValueLayout

noncomputable section

namespace Cert.KernelValue

open Idealize.ShloMosaic Idealize.ShloMosaic.ValueIdx

/-- At the ideal values a product of two operands narrowed to bf16, accumulated into the zero splat, is the host's
    product of the operands: narrowing is the identity and the accumulator adds 0. -/
theorem mlp15_matmul_narrowed_eq_dotGeneral {sl sr so : Shape} (d : DotDims sl sr so)
    (x : FVec Ideal sl .f32) (w : FVec Ideal sr .f32) (hx : FTy.bits .bf16 < FTy.bits .f32) (hw : FTy.bits .bf16 < FTy.bits .f32) :
    matmul d none (truncf .bf16 x hx) (truncf .bf16 w hw) (constant (F := Ideal) so .f32 0x00000000#32)
      = Host.dotGeneral (F := Ideal) d none x w := by
  funext j
  show FloatOps.matmul d none (truncf .bf16 x hx) (truncf .bf16 w hw) (constant (F := Ideal) so .f32 0x00000000#32) j
    = FloatOps.dotGeneral d none _ x w j
  rw [Ideal.matmul_constant_zero_apply, Ideal.dotGeneral_apply]
  rfl

/-- A one-row matrix laid down m rows is the vector laid along every row, when the row holds the vector. -/
theorem mlp15_oneRow_eq_vector_along {m n : Nat} (r : (⟨2, ![1, n]⟩ : Shape).Idx → EReal) (b : (⟨1, ![n]⟩ : Shape).Idx → EReal)
    (hr : ∀ q : Fin n, r (ix2 0 q) = b (ix1 q))
    (hc : (⟨2, ![1, n]⟩ : Shape).ShapeCasts ⟨2, ![1, n]⟩) (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1]) :
    broadcastTo ⟨2, ![m, n]⟩ (shapeCast ⟨2, ![1, n]⟩ r hc) hb
      = broadcastInDim ⟨2, ![m, n]⟩ ![0, 1] h2 (broadcastInDim ⟨2, ![1, n]⟩ ![1] h1 b) := by
  funext j
  obtain ⟨p, q, rfl⟩ : ∃ (p : Fin m) (q : Fin n), j = ix2 p q := ⟨j 0, j 1, eq_ix2 j⟩
  rw [shapeCast_self, broadcastTo_1b_ab_apply, broadcastInDim_oneRow_apply, hr q]
  refine (broadcastInDim_apply ![1] h1 b (ix2 (0 : Fin 1) q) (ix1 q) ?_).symm
  intro a
  match a with
  | ⟨0, _⟩ =>
    show q.val = if n = 1 then 0 else q.val
    split
    · have := q.isLt; omega
    · rfl

/-- A splat of the scalar zero is the host's broadcast of the rank-0 zero constant. -/
theorem mlp15_splat_zero_eq_broadcastInDim {s t : Shape} {dims : Fin s.rank → Fin t.rank} (h : s.BroadcastsInDim t dims) :
    broadcast t (FloatOps.ofBits (F := Ideal) .f32 0x00000000#32)
      = broadcastInDim t dims h (constant (F := Ideal) s .f32 0x00000000#32) := by
  funext j; rfl

open Cert.KernelIdeal Cert.ReferenceIdeal.Facts₀ in
/-- The block the perceptron stores is the reference's two-layer perceptron of the blocks it loads, the two one-row
    blocks holding the bias vectors: relu (p · w1 + b1) · w2 + b2. -/
theorem mlp15_pay (p : Vec Ideal S16000x32 .f32) (w1 w2 : Vec Ideal S32x32 .f32) (r1 r2 : Vec Ideal S1x32 .f32)
    (b1 b2 : Vec Ideal S32 .f32)
    (h1 : ∀ q : Fin 32, r1 (ix2 0 q) = b1 (ix1 q)) (h2 : ∀ q : Fin 32, r2 (ix2 0 q) = b2 (ix1 q)) :
    Gen.k15_pay1 (F := Ideal) p w1 w2 r1 r2 = Cert.Spec.mlp1 p w1 b1 w2 b2 := by
  unfold Gen.k15_pay1 Cert.Spec.mlp1
  dsimp only
  rw [mlp15_oneRow_eq_vector_along r1 b1 h1 _ _ bcast_S32_S1x32_1 bcast_S1x32_S16000x32_0_1,
    mlp15_oneRow_eq_vector_along r2 b2 h2 _ _ bcast_S32_S1x32_1 bcast_S1x32_S16000x32_0_1,
    shapeCast_self, mlp15_matmul_narrowed_eq_dotGeneral _ p w1, mlp15_matmul_narrowed_eq_dotGeneral,
    mlp15_splat_zero_eq_broadcastInDim bcast_S_S16000x32]
  rfl

end Cert.KernelValue

end
-- ==== Proof.Mlp15.lean ====
/-
  The two-layer perceptron region on 16000 rows: the array it leaves in its output window is the reference's
  relu (p · w1 + b1) · w2 + b2 of the arrays it finds in its input windows. The grid has one point and every window's
  block is its whole array (block index 0 on both axes), so each input block is its array, the block written back is
  the whole output, and that one block covers the array.
-/
import proofs.«425927_j69028714381396_2_alg».proof.Proof.FrameKIW
import proofs.«425927_j69028714381396_2_alg».proof.Proof.MlpPay15
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem mlp15_zero2 : (![0, 0] : Fin 2 → Nat) = fun _ => 0 := funext fun a => by fin_cases a <;> rfl

/-- On the one-point grid every window's block index is 0 on both axes: each block is its whole array. -/
theorem mlp15_index_zero : ∀ t : Fin cfg15.N,
    win15_0.index t (0 : Fin 2) = 0 ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0 :=
  (by decide +kernel : ∀ t : Fin grid15.N, _)

/-- Window 0's block is the array of pooled rows: a block's coordinate is index × size + the coordinate inside the block, and the index is 0. -/
theorem mlp15_blk0 (c : Dev nD) (t : Fin cfg15.N) (j : S16000x32.Idx) :
    (iblk15 V c 0 t : Vec Ideal S16000x32 .f32) j = (V c (Pipeline.arrRef spec15 0) : Vec Ideal S16000x32 .f32) j := by
  have e0 : win15_0.index t (0 : Fin 2) = 0 := by have h := mlp15_index_zero t; omega
  have e1 : win15_0.index t (1 : Fin 2) = 0 := by have h := mlp15_index_zero t; omega
  unfold iblk15
  rw [View.read_apply]
  show V c (Pipeline.arrRef spec15 0) _ = V c (Pipeline.arrRef spec15 0) _
  congr 1
  funext a
  apply Fin.ext
  match a with
  | ⟨0, _⟩ => show win15_0.index t 0 * 16000 + 1 * (j 0).val = (j 0).val; rw [e0]; omega
  | ⟨1, _⟩ => show win15_0.index t 1 * 32 + 1 * (j 1).val = (j 1).val; rw [e1]; omega

/-- Window 1's block is the first weight matrix. -/
theorem mlp15_blk1 (c : Dev nD) (t : Fin cfg15.N) (j : S32x32.Idx) :
    (iblk15 V c 1 t : Vec Ideal S32x32 .f32) j = (V c (Pipeline.arrRef spec15 1) : Vec Ideal S32x32 .f32) j := by
  have e0 : win15_1.index t (0 : Fin 2) = 0 := by have h := mlp15_index_zero t; omega
  have e1 : win15_1.index t (1 : Fin 2) = 0 := by have h := mlp15_index_zero t; omega
  unfold iblk15
  rw [View.read_apply]
  show V c (Pipeline.arrRef spec15 1) _ = V c (Pipeline.arrRef spec15 1) _
  congr 1
  funext a
  apply Fin.ext
  match a with
  | ⟨0, _⟩ => show win15_1.index t 0 * 32 + 1 * (j 0).val = (j 0).val; rw [e0]; omega
  | ⟨1, _⟩ => show win15_1.index t 1 * 32 + 1 * (j 1).val = (j 1).val; rw [e1]; omega

/-- Window 2's block is the first bias row. -/
theorem mlp15_blk2 (c : Dev nD) (t : Fin cfg15.N) (j : S1x32.Idx) :
    (iblk15 V c 2 t : Vec Ideal S1x32 .f32) j = (V c (Pipeline.arrRef spec15 2) : Vec Ideal S1x32 .f32) j := by
  have e0 : win15_2.index t (0 : Fin 2) = 0 := by have h := mlp15_index_zero t; omega
  have e1 : win15_2.index t (1 : Fin 2) = 0 := by have h := mlp15_index_zero t; omega
  unfold iblk15
  rw [View.read_apply]
  show V c (Pipeline.arrRef spec15 2) _ = V c (Pipeline.arrRef spec15 2) _
  congr 1
  funext a
  apply Fin.ext
  match a with
  | ⟨0, _⟩ => show win15_2.index t 0 * 1 + 1 * (j 0).val = (j 0).val; rw [e0]; omega
  | ⟨1, _⟩ => show win15_2.index t 1 * 32 + 1 * (j 1).val = (j 1).val; rw [e1]; omega

/-- Window 3's block is the second weight matrix. -/
theorem mlp15_blk3 (c : Dev nD) (t : Fin cfg15.N) (j : S32x32.Idx) :
    (iblk15 V c 3 t : Vec Ideal S32x32 .f32) j = (V c (Pipeline.arrRef spec15 3) : Vec Ideal S32x32 .f32) j := by
  have e0 : win15_3.index t (0 : Fin 2) = 0 := by have h := mlp15_index_zero t; omega
  have e1 : win15_3.index t (1 : Fin 2) = 0 := by have h := mlp15_index_zero t; omega
  unfold iblk15
  rw [View.read_apply]
  show V c (Pipeline.arrRef spec15 3) _ = V c (Pipeline.arrRef spec15 3) _
  congr 1
  funext a
  apply Fin.ext
  match a with
  | ⟨0, _⟩ => show win15_3.index t 0 * 32 + 1 * (j 0).val = (j 0).val; rw [e0]; omega
  | ⟨1, _⟩ => show win15_3.index t 1 * 32 + 1 * (j 1).val = (j 1).val; rw [e1]; omega

/-- Window 4's block is the second bias row. -/
theorem mlp15_blk4 (c : Dev nD) (t : Fin cfg15.N) (j : S1x32.Idx) :
    (iblk15 V c 4 t : Vec Ideal S1x32 .f32) j = (V c (Pipeline.arrRef spec15 4) : Vec Ideal S1x32 .f32) j := by
  have e0 : win15_4.index t (0 : Fin 2) = 0 := by have h := mlp15_index_zero t; omega
  have e1 : win15_4.index t (1 : Fin 2) = 0 := by have h := mlp15_index_zero t; omega
  unfold iblk15
  rw [View.read_apply]
  show V c (Pipeline.arrRef spec15 4) _ = V c (Pipeline.arrRef spec15 4) _
  congr 1
  funext a
  apply Fin.ext
  match a with
  | ⟨0, _⟩ => show win15_4.index t 0 * 1 + 1 * (j 0).val = (j 0).val; rw [e0]; omega
  | ⟨1, _⟩ => show win15_4.index t 1 * 32 + 1 * (j 1).val = (j 1).val; rw [e1]; omega

/-- What the one point writes back is the block of the reference's perceptron of the arrays the region finds. -/
theorem mlp15_flushed (c : Dev nD) (p : Vec Ideal S16000x32 .f32) (w1 w2 : Vec Ideal S32x32 .f32) (b1 b2 : Vec Ideal S32 .f32)
    (h0 : V c (Pipeline.arrRef spec15 0) = p) (h1 : V c (Pipeline.arrRef spec15 1) = w1)
    (h2 : ∀ q : Fin 32, V c (Pipeline.arrRef spec15 2) (ValueIdx.ix2 0 q) = b1 (ValueIdx.ix1 q))
    (h3 : V c (Pipeline.arrRef spec15 3) = w2)
    (h4 : ∀ q : Fin 32, V c (Pipeline.arrRef spec15 4) (ValueIdx.ix2 0 q) = b2 (ValueIdx.ix1 q)) (t : Fin cfg15.N) :
    (dat15 (F := Ideal) V c).flushed 5 t = ((cfg15.win 5).blk t).view.read (Elt Ideal) (Cert.Spec.mlp1 p w1 b1 w2 b2) := by
  have e0 : (iblk15 V c 0 t : Vec Ideal S16000x32 .f32) = p := (funext (mlp15_blk0 V c t)).trans h0
  have e1 : (iblk15 V c 1 t : Vec Ideal S32x32 .f32) = w1 := (funext (mlp15_blk1 V c t)).trans h1
  have e3 : (iblk15 V c 3 t : Vec Ideal S32x32 .f32) = w2 := (funext (mlp15_blk3 V c t)).trans h3
  have e2 : ∀ q : Fin 32, (iblk15 V c 2 t : Vec Ideal S1x32 .f32) (ix2 0 q) = b1 (ix1 q) :=
    fun q => (mlp15_blk2 V c t _).trans (h2 q)
  have e4 : ∀ q : Fin 32, (iblk15 V c 4 t : Vec Ideal S1x32 .f32) (ix2 0 q) = b2 (ix1 q) :=
    fun q => (mlp15_blk4 V c t _).trans (h4 q)
  show (cfg15.win 5).cut (grid15.coords t) ((dat15 V c).after 5 t) = _
  rw [after15_5]
  unfold out15_5
  rw [View.canon_unit_zero mlp15_zero2]
  simp only [View.ld_unit_zero (S := S16000x32) mlp15_zero2, View.ld_unit_zero (S := S32x32) mlp15_zero2,
    View.ld_unit_zero (S := S1x32) mlp15_zero2]
  rw [mlp15_pay _ _ _ _ _ b1 b2 e2 e4, e0, e1, e3]
  have z0 : win15_5.index t (0 : Fin 2) = 0 := by have h := mlp15_index_zero t; omega
  have z1 : win15_5.index t (1 : Fin 2) = 0 := by have h := mlp15_index_zero t; omega
  funext j
  rw [View.read_apply]
  show Cert.Spec.mlp1 p w1 b1 w2 b2 _ = Cert.Spec.mlp1 p w1 b1 w2 b2 _
  congr 1
  funext a
  apply Fin.ext
  match a with
  | ⟨0, _⟩ => show (j 0).val = win15_5.index t 0 * 16000 + 1 * (j 0).val; rw [z0]; omega
  | ⟨1, _⟩ => show (j 1).val = win15_5.index t 1 * 32 + 1 * (j 1).val; rw [z1]; omega

/-- The one point's block is the whole output array, so the array ends holding the reference's perceptron
    relu (p · w1 + b1) · w2 + b2 of the arrays the region finds in its input windows. -/
theorem mlp15_value (c : Dev nD) (p : Vec Ideal S16000x32 .f32) (w1 w2 : Vec Ideal S32x32 .f32) (b1 b2 : Vec Ideal S32 .f32)
    (h0 : V c (Pipeline.arrRef spec15 0) = p) (h1 : V c (Pipeline.arrRef spec15 1) = w1)
    (h2 : ∀ q : Fin 32, V c (Pipeline.arrRef spec15 2) (ValueIdx.ix2 0 q) = b1 (ValueIdx.ix1 q))
    (h3 : V c (Pipeline.arrRef spec15 3) = w2)
    (h4 : ∀ q : Fin 32, V c (Pipeline.arrRef spec15 4) (ValueIdx.ix2 0 q) = b2 (ValueIdx.ix1 q)) :
    (dat15 (F := Ideal) V c).arrAt 5 cfg15.N = Cert.Spec.mlp1 p w1 b1 w2 b2 :=
  (dat15 (F := Ideal) V c).arrAt_eq_of_cover 5 (Cert.Spec.mlp1 p w1 b1 w2 b2)
    (fun t _ => mlp15_flushed V c p w1 w2 b1 b2 h0 h1 h2 h3 h4 t) fun i => by
      have z0 : win15_5.index t15_0 (0 : Fin 2) = 0 := by have h := mlp15_index_zero t15_0; omega
      have z1 : win15_5.index t15_0 (1 : Fin 2) = 0 := by have h := mlp15_index_zero t15_0; omega
      refine ⟨t15_0, flush15_5 t15_0, ?_⟩
      show i ∈ ((View.whole (Pipeline.arrRef spec15 5)).slice (win15_5.rect t15_0)).set
      rw [View.set_slice_whole, Rect.mem_set_unit]
      intro a
      have i0 : (i 0 : Nat) < 16000 := (i 0).isLt
      have i1 : (i 1 : Nat) < 32 := (i 1).isLt
      match a with
      | ⟨0, _⟩ =>
        show win15_5.index t15_0 0 * 16000 ≤ (i 0 : Nat) ∧ (i 0 : Nat) < win15_5.index t15_0 0 * 16000 + 16000
        rw [z0]; omega
      | ⟨1, _⟩ =>
        show win15_5.index t15_0 1 * 32 ≤ (i 1 : Nat) ∧ (i 1 : Nat) < win15_5.index t15_0 1 * 32 + 32
        rw [z1]; omega

end Cert.KernelValue

end
-- ==== Proof.MlpPay16.lean ====
/-
  The two-layer perceptron's block arithmetic against the reference's stage function, over variables of the literal
  block types, at the ideal values: a change of float format is the identity; a matrix product accumulated into a zero
  splat is the host's product with no accumulator (0 + x = x); a one-row matrix laid down the rows is the bias vector
  laid along every row; a splat of the scalar zero is the host's broadcast of the zero constant.
-/
import proofs.«425927_j69028714381396_2_alg».proof.Proof.Gen.KernelIdeal.Skeleton
import proofs.«425927_j69028714381396_2_alg».proof.Proof.Gen.ReferenceIdeal
import proofs.«425927_j69028714381396_2_alg».proof.Proof.Spec
import Idealize.ShloMosaic.Lib.KernelVsHost
import Idealize.ShloMosaic.Lib.ValueLayout

noncomputable section

namespace Cert.KernelValue

open Idealize.ShloMosaic Idealize.ShloMosaic.ValueIdx

/-- At the ideal values a product of two operands narrowed to bf16, accumulated into the zero splat, is the host's
    product of the operands: narrowing is the identity and the accumulator adds 0. -/
theorem mlp16_matmul_narrowed_eq_dotGeneral {sl sr so : Shape} (d : DotDims sl sr so)
    (x : FVec Ideal sl .f32) (w : FVec Ideal sr .f32) (hx : FTy.bits .bf16 < FTy.bits .f32) (hw : FTy.bits .bf16 < FTy.bits .f32) :
    matmul d none (truncf .bf16 x hx) (truncf .bf16 w hw) (constant (F := Ideal) so .f32 0x00000000#32)
      = Host.dotGeneral (F := Ideal) d none x w := by
  funext j
  show FloatOps.matmul d none (truncf .bf16 x hx) (truncf .bf16 w hw) (constant (F := Ideal) so .f32 0x00000000#32) j
    = FloatOps.dotGeneral d none _ x w j
  rw [Ideal.matmul_constant_zero_apply, Ideal.dotGeneral_apply]
  rfl

/-- A one-row matrix laid down m rows is the vector laid along every row, when the row holds the vector. -/
theorem mlp16_oneRow_eq_vector_along {m n : Nat} (r : (⟨2, ![1, n]⟩ : Shape).Idx → EReal) (b : (⟨1, ![n]⟩ : Shape).Idx → EReal)
    (hr : ∀ q : Fin n, r (ix2 0 q) = b (ix1 q))
    (hc : (⟨2, ![1, n]⟩ : Shape).ShapeCasts ⟨2, ![1, n]⟩) (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1]) :
    broadcastTo ⟨2, ![m, n]⟩ (shapeCast ⟨2, ![1, n]⟩ r hc) hb
      = broadcastInDim ⟨2, ![m, n]⟩ ![0, 1] h2 (broadcastInDim ⟨2, ![1, n]⟩ ![1] h1 b) := by
  funext j
  obtain ⟨p, q, rfl⟩ : ∃ (p : Fin m) (q : Fin n), j = ix2 p q := ⟨j 0, j 1, eq_ix2 j⟩
  rw [shapeCast_self, broadcastTo_1b_ab_apply, broadcastInDim_oneRow_apply, hr q]
  refine (broadcastInDim_apply ![1] h1 b (ix2 (0 : Fin 1) q) (ix1 q) ?_).symm
  intro a
  match a with
  | ⟨0, _⟩ =>
    show q.val = if n = 1 then 0 else q.val
    split
    · have := q.isLt; omega
    · rfl

/-- A splat of the scalar zero is the host's broadcast of the rank-0 zero constant. -/
theorem mlp16_splat_zero_eq_broadcastInDim {s t : Shape} {dims : Fin s.rank → Fin t.rank} (h : s.BroadcastsInDim t dims) :
    broadcast t (FloatOps.ofBits (F := Ideal) .f32 0x00000000#32)
      = broadcastInDim t dims h (constant (F := Ideal) s .f32 0x00000000#32) := by
  funext j; rfl

open Cert.KernelIdeal Cert.ReferenceIdeal.Facts₀ in
/-- The block the perceptron stores is the reference's two-layer perceptron of the blocks it loads, the two one-row
    blocks holding the bias vectors: relu (p · w1 + b1) · w2 + b2. -/
theorem mlp16_pay (p : Vec Ideal S1600x32 .f32) (w1 w2 : Vec Ideal S32x32 .f32) (r1 r2 : Vec Ideal S1x32 .f32)
    (b1 b2 : Vec Ideal S32 .f32)
    (h1 : ∀ q : Fin 32, r1 (ix2 0 q) = b1 (ix1 q)) (h2 : ∀ q : Fin 32, r2 (ix2 0 q) = b2 (ix1 q)) :
    Gen.k16_pay1 (F := Ideal) p w1 w2 r1 r2 = Cert.Spec.mlp2 p w1 b1 w2 b2 := by
  unfold Gen.k16_pay1 Cert.Spec.mlp2
  dsimp only
  rw [mlp16_oneRow_eq_vector_along r1 b1 h1 _ _ bcast_S32_S1x32_1 bcast_S1x32_S1600x32_0_1,
    mlp16_oneRow_eq_vector_along r2 b2 h2 _ _ bcast_S32_S1x32_1 bcast_S1x32_S1600x32_0_1,
    shapeCast_self, mlp16_matmul_narrowed_eq_dotGeneral _ p w1, mlp16_matmul_narrowed_eq_dotGeneral,
    mlp16_splat_zero_eq_broadcastInDim bcast_S_S1600x32]
  rfl

end Cert.KernelValue

end
-- ==== Proof.Mlp16.lean ====
/-
  The two-layer perceptron region on 1600 rows: the array it leaves in its output window is the reference's
  relu (p · w1 + b1) · w2 + b2 of the arrays it finds in its input windows. The grid has one point and every window's
  block is its whole array (block index 0 on both axes), so each input block is its array, the block written back is
  the whole output, and that one block covers the array.
-/
import proofs.«425927_j69028714381396_2_alg».proof.Proof.FrameKIW
import proofs.«425927_j69028714381396_2_alg».proof.Proof.MlpPay16
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem mlp16_zero2 : (![0, 0] : Fin 2 → Nat) = fun _ => 0 := funext fun a => by fin_cases a <;> rfl

/-- On the one-point grid every window's block index is 0 on both axes: each block is its whole array. -/
theorem mlp16_index_zero : ∀ t : Fin cfg16.N,
    win16_0.index t (0 : Fin 2) = 0 ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0 :=
  (by decide +kernel : ∀ t : Fin grid16.N, _)

/-- Window 0's block is the array of pooled rows: a block's coordinate is index × size + the coordinate inside the block, and the index is 0. -/
theorem mlp16_blk0 (c : Dev nD) (t : Fin cfg16.N) (j : S1600x32.Idx) :
    (iblk16 V c 0 t : Vec Ideal S1600x32 .f32) j = (V c (Pipeline.arrRef spec16 0) : Vec Ideal S1600x32 .f32) j := by
  have e0 : win16_0.index t (0 : Fin 2) = 0 := by have h := mlp16_index_zero t; omega
  have e1 : win16_0.index t (1 : Fin 2) = 0 := by have h := mlp16_index_zero t; omega
  unfold iblk16
  rw [View.read_apply]
  show V c (Pipeline.arrRef spec16 0) _ = V c (Pipeline.arrRef spec16 0) _
  congr 1
  funext a
  apply Fin.ext
  match a with
  | ⟨0, _⟩ => show win16_0.index t 0 * 1600 + 1 * (j 0).val = (j 0).val; rw [e0]; omega
  | ⟨1, _⟩ => show win16_0.index t 1 * 32 + 1 * (j 1).val = (j 1).val; rw [e1]; omega

/-- Window 1's block is the first weight matrix. -/
theorem mlp16_blk1 (c : Dev nD) (t : Fin cfg16.N) (j : S32x32.Idx) :
    (iblk16 V c 1 t : Vec Ideal S32x32 .f32) j = (V c (Pipeline.arrRef spec16 1) : Vec Ideal S32x32 .f32) j := by
  have e0 : win16_1.index t (0 : Fin 2) = 0 := by have h := mlp16_index_zero t; omega
  have e1 : win16_1.index t (1 : Fin 2) = 0 := by have h := mlp16_index_zero t; omega
  unfold iblk16
  rw [View.read_apply]
  show V c (Pipeline.arrRef spec16 1) _ = V c (Pipeline.arrRef spec16 1) _
  congr 1
  funext a
  apply Fin.ext
  match a with
  | ⟨0, _⟩ => show win16_1.index t 0 * 32 + 1 * (j 0).val = (j 0).val; rw [e0]; omega
  | ⟨1, _⟩ => show win16_1.index t 1 * 32 + 1 * (j 1).val = (j 1).val; rw [e1]; omega

/-- Window 2's block is the first bias row. -/
theorem mlp16_blk2 (c : Dev nD) (t : Fin cfg16.N) (j : S1x32.Idx) :
    (iblk16 V c 2 t : Vec Ideal S1x32 .f32) j = (V c (Pipeline.arrRef spec16 2) : Vec Ideal S1x32 .f32) j := by
  have e0 : win16_2.index t (0 : Fin 2) = 0 := by have h := mlp16_index_zero t; omega
  have e1 : win16_2.index t (1 : Fin 2) = 0 := by have h := mlp16_index_zero t; omega
  unfold iblk16
  rw [View.read_apply]
  show V c (Pipeline.arrRef spec16 2) _ = V c (Pipeline.arrRef spec16 2) _
  congr 1
  funext a
  apply Fin.ext
  match a with
  | ⟨0, _⟩ => show win16_2.index t 0 * 1 + 1 * (j 0).val = (j 0).val; rw [e0]; omega
  | ⟨1, _⟩ => show win16_2.index t 1 * 32 + 1 * (j 1).val = (j 1).val; rw [e1]; omega

/-- Window 3's block is the second weight matrix. -/
theorem mlp16_blk3 (c : Dev nD) (t : Fin cfg16.N) (j : S32x32.Idx) :
    (iblk16 V c 3 t : Vec Ideal S32x32 .f32) j = (V c (Pipeline.arrRef spec16 3) : Vec Ideal S32x32 .f32) j := by
  have e0 : win16_3.index t (0 : Fin 2) = 0 := by have h := mlp16_index_zero t; omega
  have e1 : win16_3.index t (1 : Fin 2) = 0 := by have h := mlp16_index_zero t; omega
  unfold iblk16
  rw [View.read_apply]
  show V c (Pipeline.arrRef spec16 3) _ = V c (Pipeline.arrRef spec16 3) _
  congr 1
  funext a
  apply Fin.ext
  match a with
  | ⟨0, _⟩ => show win16_3.index t 0 * 32 + 1 * (j 0).val = (j 0).val; rw [e0]; omega
  | ⟨1, _⟩ => show win16_3.index t 1 * 32 + 1 * (j 1).val = (j 1).val; rw [e1]; omega

/-- Window 4's block is the second bias row. -/
theorem mlp16_blk4 (c : Dev nD) (t : Fin cfg16.N) (j : S1x32.Idx) :
    (iblk16 V c 4 t : Vec Ideal S1x32 .f32) j = (V c (Pipeline.arrRef spec16 4) : Vec Ideal S1x32 .f32) j := by
  have e0 : win16_4.index t (0 : Fin 2) = 0 := by have h := mlp16_index_zero t; omega
  have e1 : win16_4.index t (1 : Fin 2) = 0 := by have h := mlp16_index_zero t; omega
  unfold iblk16
  rw [View.read_apply]
  show V c (Pipeline.arrRef spec16 4) _ = V c (Pipeline.arrRef spec16 4) _
  congr 1
  funext a
  apply Fin.ext
  match a with
  | ⟨0, _⟩ => show win16_4.index t 0 * 1 + 1 * (j 0).val = (j 0).val; rw [e0]; omega
  | ⟨1, _⟩ => show win16_4.index t 1 * 32 + 1 * (j 1).val = (j 1).val; rw [e1]; omega

/-- What the one point writes back is the block of the reference's perceptron of the arrays the region finds. -/
theorem mlp16_flushed (c : Dev nD) (p : Vec Ideal S1600x32 .f32) (w1 w2 : Vec Ideal S32x32 .f32) (b1 b2 : Vec Ideal S32 .f32)
    (h0 : V c (Pipeline.arrRef spec16 0) = p) (h1 : V c (Pipeline.arrRef spec16 1) = w1)
    (h2 : ∀ q : Fin 32, V c (Pipeline.arrRef spec16 2) (ValueIdx.ix2 0 q) = b1 (ValueIdx.ix1 q))
    (h3 : V c (Pipeline.arrRef spec16 3) = w2)
    (h4 : ∀ q : Fin 32, V c (Pipeline.arrRef spec16 4) (ValueIdx.ix2 0 q) = b2 (ValueIdx.ix1 q)) (t : Fin cfg16.N) :
    (dat16 (F := Ideal) V c).flushed 5 t = ((cfg16.win 5).blk t).view.read (Elt Ideal) (Cert.Spec.mlp2 p w1 b1 w2 b2) := by
  have e0 : (iblk16 V c 0 t : Vec Ideal S1600x32 .f32) = p := (funext (mlp16_blk0 V c t)).trans h0
  have e1 : (iblk16 V c 1 t : Vec Ideal S32x32 .f32) = w1 := (funext (mlp16_blk1 V c t)).trans h1
  have e3 : (iblk16 V c 3 t : Vec Ideal S32x32 .f32) = w2 := (funext (mlp16_blk3 V c t)).trans h3
  have e2 : ∀ q : Fin 32, (iblk16 V c 2 t : Vec Ideal S1x32 .f32) (ix2 0 q) = b1 (ix1 q) :=
    fun q => (mlp16_blk2 V c t _).trans (h2 q)
  have e4 : ∀ q : Fin 32, (iblk16 V c 4 t : Vec Ideal S1x32 .f32) (ix2 0 q) = b2 (ix1 q) :=
    fun q => (mlp16_blk4 V c t _).trans (h4 q)
  show (cfg16.win 5).cut (grid16.coords t) ((dat16 V c).after 5 t) = _
  rw [after16_5]
  unfold out16_5
  rw [View.canon_unit_zero mlp16_zero2]
  simp only [View.ld_unit_zero (S := S1600x32) mlp16_zero2, View.ld_unit_zero (S := S32x32) mlp16_zero2,
    View.ld_unit_zero (S := S1x32) mlp16_zero2]
  rw [mlp16_pay _ _ _ _ _ b1 b2 e2 e4, e0, e1, e3]
  have z0 : win16_5.index t (0 : Fin 2) = 0 := by have h := mlp16_index_zero t; omega
  have z1 : win16_5.index t (1 : Fin 2) = 0 := by have h := mlp16_index_zero t; omega
  funext j
  rw [View.read_apply]
  show Cert.Spec.mlp2 p w1 b1 w2 b2 _ = Cert.Spec.mlp2 p w1 b1 w2 b2 _
  congr 1
  funext a
  apply Fin.ext
  match a with
  | ⟨0, _⟩ => show (j 0).val = win16_5.index t 0 * 1600 + 1 * (j 0).val; rw [z0]; omega
  | ⟨1, _⟩ => show (j 1).val = win16_5.index t 1 * 32 + 1 * (j 1).val; rw [z1]; omega

/-- The one point's block is the whole output array, so the array ends holding the reference's perceptron
    relu (p · w1 + b1) · w2 + b2 of the arrays the region finds in its input windows. -/
theorem mlp16_value (c : Dev nD) (p : Vec Ideal S1600x32 .f32) (w1 w2 : Vec Ideal S32x32 .f32) (b1 b2 : Vec Ideal S32 .f32)
    (h0 : V c (Pipeline.arrRef spec16 0) = p) (h1 : V c (Pipeline.arrRef spec16 1) = w1)
    (h2 : ∀ q : Fin 32, V c (Pipeline.arrRef spec16 2) (ValueIdx.ix2 0 q) = b1 (ValueIdx.ix1 q))
    (h3 : V c (Pipeline.arrRef spec16 3) = w2)
    (h4 : ∀ q : Fin 32, V c (Pipeline.arrRef spec16 4) (ValueIdx.ix2 0 q) = b2 (ValueIdx.ix1 q)) :
    (dat16 (F := Ideal) V c).arrAt 5 cfg16.N = Cert.Spec.mlp2 p w1 b1 w2 b2 :=
  (dat16 (F := Ideal) V c).arrAt_eq_of_cover 5 (Cert.Spec.mlp2 p w1 b1 w2 b2)
    (fun t _ => mlp16_flushed V c p w1 w2 b1 b2 h0 h1 h2 h3 h4 t) fun i => by
      have z0 : win16_5.index t16_0 (0 : Fin 2) = 0 := by have h := mlp16_index_zero t16_0; omega
      have z1 : win16_5.index t16_0 (1 : Fin 2) = 0 := by have h := mlp16_index_zero t16_0; omega
      refine ⟨t16_0, flush16_5 t16_0, ?_⟩
      show i ∈ ((View.whole (Pipeline.arrRef spec16 5)).slice (win16_5.rect t16_0)).set
      rw [View.set_slice_whole, Rect.mem_set_unit]
      intro a
      have i0 : (i 0 : Nat) < 1600 := (i 0).isLt
      have i1 : (i 1 : Nat) < 32 := (i 1).isLt
      match a with
      | ⟨0, _⟩ =>
        show win16_5.index t16_0 0 * 1600 ≤ (i 0 : Nat) ∧ (i 0 : Nat) < win16_5.index t16_0 0 * 1600 + 1600
        rw [z0]; omega
      | ⟨1, _⟩ =>
        show win16_5.index t16_0 1 * 32 ≤ (i 1 : Nat) ∧ (i 1 : Nat) < win16_5.index t16_0 1 * 32 + 32
        rw [z1]; omega

end Cert.KernelValue

end
-- ==== Proof.Fc1Pay17.lean ====
/-
  The first head kernel's arithmetic, index by index. Its payload is the block product of the 160×32 pooled rows with
  the 32×16 weight, accumulated into zero, plus the bias row laid along every row, then ELU spelled as
  where(y > 0, y, exp y − 1). The reference spells the same linear map with the host's dot_general and two broadcasts
  of the bias vector, and ELU as select(y > 0, y, 1 · expm1(select(y > 0, 0, y))). At the extended reals a change of
  float format is the identity, a product accumulated into zero is the host's product, expm1 x = exp x − 1 and
  1 · a = a, so the two agree at every index: where y > 0 both give y, elsewhere both give exp y − 1.
-/
import proofs.«425927_j69028714381396_2_alg».proof.Proof.Gen.KernelIdeal.Skeleton
import proofs.«425927_j69028714381396_2_alg».proof.Proof.Spec
import Idealize.ShloMosaic.Lib.KernelVsHost
import Idealize.ShloMosaic.Lib.ValueLayout

noncomputable section

namespace Cert.KernelValue

open Idealize.ShloMosaic Idealize.ShloMosaic.ValueIdx
open Cert.KernelIdeal Cert.KernelIdeal.Facts₀

variable [Cert.ReferenceIdeal.Facts₀]

/-- The linear part as the kernel spells it: the product into a zero accumulator plus the bias row broadcast down the rows. -/
def klin17 (x0 : Vec Ideal S160x32 .f32) (x1 : Vec Ideal S32x16 .f32) (x2 : Vec Ideal S1x16 .f32) : FVec Ideal S160x16 .f32 :=
  addf (matmul dot_S160x32_S32x16_S160x16_1_0_0_1_n_n none
      (truncf .bf16 (shapeCast S160x32 x0 shapeCasts_S160x32_S160x32) bitsLt_bf16_f32) (truncf .bf16 x1 bitsLt_bf16_f32)
      (constant S160x16 .f32 0x00000000#32))
    (broadcastTo S160x16 (shapeCast S1x16 x2 shapeCasts_S1x16_S1x16) broadcasts_S1x16_S160x16)

/-- The payload is ELU, in the kernel's spelling, of that linear part. -/
theorem pay17_eq (x0 : Vec Ideal S160x32 .f32) (x1 : Vec Ideal S32x16 .f32) (x2 : Vec Ideal S1x16 .f32) :
    Gen.k17_pay1 (F := Ideal) x0 x1 x2
      = select (cmpf .ogt (klin17 x0 x1 x2) (broadcast S160x16 (Scalar.ofBits .f32 0x00000000#32))) (klin17 x0 x1 x2)
          (subf (exp (klin17 x0 x1 x2)) (broadcast S160x16 (Scalar.ofBits .f32 0x3F800000#32))) := rfl

/-- The kernel's product into zero is the host's product of the same operands: a change of float format is the
    identity at the extended reals, and the two contraction records have the same axes. -/
theorem kmm17_apply (x0 : Vec Ideal S160x32 .f32) (x1 : Vec Ideal S32x16 .f32) (j : S160x16.Idx) :
    matmul dot_S160x32_S32x16_S160x16_1_0_0_1_n_n none
        (truncf .bf16 (shapeCast S160x32 x0 shapeCasts_S160x32_S160x32) bitsLt_bf16_f32) (truncf .bf16 x1 bitsLt_bf16_f32)
        (constant (F := Ideal) S160x16 .f32 0x00000000#32) j
      = Host.dotGeneral (F := Ideal) (φ₁ := .f32) (φ₂ := .f32) Cert.ReferenceIdeal.dot_S160x32_S32x16_S160x16_1_0_0_1_n_n none x0 x1 j := by
  rw [shapeCast_self]
  refine (congrFun (matmul_zero_eq_dotGeneral _ none _ _) j).trans ?_
  rfl

/-- The bias row at an index, in both spellings: the one-row block broadcast down the rows, and the vector broadcast
    to a row and then down the rows. -/
theorem kbias_apply (x2 : Vec Ideal S1x16 .f32) (p : Fin 160) (q : Fin 16) :
    broadcastTo S160x16 (shapeCast S1x16 x2 shapeCasts_S1x16_S1x16) broadcasts_S1x16_S160x16 (ix2 p q) = x2 (ix2 (0 : Fin 1) q) := by
  rw [shapeCast_self]
  exact broadcastTo_1b_ab_apply x2 _ p q

theorem rbias_apply (b : Vec Ideal S16 .f32) (p : Fin 160) (q : Fin 16) :
    Cert.Spec.rows16 (Cert.Spec.row16 b) (ix2 p q) = b (ix1 q) := by
  refine (broadcastInDim_oneRow_apply _ _ p q).trans ?_
  refine broadcastInDim_apply ![1] _ b (ix2 (0 : Fin 1) q) (ix1 q) fun a => ?_
  match a with
  | ⟨0, _⟩ =>
    show q.val = if (16 : ℕ) = 1 then 0 else q.val
    rw [if_neg (by decide)]

/-- The linear part is the reference's. -/
theorem klin17_eq (x0 : Vec Ideal S160x32 .f32) (x1 : Vec Ideal S32x16 .f32) (x2 : Vec Ideal S1x16 .f32) (b : Vec Ideal S16 .f32)
    (hb : ∀ q : Fin 16, x2 (ix2 (0 : Fin 1) q) = b (ix1 q)) : klin17 x0 x1 x2 = Cert.Spec.fc1 x0 x1 b := by
  funext j
  obtain ⟨p, q, rfl⟩ : ∃ (p : Fin 160) (q : Fin 16), j = ix2 p q := ⟨j 0, j 1, eq_ix2 j⟩
  unfold klin17 Cert.Spec.fc1
  exact congrArg₂ (· + ·) (kmm17_apply x0 x1 (ix2 p q)) ((kbias_apply x2 p q).trans ((hb q).trans (rbias_apply b p q).symm))

/-- ELU in the two spellings, on one extended real. -/
theorem elu_scalar (y : EReal) :
    Scalar.select (Ideal.cmp .ogt y (Ideal.ofBits .f32 0x00000000#32)) y (Ideal.exp y - Ideal.ofBits .f32 0x3F800000#32)
      = Scalar.select (Ideal.cmp .ogt y (Ideal.ofBits .f32 0x00000000#32)) y
          (Ideal.ofBits .f32 0x3F800000#32 * (Ideal.exp (Scalar.select (Ideal.cmp .ogt y (Ideal.ofBits .f32 0x00000000#32)) (Ideal.ofBits .f32 0x00000000#32) y) - 1)) := by
  have h1 : Ideal.ofBits .f32 0x3F800000#32 = 1 := IdealRules.sign_bit.ideal_onePat .f32
  by_cases hc : Ideal.cmp .ogt y (Ideal.ofBits .f32 0x00000000#32) = 1
  · simp only [Scalar.select, if_pos hc]
  · simp only [Scalar.select, if_neg hc]
    rw [h1, one_mul]

/-- The payload of the loaded blocks is the reference's ELU of its linear stage. -/
theorem fc1_pay17 (x0 : Vec Ideal S160x32 .f32) (x1 : Vec Ideal S32x16 .f32) (x2 : Vec Ideal S1x16 .f32) (b : Vec Ideal S16 .f32)
    (hb : ∀ q : Fin 16, x2 (ix2 (0 : Fin 1) q) = b (ix1 q)) :
    Gen.k17_pay1 (F := Ideal) x0 x1 x2 = Cert.Spec.elu (Cert.Spec.fc1 x0 x1 b) := by
  rw [pay17_eq, klin17_eq x0 x1 x2 b hb]
  funext j
  exact elu_scalar (Cert.Spec.fc1 x0 x1 b j)

end Cert.KernelValue

end
-- ==== Proof.Fc1_17.lean ====
/-
  Region 17 read as a value. The grid has one point and every window's block index is zero on both axes there, so each
  input block is its whole array and the block the output window writes back is the payload of the arrays themselves:
  the reference's ELU of its first linear head stage, by the payload's reading. That one block covers the whole
  160×16 output array.
-/
import proofs.«425927_j69028714381396_2_alg».proof.Proof.FrameKIW
import proofs.«425927_j69028714381396_2_alg».proof.Proof.Fc1Pay17
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable [Cert.ReferenceIdeal.Facts₀]
variable (V : (c : Dev nD) → (b : Ref sig .tc) → Buf (Elt Ideal) ((c : Thread nD τ).loc b))

theorem zeroOff17 : (![0, 0] : Fin 2 → Nat) = fun _ => 0 := funext fun a => by fin_cases a <;> rfl

/-- At the one grid point every window's block index is zero on both axes (the printed index maps, decided). -/
theorem idx17 : ∀ t : Fin cfg17.N, win17_0.index t (0 : Fin 2) = 0 ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0 :=
  (by decide +kernel : ∀ t : Fin grid17.N, _)

/-- The three input arrays as the region finds them, at their literal types. -/
abbrev arr17_0 (c : Dev nD) : Vec Ideal S160x32 .f32 := V c (Pipeline.arrRef spec17 0)
abbrev arr17_1 (c : Dev nD) : Vec Ideal S32x16 .f32 := V c (Pipeline.arrRef spec17 1)
abbrev arr17_2 (c : Dev nD) : Vec Ideal S1x16 .f32 := V c (Pipeline.arrRef spec17 2)

/-- Each input block is its whole array: the block's coordinate is index × size + the coordinate inside, the index zero. -/
theorem blk17_0 (c : Dev nD) (t : Fin cfg17.N) : (iblk17 V c 0 t : Vec Ideal S160x32 .f32) = arr17_0 V c := by
  obtain ⟨e0, e1, -⟩ := idx17 t
  funext j
  show arr17_0 V c (((cfg17.win 0).blk t).view.emb j) = arr17_0 V c j
  refine congrArg (arr17_0 V c) (funext fun a => Fin.ext ?_)
  match a with
  | ⟨0, _⟩ => show win17_0.index t (0 : Fin 2) * 160 + 1 * (j 0).val = (j 0).val; omega
  | ⟨1, _⟩ => show win17_0.index t (1 : Fin 2) * 32 + 1 * (j 1).val = (j 1).val; omega

theorem blk17_1 (c : Dev nD) (t : Fin cfg17.N) : (iblk17 V c 1 t : Vec Ideal S32x16 .f32) = arr17_1 V c := by
  obtain ⟨-, -, e0, e1, -⟩ := idx17 t
  funext j
  show arr17_1 V c (((cfg17.win 1).blk t).view.emb j) = arr17_1 V c j
  refine congrArg (arr17_1 V c) (funext fun a => Fin.ext ?_)
  match a with
  | ⟨0, _⟩ => show win17_1.index t (0 : Fin 2) * 32 + 1 * (j 0).val = (j 0).val; omega
  | ⟨1, _⟩ => show win17_1.index t (1 : Fin 2) * 16 + 1 * (j 1).val = (j 1).val; omega

theorem blk17_2 (c : Dev nD) (t : Fin cfg17.N) : (iblk17 V c 2 t : Vec Ideal S1x16 .f32) = arr17_2 V c := by
  obtain ⟨-, -, -, -, e0, e1, -⟩ := idx17 t
  funext j
  show arr17_2 V c (((cfg17.win 2).blk t).view.emb j) = arr17_2 V c j
  refine congrArg (arr17_2 V c) (funext fun a => Fin.ext ?_)
  match a with
  | ⟨0, _⟩ => show win17_2.index t (0 : Fin 2) * 1 + 1 * (j 0).val = (j 0).val; omega
  | ⟨1, _⟩ => show win17_2.index t (1 : Fin 2) * 16 + 1 * (j 1).val = (j 1).val; omega

/-- What the one point writes back is the block of the reference's ELU of its linear stage. -/
theorem flushed17_eq (c : Dev nD) (p : Vec Ideal S160x32 .f32) (w : Vec Ideal S32x16 .f32) (b : Vec Ideal S16 .f32)
    (h0 : arr17_0 V c = p) (h1 : arr17_1 V c = w)
    (h2 : ∀ q : Fin 16, arr17_2 V c (ix2 (0 : Fin 1) q) = b (ix1 q)) (t : Fin cfg17.N) :
    (dat17 (F := Ideal) V c).flushed 3 t
      = ((cfg17.win 3).blk t).view.read (Elt Ideal) (Cert.Spec.elu (Cert.Spec.fc1 p w b)) := by
  show (cfg17.win 3).cut (grid17.coords t) ((dat17 V c).after 3 t) = _
  rw [after17_3]
  unfold out17_3
  rw [View.canon_unit_zero zeroOff17]
  simp only [View.ld_unit_zero (S := S160x32) zeroOff17, View.ld_unit_zero (S := S32x16) zeroOff17,
    View.ld_unit_zero (S := S1x16) zeroOff17]
  rw [blk17_0, blk17_1, blk17_2, fc1_pay17 (arr17_0 V c) (arr17_1 V c) (arr17_2 V c) b h2, h0, h1]
  obtain ⟨-, -, -, -, -, -, e0, e1⟩ := idx17 t
  funext j
  show Cert.Spec.elu (Cert.Spec.fc1 p w b) j = Cert.Spec.elu (Cert.Spec.fc1 p w b) (((cfg17.win 3).blk t).view.emb j)
  refine congrArg (Cert.Spec.elu (Cert.Spec.fc1 p w b)) (funext fun a => Fin.ext ?_)
  match a with
  | ⟨0, _⟩ => show (j 0).val = win17_3.index t (0 : Fin 2) * 160 + 1 * (j 0).val; omega
  | ⟨1, _⟩ => show (j 1).val = win17_3.index t (1 : Fin 2) * 16 + 1 * (j 1).val; omega

/-- An index of the output array is in the point's block iff each coordinate is in the block's range on its axis. -/
theorem mem_blk17 (t : Fin cfg17.N) (i : S160x16.Idx) :
    i ∈ ((cfg17.win 3).blk t).view.set
      ↔ ∀ a : Fin 2, win17_3.index t a * S160x16.size a ≤ (i a).val ∧ (i a).val < win17_3.index t a * S160x16.size a + S160x16.size a := by
  show i ∈ ((View.whole main_v230).slice (win17_3.rect t)).set ↔ _
  rw [View.set_slice_whole, Rect.mem_set_unit]
  exact Iff.rfl

/-- The one block covers the output array. -/
theorem cover17 (i : S160x16.Idx) : ∃ t : Fin cfg17.N, (cfg17.win 3).flush t = true ∧ i ∈ ((cfg17.win 3).blk t).view.set := by
  obtain ⟨-, -, -, -, -, -, e0, e1⟩ := idx17 t17_0
  refine ⟨t17_0, flush17_3 t17_0, ?_⟩
  rw [mem_blk17]
  intro a
  have h0 : (i 0).val < 160 := (i 0).isLt
  have h1 : (i 1).val < 16 := (i 1).isLt
  match a with
  | ⟨0, _⟩ => show win17_3.index t17_0 (0 : Fin 2) * 160 ≤ (i 0).val ∧ (i 0).val < win17_3.index t17_0 (0 : Fin 2) * 160 + 160; omega
  | ⟨1, _⟩ => show win17_3.index t17_0 (1 : Fin 2) * 16 ≤ (i 1).val ∧ (i 1).val < win17_3.index t17_0 (1 : Fin 2) * 16 + 16; omega

/-- REGION 17: the output array ends at the reference's ELU of its first linear head stage of the arrays the region finds. -/
theorem fc1_17_value (c : Dev nD) (p : Vec Ideal S160x32 .f32) (w : Vec Ideal S32x16 .f32) (b : Vec Ideal S16 .f32)
    (h0 : V c (Pipeline.arrRef spec17 0) = p) (h1 : V c (Pipeline.arrRef spec17 1) = w)
    (h2 : ∀ q : Fin 16, V c (Pipeline.arrRef spec17 2) (ValueIdx.ix2 0 q) = b (ValueIdx.ix1 q)) :
    (dat17 (F := Ideal) V c).arrAt 3 cfg17.N = Cert.Spec.elu (Cert.Spec.fc1 p w b) :=
  (dat17 (F := Ideal) V c).arrAt_eq_of_cover 3 (Cert.Spec.elu (Cert.Spec.fc1 p w b))
    (fun t _ => flushed17_eq V c p w b h0 h1 h2 t) cover17

end Cert.KernelValue

end
-- ==== Proof.HeadPay18.lean ====
/-
  The second head kernel's arithmetic, index by index. Its payload normalises the 160×16 block column by column,
  (h − mean) · rsqrt(var + ε), with the column means and variances given as one-row blocks broadcast down the rows,
  multiplies by the 16×16 weight into a zero accumulator and adds the bias row. The reference spells the same with
  the mean and variance vectors broadcast to a row and then down the rows, the host's rsqrt and the host's dot_general.
  At the extended reals the host's and the kernel's rsqrt are one function, a change of float format is the identity
  and a product accumulated into zero is the host's product, so the two agree at every index; the mean, the variance
  and ε stay as they are named on both sides.
-/
import proofs.«425927_j69028714381396_2_alg».proof.Proof.Gen.KernelIdeal.Skeleton
import proofs.«425927_j69028714381396_2_alg».proof.Proof.Spec
import Idealize.ShloMosaic.Lib.KernelVsHost
import Idealize.ShloMosaic.Lib.ValueLayout

noncomputable section

namespace Cert.KernelValue

open Idealize.ShloMosaic Idealize.ShloMosaic.ValueIdx
open Cert.KernelIdeal Cert.KernelIdeal.Facts₀

variable [Cert.ReferenceIdeal.Facts₀]

/-- The normalised block as the kernel spells it: (x0 − mean row) · rsqrt(variance row + ε), the rows broadcast down. -/
def knorm18 (x0 : Vec Ideal S160x16 .f32) (x1 x2 : Vec Ideal S1x16 .f32) : FVec Ideal S160x16 .f32 :=
  mulf (subf (shapeCast S160x16 x0 shapeCasts_S160x16_S160x16)
      (broadcastTo S160x16 (shapeCast S1x16 x1 shapeCasts_S1x16_S1x16) broadcasts_S1x16_S160x16))
    (broadcastTo S160x16 (rsqrt (addf (shapeCast S1x16 x2 shapeCasts_S1x16_S1x16) (broadcast S1x16 (Scalar.ofBits .f32 0x3727C5AC#32))))
      broadcasts_S1x16_S160x16)

/-- The payload is the product of the normalised block with the weight, into zero, plus the bias row. -/
theorem pay18_eq (x0 : Vec Ideal S160x16 .f32) (x1 x2 : Vec Ideal S1x16 .f32) (x3 : Vec Ideal S16x16 .f32) (x4 : Vec Ideal S1x16 .f32) :
    Gen.k18_pay1 (F := Ideal) x0 x1 x2 x3 x4
      = addf (matmul dot_S160x16_S16x16_S160x16_1_0_0_1_n_n none (truncf .bf16 (knorm18 x0 x1 x2) bitsLt_bf16_f32)
            (truncf .bf16 x3 bitsLt_bf16_f32) (constant S160x16 .f32 0x00000000#32))
          (broadcastTo S160x16 (shapeCast S1x16 x4 shapeCasts_S1x16_S1x16) broadcasts_S1x16_S160x16) := rfl

/-- The kernel's product into zero is the host's product of the same operands: a change of float format is the
    identity at the extended reals, and the two contraction records have the same axes. -/
theorem kmm18_apply (a a' : Vec Ideal S160x16 .f32) (w : Vec Ideal S16x16 .f32) (h : a = a') (j : S160x16.Idx) :
    matmul dot_S160x16_S16x16_S160x16_1_0_0_1_n_n none (truncf .bf16 a bitsLt_bf16_f32) (truncf .bf16 w bitsLt_bf16_f32)
        (constant (F := Ideal) S160x16 .f32 0x00000000#32) j
      = Host.dotGeneral (F := Ideal) (φ₁ := .f32) (φ₂ := .f32) Cert.ReferenceIdeal.dot_S160x16_S16x16_S160x16_1_0_0_1_n_n none a' w j := by
  subst h
  refine (congrFun (matmul_zero_eq_dotGeneral _ none _ _) j).trans ?_
  rfl

/-- A one-row block broadcast down the rows, read at (p, q), is the row at q. -/
theorem krow18_apply (x : Vec Ideal S1x16 .f32) (p : Fin 160) (q : Fin 16) :
    broadcastTo S160x16 (shapeCast S1x16 x shapeCasts_S1x16_S1x16) broadcasts_S1x16_S160x16 (ix2 p q) = x (ix2 (0 : Fin 1) q) := by
  rw [shapeCast_self]
  exact broadcastTo_1b_ab_apply x _ p q

/-- A vector broadcast to a row and then down the rows, read at (p, q), is the vector at q. -/
theorem rrow18_apply (v : Vec Ideal S16 .f32) (p : Fin 160) (q : Fin 16) :
    Cert.Spec.rows16 (Cert.Spec.row16 v) (ix2 p q) = v (ix1 q) := by
  refine (broadcastInDim_oneRow_apply _ _ p q).trans ?_
  refine broadcastInDim_apply ![1] _ v (ix2 (0 : Fin 1) q) (ix1 q) fun a => ?_
  match a with
  | ⟨0, _⟩ =>
    show q.val = if (16 : ℕ) = 1 then 0 else q.val
    rw [if_neg (by decide)]

/-- The normalised block is the reference's, given the mean and variance rows. -/
theorem knorm18_eq (h : Vec Ideal S160x16 .f32) (x1 x2 : Vec Ideal S1x16 .f32)
    (h1 : ∀ q : Fin 16, x1 (ix2 (0 : Fin 1) q) = Cert.Spec.mean16 h (ix1 q))
    (h2 : ∀ q : Fin 16, x2 (ix2 (0 : Fin 1) q) = Cert.Spec.var16 h (ix1 q)) :
    knorm18 h x1 x2
      = mulf (subf h (Cert.Spec.rows16 (Cert.Spec.row16 (Cert.Spec.mean16 h))))
          (Cert.Spec.rows16 (Cert.Spec.row16 (Host.rsqrt (addf (Cert.Spec.var16 h)
            (broadcastInDim Cert.ReferenceIdeal.S16 (![] : Fin Cert.ReferenceIdeal.S_.rank → Fin Cert.ReferenceIdeal.S16.rank)
              Cert.ReferenceIdeal.Facts₀.bcast_S_S16 (Cert.Spec.epsS (F := Ideal))))))) := by
  funext j
  obtain ⟨p, q, rfl⟩ : ∃ (p : Fin 160) (q : Fin 16), j = ix2 p q := ⟨j 0, j 1, eq_ix2 j⟩
  unfold knorm18
  rw [mulf_apply, mulf_apply, subf_apply, subf_apply, krow18_apply, rrow18_apply, rrow18_apply, shapeCast_self, shapeCast_self,
    broadcastTo_1b_ab_apply, h1]
  show _ * Ideal.rsqrt (x2 (ix2 (0 : Fin 1) q) + _) = _
  rw [h2]
  rfl

/-- The payload of the loaded blocks is the reference's normalised linear head. -/
theorem head_pay18 (h : Vec Ideal S160x16 .f32) (x1 x2 : Vec Ideal S1x16 .f32) (w : Vec Ideal S16x16 .f32) (x4 : Vec Ideal S1x16 .f32)
    (b : Vec Ideal S16 .f32)
    (h1 : ∀ q : Fin 16, x1 (ix2 (0 : Fin 1) q) = Cert.Spec.mean16 h (ix1 q))
    (h2 : ∀ q : Fin 16, x2 (ix2 (0 : Fin 1) q) = Cert.Spec.var16 h (ix1 q))
    (h4 : ∀ q : Fin 16, x4 (ix2 (0 : Fin 1) q) = b (ix1 q)) :
    Gen.k18_pay1 (F := Ideal) h x1 x2 w x4 = Cert.Spec.head h w b := by
  rw [pay18_eq]
  unfold Cert.Spec.head
  funext j
  obtain ⟨p, q, rfl⟩ : ∃ (p : Fin 160) (q : Fin 16), j = ix2 p q := ⟨j 0, j 1, eq_ix2 j⟩
  exact congrArg₂ (· + ·) (kmm18_apply _ _ w (knorm18_eq h x1 x2 h1 h2) (ix2 p q))
    ((krow18_apply x4 p q).trans ((h4 q).trans (rrow18_apply b p q).symm))

end Cert.KernelValue

end
-- ==== Proof.Head18.lean ====
/-
  Region 18 read as a value. The grid has one point and every window's block index is zero on both axes there, so each
  input block is its whole array and the block the output window writes back is the payload of the arrays themselves:
  the reference's normalised linear head, by the payload's reading, the mean and variance rows being the reference's
  column mean and variance. That one block covers the whole 160×16 output array.
-/
import proofs.«425927_j69028714381396_2_alg».proof.Proof.FrameKIW
import proofs.«425927_j69028714381396_2_alg».proof.Proof.HeadPay18
import Idealize.ShloMosaic.Lib.Pipeline.Value

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen

variable [Cert.ReferenceIdeal.Facts₀]
variable (V : (c : Dev nD) → (b : Ref sig .tc) → Buf (Elt Ideal) ((c : Thread nD τ).loc b))

theorem zeroOff18 : (![0, 0] : Fin 2 → Nat) = fun _ => 0 := funext fun a => by fin_cases a <;> rfl

/-- At the one grid point every window's block index is zero on both axes (the printed index maps, decided). -/
theorem idx18 : ∀ t : Fin cfg18.N, win18_0.index t (0 : Fin 2) = 0 ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = 0 ∧ win18_5.index t (1 : Fin 2) = 0 :=
  (by decide +kernel : ∀ t : Fin grid18.N, _)

/-- The five input arrays as the region finds them, at their literal types. -/
abbrev arr18_0 (c : Dev nD) : Vec Ideal S160x16 .f32 := V c (Pipeline.arrRef spec18 0)
abbrev arr18_1 (c : Dev nD) : Vec Ideal S1x16 .f32 := V c (Pipeline.arrRef spec18 1)
abbrev arr18_2 (c : Dev nD) : Vec Ideal S1x16 .f32 := V c (Pipeline.arrRef spec18 2)
abbrev arr18_3 (c : Dev nD) : Vec Ideal S16x16 .f32 := V c (Pipeline.arrRef spec18 3)
abbrev arr18_4 (c : Dev nD) : Vec Ideal S1x16 .f32 := V c (Pipeline.arrRef spec18 4)

/-- Each input block is its whole array: the block's coordinate is index × size + the coordinate inside, the index zero. -/
theorem blk18_0 (c : Dev nD) (t : Fin cfg18.N) : (iblk18 V c 0 t : Vec Ideal S160x16 .f32) = arr18_0 V c := by
  obtain ⟨e0, e1, -⟩ := idx18 t
  funext j
  show arr18_0 V c (((cfg18.win 0).blk t).view.emb j) = arr18_0 V c j
  refine congrArg (arr18_0 V c) (funext fun a => Fin.ext ?_)
  match a with
  | ⟨0, _⟩ => show win18_0.index t (0 : Fin 2) * 160 + 1 * (j 0).val = (j 0).val; omega
  | ⟨1, _⟩ => show win18_0.index t (1 : Fin 2) * 16 + 1 * (j 1).val = (j 1).val; omega

theorem blk18_1 (c : Dev nD) (t : Fin cfg18.N) : (iblk18 V c 1 t : Vec Ideal S1x16 .f32) = arr18_1 V c := by
  obtain ⟨-, -, e0, e1, -⟩ := idx18 t
  funext j
  show arr18_1 V c (((cfg18.win 1).blk t).view.emb j) = arr18_1 V c j
  refine congrArg (arr18_1 V c) (funext fun a => Fin.ext ?_)
  match a with
  | ⟨0, _⟩ => show win18_1.index t (0 : Fin 2) * 1 + 1 * (j 0).val = (j 0).val; omega
  | ⟨1, _⟩ => show win18_1.index t (1 : Fin 2) * 16 + 1 * (j 1).val = (j 1).val; omega

theorem blk18_2 (c : Dev nD) (t : Fin cfg18.N) : (iblk18 V c 2 t : Vec Ideal S1x16 .f32) = arr18_2 V c := by
  obtain ⟨-, -, -, -, e0, e1, -⟩ := idx18 t
  funext j
  show arr18_2 V c (((cfg18.win 2).blk t).view.emb j) = arr18_2 V c j
  refine congrArg (arr18_2 V c) (funext fun a => Fin.ext ?_)
  match a with
  | ⟨0, _⟩ => show win18_2.index t (0 : Fin 2) * 1 + 1 * (j 0).val = (j 0).val; omega
  | ⟨1, _⟩ => show win18_2.index t (1 : Fin 2) * 16 + 1 * (j 1).val = (j 1).val; omega

theorem blk18_3 (c : Dev nD) (t : Fin cfg18.N) : (iblk18 V c 3 t : Vec Ideal S16x16 .f32) = arr18_3 V c := by
  obtain ⟨-, -, -, -, -, -, e0, e1, -⟩ := idx18 t
  funext j
  show arr18_3 V c (((cfg18.win 3).blk t).view.emb j) = arr18_3 V c j
  refine congrArg (arr18_3 V c) (funext fun a => Fin.ext ?_)
  match a with
  | ⟨0, _⟩ => show win18_3.index t (0 : Fin 2) * 16 + 1 * (j 0).val = (j 0).val; omega
  | ⟨1, _⟩ => show win18_3.index t (1 : Fin 2) * 16 + 1 * (j 1).val = (j 1).val; omega

theorem blk18_4 (c : Dev nD) (t : Fin cfg18.N) : (iblk18 V c 4 t : Vec Ideal S1x16 .f32) = arr18_4 V c := by
  obtain ⟨-, -, -, -, -, -, -, -, e0, e1, -⟩ := idx18 t
  funext j
  show arr18_4 V c (((cfg18.win 4).blk t).view.emb j) = arr18_4 V c j
  refine congrArg (arr18_4 V c) (funext fun a => Fin.ext ?_)
  match a with
  | ⟨0, _⟩ => show win18_4.index t (0 : Fin 2) * 1 + 1 * (j 0).val = (j 0).val; omega
  | ⟨1, _⟩ => show win18_4.index t (1 : Fin 2) * 16 + 1 * (j 1).val = (j 1).val; omega

/-- What the one point writes back is the block of the reference's normalised linear head. -/
theorem flushed18_eq (c : Dev nD) (h : Vec Ideal S160x16 .f32) (w : Vec Ideal S16x16 .f32) (b : Vec Ideal S16 .f32)
    (h0 : arr18_0 V c = h)
    (h1 : ∀ q : Fin 16, arr18_1 V c (ix2 (0 : Fin 1) q) = Cert.Spec.mean16 h (ix1 q))
    (h2 : ∀ q : Fin 16, arr18_2 V c (ix2 (0 : Fin 1) q) = Cert.Spec.var16 h (ix1 q))
    (h3 : arr18_3 V c = w)
    (h4 : ∀ q : Fin 16, arr18_4 V c (ix2 (0 : Fin 1) q) = b (ix1 q)) (t : Fin cfg18.N) :
    (dat18 (F := Ideal) V c).flushed 5 t
      = ((cfg18.win 5).blk t).view.read (Elt Ideal) (Cert.Spec.head h w b) := by
  show (cfg18.win 5).cut (grid18.coords t) ((dat18 V c).after 5 t) = _
  rw [after18_5]
  unfold out18_5
  rw [View.canon_unit_zero zeroOff18]
  simp only [View.ld_unit_zero (S := S160x16) zeroOff18, View.ld_unit_zero (S := S1x16) zeroOff18,
    View.ld_unit_zero (S := S16x16) zeroOff18]
  rw [blk18_0, blk18_1, blk18_2, blk18_3, blk18_4, h0, h3,
    head_pay18 h (arr18_1 V c) (arr18_2 V c) w (arr18_4 V c) b h1 h2 h4]
  obtain ⟨-, -, -, -, -, -, -, -, -, -, e0, e1⟩ := idx18 t
  funext j
  show Cert.Spec.head h w b j = Cert.Spec.head h w b (((cfg18.win 5).blk t).view.emb j)
  refine congrArg (Cert.Spec.head h w b) (funext fun a => Fin.ext ?_)
  match a with
  | ⟨0, _⟩ => show (j 0).val = win18_5.index t (0 : Fin 2) * 160 + 1 * (j 0).val; omega
  | ⟨1, _⟩ => show (j 1).val = win18_5.index t (1 : Fin 2) * 16 + 1 * (j 1).val; omega

/-- An index of the output array is in the point's block iff each coordinate is in the block's range on its axis. -/
theorem mem_blk18 (t : Fin cfg18.N) (i : S160x16.Idx) :
    i ∈ ((cfg18.win 5).blk t).view.set
      ↔ ∀ a : Fin 2, win18_5.index t a * S160x16.size a ≤ (i a).val ∧ (i a).val < win18_5.index t a * S160x16.size a + S160x16.size a := by
  show i ∈ ((View.whole main_v237).slice (win18_5.rect t)).set ↔ _
  rw [View.set_slice_whole, Rect.mem_set_unit]
  exact Iff.rfl

/-- The one block covers the output array. -/
theorem cover18 (i : S160x16.Idx) : ∃ t : Fin cfg18.N, (cfg18.win 5).flush t = true ∧ i ∈ ((cfg18.win 5).blk t).view.set := by
  obtain ⟨-, -, -, -, -, -, -, -, -, -, e0, e1⟩ := idx18 t18_0
  refine ⟨t18_0, flush18_5 t18_0, ?_⟩
  rw [mem_blk18]
  intro a
  have h0 : (i 0).val < 160 := (i 0).isLt
  have h1 : (i 1).val < 16 := (i 1).isLt
  match a with
  | ⟨0, _⟩ => show win18_5.index t18_0 (0 : Fin 2) * 160 ≤ (i 0).val ∧ (i 0).val < win18_5.index t18_0 (0 : Fin 2) * 160 + 160; omega
  | ⟨1, _⟩ => show win18_5.index t18_0 (1 : Fin 2) * 16 ≤ (i 1).val ∧ (i 1).val < win18_5.index t18_0 (1 : Fin 2) * 16 + 16; omega

/-- REGION 18: the output array ends at the reference's normalised linear head of the arrays the region finds. -/
theorem head18_value (c : Dev nD) (h : Vec Ideal S160x16 .f32) (w : Vec Ideal S16x16 .f32) (b : Vec Ideal S16 .f32)
    (h0 : V c (Pipeline.arrRef spec18 0) = h)
    (h1 : ∀ q : Fin 16, V c (Pipeline.arrRef spec18 1) (ValueIdx.ix2 0 q) = Cert.Spec.mean16 h (ValueIdx.ix1 q))
    (h2 : ∀ q : Fin 16, V c (Pipeline.arrRef spec18 2) (ValueIdx.ix2 0 q) = Cert.Spec.var16 h (ValueIdx.ix1 q))
    (h3 : V c (Pipeline.arrRef spec18 3) = w)
    (h4 : ∀ q : Fin 16, V c (Pipeline.arrRef spec18 4) (ValueIdx.ix2 0 q) = b (ValueIdx.ix1 q)) :
    (dat18 (F := Ideal) V c).arrAt 5 cfg18.N = Cert.Spec.head h w b :=
  (dat18 (F := Ideal) V c).arrAt_eq_of_cover 5 (Cert.Spec.head h w b)
    (fun t _ => flushed18_eq V c h w b h0 h1 h2 h3 h4 t) cover18

end Cert.KernelValue

end
-- ==== Proof.KTail.lean ====
/-
  The pooling tail of the kernel program, read off the fold of its segments: from the fifth layer's output at
  boundary 40 to the program's result at boundary 50 there are four regions, each entered after a stretch of host
  operations. The stretches compute the three poolings (a scatter-add of the previous stage's rows into a zero array
  by a group index), cast each bias vector to a one-row matrix, and before the head compute the column mean and the
  biased column variance of the 160 rows as rows; the regions are the two perceptrons, the first linear head stage
  with its ELU, and the normalised linear head. Each region's output is its stage function of the arrays it finds,
  every argument array still holds its launch contents where it is read, and so the result is the reference's tail.
-/
import proofs.«425927_j69028714381396_2_alg».proof.Proof.FrameKIW
import proofs.«425927_j69028714381396_2_alg».proof.Proof.Gen.ReferenceIdeal
import proofs.«425927_j69028714381396_2_alg».proof.Proof.Spec
import proofs.«425927_j69028714381396_2_alg».proof.Proof.KCarry
import proofs.«425927_j69028714381396_2_alg».proof.Proof.KHost
import proofs.«425927_j69028714381396_2_alg».proof.Proof.Mlp15
import proofs.«425927_j69028714381396_2_alg».proof.Proof.Mlp16
import proofs.«425927_j69028714381396_2_alg».proof.Proof.Fc1_17
import proofs.«425927_j69028714381396_2_alg».proof.Proof.Head18
import Idealize.ShloMosaic.Lib.StableHlo.Run
import Idealize.ShloMosaic.Lib.ValueLayout

-- deciding that two of the program's several hundred references differ recurses once per reference
set_option maxRecDepth 16384

noncomputable section

namespace Cert.KernelValue

open Idealize.ShloMosaic Idealize.ShloMosaic.TcCoe Idealize.ShloMosaic.ValueIdx
open Cert.KernelIdeal Cert.KernelIdeal.Gen

namespace Tail

/-! ## The host stretches of the tail, read at any contents `V` of the buffers they take

Each of the three poolings is one scatter-add into a zero array by a group index broadcast to a column; each bias
row is its vector cast to one row and reads, at column `q`, the vector's entry `q`; before the head the column
mean and the biased column variance of the 160 rows are computed as `[1, 16]` rows. -/

section Host

variable (V : Valuation τ sig (Elt Ideal))

/-- The first pooling: the 160000 rows added into 16000 groups. -/
theorem pool1_of (x : Vec Ideal S160000x32 .f32) (ix : Vec Ideal S160000 .i32)
    (hx : V (Proc.devRef .tc main_v213) = x) (hi : V (Proc.devRef .tc main_arg2) = ix) :
    StableHlo.after hostOps15 V (Proc.devRef .tc main_v216) = Cert.Spec.pool1 x ix := by
  after_results
  rw [hx, hi]
  rfl
/-- The second pooling: the 16000 rows added into 1600 groups. -/
theorem pool2_of (x : Vec Ideal S16000x32 .f32) (ix : Vec Ideal S16000 .i32)
    (hx : V (Proc.devRef .tc main_v219) = x) (hi : V (Proc.devRef .tc main_arg3) = ix) :
    StableHlo.after hostOps16 V (Proc.devRef .tc main_v222) = Cert.Spec.pool2 x ix := by
  after_results
  rw [hx, hi]
  rfl
/-- The third pooling: the 1600 rows added into 160 groups. -/
theorem pool3_of (x : Vec Ideal S1600x32 .f32) (ix : Vec Ideal S1600 .i32)
    (hx : V (Proc.devRef .tc main_v225) = x) (hi : V (Proc.devRef .tc main_arg4) = ix) :
    StableHlo.after hostOps17 V (Proc.devRef .tc main_v228) = Cert.Spec.pool3 x ix := by
  after_results
  rw [hx, hi]
  rfl

theorem row217_of (b : Vec Ideal S32 .f32) (hb : V (Proc.devRef .tc main_arg16) = b) (q : Fin 32) :
    StableHlo.after hostOps15 V (Proc.devRef .tc main_v217) (ix2 0 q) = b (ix1 q) := by
  have e : StableHlo.after hostOps15 V (Proc.devRef .tc main_v217) = shapeCast S1x32 b shapeCasts_S32_S1x32 := by
    after_results; rw [hb]; rfl
  rw [e]; exact shapeCast_a_1a_apply b _ 0 q
theorem row218_of (b : Vec Ideal S32 .f32) (hb : V (Proc.devRef .tc main_arg18) = b) (q : Fin 32) :
    StableHlo.after hostOps15 V (Proc.devRef .tc main_v218) (ix2 0 q) = b (ix1 q) := by
  have e : StableHlo.after hostOps15 V (Proc.devRef .tc main_v218) = shapeCast S1x32 b shapeCasts_S32_S1x32 := by
    after_results; rw [hb]; rfl
  rw [e]; exact shapeCast_a_1a_apply b _ 0 q
theorem row223_of (b : Vec Ideal S32 .f32) (hb : V (Proc.devRef .tc main_arg20) = b) (q : Fin 32) :
    StableHlo.after hostOps16 V (Proc.devRef .tc main_v223) (ix2 0 q) = b (ix1 q) := by
  have e : StableHlo.after hostOps16 V (Proc.devRef .tc main_v223) = shapeCast S1x32 b shapeCasts_S32_S1x32 := by
    after_results; rw [hb]; rfl
  rw [e]; exact shapeCast_a_1a_apply b _ 0 q
theorem row224_of (b : Vec Ideal S32 .f32) (hb : V (Proc.devRef .tc main_arg22) = b) (q : Fin 32) :
    StableHlo.after hostOps16 V (Proc.devRef .tc main_v224) (ix2 0 q) = b (ix1 q) := by
  have e : StableHlo.after hostOps16 V (Proc.devRef .tc main_v224) = shapeCast S1x32 b shapeCasts_S32_S1x32 := by
    after_results; rw [hb]; rfl
  rw [e]; exact shapeCast_a_1a_apply b _ 0 q
theorem row229_of (b : Vec Ideal S16 .f32) (hb : V (Proc.devRef .tc main_arg24) = b) (q : Fin 16) :
    StableHlo.after hostOps17 V (Proc.devRef .tc main_v229) (ix2 0 q) = b (ix1 q) := by
  have e : StableHlo.after hostOps17 V (Proc.devRef .tc main_v229) = shapeCast S1x16 b shapeCasts_S16_S1x16 := by
    after_results; rw [hb]; rfl
  rw [e]; exact shapeCast_a_1a_apply b _ 0 q
theorem row236_of (b : Vec Ideal S16 .f32) (hb : V (Proc.devRef .tc main_arg26) = b) (q : Fin 16) :
    StableHlo.after hostOps18_2 V (Proc.devRef .tc main_v236) (ix2 0 q) = b (ix1 q) := by
  have e : StableHlo.after hostOps18_2 V (Proc.devRef .tc main_v236) = shapeCast S1x16 b shapeCasts_S16_S1x16 := by
    after_results; rw [hb]; rfl
  rw [e]; exact shapeCast_a_1a_apply b _ 0 q

/-- The row of column means of the 160×16 array. -/
theorem mean234_of (h : Vec Ideal S160x16 .f32) (hh : V (Proc.devRef .tc main_v230) = h) (q : Fin 16) :
    StableHlo.after hostOps18 V (Proc.devRef .tc main_v234) (ix2 0 q) = Cert.Spec.mean16 h (ix1 q) := by
  have e : StableHlo.after hostOps18 V (Proc.devRef .tc main_v234)
      = Host.divf (broadcastInDim S1x16 ![1] bcast_S16_S1x16_1 (Host.reduceAdd h (constant (F := Ideal) S_ .f32 0x00000000#32) reducesTo_S160x16_S16_d0 h_S_))
          (broadcastInDim S1x16 ![] bcast_S_S1x16 (constant (F := Ideal) S_ .f32 0x43200000#32)) := by
    after_results; rw [hh]
  rw [e]; exact meanRow16 h q

/-- The integer zero that the variance's divisor subtracts from the row count. -/
theorem c33_of : StableHlo.after hostOps18 V (Proc.devRef .tc main_c_33) = (constantI S_ 32 0#32 : Vec Ideal S_ .i32) := by
  after_results

/-- The row of biased column variances of the 160×16 array: the inlined variance computation's result is the
    composition of its operations, the typed references' transports being identities. -/
theorem var235_of (h : Vec Ideal S160x16 .f32) (hh : V (Proc.devRef .tc main_v230) = h)
    (hc : V (Proc.devRef .tc main_c_33) = (constantI S_ 32 0#32 : Vec Ideal S_ .i32)) (q : Fin 16) :
    StableHlo.after hostOps18_1 V (Proc.devRef .tc main_v235) (ix2 0 q) = Cert.Spec.var16 h (ix1 q) := by
  have e : StableHlo.after hostOps18_1 V (Proc.devRef .tc main_v235) = kvar16 h := by
    after_results
    simp only [StableHlo.TRef.ofBuf, StableHlo.TRef.toBuf, StableHlo.TRef.of, cast_eq, hh, hc]
    rfl
  rw [e]; exact varRow16 h q

end Host

/-! ## The walk from boundary 50 back to boundary 40

A host stretch writes only its operations' results and a region only its windows' arrays, so an argument array read at
a later boundary still holds what it held at boundary 40, which is its launch contents; the output of each region is
its stage function of the arrays the region finds, and those are the stretch's poolings and rows read above. -/

section Walk

variable (m : (ℓ : Loc nD τ sig) → Buf (Elt Ideal) ℓ) (ρ : Dev nD → PrngReg)

/-- One host stretch back, at a buffer that is the result of none of its operations. -/
local macro "host_carry " ops:ident buf:ident : tactic =>
  `(tactic| exact StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### The argument arrays at the boundaries where the tail reads them -/

theorem W41_arg15 (c : Dev nD) : W41 m ρ c (Proc.devRef .tc main_arg15) = m ((c : Thread nD τ).loc main_arg15) :=
  calc W41 m ρ c (Proc.devRef .tc main_arg15)
    _ = W40 m ρ c (Proc.devRef .tc main_arg15) := by host_carry hostOps15 main_arg15
    _ = m ((c : Thread nD τ).loc main_arg15) := W40_arg15 m ρ c
theorem W41_arg17 (c : Dev nD) : W41 m ρ c (Proc.devRef .tc main_arg17) = m ((c : Thread nD τ).loc main_arg17) :=
  calc W41 m ρ c (Proc.devRef .tc main_arg17)
    _ = W40 m ρ c (Proc.devRef .tc main_arg17) := by host_carry hostOps15 main_arg17
    _ = m ((c : Thread nD τ).loc main_arg17) := W40_arg17 m ρ c
theorem W42_arg3 (c : Dev nD) : W42 m ρ c (Proc.devRef .tc main_arg3) = m ((c : Thread nD τ).loc main_arg3) :=
  calc W42 m ρ c (Proc.devRef .tc main_arg3)
    _ = W41 m ρ c (Proc.devRef .tc main_arg3) := W42_of_ne m ρ c main_arg3 (by decide)
    _ = W40 m ρ c (Proc.devRef .tc main_arg3) := by host_carry hostOps15 main_arg3
    _ = m ((c : Thread nD τ).loc main_arg3) := W40_arg3 m ρ c
theorem W42_arg4 (c : Dev nD) : W42 m ρ c (Proc.devRef .tc main_arg4) = m ((c : Thread nD τ).loc main_arg4) :=
  calc W42 m ρ c (Proc.devRef .tc main_arg4)
    _ = W41 m ρ c (Proc.devRef .tc main_arg4) := W42_of_ne m ρ c main_arg4 (by decide)
    _ = W40 m ρ c (Proc.devRef .tc main_arg4) := by host_carry hostOps15 main_arg4
    _ = m ((c : Thread nD τ).loc main_arg4) := W40_arg4 m ρ c
theorem W42_arg19 (c : Dev nD) : W42 m ρ c (Proc.devRef .tc main_arg19) = m ((c : Thread nD τ).loc main_arg19) :=
  calc W42 m ρ c (Proc.devRef .tc main_arg19)
    _ = W41 m ρ c (Proc.devRef .tc main_arg19) := W42_of_ne m ρ c main_arg19 (by decide)
    _ = W40 m ρ c (Proc.devRef .tc main_arg19) := by host_carry hostOps15 main_arg19
    _ = m ((c : Thread nD τ).loc main_arg19) := W40_arg19 m ρ c
theorem W42_arg20 (c : Dev nD) : W42 m ρ c (Proc.devRef .tc main_arg20) = m ((c : Thread nD τ).loc main_arg20) :=
  calc W42 m ρ c (Proc.devRef .tc main_arg20)
    _ = W41 m ρ c (Proc.devRef .tc main_arg20) := W42_of_ne m ρ c main_arg20 (by decide)
    _ = W40 m ρ c (Proc.devRef .tc main_arg20) := by host_carry hostOps15 main_arg20
    _ = m ((c : Thread nD τ).loc main_arg20) := W40_arg20 m ρ c
theorem W42_arg21 (c : Dev nD) : W42 m ρ c (Proc.devRef .tc main_arg21) = m ((c : Thread nD τ).loc main_arg21) :=
  calc W42 m ρ c (Proc.devRef .tc main_arg21)
    _ = W41 m ρ c (Proc.devRef .tc main_arg21) := W42_of_ne m ρ c main_arg21 (by decide)
    _ = W40 m ρ c (Proc.devRef .tc main_arg21) := by host_carry hostOps15 main_arg21
    _ = m ((c : Thread nD τ).loc main_arg21) := W40_arg21 m ρ c
theorem W42_arg22 (c : Dev nD) : W42 m ρ c (Proc.devRef .tc main_arg22) = m ((c : Thread nD τ).loc main_arg22) :=
  calc W42 m ρ c (Proc.devRef .tc main_arg22)
    _ = W41 m ρ c (Proc.devRef .tc main_arg22) := W42_of_ne m ρ c main_arg22 (by decide)
    _ = W40 m ρ c (Proc.devRef .tc main_arg22) := by host_carry hostOps15 main_arg22
    _ = m ((c : Thread nD τ).loc main_arg22) := W40_arg22 m ρ c
theorem W42_arg23 (c : Dev nD) : W42 m ρ c (Proc.devRef .tc main_arg23) = m ((c : Thread nD τ).loc main_arg23) :=
  calc W42 m ρ c (Proc.devRef .tc main_arg23)
    _ = W41 m ρ c (Proc.devRef .tc main_arg23) := W42_of_ne m ρ c main_arg23 (by decide)
    _ = W40 m ρ c (Proc.devRef .tc main_arg23) := by host_carry hostOps15 main_arg23
    _ = m ((c : Thread nD τ).loc main_arg23) := W40_arg23 m ρ c
theorem W42_arg24 (c : Dev nD) : W42 m ρ c (Proc.devRef .tc main_arg24) = m ((c : Thread nD τ).loc main_arg24) :=
  calc W42 m ρ c (Proc.devRef .tc main_arg24)
    _ = W41 m ρ c (Proc.devRef .tc main_arg24) := W42_of_ne m ρ c main_arg24 (by decide)
    _ = W40 m ρ c (Proc.devRef .tc main_arg24) := by host_carry hostOps15 main_arg24
    _ = m ((c : Thread nD τ).loc main_arg24) := W40_arg24 m ρ c
theorem W42_arg25 (c : Dev nD) : W42 m ρ c (Proc.devRef .tc main_arg25) = m ((c : Thread nD τ).loc main_arg25) :=
  calc W42 m ρ c (Proc.devRef .tc main_arg25)
    _ = W41 m ρ c (Proc.devRef .tc main_arg25) := W42_of_ne m ρ c main_arg25 (by decide)
    _ = W40 m ρ c (Proc.devRef .tc main_arg25) := by host_carry hostOps15 main_arg25
    _ = m ((c : Thread nD τ).loc main_arg25) := W40_arg25 m ρ c
theorem W42_arg26 (c : Dev nD) : W42 m ρ c (Proc.devRef .tc main_arg26) = m ((c : Thread nD τ).loc main_arg26) :=
  calc W42 m ρ c (Proc.devRef .tc main_arg26)
    _ = W41 m ρ c (Proc.devRef .tc main_arg26) := W42_of_ne m ρ c main_arg26 (by decide)
    _ = W40 m ρ c (Proc.devRef .tc main_arg26) := by host_carry hostOps15 main_arg26
    _ = m ((c : Thread nD τ).loc main_arg26) := W40_arg26 m ρ c
theorem W43_arg19 (c : Dev nD) : W43 m ρ c (Proc.devRef .tc main_arg19) = m ((c : Thread nD τ).loc main_arg19) :=
  calc W43 m ρ c (Proc.devRef .tc main_arg19)
    _ = W42 m ρ c (Proc.devRef .tc main_arg19) := by host_carry hostOps16 main_arg19
    _ = m ((c : Thread nD τ).loc main_arg19) := W42_arg19 m ρ c
theorem W43_arg21 (c : Dev nD) : W43 m ρ c (Proc.devRef .tc main_arg21) = m ((c : Thread nD τ).loc main_arg21) :=
  calc W43 m ρ c (Proc.devRef .tc main_arg21)
    _ = W42 m ρ c (Proc.devRef .tc main_arg21) := by host_carry hostOps16 main_arg21
    _ = m ((c : Thread nD τ).loc main_arg21) := W42_arg21 m ρ c
theorem W44_arg4 (c : Dev nD) : W44 m ρ c (Proc.devRef .tc main_arg4) = m ((c : Thread nD τ).loc main_arg4) :=
  calc W44 m ρ c (Proc.devRef .tc main_arg4)
    _ = W43 m ρ c (Proc.devRef .tc main_arg4) := W44_of_ne m ρ c main_arg4 (by decide)
    _ = W42 m ρ c (Proc.devRef .tc main_arg4) := by host_carry hostOps16 main_arg4
    _ = m ((c : Thread nD τ).loc main_arg4) := W42_arg4 m ρ c
theorem W44_arg23 (c : Dev nD) : W44 m ρ c (Proc.devRef .tc main_arg23) = m ((c : Thread nD τ).loc main_arg23) :=
  calc W44 m ρ c (Proc.devRef .tc main_arg23)
    _ = W43 m ρ c (Proc.devRef .tc main_arg23) := W44_of_ne m ρ c main_arg23 (by decide)
    _ = W42 m ρ c (Proc.devRef .tc main_arg23) := by host_carry hostOps16 main_arg23
    _ = m ((c : Thread nD τ).loc main_arg23) := W42_arg23 m ρ c
theorem W44_arg24 (c : Dev nD) : W44 m ρ c (Proc.devRef .tc main_arg24) = m ((c : Thread nD τ).loc main_arg24) :=
  calc W44 m ρ c (Proc.devRef .tc main_arg24)
    _ = W43 m ρ c (Proc.devRef .tc main_arg24) := W44_of_ne m ρ c main_arg24 (by decide)
    _ = W42 m ρ c (Proc.devRef .tc main_arg24) := by host_carry hostOps16 main_arg24
    _ = m ((c : Thread nD τ).loc main_arg24) := W42_arg24 m ρ c
theorem W44_arg25 (c : Dev nD) : W44 m ρ c (Proc.devRef .tc main_arg25) = m ((c : Thread nD τ).loc main_arg25) :=
  calc W44 m ρ c (Proc.devRef .tc main_arg25)
    _ = W43 m ρ c (Proc.devRef .tc main_arg25) := W44_of_ne m ρ c main_arg25 (by decide)
    _ = W42 m ρ c (Proc.devRef .tc main_arg25) := by host_carry hostOps16 main_arg25
    _ = m ((c : Thread nD τ).loc main_arg25) := W42_arg25 m ρ c
theorem W44_arg26 (c : Dev nD) : W44 m ρ c (Proc.devRef .tc main_arg26) = m ((c : Thread nD τ).loc main_arg26) :=
  calc W44 m ρ c (Proc.devRef .tc main_arg26)
    _ = W43 m ρ c (Proc.devRef .tc main_arg26) := W44_of_ne m ρ c main_arg26 (by decide)
    _ = W42 m ρ c (Proc.devRef .tc main_arg26) := by host_carry hostOps16 main_arg26
    _ = m ((c : Thread nD τ).loc main_arg26) := W42_arg26 m ρ c
theorem W45_arg23 (c : Dev nD) : W45 m ρ c (Proc.devRef .tc main_arg23) = m ((c : Thread nD τ).loc main_arg23) :=
  calc W45 m ρ c (Proc.devRef .tc main_arg23)
    _ = W44 m ρ c (Proc.devRef .tc main_arg23) := by host_carry hostOps17 main_arg23
    _ = m ((c : Thread nD τ).loc main_arg23) := W44_arg23 m ρ c
theorem W46_arg25 (c : Dev nD) : W46 m ρ c (Proc.devRef .tc main_arg25) = m ((c : Thread nD τ).loc main_arg25) :=
  calc W46 m ρ c (Proc.devRef .tc main_arg25)
    _ = W45 m ρ c (Proc.devRef .tc main_arg25) := W46_of_ne m ρ c main_arg25 (by decide)
    _ = W44 m ρ c (Proc.devRef .tc main_arg25) := by host_carry hostOps17 main_arg25
    _ = m ((c : Thread nD τ).loc main_arg25) := W44_arg25 m ρ c
theorem W46_arg26 (c : Dev nD) : W46 m ρ c (Proc.devRef .tc main_arg26) = m ((c : Thread nD τ).loc main_arg26) :=
  calc W46 m ρ c (Proc.devRef .tc main_arg26)
    _ = W45 m ρ c (Proc.devRef .tc main_arg26) := W46_of_ne m ρ c main_arg26 (by decide)
    _ = W44 m ρ c (Proc.devRef .tc main_arg26) := by host_carry hostOps17 main_arg26
    _ = m ((c : Thread nD τ).loc main_arg26) := W44_arg26 m ρ c
theorem W49_arg25 (c : Dev nD) : W49 m ρ c (Proc.devRef .tc main_arg25) = m ((c : Thread nD τ).loc main_arg25) :=
  calc W49 m ρ c (Proc.devRef .tc main_arg25)
    _ = W48 m ρ c (Proc.devRef .tc main_arg25) := by host_carry hostOps18_2 main_arg25
    _ = W47 m ρ c (Proc.devRef .tc main_arg25) := by host_carry hostOps18_1 main_arg25
    _ = W46 m ρ c (Proc.devRef .tc main_arg25) := by host_carry hostOps18 main_arg25
    _ = m ((c : Thread nD τ).loc main_arg25) := W46_arg25 m ρ c
theorem W48_arg26 (c : Dev nD) : W48 m ρ c (Proc.devRef .tc main_arg26) = m ((c : Thread nD τ).loc main_arg26) :=
  calc W48 m ρ c (Proc.devRef .tc main_arg26)
    _ = W47 m ρ c (Proc.devRef .tc main_arg26) := by host_carry hostOps18_1 main_arg26
    _ = W46 m ρ c (Proc.devRef .tc main_arg26) := by host_carry hostOps18 main_arg26
    _ = m ((c : Thread nD τ).loc main_arg26) := W46_arg26 m ρ c

/-! ### Region 17's output across the three stretches before region 18, and the two rows they compute from it -/

theorem W47_v230 (c : Dev nD) : W47 m ρ c (Proc.devRef .tc main_v230) = W46 m ρ c (Proc.devRef .tc main_v230) := by
  host_carry hostOps18 main_v230
theorem W49_v230 (c : Dev nD) : W49 m ρ c (Proc.devRef .tc main_v230) = W46 m ρ c (Proc.devRef .tc main_v230) :=
  calc W49 m ρ c (Proc.devRef .tc main_v230)
    _ = W48 m ρ c (Proc.devRef .tc main_v230) := by host_carry hostOps18_2 main_v230
    _ = W47 m ρ c (Proc.devRef .tc main_v230) := by host_carry hostOps18_1 main_v230
    _ = W46 m ρ c (Proc.devRef .tc main_v230) := W47_v230 m ρ c
/-- The mean row is written by the first of the three stretches and kept by the other two. -/
theorem W49_mean (c : Dev nD) (q : Fin 16) :
    W49 m ρ c (Proc.devRef .tc main_v234) (ix2 0 q) = Cert.Spec.mean16 (W46 m ρ c (Proc.devRef .tc main_v230)) (ix1 q) := by
  have e : W49 m ρ c (Proc.devRef .tc main_v234) = W47 m ρ c (Proc.devRef .tc main_v234) :=
    calc W49 m ρ c (Proc.devRef .tc main_v234)
      _ = W48 m ρ c (Proc.devRef .tc main_v234) := by host_carry hostOps18_2 main_v234
      _ = W47 m ρ c (Proc.devRef .tc main_v234) := by host_carry hostOps18_1 main_v234
  rw [e]; exact mean234_of (W46 m ρ c) (W46 m ρ c (Proc.devRef .tc main_v230)) rfl q
/-- The variance row is written by the second stretch, from region 17's output and the first stretch's integer zero. -/
theorem W49_var (c : Dev nD) (q : Fin 16) :
    W49 m ρ c (Proc.devRef .tc main_v235) (ix2 0 q) = Cert.Spec.var16 (W46 m ρ c (Proc.devRef .tc main_v230)) (ix1 q) := by
  have e : W49 m ρ c (Proc.devRef .tc main_v235) = W48 m ρ c (Proc.devRef .tc main_v235) := by host_carry hostOps18_2 main_v235
  rw [e]; exact var235_of (W47 m ρ c) (W46 m ρ c (Proc.devRef .tc main_v230)) (W47_v230 m ρ c) (c33_of (W46 m ρ c)) q

/-! ### The four regions -/

/-- Region 15: the perceptron on the first pooling. -/
theorem stage15 (c : Dev nD) :
    W42 m ρ c (Proc.devRef .tc main_v219)
      = Cert.Spec.mlp1 (Cert.Spec.pool1 (W40 m ρ c (Proc.devRef .tc main_v213)) (m ((c : Thread nD τ).loc main_arg2)))
          (m ((c : Thread nD τ).loc main_arg15)) (m ((c : Thread nD τ).loc main_arg16)) (m ((c : Thread nD τ).loc main_arg17)) (m ((c : Thread nD τ).loc main_arg18)) :=
  (W42_arr m ρ c 5).trans
    (mlp15_value (V41 m ρ) c (Cert.Spec.pool1 (W40 m ρ c (Proc.devRef .tc main_v213)) (m ((c : Thread nD τ).loc main_arg2)))
      (m ((c : Thread nD τ).loc main_arg15)) (m ((c : Thread nD τ).loc main_arg17)) (m ((c : Thread nD τ).loc main_arg16)) (m ((c : Thread nD τ).loc main_arg18))
      (pool1_of (W40 m ρ c) (W40 m ρ c (Proc.devRef .tc main_v213)) (m ((c : Thread nD τ).loc main_arg2)) rfl (W40_arg2 m ρ c))
      (W41_arg15 m ρ c)
      (fun q => row217_of (W40 m ρ c) (m ((c : Thread nD τ).loc main_arg16)) (W40_arg16 m ρ c) q)
      (W41_arg17 m ρ c)
      (fun q => row218_of (W40 m ρ c) (m ((c : Thread nD τ).loc main_arg18)) (W40_arg18 m ρ c) q))

/-- Region 16: the perceptron on the second pooling. -/
theorem stage16 (c : Dev nD) :
    W44 m ρ c (Proc.devRef .tc main_v225)
      = Cert.Spec.mlp2 (Cert.Spec.pool2 (W42 m ρ c (Proc.devRef .tc main_v219)) (m ((c : Thread nD τ).loc main_arg3)))
          (m ((c : Thread nD τ).loc main_arg19)) (m ((c : Thread nD τ).loc main_arg20)) (m ((c : Thread nD τ).loc main_arg21)) (m ((c : Thread nD τ).loc main_arg22)) :=
  (W44_arr m ρ c 5).trans
    (mlp16_value (V43 m ρ) c (Cert.Spec.pool2 (W42 m ρ c (Proc.devRef .tc main_v219)) (m ((c : Thread nD τ).loc main_arg3)))
      (m ((c : Thread nD τ).loc main_arg19)) (m ((c : Thread nD τ).loc main_arg21)) (m ((c : Thread nD τ).loc main_arg20)) (m ((c : Thread nD τ).loc main_arg22))
      (pool2_of (W42 m ρ c) (W42 m ρ c (Proc.devRef .tc main_v219)) (m ((c : Thread nD τ).loc main_arg3)) rfl (W42_arg3 m ρ c))
      (W43_arg19 m ρ c)
      (fun q => row223_of (W42 m ρ c) (m ((c : Thread nD τ).loc main_arg20)) (W42_arg20 m ρ c) q)
      (W43_arg21 m ρ c)
      (fun q => row224_of (W42 m ρ c) (m ((c : Thread nD τ).loc main_arg22)) (W42_arg22 m ρ c) q))

/-- Region 17: the first linear head stage and its ELU, on the third pooling. -/
theorem stage17 (c : Dev nD) :
    W46 m ρ c (Proc.devRef .tc main_v230)
      = Cert.Spec.elu (Cert.Spec.fc1 (Cert.Spec.pool3 (W44 m ρ c (Proc.devRef .tc main_v225)) (m ((c : Thread nD τ).loc main_arg4))) (m ((c : Thread nD τ).loc main_arg23)) (m ((c : Thread nD τ).loc main_arg24))) :=
  (W46_arr m ρ c 3).trans
    (fc1_17_value (V45 m ρ) c (Cert.Spec.pool3 (W44 m ρ c (Proc.devRef .tc main_v225)) (m ((c : Thread nD τ).loc main_arg4))) (m ((c : Thread nD τ).loc main_arg23)) (m ((c : Thread nD τ).loc main_arg24))
      (pool3_of (W44 m ρ c) (W44 m ρ c (Proc.devRef .tc main_v225)) (m ((c : Thread nD τ).loc main_arg4)) rfl (W44_arg4 m ρ c))
      (W45_arg23 m ρ c)
      (fun q => row229_of (W44 m ρ c) (m ((c : Thread nD τ).loc main_arg24)) (W44_arg24 m ρ c) q))

/-- Region 18: the normalised linear head. -/
theorem stage18 (c : Dev nD) :
    W50 m ρ c (Proc.devRef .tc main_v237)
      = Cert.Spec.head (W46 m ρ c (Proc.devRef .tc main_v230)) (m ((c : Thread nD τ).loc main_arg25)) (m ((c : Thread nD τ).loc main_arg26)) :=
  (W50_arr m ρ c 5).trans
    (head18_value (V49 m ρ) c (W46 m ρ c (Proc.devRef .tc main_v230)) (m ((c : Thread nD τ).loc main_arg25)) (m ((c : Thread nD τ).loc main_arg26))
      (W49_v230 m ρ c)
      (fun q => W49_mean m ρ c q)
      (fun q => W49_var m ρ c q)
      (W49_arg25 m ρ c)
      (fun q => row236_of (W48 m ρ c) (m ((c : Thread nD τ).loc main_arg26)) (W48_arg26 m ρ c) q))

end Walk

end Tail

/-- The pooling tail: the program's result at boundary 50 is the reference's tail of the fifth layer's output at
    boundary 40 and the launch contents of the sixteen argument arrays the tail takes. -/
theorem stageTail (m : (ℓ : Loc nD τ sig) → Buf (Elt Ideal) ℓ) (ρ : Dev nD → PrngReg) (c : Dev nD) :
    W50 m ρ c (Proc.devRef .tc main_v237)
      = Cert.Spec.tail (W40 m ρ c (Proc.devRef .tc main_v213)) (m ((c : Thread nD τ).loc main_arg2)) (m ((c : Thread nD τ).loc main_arg3)) (m ((c : Thread nD τ).loc main_arg4))
          (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
          (m ((c : Thread nD τ).loc main_arg23)) (m ((c : Thread nD τ).loc main_arg24)) (m ((c : Thread nD τ).loc main_arg25)) (m ((c : Thread nD τ).loc main_arg26)) := by
  rw [Tail.stage18 m ρ c, Tail.stage17 m ρ c, Tail.stage16 m ρ c, Tail.stage15 m ρ c]
  rfl

end Cert.KernelValue

end
-- ==== Proof.RefOps.lean ====
import proofs.«425927_j69028714381396_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements 0 … 108 (counted from 0, a call one statement), each call's operations in place: 130 operations. -/
abbrev opsL0 : List (HloOp τ sig (Elt F)) :=
  [ unary main_arg1 main_v0 ((extractStridedSlice S1x2560000 ![0, 0] · slices_S2x2560000_S1x2560000_0_0) : (⟨S2x2560000, .i32⟩ : BufTy).Contents (Elt F) → (⟨S1x2560000, .i32⟩ : BufTy).Contents (Elt F)),
    reshape main_v0 main_v1 rfl shapeCasts_S1x2560000_S2560000,
    unary main_arg1 main_v2 ((extractStridedSlice S1x2560000 ![1, 0] · slices_S2x2560000_S1x2560000_1_0) : (⟨S2x2560000, .i32⟩ : BufTy).Contents (Elt F) → (⟨S1x2560000, .i32⟩ : BufTy).Contents (Elt F)),
    reshape main_v2 main_v3 rfl shapeCasts_S1x2560000_S2560000,
    unary main_arg5 main_v4 ((extractStridedSlice S1x50x32 ![0, 0, 0] · slices_S5x50x32_S1x50x32_0_0_0) : (⟨S5x50x32, .f32⟩ : BufTy).Contents (Elt F) → (⟨S1x50x32, .f32⟩ : BufTy).Contents (Elt F)),
    reshape main_v4 main_v5 rfl shapeCasts_S1x50x32_S50x32,
    nullary main_c (constantI S_ 32 0#32),
    unary main_c main_v6 (broadcastInDim S160000x2 ![] bcast_S_S160000x2 : (⟨S_, .i32⟩ : BufTy).Contents (Elt F) → (⟨S160000x2, .i32⟩ : BufTy).Contents (Elt F)),
    binary main_arg0 main_v6 main_v7 (cmpi .slt : (⟨S160000x2, .i32⟩ : BufTy).Contents (Elt F) → (⟨S160000x2, .i32⟩ : BufTy).Contents (Elt F) → (⟨S160000x2, .i1⟩ : BufTy).Contents (Elt F)),
    nullary main_c_0 (constantI S_ 32 50#32),
    unary main_c_0 main_v8 (broadcastInDim S160000x2 ![] bcast_S_S160000x2 : (⟨S_, .i32⟩ : BufTy).Contents (Elt F) → (⟨S160000x2, .i32⟩ : BufTy).Contents (Elt F)),
    binary main_arg0 main_v8 main_v9 (addi : (⟨S160000x2, .i32⟩ : BufTy).Contents (Elt F) → (⟨S160000x2, .i32⟩ : BufTy).Contents (Elt F) → (⟨S160000x2, .i32⟩ : BufTy).Contents (Elt F)),
    ternary main_v7 main_v9 main_arg0 main_v10 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v10 main_v11 (broadcastInDim S160000x2x1 ![0, 1] bcast_S160000x2_S160000x2x1_0_1 : (⟨S160000x2, .i32⟩ : BufTy).Contents (Elt F) → (⟨S160000x2x1, .i32⟩ : BufTy).Contents (Elt F)),
    binary main_v5 main_v11 main_v12 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst (constant S_ .f32 0x00000000#32),
    binary main_v12 main_cst main_v13 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    unary main_arg8 main_v14 ((extractStridedSlice S1x32x32 ![0, 0, 0] · slices_S5x32x32_S1x32x32_0_0_0) : (⟨S5x32x32, .f32⟩ : BufTy).Contents (Elt F) → (⟨S1x32x32, .f32⟩ : BufTy).Contents (Elt F)),
    reshape main_v14 main_v15 rfl shapeCasts_S1x32x32_S32x32,
    binary main_v13 main_v15 main_v16 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_1 (constantI S_ 32 0#32),
    unary main_c_1 main_v17 (broadcastInDim S2560000 ![] bcast_S_S2560000 : (⟨S_, .i32⟩ : BufTy).Contents (Elt F) → (⟨S2560000, .i32⟩ : BufTy).Contents (Elt F)),
    binary main_v1 main_v17 main_v18 (cmpi .slt : (⟨S2560000, .i32⟩ : BufTy).Contents (Elt F) → (⟨S2560000, .i32⟩ : BufTy).Contents (Elt F) → (⟨S2560000, .i1⟩ : BufTy).Contents (Elt F)),
    nullary main_c_2 (constantI S_ 32 160000#32),
    unary main_c_2 main_v19 (broadcastInDim S2560000 ![] bcast_S_S2560000 : (⟨S_, .i32⟩ : BufTy).Contents (Elt F) → (⟨S2560000, .i32⟩ : BufTy).Contents (Elt F)),
    binary main_v1 main_v19 main_v20 (addi : (⟨S2560000, .i32⟩ : BufTy).Contents (Elt F) → (⟨S2560000, .i32⟩ : BufTy).Contents (Elt F) → (⟨S2560000, .i32⟩ : BufTy).Contents (Elt F)),
    ternary main_v18 main_v20 main_v1 main_v21 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v21 main_v22 (broadcastInDim S2560000x1 ![0] bcast_S2560000_S2560000x1_0 : (⟨S2560000, .i32⟩ : BufTy).Contents (Elt F) → (⟨S2560000x1, .i32⟩ : BufTy).Contents (Elt F)),
    binary main_v16 main_v22 main_v23 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_3 (constant S_ .f32 0x00000000#32),
    unary main_cst_3 main_v24 (broadcastInDim S160000x32 ![] bcast_S_S160000x32 : (⟨S_, .f32⟩ : BufTy).Contents (Elt F) → (⟨S160000x32, .f32⟩ : BufTy).Contents (Elt F)),
    unary main_v3 main_v25 (broadcastInDim S2560000x1 ![0] bcast_S2560000_S2560000x1_0 : (⟨S2560000, .i32⟩ : BufTy).Contents (Elt F) → (⟨S2560000x1, .i32⟩ : BufTy).Contents (Elt F)),
    ternary main_v24 main_v25 main_v23 main_v26 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v27 ((extractStridedSlice S1x32x96 ![0, 0, 0] · slices_S5x32x96_S1x32x96_0_0_0) : (⟨S5x32x96, .f32⟩ : BufTy).Contents (Elt F) → (⟨S1x32x96, .f32⟩ : BufTy).Contents (Elt F)),
    reshape main_v27 main_v28 rfl shapeCasts_S1x32x96_S32x96,
    binary main_v26 main_v28 main_v29 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v30 ((extractStridedSlice S1x96 ![0, 0] · slices_S5x96_S1x96_0_0) : (⟨S5x96, .f32⟩ : BufTy).Contents (Elt F) → (⟨S1x96, .f32⟩ : BufTy).Contents (Elt F)),
    reshape main_v30 main_v31 rfl shapeCasts_S1x96_S96,
    unary main_v31 main_v32 (broadcastInDim S1x96 ![1] bcast_S96_S1x96_1 : (⟨S96, .f32⟩ : BufTy).Contents (Elt F) → (⟨S1x96, .f32⟩ : BufTy).Contents (Elt F)),
    unary main_v32 main_v33 (broadcastInDim S160000x96 ![0, 1] bcast_S1x96_S160000x96_0_1 : (⟨S1x96, .f32⟩ : BufTy).Contents (Elt F) → (⟨S160000x96, .f32⟩ : BufTy).Contents (Elt F)),
    binary main_v29 main_v33 main_v34 (addf : (⟨S160000x96, .f32⟩ : BufTy).Contents (Elt F) → (⟨S160000x96, .f32⟩ : BufTy).Contents (Elt F) → (⟨S160000x96, .f32⟩ : BufTy).Contents (Elt F)),
    unary main_arg10 main_v35 ((extractStridedSlice S1x32x96 ![0, 0, 0] · slices_S5x32x96_S1x32x96_0_0_0) : (⟨S5x32x96, .f32⟩ : BufTy).Contents (Elt F) → (⟨S1x32x96, .f32⟩ : BufTy).Contents (Elt F)),
    reshape main_v35 main_v36 rfl shapeCasts_S1x32x96_S32x96,
    binary main_v13 main_v36 main_v37 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v38 ((extractStridedSlice S1x96 ![0, 0] · slices_S5x96_S1x96_0_0) : (⟨S5x96, .f32⟩ : BufTy).Contents (Elt F) → (⟨S1x96, .f32⟩ : BufTy).Contents (Elt F)),
    reshape main_v38 main_v39 rfl shapeCasts_S1x96_S96,
    unary main_v39 main_v40 (broadcastInDim S1x96 ![1] bcast_S96_S1x96_1 : (⟨S96, .f32⟩ : BufTy).Contents (Elt F) → (⟨S1x96, .f32⟩ : BufTy).Contents (Elt F)),
    unary main_v40 main_v41 (broadcastInDim S160000x96 ![0, 1] bcast_S1x96_S160000x96_0_1 : (⟨S1x96, .f32⟩ : BufTy).Contents (Elt F) → (⟨S160000x96, .f32⟩ : BufTy).Contents (Elt F)),
    binary main_v37 main_v41 main_v42 (addf : (⟨S160000x96, .f32⟩ : BufTy).Contents (Elt F) → (⟨S160000x96, .f32⟩ : BufTy).Contents (Elt F) → (⟨S160000x96, .f32⟩ : BufTy).Contents (Elt F)),
    unary main_v34 main_v43 ((extractStridedSlice S160000x32 ![0, 0] · slices_S160000x96_S160000x32_0_0) : (⟨S160000x96, .f32⟩ : BufTy).Contents (Elt F) → (⟨S160000x32, .f32⟩ : BufTy).Contents (Elt F)),
    unary main_v34 main_v44 ((extractStridedSlice S160000x32 ![0, 32] · slices_S160000x96_S160000x32_0_32) : (⟨S160000x96, .f32⟩ : BufTy).Contents (Elt F) → (⟨S160000x32, .f32⟩ : BufTy).Contents (Elt F)),
    unary main_v34 main_v45 ((extractStridedSlice S160000x32 ![0, 64] · slices_S160000x96_S160000x32_0_64) : (⟨S160000x96, .f32⟩ : BufTy).Contents (Elt F) → (⟨S160000x32, .f32⟩ : BufTy).Contents (Elt F)),
    unary main_v42 main_v46 ((extractStridedSlice S160000x32 ![0, 0] · slices_S160000x96_S160000x32_0_0) : (⟨S160000x96, .f32⟩ : BufTy).Contents (Elt F) → (⟨S160000x32, .f32⟩ : BufTy).Contents (Elt F)),
    unary main_v42 main_v47 ((extractStridedSlice S160000x32 ![0, 32] · slices_S160000x96_S160000x32_0_32) : (⟨S160000x96, .f32⟩ : BufTy).Contents (Elt F) → (⟨S160000x32, .f32⟩ : BufTy).Contents (Elt F)),
    unary main_v42 main_v48 ((extractStridedSlice S160000x32 ![0, 64] · slices_S160000x96_S160000x32_0_64) : (⟨S160000x96, .f32⟩ : BufTy).Contents (Elt F) → (⟨S160000x32, .f32⟩ : BufTy).Contents (Elt F)),
    binary main_v43 main_v46 main_v49 (addf : (⟨S160000x32, .f32⟩ : BufTy).Contents (Elt F) → (⟨S160000x32, .f32⟩ : BufTy).Contents (Elt F) → (⟨S160000x32, .f32⟩ : BufTy).Contents (Elt F)),
    unary main_v49 main_v50 (Host.negf : (⟨S160000x32, .f32⟩ : BufTy).Contents (Elt F) → (⟨S160000x32, .f32⟩ : BufTy).Contents (Elt F)),
    unary main_v50 main_v51 (Host.exp : (⟨S160000x32, .f32⟩ : BufTy).Contents (Elt F) → (⟨S160000x32, .f32⟩ : BufTy).Contents (Elt F)),
    nullary main_cst_4 (constant S_ .f32 0x3F800000#32),
    unary main_cst_4 main_v52 (broadcastInDim S160000x32 ![] bcast_S_S160000x32 : (⟨S_, .f32⟩ : BufTy).Contents (Elt F) → (⟨S160000x32, .f32⟩ : BufTy).Contents (Elt F)),
    binary main_v52 main_v51 main_v53 (addf : (⟨S160000x32, .f32⟩ : BufTy).Contents (Elt F) → (⟨S160000x32, .f32⟩ : BufTy).Contents (Elt F) → (⟨S160000x32, .f32⟩ : BufTy).Contents (Elt F)),
    nullary main_cst_5 (constant S_ .f32 0x3F800000#32),
    unary main_cst_5 main_v54 (broadcastInDim S160000x32 ![] bcast_S_S160000x32 : (⟨S_, .f32⟩ : BufTy).Contents (Elt F) → (⟨S160000x32, .f32⟩ : BufTy).Contents (Elt F)),
    binary main_v54 main_v53 main_v55 (Host.divf : (⟨S160000x32, .f32⟩ : BufTy).Contents (Elt F) → (⟨S160000x32, .f32⟩ : BufTy).Contents (Elt F) → (⟨S160000x32, .f32⟩ : BufTy).Contents (Elt F)),
    binary main_v44 main_v47 main_v56 (addf : (⟨S160000x32, .f32⟩ : BufTy).Contents (Elt F) → (⟨S160000x32, .f32⟩ : BufTy).Contents (Elt F) → (⟨S160000x32, .f32⟩ : BufTy).Contents (Elt F)),
    unary main_v56 main_v57 (Host.negf : (⟨S160000x32, .f32⟩ : BufTy).Contents (Elt F) → (⟨S160000x32, .f32⟩ : BufTy).Contents (Elt F)),
    unary main_v57 main_v58 (Host.exp : (⟨S160000x32, .f32⟩ : BufTy).Contents (Elt F) → (⟨S160000x32, .f32⟩ : BufTy).Contents (Elt F)),
    nullary main_cst_6 (constant S_ .f32 0x3F800000#32),
    unary main_cst_6 main_v59 (broadcastInDim S160000x32 ![] bcast_S_S160000x32 : (⟨S_, .f32⟩ : BufTy).Contents (Elt F) → (⟨S160000x32, .f32⟩ : BufTy).Contents (Elt F)),
    binary main_v59 main_v58 main_v60 (addf : (⟨S160000x32, .f32⟩ : BufTy).Contents (Elt F) → (⟨S160000x32, .f32⟩ : BufTy).Contents (Elt F) → (⟨S160000x32, .f32⟩ : BufTy).Contents (Elt F)),
    nullary main_cst_7 (constant S_ .f32 0x3F800000#32),
    unary main_cst_7 main_v61 (broadcastInDim S160000x32 ![] bcast_S_S160000x32 : (⟨S_, .f32⟩ : BufTy).Contents (Elt F) → (⟨S160000x32, .f32⟩ : BufTy).Contents (Elt F)),
    binary main_v61 main_v60 main_v62 (Host.divf : (⟨S160000x32, .f32⟩ : BufTy).Contents (Elt F) → (⟨S160000x32, .f32⟩ : BufTy).Contents (Elt F) → (⟨S160000x32, .f32⟩ : BufTy).Contents (Elt F)),
    binary main_v55 main_v48 main_v63 (mulf : (⟨S160000x32, .f32⟩ : BufTy).Contents (Elt F) → (⟨S160000x32, .f32⟩ : BufTy).Contents (Elt F) → (⟨S160000x32, .f32⟩ : BufTy).Contents (Elt F)),
    binary main_v45 main_v63 main_v64 (addf : (⟨S160000x32, .f32⟩ : BufTy).Contents (Elt F) → (⟨S160000x32, .f32⟩ : BufTy).Contents (Elt F) → (⟨S160000x32, .f32⟩ : BufTy).Contents (Elt F)),
    unary main_v64 main_v65 (Host.tanh : (⟨S160000x32, .f32⟩ : BufTy).Contents (Elt F) → (⟨S160000x32, .f32⟩ : BufTy).Contents (Elt F)),
    nullary main_cst_8 (constant S_ .f32 0x3F800000#32),
    unary main_cst_8 main_v66 (broadcastInDim S160000x32 ![] bcast_S_S160000x32 : (⟨S_, .f32⟩ : BufTy).Contents (Elt F) → (⟨S160000x32, .f32⟩ : BufTy).Contents (Elt F)),
    binary main_v66 main_v62 main_v67 (subf : (⟨S160000x32, .f32⟩ : BufTy).Contents (Elt F) → (⟨S160000x32, .f32⟩ : BufTy).Contents (Elt F) → (⟨S160000x32, .f32⟩ : BufTy).Contents (Elt F)),
    binary main_v67 main_v65 main_v68 (mulf : (⟨S160000x32, .f32⟩ : BufTy).Contents (Elt F) → (⟨S160000x32, .f32⟩ : BufTy).Contents (Elt F) → (⟨S160000x32, .f32⟩ : BufTy).Contents (Elt F)),
    binary main_v62 main_v13 main_v69 (mulf : (⟨S160000x32, .f32⟩ : BufTy).Contents (Elt F) → (⟨S160000x32, .f32⟩ : BufTy).Contents (Elt F) → (⟨S160000x32, .f32⟩ : BufTy).Contents (Elt F)),
    binary main_v68 main_v69 main_v70 (addf : (⟨S160000x32, .f32⟩ : BufTy).Contents (Elt F) → (⟨S160000x32, .f32⟩ : BufTy).Contents (Elt F) → (⟨S160000x32, .f32⟩ : BufTy).Contents (Elt F)),
    unary main_arg13 main_v71 ((extractStridedSlice S1x32 ![0, 0] · slices_S5x32_S1x32_0_0) : (⟨S5x32, .f32⟩ : BufTy).Contents (Elt F) → (⟨S1x32, .f32⟩ : BufTy).Contents (Elt F)),
    reshape main_v71 main_v72 rfl shapeCasts_S1x32_S32,
    unary main_arg14 main_v73 ((extractStridedSlice S1x32 ![0, 0] · slices_S5x32_S1x32_0_0) : (⟨S5x32, .f32⟩ : BufTy).Contents (Elt F) → (⟨S1x32, .f32⟩ : BufTy).Contents (Elt F)),
    reshape main_v73 main_v74 rfl shapeCasts_S1x32_S32,
    nullary main_cst_9 (constant S_ .f32 0x00000000#32),
    binary main_v70 main_cst_9 main_v75 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_10 (constant S_ .f32 0x481C4000#32),
    unary main_cst_10 main_v76 (broadcastInDim S32 ![] bcast_S_S32 : (⟨S_, .f32⟩ : BufTy).Contents (Elt F) → (⟨S32, .f32⟩ : BufTy).Contents (Elt F)),
    binary main_v75 main_v76 main_v77 (Host.divf : (⟨S32, .f32⟩ : BufTy).Contents (Elt F) → (⟨S32, .f32⟩ : BufTy).Contents (Elt F) → (⟨S32, .f32⟩ : BufTy).Contents (Elt F)),
    nullary main_c_11 (constantI S_ 32 0#32),
    TRef.nullary main_call0.cst (constant S_ .f32 0x00000000#32),
    TRef.binary (.of main_v70) main_call0.cst main_call0.v0 (fun x v => Host.reduceAdd x v reducesTo_S160000x32_S32_d0 h_S_),
    TRef.unary main_call0.v0 main_call0.v1 (broadcastInDim S1x32 ![1] bcast_S32_S1x32_1),
    TRef.nullary main_call0.cst_0 (constant S_ .f32 0x481C4000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S160000x32 ![0, 1] bcast_S1x32_S160000x32_0_1),
    TRef.binary (.of main_v70) main_call0.v4 main_call0.v5 subf,
    TRef.binary main_call0.v5 main_call0.v5 main_call0.v6 mulf,
    TRef.unary (.of main_c_11) main_call0.v7 (sitofp .f32),
    TRef.nullary main_call0.cst_1 (constant S_ .f32 0x481C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S160000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v77 main_v79 (broadcastInDim S1x32 ![1] bcast_S32_S1x32_1 : (⟨S32, .f32⟩ : BufTy).Contents (Elt F) → (⟨S1x32, .f32⟩ : BufTy).Contents (Elt F)),
    unary main_v79 main_v80 (broadcastInDim S160000x32 ![0, 1] bcast_S1x32_S160000x32_0_1 : (⟨S1x32, .f32⟩ : BufTy).Contents (Elt F) → (⟨S160000x32, .f32⟩ : BufTy).Contents (Elt F)),
    binary main_v70 main_v80 main_v81 (subf : (⟨S160000x32, .f32⟩ : BufTy).Contents (Elt F) → (⟨S160000x32, .f32⟩ : BufTy).Contents (Elt F) → (⟨S160000x32, .f32⟩ : BufTy).Contents (Elt F)),
    nullary main_cst_12 (constant S_ .f32 0x3727C5AC#32),
    unary main_cst_12 main_v82 (broadcastInDim S32 ![] bcast_S_S32 : (⟨S_, .f32⟩ : BufTy).Contents (Elt F) → (⟨S32, .f32⟩ : BufTy).Contents (Elt F)),
    binary main_v78 main_v82 main_v83 (addf : (⟨S32, .f32⟩ : BufTy).Contents (Elt F) → (⟨S32, .f32⟩ : BufTy).Contents (Elt F) → (⟨S32, .f32⟩ : BufTy).Contents (Elt F)),
    unary main_v83 main_v84 (Host.rsqrt : (⟨S32, .f32⟩ : BufTy).Contents (Elt F) → (⟨S32, .f32⟩ : BufTy).Contents (Elt F)),
    unary main_v84 main_v85 (broadcastInDim S1x32 ![1] bcast_S32_S1x32_1 : (⟨S32, .f32⟩ : BufTy).Contents (Elt F) → (⟨S1x32, .f32⟩ : BufTy).Contents (Elt F)),
    unary main_v85 main_v86 (broadcastInDim S160000x32 ![0, 1] bcast_S1x32_S160000x32_0_1 : (⟨S1x32, .f32⟩ : BufTy).Contents (Elt F) → (⟨S160000x32, .f32⟩ : BufTy).Contents (Elt F)),
    binary main_v81 main_v86 main_v87 (mulf : (⟨S160000x32, .f32⟩ : BufTy).Contents (Elt F) → (⟨S160000x32, .f32⟩ : BufTy).Contents (Elt F) → (⟨S160000x32, .f32⟩ : BufTy).Contents (Elt F)),
    unary main_v72 main_v88 (broadcastInDim S1x32 ![1] bcast_S32_S1x32_1 : (⟨S32, .f32⟩ : BufTy).Contents (Elt F) → (⟨S1x32, .f32⟩ : BufTy).Contents (Elt F)),
    unary main_v88 main_v89 (broadcastInDim S160000x32 ![0, 1] bcast_S1x32_S160000x32_0_1 : (⟨S1x32, .f32⟩ : BufTy).Contents (Elt F) → (⟨S160000x32, .f32⟩ : BufTy).Contents (Elt F)),
    binary main_v87 main_v89 main_v90 (mulf : (⟨S160000x32, .f32⟩ : BufTy).Contents (Elt F) → (⟨S160000x32, .f32⟩ : BufTy).Contents (Elt F) → (⟨S160000x32, .f32⟩ : BufTy).Contents (Elt F)),
    unary main_v74 main_v91 (broadcastInDim S1x32 ![1] bcast_S32_S1x32_1 : (⟨S32, .f32⟩ : BufTy).Contents (Elt F) → (⟨S1x32, .f32⟩ : BufTy).Contents (Elt F)),
    unary main_v91 main_v92 (broadcastInDim S160000x32 ![0, 1] bcast_S1x32_S160000x32_0_1 : (⟨S1x32, .f32⟩ : BufTy).Contents (Elt F) → (⟨S160000x32, .f32⟩ : BufTy).Contents (Elt F)),
    binary main_v90 main_v92 main_v93 (addf : (⟨S160000x32, .f32⟩ : BufTy).Contents (Elt F) → (⟨S160000x32, .f32⟩ : BufTy).Contents (Elt F) → (⟨S160000x32, .f32⟩ : BufTy).Contents (Elt F)) ]

/-- @main's statements 109 … 222 (counted from 0, a call one statement), each call's operations in place: 135 operations. -/
abbrev opsL1 : List (HloOp τ sig (Elt F)) :=
  [ unary main_arg5 main_v94 ((extractStridedSlice S1x50x32 ![1, 0, 0] · slices_S5x50x32_S1x50x32_1_0_0) : (⟨S5x50x32, .f32⟩ : BufTy).Contents (Elt F) → (⟨S1x50x32, .f32⟩ : BufTy).Contents (Elt F)),
    reshape main_v94 main_v95 rfl shapeCasts_S1x50x32_S50x32,
    nullary main_c_13 (constantI S_ 32 0#32),
    unary main_c_13 main_v96 (broadcastInDim S160000x2 ![] bcast_S_S160000x2 : (⟨S_, .i32⟩ : BufTy).Contents (Elt F) → (⟨S160000x2, .i32⟩ : BufTy).Contents (Elt F)),
    binary main_arg0 main_v96 main_v97 (cmpi .slt : (⟨S160000x2, .i32⟩ : BufTy).Contents (Elt F) → (⟨S160000x2, .i32⟩ : BufTy).Contents (Elt F) → (⟨S160000x2, .i1⟩ : BufTy).Contents (Elt F)),
    nullary main_c_14 (constantI S_ 32 50#32),
    unary main_c_14 main_v98 (broadcastInDim S160000x2 ![] bcast_S_S160000x2 : (⟨S_, .i32⟩ : BufTy).Contents (Elt F) → (⟨S160000x2, .i32⟩ : BufTy).Contents (Elt F)),
    binary main_arg0 main_v98 main_v99 (addi : (⟨S160000x2, .i32⟩ : BufTy).Contents (Elt F) → (⟨S160000x2, .i32⟩ : BufTy).Contents (Elt F) → (⟨S160000x2, .i32⟩ : BufTy).Contents (Elt F)),
    ternary main_v97 main_v99 main_arg0 main_v100 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v100 main_v101 (broadcastInDim S160000x2x1 ![0, 1] bcast_S160000x2_S160000x2x1_0_1 : (⟨S160000x2, .i32⟩ : BufTy).Contents (Elt F) → (⟨S160000x2x1, .i32⟩ : BufTy).Contents (Elt F)),
    binary main_v95 main_v101 main_v102 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_15 (constant S_ .f32 0x00000000#32),
    binary main_v102 main_cst_15 main_v103 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v93 main_v103 main_v104 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v105 ((extractStridedSlice S1x64x32 ![1, 0, 0] · slices_S5x64x32_S1x64x32_1_0_0) : (⟨S5x64x32, .f32⟩ : BufTy).Contents (Elt F) → (⟨S1x64x32, .f32⟩ : BufTy).Contents (Elt F)),
    reshape main_v105 main_v106 rfl shapeCasts_S1x64x32_S64x32,
    binary main_v104 main_v106 main_v107 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v108 ((extractStridedSlice S1x32 ![1, 0] · slices_S5x32_S1x32_1_0) : (⟨S5x32, .f32⟩ : BufTy).Contents (Elt F) → (⟨S1x32, .f32⟩ : BufTy).Contents (Elt F)),
    reshape main_v108 main_v109 rfl shapeCasts_S1x32_S32,
    unary main_v109 main_v110 (broadcastInDim S1x32 ![1] bcast_S32_S1x32_1 : (⟨S32, .f32⟩ : BufTy).Contents (Elt F) → (⟨S1x32, .f32⟩ : BufTy).Contents (Elt F)),
    unary main_v110 main_v111 (broadcastInDim S160000x32 ![0, 1] bcast_S1x32_S160000x32_0_1 : (⟨S1x32, .f32⟩ : BufTy).Contents (Elt F) → (⟨S160000x32, .f32⟩ : BufTy).Contents (Elt F)),
    binary main_v107 main_v111 main_v112 (addf : (⟨S160000x32, .f32⟩ : BufTy).Contents (Elt F) → (⟨S160000x32, .f32⟩ : BufTy).Contents (Elt F) → (⟨S160000x32, .f32⟩ : BufTy).Contents (Elt F)),
    unary main_arg8 main_v113 ((extractStridedSlice S1x32x32 ![1, 0, 0] · slices_S5x32x32_S1x32x32_1_0_0) : (⟨S5x32x32, .f32⟩ : BufTy).Contents (Elt F) → (⟨S1x32x32, .f32⟩ : BufTy).Contents (Elt F)),
    reshape main_v113 main_v114 rfl shapeCasts_S1x32x32_S32x32,
    binary main_v112 main_v114 main_v115 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_16 (constantI S_ 32 0#32),
    unary main_c_16 main_v116 (broadcastInDim S2560000 ![] bcast_S_S2560000 : (⟨S_, .i32⟩ : BufTy).Contents (Elt F) → (⟨S2560000, .i32⟩ : BufTy).Contents (Elt F)),
    binary main_v1 main_v116 main_v117 (cmpi .slt : (⟨S2560000, .i32⟩ : BufTy).Contents (Elt F) → (⟨S2560000, .i32⟩ : BufTy).Contents (Elt F) → (⟨S2560000, .i1⟩ : BufTy).Contents (Elt F)),
    nullary main_c_17 (constantI S_ 32 160000#32),
    unary main_c_17 main_v118 (broadcastInDim S2560000 ![] bcast_S_S2560000 : (⟨S_, .i32⟩ : BufTy).Contents (Elt F) → (⟨S2560000, .i32⟩ : BufTy).Contents (Elt F)),
    binary main_v1 main_v118 main_v119 (addi : (⟨S2560000, .i32⟩ : BufTy).Contents (Elt F) → (⟨S2560000, .i32⟩ : BufTy).Contents (Elt F) → (⟨S2560000, .i32⟩ : BufTy).Contents (Elt F)),
    ternary main_v117 main_v119 main_v1 main_v120 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v120 main_v121 (broadcastInDim S2560000x1 ![0] bcast_S2560000_S2560000x1_0 : (⟨S2560000, .i32⟩ : BufTy).Contents (Elt F) → (⟨S2560000x1, .i32⟩ : BufTy).Contents (Elt F)),
    binary main_v115 main_v121 main_v122 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_18 (constant S_ .f32 0x00000000#32),
    unary main_cst_18 main_v123 (broadcastInDim S160000x32 ![] bcast_S_S160000x32 : (⟨S_, .f32⟩ : BufTy).Contents (Elt F) → (⟨S160000x32, .f32⟩ : BufTy).Contents (Elt F)),
    unary main_v3 main_v124 (broadcastInDim S2560000x1 ![0] bcast_S2560000_S2560000x1_0 : (⟨S2560000, .i32⟩ : BufTy).Contents (Elt F) → (⟨S2560000x1, .i32⟩ : BufTy).Contents (Elt F)),
    ternary main_v123 main_v124 main_v122 main_v125 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v126 ((extractStridedSlice S1x32x96 ![1, 0, 0] · slices_S5x32x96_S1x32x96_1_0_0) : (⟨S5x32x96, .f32⟩ : BufTy).Contents (Elt F) → (⟨S1x32x96, .f32⟩ : BufTy).Contents (Elt F)),
    reshape main_v126 main_v127 rfl shapeCasts_S1x32x96_S32x96,
    binary main_v125 main_v127 main_v128 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v129 ((extractStridedSlice S1x96 ![1, 0] · slices_S5x96_S1x96_1_0) : (⟨S5x96, .f32⟩ : BufTy).Contents (Elt F) → (⟨S1x96, .f32⟩ : BufTy).Contents (Elt F)),
    reshape main_v129 main_v130 rfl shapeCasts_S1x96_S96,
    unary main_v130 main_v131 (broadcastInDim S1x96 ![1] bcast_S96_S1x96_1 : (⟨S96, .f32⟩ : BufTy).Contents (Elt F) → (⟨S1x96, .f32⟩ : BufTy).Contents (Elt F)),
    unary main_v131 main_v132 (broadcastInDim S160000x96 ![0, 1] bcast_S1x96_S160000x96_0_1 : (⟨S1x96, .f32⟩ : BufTy).Contents (Elt F) → (⟨S160000x96, .f32⟩ : BufTy).Contents (Elt F)),
    binary main_v128 main_v132 main_v133 (addf : (⟨S160000x96, .f32⟩ : BufTy).Contents (Elt F) → (⟨S160000x96, .f32⟩ : BufTy).Contents (Elt F) → (⟨S160000x96, .f32⟩ : BufTy).Contents (Elt F)),
    unary main_arg10 main_v134 ((extractStridedSlice S1x32x96 ![1, 0, 0] · slices_S5x32x96_S1x32x96_1_0_0) : (⟨S5x32x96, .f32⟩ : BufTy).Contents (Elt F) → (⟨S1x32x96, .f32⟩ : BufTy).Contents (Elt F)),
    reshape main_v134 main_v135 rfl shapeCasts_S1x32x96_S32x96,
    binary main_v112 main_v135 main_v136 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v137 ((extractStridedSlice S1x96 ![1, 0] · slices_S5x96_S1x96_1_0) : (⟨S5x96, .f32⟩ : BufTy).Contents (Elt F) → (⟨S1x96, .f32⟩ : BufTy).Contents (Elt F)),
    reshape main_v137 main_v138 rfl shapeCasts_S1x96_S96,
    unary main_v138 main_v139 (broadcastInDim S1x96 ![1] bcast_S96_S1x96_1 : (⟨S96, .f32⟩ : BufTy).Contents (Elt F) → (⟨S1x96, .f32⟩ : BufTy).Contents (Elt F)),
    unary main_v139 main_v140 (broadcastInDim S160000x96 ![0, 1] bcast_S1x96_S160000x96_0_1 : (⟨S1x96, .f32⟩ : BufTy).Contents (Elt F) → (⟨S160000x96, .f32⟩ : BufTy).Contents (Elt F)),
    binary main_v136 main_v140 main_v141 (addf : (⟨S160000x96, .f32⟩ : BufTy).Contents (Elt F) → (⟨S160000x96, .f32⟩ : BufTy).Contents (Elt F) → (⟨S160000x96, .f32⟩ : BufTy).Contents (Elt F)),
    unary main_v133 main_v142 ((extractStridedSlice S160000x32 ![0, 0] · slices_S160000x96_S160000x32_0_0) : (⟨S160000x96, .f32⟩ : BufTy).Contents (Elt F) → (⟨S160000x32, .f32⟩ : BufTy).Contents (Elt F)),
    unary main_v133 main_v143 ((extractStridedSlice S160000x32 ![0, 32] · slices_S160000x96_S160000x32_0_32) : (⟨S160000x96, .f32⟩ : BufTy).Contents (Elt F) → (⟨S160000x32, .f32⟩ : BufTy).Contents (Elt F)),
    unary main_v133 main_v144 ((extractStridedSlice S160000x32 ![0, 64] · slices_S160000x96_S160000x32_0_64) : (⟨S160000x96, .f32⟩ : BufTy).Contents (Elt F) → (⟨S160000x32, .f32⟩ : BufTy).Contents (Elt F)),
    unary main_v141 main_v145 ((extractStridedSlice S160000x32 ![0, 0] · slices_S160000x96_S160000x32_0_0) : (⟨S160000x96, .f32⟩ : BufTy).Contents (Elt F) → (⟨S160000x32, .f32⟩ : BufTy).Contents (Elt F)),
    unary main_v141 main_v146 ((extractStridedSlice S160000x32 ![0, 32] · slices_S160000x96_S160000x32_0_32) : (⟨S160000x96, .f32⟩ : BufTy).Contents (Elt F) → (⟨S160000x32, .f32⟩ : BufTy).Contents (Elt F)),
    unary main_v141 main_v147 ((extractStridedSlice S160000x32 ![0, 64] · slices_S160000x96_S160000x32_0_64) : (⟨S160000x96, .f32⟩ : BufTy).Contents (Elt F) → (⟨S160000x32, .f32⟩ : BufTy).Contents (Elt F)),
    binary main_v142 main_v145 main_v148 (addf : (⟨S160000x32, .f32⟩ : BufTy).Contents (Elt F) → (⟨S160000x32, .f32⟩ : BufTy).Contents (Elt F) → (⟨S160000x32, .f32⟩ : BufTy).Contents (Elt F)),
    unary main_v148 main_v149 (Host.negf : (⟨S160000x32, .f32⟩ : BufTy).Contents (Elt F) → (⟨S160000x32, .f32⟩ : BufTy).Contents (Elt F)),
    unary main_v149 main_v150 (Host.exp : (⟨S160000x32, .f32⟩ : BufTy).Contents (Elt F) → (⟨S160000x32, .f32⟩ : BufTy).Contents (Elt F)),
    nullary main_cst_19 (constant S_ .f32 0x3F800000#32),
    unary main_cst_19 main_v151 (broadcastInDim S160000x32 ![] bcast_S_S160000x32 : (⟨S_, .f32⟩ : BufTy).Contents (Elt F) → (⟨S160000x32, .f32⟩ : BufTy).Contents (Elt F)),
    binary main_v151 main_v150 main_v152 (addf : (⟨S160000x32, .f32⟩ : BufTy).Contents (Elt F) → (⟨S160000x32, .f32⟩ : BufTy).Contents (Elt F) → (⟨S160000x32, .f32⟩ : BufTy).Contents (Elt F)),
    nullary main_cst_20 (constant S_ .f32 0x3F800000#32),
    unary main_cst_20 main_v153 (broadcastInDim S160000x32 ![] bcast_S_S160000x32 : (⟨S_, .f32⟩ : BufTy).Contents (Elt F) → (⟨S160000x32, .f32⟩ : BufTy).Contents (Elt F)),
    binary main_v153 main_v152 main_v154 (Host.divf : (⟨S160000x32, .f32⟩ : BufTy).Contents (Elt F) → (⟨S160000x32, .f32⟩ : BufTy).Contents (Elt F) → (⟨S160000x32, .f32⟩ : BufTy).Contents (Elt F)),
    binary main_v143 main_v146 main_v155 (addf : (⟨S160000x32, .f32⟩ : BufTy).Contents (Elt F) → (⟨S160000x32, .f32⟩ : BufTy).Contents (Elt F) → (⟨S160000x32, .f32⟩ : BufTy).Contents (Elt F)),
    unary main_v155 main_v156 (Host.negf : (⟨S160000x32, .f32⟩ : BufTy).Contents (Elt F) → (⟨S160000x32, .f32⟩ : BufTy).Contents (Elt F)),
    unary main_v156 main_v157 (Host.exp : (⟨S160000x32, .f32⟩ : BufTy).Contents (Elt F) → (⟨S160000x32, .f32⟩ : BufTy).Contents (Elt F)),
    nullary main_cst_21 (constant S_ .f32 0x3F800000#32),
    unary main_cst_21 main_v158 (broadcastInDim S160000x32 ![] bcast_S_S160000x32 : (⟨S_, .f32⟩ : BufTy).Contents (Elt F) → (⟨S160000x32, .f32⟩ : BufTy).Contents (Elt F)),
    binary main_v158 main_v157 main_v159 (addf : (⟨S160000x32, .f32⟩ : BufTy).Contents (Elt F) → (⟨S160000x32, .f32⟩ : BufTy).Contents (Elt F) → (⟨S160000x32, .f32⟩ : BufTy).Contents (Elt F)),
    nullary main_cst_22 (constant S_ .f32 0x3F800000#32),
    unary main_cst_22 main_v160 (broadcastInDim S160000x32 ![] bcast_S_S160000x32 : (⟨S_, .f32⟩ : BufTy).Contents (Elt F) → (⟨S160000x32, .f32⟩ : BufTy).Contents (Elt F)),
    binary main_v160 main_v159 main_v161 (Host.divf : (⟨S160000x32, .f32⟩ : BufTy).Contents (Elt F) → (⟨S160000x32, .f32⟩ : BufTy).Contents (Elt F) → (⟨S160000x32, .f32⟩ : BufTy).Contents (Elt F)),
    binary main_v154 main_v147 main_v162 (mulf : (⟨S160000x32, .f32⟩ : BufTy).Contents (Elt F) → (⟨S160000x32, .f32⟩ : BufTy).Contents (Elt F) → (⟨S160000x32, .f32⟩ : BufTy).Contents (Elt F)),
    binary main_v144 main_v162 main_v163 (addf : (⟨S160000x32, .f32⟩ : BufTy).Contents (Elt F) → (⟨S160000x32, .f32⟩ : BufTy).Contents (Elt F) → (⟨S160000x32, .f32⟩ : BufTy).Contents (Elt F)),
    unary main_v163 main_v164 (Host.tanh : (⟨S160000x32, .f32⟩ : BufTy).Contents (Elt F) → (⟨S160000x32, .f32⟩ : BufTy).Contents (Elt F)),
    nullary main_cst_23 (constant S_ .f32 0x3F800000#32),
    unary main_cst_23 main_v165 (broadcastInDim S160000x32 ![] bcast_S_S160000x32 : (⟨S_, .f32⟩ : BufTy).Contents (Elt F) → (⟨S160000x32, .f32⟩ : BufTy).Contents (Elt F)),
    binary main_v165 main_v161 main_v166 (subf : (⟨S160000x32, .f32⟩ : BufTy).Contents (Elt F) → (⟨S160000x32, .f32⟩ : BufTy).Contents (Elt F) → (⟨S160000x32, .f32⟩ : BufTy).Contents (Elt F)),
    binary main_v166 main_v164 main_v167 (mulf : (⟨S160000x32, .f32⟩ : BufTy).Contents (Elt F) → (⟨S160000x32, .f32⟩ : BufTy).Contents (Elt F) → (⟨S160000x32, .f32⟩ : BufTy).Contents (Elt F)),
    binary main_v161 main_v112 main_v168 (mulf : (⟨S160000x32, .f32⟩ : BufTy).Contents (Elt F) → (⟨S160000x32, .f32⟩ : BufTy).Contents (Elt F) → (⟨S160000x32, .f32⟩ : BufTy).Contents (Elt F)),
    binary main_v167 main_v168 main_v169 (addf : (⟨S160000x32, .f32⟩ : BufTy).Contents (Elt F) → (⟨S160000x32, .f32⟩ : BufTy).Contents (Elt F) → (⟨S160000x32, .f32⟩ : BufTy).Contents (Elt F)),
    unary main_arg13 main_v170 ((extractStridedSlice S1x32 ![1, 0] · slices_S5x32_S1x32_1_0) : (⟨S5x32, .f32⟩ : BufTy).Contents (Elt F) → (⟨S1x32, .f32⟩ : BufTy).Contents (Elt F)),
    reshape main_v170 main_v171 rfl shapeCasts_S1x32_S32,
    unary main_arg14 main_v172 ((extractStridedSlice S1x32 ![1, 0] · slices_S5x32_S1x32_1_0) : (⟨S5x32, .f32⟩ : BufTy).Contents (Elt F) → (⟨S1x32, .f32⟩ : BufTy).Contents (Elt F)),
    reshape main_v172 main_v173 rfl shapeCasts_S1x32_S32,
    nullary main_cst_24 (constant S_ .f32 0x00000000#32),
    binary main_v169 main_cst_24 main_v174 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_25 (constant S_ .f32 0x481C4000#32),
    unary main_cst_25 main_v175 (broadcastInDim S32 ![] bcast_S_S32 : (⟨S_, .f32⟩ : BufTy).Contents (Elt F) → (⟨S32, .f32⟩ : BufTy).Contents (Elt F)),
    binary main_v174 main_v175 main_v176 (Host.divf : (⟨S32, .f32⟩ : BufTy).Contents (Elt F) → (⟨S32, .f32⟩ : BufTy).Contents (Elt F) → (⟨S32, .f32⟩ : BufTy).Contents (Elt F)),
    nullary main_c_26 (constantI S_ 32 0#32),
    TRef.nullary main_call1.cst (constant S_ .f32 0x00000000#32),
    TRef.binary (.of main_v169) main_call1.cst main_call1.v0 (fun x v => Host.reduceAdd x v reducesTo_S160000x32_S32_d0 h_S_),
    TRef.unary main_call1.v0 main_call1.v1 (broadcastInDim S1x32 ![1] bcast_S32_S1x32_1),
    TRef.nullary main_call1.cst_0 (constant S_ .f32 0x481C4000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S160000x32 ![0, 1] bcast_S1x32_S160000x32_0_1),
    TRef.binary (.of main_v169) main_call1.v4 main_call1.v5 subf,
    TRef.binary main_call1.v5 main_call1.v5 main_call1.v6 mulf,
    TRef.unary (.of main_c_26) main_call1.v7 (sitofp .f32),
    TRef.nullary main_call1.cst_1 (constant S_ .f32 0x481C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S160000x32_S32_d0 h_S_),
    TRef.unary main_call1.v8 main_call1.v10 (broadcastInDim S32 ![] bcast_S_S32),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b),
    unary main_v176 main_v178 (broadcastInDim S1x32 ![1] bcast_S32_S1x32_1 : (⟨S32, .f32⟩ : BufTy).Contents (Elt F) → (⟨S1x32, .f32⟩ : BufTy).Contents (Elt F)),
    unary main_v178 main_v179 (broadcastInDim S160000x32 ![0, 1] bcast_S1x32_S160000x32_0_1 : (⟨S1x32, .f32⟩ : BufTy).Contents (Elt F) → (⟨S160000x32, .f32⟩ : BufTy).Contents (Elt F)),
    binary main_v169 main_v179 main_v180 (subf : (⟨S160000x32, .f32⟩ : BufTy).Contents (Elt F) → (⟨S160000x32, .f32⟩ : BufTy).Contents (Elt F) → (⟨S160000x32, .f32⟩ : BufTy).Contents (Elt F)),
    nullary main_cst_27 (constant S_ .f32 0x3727C5AC#32),
    unary main_cst_27 main_v181 (broadcastInDim S32 ![] bcast_S_S32 : (⟨S_, .f32⟩ : BufTy).Contents (Elt F) → (⟨S32, .f32⟩ : BufTy).Contents (Elt F)),
    binary main_v177 main_v181 main_v182 (addf : (⟨S32, .f32⟩ : BufTy).Contents (Elt F) → (⟨S32, .f32⟩ : BufTy).Contents (Elt F) → (⟨S32, .f32⟩ : BufTy).Contents (Elt F)),
    unary main_v182 main_v183 (Host.rsqrt : (⟨S32, .f32⟩ : BufTy).Contents (Elt F) → (⟨S32, .f32⟩ : BufTy).Contents (Elt F)),
    unary main_v183 main_v184 (broadcastInDim S1x32 ![1] bcast_S32_S1x32_1 : (⟨S32, .f32⟩ : BufTy).Contents (Elt F) → (⟨S1x32, .f32⟩ : BufTy).Contents (Elt F)),
    unary main_v184 main_v185 (broadcastInDim S160000x32 ![0, 1] bcast_S1x32_S160000x32_0_1 : (⟨S1x32, .f32⟩ : BufTy).Contents (Elt F) → (⟨S160000x32, .f32⟩ : BufTy).Contents (Elt F)),
    binary main_v180 main_v185 main_v186 (mulf : (⟨S160000x32, .f32⟩ : BufTy).Contents (Elt F) → (⟨S160000x32, .f32⟩ : BufTy).Contents (Elt F) → (⟨S160000x32, .f32⟩ : BufTy).Contents (Elt F)),
    unary main_v171 main_v187 (broadcastInDim S1x32 ![1] bcast_S32_S1x32_1 : (⟨S32, .f32⟩ : BufTy).Contents (Elt F) → (⟨S1x32, .f32⟩ : BufTy).Contents (Elt F)),
    unary main_v187 main_v188 (broadcastInDim S160000x32 ![0, 1] bcast_S1x32_S160000x32_0_1 : (⟨S1x32, .f32⟩ : BufTy).Contents (Elt F) → (⟨S160000x32, .f32⟩ : BufTy).Contents (Elt F)),
    binary main_v186 main_v188 main_v189 (mulf : (⟨S160000x32, .f32⟩ : BufTy).Contents (Elt F) → (⟨S160000x32, .f32⟩ : BufTy).Contents (Elt F) → (⟨S160000x32, .f32⟩ : BufTy).Contents (Elt F)),
    unary main_v173 main_v190 (broadcastInDim S1x32 ![1] bcast_S32_S1x32_1 : (⟨S32, .f32⟩ : BufTy).Contents (Elt F) → (⟨S1x32, .f32⟩ : BufTy).Contents (Elt F)),
    unary main_v190 main_v191 (broadcastInDim S160000x32 ![0, 1] bcast_S1x32_S160000x32_0_1 : (⟨S1x32, .f32⟩ : BufTy).Contents (Elt F) → (⟨S160000x32, .f32⟩ : BufTy).Contents (Elt F)),
    binary main_v189 main_v191 main_v192 (addf : (⟨S160000x32, .f32⟩ : BufTy).Contents (Elt F) → (⟨S160000x32, .f32⟩ : BufTy).Contents (Elt F) → (⟨S160000x32, .f32⟩ : BufTy).Contents (Elt F)) ]

/-- @main's statements 223 … 336 (counted from 0, a call one statement), each call's operations in place: 135 operations. -/
abbrev opsL2 : List (HloOp τ sig (Elt F)) :=
  [ unary main_arg5 main_v193 ((extractStridedSlice S1x50x32 ![2, 0, 0] · slices_S5x50x32_S1x50x32_2_0_0) : (⟨S5x50x32, .f32⟩ : BufTy).Contents (Elt F) → (⟨S1x50x32, .f32⟩ : BufTy).Contents (Elt F)),
    reshape main_v193 main_v194 rfl shapeCasts_S1x50x32_S50x32,
    nullary main_c_28 (constantI S_ 32 0#32),
    unary main_c_28 main_v195 (broadcastInDim S160000x2 ![] bcast_S_S160000x2 : (⟨S_, .i32⟩ : BufTy).Contents (Elt F) → (⟨S160000x2, .i32⟩ : BufTy).Contents (Elt F)),
    binary main_arg0 main_v195 main_v196 (cmpi .slt : (⟨S160000x2, .i32⟩ : BufTy).Contents (Elt F) → (⟨S160000x2, .i32⟩ : BufTy).Contents (Elt F) → (⟨S160000x2, .i1⟩ : BufTy).Contents (Elt F)),
    nullary main_c_29 (constantI S_ 32 50#32),
    unary main_c_29 main_v197 (broadcastInDim S160000x2 ![] bcast_S_S160000x2 : (⟨S_, .i32⟩ : BufTy).Contents (Elt F) → (⟨S160000x2, .i32⟩ : BufTy).Contents (Elt F)),
    binary main_arg0 main_v197 main_v198 (addi : (⟨S160000x2, .i32⟩ : BufTy).Contents (Elt F) → (⟨S160000x2, .i32⟩ : BufTy).Contents (Elt F) → (⟨S160000x2, .i32⟩ : BufTy).Contents (Elt F)),
    ternary main_v196 main_v198 main_arg0 main_v199 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v199 main_v200 (broadcastInDim S160000x2x1 ![0, 1] bcast_S160000x2_S160000x2x1_0_1 : (⟨S160000x2, .i32⟩ : BufTy).Contents (Elt F) → (⟨S160000x2x1, .i32⟩ : BufTy).Contents (Elt F)),
    binary main_v194 main_v200 main_v201 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_30 (constant S_ .f32 0x00000000#32),
    binary main_v201 main_cst_30 main_v202 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v192 main_v202 main_v203 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v204 ((extractStridedSlice S1x64x32 ![2, 0, 0] · slices_S5x64x32_S1x64x32_2_0_0) : (⟨S5x64x32, .f32⟩ : BufTy).Contents (Elt F) → (⟨S1x64x32, .f32⟩ : BufTy).Contents (Elt F)),
    reshape main_v204 main_v205 rfl shapeCasts_S1x64x32_S64x32,
    binary main_v203 main_v205 main_v206 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v207 ((extractStridedSlice S1x32 ![2, 0] · slices_S5x32_S1x32_2_0) : (⟨S5x32, .f32⟩ : BufTy).Contents (Elt F) → (⟨S1x32, .f32⟩ : BufTy).Contents (Elt F)),
    reshape main_v207 main_v208 rfl shapeCasts_S1x32_S32,
    unary main_v208 main_v209 (broadcastInDim S1x32 ![1] bcast_S32_S1x32_1 : (⟨S32, .f32⟩ : BufTy).Contents (Elt F) → (⟨S1x32, .f32⟩ : BufTy).Contents (Elt F)),
    unary main_v209 main_v210 (broadcastInDim S160000x32 ![0, 1] bcast_S1x32_S160000x32_0_1 : (⟨S1x32, .f32⟩ : BufTy).Contents (Elt F) → (⟨S160000x32, .f32⟩ : BufTy).Contents (Elt F)),
    binary main_v206 main_v210 main_v211 (addf : (⟨S160000x32, .f32⟩ : BufTy).Contents (Elt F) → (⟨S160000x32, .f32⟩ : BufTy).Contents (Elt F) → (⟨S160000x32, .f32⟩ : BufTy).Contents (Elt F)),
    unary main_arg8 main_v212 ((extractStridedSlice S1x32x32 ![2, 0, 0] · slices_S5x32x32_S1x32x32_2_0_0) : (⟨S5x32x32, .f32⟩ : BufTy).Contents (Elt F) → (⟨S1x32x32, .f32⟩ : BufTy).Contents (Elt F)),
    reshape main_v212 main_v213 rfl shapeCasts_S1x32x32_S32x32,
    binary main_v211 main_v213 main_v214 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_31 (constantI S_ 32 0#32),
    unary main_c_31 main_v215 (broadcastInDim S2560000 ![] bcast_S_S2560000 : (⟨S_, .i32⟩ : BufTy).Contents (Elt F) → (⟨S2560000, .i32⟩ : BufTy).Contents (Elt F)),
    binary main_v1 main_v215 main_v216 (cmpi .slt : (⟨S2560000, .i32⟩ : BufTy).Contents (Elt F) → (⟨S2560000, .i32⟩ : BufTy).Contents (Elt F) → (⟨S2560000, .i1⟩ : BufTy).Contents (Elt F)),
    nullary main_c_32 (constantI S_ 32 160000#32),
    unary main_c_32 main_v217 (broadcastInDim S2560000 ![] bcast_S_S2560000 : (⟨S_, .i32⟩ : BufTy).Contents (Elt F) → (⟨S2560000, .i32⟩ : BufTy).Contents (Elt F)),
    binary main_v1 main_v217 main_v218 (addi : (⟨S2560000, .i32⟩ : BufTy).Contents (Elt F) → (⟨S2560000, .i32⟩ : BufTy).Contents (Elt F) → (⟨S2560000, .i32⟩ : BufTy).Contents (Elt F)),
    ternary main_v216 main_v218 main_v1 main_v219 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v219 main_v220 (broadcastInDim S2560000x1 ![0] bcast_S2560000_S2560000x1_0 : (⟨S2560000, .i32⟩ : BufTy).Contents (Elt F) → (⟨S2560000x1, .i32⟩ : BufTy).Contents (Elt F)),
    binary main_v214 main_v220 main_v221 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_33 (constant S_ .f32 0x00000000#32),
    unary main_cst_33 main_v222 (broadcastInDim S160000x32 ![] bcast_S_S160000x32 : (⟨S_, .f32⟩ : BufTy).Contents (Elt F) → (⟨S160000x32, .f32⟩ : BufTy).Contents (Elt F)),
    unary main_v3 main_v223 (broadcastInDim S2560000x1 ![0] bcast_S2560000_S2560000x1_0 : (⟨S2560000, .i32⟩ : BufTy).Contents (Elt F) → (⟨S2560000x1, .i32⟩ : BufTy).Contents (Elt F)),
    ternary main_v222 main_v223 main_v221 main_v224 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v225 ((extractStridedSlice S1x32x96 ![2, 0, 0] · slices_S5x32x96_S1x32x96_2_0_0) : (⟨S5x32x96, .f32⟩ : BufTy).Contents (Elt F) → (⟨S1x32x96, .f32⟩ : BufTy).Contents (Elt F)),
    reshape main_v225 main_v226 rfl shapeCasts_S1x32x96_S32x96,
    binary main_v224 main_v226 main_v227 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v228 ((extractStridedSlice S1x96 ![2, 0] · slices_S5x96_S1x96_2_0) : (⟨S5x96, .f32⟩ : BufTy).Contents (Elt F) → (⟨S1x96, .f32⟩ : BufTy).Contents (Elt F)),
    reshape main_v228 main_v229 rfl shapeCasts_S1x96_S96,
    unary main_v229 main_v230 (broadcastInDim S1x96 ![1] bcast_S96_S1x96_1 : (⟨S96, .f32⟩ : BufTy).Contents (Elt F) → (⟨S1x96, .f32⟩ : BufTy).Contents (Elt F)),
    unary main_v230 main_v231 (broadcastInDim S160000x96 ![0, 1] bcast_S1x96_S160000x96_0_1 : (⟨S1x96, .f32⟩ : BufTy).Contents (Elt F) → (⟨S160000x96, .f32⟩ : BufTy).Contents (Elt F)),
    binary main_v227 main_v231 main_v232 (addf : (⟨S160000x96, .f32⟩ : BufTy).Contents (Elt F) → (⟨S160000x96, .f32⟩ : BufTy).Contents (Elt F) → (⟨S160000x96, .f32⟩ : BufTy).Contents (Elt F)),
    unary main_arg10 main_v233 ((extractStridedSlice S1x32x96 ![2, 0, 0] · slices_S5x32x96_S1x32x96_2_0_0) : (⟨S5x32x96, .f32⟩ : BufTy).Contents (Elt F) → (⟨S1x32x96, .f32⟩ : BufTy).Contents (Elt F)),
    reshape main_v233 main_v234 rfl shapeCasts_S1x32x96_S32x96,
    binary main_v211 main_v234 main_v235 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v236 ((extractStridedSlice S1x96 ![2, 0] · slices_S5x96_S1x96_2_0) : (⟨S5x96, .f32⟩ : BufTy).Contents (Elt F) → (⟨S1x96, .f32⟩ : BufTy).Contents (Elt F)),
    reshape main_v236 main_v237 rfl shapeCasts_S1x96_S96,
    unary main_v237 main_v238 (broadcastInDim S1x96 ![1] bcast_S96_S1x96_1 : (⟨S96, .f32⟩ : BufTy).Contents (Elt F) → (⟨S1x96, .f32⟩ : BufTy).Contents (Elt F)),
    unary main_v238 main_v239 (broadcastInDim S160000x96 ![0, 1] bcast_S1x96_S160000x96_0_1 : (⟨S1x96, .f32⟩ : BufTy).Contents (Elt F) → (⟨S160000x96, .f32⟩ : BufTy).Contents (Elt F)),
    binary main_v235 main_v239 main_v240 (addf : (⟨S160000x96, .f32⟩ : BufTy).Contents (Elt F) → (⟨S160000x96, .f32⟩ : BufTy).Contents (Elt F) → (⟨S160000x96, .f32⟩ : BufTy).Contents (Elt F)),
    unary main_v232 main_v241 ((extractStridedSlice S160000x32 ![0, 0] · slices_S160000x96_S160000x32_0_0) : (⟨S160000x96, .f32⟩ : BufTy).Contents (Elt F) → (⟨S160000x32, .f32⟩ : BufTy).Contents (Elt F)),
    unary main_v232 main_v242 ((extractStridedSlice S160000x32 ![0, 32] · slices_S160000x96_S160000x32_0_32) : (⟨S160000x96, .f32⟩ : BufTy).Contents (Elt F) → (⟨S160000x32, .f32⟩ : BufTy).Contents (Elt F)),
    unary main_v232 main_v243 ((extractStridedSlice S160000x32 ![0, 64] · slices_S160000x96_S160000x32_0_64) : (⟨S160000x96, .f32⟩ : BufTy).Contents (Elt F) → (⟨S160000x32, .f32⟩ : BufTy).Contents (Elt F)),
    unary main_v240 main_v244 ((extractStridedSlice S160000x32 ![0, 0] · slices_S160000x96_S160000x32_0_0) : (⟨S160000x96, .f32⟩ : BufTy).Contents (Elt F) → (⟨S160000x32, .f32⟩ : BufTy).Contents (Elt F)),
    unary main_v240 main_v245 ((extractStridedSlice S160000x32 ![0, 32] · slices_S160000x96_S160000x32_0_32) : (⟨S160000x96, .f32⟩ : BufTy).Contents (Elt F) → (⟨S160000x32, .f32⟩ : BufTy).Contents (Elt F)),
    unary main_v240 main_v246 ((extractStridedSlice S160000x32 ![0, 64] · slices_S160000x96_S160000x32_0_64) : (⟨S160000x96, .f32⟩ : BufTy).Contents (Elt F) → (⟨S160000x32, .f32⟩ : BufTy).Contents (Elt F)),
    binary main_v241 main_v244 main_v247 (addf : (⟨S160000x32, .f32⟩ : BufTy).Contents (Elt F) → (⟨S160000x32, .f32⟩ : BufTy).Contents (Elt F) → (⟨S160000x32, .f32⟩ : BufTy).Contents (Elt F)),
    unary main_v247 main_v248 (Host.negf : (⟨S160000x32, .f32⟩ : BufTy).Contents (Elt F) → (⟨S160000x32, .f32⟩ : BufTy).Contents (Elt F)),
    unary main_v248 main_v249 (Host.exp : (⟨S160000x32, .f32⟩ : BufTy).Contents (Elt F) → (⟨S160000x32, .f32⟩ : BufTy).Contents (Elt F)),
    nullary main_cst_34 (constant S_ .f32 0x3F800000#32),
    unary main_cst_34 main_v250 (broadcastInDim S160000x32 ![] bcast_S_S160000x32 : (⟨S_, .f32⟩ : BufTy).Contents (Elt F) → (⟨S160000x32, .f32⟩ : BufTy).Contents (Elt F)),
    binary main_v250 main_v249 main_v251 (addf : (⟨S160000x32, .f32⟩ : BufTy).Contents (Elt F) → (⟨S160000x32, .f32⟩ : BufTy).Contents (Elt F) → (⟨S160000x32, .f32⟩ : BufTy).Contents (Elt F)),
    nullary main_cst_35 (constant S_ .f32 0x3F800000#32),
    unary main_cst_35 main_v252 (broadcastInDim S160000x32 ![] bcast_S_S160000x32 : (⟨S_, .f32⟩ : BufTy).Contents (Elt F) → (⟨S160000x32, .f32⟩ : BufTy).Contents (Elt F)),
    binary main_v252 main_v251 main_v253 (Host.divf : (⟨S160000x32, .f32⟩ : BufTy).Contents (Elt F) → (⟨S160000x32, .f32⟩ : BufTy).Contents (Elt F) → (⟨S160000x32, .f32⟩ : BufTy).Contents (Elt F)),
    binary main_v242 main_v245 main_v254 (addf : (⟨S160000x32, .f32⟩ : BufTy).Contents (Elt F) → (⟨S160000x32, .f32⟩ : BufTy).Contents (Elt F) → (⟨S160000x32, .f32⟩ : BufTy).Contents (Elt F)),
    unary main_v254 main_v255 (Host.negf : (⟨S160000x32, .f32⟩ : BufTy).Contents (Elt F) → (⟨S160000x32, .f32⟩ : BufTy).Contents (Elt F)),
    unary main_v255 main_v256 (Host.exp : (⟨S160000x32, .f32⟩ : BufTy).Contents (Elt F) → (⟨S160000x32, .f32⟩ : BufTy).Contents (Elt F)),
    nullary main_cst_36 (constant S_ .f32 0x3F800000#32),
    unary main_cst_36 main_v257 (broadcastInDim S160000x32 ![] bcast_S_S160000x32 : (⟨S_, .f32⟩ : BufTy).Contents (Elt F) → (⟨S160000x32, .f32⟩ : BufTy).Contents (Elt F)),
    binary main_v257 main_v256 main_v258 (addf : (⟨S160000x32, .f32⟩ : BufTy).Contents (Elt F) → (⟨S160000x32, .f32⟩ : BufTy).Contents (Elt F) → (⟨S160000x32, .f32⟩ : BufTy).Contents (Elt F)),
    nullary main_cst_37 (constant S_ .f32 0x3F800000#32),
    unary main_cst_37 main_v259 (broadcastInDim S160000x32 ![] bcast_S_S160000x32 : (⟨S_, .f32⟩ : BufTy).Contents (Elt F) → (⟨S160000x32, .f32⟩ : BufTy).Contents (Elt F)),
    binary main_v259 main_v258 main_v260 (Host.divf : (⟨S160000x32, .f32⟩ : BufTy).Contents (Elt F) → (⟨S160000x32, .f32⟩ : BufTy).Contents (Elt F) → (⟨S160000x32, .f32⟩ : BufTy).Contents (Elt F)),
    binary main_v253 main_v246 main_v261 (mulf : (⟨S160000x32, .f32⟩ : BufTy).Contents (Elt F) → (⟨S160000x32, .f32⟩ : BufTy).Contents (Elt F) → (⟨S160000x32, .f32⟩ : BufTy).Contents (Elt F)),
    binary main_v243 main_v261 main_v262 (addf : (⟨S160000x32, .f32⟩ : BufTy).Contents (Elt F) → (⟨S160000x32, .f32⟩ : BufTy).Contents (Elt F) → (⟨S160000x32, .f32⟩ : BufTy).Contents (Elt F)),
    unary main_v262 main_v263 (Host.tanh : (⟨S160000x32, .f32⟩ : BufTy).Contents (Elt F) → (⟨S160000x32, .f32⟩ : BufTy).Contents (Elt F)),
    nullary main_cst_38 (constant S_ .f32 0x3F800000#32),
    unary main_cst_38 main_v264 (broadcastInDim S160000x32 ![] bcast_S_S160000x32 : (⟨S_, .f32⟩ : BufTy).Contents (Elt F) → (⟨S160000x32, .f32⟩ : BufTy).Contents (Elt F)),
    binary main_v264 main_v260 main_v265 (subf : (⟨S160000x32, .f32⟩ : BufTy).Contents (Elt F) → (⟨S160000x32, .f32⟩ : BufTy).Contents (Elt F) → (⟨S160000x32, .f32⟩ : BufTy).Contents (Elt F)),
    binary main_v265 main_v263 main_v266 (mulf : (⟨S160000x32, .f32⟩ : BufTy).Contents (Elt F) → (⟨S160000x32, .f32⟩ : BufTy).Contents (Elt F) → (⟨S160000x32, .f32⟩ : BufTy).Contents (Elt F)),
    binary main_v260 main_v211 main_v267 (mulf : (⟨S160000x32, .f32⟩ : BufTy).Contents (Elt F) → (⟨S160000x32, .f32⟩ : BufTy).Contents (Elt F) → (⟨S160000x32, .f32⟩ : BufTy).Contents (Elt F)),
    binary main_v266 main_v267 main_v268 (addf : (⟨S160000x32, .f32⟩ : BufTy).Contents (Elt F) → (⟨S160000x32, .f32⟩ : BufTy).Contents (Elt F) → (⟨S160000x32, .f32⟩ : BufTy).Contents (Elt F)),
    unary main_arg13 main_v269 ((extractStridedSlice S1x32 ![2, 0] · slices_S5x32_S1x32_2_0) : (⟨S5x32, .f32⟩ : BufTy).Contents (Elt F) → (⟨S1x32, .f32⟩ : BufTy).Contents (Elt F)),
    reshape main_v269 main_v270 rfl shapeCasts_S1x32_S32,
    unary main_arg14 main_v271 ((extractStridedSlice S1x32 ![2, 0] · slices_S5x32_S1x32_2_0) : (⟨S5x32, .f32⟩ : BufTy).Contents (Elt F) → (⟨S1x32, .f32⟩ : BufTy).Contents (Elt F)),
    reshape main_v271 main_v272 rfl shapeCasts_S1x32_S32,
    nullary main_cst_39 (constant S_ .f32 0x00000000#32),
    binary main_v268 main_cst_39 main_v273 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_40 (constant S_ .f32 0x481C4000#32),
    unary main_cst_40 main_v274 (broadcastInDim S32 ![] bcast_S_S32 : (⟨S_, .f32⟩ : BufTy).Contents (Elt F) → (⟨S32, .f32⟩ : BufTy).Contents (Elt F)),
    binary main_v273 main_v274 main_v275 (Host.divf : (⟨S32, .f32⟩ : BufTy).Contents (Elt F) → (⟨S32, .f32⟩ : BufTy).Contents (Elt F) → (⟨S32, .f32⟩ : BufTy).Contents (Elt F)),
    nullary main_c_41 (constantI S_ 32 0#32),
    TRef.nullary main_call2.cst (constant S_ .f32 0x00000000#32),
    TRef.binary (.of main_v268) main_call2.cst main_call2.v0 (fun x v => Host.reduceAdd x v reducesTo_S160000x32_S32_d0 h_S_),
    TRef.unary main_call2.v0 main_call2.v1 (broadcastInDim S1x32 ![1] bcast_S32_S1x32_1),
    TRef.nullary main_call2.cst_0 (constant S_ .f32 0x481C4000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S160000x32 ![0, 1] bcast_S1x32_S160000x32_0_1),
    TRef.binary (.of main_v268) main_call2.v4 main_call2.v5 subf,
    TRef.binary main_call2.v5 main_call2.v5 main_call2.v6 mulf,
    TRef.unary (.of main_c_41) main_call2.v7 (sitofp .f32),
    TRef.nullary main_call2.cst_1 (constant S_ .f32 0x481C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S160000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b),
    unary main_v275 main_v277 (broadcastInDim S1x32 ![1] bcast_S32_S1x32_1 : (⟨S32, .f32⟩ : BufTy).Contents (Elt F) → (⟨S1x32, .f32⟩ : BufTy).Contents (Elt F)),
    unary main_v277 main_v278 (broadcastInDim S160000x32 ![0, 1] bcast_S1x32_S160000x32_0_1 : (⟨S1x32, .f32⟩ : BufTy).Contents (Elt F) → (⟨S160000x32, .f32⟩ : BufTy).Contents (Elt F)),
    binary main_v268 main_v278 main_v279 (subf : (⟨S160000x32, .f32⟩ : BufTy).Contents (Elt F) → (⟨S160000x32, .f32⟩ : BufTy).Contents (Elt F) → (⟨S160000x32, .f32⟩ : BufTy).Contents (Elt F)),
    nullary main_cst_42 (constant S_ .f32 0x3727C5AC#32),
    unary main_cst_42 main_v280 (broadcastInDim S32 ![] bcast_S_S32 : (⟨S_, .f32⟩ : BufTy).Contents (Elt F) → (⟨S32, .f32⟩ : BufTy).Contents (Elt F)),
    binary main_v276 main_v280 main_v281 (addf : (⟨S32, .f32⟩ : BufTy).Contents (Elt F) → (⟨S32, .f32⟩ : BufTy).Contents (Elt F) → (⟨S32, .f32⟩ : BufTy).Contents (Elt F)),
    unary main_v281 main_v282 (Host.rsqrt : (⟨S32, .f32⟩ : BufTy).Contents (Elt F) → (⟨S32, .f32⟩ : BufTy).Contents (Elt F)),
    unary main_v282 main_v283 (broadcastInDim S1x32 ![1] bcast_S32_S1x32_1 : (⟨S32, .f32⟩ : BufTy).Contents (Elt F) → (⟨S1x32, .f32⟩ : BufTy).Contents (Elt F)),
    unary main_v283 main_v284 (broadcastInDim S160000x32 ![0, 1] bcast_S1x32_S160000x32_0_1 : (⟨S1x32, .f32⟩ : BufTy).Contents (Elt F) → (⟨S160000x32, .f32⟩ : BufTy).Contents (Elt F)),
    binary main_v279 main_v284 main_v285 (mulf : (⟨S160000x32, .f32⟩ : BufTy).Contents (Elt F) → (⟨S160000x32, .f32⟩ : BufTy).Contents (Elt F) → (⟨S160000x32, .f32⟩ : BufTy).Contents (Elt F)),
    unary main_v270 main_v286 (broadcastInDim S1x32 ![1] bcast_S32_S1x32_1 : (⟨S32, .f32⟩ : BufTy).Contents (Elt F) → (⟨S1x32, .f32⟩ : BufTy).Contents (Elt F)),
    unary main_v286 main_v287 (broadcastInDim S160000x32 ![0, 1] bcast_S1x32_S160000x32_0_1 : (⟨S1x32, .f32⟩ : BufTy).Contents (Elt F) → (⟨S160000x32, .f32⟩ : BufTy).Contents (Elt F)),
    binary main_v285 main_v287 main_v288 (mulf : (⟨S160000x32, .f32⟩ : BufTy).Contents (Elt F) → (⟨S160000x32, .f32⟩ : BufTy).Contents (Elt F) → (⟨S160000x32, .f32⟩ : BufTy).Contents (Elt F)),
    unary main_v272 main_v289 (broadcastInDim S1x32 ![1] bcast_S32_S1x32_1 : (⟨S32, .f32⟩ : BufTy).Contents (Elt F) → (⟨S1x32, .f32⟩ : BufTy).Contents (Elt F)),
    unary main_v289 main_v290 (broadcastInDim S160000x32 ![0, 1] bcast_S1x32_S160000x32_0_1 : (⟨S1x32, .f32⟩ : BufTy).Contents (Elt F) → (⟨S160000x32, .f32⟩ : BufTy).Contents (Elt F)),
    binary main_v288 main_v290 main_v291 (addf : (⟨S160000x32, .f32⟩ : BufTy).Contents (Elt F) → (⟨S160000x32, .f32⟩ : BufTy).Contents (Elt F) → (⟨S160000x32, .f32⟩ : BufTy).Contents (Elt F)) ]

/-- @main's statements 337 … 450 (counted from 0, a call one statement), each call's operations in place: 135 operations. -/
abbrev opsL3 : List (HloOp τ sig (Elt F)) :=
  [ unary main_arg5 main_v292 ((extractStridedSlice S1x50x32 ![3, 0, 0] · slices_S5x50x32_S1x50x32_3_0_0) : (⟨S5x50x32, .f32⟩ : BufTy).Contents (Elt F) → (⟨S1x50x32, .f32⟩ : BufTy).Contents (Elt F)),
    reshape main_v292 main_v293 rfl shapeCasts_S1x50x32_S50x32,
    nullary main_c_43 (constantI S_ 32 0#32),
    unary main_c_43 main_v294 (broadcastInDim S160000x2 ![] bcast_S_S160000x2 : (⟨S_, .i32⟩ : BufTy).Contents (Elt F) → (⟨S160000x2, .i32⟩ : BufTy).Contents (Elt F)),
    binary main_arg0 main_v294 main_v295 (cmpi .slt : (⟨S160000x2, .i32⟩ : BufTy).Contents (Elt F) → (⟨S160000x2, .i32⟩ : BufTy).Contents (Elt F) → (⟨S160000x2, .i1⟩ : BufTy).Contents (Elt F)),
    nullary main_c_44 (constantI S_ 32 50#32),
    unary main_c_44 main_v296 (broadcastInDim S160000x2 ![] bcast_S_S160000x2 : (⟨S_, .i32⟩ : BufTy).Contents (Elt F) → (⟨S160000x2, .i32⟩ : BufTy).Contents (Elt F)),
    binary main_arg0 main_v296 main_v297 (addi : (⟨S160000x2, .i32⟩ : BufTy).Contents (Elt F) → (⟨S160000x2, .i32⟩ : BufTy).Contents (Elt F) → (⟨S160000x2, .i32⟩ : BufTy).Contents (Elt F)),
    ternary main_v295 main_v297 main_arg0 main_v298 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v298 main_v299 (broadcastInDim S160000x2x1 ![0, 1] bcast_S160000x2_S160000x2x1_0_1 : (⟨S160000x2, .i32⟩ : BufTy).Contents (Elt F) → (⟨S160000x2x1, .i32⟩ : BufTy).Contents (Elt F)),
    binary main_v293 main_v299 main_v300 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_45 (constant S_ .f32 0x00000000#32),
    binary main_v300 main_cst_45 main_v301 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v291 main_v301 main_v302 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v303 ((extractStridedSlice S1x64x32 ![3, 0, 0] · slices_S5x64x32_S1x64x32_3_0_0) : (⟨S5x64x32, .f32⟩ : BufTy).Contents (Elt F) → (⟨S1x64x32, .f32⟩ : BufTy).Contents (Elt F)),
    reshape main_v303 main_v304 rfl shapeCasts_S1x64x32_S64x32,
    binary main_v302 main_v304 main_v305 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v306 ((extractStridedSlice S1x32 ![3, 0] · slices_S5x32_S1x32_3_0) : (⟨S5x32, .f32⟩ : BufTy).Contents (Elt F) → (⟨S1x32, .f32⟩ : BufTy).Contents (Elt F)),
    reshape main_v306 main_v307 rfl shapeCasts_S1x32_S32,
    unary main_v307 main_v308 (broadcastInDim S1x32 ![1] bcast_S32_S1x32_1 : (⟨S32, .f32⟩ : BufTy).Contents (Elt F) → (⟨S1x32, .f32⟩ : BufTy).Contents (Elt F)),
    unary main_v308 main_v309 (broadcastInDim S160000x32 ![0, 1] bcast_S1x32_S160000x32_0_1 : (⟨S1x32, .f32⟩ : BufTy).Contents (Elt F) → (⟨S160000x32, .f32⟩ : BufTy).Contents (Elt F)),
    binary main_v305 main_v309 main_v310 (addf : (⟨S160000x32, .f32⟩ : BufTy).Contents (Elt F) → (⟨S160000x32, .f32⟩ : BufTy).Contents (Elt F) → (⟨S160000x32, .f32⟩ : BufTy).Contents (Elt F)),
    unary main_arg8 main_v311 ((extractStridedSlice S1x32x32 ![3, 0, 0] · slices_S5x32x32_S1x32x32_3_0_0) : (⟨S5x32x32, .f32⟩ : BufTy).Contents (Elt F) → (⟨S1x32x32, .f32⟩ : BufTy).Contents (Elt F)),
    reshape main_v311 main_v312 rfl shapeCasts_S1x32x32_S32x32,
    binary main_v310 main_v312 main_v313 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_46 (constantI S_ 32 0#32),
    unary main_c_46 main_v314 (broadcastInDim S2560000 ![] bcast_S_S2560000 : (⟨S_, .i32⟩ : BufTy).Contents (Elt F) → (⟨S2560000, .i32⟩ : BufTy).Contents (Elt F)),
    binary main_v1 main_v314 main_v315 (cmpi .slt : (⟨S2560000, .i32⟩ : BufTy).Contents (Elt F) → (⟨S2560000, .i32⟩ : BufTy).Contents (Elt F) → (⟨S2560000, .i1⟩ : BufTy).Contents (Elt F)),
    nullary main_c_47 (constantI S_ 32 160000#32),
    unary main_c_47 main_v316 (broadcastInDim S2560000 ![] bcast_S_S2560000 : (⟨S_, .i32⟩ : BufTy).Contents (Elt F) → (⟨S2560000, .i32⟩ : BufTy).Contents (Elt F)),
    binary main_v1 main_v316 main_v317 (addi : (⟨S2560000, .i32⟩ : BufTy).Contents (Elt F) → (⟨S2560000, .i32⟩ : BufTy).Contents (Elt F) → (⟨S2560000, .i32⟩ : BufTy).Contents (Elt F)),
    ternary main_v315 main_v317 main_v1 main_v318 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v318 main_v319 (broadcastInDim S2560000x1 ![0] bcast_S2560000_S2560000x1_0 : (⟨S2560000, .i32⟩ : BufTy).Contents (Elt F) → (⟨S2560000x1, .i32⟩ : BufTy).Contents (Elt F)),
    binary main_v313 main_v319 main_v320 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_48 (constant S_ .f32 0x00000000#32),
    unary main_cst_48 main_v321 (broadcastInDim S160000x32 ![] bcast_S_S160000x32 : (⟨S_, .f32⟩ : BufTy).Contents (Elt F) → (⟨S160000x32, .f32⟩ : BufTy).Contents (Elt F)),
    unary main_v3 main_v322 (broadcastInDim S2560000x1 ![0] bcast_S2560000_S2560000x1_0 : (⟨S2560000, .i32⟩ : BufTy).Contents (Elt F) → (⟨S2560000x1, .i32⟩ : BufTy).Contents (Elt F)),
    ternary main_v321 main_v322 main_v320 main_v323 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v324 ((extractStridedSlice S1x32x96 ![3, 0, 0] · slices_S5x32x96_S1x32x96_3_0_0) : (⟨S5x32x96, .f32⟩ : BufTy).Contents (Elt F) → (⟨S1x32x96, .f32⟩ : BufTy).Contents (Elt F)),
    reshape main_v324 main_v325 rfl shapeCasts_S1x32x96_S32x96,
    binary main_v323 main_v325 main_v326 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v327 ((extractStridedSlice S1x96 ![3, 0] · slices_S5x96_S1x96_3_0) : (⟨S5x96, .f32⟩ : BufTy).Contents (Elt F) → (⟨S1x96, .f32⟩ : BufTy).Contents (Elt F)),
    reshape main_v327 main_v328 rfl shapeCasts_S1x96_S96,
    unary main_v328 main_v329 (broadcastInDim S1x96 ![1] bcast_S96_S1x96_1 : (⟨S96, .f32⟩ : BufTy).Contents (Elt F) → (⟨S1x96, .f32⟩ : BufTy).Contents (Elt F)),
    unary main_v329 main_v330 (broadcastInDim S160000x96 ![0, 1] bcast_S1x96_S160000x96_0_1 : (⟨S1x96, .f32⟩ : BufTy).Contents (Elt F) → (⟨S160000x96, .f32⟩ : BufTy).Contents (Elt F)),
    binary main_v326 main_v330 main_v331 (addf : (⟨S160000x96, .f32⟩ : BufTy).Contents (Elt F) → (⟨S160000x96, .f32⟩ : BufTy).Contents (Elt F) → (⟨S160000x96, .f32⟩ : BufTy).Contents (Elt F)),
    unary main_arg10 main_v332 ((extractStridedSlice S1x32x96 ![3, 0, 0] · slices_S5x32x96_S1x32x96_3_0_0) : (⟨S5x32x96, .f32⟩ : BufTy).Contents (Elt F) → (⟨S1x32x96, .f32⟩ : BufTy).Contents (Elt F)),
    reshape main_v332 main_v333 rfl shapeCasts_S1x32x96_S32x96,
    binary main_v310 main_v333 main_v334 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v335 ((extractStridedSlice S1x96 ![3, 0] · slices_S5x96_S1x96_3_0) : (⟨S5x96, .f32⟩ : BufTy).Contents (Elt F) → (⟨S1x96, .f32⟩ : BufTy).Contents (Elt F)),
    reshape main_v335 main_v336 rfl shapeCasts_S1x96_S96,
    unary main_v336 main_v337 (broadcastInDim S1x96 ![1] bcast_S96_S1x96_1 : (⟨S96, .f32⟩ : BufTy).Contents (Elt F) → (⟨S1x96, .f32⟩ : BufTy).Contents (Elt F)),
    unary main_v337 main_v338 (broadcastInDim S160000x96 ![0, 1] bcast_S1x96_S160000x96_0_1 : (⟨S1x96, .f32⟩ : BufTy).Contents (Elt F) → (⟨S160000x96, .f32⟩ : BufTy).Contents (Elt F)),
    binary main_v334 main_v338 main_v339 (addf : (⟨S160000x96, .f32⟩ : BufTy).Contents (Elt F) → (⟨S160000x96, .f32⟩ : BufTy).Contents (Elt F) → (⟨S160000x96, .f32⟩ : BufTy).Contents (Elt F)),
    unary main_v331 main_v340 ((extractStridedSlice S160000x32 ![0, 0] · slices_S160000x96_S160000x32_0_0) : (⟨S160000x96, .f32⟩ : BufTy).Contents (Elt F) → (⟨S160000x32, .f32⟩ : BufTy).Contents (Elt F)),
    unary main_v331 main_v341 ((extractStridedSlice S160000x32 ![0, 32] · slices_S160000x96_S160000x32_0_32) : (⟨S160000x96, .f32⟩ : BufTy).Contents (Elt F) → (⟨S160000x32, .f32⟩ : BufTy).Contents (Elt F)),
    unary main_v331 main_v342 ((extractStridedSlice S160000x32 ![0, 64] · slices_S160000x96_S160000x32_0_64) : (⟨S160000x96, .f32⟩ : BufTy).Contents (Elt F) → (⟨S160000x32, .f32⟩ : BufTy).Contents (Elt F)),
    unary main_v339 main_v343 ((extractStridedSlice S160000x32 ![0, 0] · slices_S160000x96_S160000x32_0_0) : (⟨S160000x96, .f32⟩ : BufTy).Contents (Elt F) → (⟨S160000x32, .f32⟩ : BufTy).Contents (Elt F)),
    unary main_v339 main_v344 ((extractStridedSlice S160000x32 ![0, 32] · slices_S160000x96_S160000x32_0_32) : (⟨S160000x96, .f32⟩ : BufTy).Contents (Elt F) → (⟨S160000x32, .f32⟩ : BufTy).Contents (Elt F)),
    unary main_v339 main_v345 ((extractStridedSlice S160000x32 ![0, 64] · slices_S160000x96_S160000x32_0_64) : (⟨S160000x96, .f32⟩ : BufTy).Contents (Elt F) → (⟨S160000x32, .f32⟩ : BufTy).Contents (Elt F)),
    binary main_v340 main_v343 main_v346 (addf : (⟨S160000x32, .f32⟩ : BufTy).Contents (Elt F) → (⟨S160000x32, .f32⟩ : BufTy).Contents (Elt F) → (⟨S160000x32, .f32⟩ : BufTy).Contents (Elt F)),
    unary main_v346 main_v347 (Host.negf : (⟨S160000x32, .f32⟩ : BufTy).Contents (Elt F) → (⟨S160000x32, .f32⟩ : BufTy).Contents (Elt F)),
    unary main_v347 main_v348 (Host.exp : (⟨S160000x32, .f32⟩ : BufTy).Contents (Elt F) → (⟨S160000x32, .f32⟩ : BufTy).Contents (Elt F)),
    nullary main_cst_49 (constant S_ .f32 0x3F800000#32),
    unary main_cst_49 main_v349 (broadcastInDim S160000x32 ![] bcast_S_S160000x32 : (⟨S_, .f32⟩ : BufTy).Contents (Elt F) → (⟨S160000x32, .f32⟩ : BufTy).Contents (Elt F)),
    binary main_v349 main_v348 main_v350 (addf : (⟨S160000x32, .f32⟩ : BufTy).Contents (Elt F) → (⟨S160000x32, .f32⟩ : BufTy).Contents (Elt F) → (⟨S160000x32, .f32⟩ : BufTy).Contents (Elt F)),
    nullary main_cst_50 (constant S_ .f32 0x3F800000#32),
    unary main_cst_50 main_v351 (broadcastInDim S160000x32 ![] bcast_S_S160000x32 : (⟨S_, .f32⟩ : BufTy).Contents (Elt F) → (⟨S160000x32, .f32⟩ : BufTy).Contents (Elt F)),
    binary main_v351 main_v350 main_v352 (Host.divf : (⟨S160000x32, .f32⟩ : BufTy).Contents (Elt F) → (⟨S160000x32, .f32⟩ : BufTy).Contents (Elt F) → (⟨S160000x32, .f32⟩ : BufTy).Contents (Elt F)),
    binary main_v341 main_v344 main_v353 (addf : (⟨S160000x32, .f32⟩ : BufTy).Contents (Elt F) → (⟨S160000x32, .f32⟩ : BufTy).Contents (Elt F) → (⟨S160000x32, .f32⟩ : BufTy).Contents (Elt F)),
    unary main_v353 main_v354 (Host.negf : (⟨S160000x32, .f32⟩ : BufTy).Contents (Elt F) → (⟨S160000x32, .f32⟩ : BufTy).Contents (Elt F)),
    unary main_v354 main_v355 (Host.exp : (⟨S160000x32, .f32⟩ : BufTy).Contents (Elt F) → (⟨S160000x32, .f32⟩ : BufTy).Contents (Elt F)),
    nullary main_cst_51 (constant S_ .f32 0x3F800000#32),
    unary main_cst_51 main_v356 (broadcastInDim S160000x32 ![] bcast_S_S160000x32 : (⟨S_, .f32⟩ : BufTy).Contents (Elt F) → (⟨S160000x32, .f32⟩ : BufTy).Contents (Elt F)),
    binary main_v356 main_v355 main_v357 (addf : (⟨S160000x32, .f32⟩ : BufTy).Contents (Elt F) → (⟨S160000x32, .f32⟩ : BufTy).Contents (Elt F) → (⟨S160000x32, .f32⟩ : BufTy).Contents (Elt F)),
    nullary main_cst_52 (constant S_ .f32 0x3F800000#32),
    unary main_cst_52 main_v358 (broadcastInDim S160000x32 ![] bcast_S_S160000x32 : (⟨S_, .f32⟩ : BufTy).Contents (Elt F) → (⟨S160000x32, .f32⟩ : BufTy).Contents (Elt F)),
    binary main_v358 main_v357 main_v359 (Host.divf : (⟨S160000x32, .f32⟩ : BufTy).Contents (Elt F) → (⟨S160000x32, .f32⟩ : BufTy).Contents (Elt F) → (⟨S160000x32, .f32⟩ : BufTy).Contents (Elt F)),
    binary main_v352 main_v345 main_v360 (mulf : (⟨S160000x32, .f32⟩ : BufTy).Contents (Elt F) → (⟨S160000x32, .f32⟩ : BufTy).Contents (Elt F) → (⟨S160000x32, .f32⟩ : BufTy).Contents (Elt F)),
    binary main_v342 main_v360 main_v361 (addf : (⟨S160000x32, .f32⟩ : BufTy).Contents (Elt F) → (⟨S160000x32, .f32⟩ : BufTy).Contents (Elt F) → (⟨S160000x32, .f32⟩ : BufTy).Contents (Elt F)),
    unary main_v361 main_v362 (Host.tanh : (⟨S160000x32, .f32⟩ : BufTy).Contents (Elt F) → (⟨S160000x32, .f32⟩ : BufTy).Contents (Elt F)),
    nullary main_cst_53 (constant S_ .f32 0x3F800000#32),
    unary main_cst_53 main_v363 (broadcastInDim S160000x32 ![] bcast_S_S160000x32 : (⟨S_, .f32⟩ : BufTy).Contents (Elt F) → (⟨S160000x32, .f32⟩ : BufTy).Contents (Elt F)),
    binary main_v363 main_v359 main_v364 (subf : (⟨S160000x32, .f32⟩ : BufTy).Contents (Elt F) → (⟨S160000x32, .f32⟩ : BufTy).Contents (Elt F) → (⟨S160000x32, .f32⟩ : BufTy).Contents (Elt F)),
    binary main_v364 main_v362 main_v365 (mulf : (⟨S160000x32, .f32⟩ : BufTy).Contents (Elt F) → (⟨S160000x32, .f32⟩ : BufTy).Contents (Elt F) → (⟨S160000x32, .f32⟩ : BufTy).Contents (Elt F)),
    binary main_v359 main_v310 main_v366 (mulf : (⟨S160000x32, .f32⟩ : BufTy).Contents (Elt F) → (⟨S160000x32, .f32⟩ : BufTy).Contents (Elt F) → (⟨S160000x32, .f32⟩ : BufTy).Contents (Elt F)),
    binary main_v365 main_v366 main_v367 (addf : (⟨S160000x32, .f32⟩ : BufTy).Contents (Elt F) → (⟨S160000x32, .f32⟩ : BufTy).Contents (Elt F) → (⟨S160000x32, .f32⟩ : BufTy).Contents (Elt F)),
    unary main_arg13 main_v368 ((extractStridedSlice S1x32 ![3, 0] · slices_S5x32_S1x32_3_0) : (⟨S5x32, .f32⟩ : BufTy).Contents (Elt F) → (⟨S1x32, .f32⟩ : BufTy).Contents (Elt F)),
    reshape main_v368 main_v369 rfl shapeCasts_S1x32_S32,
    unary main_arg14 main_v370 ((extractStridedSlice S1x32 ![3, 0] · slices_S5x32_S1x32_3_0) : (⟨S5x32, .f32⟩ : BufTy).Contents (Elt F) → (⟨S1x32, .f32⟩ : BufTy).Contents (Elt F)),
    reshape main_v370 main_v371 rfl shapeCasts_S1x32_S32,
    nullary main_cst_54 (constant S_ .f32 0x00000000#32),
    binary main_v367 main_cst_54 main_v372 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_55 (constant S_ .f32 0x481C4000#32),
    unary main_cst_55 main_v373 (broadcastInDim S32 ![] bcast_S_S32 : (⟨S_, .f32⟩ : BufTy).Contents (Elt F) → (⟨S32, .f32⟩ : BufTy).Contents (Elt F)),
    binary main_v372 main_v373 main_v374 (Host.divf : (⟨S32, .f32⟩ : BufTy).Contents (Elt F) → (⟨S32, .f32⟩ : BufTy).Contents (Elt F) → (⟨S32, .f32⟩ : BufTy).Contents (Elt F)),
    nullary main_c_56 (constantI S_ 32 0#32),
    TRef.nullary main_call3.cst (constant S_ .f32 0x00000000#32),
    TRef.binary (.of main_v367) main_call3.cst main_call3.v0 (fun x v => Host.reduceAdd x v reducesTo_S160000x32_S32_d0 h_S_),
    TRef.unary main_call3.v0 main_call3.v1 (broadcastInDim S1x32 ![1] bcast_S32_S1x32_1),
    TRef.nullary main_call3.cst_0 (constant S_ .f32 0x481C4000#32),
    TRef.unary main_call3.cst_0 main_call3.v2 (broadcastInDim S1x32 ![] bcast_S_S1x32),
    TRef.binary main_call3.v1 main_call3.v2 main_call3.v3 Host.divf,
    TRef.unary main_call3.v3 main_call3.v4 (broadcastInDim S160000x32 ![0, 1] bcast_S1x32_S160000x32_0_1),
    TRef.binary (.of main_v367) main_call3.v4 main_call3.v5 subf,
    TRef.binary main_call3.v5 main_call3.v5 main_call3.v6 mulf,
    TRef.unary (.of main_c_56) main_call3.v7 (sitofp .f32),
    TRef.nullary main_call3.cst_1 (constant S_ .f32 0x481C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S160000x32_S32_d0 h_S_),
    TRef.unary main_call3.v8 main_call3.v10 (broadcastInDim S32 ![] bcast_S_S32),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S32 ![] bcast_S_S32),
    TRef.ternary main_call3.v12 main_call3.v11 main_call3.call0.v1 main_call3.call0.v2 (fun p a b => select (broadcastInDim S32 ![] bcast_S_S32 p) a b),
    unary main_v374 main_v376 (broadcastInDim S1x32 ![1] bcast_S32_S1x32_1 : (⟨S32, .f32⟩ : BufTy).Contents (Elt F) → (⟨S1x32, .f32⟩ : BufTy).Contents (Elt F)),
    unary main_v376 main_v377 (broadcastInDim S160000x32 ![0, 1] bcast_S1x32_S160000x32_0_1 : (⟨S1x32, .f32⟩ : BufTy).Contents (Elt F) → (⟨S160000x32, .f32⟩ : BufTy).Contents (Elt F)),
    binary main_v367 main_v377 main_v378 (subf : (⟨S160000x32, .f32⟩ : BufTy).Contents (Elt F) → (⟨S160000x32, .f32⟩ : BufTy).Contents (Elt F) → (⟨S160000x32, .f32⟩ : BufTy).Contents (Elt F)),
    nullary main_cst_57 (constant S_ .f32 0x3727C5AC#32),
    unary main_cst_57 main_v379 (broadcastInDim S32 ![] bcast_S_S32 : (⟨S_, .f32⟩ : BufTy).Contents (Elt F) → (⟨S32, .f32⟩ : BufTy).Contents (Elt F)),
    binary main_v375 main_v379 main_v380 (addf : (⟨S32, .f32⟩ : BufTy).Contents (Elt F) → (⟨S32, .f32⟩ : BufTy).Contents (Elt F) → (⟨S32, .f32⟩ : BufTy).Contents (Elt F)),
    unary main_v380 main_v381 (Host.rsqrt : (⟨S32, .f32⟩ : BufTy).Contents (Elt F) → (⟨S32, .f32⟩ : BufTy).Contents (Elt F)),
    unary main_v381 main_v382 (broadcastInDim S1x32 ![1] bcast_S32_S1x32_1 : (⟨S32, .f32⟩ : BufTy).Contents (Elt F) → (⟨S1x32, .f32⟩ : BufTy).Contents (Elt F)),
    unary main_v382 main_v383 (broadcastInDim S160000x32 ![0, 1] bcast_S1x32_S160000x32_0_1 : (⟨S1x32, .f32⟩ : BufTy).Contents (Elt F) → (⟨S160000x32, .f32⟩ : BufTy).Contents (Elt F)),
    binary main_v378 main_v383 main_v384 (mulf : (⟨S160000x32, .f32⟩ : BufTy).Contents (Elt F) → (⟨S160000x32, .f32⟩ : BufTy).Contents (Elt F) → (⟨S160000x32, .f32⟩ : BufTy).Contents (Elt F)),
    unary main_v369 main_v385 (broadcastInDim S1x32 ![1] bcast_S32_S1x32_1 : (⟨S32, .f32⟩ : BufTy).Contents (Elt F) → (⟨S1x32, .f32⟩ : BufTy).Contents (Elt F)),
    unary main_v385 main_v386 (broadcastInDim S160000x32 ![0, 1] bcast_S1x32_S160000x32_0_1 : (⟨S1x32, .f32⟩ : BufTy).Contents (Elt F) → (⟨S160000x32, .f32⟩ : BufTy).Contents (Elt F)),
    binary main_v384 main_v386 main_v387 (mulf : (⟨S160000x32, .f32⟩ : BufTy).Contents (Elt F) → (⟨S160000x32, .f32⟩ : BufTy).Contents (Elt F) → (⟨S160000x32, .f32⟩ : BufTy).Contents (Elt F)),
    unary main_v371 main_v388 (broadcastInDim S1x32 ![1] bcast_S32_S1x32_1 : (⟨S32, .f32⟩ : BufTy).Contents (Elt F) → (⟨S1x32, .f32⟩ : BufTy).Contents (Elt F)),
    unary main_v388 main_v389 (broadcastInDim S160000x32 ![0, 1] bcast_S1x32_S160000x32_0_1 : (⟨S1x32, .f32⟩ : BufTy).Contents (Elt F) → (⟨S160000x32, .f32⟩ : BufTy).Contents (Elt F)),
    binary main_v387 main_v389 main_v390 (addf : (⟨S160000x32, .f32⟩ : BufTy).Contents (Elt F) → (⟨S160000x32, .f32⟩ : BufTy).Contents (Elt F) → (⟨S160000x32, .f32⟩ : BufTy).Contents (Elt F)) ]

/-- @main's statements 451 … 564 (counted from 0, a call one statement), each call's operations in place: 135 operations. -/
abbrev opsL4 : List (HloOp τ sig (Elt F)) :=
  [ unary main_arg5 main_v391 ((extractStridedSlice S1x50x32 ![4, 0, 0] · slices_S5x50x32_S1x50x32_4_0_0) : (⟨S5x50x32, .f32⟩ : BufTy).Contents (Elt F) → (⟨S1x50x32, .f32⟩ : BufTy).Contents (Elt F)),
    reshape main_v391 main_v392 rfl shapeCasts_S1x50x32_S50x32,
    nullary main_c_58 (constantI S_ 32 0#32),
    unary main_c_58 main_v393 (broadcastInDim S160000x2 ![] bcast_S_S160000x2 : (⟨S_, .i32⟩ : BufTy).Contents (Elt F) → (⟨S160000x2, .i32⟩ : BufTy).Contents (Elt F)),
    binary main_arg0 main_v393 main_v394 (cmpi .slt : (⟨S160000x2, .i32⟩ : BufTy).Contents (Elt F) → (⟨S160000x2, .i32⟩ : BufTy).Contents (Elt F) → (⟨S160000x2, .i1⟩ : BufTy).Contents (Elt F)),
    nullary main_c_59 (constantI S_ 32 50#32),
    unary main_c_59 main_v395 (broadcastInDim S160000x2 ![] bcast_S_S160000x2 : (⟨S_, .i32⟩ : BufTy).Contents (Elt F) → (⟨S160000x2, .i32⟩ : BufTy).Contents (Elt F)),
    binary main_arg0 main_v395 main_v396 (addi : (⟨S160000x2, .i32⟩ : BufTy).Contents (Elt F) → (⟨S160000x2, .i32⟩ : BufTy).Contents (Elt F) → (⟨S160000x2, .i32⟩ : BufTy).Contents (Elt F)),
    ternary main_v394 main_v396 main_arg0 main_v397 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v397 main_v398 (broadcastInDim S160000x2x1 ![0, 1] bcast_S160000x2_S160000x2x1_0_1 : (⟨S160000x2, .i32⟩ : BufTy).Contents (Elt F) → (⟨S160000x2x1, .i32⟩ : BufTy).Contents (Elt F)),
    binary main_v392 main_v398 main_v399 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_60 (constant S_ .f32 0x00000000#32),
    binary main_v399 main_cst_60 main_v400 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v390 main_v400 main_v401 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v402 ((extractStridedSlice S1x64x32 ![4, 0, 0] · slices_S5x64x32_S1x64x32_4_0_0) : (⟨S5x64x32, .f32⟩ : BufTy).Contents (Elt F) → (⟨S1x64x32, .f32⟩ : BufTy).Contents (Elt F)),
    reshape main_v402 main_v403 rfl shapeCasts_S1x64x32_S64x32,
    binary main_v401 main_v403 main_v404 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v405 ((extractStridedSlice S1x32 ![4, 0] · slices_S5x32_S1x32_4_0) : (⟨S5x32, .f32⟩ : BufTy).Contents (Elt F) → (⟨S1x32, .f32⟩ : BufTy).Contents (Elt F)),
    reshape main_v405 main_v406 rfl shapeCasts_S1x32_S32,
    unary main_v406 main_v407 (broadcastInDim S1x32 ![1] bcast_S32_S1x32_1 : (⟨S32, .f32⟩ : BufTy).Contents (Elt F) → (⟨S1x32, .f32⟩ : BufTy).Contents (Elt F)),
    unary main_v407 main_v408 (broadcastInDim S160000x32 ![0, 1] bcast_S1x32_S160000x32_0_1 : (⟨S1x32, .f32⟩ : BufTy).Contents (Elt F) → (⟨S160000x32, .f32⟩ : BufTy).Contents (Elt F)),
    binary main_v404 main_v408 main_v409 (addf : (⟨S160000x32, .f32⟩ : BufTy).Contents (Elt F) → (⟨S160000x32, .f32⟩ : BufTy).Contents (Elt F) → (⟨S160000x32, .f32⟩ : BufTy).Contents (Elt F)),
    unary main_arg8 main_v410 ((extractStridedSlice S1x32x32 ![4, 0, 0] · slices_S5x32x32_S1x32x32_4_0_0) : (⟨S5x32x32, .f32⟩ : BufTy).Contents (Elt F) → (⟨S1x32x32, .f32⟩ : BufTy).Contents (Elt F)),
    reshape main_v410 main_v411 rfl shapeCasts_S1x32x32_S32x32,
    binary main_v409 main_v411 main_v412 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_61 (constantI S_ 32 0#32),
    unary main_c_61 main_v413 (broadcastInDim S2560000 ![] bcast_S_S2560000 : (⟨S_, .i32⟩ : BufTy).Contents (Elt F) → (⟨S2560000, .i32⟩ : BufTy).Contents (Elt F)),
    binary main_v1 main_v413 main_v414 (cmpi .slt : (⟨S2560000, .i32⟩ : BufTy).Contents (Elt F) → (⟨S2560000, .i32⟩ : BufTy).Contents (Elt F) → (⟨S2560000, .i1⟩ : BufTy).Contents (Elt F)),
    nullary main_c_62 (constantI S_ 32 160000#32),
    unary main_c_62 main_v415 (broadcastInDim S2560000 ![] bcast_S_S2560000 : (⟨S_, .i32⟩ : BufTy).Contents (Elt F) → (⟨S2560000, .i32⟩ : BufTy).Contents (Elt F)),
    binary main_v1 main_v415 main_v416 (addi : (⟨S2560000, .i32⟩ : BufTy).Contents (Elt F) → (⟨S2560000, .i32⟩ : BufTy).Contents (Elt F) → (⟨S2560000, .i32⟩ : BufTy).Contents (Elt F)),
    ternary main_v414 main_v416 main_v1 main_v417 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v417 main_v418 (broadcastInDim S2560000x1 ![0] bcast_S2560000_S2560000x1_0 : (⟨S2560000, .i32⟩ : BufTy).Contents (Elt F) → (⟨S2560000x1, .i32⟩ : BufTy).Contents (Elt F)),
    binary main_v412 main_v418 main_v419 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_63 (constant S_ .f32 0x00000000#32),
    unary main_cst_63 main_v420 (broadcastInDim S160000x32 ![] bcast_S_S160000x32 : (⟨S_, .f32⟩ : BufTy).Contents (Elt F) → (⟨S160000x32, .f32⟩ : BufTy).Contents (Elt F)),
    unary main_v3 main_v421 (broadcastInDim S2560000x1 ![0] bcast_S2560000_S2560000x1_0 : (⟨S2560000, .i32⟩ : BufTy).Contents (Elt F) → (⟨S2560000x1, .i32⟩ : BufTy).Contents (Elt F)),
    ternary main_v420 main_v421 main_v419 main_v422 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v423 ((extractStridedSlice S1x32x96 ![4, 0, 0] · slices_S5x32x96_S1x32x96_4_0_0) : (⟨S5x32x96, .f32⟩ : BufTy).Contents (Elt F) → (⟨S1x32x96, .f32⟩ : BufTy).Contents (Elt F)),
    reshape main_v423 main_v424 rfl shapeCasts_S1x32x96_S32x96,
    binary main_v422 main_v424 main_v425 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v426 ((extractStridedSlice S1x96 ![4, 0] · slices_S5x96_S1x96_4_0) : (⟨S5x96, .f32⟩ : BufTy).Contents (Elt F) → (⟨S1x96, .f32⟩ : BufTy).Contents (Elt F)),
    reshape main_v426 main_v427 rfl shapeCasts_S1x96_S96,
    unary main_v427 main_v428 (broadcastInDim S1x96 ![1] bcast_S96_S1x96_1 : (⟨S96, .f32⟩ : BufTy).Contents (Elt F) → (⟨S1x96, .f32⟩ : BufTy).Contents (Elt F)),
    unary main_v428 main_v429 (broadcastInDim S160000x96 ![0, 1] bcast_S1x96_S160000x96_0_1 : (⟨S1x96, .f32⟩ : BufTy).Contents (Elt F) → (⟨S160000x96, .f32⟩ : BufTy).Contents (Elt F)),
    binary main_v425 main_v429 main_v430 (addf : (⟨S160000x96, .f32⟩ : BufTy).Contents (Elt F) → (⟨S160000x96, .f32⟩ : BufTy).Contents (Elt F) → (⟨S160000x96, .f32⟩ : BufTy).Contents (Elt F)),
    unary main_arg10 main_v431 ((extractStridedSlice S1x32x96 ![4, 0, 0] · slices_S5x32x96_S1x32x96_4_0_0) : (⟨S5x32x96, .f32⟩ : BufTy).Contents (Elt F) → (⟨S1x32x96, .f32⟩ : BufTy).Contents (Elt F)),
    reshape main_v431 main_v432 rfl shapeCasts_S1x32x96_S32x96,
    binary main_v409 main_v432 main_v433 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v434 ((extractStridedSlice S1x96 ![4, 0] · slices_S5x96_S1x96_4_0) : (⟨S5x96, .f32⟩ : BufTy).Contents (Elt F) → (⟨S1x96, .f32⟩ : BufTy).Contents (Elt F)),
    reshape main_v434 main_v435 rfl shapeCasts_S1x96_S96,
    unary main_v435 main_v436 (broadcastInDim S1x96 ![1] bcast_S96_S1x96_1 : (⟨S96, .f32⟩ : BufTy).Contents (Elt F) → (⟨S1x96, .f32⟩ : BufTy).Contents (Elt F)),
    unary main_v436 main_v437 (broadcastInDim S160000x96 ![0, 1] bcast_S1x96_S160000x96_0_1 : (⟨S1x96, .f32⟩ : BufTy).Contents (Elt F) → (⟨S160000x96, .f32⟩ : BufTy).Contents (Elt F)),
    binary main_v433 main_v437 main_v438 (addf : (⟨S160000x96, .f32⟩ : BufTy).Contents (Elt F) → (⟨S160000x96, .f32⟩ : BufTy).Contents (Elt F) → (⟨S160000x96, .f32⟩ : BufTy).Contents (Elt F)),
    unary main_v430 main_v439 ((extractStridedSlice S160000x32 ![0, 0] · slices_S160000x96_S160000x32_0_0) : (⟨S160000x96, .f32⟩ : BufTy).Contents (Elt F) → (⟨S160000x32, .f32⟩ : BufTy).Contents (Elt F)),
    unary main_v430 main_v440 ((extractStridedSlice S160000x32 ![0, 32] · slices_S160000x96_S160000x32_0_32) : (⟨S160000x96, .f32⟩ : BufTy).Contents (Elt F) → (⟨S160000x32, .f32⟩ : BufTy).Contents (Elt F)),
    unary main_v430 main_v441 ((extractStridedSlice S160000x32 ![0, 64] · slices_S160000x96_S160000x32_0_64) : (⟨S160000x96, .f32⟩ : BufTy).Contents (Elt F) → (⟨S160000x32, .f32⟩ : BufTy).Contents (Elt F)),
    unary main_v438 main_v442 ((extractStridedSlice S160000x32 ![0, 0] · slices_S160000x96_S160000x32_0_0) : (⟨S160000x96, .f32⟩ : BufTy).Contents (Elt F) → (⟨S160000x32, .f32⟩ : BufTy).Contents (Elt F)),
    unary main_v438 main_v443 ((extractStridedSlice S160000x32 ![0, 32] · slices_S160000x96_S160000x32_0_32) : (⟨S160000x96, .f32⟩ : BufTy).Contents (Elt F) → (⟨S160000x32, .f32⟩ : BufTy).Contents (Elt F)),
    unary main_v438 main_v444 ((extractStridedSlice S160000x32 ![0, 64] · slices_S160000x96_S160000x32_0_64) : (⟨S160000x96, .f32⟩ : BufTy).Contents (Elt F) → (⟨S160000x32, .f32⟩ : BufTy).Contents (Elt F)),
    binary main_v439 main_v442 main_v445 (addf : (⟨S160000x32, .f32⟩ : BufTy).Contents (Elt F) → (⟨S160000x32, .f32⟩ : BufTy).Contents (Elt F) → (⟨S160000x32, .f32⟩ : BufTy).Contents (Elt F)),
    unary main_v445 main_v446 (Host.negf : (⟨S160000x32, .f32⟩ : BufTy).Contents (Elt F) → (⟨S160000x32, .f32⟩ : BufTy).Contents (Elt F)),
    unary main_v446 main_v447 (Host.exp : (⟨S160000x32, .f32⟩ : BufTy).Contents (Elt F) → (⟨S160000x32, .f32⟩ : BufTy).Contents (Elt F)),
    nullary main_cst_64 (constant S_ .f32 0x3F800000#32),
    unary main_cst_64 main_v448 (broadcastInDim S160000x32 ![] bcast_S_S160000x32 : (⟨S_, .f32⟩ : BufTy).Contents (Elt F) → (⟨S160000x32, .f32⟩ : BufTy).Contents (Elt F)),
    binary main_v448 main_v447 main_v449 (addf : (⟨S160000x32, .f32⟩ : BufTy).Contents (Elt F) → (⟨S160000x32, .f32⟩ : BufTy).Contents (Elt F) → (⟨S160000x32, .f32⟩ : BufTy).Contents (Elt F)),
    nullary main_cst_65 (constant S_ .f32 0x3F800000#32),
    unary main_cst_65 main_v450 (broadcastInDim S160000x32 ![] bcast_S_S160000x32 : (⟨S_, .f32⟩ : BufTy).Contents (Elt F) → (⟨S160000x32, .f32⟩ : BufTy).Contents (Elt F)),
    binary main_v450 main_v449 main_v451 (Host.divf : (⟨S160000x32, .f32⟩ : BufTy).Contents (Elt F) → (⟨S160000x32, .f32⟩ : BufTy).Contents (Elt F) → (⟨S160000x32, .f32⟩ : BufTy).Contents (Elt F)),
    binary main_v440 main_v443 main_v452 (addf : (⟨S160000x32, .f32⟩ : BufTy).Contents (Elt F) → (⟨S160000x32, .f32⟩ : BufTy).Contents (Elt F) → (⟨S160000x32, .f32⟩ : BufTy).Contents (Elt F)),
    unary main_v452 main_v453 (Host.negf : (⟨S160000x32, .f32⟩ : BufTy).Contents (Elt F) → (⟨S160000x32, .f32⟩ : BufTy).Contents (Elt F)),
    unary main_v453 main_v454 (Host.exp : (⟨S160000x32, .f32⟩ : BufTy).Contents (Elt F) → (⟨S160000x32, .f32⟩ : BufTy).Contents (Elt F)),
    nullary main_cst_66 (constant S_ .f32 0x3F800000#32),
    unary main_cst_66 main_v455 (broadcastInDim S160000x32 ![] bcast_S_S160000x32 : (⟨S_, .f32⟩ : BufTy).Contents (Elt F) → (⟨S160000x32, .f32⟩ : BufTy).Contents (Elt F)),
    binary main_v455 main_v454 main_v456 (addf : (⟨S160000x32, .f32⟩ : BufTy).Contents (Elt F) → (⟨S160000x32, .f32⟩ : BufTy).Contents (Elt F) → (⟨S160000x32, .f32⟩ : BufTy).Contents (Elt F)),
    nullary main_cst_67 (constant S_ .f32 0x3F800000#32),
    unary main_cst_67 main_v457 (broadcastInDim S160000x32 ![] bcast_S_S160000x32 : (⟨S_, .f32⟩ : BufTy).Contents (Elt F) → (⟨S160000x32, .f32⟩ : BufTy).Contents (Elt F)),
    binary main_v457 main_v456 main_v458 (Host.divf : (⟨S160000x32, .f32⟩ : BufTy).Contents (Elt F) → (⟨S160000x32, .f32⟩ : BufTy).Contents (Elt F) → (⟨S160000x32, .f32⟩ : BufTy).Contents (Elt F)),
    binary main_v451 main_v444 main_v459 (mulf : (⟨S160000x32, .f32⟩ : BufTy).Contents (Elt F) → (⟨S160000x32, .f32⟩ : BufTy).Contents (Elt F) → (⟨S160000x32, .f32⟩ : BufTy).Contents (Elt F)),
    binary main_v441 main_v459 main_v460 (addf : (⟨S160000x32, .f32⟩ : BufTy).Contents (Elt F) → (⟨S160000x32, .f32⟩ : BufTy).Contents (Elt F) → (⟨S160000x32, .f32⟩ : BufTy).Contents (Elt F)),
    unary main_v460 main_v461 (Host.tanh : (⟨S160000x32, .f32⟩ : BufTy).Contents (Elt F) → (⟨S160000x32, .f32⟩ : BufTy).Contents (Elt F)),
    nullary main_cst_68 (constant S_ .f32 0x3F800000#32),
    unary main_cst_68 main_v462 (broadcastInDim S160000x32 ![] bcast_S_S160000x32 : (⟨S_, .f32⟩ : BufTy).Contents (Elt F) → (⟨S160000x32, .f32⟩ : BufTy).Contents (Elt F)),
    binary main_v462 main_v458 main_v463 (subf : (⟨S160000x32, .f32⟩ : BufTy).Contents (Elt F) → (⟨S160000x32, .f32⟩ : BufTy).Contents (Elt F) → (⟨S160000x32, .f32⟩ : BufTy).Contents (Elt F)),
    binary main_v463 main_v461 main_v464 (mulf : (⟨S160000x32, .f32⟩ : BufTy).Contents (Elt F) → (⟨S160000x32, .f32⟩ : BufTy).Contents (Elt F) → (⟨S160000x32, .f32⟩ : BufTy).Contents (Elt F)),
    binary main_v458 main_v409 main_v465 (mulf : (⟨S160000x32, .f32⟩ : BufTy).Contents (Elt F) → (⟨S160000x32, .f32⟩ : BufTy).Contents (Elt F) → (⟨S160000x32, .f32⟩ : BufTy).Contents (Elt F)),
    binary main_v464 main_v465 main_v466 (addf : (⟨S160000x32, .f32⟩ : BufTy).Contents (Elt F) → (⟨S160000x32, .f32⟩ : BufTy).Contents (Elt F) → (⟨S160000x32, .f32⟩ : BufTy).Contents (Elt F)),
    unary main_arg13 main_v467 ((extractStridedSlice S1x32 ![4, 0] · slices_S5x32_S1x32_4_0) : (⟨S5x32, .f32⟩ : BufTy).Contents (Elt F) → (⟨S1x32, .f32⟩ : BufTy).Contents (Elt F)),
    reshape main_v467 main_v468 rfl shapeCasts_S1x32_S32,
    unary main_arg14 main_v469 ((extractStridedSlice S1x32 ![4, 0] · slices_S5x32_S1x32_4_0) : (⟨S5x32, .f32⟩ : BufTy).Contents (Elt F) → (⟨S1x32, .f32⟩ : BufTy).Contents (Elt F)),
    reshape main_v469 main_v470 rfl shapeCasts_S1x32_S32,
    nullary main_cst_69 (constant S_ .f32 0x00000000#32),
    binary main_v466 main_cst_69 main_v471 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_70 (constant S_ .f32 0x481C4000#32),
    unary main_cst_70 main_v472 (broadcastInDim S32 ![] bcast_S_S32 : (⟨S_, .f32⟩ : BufTy).Contents (Elt F) → (⟨S32, .f32⟩ : BufTy).Contents (Elt F)),
    binary main_v471 main_v472 main_v473 (Host.divf : (⟨S32, .f32⟩ : BufTy).Contents (Elt F) → (⟨S32, .f32⟩ : BufTy).Contents (Elt F) → (⟨S32, .f32⟩ : BufTy).Contents (Elt F)),
    nullary main_c_71 (constantI S_ 32 0#32),
    TRef.nullary main_call4.cst (constant S_ .f32 0x00000000#32),
    TRef.binary (.of main_v466) main_call4.cst main_call4.v0 (fun x v => Host.reduceAdd x v reducesTo_S160000x32_S32_d0 h_S_),
    TRef.unary main_call4.v0 main_call4.v1 (broadcastInDim S1x32 ![1] bcast_S32_S1x32_1),
    TRef.nullary main_call4.cst_0 (constant S_ .f32 0x481C4000#32),
    TRef.unary main_call4.cst_0 main_call4.v2 (broadcastInDim S1x32 ![] bcast_S_S1x32),
    TRef.binary main_call4.v1 main_call4.v2 main_call4.v3 Host.divf,
    TRef.unary main_call4.v3 main_call4.v4 (broadcastInDim S160000x32 ![0, 1] bcast_S1x32_S160000x32_0_1),
    TRef.binary (.of main_v466) main_call4.v4 main_call4.v5 subf,
    TRef.binary main_call4.v5 main_call4.v5 main_call4.v6 mulf,
    TRef.unary (.of main_c_71) main_call4.v7 (sitofp .f32),
    TRef.nullary main_call4.cst_1 (constant S_ .f32 0x481C4000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S160000x32_S32_d0 h_S_),
    TRef.unary main_call4.v8 main_call4.v10 (broadcastInDim S32 ![] bcast_S_S32),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S32 ![] bcast_S_S32),
    TRef.ternary main_call4.v12 main_call4.v11 main_call4.call0.v1 main_call4.call0.v2 (fun p a b => select (broadcastInDim S32 ![] bcast_S_S32 p) a b),
    unary main_v473 main_v475 (broadcastInDim S1x32 ![1] bcast_S32_S1x32_1 : (⟨S32, .f32⟩ : BufTy).Contents (Elt F) → (⟨S1x32, .f32⟩ : BufTy).Contents (Elt F)),
    unary main_v475 main_v476 (broadcastInDim S160000x32 ![0, 1] bcast_S1x32_S160000x32_0_1 : (⟨S1x32, .f32⟩ : BufTy).Contents (Elt F) → (⟨S160000x32, .f32⟩ : BufTy).Contents (Elt F)),
    binary main_v466 main_v476 main_v477 (subf : (⟨S160000x32, .f32⟩ : BufTy).Contents (Elt F) → (⟨S160000x32, .f32⟩ : BufTy).Contents (Elt F) → (⟨S160000x32, .f32⟩ : BufTy).Contents (Elt F)),
    nullary main_cst_72 (constant S_ .f32 0x3727C5AC#32),
    unary main_cst_72 main_v478 (broadcastInDim S32 ![] bcast_S_S32 : (⟨S_, .f32⟩ : BufTy).Contents (Elt F) → (⟨S32, .f32⟩ : BufTy).Contents (Elt F)),
    binary main_v474 main_v478 main_v479 (addf : (⟨S32, .f32⟩ : BufTy).Contents (Elt F) → (⟨S32, .f32⟩ : BufTy).Contents (Elt F) → (⟨S32, .f32⟩ : BufTy).Contents (Elt F)),
    unary main_v479 main_v480 (Host.rsqrt : (⟨S32, .f32⟩ : BufTy).Contents (Elt F) → (⟨S32, .f32⟩ : BufTy).Contents (Elt F)),
    unary main_v480 main_v481 (broadcastInDim S1x32 ![1] bcast_S32_S1x32_1 : (⟨S32, .f32⟩ : BufTy).Contents (Elt F) → (⟨S1x32, .f32⟩ : BufTy).Contents (Elt F)),
    unary main_v481 main_v482 (broadcastInDim S160000x32 ![0, 1] bcast_S1x32_S160000x32_0_1 : (⟨S1x32, .f32⟩ : BufTy).Contents (Elt F) → (⟨S160000x32, .f32⟩ : BufTy).Contents (Elt F)),
    binary main_v477 main_v482 main_v483 (mulf : (⟨S160000x32, .f32⟩ : BufTy).Contents (Elt F) → (⟨S160000x32, .f32⟩ : BufTy).Contents (Elt F) → (⟨S160000x32, .f32⟩ : BufTy).Contents (Elt F)),
    unary main_v468 main_v484 (broadcastInDim S1x32 ![1] bcast_S32_S1x32_1 : (⟨S32, .f32⟩ : BufTy).Contents (Elt F) → (⟨S1x32, .f32⟩ : BufTy).Contents (Elt F)),
    unary main_v484 main_v485 (broadcastInDim S160000x32 ![0, 1] bcast_S1x32_S160000x32_0_1 : (⟨S1x32, .f32⟩ : BufTy).Contents (Elt F) → (⟨S160000x32, .f32⟩ : BufTy).Contents (Elt F)),
    binary main_v483 main_v485 main_v486 (mulf : (⟨S160000x32, .f32⟩ : BufTy).Contents (Elt F) → (⟨S160000x32, .f32⟩ : BufTy).Contents (Elt F) → (⟨S160000x32, .f32⟩ : BufTy).Contents (Elt F)),
    unary main_v470 main_v487 (broadcastInDim S1x32 ![1] bcast_S32_S1x32_1 : (⟨S32, .f32⟩ : BufTy).Contents (Elt F) → (⟨S1x32, .f32⟩ : BufTy).Contents (Elt F)),
    unary main_v487 main_v488 (broadcastInDim S160000x32 ![0, 1] bcast_S1x32_S160000x32_0_1 : (⟨S1x32, .f32⟩ : BufTy).Contents (Elt F) → (⟨S160000x32, .f32⟩ : BufTy).Contents (Elt F)),
    binary main_v486 main_v488 main_v489 (addf : (⟨S160000x32, .f32⟩ : BufTy).Contents (Elt F) → (⟨S160000x32, .f32⟩ : BufTy).Contents (Elt F) → (⟨S160000x32, .f32⟩ : BufTy).Contents (Elt F)) ]

/-- @main's statements 565 … 620 (counted from 0, a call one statement), each call's operations in place: 95 operations. -/
abbrev opsTail : List (HloOp τ sig (Elt F)) :=
  [ nullary main_cst_73 (constant S_ .f32 0x00000000#32),
    unary main_cst_73 main_v490 (broadcastInDim S16000x32 ![] bcast_S_S16000x32 : (⟨S_, .f32⟩ : BufTy).Contents (Elt F) → (⟨S16000x32, .f32⟩ : BufTy).Contents (Elt F)),
    unary main_arg2 main_v491 (broadcastInDim S160000x1 ![0] bcast_S160000_S160000x1_0 : (⟨S160000, .i32⟩ : BufTy).Contents (Elt F) → (⟨S160000x1, .i32⟩ : BufTy).Contents (Elt F)),
    ternary main_v490 main_v491 main_v489 main_v492 ((fun x i u => Host.scatterAdd scatter_S16000x32_S160000x1_S160000x32_1_0_0_1 x i u) : (⟨S16000x32, .f32⟩ : BufTy).Contents (Elt F) → (⟨S160000x1, .i32⟩ : BufTy).Contents (Elt F) → (⟨S160000x32, .f32⟩ : BufTy).Contents (Elt F) → (⟨S16000x32, .f32⟩ : BufTy).Contents (Elt F)),
    binary main_v492 main_arg15 main_v493 ((fun l r => Host.dotGeneral dot_S16000x32_S32x32_S16000x32_1_0_0_1_n_n none l r) : (⟨S16000x32, .f32⟩ : BufTy).Contents (Elt F) → (⟨S32x32, .f32⟩ : BufTy).Contents (Elt F) → (⟨S16000x32, .f32⟩ : BufTy).Contents (Elt F)),
    unary main_arg16 main_v494 (broadcastInDim S1x32 ![1] bcast_S32_S1x32_1 : (⟨S32, .f32⟩ : BufTy).Contents (Elt F) → (⟨S1x32, .f32⟩ : BufTy).Contents (Elt F)),
    unary main_v494 main_v495 (broadcastInDim S16000x32 ![0, 1] bcast_S1x32_S16000x32_0_1 : (⟨S1x32, .f32⟩ : BufTy).Contents (Elt F) → (⟨S16000x32, .f32⟩ : BufTy).Contents (Elt F)),
    binary main_v493 main_v495 main_v496 (addf : (⟨S16000x32, .f32⟩ : BufTy).Contents (Elt F) → (⟨S16000x32, .f32⟩ : BufTy).Contents (Elt F) → (⟨S16000x32, .f32⟩ : BufTy).Contents (Elt F)),
    TRef.nullary main_call5.cst (constant S_ .f32 0x00000000#32),
    TRef.unary main_call5.cst main_call5.v0 (broadcastInDim S16000x32 ![] bcast_S_S16000x32),
    TRef.binary (.of main_v496) main_call5.v0 main_call5.v1 maximumf,
    binary main_v497 main_arg17 main_v498 ((fun l r => Host.dotGeneral dot_S16000x32_S32x32_S16000x32_1_0_0_1_n_n none l r) : (⟨S16000x32, .f32⟩ : BufTy).Contents (Elt F) → (⟨S32x32, .f32⟩ : BufTy).Contents (Elt F) → (⟨S16000x32, .f32⟩ : BufTy).Contents (Elt F)),
    unary main_arg18 main_v499 (broadcastInDim S1x32 ![1] bcast_S32_S1x32_1 : (⟨S32, .f32⟩ : BufTy).Contents (Elt F) → (⟨S1x32, .f32⟩ : BufTy).Contents (Elt F)),
    unary main_v499 main_v500 (broadcastInDim S16000x32 ![0, 1] bcast_S1x32_S16000x32_0_1 : (⟨S1x32, .f32⟩ : BufTy).Contents (Elt F) → (⟨S16000x32, .f32⟩ : BufTy).Contents (Elt F)),
    binary main_v498 main_v500 main_v501 (addf : (⟨S16000x32, .f32⟩ : BufTy).Contents (Elt F) → (⟨S16000x32, .f32⟩ : BufTy).Contents (Elt F) → (⟨S16000x32, .f32⟩ : BufTy).Contents (Elt F)),
    nullary main_cst_74 (constant S_ .f32 0x00000000#32),
    unary main_cst_74 main_v502 (broadcastInDim S1600x32 ![] bcast_S_S1600x32 : (⟨S_, .f32⟩ : BufTy).Contents (Elt F) → (⟨S1600x32, .f32⟩ : BufTy).Contents (Elt F)),
    unary main_arg3 main_v503 (broadcastInDim S16000x1 ![0] bcast_S16000_S16000x1_0 : (⟨S16000, .i32⟩ : BufTy).Contents (Elt F) → (⟨S16000x1, .i32⟩ : BufTy).Contents (Elt F)),
    ternary main_v502 main_v503 main_v501 main_v504 ((fun x i u => Host.scatterAdd scatter_S1600x32_S16000x1_S16000x32_1_0_0_1 x i u) : (⟨S1600x32, .f32⟩ : BufTy).Contents (Elt F) → (⟨S16000x1, .i32⟩ : BufTy).Contents (Elt F) → (⟨S16000x32, .f32⟩ : BufTy).Contents (Elt F) → (⟨S1600x32, .f32⟩ : BufTy).Contents (Elt F)),
    binary main_v504 main_arg19 main_v505 ((fun l r => Host.dotGeneral dot_S1600x32_S32x32_S1600x32_1_0_0_1_n_n none l r) : (⟨S1600x32, .f32⟩ : BufTy).Contents (Elt F) → (⟨S32x32, .f32⟩ : BufTy).Contents (Elt F) → (⟨S1600x32, .f32⟩ : BufTy).Contents (Elt F)),
    unary main_arg20 main_v506 (broadcastInDim S1x32 ![1] bcast_S32_S1x32_1 : (⟨S32, .f32⟩ : BufTy).Contents (Elt F) → (⟨S1x32, .f32⟩ : BufTy).Contents (Elt F)),
    unary main_v506 main_v507 (broadcastInDim S1600x32 ![0, 1] bcast_S1x32_S1600x32_0_1 : (⟨S1x32, .f32⟩ : BufTy).Contents (Elt F) → (⟨S1600x32, .f32⟩ : BufTy).Contents (Elt F)),
    binary main_v505 main_v507 main_v508 (addf : (⟨S1600x32, .f32⟩ : BufTy).Contents (Elt F) → (⟨S1600x32, .f32⟩ : BufTy).Contents (Elt F) → (⟨S1600x32, .f32⟩ : BufTy).Contents (Elt F)),
    TRef.nullary main_call6.cst (constant S_ .f32 0x00000000#32),
    TRef.unary main_call6.cst main_call6.v0 (broadcastInDim S1600x32 ![] bcast_S_S1600x32),
    TRef.binary (.of main_v508) main_call6.v0 main_call6.v1 maximumf,
    binary main_v509 main_arg21 main_v510 ((fun l r => Host.dotGeneral dot_S1600x32_S32x32_S1600x32_1_0_0_1_n_n none l r) : (⟨S1600x32, .f32⟩ : BufTy).Contents (Elt F) → (⟨S32x32, .f32⟩ : BufTy).Contents (Elt F) → (⟨S1600x32, .f32⟩ : BufTy).Contents (Elt F)),
    unary main_arg22 main_v511 (broadcastInDim S1x32 ![1] bcast_S32_S1x32_1 : (⟨S32, .f32⟩ : BufTy).Contents (Elt F) → (⟨S1x32, .f32⟩ : BufTy).Contents (Elt F)),
    unary main_v511 main_v512 (broadcastInDim S1600x32 ![0, 1] bcast_S1x32_S1600x32_0_1 : (⟨S1x32, .f32⟩ : BufTy).Contents (Elt F) → (⟨S1600x32, .f32⟩ : BufTy).Contents (Elt F)),
    binary main_v510 main_v512 main_v513 (addf : (⟨S1600x32, .f32⟩ : BufTy).Contents (Elt F) → (⟨S1600x32, .f32⟩ : BufTy).Contents (Elt F) → (⟨S1600x32, .f32⟩ : BufTy).Contents (Elt F)),
    nullary main_cst_75 (constant S_ .f32 0x00000000#32),
    unary main_cst_75 main_v514 (broadcastInDim S160x32 ![] bcast_S_S160x32 : (⟨S_, .f32⟩ : BufTy).Contents (Elt F) → (⟨S160x32, .f32⟩ : BufTy).Contents (Elt F)),
    unary main_arg4 main_v515 (broadcastInDim S1600x1 ![0] bcast_S1600_S1600x1_0 : (⟨S1600, .i32⟩ : BufTy).Contents (Elt F) → (⟨S1600x1, .i32⟩ : BufTy).Contents (Elt F)),
    ternary main_v514 main_v515 main_v513 main_v516 ((fun x i u => Host.scatterAdd scatter_S160x32_S1600x1_S1600x32_1_0_0_1 x i u) : (⟨S160x32, .f32⟩ : BufTy).Contents (Elt F) → (⟨S1600x1, .i32⟩ : BufTy).Contents (Elt F) → (⟨S1600x32, .f32⟩ : BufTy).Contents (Elt F) → (⟨S160x32, .f32⟩ : BufTy).Contents (Elt F)),
    binary main_v516 main_arg23 main_v517 ((fun l r => Host.dotGeneral dot_S160x32_S32x16_S160x16_1_0_0_1_n_n none l r) : (⟨S160x32, .f32⟩ : BufTy).Contents (Elt F) → (⟨S32x16, .f32⟩ : BufTy).Contents (Elt F) → (⟨S160x16, .f32⟩ : BufTy).Contents (Elt F)),
    unary main_arg24 main_v518 (broadcastInDim S1x16 ![1] bcast_S16_S1x16_1 : (⟨S16, .f32⟩ : BufTy).Contents (Elt F) → (⟨S1x16, .f32⟩ : BufTy).Contents (Elt F)),
    unary main_v518 main_v519 (broadcastInDim S160x16 ![0, 1] bcast_S1x16_S160x16_0_1 : (⟨S1x16, .f32⟩ : BufTy).Contents (Elt F) → (⟨S160x16, .f32⟩ : BufTy).Contents (Elt F)),
    binary main_v517 main_v519 main_v520 (addf : (⟨S160x16, .f32⟩ : BufTy).Contents (Elt F) → (⟨S160x16, .f32⟩ : BufTy).Contents (Elt F) → (⟨S160x16, .f32⟩ : BufTy).Contents (Elt F)),
    TRef.nullary main_call7.cst (constant S_ .f32 0x00000000#32),
    TRef.unary main_call7.cst main_call7.v0 (broadcastInDim S160x16 ![] bcast_S_S160x16),
    TRef.binary (.of main_v520) main_call7.v0 main_call7.v1 (cmpf .ogt),
    TRef.nullary main_call7.cst_0 (constant S_ .f32 0x00000000#32),
    TRef.unary main_call7.cst_0 main_call7.v2 (broadcastInDim S160x16 ![] bcast_S_S160x16),
    TRef.binary (.of main_v520) main_call7.v2 main_call7.v3 (cmpf .ogt),
    TRef.nullary main_call7.cst_1 (constant S_ .f32 0x00000000#32),
    TRef.unary main_call7.cst_1 main_call7.call0.v0 id,
    TRef.unary main_call7.call0.v0 main_call7.call0.v1 (broadcastInDim S160x16 ![] bcast_S_S160x16),
    TRef.ternary main_call7.v3 main_call7.call0.v1 (.of main_v520) main_call7.call0.v2 select,
    TRef.unary main_call7.call0.v2 main_call7.v5 Host.expm1,
    TRef.nullary main_call7.cst_2 (constant S_ .f32 0x3F800000#32),
    TRef.unary main_call7.cst_2 main_call7.v6 (broadcastInDim S160x16 ![] bcast_S_S160x16),
    TRef.binary main_call7.v6 main_call7.v5 main_call7.v7 mulf,
    TRef.ternary main_call7.v1 (.of main_v520) main_call7.v7 main_call7.call1.v0 select,
    nullary main_cst_76 (constant S_ .f32 0x00000000#32),
    binary main_v521 main_cst_76 main_v522 ((fun x v => Host.reduceAdd x v reducesTo_S160x16_S16_d0 h_S_) : (⟨S160x16, .f32⟩ : BufTy).Contents (Elt F) → (⟨S_, .f32⟩ : BufTy).Contents (Elt F) → (⟨S16, .f32⟩ : BufTy).Contents (Elt F)),
    nullary main_cst_77 (constant S_ .f32 0x43200000#32),
    unary main_cst_77 main_v523 (broadcastInDim S16 ![] bcast_S_S16 : (⟨S_, .f32⟩ : BufTy).Contents (Elt F) → (⟨S16, .f32⟩ : BufTy).Contents (Elt F)),
    binary main_v522 main_v523 main_v524 (Host.divf : (⟨S16, .f32⟩ : BufTy).Contents (Elt F) → (⟨S16, .f32⟩ : BufTy).Contents (Elt F) → (⟨S16, .f32⟩ : BufTy).Contents (Elt F)),
    nullary main_c_78 (constantI S_ 32 0#32),
    TRef.nullary main_call8.cst (constant S_ .f32 0x00000000#32),
    TRef.binary (.of main_v521) main_call8.cst main_call8.v0 (fun x v => Host.reduceAdd x v reducesTo_S160x16_S16_d0 h_S_),
    TRef.unary main_call8.v0 main_call8.v1 (broadcastInDim S1x16 ![1] bcast_S16_S1x16_1),
    TRef.nullary main_call8.cst_0 (constant S_ .f32 0x43200000#32),
    TRef.unary main_call8.cst_0 main_call8.v2 (broadcastInDim S1x16 ![] bcast_S_S1x16),
    TRef.binary main_call8.v1 main_call8.v2 main_call8.v3 Host.divf,
    TRef.unary main_call8.v3 main_call8.v4 (broadcastInDim S160x16 ![0, 1] bcast_S1x16_S160x16_0_1),
    TRef.binary (.of main_v521) main_call8.v4 main_call8.v5 subf,
    TRef.binary main_call8.v5 main_call8.v5 main_call8.v6 mulf,
    TRef.unary (.of main_c_78) main_call8.v7 (sitofp .f32),
    TRef.nullary main_call8.cst_1 (constant S_ .f32 0x43200000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S160x16_S16_d0 h_S_),
    TRef.unary main_call8.v8 main_call8.v10 (broadcastInDim S16 ![] bcast_S_S16),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S16 ![] bcast_S_S16),
    TRef.ternary main_call8.v12 main_call8.v11 main_call8.call0.v1 main_call8.call0.v2 (fun p a b => select (broadcastInDim S16 ![] bcast_S_S16 p) a b),
    unary main_v524 main_v526 (broadcastInDim S1x16 ![1] bcast_S16_S1x16_1 : (⟨S16, .f32⟩ : BufTy).Contents (Elt F) → (⟨S1x16, .f32⟩ : BufTy).Contents (Elt F)),
    unary main_v526 main_v527 (broadcastInDim S160x16 ![0, 1] bcast_S1x16_S160x16_0_1 : (⟨S1x16, .f32⟩ : BufTy).Contents (Elt F) → (⟨S160x16, .f32⟩ : BufTy).Contents (Elt F)),
    binary main_v521 main_v527 main_v528 (subf : (⟨S160x16, .f32⟩ : BufTy).Contents (Elt F) → (⟨S160x16, .f32⟩ : BufTy).Contents (Elt F) → (⟨S160x16, .f32⟩ : BufTy).Contents (Elt F)),
    nullary main_cst_79 (constant S_ .f32 0x3727C5AC#32),
    unary main_cst_79 main_v529 (broadcastInDim S16 ![] bcast_S_S16 : (⟨S_, .f32⟩ : BufTy).Contents (Elt F) → (⟨S16, .f32⟩ : BufTy).Contents (Elt F)),
    binary main_v525 main_v529 main_v530 (addf : (⟨S16, .f32⟩ : BufTy).Contents (Elt F) → (⟨S16, .f32⟩ : BufTy).Contents (Elt F) → (⟨S16, .f32⟩ : BufTy).Contents (Elt F)),
    unary main_v530 main_v531 (Host.rsqrt : (⟨S16, .f32⟩ : BufTy).Contents (Elt F) → (⟨S16, .f32⟩ : BufTy).Contents (Elt F)),
    unary main_v531 main_v532 (broadcastInDim S1x16 ![1] bcast_S16_S1x16_1 : (⟨S16, .f32⟩ : BufTy).Contents (Elt F) → (⟨S1x16, .f32⟩ : BufTy).Contents (Elt F)),
    unary main_v532 main_v533 (broadcastInDim S160x16 ![0, 1] bcast_S1x16_S160x16_0_1 : (⟨S1x16, .f32⟩ : BufTy).Contents (Elt F) → (⟨S160x16, .f32⟩ : BufTy).Contents (Elt F)),
    binary main_v528 main_v533 main_v534 (mulf : (⟨S160x16, .f32⟩ : BufTy).Contents (Elt F) → (⟨S160x16, .f32⟩ : BufTy).Contents (Elt F) → (⟨S160x16, .f32⟩ : BufTy).Contents (Elt F)),
    binary main_v534 main_arg25 main_v535 ((fun l r => Host.dotGeneral dot_S160x16_S16x16_S160x16_1_0_0_1_n_n none l r) : (⟨S160x16, .f32⟩ : BufTy).Contents (Elt F) → (⟨S16x16, .f32⟩ : BufTy).Contents (Elt F) → (⟨S160x16, .f32⟩ : BufTy).Contents (Elt F)),
    unary main_arg26 main_v536 (broadcastInDim S1x16 ![1] bcast_S16_S1x16_1 : (⟨S16, .f32⟩ : BufTy).Contents (Elt F) → (⟨S1x16, .f32⟩ : BufTy).Contents (Elt F)),
    unary main_v536 main_v537 (broadcastInDim S160x16 ![0, 1] bcast_S1x16_S160x16_0_1 : (⟨S1x16, .f32⟩ : BufTy).Contents (Elt F) → (⟨S160x16, .f32⟩ : BufTy).Contents (Elt F)),
    binary main_v535 main_v537 main_v538 (addf : (⟨S160x16, .f32⟩ : BufTy).Contents (Elt F) → (⟨S160x16, .f32⟩ : BufTy).Contents (Elt F) → (⟨S160x16, .f32⟩ : BufTy).Contents (Elt F)) ]

/-- @main's operations in program order: the six stretches one after the other. -/
abbrev ops : List (HloOp τ sig (Elt F)) := opsL0 ++ (opsL1 ++ (opsL2 ++ (opsL3 ++ (opsL4 ++ opsTail))))

end Cert.ReferenceIdeal.RefRun

end
-- ==== Proof.RefParts.lean ====
import proofs.«425927_j69028714381396_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The printed window 0 of @main (statements 0 … 59), each call's operations in place: 60 operations. -/
def part0 : List (HloOp τ sig (Elt F)) :=
  [ unary main_arg1 main_v0 ((extractStridedSlice S1x2560000 ![0, 0] · slices_S2x2560000_S1x2560000_0_0) : (⟨S2x2560000, .i32⟩ : BufTy).Contents (Elt F) → (⟨S1x2560000, .i32⟩ : BufTy).Contents (Elt F)),
    reshape main_v0 main_v1 rfl shapeCasts_S1x2560000_S2560000,
    unary main_arg1 main_v2 ((extractStridedSlice S1x2560000 ![1, 0] · slices_S2x2560000_S1x2560000_1_0) : (⟨S2x2560000, .i32⟩ : BufTy).Contents (Elt F) → (⟨S1x2560000, .i32⟩ : BufTy).Contents (Elt F)),
    reshape main_v2 main_v3 rfl shapeCasts_S1x2560000_S2560000,
    unary main_arg5 main_v4 ((extractStridedSlice S1x50x32 ![0, 0, 0] · slices_S5x50x32_S1x50x32_0_0_0) : (⟨S5x50x32, .f32⟩ : BufTy).Contents (Elt F) → (⟨S1x50x32, .f32⟩ : BufTy).Contents (Elt F)),
    reshape main_v4 main_v5 rfl shapeCasts_S1x50x32_S50x32,
    nullary main_c (constantI S_ 32 0#32),
    unary main_c main_v6 (broadcastInDim S160000x2 ![] bcast_S_S160000x2 : (⟨S_, .i32⟩ : BufTy).Contents (Elt F) → (⟨S160000x2, .i32⟩ : BufTy).Contents (Elt F)),
    binary main_arg0 main_v6 main_v7 (cmpi .slt : (⟨S160000x2, .i32⟩ : BufTy).Contents (Elt F) → (⟨S160000x2, .i32⟩ : BufTy).Contents (Elt F) → (⟨S160000x2, .i1⟩ : BufTy).Contents (Elt F)),
    nullary main_c_0 (constantI S_ 32 50#32),
    unary main_c_0 main_v8 (broadcastInDim S160000x2 ![] bcast_S_S160000x2 : (⟨S_, .i32⟩ : BufTy).Contents (Elt F) → (⟨S160000x2, .i32⟩ : BufTy).Contents (Elt F)),
    binary main_arg0 main_v8 main_v9 (addi : (⟨S160000x2, .i32⟩ : BufTy).Contents (Elt F) → (⟨S160000x2, .i32⟩ : BufTy).Contents (Elt F) → (⟨S160000x2, .i32⟩ : BufTy).Contents (Elt F)),
    ternary main_v7 main_v9 main_arg0 main_v10 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v10 main_v11 (broadcastInDim S160000x2x1 ![0, 1] bcast_S160000x2_S160000x2x1_0_1 : (⟨S160000x2, .i32⟩ : BufTy).Contents (Elt F) → (⟨S160000x2x1, .i32⟩ : BufTy).Contents (Elt F)),
    binary main_v5 main_v11 main_v12 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst (constant S_ .f32 0x00000000#32),
    binary main_v12 main_cst main_v13 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    unary main_arg8 main_v14 ((extractStridedSlice S1x32x32 ![0, 0, 0] · slices_S5x32x32_S1x32x32_0_0_0) : (⟨S5x32x32, .f32⟩ : BufTy).Contents (Elt F) → (⟨S1x32x32, .f32⟩ : BufTy).Contents (Elt F)),
    reshape main_v14 main_v15 rfl shapeCasts_S1x32x32_S32x32,
    binary main_v13 main_v15 main_v16 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_1 (constantI S_ 32 0#32),
    unary main_c_1 main_v17 (broadcastInDim S2560000 ![] bcast_S_S2560000 : (⟨S_, .i32⟩ : BufTy).Contents (Elt F) → (⟨S2560000, .i32⟩ : BufTy).Contents (Elt F)),
    binary main_v1 main_v17 main_v18 (cmpi .slt : (⟨S2560000, .i32⟩ : BufTy).Contents (Elt F) → (⟨S2560000, .i32⟩ : BufTy).Contents (Elt F) → (⟨S2560000, .i1⟩ : BufTy).Contents (Elt F)),
    nullary main_c_2 (constantI S_ 32 160000#32),
    unary main_c_2 main_v19 (broadcastInDim S2560000 ![] bcast_S_S2560000 : (⟨S_, .i32⟩ : BufTy).Contents (Elt F) → (⟨S2560000, .i32⟩ : BufTy).Contents (Elt F)),
    binary main_v1 main_v19 main_v20 (addi : (⟨S2560000, .i32⟩ : BufTy).Contents (Elt F) → (⟨S2560000, .i32⟩ : BufTy).Contents (Elt F) → (⟨S2560000, .i32⟩ : BufTy).Contents (Elt F)),
    ternary main_v18 main_v20 main_v1 main_v21 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v21 main_v22 (broadcastInDim S2560000x1 ![0] bcast_S2560000_S2560000x1_0 : (⟨S2560000, .i32⟩ : BufTy).Contents (Elt F) → (⟨S2560000x1, .i32⟩ : BufTy).Contents (Elt F)),
    binary main_v16 main_v22 main_v23 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_3 (constant S_ .f32 0x00000000#32),
    unary main_cst_3 main_v24 (broadcastInDim S160000x32 ![] bcast_S_S160000x32 : (⟨S_, .f32⟩ : BufTy).Contents (Elt F) → (⟨S160000x32, .f32⟩ : BufTy).Contents (Elt F)),
    unary main_v3 main_v25 (broadcastInDim S2560000x1 ![0] bcast_S2560000_S2560000x1_0 : (⟨S2560000, .i32⟩ : BufTy).Contents (Elt F) → (⟨S2560000x1, .i32⟩ : BufTy).Contents (Elt F)),
    ternary main_v24 main_v25 main_v23 main_v26 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v27 ((extractStridedSlice S1x32x96 ![0, 0, 0] · slices_S5x32x96_S1x32x96_0_0_0) : (⟨S5x32x96, .f32⟩ : BufTy).Contents (Elt F) → (⟨S1x32x96, .f32⟩ : BufTy).Contents (Elt F)),
    reshape main_v27 main_v28 rfl shapeCasts_S1x32x96_S32x96,
    binary main_v26 main_v28 main_v29 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v30 ((extractStridedSlice S1x96 ![0, 0] · slices_S5x96_S1x96_0_0) : (⟨S5x96, .f32⟩ : BufTy).Contents (Elt F) → (⟨S1x96, .f32⟩ : BufTy).Contents (Elt F)),
    reshape main_v30 main_v31 rfl shapeCasts_S1x96_S96,
    unary main_v31 main_v32 (broadcastInDim S1x96 ![1] bcast_S96_S1x96_1 : (⟨S96, .f32⟩ : BufTy).Contents (Elt F) → (⟨S1x96, .f32⟩ : BufTy).Contents (Elt F)),
    unary main_v32 main_v33 (broadcastInDim S160000x96 ![0, 1] bcast_S1x96_S160000x96_0_1 : (⟨S1x96, .f32⟩ : BufTy).Contents (Elt F) → (⟨S160000x96, .f32⟩ : BufTy).Contents (Elt F)),
    binary main_v29 main_v33 main_v34 (addf : (⟨S160000x96, .f32⟩ : BufTy).Contents (Elt F) → (⟨S160000x96, .f32⟩ : BufTy).Contents (Elt F) → (⟨S160000x96, .f32⟩ : BufTy).Contents (Elt F)),
    unary main_arg10 main_v35 ((extractStridedSlice S1x32x96 ![0, 0, 0] · slices_S5x32x96_S1x32x96_0_0_0) : (⟨S5x32x96, .f32⟩ : BufTy).Contents (Elt F) → (⟨S1x32x96, .f32⟩ : BufTy).Contents (Elt F)),
    reshape main_v35 main_v36 rfl shapeCasts_S1x32x96_S32x96,
    binary main_v13 main_v36 main_v37 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v38 ((extractStridedSlice S1x96 ![0, 0] · slices_S5x96_S1x96_0_0) : (⟨S5x96, .f32⟩ : BufTy).Contents (Elt F) → (⟨S1x96, .f32⟩ : BufTy).Contents (Elt F)),
    reshape main_v38 main_v39 rfl shapeCasts_S1x96_S96,
    unary main_v39 main_v40 (broadcastInDim S1x96 ![1] bcast_S96_S1x96_1 : (⟨S96, .f32⟩ : BufTy).Contents (Elt F) → (⟨S1x96, .f32⟩ : BufTy).Contents (Elt F)),
    unary main_v40 main_v41 (broadcastInDim S160000x96 ![0, 1] bcast_S1x96_S160000x96_0_1 : (⟨S1x96, .f32⟩ : BufTy).Contents (Elt F) → (⟨S160000x96, .f32⟩ : BufTy).Contents (Elt F)),
    binary main_v37 main_v41 main_v42 (addf : (⟨S160000x96, .f32⟩ : BufTy).Contents (Elt F) → (⟨S160000x96, .f32⟩ : BufTy).Contents (Elt F) → (⟨S160000x96, .f32⟩ : BufTy).Contents (Elt F)),
    unary main_v34 main_v43 ((extractStridedSlice S160000x32 ![0, 0] · slices_S160000x96_S160000x32_0_0) : (⟨S160000x96, .f32⟩ : BufTy).Contents (Elt F) → (⟨S160000x32, .f32⟩ : BufTy).Contents (Elt F)),
    unary main_v34 main_v44 ((extractStridedSlice S160000x32 ![0, 32] · slices_S160000x96_S160000x32_0_32) : (⟨S160000x96, .f32⟩ : BufTy).Contents (Elt F) → (⟨S160000x32, .f32⟩ : BufTy).Contents (Elt F)),
    unary main_v34 main_v45 ((extractStridedSlice S160000x32 ![0, 64] · slices_S160000x96_S160000x32_0_64) : (⟨S160000x96, .f32⟩ : BufTy).Contents (Elt F) → (⟨S160000x32, .f32⟩ : BufTy).Contents (Elt F)),
    unary main_v42 main_v46 ((extractStridedSlice S160000x32 ![0, 0] · slices_S160000x96_S160000x32_0_0) : (⟨S160000x96, .f32⟩ : BufTy).Contents (Elt F) → (⟨S160000x32, .f32⟩ : BufTy).Contents (Elt F)),
    unary main_v42 main_v47 ((extractStridedSlice S160000x32 ![0, 32] · slices_S160000x96_S160000x32_0_32) : (⟨S160000x96, .f32⟩ : BufTy).Contents (Elt F) → (⟨S160000x32, .f32⟩ : BufTy).Contents (Elt F)),
    unary main_v42 main_v48 ((extractStridedSlice S160000x32 ![0, 64] · slices_S160000x96_S160000x32_0_64) : (⟨S160000x96, .f32⟩ : BufTy).Contents (Elt F) → (⟨S160000x32, .f32⟩ : BufTy).Contents (Elt F)),
    binary main_v43 main_v46 main_v49 (addf : (⟨S160000x32, .f32⟩ : BufTy).Contents (Elt F) → (⟨S160000x32, .f32⟩ : BufTy).Contents (Elt F) → (⟨S160000x32, .f32⟩ : BufTy).Contents (Elt F)),
    unary main_v49 main_v50 (Host.negf : (⟨S160000x32, .f32⟩ : BufTy).Contents (Elt F) → (⟨S160000x32, .f32⟩ : BufTy).Contents (Elt F)),
    unary main_v50 main_v51 (Host.exp : (⟨S160000x32, .f32⟩ : BufTy).Contents (Elt F) → (⟨S160000x32, .f32⟩ : BufTy).Contents (Elt F)),
    nullary main_cst_4 (constant S_ .f32 0x3F800000#32),
    unary main_cst_4 main_v52 (broadcastInDim S160000x32 ![] bcast_S_S160000x32 : (⟨S_, .f32⟩ : BufTy).Contents (Elt F) → (⟨S160000x32, .f32⟩ : BufTy).Contents (Elt F)) ]

/-- The printed window 1 of @main (statements 60 … 119), each call's operations in place: 81 operations. -/
def part1 : List (HloOp τ sig (Elt F)) :=
  [ binary main_v52 main_v51 main_v53 (addf : (⟨S160000x32, .f32⟩ : BufTy).Contents (Elt F) → (⟨S160000x32, .f32⟩ : BufTy).Contents (Elt F) → (⟨S160000x32, .f32⟩ : BufTy).Contents (Elt F)),
    nullary main_cst_5 (constant S_ .f32 0x3F800000#32),
    unary main_cst_5 main_v54 (broadcastInDim S160000x32 ![] bcast_S_S160000x32 : (⟨S_, .f32⟩ : BufTy).Contents (Elt F) → (⟨S160000x32, .f32⟩ : BufTy).Contents (Elt F)),
    binary main_v54 main_v53 main_v55 (Host.divf : (⟨S160000x32, .f32⟩ : BufTy).Contents (Elt F) → (⟨S160000x32, .f32⟩ : BufTy).Contents (Elt F) → (⟨S160000x32, .f32⟩ : BufTy).Contents (Elt F)),
    binary main_v44 main_v47 main_v56 (addf : (⟨S160000x32, .f32⟩ : BufTy).Contents (Elt F) → (⟨S160000x32, .f32⟩ : BufTy).Contents (Elt F) → (⟨S160000x32, .f32⟩ : BufTy).Contents (Elt F)),
    unary main_v56 main_v57 (Host.negf : (⟨S160000x32, .f32⟩ : BufTy).Contents (Elt F) → (⟨S160000x32, .f32⟩ : BufTy).Contents (Elt F)),
    unary main_v57 main_v58 (Host.exp : (⟨S160000x32, .f32⟩ : BufTy).Contents (Elt F) → (⟨S160000x32, .f32⟩ : BufTy).Contents (Elt F)),
    nullary main_cst_6 (constant S_ .f32 0x3F800000#32),
    unary main_cst_6 main_v59 (broadcastInDim S160000x32 ![] bcast_S_S160000x32 : (⟨S_, .f32⟩ : BufTy).Contents (Elt F) → (⟨S160000x32, .f32⟩ : BufTy).Contents (Elt F)),
    binary main_v59 main_v58 main_v60 (addf : (⟨S160000x32, .f32⟩ : BufTy).Contents (Elt F) → (⟨S160000x32, .f32⟩ : BufTy).Contents (Elt F) → (⟨S160000x32, .f32⟩ : BufTy).Contents (Elt F)),
    nullary main_cst_7 (constant S_ .f32 0x3F800000#32),
    unary main_cst_7 main_v61 (broadcastInDim S160000x32 ![] bcast_S_S160000x32 : (⟨S_, .f32⟩ : BufTy).Contents (Elt F) → (⟨S160000x32, .f32⟩ : BufTy).Contents (Elt F)),
    binary main_v61 main_v60 main_v62 (Host.divf : (⟨S160000x32, .f32⟩ : BufTy).Contents (Elt F) → (⟨S160000x32, .f32⟩ : BufTy).Contents (Elt F) → (⟨S160000x32, .f32⟩ : BufTy).Contents (Elt F)),
    binary main_v55 main_v48 main_v63 (mulf : (⟨S160000x32, .f32⟩ : BufTy).Contents (Elt F) → (⟨S160000x32, .f32⟩ : BufTy).Contents (Elt F) → (⟨S160000x32, .f32⟩ : BufTy).Contents (Elt F)),
    binary main_v45 main_v63 main_v64 (addf : (⟨S160000x32, .f32⟩ : BufTy).Contents (Elt F) → (⟨S160000x32, .f32⟩ : BufTy).Contents (Elt F) → (⟨S160000x32, .f32⟩ : BufTy).Contents (Elt F)),
    unary main_v64 main_v65 (Host.tanh : (⟨S160000x32, .f32⟩ : BufTy).Contents (Elt F) → (⟨S160000x32, .f32⟩ : BufTy).Contents (Elt F)),
    nullary main_cst_8 (constant S_ .f32 0x3F800000#32),
    unary main_cst_8 main_v66 (broadcastInDim S160000x32 ![] bcast_S_S160000x32 : (⟨S_, .f32⟩ : BufTy).Contents (Elt F) → (⟨S160000x32, .f32⟩ : BufTy).Contents (Elt F)),
    binary main_v66 main_v62 main_v67 (subf : (⟨S160000x32, .f32⟩ : BufTy).Contents (Elt F) → (⟨S160000x32, .f32⟩ : BufTy).Contents (Elt F) → (⟨S160000x32, .f32⟩ : BufTy).Contents (Elt F)),
    binary main_v67 main_v65 main_v68 (mulf : (⟨S160000x32, .f32⟩ : BufTy).Contents (Elt F) → (⟨S160000x32, .f32⟩ : BufTy).Contents (Elt F) → (⟨S160000x32, .f32⟩ : BufTy).Contents (Elt F)),
    binary main_v62 main_v13 main_v69 (mulf : (⟨S160000x32, .f32⟩ : BufTy).Contents (Elt F) → (⟨S160000x32, .f32⟩ : BufTy).Contents (Elt F) → (⟨S160000x32, .f32⟩ : BufTy).Contents (Elt F)),
    binary main_v68 main_v69 main_v70 (addf : (⟨S160000x32, .f32⟩ : BufTy).Contents (Elt F) → (⟨S160000x32, .f32⟩ : BufTy).Contents (Elt F) → (⟨S160000x32, .f32⟩ : BufTy).Contents (Elt F)),
    unary main_arg13 main_v71 ((extractStridedSlice S1x32 ![0, 0] · slices_S5x32_S1x32_0_0) : (⟨S5x32, .f32⟩ : BufTy).Contents (Elt F) → (⟨S1x32, .f32⟩ : BufTy).Contents (Elt F)),
    reshape main_v71 main_v72 rfl shapeCasts_S1x32_S32,
    unary main_arg14 main_v73 ((extractStridedSlice S1x32 ![0, 0] · slices_S5x32_S1x32_0_0) : (⟨S5x32, .f32⟩ : BufTy).Contents (Elt F) → (⟨S1x32, .f32⟩ : BufTy).Contents (Elt F)),
    reshape main_v73 main_v74 rfl shapeCasts_S1x32_S32,
    nullary main_cst_9 (constant S_ .f32 0x00000000#32),
    binary main_v70 main_cst_9 main_v75 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_10 (constant S_ .f32 0x481C4000#32),
    unary main_cst_10 main_v76 (broadcastInDim S32 ![] bcast_S_S32 : (⟨S_, .f32⟩ : BufTy).Contents (Elt F) → (⟨S32, .f32⟩ : BufTy).Contents (Elt F)),
    binary main_v75 main_v76 main_v77 (Host.divf : (⟨S32, .f32⟩ : BufTy).Contents (Elt F) → (⟨S32, .f32⟩ : BufTy).Contents (Elt F) → (⟨S32, .f32⟩ : BufTy).Contents (Elt F)),
    nullary main_c_11 (constantI S_ 32 0#32),
    TRef.nullary main_call0.cst (constant S_ .f32 0x00000000#32),
    TRef.binary (.of main_v70) main_call0.cst main_call0.v0 (fun x v => Host.reduceAdd x v reducesTo_S160000x32_S32_d0 h_S_),
    TRef.unary main_call0.v0 main_call0.v1 (broadcastInDim S1x32 ![1] bcast_S32_S1x32_1),
    TRef.nullary main_call0.cst_0 (constant S_ .f32 0x481C4000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S160000x32 ![0, 1] bcast_S1x32_S160000x32_0_1),
    TRef.binary (.of main_v70) main_call0.v4 main_call0.v5 subf,
    TRef.binary main_call0.v5 main_call0.v5 main_call0.v6 mulf,
    TRef.unary (.of main_c_11) main_call0.v7 (sitofp .f32),
    TRef.nullary main_call0.cst_1 (constant S_ .f32 0x481C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S160000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v77 main_v79 (broadcastInDim S1x32 ![1] bcast_S32_S1x32_1 : (⟨S32, .f32⟩ : BufTy).Contents (Elt F) → (⟨S1x32, .f32⟩ : BufTy).Contents (Elt F)),
    unary main_v79 main_v80 (broadcastInDim S160000x32 ![0, 1] bcast_S1x32_S160000x32_0_1 : (⟨S1x32, .f32⟩ : BufTy).Contents (Elt F) → (⟨S160000x32, .f32⟩ : BufTy).Contents (Elt F)),
    binary main_v70 main_v80 main_v81 (subf : (⟨S160000x32, .f32⟩ : BufTy).Contents (Elt F) → (⟨S160000x32, .f32⟩ : BufTy).Contents (Elt F) → (⟨S160000x32, .f32⟩ : BufTy).Contents (Elt F)),
    nullary main_cst_12 (constant S_ .f32 0x3727C5AC#32),
    unary main_cst_12 main_v82 (broadcastInDim S32 ![] bcast_S_S32 : (⟨S_, .f32⟩ : BufTy).Contents (Elt F) → (⟨S32, .f32⟩ : BufTy).Contents (Elt F)),
    binary main_v78 main_v82 main_v83 (addf : (⟨S32, .f32⟩ : BufTy).Contents (Elt F) → (⟨S32, .f32⟩ : BufTy).Contents (Elt F) → (⟨S32, .f32⟩ : BufTy).Contents (Elt F)),
    unary main_v83 main_v84 (Host.rsqrt : (⟨S32, .f32⟩ : BufTy).Contents (Elt F) → (⟨S32, .f32⟩ : BufTy).Contents (Elt F)),
    unary main_v84 main_v85 (broadcastInDim S1x32 ![1] bcast_S32_S1x32_1 : (⟨S32, .f32⟩ : BufTy).Contents (Elt F) → (⟨S1x32, .f32⟩ : BufTy).Contents (Elt F)),
    unary main_v85 main_v86 (broadcastInDim S160000x32 ![0, 1] bcast_S1x32_S160000x32_0_1 : (⟨S1x32, .f32⟩ : BufTy).Contents (Elt F) → (⟨S160000x32, .f32⟩ : BufTy).Contents (Elt F)),
    binary main_v81 main_v86 main_v87 (mulf : (⟨S160000x32, .f32⟩ : BufTy).Contents (Elt F) → (⟨S160000x32, .f32⟩ : BufTy).Contents (Elt F) → (⟨S160000x32, .f32⟩ : BufTy).Contents (Elt F)),
    unary main_v72 main_v88 (broadcastInDim S1x32 ![1] bcast_S32_S1x32_1 : (⟨S32, .f32⟩ : BufTy).Contents (Elt F) → (⟨S1x32, .f32⟩ : BufTy).Contents (Elt F)),
    unary main_v88 main_v89 (broadcastInDim S160000x32 ![0, 1] bcast_S1x32_S160000x32_0_1 : (⟨S1x32, .f32⟩ : BufTy).Contents (Elt F) → (⟨S160000x32, .f32⟩ : BufTy).Contents (Elt F)),
    binary main_v87 main_v89 main_v90 (mulf : (⟨S160000x32, .f32⟩ : BufTy).Contents (Elt F) → (⟨S160000x32, .f32⟩ : BufTy).Contents (Elt F) → (⟨S160000x32, .f32⟩ : BufTy).Contents (Elt F)),
    unary main_v74 main_v91 (broadcastInDim S1x32 ![1] bcast_S32_S1x32_1 : (⟨S32, .f32⟩ : BufTy).Contents (Elt F) → (⟨S1x32, .f32⟩ : BufTy).Contents (Elt F)),
    unary main_v91 main_v92 (broadcastInDim S160000x32 ![0, 1] bcast_S1x32_S160000x32_0_1 : (⟨S1x32, .f32⟩ : BufTy).Contents (Elt F) → (⟨S160000x32, .f32⟩ : BufTy).Contents (Elt F)),
    binary main_v90 main_v92 main_v93 (addf : (⟨S160000x32, .f32⟩ : BufTy).Contents (Elt F) → (⟨S160000x32, .f32⟩ : BufTy).Contents (Elt F) → (⟨S160000x32, .f32⟩ : BufTy).Contents (Elt F)),
    unary main_arg5 main_v94 ((extractStridedSlice S1x50x32 ![1, 0, 0] · slices_S5x50x32_S1x50x32_1_0_0) : (⟨S5x50x32, .f32⟩ : BufTy).Contents (Elt F) → (⟨S1x50x32, .f32⟩ : BufTy).Contents (Elt F)),
    reshape main_v94 main_v95 rfl shapeCasts_S1x50x32_S50x32,
    nullary main_c_13 (constantI S_ 32 0#32),
    unary main_c_13 main_v96 (broadcastInDim S160000x2 ![] bcast_S_S160000x2 : (⟨S_, .i32⟩ : BufTy).Contents (Elt F) → (⟨S160000x2, .i32⟩ : BufTy).Contents (Elt F)),
    binary main_arg0 main_v96 main_v97 (cmpi .slt : (⟨S160000x2, .i32⟩ : BufTy).Contents (Elt F) → (⟨S160000x2, .i32⟩ : BufTy).Contents (Elt F) → (⟨S160000x2, .i1⟩ : BufTy).Contents (Elt F)),
    nullary main_c_14 (constantI S_ 32 50#32),
    unary main_c_14 main_v98 (broadcastInDim S160000x2 ![] bcast_S_S160000x2 : (⟨S_, .i32⟩ : BufTy).Contents (Elt F) → (⟨S160000x2, .i32⟩ : BufTy).Contents (Elt F)),
    binary main_arg0 main_v98 main_v99 (addi : (⟨S160000x2, .i32⟩ : BufTy).Contents (Elt F) → (⟨S160000x2, .i32⟩ : BufTy).Contents (Elt F) → (⟨S160000x2, .i32⟩ : BufTy).Contents (Elt F)),
    ternary main_v97 main_v99 main_arg0 main_v100 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v100 main_v101 (broadcastInDim S160000x2x1 ![0, 1] bcast_S160000x2_S160000x2x1_0_1 : (⟨S160000x2, .i32⟩ : BufTy).Contents (Elt F) → (⟨S160000x2x1, .i32⟩ : BufTy).Contents (Elt F)),
    binary main_v95 main_v101 main_v102 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)) ]

/-- The printed window 2 of @main (statements 120 … 179), each call's operations in place: 60 operations. -/
def part2 : List (HloOp τ sig (Elt F)) :=
  [ nullary main_cst_15 (constant S_ .f32 0x00000000#32),
    binary main_v102 main_cst_15 main_v103 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v93 main_v103 main_v104 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v105 ((extractStridedSlice S1x64x32 ![1, 0, 0] · slices_S5x64x32_S1x64x32_1_0_0) : (⟨S5x64x32, .f32⟩ : BufTy).Contents (Elt F) → (⟨S1x64x32, .f32⟩ : BufTy).Contents (Elt F)),
    reshape main_v105 main_v106 rfl shapeCasts_S1x64x32_S64x32,
    binary main_v104 main_v106 main_v107 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v108 ((extractStridedSlice S1x32 ![1, 0] · slices_S5x32_S1x32_1_0) : (⟨S5x32, .f32⟩ : BufTy).Contents (Elt F) → (⟨S1x32, .f32⟩ : BufTy).Contents (Elt F)),
    reshape main_v108 main_v109 rfl shapeCasts_S1x32_S32,
    unary main_v109 main_v110 (broadcastInDim S1x32 ![1] bcast_S32_S1x32_1 : (⟨S32, .f32⟩ : BufTy).Contents (Elt F) → (⟨S1x32, .f32⟩ : BufTy).Contents (Elt F)),
    unary main_v110 main_v111 (broadcastInDim S160000x32 ![0, 1] bcast_S1x32_S160000x32_0_1 : (⟨S1x32, .f32⟩ : BufTy).Contents (Elt F) → (⟨S160000x32, .f32⟩ : BufTy).Contents (Elt F)),
    binary main_v107 main_v111 main_v112 (addf : (⟨S160000x32, .f32⟩ : BufTy).Contents (Elt F) → (⟨S160000x32, .f32⟩ : BufTy).Contents (Elt F) → (⟨S160000x32, .f32⟩ : BufTy).Contents (Elt F)),
    unary main_arg8 main_v113 ((extractStridedSlice S1x32x32 ![1, 0, 0] · slices_S5x32x32_S1x32x32_1_0_0) : (⟨S5x32x32, .f32⟩ : BufTy).Contents (Elt F) → (⟨S1x32x32, .f32⟩ : BufTy).Contents (Elt F)),
    reshape main_v113 main_v114 rfl shapeCasts_S1x32x32_S32x32,
    binary main_v112 main_v114 main_v115 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_16 (constantI S_ 32 0#32),
    unary main_c_16 main_v116 (broadcastInDim S2560000 ![] bcast_S_S2560000 : (⟨S_, .i32⟩ : BufTy).Contents (Elt F) → (⟨S2560000, .i32⟩ : BufTy).Contents (Elt F)),
    binary main_v1 main_v116 main_v117 (cmpi .slt : (⟨S2560000, .i32⟩ : BufTy).Contents (Elt F) → (⟨S2560000, .i32⟩ : BufTy).Contents (Elt F) → (⟨S2560000, .i1⟩ : BufTy).Contents (Elt F)),
    nullary main_c_17 (constantI S_ 32 160000#32),
    unary main_c_17 main_v118 (broadcastInDim S2560000 ![] bcast_S_S2560000 : (⟨S_, .i32⟩ : BufTy).Contents (Elt F) → (⟨S2560000, .i32⟩ : BufTy).Contents (Elt F)),
    binary main_v1 main_v118 main_v119 (addi : (⟨S2560000, .i32⟩ : BufTy).Contents (Elt F) → (⟨S2560000, .i32⟩ : BufTy).Contents (Elt F) → (⟨S2560000, .i32⟩ : BufTy).Contents (Elt F)),
    ternary main_v117 main_v119 main_v1 main_v120 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v120 main_v121 (broadcastInDim S2560000x1 ![0] bcast_S2560000_S2560000x1_0 : (⟨S2560000, .i32⟩ : BufTy).Contents (Elt F) → (⟨S2560000x1, .i32⟩ : BufTy).Contents (Elt F)),
    binary main_v115 main_v121 main_v122 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_18 (constant S_ .f32 0x00000000#32),
    unary main_cst_18 main_v123 (broadcastInDim S160000x32 ![] bcast_S_S160000x32 : (⟨S_, .f32⟩ : BufTy).Contents (Elt F) → (⟨S160000x32, .f32⟩ : BufTy).Contents (Elt F)),
    unary main_v3 main_v124 (broadcastInDim S2560000x1 ![0] bcast_S2560000_S2560000x1_0 : (⟨S2560000, .i32⟩ : BufTy).Contents (Elt F) → (⟨S2560000x1, .i32⟩ : BufTy).Contents (Elt F)),
    ternary main_v123 main_v124 main_v122 main_v125 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v126 ((extractStridedSlice S1x32x96 ![1, 0, 0] · slices_S5x32x96_S1x32x96_1_0_0) : (⟨S5x32x96, .f32⟩ : BufTy).Contents (Elt F) → (⟨S1x32x96, .f32⟩ : BufTy).Contents (Elt F)),
    reshape main_v126 main_v127 rfl shapeCasts_S1x32x96_S32x96,
    binary main_v125 main_v127 main_v128 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v129 ((extractStridedSlice S1x96 ![1, 0] · slices_S5x96_S1x96_1_0) : (⟨S5x96, .f32⟩ : BufTy).Contents (Elt F) → (⟨S1x96, .f32⟩ : BufTy).Contents (Elt F)),
    reshape main_v129 main_v130 rfl shapeCasts_S1x96_S96,
    unary main_v130 main_v131 (broadcastInDim S1x96 ![1] bcast_S96_S1x96_1 : (⟨S96, .f32⟩ : BufTy).Contents (Elt F) → (⟨S1x96, .f32⟩ : BufTy).Contents (Elt F)),
    unary main_v131 main_v132 (broadcastInDim S160000x96 ![0, 1] bcast_S1x96_S160000x96_0_1 : (⟨S1x96, .f32⟩ : BufTy).Contents (Elt F) → (⟨S160000x96, .f32⟩ : BufTy).Contents (Elt F)),
    binary main_v128 main_v132 main_v133 (addf : (⟨S160000x96, .f32⟩ : BufTy).Contents (Elt F) → (⟨S160000x96, .f32⟩ : BufTy).Contents (Elt F) → (⟨S160000x96, .f32⟩ : BufTy).Contents (Elt F)),
    unary main_arg10 main_v134 ((extractStridedSlice S1x32x96 ![1, 0, 0] · slices_S5x32x96_S1x32x96_1_0_0) : (⟨S5x32x96, .f32⟩ : BufTy).Contents (Elt F) → (⟨S1x32x96, .f32⟩ : BufTy).Contents (Elt F)),
    reshape main_v134 main_v135 rfl shapeCasts_S1x32x96_S32x96,
    binary main_v112 main_v135 main_v136 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v137 ((extractStridedSlice S1x96 ![1, 0] · slices_S5x96_S1x96_1_0) : (⟨S5x96, .f32⟩ : BufTy).Contents (Elt F) → (⟨S1x96, .f32⟩ : BufTy).Contents (Elt F)),
    reshape main_v137 main_v138 rfl shapeCasts_S1x96_S96,
    unary main_v138 main_v139 (broadcastInDim S1x96 ![1] bcast_S96_S1x96_1 : (⟨S96, .f32⟩ : BufTy).Contents (Elt F) → (⟨S1x96, .f32⟩ : BufTy).Contents (Elt F)),
    unary main_v139 main_v140 (broadcastInDim S160000x96 ![0, 1] bcast_S1x96_S160000x96_0_1 : (⟨S1x96, .f32⟩ : BufTy).Contents (Elt F) → (⟨S160000x96, .f32⟩ : BufTy).Contents (Elt F)),
    binary main_v136 main_v140 main_v141 (addf : (⟨S160000x96, .f32⟩ : BufTy).Contents (Elt F) → (⟨S160000x96, .f32⟩ : BufTy).Contents (Elt F) → (⟨S160000x96, .f32⟩ : BufTy).Contents (Elt F)),
    unary main_v133 main_v142 ((extractStridedSlice S160000x32 ![0, 0] · slices_S160000x96_S160000x32_0_0) : (⟨S160000x96, .f32⟩ : BufTy).Contents (Elt F) → (⟨S160000x32, .f32⟩ : BufTy).Contents (Elt F)),
    unary main_v133 main_v143 ((extractStridedSlice S160000x32 ![0, 32] · slices_S160000x96_S160000x32_0_32) : (⟨S160000x96, .f32⟩ : BufTy).Contents (Elt F) → (⟨S160000x32, .f32⟩ : BufTy).Contents (Elt F)),
    unary main_v133 main_v144 ((extractStridedSlice S160000x32 ![0, 64] · slices_S160000x96_S160000x32_0_64) : (⟨S160000x96, .f32⟩ : BufTy).Contents (Elt F) → (⟨S160000x32, .f32⟩ : BufTy).Contents (Elt F)),
    unary main_v141 main_v145 ((extractStridedSlice S160000x32 ![0, 0] · slices_S160000x96_S160000x32_0_0) : (⟨S160000x96, .f32⟩ : BufTy).Contents (Elt F) → (⟨S160000x32, .f32⟩ : BufTy).Contents (Elt F)),
    unary main_v141 main_v146 ((extractStridedSlice S160000x32 ![0, 32] · slices_S160000x96_S160000x32_0_32) : (⟨S160000x96, .f32⟩ : BufTy).Contents (Elt F) → (⟨S160000x32, .f32⟩ : BufTy).Contents (Elt F)),
    unary main_v141 main_v147 ((extractStridedSlice S160000x32 ![0, 64] · slices_S160000x96_S160000x32_0_64) : (⟨S160000x96, .f32⟩ : BufTy).Contents (Elt F) → (⟨S160000x32, .f32⟩ : BufTy).Contents (Elt F)),
    binary main_v142 main_v145 main_v148 (addf : (⟨S160000x32, .f32⟩ : BufTy).Contents (Elt F) → (⟨S160000x32, .f32⟩ : BufTy).Contents (Elt F) → (⟨S160000x32, .f32⟩ : BufTy).Contents (Elt F)),
    unary main_v148 main_v149 (Host.negf : (⟨S160000x32, .f32⟩ : BufTy).Contents (Elt F) → (⟨S160000x32, .f32⟩ : BufTy).Contents (Elt F)),
    unary main_v149 main_v150 (Host.exp : (⟨S160000x32, .f32⟩ : BufTy).Contents (Elt F) → (⟨S160000x32, .f32⟩ : BufTy).Contents (Elt F)),
    nullary main_cst_19 (constant S_ .f32 0x3F800000#32),
    unary main_cst_19 main_v151 (broadcastInDim S160000x32 ![] bcast_S_S160000x32 : (⟨S_, .f32⟩ : BufTy).Contents (Elt F) → (⟨S160000x32, .f32⟩ : BufTy).Contents (Elt F)),
    binary main_v151 main_v150 main_v152 (addf : (⟨S160000x32, .f32⟩ : BufTy).Contents (Elt F) → (⟨S160000x32, .f32⟩ : BufTy).Contents (Elt F) → (⟨S160000x32, .f32⟩ : BufTy).Contents (Elt F)),
    nullary main_cst_20 (constant S_ .f32 0x3F800000#32),
    unary main_cst_20 main_v153 (broadcastInDim S160000x32 ![] bcast_S_S160000x32 : (⟨S_, .f32⟩ : BufTy).Contents (Elt F) → (⟨S160000x32, .f32⟩ : BufTy).Contents (Elt F)),
    binary main_v153 main_v152 main_v154 (Host.divf : (⟨S160000x32, .f32⟩ : BufTy).Contents (Elt F) → (⟨S160000x32, .f32⟩ : BufTy).Contents (Elt F) → (⟨S160000x32, .f32⟩ : BufTy).Contents (Elt F)),
    binary main_v143 main_v146 main_v155 (addf : (⟨S160000x32, .f32⟩ : BufTy).Contents (Elt F) → (⟨S160000x32, .f32⟩ : BufTy).Contents (Elt F) → (⟨S160000x32, .f32⟩ : BufTy).Contents (Elt F)),
    unary main_v155 main_v156 (Host.negf : (⟨S160000x32, .f32⟩ : BufTy).Contents (Elt F) → (⟨S160000x32, .f32⟩ : BufTy).Contents (Elt F)) ]

/-- The printed window 3 of @main (statements 180 … 239), each call's operations in place: 81 operations. -/
def part3 : List (HloOp τ sig (Elt F)) :=
  [ unary main_v156 main_v157 (Host.exp : (⟨S160000x32, .f32⟩ : BufTy).Contents (Elt F) → (⟨S160000x32, .f32⟩ : BufTy).Contents (Elt F)),
    nullary main_cst_21 (constant S_ .f32 0x3F800000#32),
    unary main_cst_21 main_v158 (broadcastInDim S160000x32 ![] bcast_S_S160000x32 : (⟨S_, .f32⟩ : BufTy).Contents (Elt F) → (⟨S160000x32, .f32⟩ : BufTy).Contents (Elt F)),
    binary main_v158 main_v157 main_v159 (addf : (⟨S160000x32, .f32⟩ : BufTy).Contents (Elt F) → (⟨S160000x32, .f32⟩ : BufTy).Contents (Elt F) → (⟨S160000x32, .f32⟩ : BufTy).Contents (Elt F)),
    nullary main_cst_22 (constant S_ .f32 0x3F800000#32),
    unary main_cst_22 main_v160 (broadcastInDim S160000x32 ![] bcast_S_S160000x32 : (⟨S_, .f32⟩ : BufTy).Contents (Elt F) → (⟨S160000x32, .f32⟩ : BufTy).Contents (Elt F)),
    binary main_v160 main_v159 main_v161 (Host.divf : (⟨S160000x32, .f32⟩ : BufTy).Contents (Elt F) → (⟨S160000x32, .f32⟩ : BufTy).Contents (Elt F) → (⟨S160000x32, .f32⟩ : BufTy).Contents (Elt F)),
    binary main_v154 main_v147 main_v162 (mulf : (⟨S160000x32, .f32⟩ : BufTy).Contents (Elt F) → (⟨S160000x32, .f32⟩ : BufTy).Contents (Elt F) → (⟨S160000x32, .f32⟩ : BufTy).Contents (Elt F)),
    binary main_v144 main_v162 main_v163 (addf : (⟨S160000x32, .f32⟩ : BufTy).Contents (Elt F) → (⟨S160000x32, .f32⟩ : BufTy).Contents (Elt F) → (⟨S160000x32, .f32⟩ : BufTy).Contents (Elt F)),
    unary main_v163 main_v164 (Host.tanh : (⟨S160000x32, .f32⟩ : BufTy).Contents (Elt F) → (⟨S160000x32, .f32⟩ : BufTy).Contents (Elt F)),
    nullary main_cst_23 (constant S_ .f32 0x3F800000#32),
    unary main_cst_23 main_v165 (broadcastInDim S160000x32 ![] bcast_S_S160000x32 : (⟨S_, .f32⟩ : BufTy).Contents (Elt F) → (⟨S160000x32, .f32⟩ : BufTy).Contents (Elt F)),
    binary main_v165 main_v161 main_v166 (subf : (⟨S160000x32, .f32⟩ : BufTy).Contents (Elt F) → (⟨S160000x32, .f32⟩ : BufTy).Contents (Elt F) → (⟨S160000x32, .f32⟩ : BufTy).Contents (Elt F)),
    binary main_v166 main_v164 main_v167 (mulf : (⟨S160000x32, .f32⟩ : BufTy).Contents (Elt F) → (⟨S160000x32, .f32⟩ : BufTy).Contents (Elt F) → (⟨S160000x32, .f32⟩ : BufTy).Contents (Elt F)),
    binary main_v161 main_v112 main_v168 (mulf : (⟨S160000x32, .f32⟩ : BufTy).Contents (Elt F) → (⟨S160000x32, .f32⟩ : BufTy).Contents (Elt F) → (⟨S160000x32, .f32⟩ : BufTy).Contents (Elt F)),
    binary main_v167 main_v168 main_v169 (addf : (⟨S160000x32, .f32⟩ : BufTy).Contents (Elt F) → (⟨S160000x32, .f32⟩ : BufTy).Contents (Elt F) → (⟨S160000x32, .f32⟩ : BufTy).Contents (Elt F)),
    unary main_arg13 main_v170 ((extractStridedSlice S1x32 ![1, 0] · slices_S5x32_S1x32_1_0) : (⟨S5x32, .f32⟩ : BufTy).Contents (Elt F) → (⟨S1x32, .f32⟩ : BufTy).Contents (Elt F)),
    reshape main_v170 main_v171 rfl shapeCasts_S1x32_S32,
    unary main_arg14 main_v172 ((extractStridedSlice S1x32 ![1, 0] · slices_S5x32_S1x32_1_0) : (⟨S5x32, .f32⟩ : BufTy).Contents (Elt F) → (⟨S1x32, .f32⟩ : BufTy).Contents (Elt F)),
    reshape main_v172 main_v173 rfl shapeCasts_S1x32_S32,
    nullary main_cst_24 (constant S_ .f32 0x00000000#32),
    binary main_v169 main_cst_24 main_v174 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_25 (constant S_ .f32 0x481C4000#32),
    unary main_cst_25 main_v175 (broadcastInDim S32 ![] bcast_S_S32 : (⟨S_, .f32⟩ : BufTy).Contents (Elt F) → (⟨S32, .f32⟩ : BufTy).Contents (Elt F)),
    binary main_v174 main_v175 main_v176 (Host.divf : (⟨S32, .f32⟩ : BufTy).Contents (Elt F) → (⟨S32, .f32⟩ : BufTy).Contents (Elt F) → (⟨S32, .f32⟩ : BufTy).Contents (Elt F)),
    nullary main_c_26 (constantI S_ 32 0#32),
    TRef.nullary main_call1.cst (constant S_ .f32 0x00000000#32),
    TRef.binary (.of main_v169) main_call1.cst main_call1.v0 (fun x v => Host.reduceAdd x v reducesTo_S160000x32_S32_d0 h_S_),
    TRef.unary main_call1.v0 main_call1.v1 (broadcastInDim S1x32 ![1] bcast_S32_S1x32_1),
    TRef.nullary main_call1.cst_0 (constant S_ .f32 0x481C4000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S160000x32 ![0, 1] bcast_S1x32_S160000x32_0_1),
    TRef.binary (.of main_v169) main_call1.v4 main_call1.v5 subf,
    TRef.binary main_call1.v5 main_call1.v5 main_call1.v6 mulf,
    TRef.unary (.of main_c_26) main_call1.v7 (sitofp .f32),
    TRef.nullary main_call1.cst_1 (constant S_ .f32 0x481C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S160000x32_S32_d0 h_S_),
    TRef.unary main_call1.v8 main_call1.v10 (broadcastInDim S32 ![] bcast_S_S32),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b),
    unary main_v176 main_v178 (broadcastInDim S1x32 ![1] bcast_S32_S1x32_1 : (⟨S32, .f32⟩ : BufTy).Contents (Elt F) → (⟨S1x32, .f32⟩ : BufTy).Contents (Elt F)),
    unary main_v178 main_v179 (broadcastInDim S160000x32 ![0, 1] bcast_S1x32_S160000x32_0_1 : (⟨S1x32, .f32⟩ : BufTy).Contents (Elt F) → (⟨S160000x32, .f32⟩ : BufTy).Contents (Elt F)),
    binary main_v169 main_v179 main_v180 (subf : (⟨S160000x32, .f32⟩ : BufTy).Contents (Elt F) → (⟨S160000x32, .f32⟩ : BufTy).Contents (Elt F) → (⟨S160000x32, .f32⟩ : BufTy).Contents (Elt F)),
    nullary main_cst_27 (constant S_ .f32 0x3727C5AC#32),
    unary main_cst_27 main_v181 (broadcastInDim S32 ![] bcast_S_S32 : (⟨S_, .f32⟩ : BufTy).Contents (Elt F) → (⟨S32, .f32⟩ : BufTy).Contents (Elt F)),
    binary main_v177 main_v181 main_v182 (addf : (⟨S32, .f32⟩ : BufTy).Contents (Elt F) → (⟨S32, .f32⟩ : BufTy).Contents (Elt F) → (⟨S32, .f32⟩ : BufTy).Contents (Elt F)),
    unary main_v182 main_v183 (Host.rsqrt : (⟨S32, .f32⟩ : BufTy).Contents (Elt F) → (⟨S32, .f32⟩ : BufTy).Contents (Elt F)),
    unary main_v183 main_v184 (broadcastInDim S1x32 ![1] bcast_S32_S1x32_1 : (⟨S32, .f32⟩ : BufTy).Contents (Elt F) → (⟨S1x32, .f32⟩ : BufTy).Contents (Elt F)),
    unary main_v184 main_v185 (broadcastInDim S160000x32 ![0, 1] bcast_S1x32_S160000x32_0_1 : (⟨S1x32, .f32⟩ : BufTy).Contents (Elt F) → (⟨S160000x32, .f32⟩ : BufTy).Contents (Elt F)),
    binary main_v180 main_v185 main_v186 (mulf : (⟨S160000x32, .f32⟩ : BufTy).Contents (Elt F) → (⟨S160000x32, .f32⟩ : BufTy).Contents (Elt F) → (⟨S160000x32, .f32⟩ : BufTy).Contents (Elt F)),
    unary main_v171 main_v187 (broadcastInDim S1x32 ![1] bcast_S32_S1x32_1 : (⟨S32, .f32⟩ : BufTy).Contents (Elt F) → (⟨S1x32, .f32⟩ : BufTy).Contents (Elt F)),
    unary main_v187 main_v188 (broadcastInDim S160000x32 ![0, 1] bcast_S1x32_S160000x32_0_1 : (⟨S1x32, .f32⟩ : BufTy).Contents (Elt F) → (⟨S160000x32, .f32⟩ : BufTy).Contents (Elt F)),
    binary main_v186 main_v188 main_v189 (mulf : (⟨S160000x32, .f32⟩ : BufTy).Contents (Elt F) → (⟨S160000x32, .f32⟩ : BufTy).Contents (Elt F) → (⟨S160000x32, .f32⟩ : BufTy).Contents (Elt F)),
    unary main_v173 main_v190 (broadcastInDim S1x32 ![1] bcast_S32_S1x32_1 : (⟨S32, .f32⟩ : BufTy).Contents (Elt F) → (⟨S1x32, .f32⟩ : BufTy).Contents (Elt F)),
    unary main_v190 main_v191 (broadcastInDim S160000x32 ![0, 1] bcast_S1x32_S160000x32_0_1 : (⟨S1x32, .f32⟩ : BufTy).Contents (Elt F) → (⟨S160000x32, .f32⟩ : BufTy).Contents (Elt F)),
    binary main_v189 main_v191 main_v192 (addf : (⟨S160000x32, .f32⟩ : BufTy).Contents (Elt F) → (⟨S160000x32, .f32⟩ : BufTy).Contents (Elt F) → (⟨S160000x32, .f32⟩ : BufTy).Contents (Elt F)),
    unary main_arg5 main_v193 ((extractStridedSlice S1x50x32 ![2, 0, 0] · slices_S5x50x32_S1x50x32_2_0_0) : (⟨S5x50x32, .f32⟩ : BufTy).Contents (Elt F) → (⟨S1x50x32, .f32⟩ : BufTy).Contents (Elt F)),
    reshape main_v193 main_v194 rfl shapeCasts_S1x50x32_S50x32,
    nullary main_c_28 (constantI S_ 32 0#32),
    unary main_c_28 main_v195 (broadcastInDim S160000x2 ![] bcast_S_S160000x2 : (⟨S_, .i32⟩ : BufTy).Contents (Elt F) → (⟨S160000x2, .i32⟩ : BufTy).Contents (Elt F)),
    binary main_arg0 main_v195 main_v196 (cmpi .slt : (⟨S160000x2, .i32⟩ : BufTy).Contents (Elt F) → (⟨S160000x2, .i32⟩ : BufTy).Contents (Elt F) → (⟨S160000x2, .i1⟩ : BufTy).Contents (Elt F)),
    nullary main_c_29 (constantI S_ 32 50#32),
    unary main_c_29 main_v197 (broadcastInDim S160000x2 ![] bcast_S_S160000x2 : (⟨S_, .i32⟩ : BufTy).Contents (Elt F) → (⟨S160000x2, .i32⟩ : BufTy).Contents (Elt F)),
    binary main_arg0 main_v197 main_v198 (addi : (⟨S160000x2, .i32⟩ : BufTy).Contents (Elt F) → (⟨S160000x2, .i32⟩ : BufTy).Contents (Elt F) → (⟨S160000x2, .i32⟩ : BufTy).Contents (Elt F)),
    ternary main_v196 main_v198 main_arg0 main_v199 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v199 main_v200 (broadcastInDim S160000x2x1 ![0, 1] bcast_S160000x2_S160000x2x1_0_1 : (⟨S160000x2, .i32⟩ : BufTy).Contents (Elt F) → (⟨S160000x2x1, .i32⟩ : BufTy).Contents (Elt F)),
    binary main_v194 main_v200 main_v201 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_30 (constant S_ .f32 0x00000000#32),
    binary main_v201 main_cst_30 main_v202 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v192 main_v202 main_v203 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v204 ((extractStridedSlice S1x64x32 ![2, 0, 0] · slices_S5x64x32_S1x64x32_2_0_0) : (⟨S5x64x32, .f32⟩ : BufTy).Contents (Elt F) → (⟨S1x64x32, .f32⟩ : BufTy).Contents (Elt F)),
    reshape main_v204 main_v205 rfl shapeCasts_S1x64x32_S64x32,
    binary main_v203 main_v205 main_v206 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)) ]

/-- The printed window 4 of @main (statements 240 … 299), each call's operations in place: 60 operations. -/
def part4 : List (HloOp τ sig (Elt F)) :=
  [ unary main_arg7 main_v207 ((extractStridedSlice S1x32 ![2, 0] · slices_S5x32_S1x32_2_0) : (⟨S5x32, .f32⟩ : BufTy).Contents (Elt F) → (⟨S1x32, .f32⟩ : BufTy).Contents (Elt F)),
    reshape main_v207 main_v208 rfl shapeCasts_S1x32_S32,
    unary main_v208 main_v209 (broadcastInDim S1x32 ![1] bcast_S32_S1x32_1 : (⟨S32, .f32⟩ : BufTy).Contents (Elt F) → (⟨S1x32, .f32⟩ : BufTy).Contents (Elt F)),
    unary main_v209 main_v210 (broadcastInDim S160000x32 ![0, 1] bcast_S1x32_S160000x32_0_1 : (⟨S1x32, .f32⟩ : BufTy).Contents (Elt F) → (⟨S160000x32, .f32⟩ : BufTy).Contents (Elt F)),
    binary main_v206 main_v210 main_v211 (addf : (⟨S160000x32, .f32⟩ : BufTy).Contents (Elt F) → (⟨S160000x32, .f32⟩ : BufTy).Contents (Elt F) → (⟨S160000x32, .f32⟩ : BufTy).Contents (Elt F)),
    unary main_arg8 main_v212 ((extractStridedSlice S1x32x32 ![2, 0, 0] · slices_S5x32x32_S1x32x32_2_0_0) : (⟨S5x32x32, .f32⟩ : BufTy).Contents (Elt F) → (⟨S1x32x32, .f32⟩ : BufTy).Contents (Elt F)),
    reshape main_v212 main_v213 rfl shapeCasts_S1x32x32_S32x32,
    binary main_v211 main_v213 main_v214 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_31 (constantI S_ 32 0#32),
    unary main_c_31 main_v215 (broadcastInDim S2560000 ![] bcast_S_S2560000 : (⟨S_, .i32⟩ : BufTy).Contents (Elt F) → (⟨S2560000, .i32⟩ : BufTy).Contents (Elt F)),
    binary main_v1 main_v215 main_v216 (cmpi .slt : (⟨S2560000, .i32⟩ : BufTy).Contents (Elt F) → (⟨S2560000, .i32⟩ : BufTy).Contents (Elt F) → (⟨S2560000, .i1⟩ : BufTy).Contents (Elt F)),
    nullary main_c_32 (constantI S_ 32 160000#32),
    unary main_c_32 main_v217 (broadcastInDim S2560000 ![] bcast_S_S2560000 : (⟨S_, .i32⟩ : BufTy).Contents (Elt F) → (⟨S2560000, .i32⟩ : BufTy).Contents (Elt F)),
    binary main_v1 main_v217 main_v218 (addi : (⟨S2560000, .i32⟩ : BufTy).Contents (Elt F) → (⟨S2560000, .i32⟩ : BufTy).Contents (Elt F) → (⟨S2560000, .i32⟩ : BufTy).Contents (Elt F)),
    ternary main_v216 main_v218 main_v1 main_v219 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v219 main_v220 (broadcastInDim S2560000x1 ![0] bcast_S2560000_S2560000x1_0 : (⟨S2560000, .i32⟩ : BufTy).Contents (Elt F) → (⟨S2560000x1, .i32⟩ : BufTy).Contents (Elt F)),
    binary main_v214 main_v220 main_v221 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_33 (constant S_ .f32 0x00000000#32),
    unary main_cst_33 main_v222 (broadcastInDim S160000x32 ![] bcast_S_S160000x32 : (⟨S_, .f32⟩ : BufTy).Contents (Elt F) → (⟨S160000x32, .f32⟩ : BufTy).Contents (Elt F)),
    unary main_v3 main_v223 (broadcastInDim S2560000x1 ![0] bcast_S2560000_S2560000x1_0 : (⟨S2560000, .i32⟩ : BufTy).Contents (Elt F) → (⟨S2560000x1, .i32⟩ : BufTy).Contents (Elt F)),
    ternary main_v222 main_v223 main_v221 main_v224 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v225 ((extractStridedSlice S1x32x96 ![2, 0, 0] · slices_S5x32x96_S1x32x96_2_0_0) : (⟨S5x32x96, .f32⟩ : BufTy).Contents (Elt F) → (⟨S1x32x96, .f32⟩ : BufTy).Contents (Elt F)),
    reshape main_v225 main_v226 rfl shapeCasts_S1x32x96_S32x96,
    binary main_v224 main_v226 main_v227 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v228 ((extractStridedSlice S1x96 ![2, 0] · slices_S5x96_S1x96_2_0) : (⟨S5x96, .f32⟩ : BufTy).Contents (Elt F) → (⟨S1x96, .f32⟩ : BufTy).Contents (Elt F)),
    reshape main_v228 main_v229 rfl shapeCasts_S1x96_S96,
    unary main_v229 main_v230 (broadcastInDim S1x96 ![1] bcast_S96_S1x96_1 : (⟨S96, .f32⟩ : BufTy).Contents (Elt F) → (⟨S1x96, .f32⟩ : BufTy).Contents (Elt F)),
    unary main_v230 main_v231 (broadcastInDim S160000x96 ![0, 1] bcast_S1x96_S160000x96_0_1 : (⟨S1x96, .f32⟩ : BufTy).Contents (Elt F) → (⟨S160000x96, .f32⟩ : BufTy).Contents (Elt F)),
    binary main_v227 main_v231 main_v232 (addf : (⟨S160000x96, .f32⟩ : BufTy).Contents (Elt F) → (⟨S160000x96, .f32⟩ : BufTy).Contents (Elt F) → (⟨S160000x96, .f32⟩ : BufTy).Contents (Elt F)),
    unary main_arg10 main_v233 ((extractStridedSlice S1x32x96 ![2, 0, 0] · slices_S5x32x96_S1x32x96_2_0_0) : (⟨S5x32x96, .f32⟩ : BufTy).Contents (Elt F) → (⟨S1x32x96, .f32⟩ : BufTy).Contents (Elt F)),
    reshape main_v233 main_v234 rfl shapeCasts_S1x32x96_S32x96,
    binary main_v211 main_v234 main_v235 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v236 ((extractStridedSlice S1x96 ![2, 0] · slices_S5x96_S1x96_2_0) : (⟨S5x96, .f32⟩ : BufTy).Contents (Elt F) → (⟨S1x96, .f32⟩ : BufTy).Contents (Elt F)),
    reshape main_v236 main_v237 rfl shapeCasts_S1x96_S96,
    unary main_v237 main_v238 (broadcastInDim S1x96 ![1] bcast_S96_S1x96_1 : (⟨S96, .f32⟩ : BufTy).Contents (Elt F) → (⟨S1x96, .f32⟩ : BufTy).Contents (Elt F)),
    unary main_v238 main_v239 (broadcastInDim S160000x96 ![0, 1] bcast_S1x96_S160000x96_0_1 : (⟨S1x96, .f32⟩ : BufTy).Contents (Elt F) → (⟨S160000x96, .f32⟩ : BufTy).Contents (Elt F)),
    binary main_v235 main_v239 main_v240 (addf : (⟨S160000x96, .f32⟩ : BufTy).Contents (Elt F) → (⟨S160000x96, .f32⟩ : BufTy).Contents (Elt F) → (⟨S160000x96, .f32⟩ : BufTy).Contents (Elt F)),
    unary main_v232 main_v241 ((extractStridedSlice S160000x32 ![0, 0] · slices_S160000x96_S160000x32_0_0) : (⟨S160000x96, .f32⟩ : BufTy).Contents (Elt F) → (⟨S160000x32, .f32⟩ : BufTy).Contents (Elt F)),
    unary main_v232 main_v242 ((extractStridedSlice S160000x32 ![0, 32] · slices_S160000x96_S160000x32_0_32) : (⟨S160000x96, .f32⟩ : BufTy).Contents (Elt F) → (⟨S160000x32, .f32⟩ : BufTy).Contents (Elt F)),
    unary main_v232 main_v243 ((extractStridedSlice S160000x32 ![0, 64] · slices_S160000x96_S160000x32_0_64) : (⟨S160000x96, .f32⟩ : BufTy).Contents (Elt F) → (⟨S160000x32, .f32⟩ : BufTy).Contents (Elt F)),
    unary main_v240 main_v244 ((extractStridedSlice S160000x32 ![0, 0] · slices_S160000x96_S160000x32_0_0) : (⟨S160000x96, .f32⟩ : BufTy).Contents (Elt F) → (⟨S160000x32, .f32⟩ : BufTy).Contents (Elt F)),
    unary main_v240 main_v245 ((extractStridedSlice S160000x32 ![0, 32] · slices_S160000x96_S160000x32_0_32) : (⟨S160000x96, .f32⟩ : BufTy).Contents (Elt F) → (⟨S160000x32, .f32⟩ : BufTy).Contents (Elt F)),
    unary main_v240 main_v246 ((extractStridedSlice S160000x32 ![0, 64] · slices_S160000x96_S160000x32_0_64) : (⟨S160000x96, .f32⟩ : BufTy).Contents (Elt F) → (⟨S160000x32, .f32⟩ : BufTy).Contents (Elt F)),
    binary main_v241 main_v244 main_v247 (addf : (⟨S160000x32, .f32⟩ : BufTy).Contents (Elt F) → (⟨S160000x32, .f32⟩ : BufTy).Contents (Elt F) → (⟨S160000x32, .f32⟩ : BufTy).Contents (Elt F)),
    unary main_v247 main_v248 (Host.negf : (⟨S160000x32, .f32⟩ : BufTy).Contents (Elt F) → (⟨S160000x32, .f32⟩ : BufTy).Contents (Elt F)),
    unary main_v248 main_v249 (Host.exp : (⟨S160000x32, .f32⟩ : BufTy).Contents (Elt F) → (⟨S160000x32, .f32⟩ : BufTy).Contents (Elt F)),
    nullary main_cst_34 (constant S_ .f32 0x3F800000#32),
    unary main_cst_34 main_v250 (broadcastInDim S160000x32 ![] bcast_S_S160000x32 : (⟨S_, .f32⟩ : BufTy).Contents (Elt F) → (⟨S160000x32, .f32⟩ : BufTy).Contents (Elt F)),
    binary main_v250 main_v249 main_v251 (addf : (⟨S160000x32, .f32⟩ : BufTy).Contents (Elt F) → (⟨S160000x32, .f32⟩ : BufTy).Contents (Elt F) → (⟨S160000x32, .f32⟩ : BufTy).Contents (Elt F)),
    nullary main_cst_35 (constant S_ .f32 0x3F800000#32),
    unary main_cst_35 main_v252 (broadcastInDim S160000x32 ![] bcast_S_S160000x32 : (⟨S_, .f32⟩ : BufTy).Contents (Elt F) → (⟨S160000x32, .f32⟩ : BufTy).Contents (Elt F)),
    binary main_v252 main_v251 main_v253 (Host.divf : (⟨S160000x32, .f32⟩ : BufTy).Contents (Elt F) → (⟨S160000x32, .f32⟩ : BufTy).Contents (Elt F) → (⟨S160000x32, .f32⟩ : BufTy).Contents (Elt F)),
    binary main_v242 main_v245 main_v254 (addf : (⟨S160000x32, .f32⟩ : BufTy).Contents (Elt F) → (⟨S160000x32, .f32⟩ : BufTy).Contents (Elt F) → (⟨S160000x32, .f32⟩ : BufTy).Contents (Elt F)),
    unary main_v254 main_v255 (Host.negf : (⟨S160000x32, .f32⟩ : BufTy).Contents (Elt F) → (⟨S160000x32, .f32⟩ : BufTy).Contents (Elt F)),
    unary main_v255 main_v256 (Host.exp : (⟨S160000x32, .f32⟩ : BufTy).Contents (Elt F) → (⟨S160000x32, .f32⟩ : BufTy).Contents (Elt F)),
    nullary main_cst_36 (constant S_ .f32 0x3F800000#32),
    unary main_cst_36 main_v257 (broadcastInDim S160000x32 ![] bcast_S_S160000x32 : (⟨S_, .f32⟩ : BufTy).Contents (Elt F) → (⟨S160000x32, .f32⟩ : BufTy).Contents (Elt F)),
    binary main_v257 main_v256 main_v258 (addf : (⟨S160000x32, .f32⟩ : BufTy).Contents (Elt F) → (⟨S160000x32, .f32⟩ : BufTy).Contents (Elt F) → (⟨S160000x32, .f32⟩ : BufTy).Contents (Elt F)),
    nullary main_cst_37 (constant S_ .f32 0x3F800000#32),
    unary main_cst_37 main_v259 (broadcastInDim S160000x32 ![] bcast_S_S160000x32 : (⟨S_, .f32⟩ : BufTy).Contents (Elt F) → (⟨S160000x32, .f32⟩ : BufTy).Contents (Elt F)) ]

/-- The printed window 5 of @main (statements 300 … 359), each call's operations in place: 81 operations. -/
def part5 : List (HloOp τ sig (Elt F)) :=
  [ binary main_v259 main_v258 main_v260 (Host.divf : (⟨S160000x32, .f32⟩ : BufTy).Contents (Elt F) → (⟨S160000x32, .f32⟩ : BufTy).Contents (Elt F) → (⟨S160000x32, .f32⟩ : BufTy).Contents (Elt F)),
    binary main_v253 main_v246 main_v261 (mulf : (⟨S160000x32, .f32⟩ : BufTy).Contents (Elt F) → (⟨S160000x32, .f32⟩ : BufTy).Contents (Elt F) → (⟨S160000x32, .f32⟩ : BufTy).Contents (Elt F)),
    binary main_v243 main_v261 main_v262 (addf : (⟨S160000x32, .f32⟩ : BufTy).Contents (Elt F) → (⟨S160000x32, .f32⟩ : BufTy).Contents (Elt F) → (⟨S160000x32, .f32⟩ : BufTy).Contents (Elt F)),
    unary main_v262 main_v263 (Host.tanh : (⟨S160000x32, .f32⟩ : BufTy).Contents (Elt F) → (⟨S160000x32, .f32⟩ : BufTy).Contents (Elt F)),
    nullary main_cst_38 (constant S_ .f32 0x3F800000#32),
    unary main_cst_38 main_v264 (broadcastInDim S160000x32 ![] bcast_S_S160000x32 : (⟨S_, .f32⟩ : BufTy).Contents (Elt F) → (⟨S160000x32, .f32⟩ : BufTy).Contents (Elt F)),
    binary main_v264 main_v260 main_v265 (subf : (⟨S160000x32, .f32⟩ : BufTy).Contents (Elt F) → (⟨S160000x32, .f32⟩ : BufTy).Contents (Elt F) → (⟨S160000x32, .f32⟩ : BufTy).Contents (Elt F)),
    binary main_v265 main_v263 main_v266 (mulf : (⟨S160000x32, .f32⟩ : BufTy).Contents (Elt F) → (⟨S160000x32, .f32⟩ : BufTy).Contents (Elt F) → (⟨S160000x32, .f32⟩ : BufTy).Contents (Elt F)),
    binary main_v260 main_v211 main_v267 (mulf : (⟨S160000x32, .f32⟩ : BufTy).Contents (Elt F) → (⟨S160000x32, .f32⟩ : BufTy).Contents (Elt F) → (⟨S160000x32, .f32⟩ : BufTy).Contents (Elt F)),
    binary main_v266 main_v267 main_v268 (addf : (⟨S160000x32, .f32⟩ : BufTy).Contents (Elt F) → (⟨S160000x32, .f32⟩ : BufTy).Contents (Elt F) → (⟨S160000x32, .f32⟩ : BufTy).Contents (Elt F)),
    unary main_arg13 main_v269 ((extractStridedSlice S1x32 ![2, 0] · slices_S5x32_S1x32_2_0) : (⟨S5x32, .f32⟩ : BufTy).Contents (Elt F) → (⟨S1x32, .f32⟩ : BufTy).Contents (Elt F)),
    reshape main_v269 main_v270 rfl shapeCasts_S1x32_S32,
    unary main_arg14 main_v271 ((extractStridedSlice S1x32 ![2, 0] · slices_S5x32_S1x32_2_0) : (⟨S5x32, .f32⟩ : BufTy).Contents (Elt F) → (⟨S1x32, .f32⟩ : BufTy).Contents (Elt F)),
    reshape main_v271 main_v272 rfl shapeCasts_S1x32_S32,
    nullary main_cst_39 (constant S_ .f32 0x00000000#32),
    binary main_v268 main_cst_39 main_v273 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_40 (constant S_ .f32 0x481C4000#32),
    unary main_cst_40 main_v274 (broadcastInDim S32 ![] bcast_S_S32 : (⟨S_, .f32⟩ : BufTy).Contents (Elt F) → (⟨S32, .f32⟩ : BufTy).Contents (Elt F)),
    binary main_v273 main_v274 main_v275 (Host.divf : (⟨S32, .f32⟩ : BufTy).Contents (Elt F) → (⟨S32, .f32⟩ : BufTy).Contents (Elt F) → (⟨S32, .f32⟩ : BufTy).Contents (Elt F)),
    nullary main_c_41 (constantI S_ 32 0#32),
    TRef.nullary main_call2.cst (constant S_ .f32 0x00000000#32),
    TRef.binary (.of main_v268) main_call2.cst main_call2.v0 (fun x v => Host.reduceAdd x v reducesTo_S160000x32_S32_d0 h_S_),
    TRef.unary main_call2.v0 main_call2.v1 (broadcastInDim S1x32 ![1] bcast_S32_S1x32_1),
    TRef.nullary main_call2.cst_0 (constant S_ .f32 0x481C4000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S160000x32 ![0, 1] bcast_S1x32_S160000x32_0_1),
    TRef.binary (.of main_v268) main_call2.v4 main_call2.v5 subf,
    TRef.binary main_call2.v5 main_call2.v5 main_call2.v6 mulf,
    TRef.unary (.of main_c_41) main_call2.v7 (sitofp .f32),
    TRef.nullary main_call2.cst_1 (constant S_ .f32 0x481C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S160000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b),
    unary main_v275 main_v277 (broadcastInDim S1x32 ![1] bcast_S32_S1x32_1 : (⟨S32, .f32⟩ : BufTy).Contents (Elt F) → (⟨S1x32, .f32⟩ : BufTy).Contents (Elt F)),
    unary main_v277 main_v278 (broadcastInDim S160000x32 ![0, 1] bcast_S1x32_S160000x32_0_1 : (⟨S1x32, .f32⟩ : BufTy).Contents (Elt F) → (⟨S160000x32, .f32⟩ : BufTy).Contents (Elt F)),
    binary main_v268 main_v278 main_v279 (subf : (⟨S160000x32, .f32⟩ : BufTy).Contents (Elt F) → (⟨S160000x32, .f32⟩ : BufTy).Contents (Elt F) → (⟨S160000x32, .f32⟩ : BufTy).Contents (Elt F)),
    nullary main_cst_42 (constant S_ .f32 0x3727C5AC#32),
    unary main_cst_42 main_v280 (broadcastInDim S32 ![] bcast_S_S32 : (⟨S_, .f32⟩ : BufTy).Contents (Elt F) → (⟨S32, .f32⟩ : BufTy).Contents (Elt F)),
    binary main_v276 main_v280 main_v281 (addf : (⟨S32, .f32⟩ : BufTy).Contents (Elt F) → (⟨S32, .f32⟩ : BufTy).Contents (Elt F) → (⟨S32, .f32⟩ : BufTy).Contents (Elt F)),
    unary main_v281 main_v282 (Host.rsqrt : (⟨S32, .f32⟩ : BufTy).Contents (Elt F) → (⟨S32, .f32⟩ : BufTy).Contents (Elt F)),
    unary main_v282 main_v283 (broadcastInDim S1x32 ![1] bcast_S32_S1x32_1 : (⟨S32, .f32⟩ : BufTy).Contents (Elt F) → (⟨S1x32, .f32⟩ : BufTy).Contents (Elt F)),
    unary main_v283 main_v284 (broadcastInDim S160000x32 ![0, 1] bcast_S1x32_S160000x32_0_1 : (⟨S1x32, .f32⟩ : BufTy).Contents (Elt F) → (⟨S160000x32, .f32⟩ : BufTy).Contents (Elt F)),
    binary main_v279 main_v284 main_v285 (mulf : (⟨S160000x32, .f32⟩ : BufTy).Contents (Elt F) → (⟨S160000x32, .f32⟩ : BufTy).Contents (Elt F) → (⟨S160000x32, .f32⟩ : BufTy).Contents (Elt F)),
    unary main_v270 main_v286 (broadcastInDim S1x32 ![1] bcast_S32_S1x32_1 : (⟨S32, .f32⟩ : BufTy).Contents (Elt F) → (⟨S1x32, .f32⟩ : BufTy).Contents (Elt F)),
    unary main_v286 main_v287 (broadcastInDim S160000x32 ![0, 1] bcast_S1x32_S160000x32_0_1 : (⟨S1x32, .f32⟩ : BufTy).Contents (Elt F) → (⟨S160000x32, .f32⟩ : BufTy).Contents (Elt F)),
    binary main_v285 main_v287 main_v288 (mulf : (⟨S160000x32, .f32⟩ : BufTy).Contents (Elt F) → (⟨S160000x32, .f32⟩ : BufTy).Contents (Elt F) → (⟨S160000x32, .f32⟩ : BufTy).Contents (Elt F)),
    unary main_v272 main_v289 (broadcastInDim S1x32 ![1] bcast_S32_S1x32_1 : (⟨S32, .f32⟩ : BufTy).Contents (Elt F) → (⟨S1x32, .f32⟩ : BufTy).Contents (Elt F)),
    unary main_v289 main_v290 (broadcastInDim S160000x32 ![0, 1] bcast_S1x32_S160000x32_0_1 : (⟨S1x32, .f32⟩ : BufTy).Contents (Elt F) → (⟨S160000x32, .f32⟩ : BufTy).Contents (Elt F)),
    binary main_v288 main_v290 main_v291 (addf : (⟨S160000x32, .f32⟩ : BufTy).Contents (Elt F) → (⟨S160000x32, .f32⟩ : BufTy).Contents (Elt F) → (⟨S160000x32, .f32⟩ : BufTy).Contents (Elt F)),
    unary main_arg5 main_v292 ((extractStridedSlice S1x50x32 ![3, 0, 0] · slices_S5x50x32_S1x50x32_3_0_0) : (⟨S5x50x32, .f32⟩ : BufTy).Contents (Elt F) → (⟨S1x50x32, .f32⟩ : BufTy).Contents (Elt F)),
    reshape main_v292 main_v293 rfl shapeCasts_S1x50x32_S50x32,
    nullary main_c_43 (constantI S_ 32 0#32),
    unary main_c_43 main_v294 (broadcastInDim S160000x2 ![] bcast_S_S160000x2 : (⟨S_, .i32⟩ : BufTy).Contents (Elt F) → (⟨S160000x2, .i32⟩ : BufTy).Contents (Elt F)),
    binary main_arg0 main_v294 main_v295 (cmpi .slt : (⟨S160000x2, .i32⟩ : BufTy).Contents (Elt F) → (⟨S160000x2, .i32⟩ : BufTy).Contents (Elt F) → (⟨S160000x2, .i1⟩ : BufTy).Contents (Elt F)),
    nullary main_c_44 (constantI S_ 32 50#32),
    unary main_c_44 main_v296 (broadcastInDim S160000x2 ![] bcast_S_S160000x2 : (⟨S_, .i32⟩ : BufTy).Contents (Elt F) → (⟨S160000x2, .i32⟩ : BufTy).Contents (Elt F)),
    binary main_arg0 main_v296 main_v297 (addi : (⟨S160000x2, .i32⟩ : BufTy).Contents (Elt F) → (⟨S160000x2, .i32⟩ : BufTy).Contents (Elt F) → (⟨S160000x2, .i32⟩ : BufTy).Contents (Elt F)),
    ternary main_v295 main_v297 main_arg0 main_v298 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v298 main_v299 (broadcastInDim S160000x2x1 ![0, 1] bcast_S160000x2_S160000x2x1_0_1 : (⟨S160000x2, .i32⟩ : BufTy).Contents (Elt F) → (⟨S160000x2x1, .i32⟩ : BufTy).Contents (Elt F)),
    binary main_v293 main_v299 main_v300 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_45 (constant S_ .f32 0x00000000#32),
    binary main_v300 main_cst_45 main_v301 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v291 main_v301 main_v302 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v303 ((extractStridedSlice S1x64x32 ![3, 0, 0] · slices_S5x64x32_S1x64x32_3_0_0) : (⟨S5x64x32, .f32⟩ : BufTy).Contents (Elt F) → (⟨S1x64x32, .f32⟩ : BufTy).Contents (Elt F)),
    reshape main_v303 main_v304 rfl shapeCasts_S1x64x32_S64x32,
    binary main_v302 main_v304 main_v305 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v306 ((extractStridedSlice S1x32 ![3, 0] · slices_S5x32_S1x32_3_0) : (⟨S5x32, .f32⟩ : BufTy).Contents (Elt F) → (⟨S1x32, .f32⟩ : BufTy).Contents (Elt F)),
    reshape main_v306 main_v307 rfl shapeCasts_S1x32_S32,
    unary main_v307 main_v308 (broadcastInDim S1x32 ![1] bcast_S32_S1x32_1 : (⟨S32, .f32⟩ : BufTy).Contents (Elt F) → (⟨S1x32, .f32⟩ : BufTy).Contents (Elt F)),
    unary main_v308 main_v309 (broadcastInDim S160000x32 ![0, 1] bcast_S1x32_S160000x32_0_1 : (⟨S1x32, .f32⟩ : BufTy).Contents (Elt F) → (⟨S160000x32, .f32⟩ : BufTy).Contents (Elt F)),
    binary main_v305 main_v309 main_v310 (addf : (⟨S160000x32, .f32⟩ : BufTy).Contents (Elt F) → (⟨S160000x32, .f32⟩ : BufTy).Contents (Elt F) → (⟨S160000x32, .f32⟩ : BufTy).Contents (Elt F)),
    unary main_arg8 main_v311 ((extractStridedSlice S1x32x32 ![3, 0, 0] · slices_S5x32x32_S1x32x32_3_0_0) : (⟨S5x32x32, .f32⟩ : BufTy).Contents (Elt F) → (⟨S1x32x32, .f32⟩ : BufTy).Contents (Elt F)) ]

/-- The printed window 6 of @main (statements 360 … 419), each call's operations in place: 60 operations. -/
def part6 : List (HloOp τ sig (Elt F)) :=
  [ reshape main_v311 main_v312 rfl shapeCasts_S1x32x32_S32x32,
    binary main_v310 main_v312 main_v313 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_46 (constantI S_ 32 0#32),
    unary main_c_46 main_v314 (broadcastInDim S2560000 ![] bcast_S_S2560000 : (⟨S_, .i32⟩ : BufTy).Contents (Elt F) → (⟨S2560000, .i32⟩ : BufTy).Contents (Elt F)),
    binary main_v1 main_v314 main_v315 (cmpi .slt : (⟨S2560000, .i32⟩ : BufTy).Contents (Elt F) → (⟨S2560000, .i32⟩ : BufTy).Contents (Elt F) → (⟨S2560000, .i1⟩ : BufTy).Contents (Elt F)),
    nullary main_c_47 (constantI S_ 32 160000#32),
    unary main_c_47 main_v316 (broadcastInDim S2560000 ![] bcast_S_S2560000 : (⟨S_, .i32⟩ : BufTy).Contents (Elt F) → (⟨S2560000, .i32⟩ : BufTy).Contents (Elt F)),
    binary main_v1 main_v316 main_v317 (addi : (⟨S2560000, .i32⟩ : BufTy).Contents (Elt F) → (⟨S2560000, .i32⟩ : BufTy).Contents (Elt F) → (⟨S2560000, .i32⟩ : BufTy).Contents (Elt F)),
    ternary main_v315 main_v317 main_v1 main_v318 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v318 main_v319 (broadcastInDim S2560000x1 ![0] bcast_S2560000_S2560000x1_0 : (⟨S2560000, .i32⟩ : BufTy).Contents (Elt F) → (⟨S2560000x1, .i32⟩ : BufTy).Contents (Elt F)),
    binary main_v313 main_v319 main_v320 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_48 (constant S_ .f32 0x00000000#32),
    unary main_cst_48 main_v321 (broadcastInDim S160000x32 ![] bcast_S_S160000x32 : (⟨S_, .f32⟩ : BufTy).Contents (Elt F) → (⟨S160000x32, .f32⟩ : BufTy).Contents (Elt F)),
    unary main_v3 main_v322 (broadcastInDim S2560000x1 ![0] bcast_S2560000_S2560000x1_0 : (⟨S2560000, .i32⟩ : BufTy).Contents (Elt F) → (⟨S2560000x1, .i32⟩ : BufTy).Contents (Elt F)),
    ternary main_v321 main_v322 main_v320 main_v323 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v324 ((extractStridedSlice S1x32x96 ![3, 0, 0] · slices_S5x32x96_S1x32x96_3_0_0) : (⟨S5x32x96, .f32⟩ : BufTy).Contents (Elt F) → (⟨S1x32x96, .f32⟩ : BufTy).Contents (Elt F)),
    reshape main_v324 main_v325 rfl shapeCasts_S1x32x96_S32x96,
    binary main_v323 main_v325 main_v326 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v327 ((extractStridedSlice S1x96 ![3, 0] · slices_S5x96_S1x96_3_0) : (⟨S5x96, .f32⟩ : BufTy).Contents (Elt F) → (⟨S1x96, .f32⟩ : BufTy).Contents (Elt F)),
    reshape main_v327 main_v328 rfl shapeCasts_S1x96_S96,
    unary main_v328 main_v329 (broadcastInDim S1x96 ![1] bcast_S96_S1x96_1 : (⟨S96, .f32⟩ : BufTy).Contents (Elt F) → (⟨S1x96, .f32⟩ : BufTy).Contents (Elt F)),
    unary main_v329 main_v330 (broadcastInDim S160000x96 ![0, 1] bcast_S1x96_S160000x96_0_1 : (⟨S1x96, .f32⟩ : BufTy).Contents (Elt F) → (⟨S160000x96, .f32⟩ : BufTy).Contents (Elt F)),
    binary main_v326 main_v330 main_v331 (addf : (⟨S160000x96, .f32⟩ : BufTy).Contents (Elt F) → (⟨S160000x96, .f32⟩ : BufTy).Contents (Elt F) → (⟨S160000x96, .f32⟩ : BufTy).Contents (Elt F)),
    unary main_arg10 main_v332 ((extractStridedSlice S1x32x96 ![3, 0, 0] · slices_S5x32x96_S1x32x96_3_0_0) : (⟨S5x32x96, .f32⟩ : BufTy).Contents (Elt F) → (⟨S1x32x96, .f32⟩ : BufTy).Contents (Elt F)),
    reshape main_v332 main_v333 rfl shapeCasts_S1x32x96_S32x96,
    binary main_v310 main_v333 main_v334 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v335 ((extractStridedSlice S1x96 ![3, 0] · slices_S5x96_S1x96_3_0) : (⟨S5x96, .f32⟩ : BufTy).Contents (Elt F) → (⟨S1x96, .f32⟩ : BufTy).Contents (Elt F)),
    reshape main_v335 main_v336 rfl shapeCasts_S1x96_S96,
    unary main_v336 main_v337 (broadcastInDim S1x96 ![1] bcast_S96_S1x96_1 : (⟨S96, .f32⟩ : BufTy).Contents (Elt F) → (⟨S1x96, .f32⟩ : BufTy).Contents (Elt F)),
    unary main_v337 main_v338 (broadcastInDim S160000x96 ![0, 1] bcast_S1x96_S160000x96_0_1 : (⟨S1x96, .f32⟩ : BufTy).Contents (Elt F) → (⟨S160000x96, .f32⟩ : BufTy).Contents (Elt F)),
    binary main_v334 main_v338 main_v339 (addf : (⟨S160000x96, .f32⟩ : BufTy).Contents (Elt F) → (⟨S160000x96, .f32⟩ : BufTy).Contents (Elt F) → (⟨S160000x96, .f32⟩ : BufTy).Contents (Elt F)),
    unary main_v331 main_v340 ((extractStridedSlice S160000x32 ![0, 0] · slices_S160000x96_S160000x32_0_0) : (⟨S160000x96, .f32⟩ : BufTy).Contents (Elt F) → (⟨S160000x32, .f32⟩ : BufTy).Contents (Elt F)),
    unary main_v331 main_v341 ((extractStridedSlice S160000x32 ![0, 32] · slices_S160000x96_S160000x32_0_32) : (⟨S160000x96, .f32⟩ : BufTy).Contents (Elt F) → (⟨S160000x32, .f32⟩ : BufTy).Contents (Elt F)),
    unary main_v331 main_v342 ((extractStridedSlice S160000x32 ![0, 64] · slices_S160000x96_S160000x32_0_64) : (⟨S160000x96, .f32⟩ : BufTy).Contents (Elt F) → (⟨S160000x32, .f32⟩ : BufTy).Contents (Elt F)),
    unary main_v339 main_v343 ((extractStridedSlice S160000x32 ![0, 0] · slices_S160000x96_S160000x32_0_0) : (⟨S160000x96, .f32⟩ : BufTy).Contents (Elt F) → (⟨S160000x32, .f32⟩ : BufTy).Contents (Elt F)),
    unary main_v339 main_v344 ((extractStridedSlice S160000x32 ![0, 32] · slices_S160000x96_S160000x32_0_32) : (⟨S160000x96, .f32⟩ : BufTy).Contents (Elt F) → (⟨S160000x32, .f32⟩ : BufTy).Contents (Elt F)),
    unary main_v339 main_v345 ((extractStridedSlice S160000x32 ![0, 64] · slices_S160000x96_S160000x32_0_64) : (⟨S160000x96, .f32⟩ : BufTy).Contents (Elt F) → (⟨S160000x32, .f32⟩ : BufTy).Contents (Elt F)),
    binary main_v340 main_v343 main_v346 (addf : (⟨S160000x32, .f32⟩ : BufTy).Contents (Elt F) → (⟨S160000x32, .f32⟩ : BufTy).Contents (Elt F) → (⟨S160000x32, .f32⟩ : BufTy).Contents (Elt F)),
    unary main_v346 main_v347 (Host.negf : (⟨S160000x32, .f32⟩ : BufTy).Contents (Elt F) → (⟨S160000x32, .f32⟩ : BufTy).Contents (Elt F)),
    unary main_v347 main_v348 (Host.exp : (⟨S160000x32, .f32⟩ : BufTy).Contents (Elt F) → (⟨S160000x32, .f32⟩ : BufTy).Contents (Elt F)),
    nullary main_cst_49 (constant S_ .f32 0x3F800000#32),
    unary main_cst_49 main_v349 (broadcastInDim S160000x32 ![] bcast_S_S160000x32 : (⟨S_, .f32⟩ : BufTy).Contents (Elt F) → (⟨S160000x32, .f32⟩ : BufTy).Contents (Elt F)),
    binary main_v349 main_v348 main_v350 (addf : (⟨S160000x32, .f32⟩ : BufTy).Contents (Elt F) → (⟨S160000x32, .f32⟩ : BufTy).Contents (Elt F) → (⟨S160000x32, .f32⟩ : BufTy).Contents (Elt F)),
    nullary main_cst_50 (constant S_ .f32 0x3F800000#32),
    unary main_cst_50 main_v351 (broadcastInDim S160000x32 ![] bcast_S_S160000x32 : (⟨S_, .f32⟩ : BufTy).Contents (Elt F) → (⟨S160000x32, .f32⟩ : BufTy).Contents (Elt F)),
    binary main_v351 main_v350 main_v352 (Host.divf : (⟨S160000x32, .f32⟩ : BufTy).Contents (Elt F) → (⟨S160000x32, .f32⟩ : BufTy).Contents (Elt F) → (⟨S160000x32, .f32⟩ : BufTy).Contents (Elt F)),
    binary main_v341 main_v344 main_v353 (addf : (⟨S160000x32, .f32⟩ : BufTy).Contents (Elt F) → (⟨S160000x32, .f32⟩ : BufTy).Contents (Elt F) → (⟨S160000x32, .f32⟩ : BufTy).Contents (Elt F)),
    unary main_v353 main_v354 (Host.negf : (⟨S160000x32, .f32⟩ : BufTy).Contents (Elt F) → (⟨S160000x32, .f32⟩ : BufTy).Contents (Elt F)),
    unary main_v354 main_v355 (Host.exp : (⟨S160000x32, .f32⟩ : BufTy).Contents (Elt F) → (⟨S160000x32, .f32⟩ : BufTy).Contents (Elt F)),
    nullary main_cst_51 (constant S_ .f32 0x3F800000#32),
    unary main_cst_51 main_v356 (broadcastInDim S160000x32 ![] bcast_S_S160000x32 : (⟨S_, .f32⟩ : BufTy).Contents (Elt F) → (⟨S160000x32, .f32⟩ : BufTy).Contents (Elt F)),
    binary main_v356 main_v355 main_v357 (addf : (⟨S160000x32, .f32⟩ : BufTy).Contents (Elt F) → (⟨S160000x32, .f32⟩ : BufTy).Contents (Elt F) → (⟨S160000x32, .f32⟩ : BufTy).Contents (Elt F)),
    nullary main_cst_52 (constant S_ .f32 0x3F800000#32),
    unary main_cst_52 main_v358 (broadcastInDim S160000x32 ![] bcast_S_S160000x32 : (⟨S_, .f32⟩ : BufTy).Contents (Elt F) → (⟨S160000x32, .f32⟩ : BufTy).Contents (Elt F)),
    binary main_v358 main_v357 main_v359 (Host.divf : (⟨S160000x32, .f32⟩ : BufTy).Contents (Elt F) → (⟨S160000x32, .f32⟩ : BufTy).Contents (Elt F) → (⟨S160000x32, .f32⟩ : BufTy).Contents (Elt F)),
    binary main_v352 main_v345 main_v360 (mulf : (⟨S160000x32, .f32⟩ : BufTy).Contents (Elt F) → (⟨S160000x32, .f32⟩ : BufTy).Contents (Elt F) → (⟨S160000x32, .f32⟩ : BufTy).Contents (Elt F)),
    binary main_v342 main_v360 main_v361 (addf : (⟨S160000x32, .f32⟩ : BufTy).Contents (Elt F) → (⟨S160000x32, .f32⟩ : BufTy).Contents (Elt F) → (⟨S160000x32, .f32⟩ : BufTy).Contents (Elt F)),
    unary main_v361 main_v362 (Host.tanh : (⟨S160000x32, .f32⟩ : BufTy).Contents (Elt F) → (⟨S160000x32, .f32⟩ : BufTy).Contents (Elt F)),
    nullary main_cst_53 (constant S_ .f32 0x3F800000#32),
    unary main_cst_53 main_v363 (broadcastInDim S160000x32 ![] bcast_S_S160000x32 : (⟨S_, .f32⟩ : BufTy).Contents (Elt F) → (⟨S160000x32, .f32⟩ : BufTy).Contents (Elt F)) ]

/-- The printed window 7 of @main (statements 420 … 479), each call's operations in place: 81 operations. -/
def part7 : List (HloOp τ sig (Elt F)) :=
  [ binary main_v363 main_v359 main_v364 (subf : (⟨S160000x32, .f32⟩ : BufTy).Contents (Elt F) → (⟨S160000x32, .f32⟩ : BufTy).Contents (Elt F) → (⟨S160000x32, .f32⟩ : BufTy).Contents (Elt F)),
    binary main_v364 main_v362 main_v365 (mulf : (⟨S160000x32, .f32⟩ : BufTy).Contents (Elt F) → (⟨S160000x32, .f32⟩ : BufTy).Contents (Elt F) → (⟨S160000x32, .f32⟩ : BufTy).Contents (Elt F)),
    binary main_v359 main_v310 main_v366 (mulf : (⟨S160000x32, .f32⟩ : BufTy).Contents (Elt F) → (⟨S160000x32, .f32⟩ : BufTy).Contents (Elt F) → (⟨S160000x32, .f32⟩ : BufTy).Contents (Elt F)),
    binary main_v365 main_v366 main_v367 (addf : (⟨S160000x32, .f32⟩ : BufTy).Contents (Elt F) → (⟨S160000x32, .f32⟩ : BufTy).Contents (Elt F) → (⟨S160000x32, .f32⟩ : BufTy).Contents (Elt F)),
    unary main_arg13 main_v368 ((extractStridedSlice S1x32 ![3, 0] · slices_S5x32_S1x32_3_0) : (⟨S5x32, .f32⟩ : BufTy).Contents (Elt F) → (⟨S1x32, .f32⟩ : BufTy).Contents (Elt F)),
    reshape main_v368 main_v369 rfl shapeCasts_S1x32_S32,
    unary main_arg14 main_v370 ((extractStridedSlice S1x32 ![3, 0] · slices_S5x32_S1x32_3_0) : (⟨S5x32, .f32⟩ : BufTy).Contents (Elt F) → (⟨S1x32, .f32⟩ : BufTy).Contents (Elt F)),
    reshape main_v370 main_v371 rfl shapeCasts_S1x32_S32,
    nullary main_cst_54 (constant S_ .f32 0x00000000#32),
    binary main_v367 main_cst_54 main_v372 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_55 (constant S_ .f32 0x481C4000#32),
    unary main_cst_55 main_v373 (broadcastInDim S32 ![] bcast_S_S32 : (⟨S_, .f32⟩ : BufTy).Contents (Elt F) → (⟨S32, .f32⟩ : BufTy).Contents (Elt F)),
    binary main_v372 main_v373 main_v374 (Host.divf : (⟨S32, .f32⟩ : BufTy).Contents (Elt F) → (⟨S32, .f32⟩ : BufTy).Contents (Elt F) → (⟨S32, .f32⟩ : BufTy).Contents (Elt F)),
    nullary main_c_56 (constantI S_ 32 0#32),
    TRef.nullary main_call3.cst (constant S_ .f32 0x00000000#32),
    TRef.binary (.of main_v367) main_call3.cst main_call3.v0 (fun x v => Host.reduceAdd x v reducesTo_S160000x32_S32_d0 h_S_),
    TRef.unary main_call3.v0 main_call3.v1 (broadcastInDim S1x32 ![1] bcast_S32_S1x32_1),
    TRef.nullary main_call3.cst_0 (constant S_ .f32 0x481C4000#32),
    TRef.unary main_call3.cst_0 main_call3.v2 (broadcastInDim S1x32 ![] bcast_S_S1x32),
    TRef.binary main_call3.v1 main_call3.v2 main_call3.v3 Host.divf,
    TRef.unary main_call3.v3 main_call3.v4 (broadcastInDim S160000x32 ![0, 1] bcast_S1x32_S160000x32_0_1),
    TRef.binary (.of main_v367) main_call3.v4 main_call3.v5 subf,
    TRef.binary main_call3.v5 main_call3.v5 main_call3.v6 mulf,
    TRef.unary (.of main_c_56) main_call3.v7 (sitofp .f32),
    TRef.nullary main_call3.cst_1 (constant S_ .f32 0x481C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S160000x32_S32_d0 h_S_),
    TRef.unary main_call3.v8 main_call3.v10 (broadcastInDim S32 ![] bcast_S_S32),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S32 ![] bcast_S_S32),
    TRef.ternary main_call3.v12 main_call3.v11 main_call3.call0.v1 main_call3.call0.v2 (fun p a b => select (broadcastInDim S32 ![] bcast_S_S32 p) a b),
    unary main_v374 main_v376 (broadcastInDim S1x32 ![1] bcast_S32_S1x32_1 : (⟨S32, .f32⟩ : BufTy).Contents (Elt F) → (⟨S1x32, .f32⟩ : BufTy).Contents (Elt F)),
    unary main_v376 main_v377 (broadcastInDim S160000x32 ![0, 1] bcast_S1x32_S160000x32_0_1 : (⟨S1x32, .f32⟩ : BufTy).Contents (Elt F) → (⟨S160000x32, .f32⟩ : BufTy).Contents (Elt F)),
    binary main_v367 main_v377 main_v378 (subf : (⟨S160000x32, .f32⟩ : BufTy).Contents (Elt F) → (⟨S160000x32, .f32⟩ : BufTy).Contents (Elt F) → (⟨S160000x32, .f32⟩ : BufTy).Contents (Elt F)),
    nullary main_cst_57 (constant S_ .f32 0x3727C5AC#32),
    unary main_cst_57 main_v379 (broadcastInDim S32 ![] bcast_S_S32 : (⟨S_, .f32⟩ : BufTy).Contents (Elt F) → (⟨S32, .f32⟩ : BufTy).Contents (Elt F)),
    binary main_v375 main_v379 main_v380 (addf : (⟨S32, .f32⟩ : BufTy).Contents (Elt F) → (⟨S32, .f32⟩ : BufTy).Contents (Elt F) → (⟨S32, .f32⟩ : BufTy).Contents (Elt F)),
    unary main_v380 main_v381 (Host.rsqrt : (⟨S32, .f32⟩ : BufTy).Contents (Elt F) → (⟨S32, .f32⟩ : BufTy).Contents (Elt F)),
    unary main_v381 main_v382 (broadcastInDim S1x32 ![1] bcast_S32_S1x32_1 : (⟨S32, .f32⟩ : BufTy).Contents (Elt F) → (⟨S1x32, .f32⟩ : BufTy).Contents (Elt F)),
    unary main_v382 main_v383 (broadcastInDim S160000x32 ![0, 1] bcast_S1x32_S160000x32_0_1 : (⟨S1x32, .f32⟩ : BufTy).Contents (Elt F) → (⟨S160000x32, .f32⟩ : BufTy).Contents (Elt F)),
    binary main_v378 main_v383 main_v384 (mulf : (⟨S160000x32, .f32⟩ : BufTy).Contents (Elt F) → (⟨S160000x32, .f32⟩ : BufTy).Contents (Elt F) → (⟨S160000x32, .f32⟩ : BufTy).Contents (Elt F)),
    unary main_v369 main_v385 (broadcastInDim S1x32 ![1] bcast_S32_S1x32_1 : (⟨S32, .f32⟩ : BufTy).Contents (Elt F) → (⟨S1x32, .f32⟩ : BufTy).Contents (Elt F)),
    unary main_v385 main_v386 (broadcastInDim S160000x32 ![0, 1] bcast_S1x32_S160000x32_0_1 : (⟨S1x32, .f32⟩ : BufTy).Contents (Elt F) → (⟨S160000x32, .f32⟩ : BufTy).Contents (Elt F)),
    binary main_v384 main_v386 main_v387 (mulf : (⟨S160000x32, .f32⟩ : BufTy).Contents (Elt F) → (⟨S160000x32, .f32⟩ : BufTy).Contents (Elt F) → (⟨S160000x32, .f32⟩ : BufTy).Contents (Elt F)),
    unary main_v371 main_v388 (broadcastInDim S1x32 ![1] bcast_S32_S1x32_1 : (⟨S32, .f32⟩ : BufTy).Contents (Elt F) → (⟨S1x32, .f32⟩ : BufTy).Contents (Elt F)),
    unary main_v388 main_v389 (broadcastInDim S160000x32 ![0, 1] bcast_S1x32_S160000x32_0_1 : (⟨S1x32, .f32⟩ : BufTy).Contents (Elt F) → (⟨S160000x32, .f32⟩ : BufTy).Contents (Elt F)),
    binary main_v387 main_v389 main_v390 (addf : (⟨S160000x32, .f32⟩ : BufTy).Contents (Elt F) → (⟨S160000x32, .f32⟩ : BufTy).Contents (Elt F) → (⟨S160000x32, .f32⟩ : BufTy).Contents (Elt F)),
    unary main_arg5 main_v391 ((extractStridedSlice S1x50x32 ![4, 0, 0] · slices_S5x50x32_S1x50x32_4_0_0) : (⟨S5x50x32, .f32⟩ : BufTy).Contents (Elt F) → (⟨S1x50x32, .f32⟩ : BufTy).Contents (Elt F)),
    reshape main_v391 main_v392 rfl shapeCasts_S1x50x32_S50x32,
    nullary main_c_58 (constantI S_ 32 0#32),
    unary main_c_58 main_v393 (broadcastInDim S160000x2 ![] bcast_S_S160000x2 : (⟨S_, .i32⟩ : BufTy).Contents (Elt F) → (⟨S160000x2, .i32⟩ : BufTy).Contents (Elt F)),
    binary main_arg0 main_v393 main_v394 (cmpi .slt : (⟨S160000x2, .i32⟩ : BufTy).Contents (Elt F) → (⟨S160000x2, .i32⟩ : BufTy).Contents (Elt F) → (⟨S160000x2, .i1⟩ : BufTy).Contents (Elt F)),
    nullary main_c_59 (constantI S_ 32 50#32),
    unary main_c_59 main_v395 (broadcastInDim S160000x2 ![] bcast_S_S160000x2 : (⟨S_, .i32⟩ : BufTy).Contents (Elt F) → (⟨S160000x2, .i32⟩ : BufTy).Contents (Elt F)),
    binary main_arg0 main_v395 main_v396 (addi : (⟨S160000x2, .i32⟩ : BufTy).Contents (Elt F) → (⟨S160000x2, .i32⟩ : BufTy).Contents (Elt F) → (⟨S160000x2, .i32⟩ : BufTy).Contents (Elt F)),
    ternary main_v394 main_v396 main_arg0 main_v397 (select : (⟨S160000x2, .i1⟩ : BufTy).Contents (Elt F) → (⟨S160000x2, .i32⟩ : BufTy).Contents (Elt F) → (⟨S160000x2, .i32⟩ : BufTy).Contents (Elt F) → (⟨S160000x2, .i32⟩ : BufTy).Contents (Elt F)),
    unary main_v397 main_v398 (broadcastInDim S160000x2x1 ![0, 1] bcast_S160000x2_S160000x2x1_0_1 : (⟨S160000x2, .i32⟩ : BufTy).Contents (Elt F) → (⟨S160000x2x1, .i32⟩ : BufTy).Contents (Elt F)),
    binary main_v392 main_v398 main_v399 ((fun x i => Host.gather gather_S50x32_S160000x2x1_S160000x2x32_2_0_n_n_0_2_132 x i) : (⟨S50x32, .f32⟩ : BufTy).Contents (Elt F) → (⟨S160000x2x1, .i32⟩ : BufTy).Contents (Elt F) → (⟨S160000x2x32, .f32⟩ : BufTy).Contents (Elt F)),
    nullary main_cst_60 (constant S_ .f32 0x00000000#32),
    binary main_v399 main_cst_60 main_v400 ((fun x v => Host.reduceAdd x v reducesTo_S160000x2x32_S160000x32_d1 h_S_) : (⟨S160000x2x32, .f32⟩ : BufTy).Contents (Elt F) → (⟨S_, .f32⟩ : BufTy).Contents (Elt F) → (⟨S160000x32, .f32⟩ : BufTy).Contents (Elt F)),
    binary main_v390 main_v400 main_v401 ((fun a b => concatenate S160000x64 1 [⟨S160000x32, a⟩, ⟨S160000x32, b⟩] concatenates_S160000x32_S160000x32_S160000x64_d1) : (⟨S160000x32, .f32⟩ : BufTy).Contents (Elt F) → (⟨S160000x32, .f32⟩ : BufTy).Contents (Elt F) → (⟨S160000x64, .f32⟩ : BufTy).Contents (Elt F)),
    unary main_arg6 main_v402 ((extractStridedSlice S1x64x32 ![4, 0, 0] · slices_S5x64x32_S1x64x32_4_0_0) : (⟨S5x64x32, .f32⟩ : BufTy).Contents (Elt F) → (⟨S1x64x32, .f32⟩ : BufTy).Contents (Elt F)),
    reshape main_v402 main_v403 rfl shapeCasts_S1x64x32_S64x32,
    binary main_v401 main_v403 main_v404 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v405 ((extractStridedSlice S1x32 ![4, 0] · slices_S5x32_S1x32_4_0) : (⟨S5x32, .f32⟩ : BufTy).Contents (Elt F) → (⟨S1x32, .f32⟩ : BufTy).Contents (Elt F)),
    reshape main_v405 main_v406 rfl shapeCasts_S1x32_S32,
    unary main_v406 main_v407 (broadcastInDim S1x32 ![1] bcast_S32_S1x32_1 : (⟨S32, .f32⟩ : BufTy).Contents (Elt F) → (⟨S1x32, .f32⟩ : BufTy).Contents (Elt F)),
    unary main_v407 main_v408 (broadcastInDim S160000x32 ![0, 1] bcast_S1x32_S160000x32_0_1 : (⟨S1x32, .f32⟩ : BufTy).Contents (Elt F) → (⟨S160000x32, .f32⟩ : BufTy).Contents (Elt F)),
    binary main_v404 main_v408 main_v409 (addf : (⟨S160000x32, .f32⟩ : BufTy).Contents (Elt F) → (⟨S160000x32, .f32⟩ : BufTy).Contents (Elt F) → (⟨S160000x32, .f32⟩ : BufTy).Contents (Elt F)),
    unary main_arg8 main_v410 ((extractStridedSlice S1x32x32 ![4, 0, 0] · slices_S5x32x32_S1x32x32_4_0_0) : (⟨S5x32x32, .f32⟩ : BufTy).Contents (Elt F) → (⟨S1x32x32, .f32⟩ : BufTy).Contents (Elt F)),
    reshape main_v410 main_v411 rfl shapeCasts_S1x32x32_S32x32,
    binary main_v409 main_v411 main_v412 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    nullary main_c_61 (constantI S_ 32 0#32),
    unary main_c_61 main_v413 (broadcastInDim S2560000 ![] bcast_S_S2560000 : (⟨S_, .i32⟩ : BufTy).Contents (Elt F) → (⟨S2560000, .i32⟩ : BufTy).Contents (Elt F)),
    binary main_v1 main_v413 main_v414 (cmpi .slt : (⟨S2560000, .i32⟩ : BufTy).Contents (Elt F) → (⟨S2560000, .i32⟩ : BufTy).Contents (Elt F) → (⟨S2560000, .i1⟩ : BufTy).Contents (Elt F)),
    nullary main_c_62 (constantI S_ 32 160000#32) ]

/-- The printed window 8 of @main (statements 480 … 539), each call's operations in place: 60 operations. -/
def part8 : List (HloOp τ sig (Elt F)) :=
  [ unary main_c_62 main_v415 (broadcastInDim S2560000 ![] bcast_S_S2560000 : (⟨S_, .i32⟩ : BufTy).Contents (Elt F) → (⟨S2560000, .i32⟩ : BufTy).Contents (Elt F)),
    binary main_v1 main_v415 main_v416 (addi : (⟨S2560000, .i32⟩ : BufTy).Contents (Elt F) → (⟨S2560000, .i32⟩ : BufTy).Contents (Elt F) → (⟨S2560000, .i32⟩ : BufTy).Contents (Elt F)),
    ternary main_v414 main_v416 main_v1 main_v417 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v417 main_v418 (broadcastInDim S2560000x1 ![0] bcast_S2560000_S2560000x1_0 : (⟨S2560000, .i32⟩ : BufTy).Contents (Elt F) → (⟨S2560000x1, .i32⟩ : BufTy).Contents (Elt F)),
    binary main_v412 main_v418 main_v419 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    nullary main_cst_63 (constant S_ .f32 0x00000000#32),
    unary main_cst_63 main_v420 (broadcastInDim S160000x32 ![] bcast_S_S160000x32 : (⟨S_, .f32⟩ : BufTy).Contents (Elt F) → (⟨S160000x32, .f32⟩ : BufTy).Contents (Elt F)),
    unary main_v3 main_v421 (broadcastInDim S2560000x1 ![0] bcast_S2560000_S2560000x1_0 : (⟨S2560000, .i32⟩ : BufTy).Contents (Elt F) → (⟨S2560000x1, .i32⟩ : BufTy).Contents (Elt F)),
    ternary main_v420 main_v421 main_v419 main_v422 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    unary main_arg9 main_v423 ((extractStridedSlice S1x32x96 ![4, 0, 0] · slices_S5x32x96_S1x32x96_4_0_0) : (⟨S5x32x96, .f32⟩ : BufTy).Contents (Elt F) → (⟨S1x32x96, .f32⟩ : BufTy).Contents (Elt F)),
    reshape main_v423 main_v424 rfl shapeCasts_S1x32x96_S32x96,
    binary main_v422 main_v424 main_v425 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg11 main_v426 ((extractStridedSlice S1x96 ![4, 0] · slices_S5x96_S1x96_4_0) : (⟨S5x96, .f32⟩ : BufTy).Contents (Elt F) → (⟨S1x96, .f32⟩ : BufTy).Contents (Elt F)),
    reshape main_v426 main_v427 rfl shapeCasts_S1x96_S96,
    unary main_v427 main_v428 (broadcastInDim S1x96 ![1] bcast_S96_S1x96_1 : (⟨S96, .f32⟩ : BufTy).Contents (Elt F) → (⟨S1x96, .f32⟩ : BufTy).Contents (Elt F)),
    unary main_v428 main_v429 (broadcastInDim S160000x96 ![0, 1] bcast_S1x96_S160000x96_0_1 : (⟨S1x96, .f32⟩ : BufTy).Contents (Elt F) → (⟨S160000x96, .f32⟩ : BufTy).Contents (Elt F)),
    binary main_v425 main_v429 main_v430 (addf : (⟨S160000x96, .f32⟩ : BufTy).Contents (Elt F) → (⟨S160000x96, .f32⟩ : BufTy).Contents (Elt F) → (⟨S160000x96, .f32⟩ : BufTy).Contents (Elt F)),
    unary main_arg10 main_v431 ((extractStridedSlice S1x32x96 ![4, 0, 0] · slices_S5x32x96_S1x32x96_4_0_0) : (⟨S5x32x96, .f32⟩ : BufTy).Contents (Elt F) → (⟨S1x32x96, .f32⟩ : BufTy).Contents (Elt F)),
    reshape main_v431 main_v432 rfl shapeCasts_S1x32x96_S32x96,
    binary main_v409 main_v432 main_v433 ((fun l r => Host.dotGeneral dot_S160000x32_S32x96_S160000x96_1_0_0_1_n_n none l r) : (⟨S160000x32, .f32⟩ : BufTy).Contents (Elt F) → (⟨S32x96, .f32⟩ : BufTy).Contents (Elt F) → (⟨S160000x96, .f32⟩ : BufTy).Contents (Elt F)),
    unary main_arg12 main_v434 ((extractStridedSlice S1x96 ![4, 0] · slices_S5x96_S1x96_4_0) : (⟨S5x96, .f32⟩ : BufTy).Contents (Elt F) → (⟨S1x96, .f32⟩ : BufTy).Contents (Elt F)),
    reshape main_v434 main_v435 rfl shapeCasts_S1x96_S96,
    unary main_v435 main_v436 (broadcastInDim S1x96 ![1] bcast_S96_S1x96_1 : (⟨S96, .f32⟩ : BufTy).Contents (Elt F) → (⟨S1x96, .f32⟩ : BufTy).Contents (Elt F)),
    unary main_v436 main_v437 (broadcastInDim S160000x96 ![0, 1] bcast_S1x96_S160000x96_0_1 : (⟨S1x96, .f32⟩ : BufTy).Contents (Elt F) → (⟨S160000x96, .f32⟩ : BufTy).Contents (Elt F)),
    binary main_v433 main_v437 main_v438 (addf : (⟨S160000x96, .f32⟩ : BufTy).Contents (Elt F) → (⟨S160000x96, .f32⟩ : BufTy).Contents (Elt F) → (⟨S160000x96, .f32⟩ : BufTy).Contents (Elt F)),
    unary main_v430 main_v439 ((extractStridedSlice S160000x32 ![0, 0] · slices_S160000x96_S160000x32_0_0) : (⟨S160000x96, .f32⟩ : BufTy).Contents (Elt F) → (⟨S160000x32, .f32⟩ : BufTy).Contents (Elt F)),
    unary main_v430 main_v440 ((extractStridedSlice S160000x32 ![0, 32] · slices_S160000x96_S160000x32_0_32) : (⟨S160000x96, .f32⟩ : BufTy).Contents (Elt F) → (⟨S160000x32, .f32⟩ : BufTy).Contents (Elt F)),
    unary main_v430 main_v441 ((extractStridedSlice S160000x32 ![0, 64] · slices_S160000x96_S160000x32_0_64) : (⟨S160000x96, .f32⟩ : BufTy).Contents (Elt F) → (⟨S160000x32, .f32⟩ : BufTy).Contents (Elt F)),
    unary main_v438 main_v442 ((extractStridedSlice S160000x32 ![0, 0] · slices_S160000x96_S160000x32_0_0) : (⟨S160000x96, .f32⟩ : BufTy).Contents (Elt F) → (⟨S160000x32, .f32⟩ : BufTy).Contents (Elt F)),
    unary main_v438 main_v443 ((extractStridedSlice S160000x32 ![0, 32] · slices_S160000x96_S160000x32_0_32) : (⟨S160000x96, .f32⟩ : BufTy).Contents (Elt F) → (⟨S160000x32, .f32⟩ : BufTy).Contents (Elt F)),
    unary main_v438 main_v444 ((extractStridedSlice S160000x32 ![0, 64] · slices_S160000x96_S160000x32_0_64) : (⟨S160000x96, .f32⟩ : BufTy).Contents (Elt F) → (⟨S160000x32, .f32⟩ : BufTy).Contents (Elt F)),
    binary main_v439 main_v442 main_v445 (addf : (⟨S160000x32, .f32⟩ : BufTy).Contents (Elt F) → (⟨S160000x32, .f32⟩ : BufTy).Contents (Elt F) → (⟨S160000x32, .f32⟩ : BufTy).Contents (Elt F)),
    unary main_v445 main_v446 (Host.negf : (⟨S160000x32, .f32⟩ : BufTy).Contents (Elt F) → (⟨S160000x32, .f32⟩ : BufTy).Contents (Elt F)),
    unary main_v446 main_v447 (Host.exp : (⟨S160000x32, .f32⟩ : BufTy).Contents (Elt F) → (⟨S160000x32, .f32⟩ : BufTy).Contents (Elt F)),
    nullary main_cst_64 (constant S_ .f32 0x3F800000#32),
    unary main_cst_64 main_v448 (broadcastInDim S160000x32 ![] bcast_S_S160000x32 : (⟨S_, .f32⟩ : BufTy).Contents (Elt F) → (⟨S160000x32, .f32⟩ : BufTy).Contents (Elt F)),
    binary main_v448 main_v447 main_v449 (addf : (⟨S160000x32, .f32⟩ : BufTy).Contents (Elt F) → (⟨S160000x32, .f32⟩ : BufTy).Contents (Elt F) → (⟨S160000x32, .f32⟩ : BufTy).Contents (Elt F)),
    nullary main_cst_65 (constant S_ .f32 0x3F800000#32),
    unary main_cst_65 main_v450 (broadcastInDim S160000x32 ![] bcast_S_S160000x32 : (⟨S_, .f32⟩ : BufTy).Contents (Elt F) → (⟨S160000x32, .f32⟩ : BufTy).Contents (Elt F)),
    binary main_v450 main_v449 main_v451 (Host.divf : (⟨S160000x32, .f32⟩ : BufTy).Contents (Elt F) → (⟨S160000x32, .f32⟩ : BufTy).Contents (Elt F) → (⟨S160000x32, .f32⟩ : BufTy).Contents (Elt F)),
    binary main_v440 main_v443 main_v452 (addf : (⟨S160000x32, .f32⟩ : BufTy).Contents (Elt F) → (⟨S160000x32, .f32⟩ : BufTy).Contents (Elt F) → (⟨S160000x32, .f32⟩ : BufTy).Contents (Elt F)),
    unary main_v452 main_v453 (Host.negf : (⟨S160000x32, .f32⟩ : BufTy).Contents (Elt F) → (⟨S160000x32, .f32⟩ : BufTy).Contents (Elt F)),
    unary main_v453 main_v454 (Host.exp : (⟨S160000x32, .f32⟩ : BufTy).Contents (Elt F) → (⟨S160000x32, .f32⟩ : BufTy).Contents (Elt F)),
    nullary main_cst_66 (constant S_ .f32 0x3F800000#32),
    unary main_cst_66 main_v455 (broadcastInDim S160000x32 ![] bcast_S_S160000x32 : (⟨S_, .f32⟩ : BufTy).Contents (Elt F) → (⟨S160000x32, .f32⟩ : BufTy).Contents (Elt F)),
    binary main_v455 main_v454 main_v456 (addf : (⟨S160000x32, .f32⟩ : BufTy).Contents (Elt F) → (⟨S160000x32, .f32⟩ : BufTy).Contents (Elt F) → (⟨S160000x32, .f32⟩ : BufTy).Contents (Elt F)),
    nullary main_cst_67 (constant S_ .f32 0x3F800000#32),
    unary main_cst_67 main_v457 (broadcastInDim S160000x32 ![] bcast_S_S160000x32 : (⟨S_, .f32⟩ : BufTy).Contents (Elt F) → (⟨S160000x32, .f32⟩ : BufTy).Contents (Elt F)),
    binary main_v457 main_v456 main_v458 (Host.divf : (⟨S160000x32, .f32⟩ : BufTy).Contents (Elt F) → (⟨S160000x32, .f32⟩ : BufTy).Contents (Elt F) → (⟨S160000x32, .f32⟩ : BufTy).Contents (Elt F)),
    binary main_v451 main_v444 main_v459 (mulf : (⟨S160000x32, .f32⟩ : BufTy).Contents (Elt F) → (⟨S160000x32, .f32⟩ : BufTy).Contents (Elt F) → (⟨S160000x32, .f32⟩ : BufTy).Contents (Elt F)),
    binary main_v441 main_v459 main_v460 (addf : (⟨S160000x32, .f32⟩ : BufTy).Contents (Elt F) → (⟨S160000x32, .f32⟩ : BufTy).Contents (Elt F) → (⟨S160000x32, .f32⟩ : BufTy).Contents (Elt F)),
    unary main_v460 main_v461 (Host.tanh : (⟨S160000x32, .f32⟩ : BufTy).Contents (Elt F) → (⟨S160000x32, .f32⟩ : BufTy).Contents (Elt F)),
    nullary main_cst_68 (constant S_ .f32 0x3F800000#32),
    unary main_cst_68 main_v462 (broadcastInDim S160000x32 ![] bcast_S_S160000x32 : (⟨S_, .f32⟩ : BufTy).Contents (Elt F) → (⟨S160000x32, .f32⟩ : BufTy).Contents (Elt F)),
    binary main_v462 main_v458 main_v463 (subf : (⟨S160000x32, .f32⟩ : BufTy).Contents (Elt F) → (⟨S160000x32, .f32⟩ : BufTy).Contents (Elt F) → (⟨S160000x32, .f32⟩ : BufTy).Contents (Elt F)),
    binary main_v463 main_v461 main_v464 (mulf : (⟨S160000x32, .f32⟩ : BufTy).Contents (Elt F) → (⟨S160000x32, .f32⟩ : BufTy).Contents (Elt F) → (⟨S160000x32, .f32⟩ : BufTy).Contents (Elt F)),
    binary main_v458 main_v409 main_v465 (mulf : (⟨S160000x32, .f32⟩ : BufTy).Contents (Elt F) → (⟨S160000x32, .f32⟩ : BufTy).Contents (Elt F) → (⟨S160000x32, .f32⟩ : BufTy).Contents (Elt F)),
    binary main_v464 main_v465 main_v466 (addf : (⟨S160000x32, .f32⟩ : BufTy).Contents (Elt F) → (⟨S160000x32, .f32⟩ : BufTy).Contents (Elt F) → (⟨S160000x32, .f32⟩ : BufTy).Contents (Elt F)),
    unary main_arg13 main_v467 ((extractStridedSlice S1x32 ![4, 0] · slices_S5x32_S1x32_4_0) : (⟨S5x32, .f32⟩ : BufTy).Contents (Elt F) → (⟨S1x32, .f32⟩ : BufTy).Contents (Elt F)),
    reshape main_v467 main_v468 rfl shapeCasts_S1x32_S32 ]

/-- The printed window 9 of @main (statements 540 … 599), each call's operations in place: 99 operations. -/
def part9 : List (HloOp τ sig (Elt F)) :=
  [ unary main_arg14 main_v469 ((extractStridedSlice S1x32 ![4, 0] · slices_S5x32_S1x32_4_0) : (⟨S5x32, .f32⟩ : BufTy).Contents (Elt F) → (⟨S1x32, .f32⟩ : BufTy).Contents (Elt F)),
    reshape main_v469 main_v470 rfl shapeCasts_S1x32_S32,
    nullary main_cst_69 (constant S_ .f32 0x00000000#32),
    binary main_v466 main_cst_69 main_v471 ((fun x v => Host.reduceAdd x v reducesTo_S160000x32_S32_d0 h_S_) : (⟨S160000x32, .f32⟩ : BufTy).Contents (Elt F) → (⟨S_, .f32⟩ : BufTy).Contents (Elt F) → (⟨S32, .f32⟩ : BufTy).Contents (Elt F)),
    nullary main_cst_70 (constant S_ .f32 0x481C4000#32),
    unary main_cst_70 main_v472 (broadcastInDim S32 ![] bcast_S_S32 : (⟨S_, .f32⟩ : BufTy).Contents (Elt F) → (⟨S32, .f32⟩ : BufTy).Contents (Elt F)),
    binary main_v471 main_v472 main_v473 (Host.divf : (⟨S32, .f32⟩ : BufTy).Contents (Elt F) → (⟨S32, .f32⟩ : BufTy).Contents (Elt F) → (⟨S32, .f32⟩ : BufTy).Contents (Elt F)),
    nullary main_c_71 (constantI S_ 32 0#32),
    TRef.nullary main_call4.cst (constant S_ .f32 0x00000000#32),
    TRef.binary (.of main_v466) main_call4.cst main_call4.v0 (fun x v => Host.reduceAdd x v reducesTo_S160000x32_S32_d0 h_S_),
    TRef.unary main_call4.v0 main_call4.v1 (broadcastInDim S1x32 ![1] bcast_S32_S1x32_1),
    TRef.nullary main_call4.cst_0 (constant S_ .f32 0x481C4000#32),
    TRef.unary main_call4.cst_0 main_call4.v2 (broadcastInDim S1x32 ![] bcast_S_S1x32),
    TRef.binary main_call4.v1 main_call4.v2 main_call4.v3 Host.divf,
    TRef.unary main_call4.v3 main_call4.v4 (broadcastInDim S160000x32 ![0, 1] bcast_S1x32_S160000x32_0_1),
    TRef.binary (.of main_v466) main_call4.v4 main_call4.v5 subf,
    TRef.binary main_call4.v5 main_call4.v5 main_call4.v6 mulf,
    TRef.unary (.of main_c_71) main_call4.v7 (sitofp .f32),
    TRef.nullary main_call4.cst_1 (constant S_ .f32 0x481C4000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S160000x32_S32_d0 h_S_),
    TRef.unary main_call4.v8 main_call4.v10 (broadcastInDim S32 ![] bcast_S_S32),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S32 ![] bcast_S_S32),
    TRef.ternary main_call4.v12 main_call4.v11 main_call4.call0.v1 main_call4.call0.v2 (fun p a b => select (broadcastInDim S32 ![] bcast_S_S32 p) a b),
    unary main_v473 main_v475 (broadcastInDim S1x32 ![1] bcast_S32_S1x32_1 : (⟨S32, .f32⟩ : BufTy).Contents (Elt F) → (⟨S1x32, .f32⟩ : BufTy).Contents (Elt F)),
    unary main_v475 main_v476 (broadcastInDim S160000x32 ![0, 1] bcast_S1x32_S160000x32_0_1 : (⟨S1x32, .f32⟩ : BufTy).Contents (Elt F) → (⟨S160000x32, .f32⟩ : BufTy).Contents (Elt F)),
    binary main_v466 main_v476 main_v477 (subf : (⟨S160000x32, .f32⟩ : BufTy).Contents (Elt F) → (⟨S160000x32, .f32⟩ : BufTy).Contents (Elt F) → (⟨S160000x32, .f32⟩ : BufTy).Contents (Elt F)),
    nullary main_cst_72 (constant S_ .f32 0x3727C5AC#32),
    unary main_cst_72 main_v478 (broadcastInDim S32 ![] bcast_S_S32 : (⟨S_, .f32⟩ : BufTy).Contents (Elt F) → (⟨S32, .f32⟩ : BufTy).Contents (Elt F)),
    binary main_v474 main_v478 main_v479 (addf : (⟨S32, .f32⟩ : BufTy).Contents (Elt F) → (⟨S32, .f32⟩ : BufTy).Contents (Elt F) → (⟨S32, .f32⟩ : BufTy).Contents (Elt F)),
    unary main_v479 main_v480 (Host.rsqrt : (⟨S32, .f32⟩ : BufTy).Contents (Elt F) → (⟨S32, .f32⟩ : BufTy).Contents (Elt F)),
    unary main_v480 main_v481 (broadcastInDim S1x32 ![1] bcast_S32_S1x32_1 : (⟨S32, .f32⟩ : BufTy).Contents (Elt F) → (⟨S1x32, .f32⟩ : BufTy).Contents (Elt F)),
    unary main_v481 main_v482 (broadcastInDim S160000x32 ![0, 1] bcast_S1x32_S160000x32_0_1 : (⟨S1x32, .f32⟩ : BufTy).Contents (Elt F) → (⟨S160000x32, .f32⟩ : BufTy).Contents (Elt F)),
    binary main_v477 main_v482 main_v483 (mulf : (⟨S160000x32, .f32⟩ : BufTy).Contents (Elt F) → (⟨S160000x32, .f32⟩ : BufTy).Contents (Elt F) → (⟨S160000x32, .f32⟩ : BufTy).Contents (Elt F)),
    unary main_v468 main_v484 (broadcastInDim S1x32 ![1] bcast_S32_S1x32_1 : (⟨S32, .f32⟩ : BufTy).Contents (Elt F) → (⟨S1x32, .f32⟩ : BufTy).Contents (Elt F)),
    unary main_v484 main_v485 (broadcastInDim S160000x32 ![0, 1] bcast_S1x32_S160000x32_0_1 : (⟨S1x32, .f32⟩ : BufTy).Contents (Elt F) → (⟨S160000x32, .f32⟩ : BufTy).Contents (Elt F)),
    binary main_v483 main_v485 main_v486 (mulf : (⟨S160000x32, .f32⟩ : BufTy).Contents (Elt F) → (⟨S160000x32, .f32⟩ : BufTy).Contents (Elt F) → (⟨S160000x32, .f32⟩ : BufTy).Contents (Elt F)),
    unary main_v470 main_v487 (broadcastInDim S1x32 ![1] bcast_S32_S1x32_1 : (⟨S32, .f32⟩ : BufTy).Contents (Elt F) → (⟨S1x32, .f32⟩ : BufTy).Contents (Elt F)),
    unary main_v487 main_v488 (broadcastInDim S160000x32 ![0, 1] bcast_S1x32_S160000x32_0_1 : (⟨S1x32, .f32⟩ : BufTy).Contents (Elt F) → (⟨S160000x32, .f32⟩ : BufTy).Contents (Elt F)),
    binary main_v486 main_v488 main_v489 (addf : (⟨S160000x32, .f32⟩ : BufTy).Contents (Elt F) → (⟨S160000x32, .f32⟩ : BufTy).Contents (Elt F) → (⟨S160000x32, .f32⟩ : BufTy).Contents (Elt F)),
    nullary main_cst_73 (constant S_ .f32 0x00000000#32),
    unary main_cst_73 main_v490 (broadcastInDim S16000x32 ![] bcast_S_S16000x32 : (⟨S_, .f32⟩ : BufTy).Contents (Elt F) → (⟨S16000x32, .f32⟩ : BufTy).Contents (Elt F)),
    unary main_arg2 main_v491 (broadcastInDim S160000x1 ![0] bcast_S160000_S160000x1_0 : (⟨S160000, .i32⟩ : BufTy).Contents (Elt F) → (⟨S160000x1, .i32⟩ : BufTy).Contents (Elt F)),
    ternary main_v490 main_v491 main_v489 main_v492 ((fun x i u => Host.scatterAdd scatter_S16000x32_S160000x1_S160000x32_1_0_0_1 x i u) : (⟨S16000x32, .f32⟩ : BufTy).Contents (Elt F) → (⟨S160000x1, .i32⟩ : BufTy).Contents (Elt F) → (⟨S160000x32, .f32⟩ : BufTy).Contents (Elt F) → (⟨S16000x32, .f32⟩ : BufTy).Contents (Elt F)),
    binary main_v492 main_arg15 main_v493 ((fun l r => Host.dotGeneral dot_S16000x32_S32x32_S16000x32_1_0_0_1_n_n none l r) : (⟨S16000x32, .f32⟩ : BufTy).Contents (Elt F) → (⟨S32x32, .f32⟩ : BufTy).Contents (Elt F) → (⟨S16000x32, .f32⟩ : BufTy).Contents (Elt F)),
    unary main_arg16 main_v494 (broadcastInDim S1x32 ![1] bcast_S32_S1x32_1 : (⟨S32, .f32⟩ : BufTy).Contents (Elt F) → (⟨S1x32, .f32⟩ : BufTy).Contents (Elt F)),
    unary main_v494 main_v495 (broadcastInDim S16000x32 ![0, 1] bcast_S1x32_S16000x32_0_1 : (⟨S1x32, .f32⟩ : BufTy).Contents (Elt F) → (⟨S16000x32, .f32⟩ : BufTy).Contents (Elt F)),
    binary main_v493 main_v495 main_v496 (addf : (⟨S16000x32, .f32⟩ : BufTy).Contents (Elt F) → (⟨S16000x32, .f32⟩ : BufTy).Contents (Elt F) → (⟨S16000x32, .f32⟩ : BufTy).Contents (Elt F)),
    TRef.nullary main_call5.cst (constant S_ .f32 0x00000000#32),
    TRef.unary main_call5.cst main_call5.v0 (broadcastInDim S16000x32 ![] bcast_S_S16000x32),
    TRef.binary (.of main_v496) main_call5.v0 main_call5.v1 maximumf,
    binary main_v497 main_arg17 main_v498 ((fun l r => Host.dotGeneral dot_S16000x32_S32x32_S16000x32_1_0_0_1_n_n none l r) : (⟨S16000x32, .f32⟩ : BufTy).Contents (Elt F) → (⟨S32x32, .f32⟩ : BufTy).Contents (Elt F) → (⟨S16000x32, .f32⟩ : BufTy).Contents (Elt F)),
    unary main_arg18 main_v499 (broadcastInDim S1x32 ![1] bcast_S32_S1x32_1 : (⟨S32, .f32⟩ : BufTy).Contents (Elt F) → (⟨S1x32, .f32⟩ : BufTy).Contents (Elt F)),
    unary main_v499 main_v500 (broadcastInDim S16000x32 ![0, 1] bcast_S1x32_S16000x32_0_1 : (⟨S1x32, .f32⟩ : BufTy).Contents (Elt F) → (⟨S16000x32, .f32⟩ : BufTy).Contents (Elt F)),
    binary main_v498 main_v500 main_v501 (addf : (⟨S16000x32, .f32⟩ : BufTy).Contents (Elt F) → (⟨S16000x32, .f32⟩ : BufTy).Contents (Elt F) → (⟨S16000x32, .f32⟩ : BufTy).Contents (Elt F)),
    nullary main_cst_74 (constant S_ .f32 0x00000000#32),
    unary main_cst_74 main_v502 (broadcastInDim S1600x32 ![] bcast_S_S1600x32 : (⟨S_, .f32⟩ : BufTy).Contents (Elt F) → (⟨S1600x32, .f32⟩ : BufTy).Contents (Elt F)),
    unary main_arg3 main_v503 (broadcastInDim S16000x1 ![0] bcast_S16000_S16000x1_0 : (⟨S16000, .i32⟩ : BufTy).Contents (Elt F) → (⟨S16000x1, .i32⟩ : BufTy).Contents (Elt F)),
    ternary main_v502 main_v503 main_v501 main_v504 ((fun x i u => Host.scatterAdd scatter_S1600x32_S16000x1_S16000x32_1_0_0_1 x i u) : (⟨S1600x32, .f32⟩ : BufTy).Contents (Elt F) → (⟨S16000x1, .i32⟩ : BufTy).Contents (Elt F) → (⟨S16000x32, .f32⟩ : BufTy).Contents (Elt F) → (⟨S1600x32, .f32⟩ : BufTy).Contents (Elt F)),
    binary main_v504 main_arg19 main_v505 ((fun l r => Host.dotGeneral dot_S1600x32_S32x32_S1600x32_1_0_0_1_n_n none l r) : (⟨S1600x32, .f32⟩ : BufTy).Contents (Elt F) → (⟨S32x32, .f32⟩ : BufTy).Contents (Elt F) → (⟨S1600x32, .f32⟩ : BufTy).Contents (Elt F)),
    unary main_arg20 main_v506 (broadcastInDim S1x32 ![1] bcast_S32_S1x32_1 : (⟨S32, .f32⟩ : BufTy).Contents (Elt F) → (⟨S1x32, .f32⟩ : BufTy).Contents (Elt F)),
    unary main_v506 main_v507 (broadcastInDim S1600x32 ![0, 1] bcast_S1x32_S1600x32_0_1 : (⟨S1x32, .f32⟩ : BufTy).Contents (Elt F) → (⟨S1600x32, .f32⟩ : BufTy).Contents (Elt F)),
    binary main_v505 main_v507 main_v508 (addf : (⟨S1600x32, .f32⟩ : BufTy).Contents (Elt F) → (⟨S1600x32, .f32⟩ : BufTy).Contents (Elt F) → (⟨S1600x32, .f32⟩ : BufTy).Contents (Elt F)),
    TRef.nullary main_call6.cst (constant S_ .f32 0x00000000#32),
    TRef.unary main_call6.cst main_call6.v0 (broadcastInDim S1600x32 ![] bcast_S_S1600x32),
    TRef.binary (.of main_v508) main_call6.v0 main_call6.v1 maximumf,
    binary main_v509 main_arg21 main_v510 ((fun l r => Host.dotGeneral dot_S1600x32_S32x32_S1600x32_1_0_0_1_n_n none l r) : (⟨S1600x32, .f32⟩ : BufTy).Contents (Elt F) → (⟨S32x32, .f32⟩ : BufTy).Contents (Elt F) → (⟨S1600x32, .f32⟩ : BufTy).Contents (Elt F)),
    unary main_arg22 main_v511 (broadcastInDim S1x32 ![1] bcast_S32_S1x32_1 : (⟨S32, .f32⟩ : BufTy).Contents (Elt F) → (⟨S1x32, .f32⟩ : BufTy).Contents (Elt F)),
    unary main_v511 main_v512 (broadcastInDim S1600x32 ![0, 1] bcast_S1x32_S1600x32_0_1 : (⟨S1x32, .f32⟩ : BufTy).Contents (Elt F) → (⟨S1600x32, .f32⟩ : BufTy).Contents (Elt F)),
    binary main_v510 main_v512 main_v513 (addf : (⟨S1600x32, .f32⟩ : BufTy).Contents (Elt F) → (⟨S1600x32, .f32⟩ : BufTy).Contents (Elt F) → (⟨S1600x32, .f32⟩ : BufTy).Contents (Elt F)),
    nullary main_cst_75 (constant S_ .f32 0x00000000#32),
    unary main_cst_75 main_v514 (broadcastInDim S160x32 ![] bcast_S_S160x32 : (⟨S_, .f32⟩ : BufTy).Contents (Elt F) → (⟨S160x32, .f32⟩ : BufTy).Contents (Elt F)),
    unary main_arg4 main_v515 (broadcastInDim S1600x1 ![0] bcast_S1600_S1600x1_0 : (⟨S1600, .i32⟩ : BufTy).Contents (Elt F) → (⟨S1600x1, .i32⟩ : BufTy).Contents (Elt F)),
    ternary main_v514 main_v515 main_v513 main_v516 ((fun x i u => Host.scatterAdd scatter_S160x32_S1600x1_S1600x32_1_0_0_1 x i u) : (⟨S160x32, .f32⟩ : BufTy).Contents (Elt F) → (⟨S1600x1, .i32⟩ : BufTy).Contents (Elt F) → (⟨S1600x32, .f32⟩ : BufTy).Contents (Elt F) → (⟨S160x32, .f32⟩ : BufTy).Contents (Elt F)),
    binary main_v516 main_arg23 main_v517 ((fun l r => Host.dotGeneral dot_S160x32_S32x16_S160x16_1_0_0_1_n_n none l r) : (⟨S160x32, .f32⟩ : BufTy).Contents (Elt F) → (⟨S32x16, .f32⟩ : BufTy).Contents (Elt F) → (⟨S160x16, .f32⟩ : BufTy).Contents (Elt F)),
    unary main_arg24 main_v518 (broadcastInDim S1x16 ![1] bcast_S16_S1x16_1 : (⟨S16, .f32⟩ : BufTy).Contents (Elt F) → (⟨S1x16, .f32⟩ : BufTy).Contents (Elt F)),
    unary main_v518 main_v519 (broadcastInDim S160x16 ![0, 1] bcast_S1x16_S160x16_0_1 : (⟨S1x16, .f32⟩ : BufTy).Contents (Elt F) → (⟨S160x16, .f32⟩ : BufTy).Contents (Elt F)),
    binary main_v517 main_v519 main_v520 (addf : (⟨S160x16, .f32⟩ : BufTy).Contents (Elt F) → (⟨S160x16, .f32⟩ : BufTy).Contents (Elt F) → (⟨S160x16, .f32⟩ : BufTy).Contents (Elt F)),
    TRef.nullary main_call7.cst (constant S_ .f32 0x00000000#32),
    TRef.unary main_call7.cst main_call7.v0 (broadcastInDim S160x16 ![] bcast_S_S160x16),
    TRef.binary (.of main_v520) main_call7.v0 main_call7.v1 (cmpf .ogt),
    TRef.nullary main_call7.cst_0 (constant S_ .f32 0x00000000#32),
    TRef.unary main_call7.cst_0 main_call7.v2 (broadcastInDim S160x16 ![] bcast_S_S160x16),
    TRef.binary (.of main_v520) main_call7.v2 main_call7.v3 (cmpf .ogt),
    TRef.nullary main_call7.cst_1 (constant S_ .f32 0x00000000#32),
    TRef.unary main_call7.cst_1 main_call7.call0.v0 id,
    TRef.unary main_call7.call0.v0 main_call7.call0.v1 (broadcastInDim S160x16 ![] bcast_S_S160x16),
    TRef.ternary main_call7.v3 main_call7.call0.v1 (.of main_v520) main_call7.call0.v2 select,
    TRef.unary main_call7.call0.v2 main_call7.v5 Host.expm1,
    TRef.nullary main_call7.cst_2 (constant S_ .f32 0x3F800000#32),
    TRef.unary main_call7.cst_2 main_call7.v6 (broadcastInDim S160x16 ![] bcast_S_S160x16),
    TRef.binary main_call7.v6 main_call7.v5 main_call7.v7 mulf,
    TRef.ternary main_call7.v1 (.of main_v520) main_call7.v7 main_call7.call1.v0 select ]

/-- The printed window 10 of @main (statements 600 … 620), each call's operations in place: 42 operations. -/
def part10 : List (HloOp τ sig (Elt F)) :=
  [ nullary main_cst_76 (constant S_ .f32 0x00000000#32),
    binary main_v521 main_cst_76 main_v522 ((fun x v => Host.reduceAdd x v reducesTo_S160x16_S16_d0 h_S_) : (⟨S160x16, .f32⟩ : BufTy).Contents (Elt F) → (⟨S_, .f32⟩ : BufTy).Contents (Elt F) → (⟨S16, .f32⟩ : BufTy).Contents (Elt F)),
    nullary main_cst_77 (constant S_ .f32 0x43200000#32),
    unary main_cst_77 main_v523 (broadcastInDim S16 ![] bcast_S_S16 : (⟨S_, .f32⟩ : BufTy).Contents (Elt F) → (⟨S16, .f32⟩ : BufTy).Contents (Elt F)),
    binary main_v522 main_v523 main_v524 (Host.divf : (⟨S16, .f32⟩ : BufTy).Contents (Elt F) → (⟨S16, .f32⟩ : BufTy).Contents (Elt F) → (⟨S16, .f32⟩ : BufTy).Contents (Elt F)),
    nullary main_c_78 (constantI S_ 32 0#32),
    TRef.nullary main_call8.cst (constant S_ .f32 0x00000000#32),
    TRef.binary (.of main_v521) main_call8.cst main_call8.v0 (fun x v => Host.reduceAdd x v reducesTo_S160x16_S16_d0 h_S_),
    TRef.unary main_call8.v0 main_call8.v1 (broadcastInDim S1x16 ![1] bcast_S16_S1x16_1),
    TRef.nullary main_call8.cst_0 (constant S_ .f32 0x43200000#32),
    TRef.unary main_call8.cst_0 main_call8.v2 (broadcastInDim S1x16 ![] bcast_S_S1x16),
    TRef.binary main_call8.v1 main_call8.v2 main_call8.v3 Host.divf,
    TRef.unary main_call8.v3 main_call8.v4 (broadcastInDim S160x16 ![0, 1] bcast_S1x16_S160x16_0_1),
    TRef.binary (.of main_v521) main_call8.v4 main_call8.v5 subf,
    TRef.binary main_call8.v5 main_call8.v5 main_call8.v6 mulf,
    TRef.unary (.of main_c_78) main_call8.v7 (sitofp .f32),
    TRef.nullary main_call8.cst_1 (constant S_ .f32 0x43200000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S160x16_S16_d0 h_S_),
    TRef.unary main_call8.v8 main_call8.v10 (broadcastInDim S16 ![] bcast_S_S16),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S16 ![] bcast_S_S16),
    TRef.ternary main_call8.v12 main_call8.v11 main_call8.call0.v1 main_call8.call0.v2 (fun p a b => select (broadcastInDim S16 ![] bcast_S_S16 p) a b),
    unary main_v524 main_v526 (broadcastInDim S1x16 ![1] bcast_S16_S1x16_1 : (⟨S16, .f32⟩ : BufTy).Contents (Elt F) → (⟨S1x16, .f32⟩ : BufTy).Contents (Elt F)),
    unary main_v526 main_v527 (broadcastInDim S160x16 ![0, 1] bcast_S1x16_S160x16_0_1 : (⟨S1x16, .f32⟩ : BufTy).Contents (Elt F) → (⟨S160x16, .f32⟩ : BufTy).Contents (Elt F)),
    binary main_v521 main_v527 main_v528 (subf : (⟨S160x16, .f32⟩ : BufTy).Contents (Elt F) → (⟨S160x16, .f32⟩ : BufTy).Contents (Elt F) → (⟨S160x16, .f32⟩ : BufTy).Contents (Elt F)),
    nullary main_cst_79 (constant S_ .f32 0x3727C5AC#32),
    unary main_cst_79 main_v529 (broadcastInDim S16 ![] bcast_S_S16 : (⟨S_, .f32⟩ : BufTy).Contents (Elt F) → (⟨S16, .f32⟩ : BufTy).Contents (Elt F)),
    binary main_v525 main_v529 main_v530 (addf : (⟨S16, .f32⟩ : BufTy).Contents (Elt F) → (⟨S16, .f32⟩ : BufTy).Contents (Elt F) → (⟨S16, .f32⟩ : BufTy).Contents (Elt F)),
    unary main_v530 main_v531 (Host.rsqrt : (⟨S16, .f32⟩ : BufTy).Contents (Elt F) → (⟨S16, .f32⟩ : BufTy).Contents (Elt F)),
    unary main_v531 main_v532 (broadcastInDim S1x16 ![1] bcast_S16_S1x16_1 : (⟨S16, .f32⟩ : BufTy).Contents (Elt F) → (⟨S1x16, .f32⟩ : BufTy).Contents (Elt F)),
    unary main_v532 main_v533 (broadcastInDim S160x16 ![0, 1] bcast_S1x16_S160x16_0_1 : (⟨S1x16, .f32⟩ : BufTy).Contents (Elt F) → (⟨S160x16, .f32⟩ : BufTy).Contents (Elt F)),
    binary main_v528 main_v533 main_v534 (mulf : (⟨S160x16, .f32⟩ : BufTy).Contents (Elt F) → (⟨S160x16, .f32⟩ : BufTy).Contents (Elt F) → (⟨S160x16, .f32⟩ : BufTy).Contents (Elt F)),
    binary main_v534 main_arg25 main_v535 ((fun l r => Host.dotGeneral dot_S160x16_S16x16_S160x16_1_0_0_1_n_n none l r) : (⟨S160x16, .f32⟩ : BufTy).Contents (Elt F) → (⟨S16x16, .f32⟩ : BufTy).Contents (Elt F) → (⟨S160x16, .f32⟩ : BufTy).Contents (Elt F)),
    unary main_arg26 main_v536 (broadcastInDim S1x16 ![1] bcast_S16_S1x16_1 : (⟨S16, .f32⟩ : BufTy).Contents (Elt F) → (⟨S1x16, .f32⟩ : BufTy).Contents (Elt F)),
    unary main_v536 main_v537 (broadcastInDim S160x16 ![0, 1] bcast_S1x16_S160x16_0_1 : (⟨S1x16, .f32⟩ : BufTy).Contents (Elt F) → (⟨S160x16, .f32⟩ : BufTy).Contents (Elt F)),
    binary main_v535 main_v537 main_v538 (addf : (⟨S160x16, .f32⟩ : BufTy).Contents (Elt F) → (⟨S160x16, .f32⟩ : BufTy).Contents (Elt F) → (⟨S160x16, .f32⟩ : BufTy).Contents (Elt F)) ]

end Cert.ReferenceIdeal.RefRun

end
-- ==== Proof.RefRun.lean ====
import proofs.«425927_j69028714381396_2_alg».proof.Proof.RefOps
import proofs.«425927_j69028714381396_2_alg».proof.Proof.RefParts
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The contents after two lines run one after the other: the second line's fold from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each printed window is the line of its operations

A window is one chain of binds of host steps; a call is the callee's chain over the call's record, grafted in place
(bind on the free monad is structural), and the callee's closing return is the unit of bind: both sides compute to the
same chain. -/

set_option maxRecDepth 8192 in
theorem main_part0_eq (c : Dev nD) : main_part0 (F := F) c = seq part0 := rfl
set_option maxRecDepth 8192 in
theorem main_part1_eq (c : Dev nD) : main_part1 (F := F) c = seq part1 := rfl
set_option maxRecDepth 8192 in
theorem main_part2_eq (c : Dev nD) : main_part2 (F := F) c = seq part2 := rfl
set_option maxRecDepth 8192 in
theorem main_part3_eq (c : Dev nD) : main_part3 (F := F) c = seq part3 := rfl
set_option maxRecDepth 8192 in
theorem main_part4_eq (c : Dev nD) : main_part4 (F := F) c = seq part4 := rfl
set_option maxRecDepth 8192 in
theorem main_part5_eq (c : Dev nD) : main_part5 (F := F) c = seq part5 := rfl
set_option maxRecDepth 8192 in
theorem main_part6_eq (c : Dev nD) : main_part6 (F := F) c = seq part6 := rfl
set_option maxRecDepth 8192 in
theorem main_part7_eq (c : Dev nD) : main_part7 (F := F) c = seq part7 := rfl
set_option maxRecDepth 8192 in
theorem main_part8_eq (c : Dev nD) : main_part8 (F := F) c = seq part8 := rfl
set_option maxRecDepth 8192 in
theorem main_part9_eq (c : Dev nD) : main_part9 (F := F) c = seq part9 := rfl
set_option maxRecDepth 8192 in
theorem main_part10_eq (c : Dev nD) : main_part10 (F := F) c = seq part10 := rfl

/-! ## @main is the line of all its operations -/

/-- Two programs that are lines, run one after the other, are the line of the concatenation (seq_append). -/
theorem bind_seq_eq {Λ : Labels} {p q : Prog (TpuEff nD τ sig (Elt F) Λ .tc) PUnit} {l₁ l₂ : List (HloOp τ sig (Elt F))}
    (h₁ : p = seq l₁) (h₂ : q = seq l₂) : (p >>= fun _ => q) = seq (l₁ ++ l₂) := by
  rw [seq_append, h₁, h₂]

/-- The eleven windows' operations one after the other are the six stretches' one after the other: the same
    operations in the same order, cut at other places (both sides compute to one literal list). -/
theorem parts_eq :
    (part0 ++ (part1 ++ (part2 ++ (part3 ++ (part4 ++ (part5 ++ (part6 ++ (part7 ++ (part8 ++ (part9 ++ part10)))))))))
        : List (HloOp τ sig (Elt F))) = ops := by
  simp only [part0, part1, part2, part3, part4, part5, part6, part7, part8, part9, part10,
    ops, opsL0, opsL1, opsL2, opsL3, opsL4, opsTail, List.cons_append, List.nil_append]

/-- @main runs its windows in order, so it is the line of their operations in order. -/
theorem main_eq (c : Dev nD) : main (F := F) c = seq ops :=
  (bind_seq_eq (main_part0_eq c) (bind_seq_eq (main_part1_eq c) (bind_seq_eq (main_part2_eq c)
    (bind_seq_eq (main_part3_eq c) (bind_seq_eq (main_part4_eq c) (bind_seq_eq (main_part5_eq c)
    (bind_seq_eq (main_part6_eq c) (bind_seq_eq (main_part7_eq c) (bind_seq_eq (main_part8_eq c)
    (bind_seq_eq (main_part9_eq c) (main_part10_eq c))))))))))).trans (congrArg seq parts_eq)

/-! ## The side conditions of the run -/

/-- Each operation of a literal list touches TensorCore references only: the list's condition is the conjunction of
    its operations' (forall_cons), and each conjunct is its builder's fact. -/
macro "bufs_sub_list" : tactic =>
  `(tactic| simp only [List.forall_cons, List.Forall, nullary_bufs_sub, unary_bufs_sub, binary_bufs_sub,
    ternary_bufs_sub, quaternary_bufs_sub, reshape_bufs_sub, and_self])

theorem opsL0_sub : (opsL0 : List (HloOp τ sig (Elt F))).Forall fun op => op.bufs ⊆ tcRefs τ sig := by bufs_sub_list
theorem opsL1_sub : (opsL1 : List (HloOp τ sig (Elt F))).Forall fun op => op.bufs ⊆ tcRefs τ sig := by bufs_sub_list
theorem opsL2_sub : (opsL2 : List (HloOp τ sig (Elt F))).Forall fun op => op.bufs ⊆ tcRefs τ sig := by bufs_sub_list
theorem opsL3_sub : (opsL3 : List (HloOp τ sig (Elt F))).Forall fun op => op.bufs ⊆ tcRefs τ sig := by bufs_sub_list
theorem opsL4_sub : (opsL4 : List (HloOp τ sig (Elt F))).Forall fun op => op.bufs ⊆ tcRefs τ sig := by bufs_sub_list
theorem opsTail_sub : (opsTail : List (HloOp τ sig (Elt F))).Forall fun op => op.bufs ⊆ tcRefs τ sig := by bufs_sub_list

theorem ops_sub : (ops : List (HloOp τ sig (Elt F))).Forall fun op => op.bufs ⊆ tcRefs τ sig :=
  List.forall_append.2 ⟨opsL0_sub, List.forall_append.2 ⟨opsL1_sub, List.forall_append.2 ⟨opsL2_sub,
    List.forall_append.2 ⟨opsL3_sub, List.forall_append.2 ⟨opsL4_sub, opsTail_sub⟩⟩⟩⟩⟩

/-- Every operation of a literal list of the builders determines its results (none allocates). -/
macro "fresh_list" : tactic =>
  `(tactic| repeat (first | (refine And.intro rfl ?_) | exact rfl | exact True.intro))

theorem opsL0_fresh : (opsL0 : List (HloOp τ sig (Elt F))).Forall fun op => op.fresh = ∅ := by fresh_list
theorem opsL1_fresh : (opsL1 : List (HloOp τ sig (Elt F))).Forall fun op => op.fresh = ∅ := by fresh_list
theorem opsL2_fresh : (opsL2 : List (HloOp τ sig (Elt F))).Forall fun op => op.fresh = ∅ := by fresh_list
theorem opsL3_fresh : (opsL3 : List (HloOp τ sig (Elt F))).Forall fun op => op.fresh = ∅ := by fresh_list
theorem opsL4_fresh : (opsL4 : List (HloOp τ sig (Elt F))).Forall fun op => op.fresh = ∅ := by fresh_list
theorem opsTail_fresh : (opsTail : List (HloOp τ sig (Elt F))).Forall fun op => op.fresh = ∅ := by fresh_list

theorem ops_fresh : ∀ op ∈ (ops : List (HloOp τ sig (Elt F))), op.fresh = ∅ :=
  List.forall_iff_forall_mem.1 (List.forall_append.2 ⟨opsL0_fresh, List.forall_append.2 ⟨opsL1_fresh,
    List.forall_append.2 ⟨opsL2_fresh, List.forall_append.2 ⟨opsL3_fresh, List.forall_append.2 ⟨opsL4_fresh, opsTail_fresh⟩⟩⟩⟩⟩)

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-! ## The run -/

/-- The reference's run: from any memory whose counters are zero, whatever the float values, @main terminates on every
    weakly fair schedule, and then each TensorCore buffer of each device holds what the fold of the 765 operations,
    in program order, makes of that device's launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefCarry.lean ====
import proofs.«425927_j69028714381396_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operation writes one TensorCore reference, numbered at least lo. -/
def WritesFrom (lo : Nat) (op : HloOp τ sig (Elt F)) : Prop :=
  ∃ y : Ref sig .tc, op.writes = {Proc.devRef (τ := τ) .tc y} ∧ lo ≤ y.idx.val

/-- A reference numbered below everything a line writes keeps its contents across the line. -/
theorem after_of_writesFrom {lo : Nat} (l : List (HloOp τ sig (Elt F))) (h : l.Forall (WritesFrom lo))
    (V : Valuation τ sig (Elt F)) (r : Ref sig .tc) (hr : r.idx.val < lo) :
    after l V (Proc.devRef .tc r) = V (Proc.devRef .tc r) :=
  after_of_forall_not_mem l V fun op hop hb => by
    obtain ⟨y, hy, hlo⟩ := (List.forall_iff_forall_mem.mp h) op hop
    rw [hy, Finset.mem_singleton] at hb
    have e : r = y := Proc.devRef_injective _ hb
    subst e
    omega

/-- A literal list's operations one by one: each builder writes its result reference only. -/
macro "from_list" : tactic =>
  `(tactic| repeat (first | (refine And.intro ⟨_, rfl, by decide⟩ ?_) | exact ⟨_, rfl, by decide⟩ | exact True.intro))

/-- The 130 operations of opsL0 write references numbered from 27 on. -/
theorem opsL0_from : (opsL0 : List (HloOp τ sig (Elt F))).Forall (WritesFrom 27) := by
  from_list

/-- A reference numbered below 27 keeps its contents across opsL0. -/
theorem opsL0_carry (V : Valuation τ sig (Elt F)) (r : Ref sig .tc) (hr : r.idx.val < 27) :
    after opsL0 V (Proc.devRef .tc r) = V (Proc.devRef .tc r) :=
  after_of_writesFrom opsL0 opsL0_from V r hr
/-- The same equation, in the form a rewriting pass applies at any reference. -/
theorem opsL0_carry' (V : Valuation τ sig (Elt F)) (r : Ref sig .tc) (hr : r.idx.val < 27) :
    after opsL0 V (no_index (Proc.devRef .tc r)) = V (Proc.devRef .tc r) :=
  opsL0_carry V r hr

/-- The 135 operations of opsL1 write references numbered from 157 on. -/
theorem opsL1_from : (opsL1 : List (HloOp τ sig (Elt F))).Forall (WritesFrom 157) := by
  from_list

/-- A reference numbered below 157 keeps its contents across opsL1. -/
theorem opsL1_carry (V : Valuation τ sig (Elt F)) (r : Ref sig .tc) (hr : r.idx.val < 157) :
    after opsL1 V (Proc.devRef .tc r) = V (Proc.devRef .tc r) :=
  after_of_writesFrom opsL1 opsL1_from V r hr
/-- The same equation, in the form a rewriting pass applies at any reference. -/
theorem opsL1_carry' (V : Valuation τ sig (Elt F)) (r : Ref sig .tc) (hr : r.idx.val < 157) :
    after opsL1 V (no_index (Proc.devRef .tc r)) = V (Proc.devRef .tc r) :=
  opsL1_carry V r hr

/-- The 135 operations of opsL2 write references numbered from 292 on. -/
theorem opsL2_from : (opsL2 : List (HloOp τ sig (Elt F))).Forall (WritesFrom 292) := by
  from_list

/-- A reference numbered below 292 keeps its contents across opsL2. -/
theorem opsL2_carry (V : Valuation τ sig (Elt F)) (r : Ref sig .tc) (hr : r.idx.val < 292) :
    after opsL2 V (Proc.devRef .tc r) = V (Proc.devRef .tc r) :=
  after_of_writesFrom opsL2 opsL2_from V r hr
/-- The same equation, in the form a rewriting pass applies at any reference. -/
theorem opsL2_carry' (V : Valuation τ sig (Elt F)) (r : Ref sig .tc) (hr : r.idx.val < 292) :
    after opsL2 V (no_index (Proc.devRef .tc r)) = V (Proc.devRef .tc r) :=
  opsL2_carry V r hr

/-- The 135 operations of opsL3 write references numbered from 427 on. -/
theorem opsL3_from : (opsL3 : List (HloOp τ sig (Elt F))).Forall (WritesFrom 427) := by
  from_list

/-- A reference numbered below 427 keeps its contents across opsL3. -/
theorem opsL3_carry (V : Valuation τ sig (Elt F)) (r : Ref sig .tc) (hr : r.idx.val < 427) :
    after opsL3 V (Proc.devRef .tc r) = V (Proc.devRef .tc r) :=
  after_of_writesFrom opsL3 opsL3_from V r hr
/-- The same equation, in the form a rewriting pass applies at any reference. -/
theorem opsL3_carry' (V : Valuation τ sig (Elt F)) (r : Ref sig .tc) (hr : r.idx.val < 427) :
    after opsL3 V (no_index (Proc.devRef .tc r)) = V (Proc.devRef .tc r) :=
  opsL3_carry V r hr

/-- The 135 operations of opsL4 write references numbered from 562 on. -/
theorem opsL4_from : (opsL4 : List (HloOp τ sig (Elt F))).Forall (WritesFrom 562) := by
  from_list

/-- A reference numbered below 562 keeps its contents across opsL4. -/
theorem opsL4_carry (V : Valuation τ sig (Elt F)) (r : Ref sig .tc) (hr : r.idx.val < 562) :
    after opsL4 V (Proc.devRef .tc r) = V (Proc.devRef .tc r) :=
  after_of_writesFrom opsL4 opsL4_from V r hr
/-- The same equation, in the form a rewriting pass applies at any reference. -/
theorem opsL4_carry' (V : Valuation τ sig (Elt F)) (r : Ref sig .tc) (hr : r.idx.val < 562) :
    after opsL4 V (no_index (Proc.devRef .tc r)) = V (Proc.devRef .tc r) :=
  opsL4_carry V r hr

/-- The 95 operations of opsTail write references numbered from 697 on. -/
theorem opsTail_from : (opsTail : List (HloOp τ sig (Elt F))).Forall (WritesFrom 697) := by
  from_list

/-- A reference numbered below 697 keeps its contents across opsTail. -/
theorem opsTail_carry (V : Valuation τ sig (Elt F)) (r : Ref sig .tc) (hr : r.idx.val < 697) :
    after opsTail V (Proc.devRef .tc r) = V (Proc.devRef .tc r) :=
  after_of_writesFrom opsTail opsTail_from V r hr
/-- The same equation, in the form a rewriting pass applies at any reference. -/
theorem opsTail_carry' (V : Valuation τ sig (Elt F)) (r : Ref sig .tc) (hr : r.idx.val < 697) :
    after opsTail V (no_index (Proc.devRef .tc r)) = V (Proc.devRef .tc r) :=
  opsTail_carry V r hr

/-- The fold over a concatenation: the second line's fold from the first line's. -/
private theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole program's fold is the six stretches' folds one after the other. -/
theorem ops_after (V : Valuation τ sig (Elt F)) :
    after ops V = after opsTail (after opsL4 (after opsL3 (after opsL2 (after opsL1 (after opsL0 V))))) := by
  show after (opsL0 ++ (opsL1 ++ (opsL2 ++ (opsL3 ++ (opsL4 ++ opsTail))))) V = _
  rw [after_app, after_app, after_app, after_app, after_app]

/-- A reference numbered below the first stretch's first result (an argument of the program) keeps its contents across the whole program. -/
theorem ops_carry (V : Valuation τ sig (Elt F)) (r : Ref sig .tc) (hr : r.idx.val < 27) :
    after ops V (Proc.devRef .tc r) = V (Proc.devRef .tc r) := by
  rw [ops_after, opsTail_carry _ r (by omega), opsL4_carry _ r (by omega), opsL3_carry _ r (by omega),
    opsL2_carry _ r (by omega), opsL1_carry _ r (by omega), opsL0_carry _ r hr]

end Cert.ReferenceIdeal.RefRun

namespace Cert.ReferenceIdeal.RefValue

open Cert.ReferenceIdeal Cert.ReferenceIdeal.RefRun Idealize.ShloMosaic Idealize.ShloMosaic.StableHlo

variable {F : FTy → Type} [FloatOps F]

/-! ### What opsL0 leaves alone: the program's arguments -/

theorem r0_arg0 (V : Valuation τ sig (Elt F)) : after opsL0 V (Proc.devRef .tc main_arg0) = V (Proc.devRef .tc main_arg0) :=
  opsL0_carry V main_arg0 (by decide)
theorem r0_arg1 (V : Valuation τ sig (Elt F)) : after opsL0 V (Proc.devRef .tc main_arg1) = V (Proc.devRef .tc main_arg1) :=
  opsL0_carry V main_arg1 (by decide)
theorem r0_arg2 (V : Valuation τ sig (Elt F)) : after opsL0 V (Proc.devRef .tc main_arg2) = V (Proc.devRef .tc main_arg2) :=
  opsL0_carry V main_arg2 (by decide)
theorem r0_arg3 (V : Valuation τ sig (Elt F)) : after opsL0 V (Proc.devRef .tc main_arg3) = V (Proc.devRef .tc main_arg3) :=
  opsL0_carry V main_arg3 (by decide)
theorem r0_arg4 (V : Valuation τ sig (Elt F)) : after opsL0 V (Proc.devRef .tc main_arg4) = V (Proc.devRef .tc main_arg4) :=
  opsL0_carry V main_arg4 (by decide)
theorem r0_arg5 (V : Valuation τ sig (Elt F)) : after opsL0 V (Proc.devRef .tc main_arg5) = V (Proc.devRef .tc main_arg5) :=
  opsL0_carry V main_arg5 (by decide)
theorem r0_arg6 (V : Valuation τ sig (Elt F)) : after opsL0 V (Proc.devRef .tc main_arg6) = V (Proc.devRef .tc main_arg6) :=
  opsL0_carry V main_arg6 (by decide)
theorem r0_arg7 (V : Valuation τ sig (Elt F)) : after opsL0 V (Proc.devRef .tc main_arg7) = V (Proc.devRef .tc main_arg7) :=
  opsL0_carry V main_arg7 (by decide)
theorem r0_arg8 (V : Valuation τ sig (Elt F)) : after opsL0 V (Proc.devRef .tc main_arg8) = V (Proc.devRef .tc main_arg8) :=
  opsL0_carry V main_arg8 (by decide)
theorem r0_arg9 (V : Valuation τ sig (Elt F)) : after opsL0 V (Proc.devRef .tc main_arg9) = V (Proc.devRef .tc main_arg9) :=
  opsL0_carry V main_arg9 (by decide)
theorem r0_arg10 (V : Valuation τ sig (Elt F)) : after opsL0 V (Proc.devRef .tc main_arg10) = V (Proc.devRef .tc main_arg10) :=
  opsL0_carry V main_arg10 (by decide)
theorem r0_arg11 (V : Valuation τ sig (Elt F)) : after opsL0 V (Proc.devRef .tc main_arg11) = V (Proc.devRef .tc main_arg11) :=
  opsL0_carry V main_arg11 (by decide)
theorem r0_arg12 (V : Valuation τ sig (Elt F)) : after opsL0 V (Proc.devRef .tc main_arg12) = V (Proc.devRef .tc main_arg12) :=
  opsL0_carry V main_arg12 (by decide)
theorem r0_arg13 (V : Valuation τ sig (Elt F)) : after opsL0 V (Proc.devRef .tc main_arg13) = V (Proc.devRef .tc main_arg13) :=
  opsL0_carry V main_arg13 (by decide)
theorem r0_arg14 (V : Valuation τ sig (Elt F)) : after opsL0 V (Proc.devRef .tc main_arg14) = V (Proc.devRef .tc main_arg14) :=
  opsL0_carry V main_arg14 (by decide)
theorem r0_arg15 (V : Valuation τ sig (Elt F)) : after opsL0 V (Proc.devRef .tc main_arg15) = V (Proc.devRef .tc main_arg15) :=
  opsL0_carry V main_arg15 (by decide)
theorem r0_arg16 (V : Valuation τ sig (Elt F)) : after opsL0 V (Proc.devRef .tc main_arg16) = V (Proc.devRef .tc main_arg16) :=
  opsL0_carry V main_arg16 (by decide)
theorem r0_arg17 (V : Valuation τ sig (Elt F)) : after opsL0 V (Proc.devRef .tc main_arg17) = V (Proc.devRef .tc main_arg17) :=
  opsL0_carry V main_arg17 (by decide)
theorem r0_arg18 (V : Valuation τ sig (Elt F)) : after opsL0 V (Proc.devRef .tc main_arg18) = V (Proc.devRef .tc main_arg18) :=
  opsL0_carry V main_arg18 (by decide)
theorem r0_arg19 (V : Valuation τ sig (Elt F)) : after opsL0 V (Proc.devRef .tc main_arg19) = V (Proc.devRef .tc main_arg19) :=
  opsL0_carry V main_arg19 (by decide)
theorem r0_arg20 (V : Valuation τ sig (Elt F)) : after opsL0 V (Proc.devRef .tc main_arg20) = V (Proc.devRef .tc main_arg20) :=
  opsL0_carry V main_arg20 (by decide)
theorem r0_arg21 (V : Valuation τ sig (Elt F)) : after opsL0 V (Proc.devRef .tc main_arg21) = V (Proc.devRef .tc main_arg21) :=
  opsL0_carry V main_arg21 (by decide)
theorem r0_arg22 (V : Valuation τ sig (Elt F)) : after opsL0 V (Proc.devRef .tc main_arg22) = V (Proc.devRef .tc main_arg22) :=
  opsL0_carry V main_arg22 (by decide)
theorem r0_arg23 (V : Valuation τ sig (Elt F)) : after opsL0 V (Proc.devRef .tc main_arg23) = V (Proc.devRef .tc main_arg23) :=
  opsL0_carry V main_arg23 (by decide)
theorem r0_arg24 (V : Valuation τ sig (Elt F)) : after opsL0 V (Proc.devRef .tc main_arg24) = V (Proc.devRef .tc main_arg24) :=
  opsL0_carry V main_arg24 (by decide)
theorem r0_arg25 (V : Valuation τ sig (Elt F)) : after opsL0 V (Proc.devRef .tc main_arg25) = V (Proc.devRef .tc main_arg25) :=
  opsL0_carry V main_arg25 (by decide)
theorem r0_arg26 (V : Valuation τ sig (Elt F)) : after opsL0 V (Proc.devRef .tc main_arg26) = V (Proc.devRef .tc main_arg26) :=
  opsL0_carry V main_arg26 (by decide)

/-! ### What opsL1 leaves alone: the program's arguments and the two edge-endpoint vectors -/

theorem r1_arg0 (V : Valuation τ sig (Elt F)) : after opsL1 V (Proc.devRef .tc main_arg0) = V (Proc.devRef .tc main_arg0) :=
  opsL1_carry V main_arg0 (by decide)
theorem r1_arg1 (V : Valuation τ sig (Elt F)) : after opsL1 V (Proc.devRef .tc main_arg1) = V (Proc.devRef .tc main_arg1) :=
  opsL1_carry V main_arg1 (by decide)
theorem r1_arg2 (V : Valuation τ sig (Elt F)) : after opsL1 V (Proc.devRef .tc main_arg2) = V (Proc.devRef .tc main_arg2) :=
  opsL1_carry V main_arg2 (by decide)
theorem r1_arg3 (V : Valuation τ sig (Elt F)) : after opsL1 V (Proc.devRef .tc main_arg3) = V (Proc.devRef .tc main_arg3) :=
  opsL1_carry V main_arg3 (by decide)
theorem r1_arg4 (V : Valuation τ sig (Elt F)) : after opsL1 V (Proc.devRef .tc main_arg4) = V (Proc.devRef .tc main_arg4) :=
  opsL1_carry V main_arg4 (by decide)
theorem r1_arg5 (V : Valuation τ sig (Elt F)) : after opsL1 V (Proc.devRef .tc main_arg5) = V (Proc.devRef .tc main_arg5) :=
  opsL1_carry V main_arg5 (by decide)
theorem r1_arg6 (V : Valuation τ sig (Elt F)) : after opsL1 V (Proc.devRef .tc main_arg6) = V (Proc.devRef .tc main_arg6) :=
  opsL1_carry V main_arg6 (by decide)
theorem r1_arg7 (V : Valuation τ sig (Elt F)) : after opsL1 V (Proc.devRef .tc main_arg7) = V (Proc.devRef .tc main_arg7) :=
  opsL1_carry V main_arg7 (by decide)
theorem r1_arg8 (V : Valuation τ sig (Elt F)) : after opsL1 V (Proc.devRef .tc main_arg8) = V (Proc.devRef .tc main_arg8) :=
  opsL1_carry V main_arg8 (by decide)
theorem r1_arg9 (V : Valuation τ sig (Elt F)) : after opsL1 V (Proc.devRef .tc main_arg9) = V (Proc.devRef .tc main_arg9) :=
  opsL1_carry V main_arg9 (by decide)
theorem r1_arg10 (V : Valuation τ sig (Elt F)) : after opsL1 V (Proc.devRef .tc main_arg10) = V (Proc.devRef .tc main_arg10) :=
  opsL1_carry V main_arg10 (by decide)
theorem r1_arg11 (V : Valuation τ sig (Elt F)) : after opsL1 V (Proc.devRef .tc main_arg11) = V (Proc.devRef .tc main_arg11) :=
  opsL1_carry V main_arg11 (by decide)
theorem r1_arg12 (V : Valuation τ sig (Elt F)) : after opsL1 V (Proc.devRef .tc main_arg12) = V (Proc.devRef .tc main_arg12) :=
  opsL1_carry V main_arg12 (by decide)
theorem r1_arg13 (V : Valuation τ sig (Elt F)) : after opsL1 V (Proc.devRef .tc main_arg13) = V (Proc.devRef .tc main_arg13) :=
  opsL1_carry V main_arg13 (by decide)
theorem r1_arg14 (V : Valuation τ sig (Elt F)) : after opsL1 V (Proc.devRef .tc main_arg14) = V (Proc.devRef .tc main_arg14) :=
  opsL1_carry V main_arg14 (by decide)
theorem r1_arg15 (V : Valuation τ sig (Elt F)) : after opsL1 V (Proc.devRef .tc main_arg15) = V (Proc.devRef .tc main_arg15) :=
  opsL1_carry V main_arg15 (by decide)
theorem r1_arg16 (V : Valuation τ sig (Elt F)) : after opsL1 V (Proc.devRef .tc main_arg16) = V (Proc.devRef .tc main_arg16) :=
  opsL1_carry V main_arg16 (by decide)
theorem r1_arg17 (V : Valuation τ sig (Elt F)) : after opsL1 V (Proc.devRef .tc main_arg17) = V (Proc.devRef .tc main_arg17) :=
  opsL1_carry V main_arg17 (by decide)
theorem r1_arg18 (V : Valuation τ sig (Elt F)) : after opsL1 V (Proc.devRef .tc main_arg18) = V (Proc.devRef .tc main_arg18) :=
  opsL1_carry V main_arg18 (by decide)
theorem r1_arg19 (V : Valuation τ sig (Elt F)) : after opsL1 V (Proc.devRef .tc main_arg19) = V (Proc.devRef .tc main_arg19) :=
  opsL1_carry V main_arg19 (by decide)
theorem r1_arg20 (V : Valuation τ sig (Elt F)) : after opsL1 V (Proc.devRef .tc main_arg20) = V (Proc.devRef .tc main_arg20) :=
  opsL1_carry V main_arg20 (by decide)
theorem r1_arg21 (V : Valuation τ sig (Elt F)) : after opsL1 V (Proc.devRef .tc main_arg21) = V (Proc.devRef .tc main_arg21) :=
  opsL1_carry V main_arg21 (by decide)
theorem r1_arg22 (V : Valuation τ sig (Elt F)) : after opsL1 V (Proc.devRef .tc main_arg22) = V (Proc.devRef .tc main_arg22) :=
  opsL1_carry V main_arg22 (by decide)
theorem r1_arg23 (V : Valuation τ sig (Elt F)) : after opsL1 V (Proc.devRef .tc main_arg23) = V (Proc.devRef .tc main_arg23) :=
  opsL1_carry V main_arg23 (by decide)
theorem r1_arg24 (V : Valuation τ sig (Elt F)) : after opsL1 V (Proc.devRef .tc main_arg24) = V (Proc.devRef .tc main_arg24) :=
  opsL1_carry V main_arg24 (by decide)
theorem r1_arg25 (V : Valuation τ sig (Elt F)) : after opsL1 V (Proc.devRef .tc main_arg25) = V (Proc.devRef .tc main_arg25) :=
  opsL1_carry V main_arg25 (by decide)
theorem r1_arg26 (V : Valuation τ sig (Elt F)) : after opsL1 V (Proc.devRef .tc main_arg26) = V (Proc.devRef .tc main_arg26) :=
  opsL1_carry V main_arg26 (by decide)
theorem r1_src (V : Valuation τ sig (Elt F)) : after opsL1 V (Proc.devRef .tc main_v1) = V (Proc.devRef .tc main_v1) :=
  opsL1_carry V main_v1 (by decide)
theorem r1_dst (V : Valuation τ sig (Elt F)) : after opsL1 V (Proc.devRef .tc main_v3) = V (Proc.devRef .tc main_v3) :=
  opsL1_carry V main_v3 (by decide)

/-! ### What opsL2 leaves alone: the program's arguments and the two edge-endpoint vectors -/

theorem r2_arg0 (V : Valuation τ sig (Elt F)) : after opsL2 V (Proc.devRef .tc main_arg0) = V (Proc.devRef .tc main_arg0) :=
  opsL2_carry V main_arg0 (by decide)
theorem r2_arg1 (V : Valuation τ sig (Elt F)) : after opsL2 V (Proc.devRef .tc main_arg1) = V (Proc.devRef .tc main_arg1) :=
  opsL2_carry V main_arg1 (by decide)
theorem r2_arg2 (V : Valuation τ sig (Elt F)) : after opsL2 V (Proc.devRef .tc main_arg2) = V (Proc.devRef .tc main_arg2) :=
  opsL2_carry V main_arg2 (by decide)
theorem r2_arg3 (V : Valuation τ sig (Elt F)) : after opsL2 V (Proc.devRef .tc main_arg3) = V (Proc.devRef .tc main_arg3) :=
  opsL2_carry V main_arg3 (by decide)
theorem r2_arg4 (V : Valuation τ sig (Elt F)) : after opsL2 V (Proc.devRef .tc main_arg4) = V (Proc.devRef .tc main_arg4) :=
  opsL2_carry V main_arg4 (by decide)
theorem r2_arg5 (V : Valuation τ sig (Elt F)) : after opsL2 V (Proc.devRef .tc main_arg5) = V (Proc.devRef .tc main_arg5) :=
  opsL2_carry V main_arg5 (by decide)
theorem r2_arg6 (V : Valuation τ sig (Elt F)) : after opsL2 V (Proc.devRef .tc main_arg6) = V (Proc.devRef .tc main_arg6) :=
  opsL2_carry V main_arg6 (by decide)
theorem r2_arg7 (V : Valuation τ sig (Elt F)) : after opsL2 V (Proc.devRef .tc main_arg7) = V (Proc.devRef .tc main_arg7) :=
  opsL2_carry V main_arg7 (by decide)
theorem r2_arg8 (V : Valuation τ sig (Elt F)) : after opsL2 V (Proc.devRef .tc main_arg8) = V (Proc.devRef .tc main_arg8) :=
  opsL2_carry V main_arg8 (by decide)
theorem r2_arg9 (V : Valuation τ sig (Elt F)) : after opsL2 V (Proc.devRef .tc main_arg9) = V (Proc.devRef .tc main_arg9) :=
  opsL2_carry V main_arg9 (by decide)
theorem r2_arg10 (V : Valuation τ sig (Elt F)) : after opsL2 V (Proc.devRef .tc main_arg10) = V (Proc.devRef .tc main_arg10) :=
  opsL2_carry V main_arg10 (by decide)
theorem r2_arg11 (V : Valuation τ sig (Elt F)) : after opsL2 V (Proc.devRef .tc main_arg11) = V (Proc.devRef .tc main_arg11) :=
  opsL2_carry V main_arg11 (by decide)
theorem r2_arg12 (V : Valuation τ sig (Elt F)) : after opsL2 V (Proc.devRef .tc main_arg12) = V (Proc.devRef .tc main_arg12) :=
  opsL2_carry V main_arg12 (by decide)
theorem r2_arg13 (V : Valuation τ sig (Elt F)) : after opsL2 V (Proc.devRef .tc main_arg13) = V (Proc.devRef .tc main_arg13) :=
  opsL2_carry V main_arg13 (by decide)
theorem r2_arg14 (V : Valuation τ sig (Elt F)) : after opsL2 V (Proc.devRef .tc main_arg14) = V (Proc.devRef .tc main_arg14) :=
  opsL2_carry V main_arg14 (by decide)
theorem r2_arg15 (V : Valuation τ sig (Elt F)) : after opsL2 V (Proc.devRef .tc main_arg15) = V (Proc.devRef .tc main_arg15) :=
  opsL2_carry V main_arg15 (by decide)
theorem r2_arg16 (V : Valuation τ sig (Elt F)) : after opsL2 V (Proc.devRef .tc main_arg16) = V (Proc.devRef .tc main_arg16) :=
  opsL2_carry V main_arg16 (by decide)
theorem r2_arg17 (V : Valuation τ sig (Elt F)) : after opsL2 V (Proc.devRef .tc main_arg17) = V (Proc.devRef .tc main_arg17) :=
  opsL2_carry V main_arg17 (by decide)
theorem r2_arg18 (V : Valuation τ sig (Elt F)) : after opsL2 V (Proc.devRef .tc main_arg18) = V (Proc.devRef .tc main_arg18) :=
  opsL2_carry V main_arg18 (by decide)
theorem r2_arg19 (V : Valuation τ sig (Elt F)) : after opsL2 V (Proc.devRef .tc main_arg19) = V (Proc.devRef .tc main_arg19) :=
  opsL2_carry V main_arg19 (by decide)
theorem r2_arg20 (V : Valuation τ sig (Elt F)) : after opsL2 V (Proc.devRef .tc main_arg20) = V (Proc.devRef .tc main_arg20) :=
  opsL2_carry V main_arg20 (by decide)
theorem r2_arg21 (V : Valuation τ sig (Elt F)) : after opsL2 V (Proc.devRef .tc main_arg21) = V (Proc.devRef .tc main_arg21) :=
  opsL2_carry V main_arg21 (by decide)
theorem r2_arg22 (V : Valuation τ sig (Elt F)) : after opsL2 V (Proc.devRef .tc main_arg22) = V (Proc.devRef .tc main_arg22) :=
  opsL2_carry V main_arg22 (by decide)
theorem r2_arg23 (V : Valuation τ sig (Elt F)) : after opsL2 V (Proc.devRef .tc main_arg23) = V (Proc.devRef .tc main_arg23) :=
  opsL2_carry V main_arg23 (by decide)
theorem r2_arg24 (V : Valuation τ sig (Elt F)) : after opsL2 V (Proc.devRef .tc main_arg24) = V (Proc.devRef .tc main_arg24) :=
  opsL2_carry V main_arg24 (by decide)
theorem r2_arg25 (V : Valuation τ sig (Elt F)) : after opsL2 V (Proc.devRef .tc main_arg25) = V (Proc.devRef .tc main_arg25) :=
  opsL2_carry V main_arg25 (by decide)
theorem r2_arg26 (V : Valuation τ sig (Elt F)) : after opsL2 V (Proc.devRef .tc main_arg26) = V (Proc.devRef .tc main_arg26) :=
  opsL2_carry V main_arg26 (by decide)
theorem r2_src (V : Valuation τ sig (Elt F)) : after opsL2 V (Proc.devRef .tc main_v1) = V (Proc.devRef .tc main_v1) :=
  opsL2_carry V main_v1 (by decide)
theorem r2_dst (V : Valuation τ sig (Elt F)) : after opsL2 V (Proc.devRef .tc main_v3) = V (Proc.devRef .tc main_v3) :=
  opsL2_carry V main_v3 (by decide)

/-! ### What opsL3 leaves alone: the program's arguments and the two edge-endpoint vectors -/

theorem r3_arg0 (V : Valuation τ sig (Elt F)) : after opsL3 V (Proc.devRef .tc main_arg0) = V (Proc.devRef .tc main_arg0) :=
  opsL3_carry V main_arg0 (by decide)
theorem r3_arg1 (V : Valuation τ sig (Elt F)) : after opsL3 V (Proc.devRef .tc main_arg1) = V (Proc.devRef .tc main_arg1) :=
  opsL3_carry V main_arg1 (by decide)
theorem r3_arg2 (V : Valuation τ sig (Elt F)) : after opsL3 V (Proc.devRef .tc main_arg2) = V (Proc.devRef .tc main_arg2) :=
  opsL3_carry V main_arg2 (by decide)
theorem r3_arg3 (V : Valuation τ sig (Elt F)) : after opsL3 V (Proc.devRef .tc main_arg3) = V (Proc.devRef .tc main_arg3) :=
  opsL3_carry V main_arg3 (by decide)
theorem r3_arg4 (V : Valuation τ sig (Elt F)) : after opsL3 V (Proc.devRef .tc main_arg4) = V (Proc.devRef .tc main_arg4) :=
  opsL3_carry V main_arg4 (by decide)
theorem r3_arg5 (V : Valuation τ sig (Elt F)) : after opsL3 V (Proc.devRef .tc main_arg5) = V (Proc.devRef .tc main_arg5) :=
  opsL3_carry V main_arg5 (by decide)
theorem r3_arg6 (V : Valuation τ sig (Elt F)) : after opsL3 V (Proc.devRef .tc main_arg6) = V (Proc.devRef .tc main_arg6) :=
  opsL3_carry V main_arg6 (by decide)
theorem r3_arg7 (V : Valuation τ sig (Elt F)) : after opsL3 V (Proc.devRef .tc main_arg7) = V (Proc.devRef .tc main_arg7) :=
  opsL3_carry V main_arg7 (by decide)
theorem r3_arg8 (V : Valuation τ sig (Elt F)) : after opsL3 V (Proc.devRef .tc main_arg8) = V (Proc.devRef .tc main_arg8) :=
  opsL3_carry V main_arg8 (by decide)
theorem r3_arg9 (V : Valuation τ sig (Elt F)) : after opsL3 V (Proc.devRef .tc main_arg9) = V (Proc.devRef .tc main_arg9) :=
  opsL3_carry V main_arg9 (by decide)
theorem r3_arg10 (V : Valuation τ sig (Elt F)) : after opsL3 V (Proc.devRef .tc main_arg10) = V (Proc.devRef .tc main_arg10) :=
  opsL3_carry V main_arg10 (by decide)
theorem r3_arg11 (V : Valuation τ sig (Elt F)) : after opsL3 V (Proc.devRef .tc main_arg11) = V (Proc.devRef .tc main_arg11) :=
  opsL3_carry V main_arg11 (by decide)
theorem r3_arg12 (V : Valuation τ sig (Elt F)) : after opsL3 V (Proc.devRef .tc main_arg12) = V (Proc.devRef .tc main_arg12) :=
  opsL3_carry V main_arg12 (by decide)
theorem r3_arg13 (V : Valuation τ sig (Elt F)) : after opsL3 V (Proc.devRef .tc main_arg13) = V (Proc.devRef .tc main_arg13) :=
  opsL3_carry V main_arg13 (by decide)
theorem r3_arg14 (V : Valuation τ sig (Elt F)) : after opsL3 V (Proc.devRef .tc main_arg14) = V (Proc.devRef .tc main_arg14) :=
  opsL3_carry V main_arg14 (by decide)
theorem r3_arg15 (V : Valuation τ sig (Elt F)) : after opsL3 V (Proc.devRef .tc main_arg15) = V (Proc.devRef .tc main_arg15) :=
  opsL3_carry V main_arg15 (by decide)
theorem r3_arg16 (V : Valuation τ sig (Elt F)) : after opsL3 V (Proc.devRef .tc main_arg16) = V (Proc.devRef .tc main_arg16) :=
  opsL3_carry V main_arg16 (by decide)
theorem r3_arg17 (V : Valuation τ sig (Elt F)) : after opsL3 V (Proc.devRef .tc main_arg17) = V (Proc.devRef .tc main_arg17) :=
  opsL3_carry V main_arg17 (by decide)
theorem r3_arg18 (V : Valuation τ sig (Elt F)) : after opsL3 V (Proc.devRef .tc main_arg18) = V (Proc.devRef .tc main_arg18) :=
  opsL3_carry V main_arg18 (by decide)
theorem r3_arg19 (V : Valuation τ sig (Elt F)) : after opsL3 V (Proc.devRef .tc main_arg19) = V (Proc.devRef .tc main_arg19) :=
  opsL3_carry V main_arg19 (by decide)
theorem r3_arg20 (V : Valuation τ sig (Elt F)) : after opsL3 V (Proc.devRef .tc main_arg20) = V (Proc.devRef .tc main_arg20) :=
  opsL3_carry V main_arg20 (by decide)
theorem r3_arg21 (V : Valuation τ sig (Elt F)) : after opsL3 V (Proc.devRef .tc main_arg21) = V (Proc.devRef .tc main_arg21) :=
  opsL3_carry V main_arg21 (by decide)
theorem r3_arg22 (V : Valuation τ sig (Elt F)) : after opsL3 V (Proc.devRef .tc main_arg22) = V (Proc.devRef .tc main_arg22) :=
  opsL3_carry V main_arg22 (by decide)
theorem r3_arg23 (V : Valuation τ sig (Elt F)) : after opsL3 V (Proc.devRef .tc main_arg23) = V (Proc.devRef .tc main_arg23) :=
  opsL3_carry V main_arg23 (by decide)
theorem r3_arg24 (V : Valuation τ sig (Elt F)) : after opsL3 V (Proc.devRef .tc main_arg24) = V (Proc.devRef .tc main_arg24) :=
  opsL3_carry V main_arg24 (by decide)
theorem r3_arg25 (V : Valuation τ sig (Elt F)) : after opsL3 V (Proc.devRef .tc main_arg25) = V (Proc.devRef .tc main_arg25) :=
  opsL3_carry V main_arg25 (by decide)
theorem r3_arg26 (V : Valuation τ sig (Elt F)) : after opsL3 V (Proc.devRef .tc main_arg26) = V (Proc.devRef .tc main_arg26) :=
  opsL3_carry V main_arg26 (by decide)
theorem r3_src (V : Valuation τ sig (Elt F)) : after opsL3 V (Proc.devRef .tc main_v1) = V (Proc.devRef .tc main_v1) :=
  opsL3_carry V main_v1 (by decide)
theorem r3_dst (V : Valuation τ sig (Elt F)) : after opsL3 V (Proc.devRef .tc main_v3) = V (Proc.devRef .tc main_v3) :=
  opsL3_carry V main_v3 (by decide)

/-! ### What opsL4 leaves alone: the program's arguments and the two edge-endpoint vectors -/

theorem r4_arg0 (V : Valuation τ sig (Elt F)) : after opsL4 V (Proc.devRef .tc main_arg0) = V (Proc.devRef .tc main_arg0) :=
  opsL4_carry V main_arg0 (by decide)
theorem r4_arg1 (V : Valuation τ sig (Elt F)) : after opsL4 V (Proc.devRef .tc main_arg1) = V (Proc.devRef .tc main_arg1) :=
  opsL4_carry V main_arg1 (by decide)
theorem r4_arg2 (V : Valuation τ sig (Elt F)) : after opsL4 V (Proc.devRef .tc main_arg2) = V (Proc.devRef .tc main_arg2) :=
  opsL4_carry V main_arg2 (by decide)
theorem r4_arg3 (V : Valuation τ sig (Elt F)) : after opsL4 V (Proc.devRef .tc main_arg3) = V (Proc.devRef .tc main_arg3) :=
  opsL4_carry V main_arg3 (by decide)
theorem r4_arg4 (V : Valuation τ sig (Elt F)) : after opsL4 V (Proc.devRef .tc main_arg4) = V (Proc.devRef .tc main_arg4) :=
  opsL4_carry V main_arg4 (by decide)
theorem r4_arg5 (V : Valuation τ sig (Elt F)) : after opsL4 V (Proc.devRef .tc main_arg5) = V (Proc.devRef .tc main_arg5) :=
  opsL4_carry V main_arg5 (by decide)
theorem r4_arg6 (V : Valuation τ sig (Elt F)) : after opsL4 V (Proc.devRef .tc main_arg6) = V (Proc.devRef .tc main_arg6) :=
  opsL4_carry V main_arg6 (by decide)
theorem r4_arg7 (V : Valuation τ sig (Elt F)) : after opsL4 V (Proc.devRef .tc main_arg7) = V (Proc.devRef .tc main_arg7) :=
  opsL4_carry V main_arg7 (by decide)
theorem r4_arg8 (V : Valuation τ sig (Elt F)) : after opsL4 V (Proc.devRef .tc main_arg8) = V (Proc.devRef .tc main_arg8) :=
  opsL4_carry V main_arg8 (by decide)
theorem r4_arg9 (V : Valuation τ sig (Elt F)) : after opsL4 V (Proc.devRef .tc main_arg9) = V (Proc.devRef .tc main_arg9) :=
  opsL4_carry V main_arg9 (by decide)
theorem r4_arg10 (V : Valuation τ sig (Elt F)) : after opsL4 V (Proc.devRef .tc main_arg10) = V (Proc.devRef .tc main_arg10) :=
  opsL4_carry V main_arg10 (by decide)
theorem r4_arg11 (V : Valuation τ sig (Elt F)) : after opsL4 V (Proc.devRef .tc main_arg11) = V (Proc.devRef .tc main_arg11) :=
  opsL4_carry V main_arg11 (by decide)
theorem r4_arg12 (V : Valuation τ sig (Elt F)) : after opsL4 V (Proc.devRef .tc main_arg12) = V (Proc.devRef .tc main_arg12) :=
  opsL4_carry V main_arg12 (by decide)
theorem r4_arg13 (V : Valuation τ sig (Elt F)) : after opsL4 V (Proc.devRef .tc main_arg13) = V (Proc.devRef .tc main_arg13) :=
  opsL4_carry V main_arg13 (by decide)
theorem r4_arg14 (V : Valuation τ sig (Elt F)) : after opsL4 V (Proc.devRef .tc main_arg14) = V (Proc.devRef .tc main_arg14) :=
  opsL4_carry V main_arg14 (by decide)
theorem r4_arg15 (V : Valuation τ sig (Elt F)) : after opsL4 V (Proc.devRef .tc main_arg15) = V (Proc.devRef .tc main_arg15) :=
  opsL4_carry V main_arg15 (by decide)
theorem r4_arg16 (V : Valuation τ sig (Elt F)) : after opsL4 V (Proc.devRef .tc main_arg16) = V (Proc.devRef .tc main_arg16) :=
  opsL4_carry V main_arg16 (by decide)
theorem r4_arg17 (V : Valuation τ sig (Elt F)) : after opsL4 V (Proc.devRef .tc main_arg17) = V (Proc.devRef .tc main_arg17) :=
  opsL4_carry V main_arg17 (by decide)
theorem r4_arg18 (V : Valuation τ sig (Elt F)) : after opsL4 V (Proc.devRef .tc main_arg18) = V (Proc.devRef .tc main_arg18) :=
  opsL4_carry V main_arg18 (by decide)
theorem r4_arg19 (V : Valuation τ sig (Elt F)) : after opsL4 V (Proc.devRef .tc main_arg19) = V (Proc.devRef .tc main_arg19) :=
  opsL4_carry V main_arg19 (by decide)
theorem r4_arg20 (V : Valuation τ sig (Elt F)) : after opsL4 V (Proc.devRef .tc main_arg20) = V (Proc.devRef .tc main_arg20) :=
  opsL4_carry V main_arg20 (by decide)
theorem r4_arg21 (V : Valuation τ sig (Elt F)) : after opsL4 V (Proc.devRef .tc main_arg21) = V (Proc.devRef .tc main_arg21) :=
  opsL4_carry V main_arg21 (by decide)
theorem r4_arg22 (V : Valuation τ sig (Elt F)) : after opsL4 V (Proc.devRef .tc main_arg22) = V (Proc.devRef .tc main_arg22) :=
  opsL4_carry V main_arg22 (by decide)
theorem r4_arg23 (V : Valuation τ sig (Elt F)) : after opsL4 V (Proc.devRef .tc main_arg23) = V (Proc.devRef .tc main_arg23) :=
  opsL4_carry V main_arg23 (by decide)
theorem r4_arg24 (V : Valuation τ sig (Elt F)) : after opsL4 V (Proc.devRef .tc main_arg24) = V (Proc.devRef .tc main_arg24) :=
  opsL4_carry V main_arg24 (by decide)
theorem r4_arg25 (V : Valuation τ sig (Elt F)) : after opsL4 V (Proc.devRef .tc main_arg25) = V (Proc.devRef .tc main_arg25) :=
  opsL4_carry V main_arg25 (by decide)
theorem r4_arg26 (V : Valuation τ sig (Elt F)) : after opsL4 V (Proc.devRef .tc main_arg26) = V (Proc.devRef .tc main_arg26) :=
  opsL4_carry V main_arg26 (by decide)
theorem r4_src (V : Valuation τ sig (Elt F)) : after opsL4 V (Proc.devRef .tc main_v1) = V (Proc.devRef .tc main_v1) :=
  opsL4_carry V main_v1 (by decide)
theorem r4_dst (V : Valuation τ sig (Elt F)) : after opsL4 V (Proc.devRef .tc main_v3) = V (Proc.devRef .tc main_v3) :=
  opsL4_carry V main_v3 (by decide)

/-! ### What opsTail leaves alone: the program's arguments and the two edge-endpoint vectors -/

theorem rTail_arg0 (V : Valuation τ sig (Elt F)) : after opsTail V (Proc.devRef .tc main_arg0) = V (Proc.devRef .tc main_arg0) :=
  opsTail_carry V main_arg0 (by decide)
theorem rTail_arg1 (V : Valuation τ sig (Elt F)) : after opsTail V (Proc.devRef .tc main_arg1) = V (Proc.devRef .tc main_arg1) :=
  opsTail_carry V main_arg1 (by decide)
theorem rTail_arg2 (V : Valuation τ sig (Elt F)) : after opsTail V (Proc.devRef .tc main_arg2) = V (Proc.devRef .tc main_arg2) :=
  opsTail_carry V main_arg2 (by decide)
theorem rTail_arg3 (V : Valuation τ sig (Elt F)) : after opsTail V (Proc.devRef .tc main_arg3) = V (Proc.devRef .tc main_arg3) :=
  opsTail_carry V main_arg3 (by decide)
theorem rTail_arg4 (V : Valuation τ sig (Elt F)) : after opsTail V (Proc.devRef .tc main_arg4) = V (Proc.devRef .tc main_arg4) :=
  opsTail_carry V main_arg4 (by decide)
theorem rTail_arg5 (V : Valuation τ sig (Elt F)) : after opsTail V (Proc.devRef .tc main_arg5) = V (Proc.devRef .tc main_arg5) :=
  opsTail_carry V main_arg5 (by decide)
theorem rTail_arg6 (V : Valuation τ sig (Elt F)) : after opsTail V (Proc.devRef .tc main_arg6) = V (Proc.devRef .tc main_arg6) :=
  opsTail_carry V main_arg6 (by decide)
theorem rTail_arg7 (V : Valuation τ sig (Elt F)) : after opsTail V (Proc.devRef .tc main_arg7) = V (Proc.devRef .tc main_arg7) :=
  opsTail_carry V main_arg7 (by decide)
theorem rTail_arg8 (V : Valuation τ sig (Elt F)) : after opsTail V (Proc.devRef .tc main_arg8) = V (Proc.devRef .tc main_arg8) :=
  opsTail_carry V main_arg8 (by decide)
theorem rTail_arg9 (V : Valuation τ sig (Elt F)) : after opsTail V (Proc.devRef .tc main_arg9) = V (Proc.devRef .tc main_arg9) :=
  opsTail_carry V main_arg9 (by decide)
theorem rTail_arg10 (V : Valuation τ sig (Elt F)) : after opsTail V (Proc.devRef .tc main_arg10) = V (Proc.devRef .tc main_arg10) :=
  opsTail_carry V main_arg10 (by decide)
theorem rTail_arg11 (V : Valuation τ sig (Elt F)) : after opsTail V (Proc.devRef .tc main_arg11) = V (Proc.devRef .tc main_arg11) :=
  opsTail_carry V main_arg11 (by decide)
theorem rTail_arg12 (V : Valuation τ sig (Elt F)) : after opsTail V (Proc.devRef .tc main_arg12) = V (Proc.devRef .tc main_arg12) :=
  opsTail_carry V main_arg12 (by decide)
theorem rTail_arg13 (V : Valuation τ sig (Elt F)) : after opsTail V (Proc.devRef .tc main_arg13) = V (Proc.devRef .tc main_arg13) :=
  opsTail_carry V main_arg13 (by decide)
theorem rTail_arg14 (V : Valuation τ sig (Elt F)) : after opsTail V (Proc.devRef .tc main_arg14) = V (Proc.devRef .tc main_arg14) :=
  opsTail_carry V main_arg14 (by decide)
theorem rTail_arg15 (V : Valuation τ sig (Elt F)) : after opsTail V (Proc.devRef .tc main_arg15) = V (Proc.devRef .tc main_arg15) :=
  opsTail_carry V main_arg15 (by decide)
theorem rTail_arg16 (V : Valuation τ sig (Elt F)) : after opsTail V (Proc.devRef .tc main_arg16) = V (Proc.devRef .tc main_arg16) :=
  opsTail_carry V main_arg16 (by decide)
theorem rTail_arg17 (V : Valuation τ sig (Elt F)) : after opsTail V (Proc.devRef .tc main_arg17) = V (Proc.devRef .tc main_arg17) :=
  opsTail_carry V main_arg17 (by decide)
theorem rTail_arg18 (V : Valuation τ sig (Elt F)) : after opsTail V (Proc.devRef .tc main_arg18) = V (Proc.devRef .tc main_arg18) :=
  opsTail_carry V main_arg18 (by decide)
theorem rTail_arg19 (V : Valuation τ sig (Elt F)) : after opsTail V (Proc.devRef .tc main_arg19) = V (Proc.devRef .tc main_arg19) :=
  opsTail_carry V main_arg19 (by decide)
theorem rTail_arg20 (V : Valuation τ sig (Elt F)) : after opsTail V (Proc.devRef .tc main_arg20) = V (Proc.devRef .tc main_arg20) :=
  opsTail_carry V main_arg20 (by decide)
theorem rTail_arg21 (V : Valuation τ sig (Elt F)) : after opsTail V (Proc.devRef .tc main_arg21) = V (Proc.devRef .tc main_arg21) :=
  opsTail_carry V main_arg21 (by decide)
theorem rTail_arg22 (V : Valuation τ sig (Elt F)) : after opsTail V (Proc.devRef .tc main_arg22) = V (Proc.devRef .tc main_arg22) :=
  opsTail_carry V main_arg22 (by decide)
theorem rTail_arg23 (V : Valuation τ sig (Elt F)) : after opsTail V (Proc.devRef .tc main_arg23) = V (Proc.devRef .tc main_arg23) :=
  opsTail_carry V main_arg23 (by decide)
theorem rTail_arg24 (V : Valuation τ sig (Elt F)) : after opsTail V (Proc.devRef .tc main_arg24) = V (Proc.devRef .tc main_arg24) :=
  opsTail_carry V main_arg24 (by decide)
theorem rTail_arg25 (V : Valuation τ sig (Elt F)) : after opsTail V (Proc.devRef .tc main_arg25) = V (Proc.devRef .tc main_arg25) :=
  opsTail_carry V main_arg25 (by decide)
theorem rTail_arg26 (V : Valuation τ sig (Elt F)) : after opsTail V (Proc.devRef .tc main_arg26) = V (Proc.devRef .tc main_arg26) :=
  opsTail_carry V main_arg26 (by decide)
theorem rTail_src (V : Valuation τ sig (Elt F)) : after opsTail V (Proc.devRef .tc main_v1) = V (Proc.devRef .tc main_v1) :=
  opsTail_carry V main_v1 (by decide)
theorem rTail_dst (V : Valuation τ sig (Elt F)) : after opsTail V (Proc.devRef .tc main_v3) = V (Proc.devRef .tc main_v3) :=
  opsTail_carry V main_v3 (by decide)

/-! ### The program's arguments after the whole program -/

theorem ref_arg0 (V : Valuation τ sig (Elt F)) : after ops V (Proc.devRef .tc main_arg0) = V (Proc.devRef .tc main_arg0) :=
  ops_carry V main_arg0 (by decide)
theorem ref_arg1 (V : Valuation τ sig (Elt F)) : after ops V (Proc.devRef .tc main_arg1) = V (Proc.devRef .tc main_arg1) :=
  ops_carry V main_arg1 (by decide)
theorem ref_arg2 (V : Valuation τ sig (Elt F)) : after ops V (Proc.devRef .tc main_arg2) = V (Proc.devRef .tc main_arg2) :=
  ops_carry V main_arg2 (by decide)
theorem ref_arg3 (V : Valuation τ sig (Elt F)) : after ops V (Proc.devRef .tc main_arg3) = V (Proc.devRef .tc main_arg3) :=
  ops_carry V main_arg3 (by decide)
theorem ref_arg4 (V : Valuation τ sig (Elt F)) : after ops V (Proc.devRef .tc main_arg4) = V (Proc.devRef .tc main_arg4) :=
  ops_carry V main_arg4 (by decide)
theorem ref_arg5 (V : Valuation τ sig (Elt F)) : after ops V (Proc.devRef .tc main_arg5) = V (Proc.devRef .tc main_arg5) :=
  ops_carry V main_arg5 (by decide)
theorem ref_arg6 (V : Valuation τ sig (Elt F)) : after ops V (Proc.devRef .tc main_arg6) = V (Proc.devRef .tc main_arg6) :=
  ops_carry V main_arg6 (by decide)
theorem ref_arg7 (V : Valuation τ sig (Elt F)) : after ops V (Proc.devRef .tc main_arg7) = V (Proc.devRef .tc main_arg7) :=
  ops_carry V main_arg7 (by decide)
theorem ref_arg8 (V : Valuation τ sig (Elt F)) : after ops V (Proc.devRef .tc main_arg8) = V (Proc.devRef .tc main_arg8) :=
  ops_carry V main_arg8 (by decide)
theorem ref_arg9 (V : Valuation τ sig (Elt F)) : after ops V (Proc.devRef .tc main_arg9) = V (Proc.devRef .tc main_arg9) :=
  ops_carry V main_arg9 (by decide)
theorem ref_arg10 (V : Valuation τ sig (Elt F)) : after ops V (Proc.devRef .tc main_arg10) = V (Proc.devRef .tc main_arg10) :=
  ops_carry V main_arg10 (by decide)
theorem ref_arg11 (V : Valuation τ sig (Elt F)) : after ops V (Proc.devRef .tc main_arg11) = V (Proc.devRef .tc main_arg11) :=
  ops_carry V main_arg11 (by decide)
theorem ref_arg12 (V : Valuation τ sig (Elt F)) : after ops V (Proc.devRef .tc main_arg12) = V (Proc.devRef .tc main_arg12) :=
  ops_carry V main_arg12 (by decide)
theorem ref_arg13 (V : Valuation τ sig (Elt F)) : after ops V (Proc.devRef .tc main_arg13) = V (Proc.devRef .tc main_arg13) :=
  ops_carry V main_arg13 (by decide)
theorem ref_arg14 (V : Valuation τ sig (Elt F)) : after ops V (Proc.devRef .tc main_arg14) = V (Proc.devRef .tc main_arg14) :=
  ops_carry V main_arg14 (by decide)
theorem ref_arg15 (V : Valuation τ sig (Elt F)) : after ops V (Proc.devRef .tc main_arg15) = V (Proc.devRef .tc main_arg15) :=
  ops_carry V main_arg15 (by decide)
theorem ref_arg16 (V : Valuation τ sig (Elt F)) : after ops V (Proc.devRef .tc main_arg16) = V (Proc.devRef .tc main_arg16) :=
  ops_carry V main_arg16 (by decide)
theorem ref_arg17 (V : Valuation τ sig (Elt F)) : after ops V (Proc.devRef .tc main_arg17) = V (Proc.devRef .tc main_arg17) :=
  ops_carry V main_arg17 (by decide)
theorem ref_arg18 (V : Valuation τ sig (Elt F)) : after ops V (Proc.devRef .tc main_arg18) = V (Proc.devRef .tc main_arg18) :=
  ops_carry V main_arg18 (by decide)
theorem ref_arg19 (V : Valuation τ sig (Elt F)) : after ops V (Proc.devRef .tc main_arg19) = V (Proc.devRef .tc main_arg19) :=
  ops_carry V main_arg19 (by decide)
theorem ref_arg20 (V : Valuation τ sig (Elt F)) : after ops V (Proc.devRef .tc main_arg20) = V (Proc.devRef .tc main_arg20) :=
  ops_carry V main_arg20 (by decide)
theorem ref_arg21 (V : Valuation τ sig (Elt F)) : after ops V (Proc.devRef .tc main_arg21) = V (Proc.devRef .tc main_arg21) :=
  ops_carry V main_arg21 (by decide)
theorem ref_arg22 (V : Valuation τ sig (Elt F)) : after ops V (Proc.devRef .tc main_arg22) = V (Proc.devRef .tc main_arg22) :=
  ops_carry V main_arg22 (by decide)
theorem ref_arg23 (V : Valuation τ sig (Elt F)) : after ops V (Proc.devRef .tc main_arg23) = V (Proc.devRef .tc main_arg23) :=
  ops_carry V main_arg23 (by decide)
theorem ref_arg24 (V : Valuation τ sig (Elt F)) : after ops V (Proc.devRef .tc main_arg24) = V (Proc.devRef .tc main_arg24) :=
  ops_carry V main_arg24 (by decide)
theorem ref_arg25 (V : Valuation τ sig (Elt F)) : after ops V (Proc.devRef .tc main_arg25) = V (Proc.devRef .tc main_arg25) :=
  ops_carry V main_arg25 (by decide)
theorem ref_arg26 (V : Valuation τ sig (Elt F)) : after ops V (Proc.devRef .tc main_arg26) = V (Proc.devRef .tc main_arg26) :=
  ops_carry V main_arg26 (by decide)

end Cert.ReferenceIdeal.RefValue

end
-- ==== Proof.RefStage0.lean ====
/-
  The first layer of the reference as a value: the fold of its operations at the layer's result buffer is the
  layer function of the launch contents. The operations are the layer function's own, in the same order, so
  once each operation's result is read off at its buffer the two sides are the same composition.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

/-- Row 0 of the edge table, as the first layer leaves it in its buffer. -/
theorem r0_src (V : Valuation τ sig (Elt F)) : after opsL0 V main_v1 = Cert.Spec.srcOf (V main_arg1) := by
  after_results_simp
  rfl

/-- Row 1 of the edge table. -/
theorem r0_dst (V : Valuation τ sig (Elt F)) : after opsL0 V main_v3 = Cert.Spec.dstOf (V main_arg1) := by
  after_results_simp
  rfl

set_option maxHeartbeats 4000000 in
/-- The first layer's result: embedding, projection, aggregation over the edges, gated update, normalisation. -/
theorem r0 (V : Valuation τ sig (Elt F)) :
    after opsL0 V main_v93 = Cert.Spec.x0 (V main_arg0) (Cert.Spec.srcOf (V main_arg1)) (Cert.Spec.dstOf (V main_arg1))
      (V main_arg5) (V main_arg8) (V main_arg9) (V main_arg10) (V main_arg11) (V main_arg12) (V main_arg13) (V main_arg14) := by
  after_results_simp
  rfl

end Cert.ReferenceIdeal.RefValue

end
-- ==== Proof.RefStage1.lean ====
/-
  Layer 2 of the reference as a value: the fold of its operations at the layer's result buffer is the layer
  function of the previous layer's result, the edge endpoints and the weights as the stretch finds them.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 4000000 in
/-- The layer's result: the linear map of the previous features beside this layer's embedding, then projection,
    aggregation over the edges, gated update, normalisation. -/
theorem r1 (V : Valuation τ sig (Elt F)) :
    after opsL1 V main_v192 = Cert.Spec.x1 (V main_v93) (V main_arg0) (V main_v1) (V main_v3)
      (V main_arg5) (V main_arg6) (V main_arg7) (V main_arg8) (V main_arg9) (V main_arg10) (V main_arg11) (V main_arg12)
      (V main_arg13) (V main_arg14) := by
  after_results_simp
  rfl

end Cert.ReferenceIdeal.RefValue

end
-- ==== Proof.RefStage2.lean ====
/-
  Layer 3 of the reference as a value: the fold of its operations at the layer's result buffer is the layer
  function of the previous layer's result, the edge endpoints and the weights as the stretch finds them.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 4000000 in
/-- The layer's result: the linear map of the previous features beside this layer's embedding, then projection,
    aggregation over the edges, gated update, normalisation. -/
theorem r2 (V : Valuation τ sig (Elt F)) :
    after opsL2 V main_v291 = Cert.Spec.x2 (V main_v192) (V main_arg0) (V main_v1) (V main_v3)
      (V main_arg5) (V main_arg6) (V main_arg7) (V main_arg8) (V main_arg9) (V main_arg10) (V main_arg11) (V main_arg12)
      (V main_arg13) (V main_arg14) := by
  after_results_simp
  rfl

end Cert.ReferenceIdeal.RefValue

end
-- ==== Proof.RefStage3.lean ====
/-
  Layer 4 of the reference as a value: the fold of its operations at the layer's result buffer is the layer
  function of the previous layer's result, the edge endpoints and the weights as the stretch finds them.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 4000000 in
/-- The layer's result: the linear map of the previous features beside this layer's embedding, then projection,
    aggregation over the edges, gated update, normalisation. -/
theorem r3 (V : Valuation τ sig (Elt F)) :
    after opsL3 V main_v390 = Cert.Spec.x3 (V main_v291) (V main_arg0) (V main_v1) (V main_v3)
      (V main_arg5) (V main_arg6) (V main_arg7) (V main_arg8) (V main_arg9) (V main_arg10) (V main_arg11) (V main_arg12)
      (V main_arg13) (V main_arg14) := by
  after_results_simp
  rfl

end Cert.ReferenceIdeal.RefValue

end
-- ==== Proof.RefStage4.lean ====
/-
  Layer 5 of the reference as a value: the fold of its operations at the layer's result buffer is the layer
  function of the previous layer's result, the edge endpoints and the weights as the stretch finds them.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 4000000 in
/-- The layer's result: the linear map of the previous features beside this layer's embedding, then projection,
    aggregation over the edges, gated update, normalisation. -/
theorem r4 (V : Valuation τ sig (Elt F)) :
    after opsL4 V main_v489 = Cert.Spec.x4 (V main_v390) (V main_arg0) (V main_v1) (V main_v3)
      (V main_arg5) (V main_arg6) (V main_arg7) (V main_arg8) (V main_arg9) (V main_arg10) (V main_arg11) (V main_arg12)
      (V main_arg13) (V main_arg14) := by
  after_results_simp
  rfl

end Cert.ReferenceIdeal.RefValue

end
-- ==== Proof.RefStageTail.lean ====
/-
  Everything after the fifth layer of the reference as a value: the three poolings with their two-layer
  perceptrons and the normalised linear head, read off the stretch's operations.
-/
import proofs.«425927_j69028714381396_2_alg».proof.Proof.RefOps
import proofs.«425927_j69028714381396_2_alg».proof.Proof.Spec

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 4000000 in
/-- The program's result from the fifth layer's: pool to 16000, 1600 and 160 groups with a two-layer perceptron after
    each of the first two poolings, then the linear layer with its exponential unit and the normalised linear head. -/
theorem rTail (V : Valuation τ sig (Elt F)) :
    after opsTail V main_v538 = Cert.Spec.tail (V main_v489) (V main_arg2) (V main_arg3) (V main_arg4)
      (V main_arg15) (V main_arg16) (V main_arg17) (V main_arg18) (V main_arg19) (V main_arg20) (V main_arg21) (V main_arg22)
      (V main_arg23) (V main_arg24) (V main_arg25) (V main_arg26) := by
  after_results_simp
  rfl

end Cert.ReferenceIdeal.RefValue

end
-- ==== Proof.RefValue.lean ====
/-
  The reference program as a value: the fold of all its operations at its result buffer is the five layers and
  the pooling tail composed, each layer reading the previous layer's result, the two edge-endpoint vectors the
  first stretch computes, and the program's arguments, which no stretch writes.
-/
import proofs.«425927_j69028714381396_2_alg».proof.Proof.RefCarry
import proofs.«425927_j69028714381396_2_alg».proof.Proof.RefStage0
import proofs.«425927_j69028714381396_2_alg».proof.Proof.RefStage1
import proofs.«425927_j69028714381396_2_alg».proof.Proof.RefStage2
import proofs.«425927_j69028714381396_2_alg».proof.Proof.RefStage3
import proofs.«425927_j69028714381396_2_alg».proof.Proof.RefStage4
import proofs.«425927_j69028714381396_2_alg».proof.Proof.RefStageTail

noncomputable section

namespace Cert.ReferenceIdeal.RefValue

open Cert.ReferenceIdeal Cert.ReferenceIdeal.RefRun Idealize.ShloMosaic Idealize.ShloMosaic.TcCoe Idealize.ShloMosaic.StableHlo

variable {F : FTy → Type} [FloatOps F]

set_option maxHeartbeats 1000000 in
/-- The program's result. Each stretch's result is its stage function of what the stretch finds (the stage
    lemmas); what it finds is the previous stretch's result, or a buffer every stretch in between leaves alone:
    the arguments throughout, and the edge endpoints from the first stretch on. -/
theorem ref_value (V : Valuation τ sig (Elt F)) :
    after ops V main_v538 = Cert.Spec.tail
      (Cert.Spec.x4 (Cert.Spec.x3 (Cert.Spec.x2 (Cert.Spec.x1
        (Cert.Spec.x0 (V main_arg0) (Cert.Spec.srcOf (V main_arg1)) (Cert.Spec.dstOf (V main_arg1)) (V main_arg5) (V main_arg8) (V main_arg9) (V main_arg10) (V main_arg11) (V main_arg12) (V main_arg13) (V main_arg14))
        (V main_arg0) (Cert.Spec.srcOf (V main_arg1)) (Cert.Spec.dstOf (V main_arg1)) (V main_arg5) (V main_arg6) (V main_arg7) (V main_arg8) (V main_arg9) (V main_arg10) (V main_arg11) (V main_arg12) (V main_arg13) (V main_arg14))
        (V main_arg0) (Cert.Spec.srcOf (V main_arg1)) (Cert.Spec.dstOf (V main_arg1)) (V main_arg5) (V main_arg6) (V main_arg7) (V main_arg8) (V main_arg9) (V main_arg10) (V main_arg11) (V main_arg12) (V main_arg13) (V main_arg14))
        (V main_arg0) (Cert.Spec.srcOf (V main_arg1)) (Cert.Spec.dstOf (V main_arg1)) (V main_arg5) (V main_arg6) (V main_arg7) (V main_arg8) (V main_arg9) (V main_arg10) (V main_arg11) (V main_arg12) (V main_arg13) (V main_arg14))
        (V main_arg0) (Cert.Spec.srcOf (V main_arg1)) (Cert.Spec.dstOf (V main_arg1)) (V main_arg5) (V main_arg6) (V main_arg7) (V main_arg8) (V main_arg9) (V main_arg10) (V main_arg11) (V main_arg12) (V main_arg13) (V main_arg14))
      (V main_arg2) (V main_arg3) (V main_arg4) (V main_arg15) (V main_arg16) (V main_arg17) (V main_arg18) (V main_arg19) (V main_arg20) (V main_arg21) (V main_arg22) (V main_arg23) (V main_arg24) (V main_arg25) (V main_arg26) := by
  rw [ops_after, rTail, r4, r3, r2, r1, r0]
  simp (disch := decide) only [opsL4_carry', opsL3_carry', opsL2_carry', opsL1_carry', opsL0_carry']
  rw [r0_src, r0_dst]

/-- The same with the composition under its one name. -/
theorem ref_value_all (V : Valuation τ sig (Elt F)) :
    after ops V main_v538 = Cert.Spec.all (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) (V main_arg25) (V main_arg26) :=
  ref_value V

end Cert.ReferenceIdeal.RefValue

end
-- ==== Proof.Claims.lean ====
/-
  The five claims. The two kernel-program frames are the generated ones. The reference's frame is its run with the
  result dropped. The value claim: the kernel program's result buffer ends at the fold's last valuation, which the
  stage lemmas rewrite, tail first and layer by layer down to the launch contents, into the reference's composition
  of stage functions of the argument arrays; the reference's run ends at the same composition of its own argument
  arrays, which agree with the kernel program's.
-/
import proofs.«425927_j69028714381396_2_alg».proof.Defs
import proofs.«425927_j69028714381396_2_alg».proof.Proof.Gen.Kernel.Frame
import proofs.«425927_j69028714381396_2_alg».proof.Proof.FrameKIF
import proofs.«425927_j69028714381396_2_alg».proof.Proof.Gen.ReferenceIdeal
import proofs.«425927_j69028714381396_2_alg».proof.Proof.Gen.Pre_finite_inputs
import proofs.«425927_j69028714381396_2_alg».proof.Proof.Spec
import proofs.«425927_j69028714381396_2_alg».proof.Proof.PreZ
import proofs.«425927_j69028714381396_2_alg».proof.Proof.KernelRun
import proofs.«425927_j69028714381396_2_alg».proof.Proof.KStage0
import proofs.«425927_j69028714381396_2_alg».proof.Proof.KStage1
import proofs.«425927_j69028714381396_2_alg».proof.Proof.KStage2
import proofs.«425927_j69028714381396_2_alg».proof.Proof.KStage3
import proofs.«425927_j69028714381396_2_alg».proof.Proof.KStage4
import proofs.«425927_j69028714381396_2_alg».proof.Proof.KTail
import proofs.«425927_j69028714381396_2_alg».proof.Proof.RefRun
import proofs.«425927_j69028714381396_2_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run, every buffer at the fold of its operations over the launch contents; no operation writes an
    argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.ref_arg0 _),
     (h c Cert.ReferenceIdeal.main_arg1).trans (Cert.ReferenceIdeal.RefValue.ref_arg1 _),
     (h c Cert.ReferenceIdeal.main_arg2).trans (Cert.ReferenceIdeal.RefValue.ref_arg2 _),
     (h c Cert.ReferenceIdeal.main_arg3).trans (Cert.ReferenceIdeal.RefValue.ref_arg3 _),
     (h c Cert.ReferenceIdeal.main_arg4).trans (Cert.ReferenceIdeal.RefValue.ref_arg4 _),
     (h c Cert.ReferenceIdeal.main_arg5).trans (Cert.ReferenceIdeal.RefValue.ref_arg5 _),
     (h c Cert.ReferenceIdeal.main_arg6).trans (Cert.ReferenceIdeal.RefValue.ref_arg6 _),
     (h c Cert.ReferenceIdeal.main_arg7).trans (Cert.ReferenceIdeal.RefValue.ref_arg7 _),
     (h c Cert.ReferenceIdeal.main_arg8).trans (Cert.ReferenceIdeal.RefValue.ref_arg8 _),
     (h c Cert.ReferenceIdeal.main_arg9).trans (Cert.ReferenceIdeal.RefValue.ref_arg9 _),
     (h c Cert.ReferenceIdeal.main_arg10).trans (Cert.ReferenceIdeal.RefValue.ref_arg10 _),
     (h c Cert.ReferenceIdeal.main_arg11).trans (Cert.ReferenceIdeal.RefValue.ref_arg11 _),
     (h c Cert.ReferenceIdeal.main_arg12).trans (Cert.ReferenceIdeal.RefValue.ref_arg12 _),
     (h c Cert.ReferenceIdeal.main_arg13).trans (Cert.ReferenceIdeal.RefValue.ref_arg13 _),
     (h c Cert.ReferenceIdeal.main_arg14).trans (Cert.ReferenceIdeal.RefValue.ref_arg14 _),
     (h c Cert.ReferenceIdeal.main_arg15).trans (Cert.ReferenceIdeal.RefValue.ref_arg15 _),
     (h c Cert.ReferenceIdeal.main_arg16).trans (Cert.ReferenceIdeal.RefValue.ref_arg16 _),
     (h c Cert.ReferenceIdeal.main_arg17).trans (Cert.ReferenceIdeal.RefValue.ref_arg17 _),
     (h c Cert.ReferenceIdeal.main_arg18).trans (Cert.ReferenceIdeal.RefValue.ref_arg18 _),
     (h c Cert.ReferenceIdeal.main_arg19).trans (Cert.ReferenceIdeal.RefValue.ref_arg19 _),
     (h c Cert.ReferenceIdeal.main_arg20).trans (Cert.ReferenceIdeal.RefValue.ref_arg20 _),
     (h c Cert.ReferenceIdeal.main_arg21).trans (Cert.ReferenceIdeal.RefValue.ref_arg21 _),
     (h c Cert.ReferenceIdeal.main_arg22).trans (Cert.ReferenceIdeal.RefValue.ref_arg22 _),
     (h c Cert.ReferenceIdeal.main_arg23).trans (Cert.ReferenceIdeal.RefValue.ref_arg23 _),
     (h c Cert.ReferenceIdeal.main_arg24).trans (Cert.ReferenceIdeal.RefValue.ref_arg24 _),
     (h c Cert.ReferenceIdeal.main_arg25).trans (Cert.ReferenceIdeal.RefValue.ref_arg25 _),
     (h c Cert.ReferenceIdeal.main_arg26).trans (Cert.ReferenceIdeal.RefValue.ref_arg26 _)⟩)
    (Cert.ReferenceIdeal.RefRun.run_main (F := Ideal) m ρ)

/-- The kernel program's result, as the composition of the reference's stage functions of the launch contents. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hz : ∀ i, ((m ((c.tc : Thread Cert.KernelIdeal.nD Cert.KernelIdeal.τ).loc Cert.KernelIdeal.main_arg0) : Vec Ideal Cert.KernelIdeal.S160000x2 .i32) i).toNat < 50) :
    Cert.KernelIdeal.Gen.W50 m ρ c (Proc.devRef .tc Cert.KernelIdeal.main_v237) = Cert.Spec.all (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) := by
  rw [Cert.KernelValue.stageTail m ρ c, Cert.KernelValue.stage4 m ρ c hz, Cert.KernelValue.stage3 m ρ c hz,
    Cert.KernelValue.stage2 m ρ c hz, Cert.KernelValue.stage1 m ρ c hz, Cert.KernelValue.stage0 m ρ c hz]
  rfl

theorem algebraic : Cert.algebraic_KernelIdeal_ReferenceIdeal := by
  intro m ρ m' ρ' hpre hagree
  have hz : ∀ c : Dev Cert.KernelIdeal.nD, ∀ i, ((m ((c.tc : Thread Cert.KernelIdeal.nD Cert.KernelIdeal.τ).loc Cert.KernelIdeal.main_arg0) : Vec Ideal Cert.KernelIdeal.S160000x2 .i32) i).toNat < 50 :=
    fun c => Cert.PreZ.z_lt_50 (F := Ideal) _ _ _ _ _ _ _ _ _ _ _ _ _ _ _ _ _ _ _ _ _ _ _ _ _ _ _ (hpre c)
  refine ⟨fun c => Cert.Spec.all (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run Cert.KernelIdeal.defs _ _).mono
      (fun r h c => ⟨(h c).1.trans (kernel_value m ρ c (hz c)), (h c).2⟩)
      (Cert.KernelIdeal.RunValue.run_value (F := Ideal) m ρ)
  · refine (θ_run Cert.ReferenceIdeal.defs _ _).mono (fun r h c => ⟨?_,
      (h c Cert.ReferenceIdeal.main_arg0).trans (Cert.ReferenceIdeal.RefValue.ref_arg0 _),
      (h c Cert.ReferenceIdeal.main_arg1).trans (Cert.ReferenceIdeal.RefValue.ref_arg1 _),
      (h c Cert.ReferenceIdeal.main_arg2).trans (Cert.ReferenceIdeal.RefValue.ref_arg2 _),
      (h c Cert.ReferenceIdeal.main_arg3).trans (Cert.ReferenceIdeal.RefValue.ref_arg3 _),
      (h c Cert.ReferenceIdeal.main_arg4).trans (Cert.ReferenceIdeal.RefValue.ref_arg4 _),
      (h c Cert.ReferenceIdeal.main_arg5).trans (Cert.ReferenceIdeal.RefValue.ref_arg5 _),
      (h c Cert.ReferenceIdeal.main_arg6).trans (Cert.ReferenceIdeal.RefValue.ref_arg6 _),
      (h c Cert.ReferenceIdeal.main_arg7).trans (Cert.ReferenceIdeal.RefValue.ref_arg7 _),
      (h c Cert.ReferenceIdeal.main_arg8).trans (Cert.ReferenceIdeal.RefValue.ref_arg8 _),
      (h c Cert.ReferenceIdeal.main_arg9).trans (Cert.ReferenceIdeal.RefValue.ref_arg9 _),
      (h c Cert.ReferenceIdeal.main_arg10).trans (Cert.ReferenceIdeal.RefValue.ref_arg10 _),
      (h c Cert.ReferenceIdeal.main_arg11).trans (Cert.ReferenceIdeal.RefValue.ref_arg11 _),
      (h c Cert.ReferenceIdeal.main_arg12).trans (Cert.ReferenceIdeal.RefValue.ref_arg12 _),
      (h c Cert.ReferenceIdeal.main_arg13).trans (Cert.ReferenceIdeal.RefValue.ref_arg13 _),
      (h c Cert.ReferenceIdeal.main_arg14).trans (Cert.ReferenceIdeal.RefValue.ref_arg14 _),
      (h c Cert.ReferenceIdeal.main_arg15).trans (Cert.ReferenceIdeal.RefValue.ref_arg15 _),
      (h c Cert.ReferenceIdeal.main_arg16).trans (Cert.ReferenceIdeal.RefValue.ref_arg16 _),
      (h c Cert.ReferenceIdeal.main_arg17).trans (Cert.ReferenceIdeal.RefValue.ref_arg17 _),
      (h c Cert.ReferenceIdeal.main_arg18).trans (Cert.ReferenceIdeal.RefValue.ref_arg18 _),
      (h c Cert.ReferenceIdeal.main_arg19).trans (Cert.ReferenceIdeal.RefValue.ref_arg19 _),
      (h c Cert.ReferenceIdeal.main_arg20).trans (Cert.ReferenceIdeal.RefValue.ref_arg20 _),
      (h c Cert.ReferenceIdeal.main_arg21).trans (Cert.ReferenceIdeal.RefValue.ref_arg21 _),
      (h c Cert.ReferenceIdeal.main_arg22).trans (Cert.ReferenceIdeal.RefValue.ref_arg22 _),
      (h c Cert.ReferenceIdeal.main_arg23).trans (Cert.ReferenceIdeal.RefValue.ref_arg23 _),
      (h c Cert.ReferenceIdeal.main_arg24).trans (Cert.ReferenceIdeal.RefValue.ref_arg24 _),
      (h c Cert.ReferenceIdeal.main_arg25).trans (Cert.ReferenceIdeal.RefValue.ref_arg25 _),
      (h c Cert.ReferenceIdeal.main_arg26).trans (Cert.ReferenceIdeal.RefValue.ref_arg26 _)⟩)
      (Cert.ReferenceIdeal.RefRun.run_main (F := Ideal) m' ρ')
    rw [h c Cert.ReferenceIdeal.main_v538, Cert.ReferenceIdeal.RefValue.ref_value_all]
    obtain ⟨e0, e1, e2, e3, e4, e5, e6, e7, e8, e9, e10, e11, e12, e13, e14, e15, e16, e17, e18, e19, e20, e21, e22, e23, e24, e25, e26⟩ := hagree c
    show Cert.Spec.all (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) = _
    rw [e0, e1, e2, e3, e4, e5, e6, e7, e8, e9, e10, e11, e12, e13, e14, e15, e16, e17, e18, e19, e20, e21, e22, e23, e24, e25, e26]

end Cert.Proof.Claims

end
-- ==== Proof.lean ====
/-
  The certificate's claim. The kernel program is five layers of three kernels each — an embedding lookup written as a
  one-hot matrix product (with, from the second layer on, the linear map of the previous features beside it) and the
  message projection; the gated update; the batch normalisation — with the edge gather / scatter-add and the column
  statistics between them on the host, then three scatter-add poolings with two two-layer perceptrons and a normalised
  linear head. The reference is the same network in host operations, its embedding a gather. Under the precondition
  (finite weights, every embedding index in the table's range) the one-hot product selects the gathered row, every
  other kernel is its host counterpart tile by tile, and the two programs end at one composition of stage functions.
-/
import proofs.«425927_j69028714381396_2_alg».proof.Defs
import proofs.«425927_j69028714381396_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
